-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S10000 : Shape := ⟨1, ![10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_
  bcast_S_S10000 : S_.BroadcastsInDim S10000 (![] : Fin 0 → Fin S10000.rank)
  reducesTo_S10000_S_d0 : S10000.ReducesTo [0] S_

variable [Facts]

def fn_part2 {F : FTy → Type} [FloatOps F] (main_arg1 : IVec S2x320000 32) (main_arg2 : IVec S10000 32) (main_v33 : IVec S_ 1) : IVec S_ 1 :=
  let main_c_12 : IVec S_ 32 := constantI S_ 32 0#32
  let main_v34 : IVec S2x320000 32 := broadcastInDim S2x320000 ![] bcast_S_S2x320000 main_c_12
  let main_v35 : IVec S2x320000 1 := cmpi .sge main_arg1 main_v34
  let main_c_13 : IVec S_ 32 := constantI S_ 32 9999#32
  let main_v36 : IVec S2x320000 32 := broadcastInDim S2x320000 ![] bcast_S_S2x320000 main_c_13
  let main_v37 : IVec S2x320000 1 := cmpi .sle main_arg1 main_v36
  let main_v38 : IVec S2x320000 1 := andi main_v35 main_v37
  let main_c_14 : IVec S_ 1 := constantI S_ 1 1#1
  let main_v39 : IVec S_ 1 := (fun x v => Host.reduce IntOp.andi x v reducesTo_S2x320000_S_d0_1 h_S_) main_v38 main_c_14
  let main_v40 : IVec S_ 1 := andi main_v33 main_v39
  let main_c_15 : IVec S_ 32 := constantI S_ 32 0#32
  let main_v41 : IVec S10000 32 := broadcastInDim S10000 ![] bcast_S_S10000 main_c_15
  let main_v42 : IVec S10000 1 := cmpi .sge main_arg2 main_v41
  let main_c_16 : IVec S_ 32 := constantI S_ 32 63#32
  let main_v43 : IVec S10000 32 := broadcastInDim S10000 ![] bcast_S_S10000 main_c_16
  let main_v44 : IVec S10000 1 := cmpi .sle main_arg2 main_v43
  let main_v45 : IVec S10000 1 := andi main_v42 main_v44
  let main_c_17 : IVec S_ 1 := constantI S_ 1 1#1
  let main_v46 : IVec S_ 1 := (fun x v => Host.reduce IntOp.andi x v reducesTo_S10000_S_d0 h_S_) main_v45 main_c_17
  let main_v47 : IVec S_ 1 := andi main_v40 main_v46
  main_v47

def fn_part1 {F : FTy → Type} [FloatOps F] (main_arg1 : IVec S2x320000 32) (main_arg2 : IVec S10000 32) (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg2 main_v33

def fn {F : FTy → Type} [FloatOps F] (main_arg0 : FVec F S10000x128 .f32) (main_arg1 : IVec S2x320000 32) (main_arg2 : IVec S10000 32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg6 main_arg7 main_arg8 main_v13 main_v16
-- ==== Kernel.lean ====
abbrev S10000x128 : Shape := ⟨2, ![10000, 128]⟩
abbrev S2x320000 : Shape := ⟨2, ![2, 320000]⟩
abbrev S10000 : Shape := ⟨1, ![10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S2x160000 : Shape := ⟨2, ![2, 160000]⟩
abbrev S_ : Shape := ⟨0, ![]⟩
abbrev S2x163840 : Shape := ⟨2, ![2, 163840]⟩
abbrev S2x1x163840 : Shape := ⟨3, ![2, 1, 163840]⟩
abbrev S32x10000 : Shape := ⟨2, ![32, 10000]⟩
abbrev S32x10240 : Shape := ⟨2, ![32, 10240]⟩
abbrev S10240 : Shape := ⟨1, ![10240]⟩
abbrev S40064 : Shape := ⟨1, ![40064]⟩
abbrev S1x10000 : Shape := ⟨2, ![1, 10000]⟩
abbrev S1x1 : Shape := ⟨2, ![1, 1]⟩
abbrev S1x10240 : Shape := ⟨2, ![1, 10240]⟩
abbrev S16 : Shape := ⟨1, ![16]⟩
abbrev S10000x32 : Shape := ⟨2, ![10000, 32]⟩
abbrev S64x10000 : Shape := ⟨2, ![64, 10000]⟩
abbrev S64x10016 : Shape := ⟨2, ![64, 10016]⟩
abbrev S16x1x40064 : Shape := ⟨3, ![16, 1, 40064]⟩
abbrev S16x2x1x40064 : Shape := ⟨4, ![16, 2, 1, 40064]⟩
abbrev S8192 : Shape := ⟨1, ![8192]⟩
abbrev S1x1x40064 : Shape := ⟨3, ![1, 1, 40064]⟩
abbrev S1x1x8192 : Shape := ⟨3, ![1, 1, 8192]⟩
abbrev S1x1x1x40064 : Shape := ⟨4, ![1, 1, 1, 40064]⟩
abbrev S16x2x40064 : Shape := ⟨3, ![16, 2, 40064]⟩
abbrev S16x2x4x10016 : Shape := ⟨4, ![16, 2, 4, 10016]⟩
abbrev S16x1x4x10016 : Shape := ⟨4, ![16, 1, 4, 10016]⟩
abbrev S16x4x10016 : Shape := ⟨3, ![16, 4, 10016]⟩
abbrev S10000x1 : Shape := ⟨2, ![10000, 1]⟩
abbrev S1x64 : Shape := ⟨2, ![1, 64]⟩
abbrev S10000x64 : Shape := ⟨2, ![10000, 64]⟩

abbrev nBuf : Table → Nat
  | .hbm => 71
  | .local .tc .vmem => 20
  | .local .scVector .vmem => 14
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S2x160000, .i32⟩
  | .hbm, ⟨14, _⟩ => ⟨S_, .i32⟩
  | .hbm, ⟨15, _⟩ => ⟨S_, .i32⟩
  | .hbm, ⟨16, _⟩ => ⟨S2x163840, .i32⟩
  | .hbm, ⟨17, _⟩ => ⟨S2x1x163840, .i32⟩
  | .hbm, ⟨18, _⟩ => ⟨S2x160000, .i32⟩
  | .hbm, ⟨19, _⟩ => ⟨S_, .i32⟩
  | .hbm, ⟨20, _⟩ => ⟨S_, .i32⟩
  | .hbm, ⟨21, _⟩ => ⟨S2x163840, .i32⟩
  | .hbm, ⟨22, _⟩ => ⟨S2x1x163840, .i32⟩
  | .hbm, ⟨23, _⟩ => ⟨S32x10000, .i32⟩
  | .hbm, ⟨24, _⟩ => ⟨S_, .i32⟩
  | .hbm, ⟨25, _⟩ => ⟨S_, .i32⟩
  | .hbm, ⟨26, _⟩ => ⟨S32x10240, .i32⟩
  | .hbm, ⟨27, _⟩ => ⟨S_, .f32⟩
  | .hbm, ⟨28, _⟩ => ⟨S10240, .f32⟩
  | .hbm, ⟨29, _⟩ => ⟨S_, .f32⟩
  | .hbm, ⟨30, _⟩ => ⟨S40064, .f32⟩
  | .hbm, ⟨31, _⟩ => ⟨S1x10000, .i32⟩
  | .hbm, ⟨32, _⟩ => ⟨S64x1, .f32⟩
  | .hbm, ⟨33, _⟩ => ⟨S64x1, .f32⟩
  | .hbm, ⟨34, _⟩ => ⟨S1x1, .f32⟩
  | .hbm, ⟨35, _⟩ => ⟨S32x10240, .f32⟩
  | .hbm, ⟨36, _⟩ => ⟨S32x10000, .f32⟩
  | .hbm, ⟨37, _⟩ => ⟨S10000x32, .f32⟩
  | .hbm, ⟨38, _⟩ => ⟨S64x10000, .f32⟩
  | .hbm, ⟨39, _⟩ => ⟨S_, .i32⟩
  | .hbm, ⟨40, _⟩ => ⟨S_, .f32⟩
  | .hbm, ⟨41, _⟩ => ⟨S64x10016, .f32⟩
  | .hbm, ⟨42, _⟩ => ⟨S16x1x40064, .f32⟩
  | .hbm, ⟨43, _⟩ => ⟨S16x2x1x40064, .f32⟩
  | .hbm, ⟨44, _⟩ => ⟨S16x2x40064, .f32⟩
  | .hbm, ⟨45, _⟩ => ⟨S16x2x4x10016, .f32⟩
  | .hbm, ⟨46, _⟩ => ⟨S16x1x4x10016, .f32⟩
  | .hbm, ⟨47, _⟩ => ⟨S16x4x10016, .f32⟩
  | .hbm, ⟨48, _⟩ => ⟨S64x10016, .f32⟩
  | .hbm, ⟨49, _⟩ => ⟨S64x10000, .f32⟩
  | .hbm, ⟨50, _⟩ => ⟨S16x1x4x10016, .f32⟩
  | .hbm, ⟨51, _⟩ => ⟨S16x4x10016, .f32⟩
  | .hbm, ⟨52, _⟩ => ⟨S64x10016, .f32⟩
  | .hbm, ⟨53, _⟩ => ⟨S64x10000, .f32⟩
  | .hbm, ⟨54, _⟩ => ⟨S64x10000, .f32⟩
  | .hbm, ⟨55, _⟩ => ⟨S_, .i32⟩
  | .hbm, ⟨56, _⟩ => ⟨S_, .f32⟩
  | .hbm, ⟨57, _⟩ => ⟨S64x10016, .f32⟩
  | .hbm, ⟨58, _⟩ => ⟨S16x1x40064, .f32⟩
  | .hbm, ⟨59, _⟩ => ⟨S16x2x1x40064, .f32⟩
  | .hbm, ⟨60, _⟩ => ⟨S16x2x40064, .f32⟩
  | .hbm, ⟨61, _⟩ => ⟨S16x2x4x10016, .f32⟩
  | .hbm, ⟨62, _⟩ => ⟨S16x1x4x10016, .f32⟩
  | .hbm, ⟨63, _⟩ => ⟨S16x4x10016, .f32⟩
  | .hbm, ⟨64, _⟩ => ⟨S64x10016, .f32⟩
  | .hbm, ⟨65, _⟩ => ⟨S64x10000, .f32⟩
  | .hbm, ⟨66, _⟩ => ⟨S16x1x4x10016, .f32⟩
  | .hbm, ⟨67, _⟩ => ⟨S16x4x10016, .f32⟩
  | .hbm, ⟨68, _⟩ => ⟨S64x10016, .f32⟩
  | .hbm, ⟨69, _⟩ => ⟨S64x10000, .f32⟩
  | .hbm, ⟨70, _⟩ => ⟨S64x1, .f32⟩
  | .local .tc .vmem, ⟨0, _⟩ => ⟨S10000x128, .f32⟩
  | .local .tc .vmem, ⟨1, _⟩ => ⟨S128x64, .f32⟩
  | .local .tc .vmem, ⟨2, _⟩ => ⟨S10000x32, .f32⟩
  | .local .tc .vmem, ⟨3, _⟩ => ⟨S64x10000, .f32⟩
  | .local .tc .vmem, ⟨4, _⟩ => ⟨S64x10000, .f32⟩
  | .local .tc .vmem, ⟨5, _⟩ => ⟨S64x10000, .f32⟩
  | .local .tc .vmem, ⟨6, _⟩ => ⟨S64x10000, .f32⟩
  | .local .tc .vmem, ⟨7, _⟩ => ⟨S10000x32, .f32⟩
  | .local .tc .vmem, ⟨8, _⟩ => ⟨S64x1, .f32⟩
  | .local .tc .vmem, ⟨9, _⟩ => ⟨S64x64, .f32⟩
  | .local .tc .vmem, ⟨10, _⟩ => ⟨S64x10000, .f32⟩
  | .local .tc .vmem, ⟨11, _⟩ => ⟨S64x10000, .f32⟩
  | .local .tc .vmem, ⟨12, _⟩ => ⟨S64x10000, .f32⟩
  | .local .tc .vmem, ⟨13, _⟩ => ⟨S64x10000, .f32⟩
  | .local .tc .vmem, ⟨14, _⟩ => ⟨S10000x32, .f32⟩
  | .local .tc .vmem, ⟨15, _⟩ => ⟨S64x1, .f32⟩
  | .local .tc .vmem, ⟨16, _⟩ => ⟨S1x10000, .i32⟩
  | .local .tc .vmem, ⟨17, _⟩ => ⟨S64x1, .f32⟩
  | .local .tc .vmem, ⟨18, _⟩ => ⟨S1x1, .f32⟩
  | .local .tc .vmem, ⟨19, _⟩ => ⟨S64x1, .f32⟩
  | .local .scVector .vmem, ⟨0, _⟩ => ⟨S10240, .f32⟩
  | .local .scVector .vmem, ⟨1, _⟩ => ⟨S10240, .i32⟩
  | .local .scVector .vmem, ⟨2, _⟩ => ⟨S40064, .f32⟩
  | .local .scVector .vmem, ⟨3, _⟩ => ⟨S40064, .f32⟩
  | .local .scVector .vmem, ⟨4, _⟩ => ⟨S8192, .i32⟩
  | .local .scVector .vmem, ⟨5, _⟩ => ⟨S8192, .i32⟩
  | .local .scVector .vmem, ⟨6, _⟩ => ⟨S8192, .i32⟩
  | .local .scVector .vmem, ⟨7, _⟩ => ⟨S8192, .i32⟩
  | .local .scVector .vmem, ⟨8, _⟩ => ⟨S40064, .f32⟩
  | .local .scVector .vmem, ⟨9, _⟩ => ⟨S40064, .f32⟩
  | .local .scVector .vmem, ⟨10, _⟩ => ⟨S8192, .i32⟩
  | .local .scVector .vmem, ⟨11, _⟩ => ⟨S8192, .i32⟩
  | .local .scVector .vmem, ⟨12, _⟩ => ⟨S8192, .i32⟩
  | .local .scVector .vmem, ⟨13, _⟩ => ⟨S8192, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_call2_v0 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_call3_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_call4_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v11_scv : Ref sig .scVector := ⟨.hbm, 26, rfl⟩
abbrev main_v12_scv : Ref sig .scVector := ⟨.hbm, 28, rfl⟩
abbrev main_v18_scv : Ref sig .scVector := ⟨.hbm, 35, rfl⟩
abbrev main_v23_scv : Ref sig .scVector := ⟨.hbm, 42, rfl⟩
abbrev main_v6_scv : Ref sig .scVector := ⟨.hbm, 17, rfl⟩
abbrev main_v9_scv : Ref sig .scVector := ⟨.hbm, 22, rfl⟩
abbrev main_v13_scv : Ref sig .scVector := ⟨.hbm, 30, rfl⟩
abbrev main_v24_scv : Ref sig .scVector := ⟨.hbm, 43, rfl⟩
abbrev main_v37_scv : Ref sig .scVector := ⟨.hbm, 58, rfl⟩
abbrev main_v38_scv : Ref sig .scVector := ⟨.hbm, 59, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc3_stg0_0 : Ref sig .tc := ⟨.vmem, 4, rfl⟩
abbrev cc3_stg1_0 : Ref sig .tc := ⟨.vmem, 5, rfl⟩
abbrev cc3_stg2_0 : Ref sig .tc := ⟨.vmem, 6, rfl⟩
abbrev cc3_stg3_0 : Ref sig .tc := ⟨.vmem, 7, rfl⟩
abbrev cc3_stg4_0 : Ref sig .tc := ⟨.vmem, 8, rfl⟩
abbrev cc3_stg5_0 : Ref sig .tc := ⟨.vmem, 9, rfl⟩
abbrev cc3_stg6_0 : Ref sig .tc := ⟨.vmem, 10, rfl⟩
abbrev cc5_stg0_0 : Ref sig .tc := ⟨.vmem, 11, rfl⟩
abbrev cc5_stg1_0 : Ref sig .tc := ⟨.vmem, 12, rfl⟩
abbrev cc5_stg2_0 : Ref sig .tc := ⟨.vmem, 13, rfl⟩
abbrev cc5_stg3_0 : Ref sig .tc := ⟨.vmem, 14, rfl⟩
abbrev cc5_stg4_0 : Ref sig .tc := ⟨.vmem, 15, rfl⟩
abbrev cc5_stg5_0 : Ref sig .tc := ⟨.vmem, 16, rfl⟩
abbrev cc5_stg6_0 : Ref sig .tc := ⟨.vmem, 17, rfl⟩
abbrev cc5_stg7_0 : Ref sig .tc := ⟨.vmem, 18, rfl⟩
abbrev cc5_stg8_0 : Ref sig .tc := ⟨.vmem, 19, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc2_scratch2 : Ref sig .scVector := ⟨.vmem, 4, rfl⟩
abbrev cc2_scratch3 : Ref sig .scVector := ⟨.vmem, 5, rfl⟩
abbrev cc2_scratch4 : Ref sig .scVector := ⟨.vmem, 6, rfl⟩
abbrev cc2_scratch5 : Ref sig .scVector := ⟨.vmem, 7, rfl⟩
abbrev cc4_scratch0 : Ref sig .scVector := ⟨.vmem, 8, rfl⟩
abbrev cc4_scratch1 : Ref sig .scVector := ⟨.vmem, 9, rfl⟩
abbrev cc4_scratch2 : Ref sig .scVector := ⟨.vmem, 10, rfl⟩
abbrev cc4_scratch3 : Ref sig .scVector := ⟨.vmem, 11, rfl⟩
abbrev cc4_scratch4 : Ref sig .scVector := ⟨.vmem, 12, rfl⟩
abbrev cc4_scratch5 : Ref sig .scVector := ⟨.vmem, 13, rfl⟩
abbrev cc1_sem0_0 : DmaSem sig := 3
abbrev cc1_sem1_0 : DmaSem sig := 4
abbrev cc1_sem2_0 : DmaSem sig := 5
abbrev cc1_sem3_0 : DmaSem sig := 6
abbrev cc3_sem0_0 : DmaSem sig := 14
abbrev cc3_sem1_0 : DmaSem sig := 15
abbrev cc3_sem2_0 : DmaSem sig := 16
abbrev cc3_sem3_0 : DmaSem sig := 17
abbrev cc3_sem4_0 : DmaSem sig := 18
abbrev cc3_sem5_0 : DmaSem sig := 19
abbrev cc3_sem6_0 : DmaSem sig := 20
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33
abbrev cc5_sem6_0 : DmaSem sig := 34
abbrev cc5_sem7_0 : DmaSem sig := 35
abbrev cc5_sem8_0 : DmaSem sig := 36
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_2_r0 : BitVec 32 := 0#32
  ![v1.toNat, 0]
@[reducible] def k0_t1_loop : Scf.Loop 32 :=
  let c0_i32_0 : BitVec 32 := 0#32
  let c160_i32 : BitVec 32 := 160#32
  let v3 : BitVec 32 := Scalar.addi c0_i32_0 c160_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c4_i32 : BitVec 32 := 4#32
  let v4 : BitVec 32 := Scalar.muli arg7 c4_i32
  let c0_i32_2 : BitVec 32 := 0#32
  let v5 : BitVec 32 := Scalar.addi v4 c0_i32_2
  let c16_i32_3 : BitVec 32 := 16#32
  let v6 : BitVec 32 := Scalar.muli v5 c16_i32_3
  let v7 : Index := Scalar.indexCast v6
  ![v7.toNat]

def k0_chk1 (v8 : IVec S16 32) : Prop :=
  (∀ a x, ((![v8] : Fin 1 → IVec S16 32) a x).toNat < S10240.size a)
instance k0_chk1.dec : ∀ (v8 : IVec S16 32), Decidable (k0_chk1 v8) := fun v8 => decidable_of_iff' _ (Iff.of_eq (k0_chk1.eq_1 v8))
theorem k0_idx1_inb : ∀ (v8 : IVec S16 32) (k0_hw1 : k0_chk1 v8), ∀ a x, ((![v8] : Fin 1 → IVec S16 32) a x).toNat < S10240.size a := fun v8 k0_hw1 => k0_hw1
def k0_off3 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c4_i32_4 : BitVec 32 := 4#32
  let v9 : BitVec 32 := Scalar.muli arg7 c4_i32_4
  let c1_i32_5 : BitVec 32 := 1#32
  let v10 : BitVec 32 := Scalar.addi v9 c1_i32_5
  let c16_i32_6 : BitVec 32 := 16#32
  let v11 : BitVec 32 := Scalar.muli v10 c16_i32_6
  let v12 : Index := Scalar.indexCast v11
  ![v12.toNat]

def k0_chk2 (v13 : IVec S16 32) : Prop :=
  (∀ a x, ((![v13] : Fin 1 → IVec S16 32) a x).toNat < S10240.size a)
instance k0_chk2.dec : ∀ (v13 : IVec S16 32), Decidable (k0_chk2 v13) := fun v13 => decidable_of_iff' _ (Iff.of_eq (k0_chk2.eq_1 v13))
theorem k0_idx2_inb : ∀ (v13 : IVec S16 32) (k0_hw2 : k0_chk2 v13), ∀ a x, ((![v13] : Fin 1 → IVec S16 32) a x).toNat < S10240.size a := fun v13 k0_hw2 => k0_hw2
def k0_off4 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c4_i32_7 : BitVec 32 := 4#32
  let v14 : BitVec 32 := Scalar.muli arg7 c4_i32_7
  let c2_i32 : BitVec 32 := 2#32
  let v15 : BitVec 32 := Scalar.addi v14 c2_i32
  let c16_i32_8 : BitVec 32 := 16#32
  let v16 : BitVec 32 := Scalar.muli v15 c16_i32_8
  let v17 : Index := Scalar.indexCast v16
  ![v17.toNat]

def k0_chk3 (v18 : IVec S16 32) : Prop :=
  (∀ a x, ((![v18] : Fin 1 → IVec S16 32) a x).toNat < S10240.size a)
instance k0_chk3.dec : ∀ (v18 : IVec S16 32), Decidable (k0_chk3 v18) := fun v18 => decidable_of_iff' _ (Iff.of_eq (k0_chk3.eq_1 v18))
theorem k0_idx3_inb : ∀ (v18 : IVec S16 32) (k0_hw3 : k0_chk3 v18), ∀ a x, ((![v18] : Fin 1 → IVec S16 32) a x).toNat < S10240.size a := fun v18 k0_hw3 => k0_hw3
def k0_off5 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c4_i32_9 : BitVec 32 := 4#32
  let v19 : BitVec 32 := Scalar.muli arg7 c4_i32_9
  let c3_i32 : BitVec 32 := 3#32
  let v20 : BitVec 32 := Scalar.addi v19 c3_i32
  let c16_i32_10 : BitVec 32 := 16#32
  let v21 : BitVec 32 := Scalar.muli v20 c16_i32_10
  let v22 : Index := Scalar.indexCast v21
  ![v22.toNat]

def k0_chk4 (v23 : IVec S16 32) : Prop :=
  (∀ a x, ((![v23] : Fin 1 → IVec S16 32) a x).toNat < S10240.size a)
instance k0_chk4.dec : ∀ (v23 : IVec S16 32), Decidable (k0_chk4 v23) := fun v23 => decidable_of_iff' _ (Iff.of_eq (k0_chk4.eq_1 v23))
theorem k0_idx4_inb : ∀ (v23 : IVec S16 32) (k0_hw4 : k0_chk4 v23), ∀ a x, ((![v23] : Fin 1 → IVec S16 32) a x).toNat < S10240.size a := fun v23 k0_hw4 => k0_hw4
abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x10000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![2, 16], ![false, false]⟩

def k2_off1 (i : grid2.Coords) : Fin 3 → Nat :=
  let arg1 : BitVec 32 := BitVec.ofNat 32 (i 1).val
  let c0_i32 : BitVec 32 := 0#32
  let c0_i32_13_r0 : BitVec 32 := 0#32
  ![arg1.toNat, 0, 0]
def k2_mult1 : BitVec 32 :=
  let c0_i32_0 : BitVec 32 := 0#32
  c0_i32_0
def k2_off2 (i : grid2.Coords) : Fin 3 → Nat :=
  let arg0 : BitVec 32 := BitVec.ofNat 32 (i 0).val
  let c0_i32_1 : BitVec 32 := 0#32
  let c0_i32_0 : BitVec 32 := 0#32
  let v0 : BitVec 32 := c0_i32_0
  ![arg0.toNat, 0, 0]
@[reducible] def k2_t1_loop : Scf.Loop 32 :=
  let c0_i32_4 : BitVec 32 := 0#32
  let c10_i32 : BitVec 32 := 10#32
  let v9 : BitVec 32 := Scalar.addi c0_i32_4 c10_i32
  let c1_i32 : BitVec 32 := 1#32
  ⟨c0_i32_4, v9, c1_i32⟩
def k2_off3 (i : grid2.Coords) : Fin 3 → Nat :=
  let arg0 : BitVec 32 := BitVec.ofNat 32 (i 0).val
  let c0_i32_13 : BitVec 32 := 0#32
  let c0_i32_14 : BitVec 32 := 0#32
  ![arg0.toNat, 0, 0]
def k2_mult2 (k2_t1 : Fin k2_t1_loop.trips) : BitVec 32 :=
  let c0_i32_4 : BitVec 32 := 0#32
  let c1_i32 : BitVec 32 := 1#32
  let arg17 : BitVec 32 := Scf.iv c0_i32_4 c1_i32 k2_t1
  let c2_i32 : BitVec 32 := 2#32
  let v18 : BitVec 32 := Scalar.muli arg17 c2_i32
  let c1_i32_19 : BitVec 32 := 1#32
  let v27 : BitVec 32 := Scalar.addi v18 c1_i32_19
  let c19_i32 : BitVec 32 := 19#32
  let v28 : BitVec 32 := Scalar.minsi v27 c19_i32
  let c8192_i32 : BitVec 32 := 8192#32
  let v29 : BitVec 32 := Scalar.muli v28 c8192_i32
  v29
def k2_off4 (i : grid2.Coords) (k2_t1 : Fin k2_t1_loop.trips) (c1_i32_19 : BitVec 32) : Fin 3 → Nat :=
  let arg0 : BitVec 32 := BitVec.ofNat 32 (i 0).val
  let c0_i32_20 : BitVec 32 := 0#32
  let c0_i32_4 : BitVec 32 := 0#32
  let c1_i32 : BitVec 32 := 1#32
  let arg17 : BitVec 32 := Scf.iv c0_i32_4 c1_i32 k2_t1
  let c2_i32 : BitVec 32 := 2#32
  let v18 : BitVec 32 := Scalar.muli arg17 c2_i32
  let v27 : BitVec 32 := Scalar.addi v18 c1_i32_19
  let c19_i32 : BitVec 32 := 19#32
  let v28 : BitVec 32 := Scalar.minsi v27 c19_i32
  let c8192_i32 : BitVec 32 := 8192#32
  let v29 : BitVec 32 := Scalar.muli v28 c8192_i32
  let v30 : BitVec 32 := v29
  ![arg0.toNat, 0, v30.toNat]
@[reducible] def k2_t2_loop : Scf.Loop 32 :=
  let c0_i32_23 : BitVec 32 := 0#32
  let c128_i32 : BitVec 32 := 128#32
  let v39 : BitVec 32 := Scalar.addi c0_i32_23 c128_i32
  let c1_i32_24 : BitVec 32 := 1#32
  ⟨c0_i32_23, v39, c1_i32_24⟩
def k2_off5 (k2_t2 : Fin k2_t2_loop.trips) : Fin 1 → Nat :=
  let c0_i32_23 : BitVec 32 := 0#32
  let c1_i32_24 : BitVec 32 := 1#32
  let arg18 : BitVec 32 := Scf.iv c0_i32_23 c1_i32_24 k2_t2
  let c4_i32 : BitVec 32 := 4#32
  let v61 : BitVec 32 := Scalar.muli arg18 c4_i32
  let c0_i32_42 : BitVec 32 := 0#32
  let v62 : BitVec 32 := Scalar.addi v61 c0_i32_42
  let c16_i32 : BitVec 32 := 16#32
  let v63 : BitVec 32 := Scalar.muli v62 c16_i32
  let v64 : Index := Scalar.indexCast v63
  ![v64.toNat]

def k2_chk1 (v65 : IVec S16 32) : Prop :=
  (∀ a x, ((![v65] : Fin 1 → IVec S16 32) a x).toNat < S40064.size a)
instance k2_chk1.dec : ∀ (v65 : IVec S16 32), Decidable (k2_chk1 v65) := fun v65 => decidable_of_iff' _ (Iff.of_eq (k2_chk1.eq_1 v65))
theorem k2_idx1_inb : ∀ (v65 : IVec S16 32) (k2_hw1 : k2_chk1 v65), ∀ a x, ((![v65] : Fin 1 → IVec S16 32) a x).toNat < S40064.size a := fun v65 k2_hw1 => k2_hw1

def k2_chk2 (v70 : IVec S16 32) : Prop :=
  (∀ a x, ((![v70] : Fin 1 → IVec S16 32) a x).toNat < S40064.size a)
instance k2_chk2.dec : ∀ (v70 : IVec S16 32), Decidable (k2_chk2 v70) := fun v70 => decidable_of_iff' _ (Iff.of_eq (k2_chk2.eq_1 v70))
theorem k2_idx2_inb : ∀ (v70 : IVec S16 32) (k2_hw2 : k2_chk2 v70), ∀ a x, ((![v70] : Fin 1 → IVec S16 32) a x).toNat < S40064.size a := fun v70 k2_hw2 => k2_hw2

def k2_chk3 (v75 : IVec S16 32) : Prop :=
  (∀ a x, ((![v75] : Fin 1 → IVec S16 32) a x).toNat < S40064.size a)
instance k2_chk3.dec : ∀ (v75 : IVec S16 32), Decidable (k2_chk3 v75) := fun v75 => decidable_of_iff' _ (Iff.of_eq (k2_chk3.eq_1 v75))
theorem k2_idx3_inb : ∀ (v75 : IVec S16 32) (k2_hw3 : k2_chk3 v75), ∀ a x, ((![v75] : Fin 1 → IVec S16 32) a x).toNat < S40064.size a := fun v75 k2_hw3 => k2_hw3

def k2_chk4 (v80 : IVec S16 32) : Prop :=
  (∀ a x, ((![v80] : Fin 1 → IVec S16 32) a x).toNat < S40064.size a)
instance k2_chk4.dec : ∀ (v80 : IVec S16 32), Decidable (k2_chk4 v80) := fun v80 => decidable_of_iff' _ (Iff.of_eq (k2_chk4.eq_1 v80))
theorem k2_idx4_inb : ∀ (v80 : IVec S16 32) (k2_hw4 : k2_chk4 v80), ∀ a x, ((![v80] : Fin 1 → IVec S16 32) a x).toNat < S40064.size a := fun v80 k2_hw4 => k2_hw4
def k2_off6 (k2_t2 : Fin k2_t2_loop.trips) : Fin 1 → Nat :=
  let c0_i32_23 : BitVec 32 := 0#32
  let c1_i32_24 : BitVec 32 := 1#32
  let arg18 : BitVec 32 := Scf.iv c0_i32_23 c1_i32_24 k2_t2
  let c4_i32_46 : BitVec 32 := 4#32
  let v84 : BitVec 32 := Scalar.muli arg18 c4_i32_46
  let c1_i32_47 : BitVec 32 := 1#32
  let v85 : BitVec 32 := Scalar.addi v84 c1_i32_47
  let c16_i32_48 : BitVec 32 := 16#32
  let v86 : BitVec 32 := Scalar.muli v85 c16_i32_48
  let v87 : Index := Scalar.indexCast v86
  ![v87.toNat]

def k2_chk5 (v88 : IVec S16 32) : Prop :=
  (∀ a x, ((![v88] : Fin 1 → IVec S16 32) a x).toNat < S40064.size a)
instance k2_chk5.dec : ∀ (v88 : IVec S16 32), Decidable (k2_chk5 v88) := fun v88 => decidable_of_iff' _ (Iff.of_eq (k2_chk5.eq_1 v88))
theorem k2_idx5_inb : ∀ (v88 : IVec S16 32) (k2_hw5 : k2_chk5 v88), ∀ a x, ((![v88] : Fin 1 → IVec S16 32) a x).toNat < S40064.size a := fun v88 k2_hw5 => k2_hw5

def k2_chk6 (v93 : IVec S16 32) : Prop :=
  (∀ a x, ((![v93] : Fin 1 → IVec S16 32) a x).toNat < S40064.size a)
instance k2_chk6.dec : ∀ (v93 : IVec S16 32), Decidable (k2_chk6 v93) := fun v93 => decidable_of_iff' _ (Iff.of_eq (k2_chk6.eq_1 v93))
theorem k2_idx6_inb : ∀ (v93 : IVec S16 32) (k2_hw6 : k2_chk6 v93), ∀ a x, ((![v93] : Fin 1 → IVec S16 32) a x).toNat < S40064.size a := fun v93 k2_hw6 => k2_hw6

def k2_chk7 (v98 : IVec S16 32) : Prop :=
  (∀ a x, ((![v98] : Fin 1 → IVec S16 32) a x).toNat < S40064.size a)
instance k2_chk7.dec : ∀ (v98 : IVec S16 32), Decidable (k2_chk7 v98) := fun v98 => decidable_of_iff' _ (Iff.of_eq (k2_chk7.eq_1 v98))
theorem k2_idx7_inb : ∀ (v98 : IVec S16 32) (k2_hw7 : k2_chk7 v98), ∀ a x, ((![v98] : Fin 1 → IVec S16 32) a x).toNat < S40064.size a := fun v98 k2_hw7 => k2_hw7

def k2_chk8 (v103 : IVec S16 32) : Prop :=
  (∀ a x, ((![v103] : Fin 1 → IVec S16 32) a x).toNat < S40064.size a)
instance k2_chk8.dec : ∀ (v103 : IVec S16 32), Decidable (k2_chk8 v103) := fun v103 => decidable_of_iff' _ (Iff.of_eq (k2_chk8.eq_1 v103))
theorem k2_idx8_inb : ∀ (v103 : IVec S16 32) (k2_hw8 : k2_chk8 v103), ∀ a x, ((![v103] : Fin 1 → IVec S16 32) a x).toNat < S40064.size a := fun v103 k2_hw8 => k2_hw8
def k2_off7 (k2_t2 : Fin k2_t2_loop.trips) : Fin 1 → Nat :=
  let c0_i32_23 : BitVec 32 := 0#32
  let c1_i32_24 : BitVec 32 := 1#32
  let arg18 : BitVec 32 := Scf.iv c0_i32_23 c1_i32_24 k2_t2
  let c4_i32_55 : BitVec 32 := 4#32
  let v107 : BitVec 32 := Scalar.muli arg18 c4_i32_55
  let c2_i32_56 : BitVec 32 := 2#32
  let v108 : BitVec 32 := Scalar.addi v107 c2_i32_56
  let c16_i32_57 : BitVec 32 := 16#32
  let v109 : BitVec 32 := Scalar.muli v108 c16_i32_57
  let v110 : Index := Scalar.indexCast v109
  ![v110.toNat]

def k2_chk9 (v111 : IVec S16 32) : Prop :=
  (∀ a x, ((![v111] : Fin 1 → IVec S16 32) a x).toNat < S40064.size a)
instance k2_chk9.dec : ∀ (v111 : IVec S16 32), Decidable (k2_chk9 v111) := fun v111 => decidable_of_iff' _ (Iff.of_eq (k2_chk9.eq_1 v111))
theorem k2_idx9_inb : ∀ (v111 : IVec S16 32) (k2_hw9 : k2_chk9 v111), ∀ a x, ((![v111] : Fin 1 → IVec S16 32) a x).toNat < S40064.size a := fun v111 k2_hw9 => k2_hw9

def k2_chk10 (v116 : IVec S16 32) : Prop :=
  (∀ a x, ((![v116] : Fin 1 → IVec S16 32) a x).toNat < S40064.size a)
instance k2_chk10.dec : ∀ (v116 : IVec S16 32), Decidable (k2_chk10 v116) := fun v116 => decidable_of_iff' _ (Iff.of_eq (k2_chk10.eq_1 v116))
theorem k2_idx10_inb : ∀ (v116 : IVec S16 32) (k2_hw10 : k2_chk10 v116), ∀ a x, ((![v116] : Fin 1 → IVec S16 32) a x).toNat < S40064.size a := fun v116 k2_hw10 => k2_hw10

def k2_chk11 (v121 : IVec S16 32) : Prop :=
  (∀ a x, ((![v121] : Fin 1 → IVec S16 32) a x).toNat < S40064.size a)
instance k2_chk11.dec : ∀ (v121 : IVec S16 32), Decidable (k2_chk11 v121) := fun v121 => decidable_of_iff' _ (Iff.of_eq (k2_chk11.eq_1 v121))
theorem k2_idx11_inb : ∀ (v121 : IVec S16 32) (k2_hw11 : k2_chk11 v121), ∀ a x, ((![v121] : Fin 1 → IVec S16 32) a x).toNat < S40064.size a := fun v121 k2_hw11 => k2_hw11

def k2_chk12 (v126 : IVec S16 32) : Prop :=
  (∀ a x, ((![v126] : Fin 1 → IVec S16 32) a x).toNat < S40064.size a)
instance k2_chk12.dec : ∀ (v126 : IVec S16 32), Decidable (k2_chk12 v126) := fun v126 => decidable_of_iff' _ (Iff.of_eq (k2_chk12.eq_1 v126))
theorem k2_idx12_inb : ∀ (v126 : IVec S16 32) (k2_hw12 : k2_chk12 v126), ∀ a x, ((![v126] : Fin 1 → IVec S16 32) a x).toNat < S40064.size a := fun v126 k2_hw12 => k2_hw12
def k2_off8 (k2_t2 : Fin k2_t2_loop.trips) : Fin 1 → Nat :=
  let c0_i32_23 : BitVec 32 := 0#32
  let c1_i32_24 : BitVec 32 := 1#32
  let arg18 : BitVec 32 := Scf.iv c0_i32_23 c1_i32_24 k2_t2
  let c4_i32_64 : BitVec 32 := 4#32
  let v130 : BitVec 32 := Scalar.muli arg18 c4_i32_64
  let c3_i32 : BitVec 32 := 3#32
  let v131 : BitVec 32 := Scalar.addi v130 c3_i32
  let c16_i32_65 : BitVec 32 := 16#32
  let v132 : BitVec 32 := Scalar.muli v131 c16_i32_65
  let v133 : Index := Scalar.indexCast v132
  ![v133.toNat]

def k2_chk13 (v134 : IVec S16 32) : Prop :=
  (∀ a x, ((![v134] : Fin 1 → IVec S16 32) a x).toNat < S40064.size a)
instance k2_chk13.dec : ∀ (v134 : IVec S16 32), Decidable (k2_chk13 v134) := fun v134 => decidable_of_iff' _ (Iff.of_eq (k2_chk13.eq_1 v134))
theorem k2_idx13_inb : ∀ (v134 : IVec S16 32) (k2_hw13 : k2_chk13 v134), ∀ a x, ((![v134] : Fin 1 → IVec S16 32) a x).toNat < S40064.size a := fun v134 k2_hw13 => k2_hw13

def k2_chk14 (v139 : IVec S16 32) : Prop :=
  (∀ a x, ((![v139] : Fin 1 → IVec S16 32) a x).toNat < S40064.size a)
instance k2_chk14.dec : ∀ (v139 : IVec S16 32), Decidable (k2_chk14 v139) := fun v139 => decidable_of_iff' _ (Iff.of_eq (k2_chk14.eq_1 v139))
theorem k2_idx14_inb : ∀ (v139 : IVec S16 32) (k2_hw14 : k2_chk14 v139), ∀ a x, ((![v139] : Fin 1 → IVec S16 32) a x).toNat < S40064.size a := fun v139 k2_hw14 => k2_hw14

def k2_chk15 (v144 : IVec S16 32) : Prop :=
  (∀ a x, ((![v144] : Fin 1 → IVec S16 32) a x).toNat < S40064.size a)
instance k2_chk15.dec : ∀ (v144 : IVec S16 32), Decidable (k2_chk15 v144) := fun v144 => decidable_of_iff' _ (Iff.of_eq (k2_chk15.eq_1 v144))
theorem k2_idx15_inb : ∀ (v144 : IVec S16 32) (k2_hw15 : k2_chk15 v144), ∀ a x, ((![v144] : Fin 1 → IVec S16 32) a x).toNat < S40064.size a := fun v144 k2_hw15 => k2_hw15

def k2_chk16 (v149 : IVec S16 32) : Prop :=
  (∀ a x, ((![v149] : Fin 1 → IVec S16 32) a x).toNat < S40064.size a)
instance k2_chk16.dec : ∀ (v149 : IVec S16 32), Decidable (k2_chk16 v149) := fun v149 => decidable_of_iff' _ (Iff.of_eq (k2_chk16.eq_1 v149))
theorem k2_idx16_inb : ∀ (v149 : IVec S16 32) (k2_hw16 : k2_chk16 v149), ∀ a x, ((![v149] : Fin 1 → IVec S16 32) a x).toNat < S40064.size a := fun v149 k2_hw16 => k2_hw16

def k2_chk17 (v67 : IVec S16 32) : Prop :=
  (∀ a x, ((![v67] : Fin 1 → IVec S16 32) a x).toNat < S40064.size a)
instance k2_chk17.dec : ∀ (v67 : IVec S16 32), Decidable (k2_chk17 v67) := fun v67 => decidable_of_iff' _ (Iff.of_eq (k2_chk17.eq_1 v67))
theorem k2_idx17_inb : ∀ (v67 : IVec S16 32) (k2_hw17 : k2_chk17 v67), ∀ a x, ((![v67] : Fin 1 → IVec S16 32) a x).toNat < S40064.size a := fun v67 k2_hw17 => k2_hw17

def k2_chk18 (v72 : IVec S16 32) : Prop :=
  (∀ a x, ((![v72] : Fin 1 → IVec S16 32) a x).toNat < S40064.size a)
instance k2_chk18.dec : ∀ (v72 : IVec S16 32), Decidable (k2_chk18 v72) := fun v72 => decidable_of_iff' _ (Iff.of_eq (k2_chk18.eq_1 v72))
theorem k2_idx18_inb : ∀ (v72 : IVec S16 32) (k2_hw18 : k2_chk18 v72), ∀ a x, ((![v72] : Fin 1 → IVec S16 32) a x).toNat < S40064.size a := fun v72 k2_hw18 => k2_hw18

def k2_chk19 (v77 : IVec S16 32) : Prop :=
  (∀ a x, ((![v77] : Fin 1 → IVec S16 32) a x).toNat < S40064.size a)
instance k2_chk19.dec : ∀ (v77 : IVec S16 32), Decidable (k2_chk19 v77) := fun v77 => decidable_of_iff' _ (Iff.of_eq (k2_chk19.eq_1 v77))
theorem k2_idx19_inb : ∀ (v77 : IVec S16 32) (k2_hw19 : k2_chk19 v77), ∀ a x, ((![v77] : Fin 1 → IVec S16 32) a x).toNat < S40064.size a := fun v77 k2_hw19 => k2_hw19

def k2_chk20 (v82 : IVec S16 32) : Prop :=
  (∀ a x, ((![v82] : Fin 1 → IVec S16 32) a x).toNat < S40064.size a)
instance k2_chk20.dec : ∀ (v82 : IVec S16 32), Decidable (k2_chk20 v82) := fun v82 => decidable_of_iff' _ (Iff.of_eq (k2_chk20.eq_1 v82))
theorem k2_idx20_inb : ∀ (v82 : IVec S16 32) (k2_hw20 : k2_chk20 v82), ∀ a x, ((![v82] : Fin 1 → IVec S16 32) a x).toNat < S40064.size a := fun v82 k2_hw20 => k2_hw20

def k2_chk21 (v90 : IVec S16 32) : Prop :=
  (∀ a x, ((![v90] : Fin 1 → IVec S16 32) a x).toNat < S40064.size a)
instance k2_chk21.dec : ∀ (v90 : IVec S16 32), Decidable (k2_chk21 v90) := fun v90 => decidable_of_iff' _ (Iff.of_eq (k2_chk21.eq_1 v90))
theorem k2_idx21_inb : ∀ (v90 : IVec S16 32) (k2_hw21 : k2_chk21 v90), ∀ a x, ((![v90] : Fin 1 → IVec S16 32) a x).toNat < S40064.size a := fun v90 k2_hw21 => k2_hw21

def k2_chk22 (v95 : IVec S16 32) : Prop :=
  (∀ a x, ((![v95] : Fin 1 → IVec S16 32) a x).toNat < S40064.size a)
instance k2_chk22.dec : ∀ (v95 : IVec S16 32), Decidable (k2_chk22 v95) := fun v95 => decidable_of_iff' _ (Iff.of_eq (k2_chk22.eq_1 v95))
theorem k2_idx22_inb : ∀ (v95 : IVec S16 32) (k2_hw22 : k2_chk22 v95), ∀ a x, ((![v95] : Fin 1 → IVec S16 32) a x).toNat < S40064.size a := fun v95 k2_hw22 => k2_hw22

def k2_chk23 (v100 : IVec S16 32) : Prop :=
  (∀ a x, ((![v100] : Fin 1 → IVec S16 32) a x).toNat < S40064.size a)
instance k2_chk23.dec : ∀ (v100 : IVec S16 32), Decidable (k2_chk23 v100) := fun v100 => decidable_of_iff' _ (Iff.of_eq (k2_chk23.eq_1 v100))
theorem k2_idx23_inb : ∀ (v100 : IVec S16 32) (k2_hw23 : k2_chk23 v100), ∀ a x, ((![v100] : Fin 1 → IVec S16 32) a x).toNat < S40064.size a := fun v100 k2_hw23 => k2_hw23

def k2_chk24 (v105 : IVec S16 32) : Prop :=
  (∀ a x, ((![v105] : Fin 1 → IVec S16 32) a x).toNat < S40064.size a)
instance k2_chk24.dec : ∀ (v105 : IVec S16 32), Decidable (k2_chk24 v105) := fun v105 => decidable_of_iff' _ (Iff.of_eq (k2_chk24.eq_1 v105))
theorem k2_idx24_inb : ∀ (v105 : IVec S16 32) (k2_hw24 : k2_chk24 v105), ∀ a x, ((![v105] : Fin 1 → IVec S16 32) a x).toNat < S40064.size a := fun v105 k2_hw24 => k2_hw24

def k2_chk25 (v113 : IVec S16 32) : Prop :=
  (∀ a x, ((![v113] : Fin 1 → IVec S16 32) a x).toNat < S40064.size a)
instance k2_chk25.dec : ∀ (v113 : IVec S16 32), Decidable (k2_chk25 v113) := fun v113 => decidable_of_iff' _ (Iff.of_eq (k2_chk25.eq_1 v113))
theorem k2_idx25_inb : ∀ (v113 : IVec S16 32) (k2_hw25 : k2_chk25 v113), ∀ a x, ((![v113] : Fin 1 → IVec S16 32) a x).toNat < S40064.size a := fun v113 k2_hw25 => k2_hw25

def k2_chk26 (v118 : IVec S16 32) : Prop :=
  (∀ a x, ((![v118] : Fin 1 → IVec S16 32) a x).toNat < S40064.size a)
instance k2_chk26.dec : ∀ (v118 : IVec S16 32), Decidable (k2_chk26 v118) := fun v118 => decidable_of_iff' _ (Iff.of_eq (k2_chk26.eq_1 v118))
theorem k2_idx26_inb : ∀ (v118 : IVec S16 32) (k2_hw26 : k2_chk26 v118), ∀ a x, ((![v118] : Fin 1 → IVec S16 32) a x).toNat < S40064.size a := fun v118 k2_hw26 => k2_hw26

def k2_chk27 (v123 : IVec S16 32) : Prop :=
  (∀ a x, ((![v123] : Fin 1 → IVec S16 32) a x).toNat < S40064.size a)
instance k2_chk27.dec : ∀ (v123 : IVec S16 32), Decidable (k2_chk27 v123) := fun v123 => decidable_of_iff' _ (Iff.of_eq (k2_chk27.eq_1 v123))
theorem k2_idx27_inb : ∀ (v123 : IVec S16 32) (k2_hw27 : k2_chk27 v123), ∀ a x, ((![v123] : Fin 1 → IVec S16 32) a x).toNat < S40064.size a := fun v123 k2_hw27 => k2_hw27

def k2_chk28 (v128 : IVec S16 32) : Prop :=
  (∀ a x, ((![v128] : Fin 1 → IVec S16 32) a x).toNat < S40064.size a)
instance k2_chk28.dec : ∀ (v128 : IVec S16 32), Decidable (k2_chk28 v128) := fun v128 => decidable_of_iff' _ (Iff.of_eq (k2_chk28.eq_1 v128))
theorem k2_idx28_inb : ∀ (v128 : IVec S16 32) (k2_hw28 : k2_chk28 v128), ∀ a x, ((![v128] : Fin 1 → IVec S16 32) a x).toNat < S40064.size a := fun v128 k2_hw28 => k2_hw28

def k2_chk29 (v136 : IVec S16 32) : Prop :=
  (∀ a x, ((![v136] : Fin 1 → IVec S16 32) a x).toNat < S40064.size a)
instance k2_chk29.dec : ∀ (v136 : IVec S16 32), Decidable (k2_chk29 v136) := fun v136 => decidable_of_iff' _ (Iff.of_eq (k2_chk29.eq_1 v136))
theorem k2_idx29_inb : ∀ (v136 : IVec S16 32) (k2_hw29 : k2_chk29 v136), ∀ a x, ((![v136] : Fin 1 → IVec S16 32) a x).toNat < S40064.size a := fun v136 k2_hw29 => k2_hw29

def k2_chk30 (v141 : IVec S16 32) : Prop :=
  (∀ a x, ((![v141] : Fin 1 → IVec S16 32) a x).toNat < S40064.size a)
instance k2_chk30.dec : ∀ (v141 : IVec S16 32), Decidable (k2_chk30 v141) := fun v141 => decidable_of_iff' _ (Iff.of_eq (k2_chk30.eq_1 v141))
theorem k2_idx30_inb : ∀ (v141 : IVec S16 32) (k2_hw30 : k2_chk30 v141), ∀ a x, ((![v141] : Fin 1 → IVec S16 32) a x).toNat < S40064.size a := fun v141 k2_hw30 => k2_hw30

def k2_chk31 (v146 : IVec S16 32) : Prop :=
  (∀ a x, ((![v146] : Fin 1 → IVec S16 32) a x).toNat < S40064.size a)
instance k2_chk31.dec : ∀ (v146 : IVec S16 32), Decidable (k2_chk31 v146) := fun v146 => decidable_of_iff' _ (Iff.of_eq (k2_chk31.eq_1 v146))
theorem k2_idx31_inb : ∀ (v146 : IVec S16 32) (k2_hw31 : k2_chk31 v146), ∀ a x, ((![v146] : Fin 1 → IVec S16 32) a x).toNat < S40064.size a := fun v146 k2_hw31 => k2_hw31

def k2_chk32 (v151 : IVec S16 32) : Prop :=
  (∀ a x, ((![v151] : Fin 1 → IVec S16 32) a x).toNat < S40064.size a)
instance k2_chk32.dec : ∀ (v151 : IVec S16 32), Decidable (k2_chk32 v151) := fun v151 => decidable_of_iff' _ (Iff.of_eq (k2_chk32.eq_1 v151))
theorem k2_idx32_inb : ∀ (v151 : IVec S16 32) (k2_hw32 : k2_chk32 v151), ∀ a x, ((![v151] : Fin 1 → IVec S16 32) a x).toNat < S40064.size a := fun v151 k2_hw32 => k2_hw32
def k2_mult3 (k2_t1 : Fin k2_t1_loop.trips) : BitVec 32 :=
  let c0_i32_4 : BitVec 32 := 0#32
  let c1_i32 : BitVec 32 := 1#32
  let arg17 : BitVec 32 := Scf.iv c0_i32_4 c1_i32 k2_t1
  let c2_i32 : BitVec 32 := 2#32
  let v18 : BitVec 32 := Scalar.muli arg17 c2_i32
  let c2_i32_32 : BitVec 32 := 2#32
  let v48 : BitVec 32 := Scalar.addi v18 c2_i32_32
  let c19_i32_33 : BitVec 32 := 19#32
  let v49 : BitVec 32 := Scalar.minsi v48 c19_i32_33
  let c8192_i32_34 : BitVec 32 := 8192#32
  let v50 : BitVec 32 := Scalar.muli v49 c8192_i32_34
  v50
@[reducible] def k2_t3_loop : Scf.Loop 32 :=
  let c0_i32_38 : BitVec 32 := 0#32
  let c128_i32_39 : BitVec 32 := 128#32
  let v60 : BitVec 32 := Scalar.addi c0_i32_38 c128_i32_39
  let c1_i32_40 : BitVec 32 := 1#32
  ⟨c0_i32_38, v60, c1_i32_40⟩
def k2_off9 (k2_t3 : Fin k2_t3_loop.trips) : Fin 1 → Nat :=
  let c0_i32_38 : BitVec 32 := 0#32
  let c1_i32_40 : BitVec 32 := 1#32
  let arg18 : BitVec 32 := Scf.iv c0_i32_38 c1_i32_40 k2_t3
  let c4_i32 : BitVec 32 := 4#32
  let v61 : BitVec 32 := Scalar.muli arg18 c4_i32
  let c0_i32_42 : BitVec 32 := 0#32
  let v62 : BitVec 32 := Scalar.addi v61 c0_i32_42
  let c16_i32 : BitVec 32 := 16#32
  let v63 : BitVec 32 := Scalar.muli v62 c16_i32
  let v64 : Index := Scalar.indexCast v63
  ![v64.toNat]

def k2_chk33 (v65 : IVec S16 32) : Prop :=
  (∀ a x, ((![v65] : Fin 1 → IVec S16 32) a x).toNat < S40064.size a)
instance k2_chk33.dec : ∀ (v65 : IVec S16 32), Decidable (k2_chk33 v65) := fun v65 => decidable_of_iff' _ (Iff.of_eq (k2_chk33.eq_1 v65))
theorem k2_idx33_inb : ∀ (v65 : IVec S16 32) (k2_hw33 : k2_chk33 v65), ∀ a x, ((![v65] : Fin 1 → IVec S16 32) a x).toNat < S40064.size a := fun v65 k2_hw33 => k2_hw33

def k2_chk34 (v70 : IVec S16 32) : Prop :=
  (∀ a x, ((![v70] : Fin 1 → IVec S16 32) a x).toNat < S40064.size a)
instance k2_chk34.dec : ∀ (v70 : IVec S16 32), Decidable (k2_chk34 v70) := fun v70 => decidable_of_iff' _ (Iff.of_eq (k2_chk34.eq_1 v70))
theorem k2_idx34_inb : ∀ (v70 : IVec S16 32) (k2_hw34 : k2_chk34 v70), ∀ a x, ((![v70] : Fin 1 → IVec S16 32) a x).toNat < S40064.size a := fun v70 k2_hw34 => k2_hw34

def k2_chk35 (v75 : IVec S16 32) : Prop :=
  (∀ a x, ((![v75] : Fin 1 → IVec S16 32) a x).toNat < S40064.size a)
instance k2_chk35.dec : ∀ (v75 : IVec S16 32), Decidable (k2_chk35 v75) := fun v75 => decidable_of_iff' _ (Iff.of_eq (k2_chk35.eq_1 v75))
theorem k2_idx35_inb : ∀ (v75 : IVec S16 32) (k2_hw35 : k2_chk35 v75), ∀ a x, ((![v75] : Fin 1 → IVec S16 32) a x).toNat < S40064.size a := fun v75 k2_hw35 => k2_hw35

def k2_chk36 (v80 : IVec S16 32) : Prop :=
  (∀ a x, ((![v80] : Fin 1 → IVec S16 32) a x).toNat < S40064.size a)
instance k2_chk36.dec : ∀ (v80 : IVec S16 32), Decidable (k2_chk36 v80) := fun v80 => decidable_of_iff' _ (Iff.of_eq (k2_chk36.eq_1 v80))
theorem k2_idx36_inb : ∀ (v80 : IVec S16 32) (k2_hw36 : k2_chk36 v80), ∀ a x, ((![v80] : Fin 1 → IVec S16 32) a x).toNat < S40064.size a := fun v80 k2_hw36 => k2_hw36
def k2_off10 (k2_t3 : Fin k2_t3_loop.trips) : Fin 1 → Nat :=
  let c0_i32_38 : BitVec 32 := 0#32
  let c1_i32_40 : BitVec 32 := 1#32
  let arg18 : BitVec 32 := Scf.iv c0_i32_38 c1_i32_40 k2_t3
  let c4_i32_46 : BitVec 32 := 4#32
  let v84 : BitVec 32 := Scalar.muli arg18 c4_i32_46
  let c1_i32_47 : BitVec 32 := 1#32
  let v85 : BitVec 32 := Scalar.addi v84 c1_i32_47
  let c16_i32_48 : BitVec 32 := 16#32
  let v86 : BitVec 32 := Scalar.muli v85 c16_i32_48
  let v87 : Index := Scalar.indexCast v86
  ![v87.toNat]

def k2_chk37 (v88 : IVec S16 32) : Prop :=
  (∀ a x, ((![v88] : Fin 1 → IVec S16 32) a x).toNat < S40064.size a)
instance k2_chk37.dec : ∀ (v88 : IVec S16 32), Decidable (k2_chk37 v88) := fun v88 => decidable_of_iff' _ (Iff.of_eq (k2_chk37.eq_1 v88))
theorem k2_idx37_inb : ∀ (v88 : IVec S16 32) (k2_hw37 : k2_chk37 v88), ∀ a x, ((![v88] : Fin 1 → IVec S16 32) a x).toNat < S40064.size a := fun v88 k2_hw37 => k2_hw37

def k2_chk38 (v93 : IVec S16 32) : Prop :=
  (∀ a x, ((![v93] : Fin 1 → IVec S16 32) a x).toNat < S40064.size a)
instance k2_chk38.dec : ∀ (v93 : IVec S16 32), Decidable (k2_chk38 v93) := fun v93 => decidable_of_iff' _ (Iff.of_eq (k2_chk38.eq_1 v93))
theorem k2_idx38_inb : ∀ (v93 : IVec S16 32) (k2_hw38 : k2_chk38 v93), ∀ a x, ((![v93] : Fin 1 → IVec S16 32) a x).toNat < S40064.size a := fun v93 k2_hw38 => k2_hw38

def k2_chk39 (v98 : IVec S16 32) : Prop :=
  (∀ a x, ((![v98] : Fin 1 → IVec S16 32) a x).toNat < S40064.size a)
instance k2_chk39.dec : ∀ (v98 : IVec S16 32), Decidable (k2_chk39 v98) := fun v98 => decidable_of_iff' _ (Iff.of_eq (k2_chk39.eq_1 v98))
theorem k2_idx39_inb : ∀ (v98 : IVec S16 32) (k2_hw39 : k2_chk39 v98), ∀ a x, ((![v98] : Fin 1 → IVec S16 32) a x).toNat < S40064.size a := fun v98 k2_hw39 => k2_hw39

def k2_chk40 (v103 : IVec S16 32) : Prop :=
  (∀ a x, ((![v103] : Fin 1 → IVec S16 32) a x).toNat < S40064.size a)
instance k2_chk40.dec : ∀ (v103 : IVec S16 32), Decidable (k2_chk40 v103) := fun v103 => decidable_of_iff' _ (Iff.of_eq (k2_chk40.eq_1 v103))
theorem k2_idx40_inb : ∀ (v103 : IVec S16 32) (k2_hw40 : k2_chk40 v103), ∀ a x, ((![v103] : Fin 1 → IVec S16 32) a x).toNat < S40064.size a := fun v103 k2_hw40 => k2_hw40
def k2_off11 (k2_t3 : Fin k2_t3_loop.trips) : Fin 1 → Nat :=
  let c0_i32_38 : BitVec 32 := 0#32
  let c1_i32_40 : BitVec 32 := 1#32
  let arg18 : BitVec 32 := Scf.iv c0_i32_38 c1_i32_40 k2_t3
  let c4_i32_55 : BitVec 32 := 4#32
  let v107 : BitVec 32 := Scalar.muli arg18 c4_i32_55
  let c2_i32_56 : BitVec 32 := 2#32
  let v108 : BitVec 32 := Scalar.addi v107 c2_i32_56
  let c16_i32_57 : BitVec 32 := 16#32
  let v109 : BitVec 32 := Scalar.muli v108 c16_i32_57
  let v110 : Index := Scalar.indexCast v109
  ![v110.toNat]

def k2_chk41 (v111 : IVec S16 32) : Prop :=
  (∀ a x, ((![v111] : Fin 1 → IVec S16 32) a x).toNat < S40064.size a)
instance k2_chk41.dec : ∀ (v111 : IVec S16 32), Decidable (k2_chk41 v111) := fun v111 => decidable_of_iff' _ (Iff.of_eq (k2_chk41.eq_1 v111))
theorem k2_idx41_inb : ∀ (v111 : IVec S16 32) (k2_hw41 : k2_chk41 v111), ∀ a x, ((![v111] : Fin 1 → IVec S16 32) a x).toNat < S40064.size a := fun v111 k2_hw41 => k2_hw41

def k2_chk42 (v116 : IVec S16 32) : Prop :=
  (∀ a x, ((![v116] : Fin 1 → IVec S16 32) a x).toNat < S40064.size a)
instance k2_chk42.dec : ∀ (v116 : IVec S16 32), Decidable (k2_chk42 v116) := fun v116 => decidable_of_iff' _ (Iff.of_eq (k2_chk42.eq_1 v116))
theorem k2_idx42_inb : ∀ (v116 : IVec S16 32) (k2_hw42 : k2_chk42 v116), ∀ a x, ((![v116] : Fin 1 → IVec S16 32) a x).toNat < S40064.size a := fun v116 k2_hw42 => k2_hw42

def k2_chk43 (v121 : IVec S16 32) : Prop :=
  (∀ a x, ((![v121] : Fin 1 → IVec S16 32) a x).toNat < S40064.size a)
instance k2_chk43.dec : ∀ (v121 : IVec S16 32), Decidable (k2_chk43 v121) := fun v121 => decidable_of_iff' _ (Iff.of_eq (k2_chk43.eq_1 v121))
theorem k2_idx43_inb : ∀ (v121 : IVec S16 32) (k2_hw43 : k2_chk43 v121), ∀ a x, ((![v121] : Fin 1 → IVec S16 32) a x).toNat < S40064.size a := fun v121 k2_hw43 => k2_hw43

def k2_chk44 (v126 : IVec S16 32) : Prop :=
  (∀ a x, ((![v126] : Fin 1 → IVec S16 32) a x).toNat < S40064.size a)
instance k2_chk44.dec : ∀ (v126 : IVec S16 32), Decidable (k2_chk44 v126) := fun v126 => decidable_of_iff' _ (Iff.of_eq (k2_chk44.eq_1 v126))
theorem k2_idx44_inb : ∀ (v126 : IVec S16 32) (k2_hw44 : k2_chk44 v126), ∀ a x, ((![v126] : Fin 1 → IVec S16 32) a x).toNat < S40064.size a := fun v126 k2_hw44 => k2_hw44
def k2_off12 (k2_t3 : Fin k2_t3_loop.trips) : Fin 1 → Nat :=
  let c0_i32_38 : BitVec 32 := 0#32
  let c1_i32_40 : BitVec 32 := 1#32
  let arg18 : BitVec 32 := Scf.iv c0_i32_38 c1_i32_40 k2_t3
  let c4_i32_64 : BitVec 32 := 4#32
  let v130 : BitVec 32 := Scalar.muli arg18 c4_i32_64
  let c3_i32 : BitVec 32 := 3#32
  let v131 : BitVec 32 := Scalar.addi v130 c3_i32
  let c16_i32_65 : BitVec 32 := 16#32
  let v132 : BitVec 32 := Scalar.muli v131 c16_i32_65
  let v133 : Index := Scalar.indexCast v132
  ![v133.toNat]

def k2_chk45 (v134 : IVec S16 32) : Prop :=
  (∀ a x, ((![v134] : Fin 1 → IVec S16 32) a x).toNat < S40064.size a)
instance k2_chk45.dec : ∀ (v134 : IVec S16 32), Decidable (k2_chk45 v134) := fun v134 => decidable_of_iff' _ (Iff.of_eq (k2_chk45.eq_1 v134))
theorem k2_idx45_inb : ∀ (v134 : IVec S16 32) (k2_hw45 : k2_chk45 v134), ∀ a x, ((![v134] : Fin 1 → IVec S16 32) a x).toNat < S40064.size a := fun v134 k2_hw45 => k2_hw45

def k2_chk46 (v139 : IVec S16 32) : Prop :=
  (∀ a x, ((![v139] : Fin 1 → IVec S16 32) a x).toNat < S40064.size a)
instance k2_chk46.dec : ∀ (v139 : IVec S16 32), Decidable (k2_chk46 v139) := fun v139 => decidable_of_iff' _ (Iff.of_eq (k2_chk46.eq_1 v139))
theorem k2_idx46_inb : ∀ (v139 : IVec S16 32) (k2_hw46 : k2_chk46 v139), ∀ a x, ((![v139] : Fin 1 → IVec S16 32) a x).toNat < S40064.size a := fun v139 k2_hw46 => k2_hw46

def k2_chk47 (v144 : IVec S16 32) : Prop :=
  (∀ a x, ((![v144] : Fin 1 → IVec S16 32) a x).toNat < S40064.size a)
instance k2_chk47.dec : ∀ (v144 : IVec S16 32), Decidable (k2_chk47 v144) := fun v144 => decidable_of_iff' _ (Iff.of_eq (k2_chk47.eq_1 v144))
theorem k2_idx47_inb : ∀ (v144 : IVec S16 32) (k2_hw47 : k2_chk47 v144), ∀ a x, ((![v144] : Fin 1 → IVec S16 32) a x).toNat < S40064.size a := fun v144 k2_hw47 => k2_hw47

def k2_chk48 (v149 : IVec S16 32) : Prop :=
  (∀ a x, ((![v149] : Fin 1 → IVec S16 32) a x).toNat < S40064.size a)
instance k2_chk48.dec : ∀ (v149 : IVec S16 32), Decidable (k2_chk48 v149) := fun v149 => decidable_of_iff' _ (Iff.of_eq (k2_chk48.eq_1 v149))
theorem k2_idx48_inb : ∀ (v149 : IVec S16 32) (k2_hw48 : k2_chk48 v149), ∀ a x, ((![v149] : Fin 1 → IVec S16 32) a x).toNat < S40064.size a := fun v149 k2_hw48 => k2_hw48

def k2_chk49 (v67 : IVec S16 32) : Prop :=
  (∀ a x, ((![v67] : Fin 1 → IVec S16 32) a x).toNat < S40064.size a)
instance k2_chk49.dec : ∀ (v67 : IVec S16 32), Decidable (k2_chk49 v67) := fun v67 => decidable_of_iff' _ (Iff.of_eq (k2_chk49.eq_1 v67))
theorem k2_idx49_inb : ∀ (v67 : IVec S16 32) (k2_hw49 : k2_chk49 v67), ∀ a x, ((![v67] : Fin 1 → IVec S16 32) a x).toNat < S40064.size a := fun v67 k2_hw49 => k2_hw49

def k2_chk50 (v72 : IVec S16 32) : Prop :=
  (∀ a x, ((![v72] : Fin 1 → IVec S16 32) a x).toNat < S40064.size a)
instance k2_chk50.dec : ∀ (v72 : IVec S16 32), Decidable (k2_chk50 v72) := fun v72 => decidable_of_iff' _ (Iff.of_eq (k2_chk50.eq_1 v72))
theorem k2_idx50_inb : ∀ (v72 : IVec S16 32) (k2_hw50 : k2_chk50 v72), ∀ a x, ((![v72] : Fin 1 → IVec S16 32) a x).toNat < S40064.size a := fun v72 k2_hw50 => k2_hw50

def k2_chk51 (v77 : IVec S16 32) : Prop :=
  (∀ a x, ((![v77] : Fin 1 → IVec S16 32) a x).toNat < S40064.size a)
instance k2_chk51.dec : ∀ (v77 : IVec S16 32), Decidable (k2_chk51 v77) := fun v77 => decidable_of_iff' _ (Iff.of_eq (k2_chk51.eq_1 v77))
theorem k2_idx51_inb : ∀ (v77 : IVec S16 32) (k2_hw51 : k2_chk51 v77), ∀ a x, ((![v77] : Fin 1 → IVec S16 32) a x).toNat < S40064.size a := fun v77 k2_hw51 => k2_hw51

def k2_chk52 (v82 : IVec S16 32) : Prop :=
  (∀ a x, ((![v82] : Fin 1 → IVec S16 32) a x).toNat < S40064.size a)
instance k2_chk52.dec : ∀ (v82 : IVec S16 32), Decidable (k2_chk52 v82) := fun v82 => decidable_of_iff' _ (Iff.of_eq (k2_chk52.eq_1 v82))
theorem k2_idx52_inb : ∀ (v82 : IVec S16 32) (k2_hw52 : k2_chk52 v82), ∀ a x, ((![v82] : Fin 1 → IVec S16 32) a x).toNat < S40064.size a := fun v82 k2_hw52 => k2_hw52

def k2_chk53 (v90 : IVec S16 32) : Prop :=
  (∀ a x, ((![v90] : Fin 1 → IVec S16 32) a x).toNat < S40064.size a)
instance k2_chk53.dec : ∀ (v90 : IVec S16 32), Decidable (k2_chk53 v90) := fun v90 => decidable_of_iff' _ (Iff.of_eq (k2_chk53.eq_1 v90))
theorem k2_idx53_inb : ∀ (v90 : IVec S16 32) (k2_hw53 : k2_chk53 v90), ∀ a x, ((![v90] : Fin 1 → IVec S16 32) a x).toNat < S40064.size a := fun v90 k2_hw53 => k2_hw53

def k2_chk54 (v95 : IVec S16 32) : Prop :=
  (∀ a x, ((![v95] : Fin 1 → IVec S16 32) a x).toNat < S40064.size a)
instance k2_chk54.dec : ∀ (v95 : IVec S16 32), Decidable (k2_chk54 v95) := fun v95 => decidable_of_iff' _ (Iff.of_eq (k2_chk54.eq_1 v95))
theorem k2_idx54_inb : ∀ (v95 : IVec S16 32) (k2_hw54 : k2_chk54 v95), ∀ a x, ((![v95] : Fin 1 → IVec S16 32) a x).toNat < S40064.size a := fun v95 k2_hw54 => k2_hw54

def k2_chk55 (v100 : IVec S16 32) : Prop :=
  (∀ a x, ((![v100] : Fin 1 → IVec S16 32) a x).toNat < S40064.size a)
instance k2_chk55.dec : ∀ (v100 : IVec S16 32), Decidable (k2_chk55 v100) := fun v100 => decidable_of_iff' _ (Iff.of_eq (k2_chk55.eq_1 v100))
theorem k2_idx55_inb : ∀ (v100 : IVec S16 32) (k2_hw55 : k2_chk55 v100), ∀ a x, ((![v100] : Fin 1 → IVec S16 32) a x).toNat < S40064.size a := fun v100 k2_hw55 => k2_hw55

def k2_chk56 (v105 : IVec S16 32) : Prop :=
  (∀ a x, ((![v105] : Fin 1 → IVec S16 32) a x).toNat < S40064.size a)
instance k2_chk56.dec : ∀ (v105 : IVec S16 32), Decidable (k2_chk56 v105) := fun v105 => decidable_of_iff' _ (Iff.of_eq (k2_chk56.eq_1 v105))
theorem k2_idx56_inb : ∀ (v105 : IVec S16 32) (k2_hw56 : k2_chk56 v105), ∀ a x, ((![v105] : Fin 1 → IVec S16 32) a x).toNat < S40064.size a := fun v105 k2_hw56 => k2_hw56

def k2_chk57 (v113 : IVec S16 32) : Prop :=
  (∀ a x, ((![v113] : Fin 1 → IVec S16 32) a x).toNat < S40064.size a)
instance k2_chk57.dec : ∀ (v113 : IVec S16 32), Decidable (k2_chk57 v113) := fun v113 => decidable_of_iff' _ (Iff.of_eq (k2_chk57.eq_1 v113))
theorem k2_idx57_inb : ∀ (v113 : IVec S16 32) (k2_hw57 : k2_chk57 v113), ∀ a x, ((![v113] : Fin 1 → IVec S16 32) a x).toNat < S40064.size a := fun v113 k2_hw57 => k2_hw57

def k2_chk58 (v118 : IVec S16 32) : Prop :=
  (∀ a x, ((![v118] : Fin 1 → IVec S16 32) a x).toNat < S40064.size a)
instance k2_chk58.dec : ∀ (v118 : IVec S16 32), Decidable (k2_chk58 v118) := fun v118 => decidable_of_iff' _ (Iff.of_eq (k2_chk58.eq_1 v118))
theorem k2_idx58_inb : ∀ (v118 : IVec S16 32) (k2_hw58 : k2_chk58 v118), ∀ a x, ((![v118] : Fin 1 → IVec S16 32) a x).toNat < S40064.size a := fun v118 k2_hw58 => k2_hw58

def k2_chk59 (v123 : IVec S16 32) : Prop :=
  (∀ a x, ((![v123] : Fin 1 → IVec S16 32) a x).toNat < S40064.size a)
instance k2_chk59.dec : ∀ (v123 : IVec S16 32), Decidable (k2_chk59 v123) := fun v123 => decidable_of_iff' _ (Iff.of_eq (k2_chk59.eq_1 v123))
theorem k2_idx59_inb : ∀ (v123 : IVec S16 32) (k2_hw59 : k2_chk59 v123), ∀ a x, ((![v123] : Fin 1 → IVec S16 32) a x).toNat < S40064.size a := fun v123 k2_hw59 => k2_hw59

def k2_chk60 (v128 : IVec S16 32) : Prop :=
  (∀ a x, ((![v128] : Fin 1 → IVec S16 32) a x).toNat < S40064.size a)
instance k2_chk60.dec : ∀ (v128 : IVec S16 32), Decidable (k2_chk60 v128) := fun v128 => decidable_of_iff' _ (Iff.of_eq (k2_chk60.eq_1 v128))
theorem k2_idx60_inb : ∀ (v128 : IVec S16 32) (k2_hw60 : k2_chk60 v128), ∀ a x, ((![v128] : Fin 1 → IVec S16 32) a x).toNat < S40064.size a := fun v128 k2_hw60 => k2_hw60

def k2_chk61 (v136 : IVec S16 32) : Prop :=
  (∀ a x, ((![v136] : Fin 1 → IVec S16 32) a x).toNat < S40064.size a)
instance k2_chk61.dec : ∀ (v136 : IVec S16 32), Decidable (k2_chk61 v136) := fun v136 => decidable_of_iff' _ (Iff.of_eq (k2_chk61.eq_1 v136))
theorem k2_idx61_inb : ∀ (v136 : IVec S16 32) (k2_hw61 : k2_chk61 v136), ∀ a x, ((![v136] : Fin 1 → IVec S16 32) a x).toNat < S40064.size a := fun v136 k2_hw61 => k2_hw61

def k2_chk62 (v141 : IVec S16 32) : Prop :=
  (∀ a x, ((![v141] : Fin 1 → IVec S16 32) a x).toNat < S40064.size a)
instance k2_chk62.dec : ∀ (v141 : IVec S16 32), Decidable (k2_chk62 v141) := fun v141 => decidable_of_iff' _ (Iff.of_eq (k2_chk62.eq_1 v141))
theorem k2_idx62_inb : ∀ (v141 : IVec S16 32) (k2_hw62 : k2_chk62 v141), ∀ a x, ((![v141] : Fin 1 → IVec S16 32) a x).toNat < S40064.size a := fun v141 k2_hw62 => k2_hw62

def k2_chk63 (v146 : IVec S16 32) : Prop :=
  (∀ a x, ((![v146] : Fin 1 → IVec S16 32) a x).toNat < S40064.size a)
instance k2_chk63.dec : ∀ (v146 : IVec S16 32), Decidable (k2_chk63 v146) := fun v146 => decidable_of_iff' _ (Iff.of_eq (k2_chk63.eq_1 v146))
theorem k2_idx63_inb : ∀ (v146 : IVec S16 32) (k2_hw63 : k2_chk63 v146), ∀ a x, ((![v146] : Fin 1 → IVec S16 32) a x).toNat < S40064.size a := fun v146 k2_hw63 => k2_hw63

def k2_chk64 (v151 : IVec S16 32) : Prop :=
  (∀ a x, ((![v151] : Fin 1 → IVec S16 32) a x).toNat < S40064.size a)
instance k2_chk64.dec : ∀ (v151 : IVec S16 32), Decidable (k2_chk64 v151) := fun v151 => decidable_of_iff' _ (Iff.of_eq (k2_chk64.eq_1 v151))
theorem k2_idx64_inb : ∀ (v151 : IVec S16 32) (k2_hw64 : k2_chk64 v151), ∀ a x, ((![v151] : Fin 1 → IVec S16 32) a x).toNat < S40064.size a := fun v151 k2_hw64 => k2_hw64
def k2_off13 (i : grid2.Coords) : Fin 3 → Nat :=
  let arg0 : BitVec 32 := BitVec.ofNat 32 (i 0).val
  let c0_i32_6 : BitVec 32 := 0#32
  let c0_i32_7 : BitVec 32 := 0#32
  ![arg0.toNat, 0, 0]
def k2_off14 (i : grid2.Coords) : Fin 4 → Nat :=
  let arg1 : BitVec 32 := BitVec.ofNat 32 (i 1).val
  let arg0 : BitVec 32 := BitVec.ofNat 32 (i 0).val
  let c0_i32_12 : BitVec 32 := 0#32
  let c0_i32_13_r2 : BitVec 32 := 0#32
  ![arg1.toNat, arg0.toNat, 0, 0]
abbrev grid3 : Pipeline.Grid := .none

abbrev stage3_0 : Fin 1 → Memref sig .tc .vmem S64x10000 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x10000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S64x10000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S10000x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S64x10000 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev grid4 : Pipeline.Grid := ⟨2, ![2, 16], ![false, false]⟩

def k4_off1 (i : grid4.Coords) : Fin 3 → Nat :=
  let arg1 : BitVec 32 := BitVec.ofNat 32 (i 1).val
  let c0_i32 : BitVec 32 := 0#32
  let c0_i32_13_r0 : BitVec 32 := 0#32
  ![arg1.toNat, 0, 0]
def k4_mult1 : BitVec 32 :=
  let c0_i32_0 : BitVec 32 := 0#32
  c0_i32_0
def k4_off2 (i : grid4.Coords) : Fin 3 → Nat :=
  let arg0 : BitVec 32 := BitVec.ofNat 32 (i 0).val
  let c0_i32_1 : BitVec 32 := 0#32
  let c0_i32_0 : BitVec 32 := 0#32
  let v0 : BitVec 32 := c0_i32_0
  ![arg0.toNat, 0, 0]
@[reducible] def k4_t1_loop : Scf.Loop 32 :=
  let c0_i32_4 : BitVec 32 := 0#32
  let c10_i32 : BitVec 32 := 10#32
  let v9 : BitVec 32 := Scalar.addi c0_i32_4 c10_i32
  let c1_i32 : BitVec 32 := 1#32
  ⟨c0_i32_4, v9, c1_i32⟩
def k4_off3 (i : grid4.Coords) : Fin 3 → Nat :=
  let arg0 : BitVec 32 := BitVec.ofNat 32 (i 0).val
  let c0_i32_13 : BitVec 32 := 0#32
  let c0_i32_14 : BitVec 32 := 0#32
  ![arg0.toNat, 0, 0]
def k4_mult2 (k4_t1 : Fin k4_t1_loop.trips) : BitVec 32 :=
  let c0_i32_4 : BitVec 32 := 0#32
  let c1_i32 : BitVec 32 := 1#32
  let arg17 : BitVec 32 := Scf.iv c0_i32_4 c1_i32 k4_t1
  let c2_i32 : BitVec 32 := 2#32
  let v18 : BitVec 32 := Scalar.muli arg17 c2_i32
  let c1_i32_19 : BitVec 32 := 1#32
  let v27 : BitVec 32 := Scalar.addi v18 c1_i32_19
  let c19_i32 : BitVec 32 := 19#32
  let v28 : BitVec 32 := Scalar.minsi v27 c19_i32
  let c8192_i32 : BitVec 32 := 8192#32
  let v29 : BitVec 32 := Scalar.muli v28 c8192_i32
  v29
def k4_off4 (i : grid4.Coords) (k4_t1 : Fin k4_t1_loop.trips) (c1_i32_19 : BitVec 32) : Fin 3 → Nat :=
  let arg0 : BitVec 32 := BitVec.ofNat 32 (i 0).val
  let c0_i32_20 : BitVec 32 := 0#32
  let c0_i32_4 : BitVec 32 := 0#32
  let c1_i32 : BitVec 32 := 1#32
  let arg17 : BitVec 32 := Scf.iv c0_i32_4 c1_i32 k4_t1
  let c2_i32 : BitVec 32 := 2#32
  let v18 : BitVec 32 := Scalar.muli arg17 c2_i32
  let v27 : BitVec 32 := Scalar.addi v18 c1_i32_19
  let c19_i32 : BitVec 32 := 19#32
  let v28 : BitVec 32 := Scalar.minsi v27 c19_i32
  let c8192_i32 : BitVec 32 := 8192#32
  let v29 : BitVec 32 := Scalar.muli v28 c8192_i32
  let v30 : BitVec 32 := v29
  ![arg0.toNat, 0, v30.toNat]
@[reducible] def k4_t2_loop : Scf.Loop 32 :=
  let c0_i32_23 : BitVec 32 := 0#32
  let c128_i32 : BitVec 32 := 128#32
  let v39 : BitVec 32 := Scalar.addi c0_i32_23 c128_i32
  let c1_i32_24 : BitVec 32 := 1#32
  ⟨c0_i32_23, v39, c1_i32_24⟩
def k4_off5 (k4_t2 : Fin k4_t2_loop.trips) : Fin 1 → Nat :=
  let c0_i32_23 : BitVec 32 := 0#32
  let c1_i32_24 : BitVec 32 := 1#32
  let arg18 : BitVec 32 := Scf.iv c0_i32_23 c1_i32_24 k4_t2
  let c4_i32 : BitVec 32 := 4#32
  let v61 : BitVec 32 := Scalar.muli arg18 c4_i32
  let c0_i32_42 : BitVec 32 := 0#32
  let v62 : BitVec 32 := Scalar.addi v61 c0_i32_42
  let c16_i32 : BitVec 32 := 16#32
  let v63 : BitVec 32 := Scalar.muli v62 c16_i32
  let v64 : Index := Scalar.indexCast v63
  ![v64.toNat]

def k4_chk1 (v65 : IVec S16 32) : Prop :=
  (∀ a x, ((![v65] : Fin 1 → IVec S16 32) a x).toNat < S40064.size a)
instance k4_chk1.dec : ∀ (v65 : IVec S16 32), Decidable (k4_chk1 v65) := fun v65 => decidable_of_iff' _ (Iff.of_eq (k4_chk1.eq_1 v65))
theorem k4_idx1_inb : ∀ (v65 : IVec S16 32) (k4_hw1 : k4_chk1 v65), ∀ a x, ((![v65] : Fin 1 → IVec S16 32) a x).toNat < S40064.size a := fun v65 k4_hw1 => k4_hw1

def k4_chk2 (v70 : IVec S16 32) : Prop :=
  (∀ a x, ((![v70] : Fin 1 → IVec S16 32) a x).toNat < S40064.size a)
instance k4_chk2.dec : ∀ (v70 : IVec S16 32), Decidable (k4_chk2 v70) := fun v70 => decidable_of_iff' _ (Iff.of_eq (k4_chk2.eq_1 v70))
theorem k4_idx2_inb : ∀ (v70 : IVec S16 32) (k4_hw2 : k4_chk2 v70), ∀ a x, ((![v70] : Fin 1 → IVec S16 32) a x).toNat < S40064.size a := fun v70 k4_hw2 => k4_hw2

def k4_chk3 (v75 : IVec S16 32) : Prop :=
  (∀ a x, ((![v75] : Fin 1 → IVec S16 32) a x).toNat < S40064.size a)
instance k4_chk3.dec : ∀ (v75 : IVec S16 32), Decidable (k4_chk3 v75) := fun v75 => decidable_of_iff' _ (Iff.of_eq (k4_chk3.eq_1 v75))
theorem k4_idx3_inb : ∀ (v75 : IVec S16 32) (k4_hw3 : k4_chk3 v75), ∀ a x, ((![v75] : Fin 1 → IVec S16 32) a x).toNat < S40064.size a := fun v75 k4_hw3 => k4_hw3

def k4_chk4 (v80 : IVec S16 32) : Prop :=
  (∀ a x, ((![v80] : Fin 1 → IVec S16 32) a x).toNat < S40064.size a)
instance k4_chk4.dec : ∀ (v80 : IVec S16 32), Decidable (k4_chk4 v80) := fun v80 => decidable_of_iff' _ (Iff.of_eq (k4_chk4.eq_1 v80))
theorem k4_idx4_inb : ∀ (v80 : IVec S16 32) (k4_hw4 : k4_chk4 v80), ∀ a x, ((![v80] : Fin 1 → IVec S16 32) a x).toNat < S40064.size a := fun v80 k4_hw4 => k4_hw4
def k4_off6 (k4_t2 : Fin k4_t2_loop.trips) : Fin 1 → Nat :=
  let c0_i32_23 : BitVec 32 := 0#32
  let c1_i32_24 : BitVec 32 := 1#32
  let arg18 : BitVec 32 := Scf.iv c0_i32_23 c1_i32_24 k4_t2
  let c4_i32_46 : BitVec 32 := 4#32
  let v84 : BitVec 32 := Scalar.muli arg18 c4_i32_46
  let c1_i32_47 : BitVec 32 := 1#32
  let v85 : BitVec 32 := Scalar.addi v84 c1_i32_47
  let c16_i32_48 : BitVec 32 := 16#32
  let v86 : BitVec 32 := Scalar.muli v85 c16_i32_48
  let v87 : Index := Scalar.indexCast v86
  ![v87.toNat]

def k4_chk5 (v88 : IVec S16 32) : Prop :=
  (∀ a x, ((![v88] : Fin 1 → IVec S16 32) a x).toNat < S40064.size a)
instance k4_chk5.dec : ∀ (v88 : IVec S16 32), Decidable (k4_chk5 v88) := fun v88 => decidable_of_iff' _ (Iff.of_eq (k4_chk5.eq_1 v88))
theorem k4_idx5_inb : ∀ (v88 : IVec S16 32) (k4_hw5 : k4_chk5 v88), ∀ a x, ((![v88] : Fin 1 → IVec S16 32) a x).toNat < S40064.size a := fun v88 k4_hw5 => k4_hw5

def k4_chk6 (v93 : IVec S16 32) : Prop :=
  (∀ a x, ((![v93] : Fin 1 → IVec S16 32) a x).toNat < S40064.size a)
instance k4_chk6.dec : ∀ (v93 : IVec S16 32), Decidable (k4_chk6 v93) := fun v93 => decidable_of_iff' _ (Iff.of_eq (k4_chk6.eq_1 v93))
theorem k4_idx6_inb : ∀ (v93 : IVec S16 32) (k4_hw6 : k4_chk6 v93), ∀ a x, ((![v93] : Fin 1 → IVec S16 32) a x).toNat < S40064.size a := fun v93 k4_hw6 => k4_hw6

def k4_chk7 (v98 : IVec S16 32) : Prop :=
  (∀ a x, ((![v98] : Fin 1 → IVec S16 32) a x).toNat < S40064.size a)
instance k4_chk7.dec : ∀ (v98 : IVec S16 32), Decidable (k4_chk7 v98) := fun v98 => decidable_of_iff' _ (Iff.of_eq (k4_chk7.eq_1 v98))
theorem k4_idx7_inb : ∀ (v98 : IVec S16 32) (k4_hw7 : k4_chk7 v98), ∀ a x, ((![v98] : Fin 1 → IVec S16 32) a x).toNat < S40064.size a := fun v98 k4_hw7 => k4_hw7

def k4_chk8 (v103 : IVec S16 32) : Prop :=
  (∀ a x, ((![v103] : Fin 1 → IVec S16 32) a x).toNat < S40064.size a)
instance k4_chk8.dec : ∀ (v103 : IVec S16 32), Decidable (k4_chk8 v103) := fun v103 => decidable_of_iff' _ (Iff.of_eq (k4_chk8.eq_1 v103))
theorem k4_idx8_inb : ∀ (v103 : IVec S16 32) (k4_hw8 : k4_chk8 v103), ∀ a x, ((![v103] : Fin 1 → IVec S16 32) a x).toNat < S40064.size a := fun v103 k4_hw8 => k4_hw8
def k4_off7 (k4_t2 : Fin k4_t2_loop.trips) : Fin 1 → Nat :=
  let c0_i32_23 : BitVec 32 := 0#32
  let c1_i32_24 : BitVec 32 := 1#32
  let arg18 : BitVec 32 := Scf.iv c0_i32_23 c1_i32_24 k4_t2
  let c4_i32_55 : BitVec 32 := 4#32
  let v107 : BitVec 32 := Scalar.muli arg18 c4_i32_55
  let c2_i32_56 : BitVec 32 := 2#32
  let v108 : BitVec 32 := Scalar.addi v107 c2_i32_56
  let c16_i32_57 : BitVec 32 := 16#32
  let v109 : BitVec 32 := Scalar.muli v108 c16_i32_57
  let v110 : Index := Scalar.indexCast v109
  ![v110.toNat]

def k4_chk9 (v111 : IVec S16 32) : Prop :=
  (∀ a x, ((![v111] : Fin 1 → IVec S16 32) a x).toNat < S40064.size a)
instance k4_chk9.dec : ∀ (v111 : IVec S16 32), Decidable (k4_chk9 v111) := fun v111 => decidable_of_iff' _ (Iff.of_eq (k4_chk9.eq_1 v111))
theorem k4_idx9_inb : ∀ (v111 : IVec S16 32) (k4_hw9 : k4_chk9 v111), ∀ a x, ((![v111] : Fin 1 → IVec S16 32) a x).toNat < S40064.size a := fun v111 k4_hw9 => k4_hw9

def k4_chk10 (v116 : IVec S16 32) : Prop :=
  (∀ a x, ((![v116] : Fin 1 → IVec S16 32) a x).toNat < S40064.size a)
instance k4_chk10.dec : ∀ (v116 : IVec S16 32), Decidable (k4_chk10 v116) := fun v116 => decidable_of_iff' _ (Iff.of_eq (k4_chk10.eq_1 v116))
theorem k4_idx10_inb : ∀ (v116 : IVec S16 32) (k4_hw10 : k4_chk10 v116), ∀ a x, ((![v116] : Fin 1 → IVec S16 32) a x).toNat < S40064.size a := fun v116 k4_hw10 => k4_hw10

def k4_chk11 (v121 : IVec S16 32) : Prop :=
  (∀ a x, ((![v121] : Fin 1 → IVec S16 32) a x).toNat < S40064.size a)
instance k4_chk11.dec : ∀ (v121 : IVec S16 32), Decidable (k4_chk11 v121) := fun v121 => decidable_of_iff' _ (Iff.of_eq (k4_chk11.eq_1 v121))
theorem k4_idx11_inb : ∀ (v121 : IVec S16 32) (k4_hw11 : k4_chk11 v121), ∀ a x, ((![v121] : Fin 1 → IVec S16 32) a x).toNat < S40064.size a := fun v121 k4_hw11 => k4_hw11

def k4_chk12 (v126 : IVec S16 32) : Prop :=
  (∀ a x, ((![v126] : Fin 1 → IVec S16 32) a x).toNat < S40064.size a)
instance k4_chk12.dec : ∀ (v126 : IVec S16 32), Decidable (k4_chk12 v126) := fun v126 => decidable_of_iff' _ (Iff.of_eq (k4_chk12.eq_1 v126))
theorem k4_idx12_inb : ∀ (v126 : IVec S16 32) (k4_hw12 : k4_chk12 v126), ∀ a x, ((![v126] : Fin 1 → IVec S16 32) a x).toNat < S40064.size a := fun v126 k4_hw12 => k4_hw12
def k4_off8 (k4_t2 : Fin k4_t2_loop.trips) : Fin 1 → Nat :=
  let c0_i32_23 : BitVec 32 := 0#32
  let c1_i32_24 : BitVec 32 := 1#32
  let arg18 : BitVec 32 := Scf.iv c0_i32_23 c1_i32_24 k4_t2
  let c4_i32_64 : BitVec 32 := 4#32
  let v130 : BitVec 32 := Scalar.muli arg18 c4_i32_64
  let c3_i32 : BitVec 32 := 3#32
  let v131 : BitVec 32 := Scalar.addi v130 c3_i32
  let c16_i32_65 : BitVec 32 := 16#32
  let v132 : BitVec 32 := Scalar.muli v131 c16_i32_65
  let v133 : Index := Scalar.indexCast v132
  ![v133.toNat]

def k4_chk13 (v134 : IVec S16 32) : Prop :=
  (∀ a x, ((![v134] : Fin 1 → IVec S16 32) a x).toNat < S40064.size a)
instance k4_chk13.dec : ∀ (v134 : IVec S16 32), Decidable (k4_chk13 v134) := fun v134 => decidable_of_iff' _ (Iff.of_eq (k4_chk13.eq_1 v134))
theorem k4_idx13_inb : ∀ (v134 : IVec S16 32) (k4_hw13 : k4_chk13 v134), ∀ a x, ((![v134] : Fin 1 → IVec S16 32) a x).toNat < S40064.size a := fun v134 k4_hw13 => k4_hw13

def k4_chk14 (v139 : IVec S16 32) : Prop :=
  (∀ a x, ((![v139] : Fin 1 → IVec S16 32) a x).toNat < S40064.size a)
instance k4_chk14.dec : ∀ (v139 : IVec S16 32), Decidable (k4_chk14 v139) := fun v139 => decidable_of_iff' _ (Iff.of_eq (k4_chk14.eq_1 v139))
theorem k4_idx14_inb : ∀ (v139 : IVec S16 32) (k4_hw14 : k4_chk14 v139), ∀ a x, ((![v139] : Fin 1 → IVec S16 32) a x).toNat < S40064.size a := fun v139 k4_hw14 => k4_hw14

def k4_chk15 (v144 : IVec S16 32) : Prop :=
  (∀ a x, ((![v144] : Fin 1 → IVec S16 32) a x).toNat < S40064.size a)
instance k4_chk15.dec : ∀ (v144 : IVec S16 32), Decidable (k4_chk15 v144) := fun v144 => decidable_of_iff' _ (Iff.of_eq (k4_chk15.eq_1 v144))
theorem k4_idx15_inb : ∀ (v144 : IVec S16 32) (k4_hw15 : k4_chk15 v144), ∀ a x, ((![v144] : Fin 1 → IVec S16 32) a x).toNat < S40064.size a := fun v144 k4_hw15 => k4_hw15

def k4_chk16 (v149 : IVec S16 32) : Prop :=
  (∀ a x, ((![v149] : Fin 1 → IVec S16 32) a x).toNat < S40064.size a)
instance k4_chk16.dec : ∀ (v149 : IVec S16 32), Decidable (k4_chk16 v149) := fun v149 => decidable_of_iff' _ (Iff.of_eq (k4_chk16.eq_1 v149))
theorem k4_idx16_inb : ∀ (v149 : IVec S16 32) (k4_hw16 : k4_chk16 v149), ∀ a x, ((![v149] : Fin 1 → IVec S16 32) a x).toNat < S40064.size a := fun v149 k4_hw16 => k4_hw16

def k4_chk17 (v67 : IVec S16 32) : Prop :=
  (∀ a x, ((![v67] : Fin 1 → IVec S16 32) a x).toNat < S40064.size a)
instance k4_chk17.dec : ∀ (v67 : IVec S16 32), Decidable (k4_chk17 v67) := fun v67 => decidable_of_iff' _ (Iff.of_eq (k4_chk17.eq_1 v67))
theorem k4_idx17_inb : ∀ (v67 : IVec S16 32) (k4_hw17 : k4_chk17 v67), ∀ a x, ((![v67] : Fin 1 → IVec S16 32) a x).toNat < S40064.size a := fun v67 k4_hw17 => k4_hw17

def k4_chk18 (v72 : IVec S16 32) : Prop :=
  (∀ a x, ((![v72] : Fin 1 → IVec S16 32) a x).toNat < S40064.size a)
instance k4_chk18.dec : ∀ (v72 : IVec S16 32), Decidable (k4_chk18 v72) := fun v72 => decidable_of_iff' _ (Iff.of_eq (k4_chk18.eq_1 v72))
theorem k4_idx18_inb : ∀ (v72 : IVec S16 32) (k4_hw18 : k4_chk18 v72), ∀ a x, ((![v72] : Fin 1 → IVec S16 32) a x).toNat < S40064.size a := fun v72 k4_hw18 => k4_hw18

def k4_chk19 (v77 : IVec S16 32) : Prop :=
  (∀ a x, ((![v77] : Fin 1 → IVec S16 32) a x).toNat < S40064.size a)
instance k4_chk19.dec : ∀ (v77 : IVec S16 32), Decidable (k4_chk19 v77) := fun v77 => decidable_of_iff' _ (Iff.of_eq (k4_chk19.eq_1 v77))
theorem k4_idx19_inb : ∀ (v77 : IVec S16 32) (k4_hw19 : k4_chk19 v77), ∀ a x, ((![v77] : Fin 1 → IVec S16 32) a x).toNat < S40064.size a := fun v77 k4_hw19 => k4_hw19

def k4_chk20 (v82 : IVec S16 32) : Prop :=
  (∀ a x, ((![v82] : Fin 1 → IVec S16 32) a x).toNat < S40064.size a)
instance k4_chk20.dec : ∀ (v82 : IVec S16 32), Decidable (k4_chk20 v82) := fun v82 => decidable_of_iff' _ (Iff.of_eq (k4_chk20.eq_1 v82))
theorem k4_idx20_inb : ∀ (v82 : IVec S16 32) (k4_hw20 : k4_chk20 v82), ∀ a x, ((![v82] : Fin 1 → IVec S16 32) a x).toNat < S40064.size a := fun v82 k4_hw20 => k4_hw20

def k4_chk21 (v90 : IVec S16 32) : Prop :=
  (∀ a x, ((![v90] : Fin 1 → IVec S16 32) a x).toNat < S40064.size a)
instance k4_chk21.dec : ∀ (v90 : IVec S16 32), Decidable (k4_chk21 v90) := fun v90 => decidable_of_iff' _ (Iff.of_eq (k4_chk21.eq_1 v90))
theorem k4_idx21_inb : ∀ (v90 : IVec S16 32) (k4_hw21 : k4_chk21 v90), ∀ a x, ((![v90] : Fin 1 → IVec S16 32) a x).toNat < S40064.size a := fun v90 k4_hw21 => k4_hw21

def k4_chk22 (v95 : IVec S16 32) : Prop :=
  (∀ a x, ((![v95] : Fin 1 → IVec S16 32) a x).toNat < S40064.size a)
instance k4_chk22.dec : ∀ (v95 : IVec S16 32), Decidable (k4_chk22 v95) := fun v95 => decidable_of_iff' _ (Iff.of_eq (k4_chk22.eq_1 v95))
theorem k4_idx22_inb : ∀ (v95 : IVec S16 32) (k4_hw22 : k4_chk22 v95), ∀ a x, ((![v95] : Fin 1 → IVec S16 32) a x).toNat < S40064.size a := fun v95 k4_hw22 => k4_hw22

def k4_chk23 (v100 : IVec S16 32) : Prop :=
  (∀ a x, ((![v100] : Fin 1 → IVec S16 32) a x).toNat < S40064.size a)
instance k4_chk23.dec : ∀ (v100 : IVec S16 32), Decidable (k4_chk23 v100) := fun v100 => decidable_of_iff' _ (Iff.of_eq (k4_chk23.eq_1 v100))
theorem k4_idx23_inb : ∀ (v100 : IVec S16 32) (k4_hw23 : k4_chk23 v100), ∀ a x, ((![v100] : Fin 1 → IVec S16 32) a x).toNat < S40064.size a := fun v100 k4_hw23 => k4_hw23

def k4_chk24 (v105 : IVec S16 32) : Prop :=
  (∀ a x, ((![v105] : Fin 1 → IVec S16 32) a x).toNat < S40064.size a)
instance k4_chk24.dec : ∀ (v105 : IVec S16 32), Decidable (k4_chk24 v105) := fun v105 => decidable_of_iff' _ (Iff.of_eq (k4_chk24.eq_1 v105))
theorem k4_idx24_inb : ∀ (v105 : IVec S16 32) (k4_hw24 : k4_chk24 v105), ∀ a x, ((![v105] : Fin 1 → IVec S16 32) a x).toNat < S40064.size a := fun v105 k4_hw24 => k4_hw24

def k4_chk25 (v113 : IVec S16 32) : Prop :=
  (∀ a x, ((![v113] : Fin 1 → IVec S16 32) a x).toNat < S40064.size a)
instance k4_chk25.dec : ∀ (v113 : IVec S16 32), Decidable (k4_chk25 v113) := fun v113 => decidable_of_iff' _ (Iff.of_eq (k4_chk25.eq_1 v113))
theorem k4_idx25_inb : ∀ (v113 : IVec S16 32) (k4_hw25 : k4_chk25 v113), ∀ a x, ((![v113] : Fin 1 → IVec S16 32) a x).toNat < S40064.size a := fun v113 k4_hw25 => k4_hw25

def k4_chk26 (v118 : IVec S16 32) : Prop :=
  (∀ a x, ((![v118] : Fin 1 → IVec S16 32) a x).toNat < S40064.size a)
instance k4_chk26.dec : ∀ (v118 : IVec S16 32), Decidable (k4_chk26 v118) := fun v118 => decidable_of_iff' _ (Iff.of_eq (k4_chk26.eq_1 v118))
theorem k4_idx26_inb : ∀ (v118 : IVec S16 32) (k4_hw26 : k4_chk26 v118), ∀ a x, ((![v118] : Fin 1 → IVec S16 32) a x).toNat < S40064.size a := fun v118 k4_hw26 => k4_hw26

def k4_chk27 (v123 : IVec S16 32) : Prop :=
  (∀ a x, ((![v123] : Fin 1 → IVec S16 32) a x).toNat < S40064.size a)
instance k4_chk27.dec : ∀ (v123 : IVec S16 32), Decidable (k4_chk27 v123) := fun v123 => decidable_of_iff' _ (Iff.of_eq (k4_chk27.eq_1 v123))
theorem k4_idx27_inb : ∀ (v123 : IVec S16 32) (k4_hw27 : k4_chk27 v123), ∀ a x, ((![v123] : Fin 1 → IVec S16 32) a x).toNat < S40064.size a := fun v123 k4_hw27 => k4_hw27

def k4_chk28 (v128 : IVec S16 32) : Prop :=
  (∀ a x, ((![v128] : Fin 1 → IVec S16 32) a x).toNat < S40064.size a)
instance k4_chk28.dec : ∀ (v128 : IVec S16 32), Decidable (k4_chk28 v128) := fun v128 => decidable_of_iff' _ (Iff.of_eq (k4_chk28.eq_1 v128))
theorem k4_idx28_inb : ∀ (v128 : IVec S16 32) (k4_hw28 : k4_chk28 v128), ∀ a x, ((![v128] : Fin 1 → IVec S16 32) a x).toNat < S40064.size a := fun v128 k4_hw28 => k4_hw28

def k4_chk29 (v136 : IVec S16 32) : Prop :=
  (∀ a x, ((![v136] : Fin 1 → IVec S16 32) a x).toNat < S40064.size a)
instance k4_chk29.dec : ∀ (v136 : IVec S16 32), Decidable (k4_chk29 v136) := fun v136 => decidable_of_iff' _ (Iff.of_eq (k4_chk29.eq_1 v136))
theorem k4_idx29_inb : ∀ (v136 : IVec S16 32) (k4_hw29 : k4_chk29 v136), ∀ a x, ((![v136] : Fin 1 → IVec S16 32) a x).toNat < S40064.size a := fun v136 k4_hw29 => k4_hw29

def k4_chk30 (v141 : IVec S16 32) : Prop :=
  (∀ a x, ((![v141] : Fin 1 → IVec S16 32) a x).toNat < S40064.size a)
instance k4_chk30.dec : ∀ (v141 : IVec S16 32), Decidable (k4_chk30 v141) := fun v141 => decidable_of_iff' _ (Iff.of_eq (k4_chk30.eq_1 v141))
theorem k4_idx30_inb : ∀ (v141 : IVec S16 32) (k4_hw30 : k4_chk30 v141), ∀ a x, ((![v141] : Fin 1 → IVec S16 32) a x).toNat < S40064.size a := fun v141 k4_hw30 => k4_hw30

def k4_chk31 (v146 : IVec S16 32) : Prop :=
  (∀ a x, ((![v146] : Fin 1 → IVec S16 32) a x).toNat < S40064.size a)
instance k4_chk31.dec : ∀ (v146 : IVec S16 32), Decidable (k4_chk31 v146) := fun v146 => decidable_of_iff' _ (Iff.of_eq (k4_chk31.eq_1 v146))
theorem k4_idx31_inb : ∀ (v146 : IVec S16 32) (k4_hw31 : k4_chk31 v146), ∀ a x, ((![v146] : Fin 1 → IVec S16 32) a x).toNat < S40064.size a := fun v146 k4_hw31 => k4_hw31

def k4_chk32 (v151 : IVec S16 32) : Prop :=
  (∀ a x, ((![v151] : Fin 1 → IVec S16 32) a x).toNat < S40064.size a)
instance k4_chk32.dec : ∀ (v151 : IVec S16 32), Decidable (k4_chk32 v151) := fun v151 => decidable_of_iff' _ (Iff.of_eq (k4_chk32.eq_1 v151))
theorem k4_idx32_inb : ∀ (v151 : IVec S16 32) (k4_hw32 : k4_chk32 v151), ∀ a x, ((![v151] : Fin 1 → IVec S16 32) a x).toNat < S40064.size a := fun v151 k4_hw32 => k4_hw32
def k4_mult3 (k4_t1 : Fin k4_t1_loop.trips) : BitVec 32 :=
  let c0_i32_4 : BitVec 32 := 0#32
  let c1_i32 : BitVec 32 := 1#32
  let arg17 : BitVec 32 := Scf.iv c0_i32_4 c1_i32 k4_t1
  let c2_i32 : BitVec 32 := 2#32
  let v18 : BitVec 32 := Scalar.muli arg17 c2_i32
  let c2_i32_32 : BitVec 32 := 2#32
  let v48 : BitVec 32 := Scalar.addi v18 c2_i32_32
  let c19_i32_33 : BitVec 32 := 19#32
  let v49 : BitVec 32 := Scalar.minsi v48 c19_i32_33
  let c8192_i32_34 : BitVec 32 := 8192#32
  let v50 : BitVec 32 := Scalar.muli v49 c8192_i32_34
  v50
@[reducible] def k4_t3_loop : Scf.Loop 32 :=
  let c0_i32_38 : BitVec 32 := 0#32
  let c128_i32_39 : BitVec 32 := 128#32
  let v60 : BitVec 32 := Scalar.addi c0_i32_38 c128_i32_39
  let c1_i32_40 : BitVec 32 := 1#32
  ⟨c0_i32_38, v60, c1_i32_40⟩
def k4_off9 (k4_t3 : Fin k4_t3_loop.trips) : Fin 1 → Nat :=
  let c0_i32_38 : BitVec 32 := 0#32
  let c1_i32_40 : BitVec 32 := 1#32
  let arg18 : BitVec 32 := Scf.iv c0_i32_38 c1_i32_40 k4_t3
  let c4_i32 : BitVec 32 := 4#32
  let v61 : BitVec 32 := Scalar.muli arg18 c4_i32
  let c0_i32_42 : BitVec 32 := 0#32
  let v62 : BitVec 32 := Scalar.addi v61 c0_i32_42
  let c16_i32 : BitVec 32 := 16#32
  let v63 : BitVec 32 := Scalar.muli v62 c16_i32
  let v64 : Index := Scalar.indexCast v63
  ![v64.toNat]

def k4_chk33 (v65 : IVec S16 32) : Prop :=
  (∀ a x, ((![v65] : Fin 1 → IVec S16 32) a x).toNat < S40064.size a)
instance k4_chk33.dec : ∀ (v65 : IVec S16 32), Decidable (k4_chk33 v65) := fun v65 => decidable_of_iff' _ (Iff.of_eq (k4_chk33.eq_1 v65))
theorem k4_idx33_inb : ∀ (v65 : IVec S16 32) (k4_hw33 : k4_chk33 v65), ∀ a x, ((![v65] : Fin 1 → IVec S16 32) a x).toNat < S40064.size a := fun v65 k4_hw33 => k4_hw33

def k4_chk34 (v70 : IVec S16 32) : Prop :=
  (∀ a x, ((![v70] : Fin 1 → IVec S16 32) a x).toNat < S40064.size a)
instance k4_chk34.dec : ∀ (v70 : IVec S16 32), Decidable (k4_chk34 v70) := fun v70 => decidable_of_iff' _ (Iff.of_eq (k4_chk34.eq_1 v70))
theorem k4_idx34_inb : ∀ (v70 : IVec S16 32) (k4_hw34 : k4_chk34 v70), ∀ a x, ((![v70] : Fin 1 → IVec S16 32) a x).toNat < S40064.size a := fun v70 k4_hw34 => k4_hw34

def k4_chk35 (v75 : IVec S16 32) : Prop :=
  (∀ a x, ((![v75] : Fin 1 → IVec S16 32) a x).toNat < S40064.size a)
instance k4_chk35.dec : ∀ (v75 : IVec S16 32), Decidable (k4_chk35 v75) := fun v75 => decidable_of_iff' _ (Iff.of_eq (k4_chk35.eq_1 v75))
theorem k4_idx35_inb : ∀ (v75 : IVec S16 32) (k4_hw35 : k4_chk35 v75), ∀ a x, ((![v75] : Fin 1 → IVec S16 32) a x).toNat < S40064.size a := fun v75 k4_hw35 => k4_hw35

def k4_chk36 (v80 : IVec S16 32) : Prop :=
  (∀ a x, ((![v80] : Fin 1 → IVec S16 32) a x).toNat < S40064.size a)
instance k4_chk36.dec : ∀ (v80 : IVec S16 32), Decidable (k4_chk36 v80) := fun v80 => decidable_of_iff' _ (Iff.of_eq (k4_chk36.eq_1 v80))
theorem k4_idx36_inb : ∀ (v80 : IVec S16 32) (k4_hw36 : k4_chk36 v80), ∀ a x, ((![v80] : Fin 1 → IVec S16 32) a x).toNat < S40064.size a := fun v80 k4_hw36 => k4_hw36
def k4_off10 (k4_t3 : Fin k4_t3_loop.trips) : Fin 1 → Nat :=
  let c0_i32_38 : BitVec 32 := 0#32
  let c1_i32_40 : BitVec 32 := 1#32
  let arg18 : BitVec 32 := Scf.iv c0_i32_38 c1_i32_40 k4_t3
  let c4_i32_46 : BitVec 32 := 4#32
  let v84 : BitVec 32 := Scalar.muli arg18 c4_i32_46
  let c1_i32_47 : BitVec 32 := 1#32
  let v85 : BitVec 32 := Scalar.addi v84 c1_i32_47
  let c16_i32_48 : BitVec 32 := 16#32
  let v86 : BitVec 32 := Scalar.muli v85 c16_i32_48
  let v87 : Index := Scalar.indexCast v86
  ![v87.toNat]

def k4_chk37 (v88 : IVec S16 32) : Prop :=
  (∀ a x, ((![v88] : Fin 1 → IVec S16 32) a x).toNat < S40064.size a)
instance k4_chk37.dec : ∀ (v88 : IVec S16 32), Decidable (k4_chk37 v88) := fun v88 => decidable_of_iff' _ (Iff.of_eq (k4_chk37.eq_1 v88))
theorem k4_idx37_inb : ∀ (v88 : IVec S16 32) (k4_hw37 : k4_chk37 v88), ∀ a x, ((![v88] : Fin 1 → IVec S16 32) a x).toNat < S40064.size a := fun v88 k4_hw37 => k4_hw37

def k4_chk38 (v93 : IVec S16 32) : Prop :=
  (∀ a x, ((![v93] : Fin 1 → IVec S16 32) a x).toNat < S40064.size a)
instance k4_chk38.dec : ∀ (v93 : IVec S16 32), Decidable (k4_chk38 v93) := fun v93 => decidable_of_iff' _ (Iff.of_eq (k4_chk38.eq_1 v93))
theorem k4_idx38_inb : ∀ (v93 : IVec S16 32) (k4_hw38 : k4_chk38 v93), ∀ a x, ((![v93] : Fin 1 → IVec S16 32) a x).toNat < S40064.size a := fun v93 k4_hw38 => k4_hw38

def k4_chk39 (v98 : IVec S16 32) : Prop :=
  (∀ a x, ((![v98] : Fin 1 → IVec S16 32) a x).toNat < S40064.size a)
instance k4_chk39.dec : ∀ (v98 : IVec S16 32), Decidable (k4_chk39 v98) := fun v98 => decidable_of_iff' _ (Iff.of_eq (k4_chk39.eq_1 v98))
theorem k4_idx39_inb : ∀ (v98 : IVec S16 32) (k4_hw39 : k4_chk39 v98), ∀ a x, ((![v98] : Fin 1 → IVec S16 32) a x).toNat < S40064.size a := fun v98 k4_hw39 => k4_hw39

def k4_chk40 (v103 : IVec S16 32) : Prop :=
  (∀ a x, ((![v103] : Fin 1 → IVec S16 32) a x).toNat < S40064.size a)
instance k4_chk40.dec : ∀ (v103 : IVec S16 32), Decidable (k4_chk40 v103) := fun v103 => decidable_of_iff' _ (Iff.of_eq (k4_chk40.eq_1 v103))
theorem k4_idx40_inb : ∀ (v103 : IVec S16 32) (k4_hw40 : k4_chk40 v103), ∀ a x, ((![v103] : Fin 1 → IVec S16 32) a x).toNat < S40064.size a := fun v103 k4_hw40 => k4_hw40
def k4_off11 (k4_t3 : Fin k4_t3_loop.trips) : Fin 1 → Nat :=
  let c0_i32_38 : BitVec 32 := 0#32
  let c1_i32_40 : BitVec 32 := 1#32
  let arg18 : BitVec 32 := Scf.iv c0_i32_38 c1_i32_40 k4_t3
  let c4_i32_55 : BitVec 32 := 4#32
  let v107 : BitVec 32 := Scalar.muli arg18 c4_i32_55
  let c2_i32_56 : BitVec 32 := 2#32
  let v108 : BitVec 32 := Scalar.addi v107 c2_i32_56
  let c16_i32_57 : BitVec 32 := 16#32
  let v109 : BitVec 32 := Scalar.muli v108 c16_i32_57
  let v110 : Index := Scalar.indexCast v109
  ![v110.toNat]

def k4_chk41 (v111 : IVec S16 32) : Prop :=
  (∀ a x, ((![v111] : Fin 1 → IVec S16 32) a x).toNat < S40064.size a)
instance k4_chk41.dec : ∀ (v111 : IVec S16 32), Decidable (k4_chk41 v111) := fun v111 => decidable_of_iff' _ (Iff.of_eq (k4_chk41.eq_1 v111))
theorem k4_idx41_inb : ∀ (v111 : IVec S16 32) (k4_hw41 : k4_chk41 v111), ∀ a x, ((![v111] : Fin 1 → IVec S16 32) a x).toNat < S40064.size a := fun v111 k4_hw41 => k4_hw41

def k4_chk42 (v116 : IVec S16 32) : Prop :=
  (∀ a x, ((![v116] : Fin 1 → IVec S16 32) a x).toNat < S40064.size a)
instance k4_chk42.dec : ∀ (v116 : IVec S16 32), Decidable (k4_chk42 v116) := fun v116 => decidable_of_iff' _ (Iff.of_eq (k4_chk42.eq_1 v116))
theorem k4_idx42_inb : ∀ (v116 : IVec S16 32) (k4_hw42 : k4_chk42 v116), ∀ a x, ((![v116] : Fin 1 → IVec S16 32) a x).toNat < S40064.size a := fun v116 k4_hw42 => k4_hw42

def k4_chk43 (v121 : IVec S16 32) : Prop :=
  (∀ a x, ((![v121] : Fin 1 → IVec S16 32) a x).toNat < S40064.size a)
instance k4_chk43.dec : ∀ (v121 : IVec S16 32), Decidable (k4_chk43 v121) := fun v121 => decidable_of_iff' _ (Iff.of_eq (k4_chk43.eq_1 v121))
theorem k4_idx43_inb : ∀ (v121 : IVec S16 32) (k4_hw43 : k4_chk43 v121), ∀ a x, ((![v121] : Fin 1 → IVec S16 32) a x).toNat < S40064.size a := fun v121 k4_hw43 => k4_hw43

def k4_chk44 (v126 : IVec S16 32) : Prop :=
  (∀ a x, ((![v126] : Fin 1 → IVec S16 32) a x).toNat < S40064.size a)
instance k4_chk44.dec : ∀ (v126 : IVec S16 32), Decidable (k4_chk44 v126) := fun v126 => decidable_of_iff' _ (Iff.of_eq (k4_chk44.eq_1 v126))
theorem k4_idx44_inb : ∀ (v126 : IVec S16 32) (k4_hw44 : k4_chk44 v126), ∀ a x, ((![v126] : Fin 1 → IVec S16 32) a x).toNat < S40064.size a := fun v126 k4_hw44 => k4_hw44
def k4_off12 (k4_t3 : Fin k4_t3_loop.trips) : Fin 1 → Nat :=
  let c0_i32_38 : BitVec 32 := 0#32
  let c1_i32_40 : BitVec 32 := 1#32
  let arg18 : BitVec 32 := Scf.iv c0_i32_38 c1_i32_40 k4_t3
  let c4_i32_64 : BitVec 32 := 4#32
  let v130 : BitVec 32 := Scalar.muli arg18 c4_i32_64
  let c3_i32 : BitVec 32 := 3#32
  let v131 : BitVec 32 := Scalar.addi v130 c3_i32
  let c16_i32_65 : BitVec 32 := 16#32
  let v132 : BitVec 32 := Scalar.muli v131 c16_i32_65
  let v133 : Index := Scalar.indexCast v132
  ![v133.toNat]

def k4_chk45 (v134 : IVec S16 32) : Prop :=
  (∀ a x, ((![v134] : Fin 1 → IVec S16 32) a x).toNat < S40064.size a)
instance k4_chk45.dec : ∀ (v134 : IVec S16 32), Decidable (k4_chk45 v134) := fun v134 => decidable_of_iff' _ (Iff.of_eq (k4_chk45.eq_1 v134))
theorem k4_idx45_inb : ∀ (v134 : IVec S16 32) (k4_hw45 : k4_chk45 v134), ∀ a x, ((![v134] : Fin 1 → IVec S16 32) a x).toNat < S40064.size a := fun v134 k4_hw45 => k4_hw45

def k4_chk46 (v139 : IVec S16 32) : Prop :=
  (∀ a x, ((![v139] : Fin 1 → IVec S16 32) a x).toNat < S40064.size a)
instance k4_chk46.dec : ∀ (v139 : IVec S16 32), Decidable (k4_chk46 v139) := fun v139 => decidable_of_iff' _ (Iff.of_eq (k4_chk46.eq_1 v139))
theorem k4_idx46_inb : ∀ (v139 : IVec S16 32) (k4_hw46 : k4_chk46 v139), ∀ a x, ((![v139] : Fin 1 → IVec S16 32) a x).toNat < S40064.size a := fun v139 k4_hw46 => k4_hw46

def k4_chk47 (v144 : IVec S16 32) : Prop :=
  (∀ a x, ((![v144] : Fin 1 → IVec S16 32) a x).toNat < S40064.size a)
instance k4_chk47.dec : ∀ (v144 : IVec S16 32), Decidable (k4_chk47 v144) := fun v144 => decidable_of_iff' _ (Iff.of_eq (k4_chk47.eq_1 v144))
theorem k4_idx47_inb : ∀ (v144 : IVec S16 32) (k4_hw47 : k4_chk47 v144), ∀ a x, ((![v144] : Fin 1 → IVec S16 32) a x).toNat < S40064.size a := fun v144 k4_hw47 => k4_hw47

def k4_chk48 (v149 : IVec S16 32) : Prop :=
  (∀ a x, ((![v149] : Fin 1 → IVec S16 32) a x).toNat < S40064.size a)
instance k4_chk48.dec : ∀ (v149 : IVec S16 32), Decidable (k4_chk48 v149) := fun v149 => decidable_of_iff' _ (Iff.of_eq (k4_chk48.eq_1 v149))
theorem k4_idx48_inb : ∀ (v149 : IVec S16 32) (k4_hw48 : k4_chk48 v149), ∀ a x, ((![v149] : Fin 1 → IVec S16 32) a x).toNat < S40064.size a := fun v149 k4_hw48 => k4_hw48

def k4_chk49 (v67 : IVec S16 32) : Prop :=
  (∀ a x, ((![v67] : Fin 1 → IVec S16 32) a x).toNat < S40064.size a)
instance k4_chk49.dec : ∀ (v67 : IVec S16 32), Decidable (k4_chk49 v67) := fun v67 => decidable_of_iff' _ (Iff.of_eq (k4_chk49.eq_1 v67))
theorem k4_idx49_inb : ∀ (v67 : IVec S16 32) (k4_hw49 : k4_chk49 v67), ∀ a x, ((![v67] : Fin 1 → IVec S16 32) a x).toNat < S40064.size a := fun v67 k4_hw49 => k4_hw49

def k4_chk50 (v72 : IVec S16 32) : Prop :=
  (∀ a x, ((![v72] : Fin 1 → IVec S16 32) a x).toNat < S40064.size a)
instance k4_chk50.dec : ∀ (v72 : IVec S16 32), Decidable (k4_chk50 v72) := fun v72 => decidable_of_iff' _ (Iff.of_eq (k4_chk50.eq_1 v72))
theorem k4_idx50_inb : ∀ (v72 : IVec S16 32) (k4_hw50 : k4_chk50 v72), ∀ a x, ((![v72] : Fin 1 → IVec S16 32) a x).toNat < S40064.size a := fun v72 k4_hw50 => k4_hw50

def k4_chk51 (v77 : IVec S16 32) : Prop :=
  (∀ a x, ((![v77] : Fin 1 → IVec S16 32) a x).toNat < S40064.size a)
instance k4_chk51.dec : ∀ (v77 : IVec S16 32), Decidable (k4_chk51 v77) := fun v77 => decidable_of_iff' _ (Iff.of_eq (k4_chk51.eq_1 v77))
theorem k4_idx51_inb : ∀ (v77 : IVec S16 32) (k4_hw51 : k4_chk51 v77), ∀ a x, ((![v77] : Fin 1 → IVec S16 32) a x).toNat < S40064.size a := fun v77 k4_hw51 => k4_hw51

def k4_chk52 (v82 : IVec S16 32) : Prop :=
  (∀ a x, ((![v82] : Fin 1 → IVec S16 32) a x).toNat < S40064.size a)
instance k4_chk52.dec : ∀ (v82 : IVec S16 32), Decidable (k4_chk52 v82) := fun v82 => decidable_of_iff' _ (Iff.of_eq (k4_chk52.eq_1 v82))
theorem k4_idx52_inb : ∀ (v82 : IVec S16 32) (k4_hw52 : k4_chk52 v82), ∀ a x, ((![v82] : Fin 1 → IVec S16 32) a x).toNat < S40064.size a := fun v82 k4_hw52 => k4_hw52

def k4_chk53 (v90 : IVec S16 32) : Prop :=
  (∀ a x, ((![v90] : Fin 1 → IVec S16 32) a x).toNat < S40064.size a)
instance k4_chk53.dec : ∀ (v90 : IVec S16 32), Decidable (k4_chk53 v90) := fun v90 => decidable_of_iff' _ (Iff.of_eq (k4_chk53.eq_1 v90))
theorem k4_idx53_inb : ∀ (v90 : IVec S16 32) (k4_hw53 : k4_chk53 v90), ∀ a x, ((![v90] : Fin 1 → IVec S16 32) a x).toNat < S40064.size a := fun v90 k4_hw53 => k4_hw53

def k4_chk54 (v95 : IVec S16 32) : Prop :=
  (∀ a x, ((![v95] : Fin 1 → IVec S16 32) a x).toNat < S40064.size a)
instance k4_chk54.dec : ∀ (v95 : IVec S16 32), Decidable (k4_chk54 v95) := fun v95 => decidable_of_iff' _ (Iff.of_eq (k4_chk54.eq_1 v95))
theorem k4_idx54_inb : ∀ (v95 : IVec S16 32) (k4_hw54 : k4_chk54 v95), ∀ a x, ((![v95] : Fin 1 → IVec S16 32) a x).toNat < S40064.size a := fun v95 k4_hw54 => k4_hw54

def k4_chk55 (v100 : IVec S16 32) : Prop :=
  (∀ a x, ((![v100] : Fin 1 → IVec S16 32) a x).toNat < S40064.size a)
instance k4_chk55.dec : ∀ (v100 : IVec S16 32), Decidable (k4_chk55 v100) := fun v100 => decidable_of_iff' _ (Iff.of_eq (k4_chk55.eq_1 v100))
theorem k4_idx55_inb : ∀ (v100 : IVec S16 32) (k4_hw55 : k4_chk55 v100), ∀ a x, ((![v100] : Fin 1 → IVec S16 32) a x).toNat < S40064.size a := fun v100 k4_hw55 => k4_hw55

def k4_chk56 (v105 : IVec S16 32) : Prop :=
  (∀ a x, ((![v105] : Fin 1 → IVec S16 32) a x).toNat < S40064.size a)
instance k4_chk56.dec : ∀ (v105 : IVec S16 32), Decidable (k4_chk56 v105) := fun v105 => decidable_of_iff' _ (Iff.of_eq (k4_chk56.eq_1 v105))
theorem k4_idx56_inb : ∀ (v105 : IVec S16 32) (k4_hw56 : k4_chk56 v105), ∀ a x, ((![v105] : Fin 1 → IVec S16 32) a x).toNat < S40064.size a := fun v105 k4_hw56 => k4_hw56

def k4_chk57 (v113 : IVec S16 32) : Prop :=
  (∀ a x, ((![v113] : Fin 1 → IVec S16 32) a x).toNat < S40064.size a)
instance k4_chk57.dec : ∀ (v113 : IVec S16 32), Decidable (k4_chk57 v113) := fun v113 => decidable_of_iff' _ (Iff.of_eq (k4_chk57.eq_1 v113))
theorem k4_idx57_inb : ∀ (v113 : IVec S16 32) (k4_hw57 : k4_chk57 v113), ∀ a x, ((![v113] : Fin 1 → IVec S16 32) a x).toNat < S40064.size a := fun v113 k4_hw57 => k4_hw57

def k4_chk58 (v118 : IVec S16 32) : Prop :=
  (∀ a x, ((![v118] : Fin 1 → IVec S16 32) a x).toNat < S40064.size a)
instance k4_chk58.dec : ∀ (v118 : IVec S16 32), Decidable (k4_chk58 v118) := fun v118 => decidable_of_iff' _ (Iff.of_eq (k4_chk58.eq_1 v118))
theorem k4_idx58_inb : ∀ (v118 : IVec S16 32) (k4_hw58 : k4_chk58 v118), ∀ a x, ((![v118] : Fin 1 → IVec S16 32) a x).toNat < S40064.size a := fun v118 k4_hw58 => k4_hw58

def k4_chk59 (v123 : IVec S16 32) : Prop :=
  (∀ a x, ((![v123] : Fin 1 → IVec S16 32) a x).toNat < S40064.size a)
instance k4_chk59.dec : ∀ (v123 : IVec S16 32), Decidable (k4_chk59 v123) := fun v123 => decidable_of_iff' _ (Iff.of_eq (k4_chk59.eq_1 v123))
theorem k4_idx59_inb : ∀ (v123 : IVec S16 32) (k4_hw59 : k4_chk59 v123), ∀ a x, ((![v123] : Fin 1 → IVec S16 32) a x).toNat < S40064.size a := fun v123 k4_hw59 => k4_hw59

def k4_chk60 (v128 : IVec S16 32) : Prop :=
  (∀ a x, ((![v128] : Fin 1 → IVec S16 32) a x).toNat < S40064.size a)
instance k4_chk60.dec : ∀ (v128 : IVec S16 32), Decidable (k4_chk60 v128) := fun v128 => decidable_of_iff' _ (Iff.of_eq (k4_chk60.eq_1 v128))
theorem k4_idx60_inb : ∀ (v128 : IVec S16 32) (k4_hw60 : k4_chk60 v128), ∀ a x, ((![v128] : Fin 1 → IVec S16 32) a x).toNat < S40064.size a := fun v128 k4_hw60 => k4_hw60

def k4_chk61 (v136 : IVec S16 32) : Prop :=
  (∀ a x, ((![v136] : Fin 1 → IVec S16 32) a x).toNat < S40064.size a)
instance k4_chk61.dec : ∀ (v136 : IVec S16 32), Decidable (k4_chk61 v136) := fun v136 => decidable_of_iff' _ (Iff.of_eq (k4_chk61.eq_1 v136))
theorem k4_idx61_inb : ∀ (v136 : IVec S16 32) (k4_hw61 : k4_chk61 v136), ∀ a x, ((![v136] : Fin 1 → IVec S16 32) a x).toNat < S40064.size a := fun v136 k4_hw61 => k4_hw61

def k4_chk62 (v141 : IVec S16 32) : Prop :=
  (∀ a x, ((![v141] : Fin 1 → IVec S16 32) a x).toNat < S40064.size a)
instance k4_chk62.dec : ∀ (v141 : IVec S16 32), Decidable (k4_chk62 v141) := fun v141 => decidable_of_iff' _ (Iff.of_eq (k4_chk62.eq_1 v141))
theorem k4_idx62_inb : ∀ (v141 : IVec S16 32) (k4_hw62 : k4_chk62 v141), ∀ a x, ((![v141] : Fin 1 → IVec S16 32) a x).toNat < S40064.size a := fun v141 k4_hw62 => k4_hw62

def k4_chk63 (v146 : IVec S16 32) : Prop :=
  (∀ a x, ((![v146] : Fin 1 → IVec S16 32) a x).toNat < S40064.size a)
instance k4_chk63.dec : ∀ (v146 : IVec S16 32), Decidable (k4_chk63 v146) := fun v146 => decidable_of_iff' _ (Iff.of_eq (k4_chk63.eq_1 v146))
theorem k4_idx63_inb : ∀ (v146 : IVec S16 32) (k4_hw63 : k4_chk63 v146), ∀ a x, ((![v146] : Fin 1 → IVec S16 32) a x).toNat < S40064.size a := fun v146 k4_hw63 => k4_hw63

def k4_chk64 (v151 : IVec S16 32) : Prop :=
  (∀ a x, ((![v151] : Fin 1 → IVec S16 32) a x).toNat < S40064.size a)
instance k4_chk64.dec : ∀ (v151 : IVec S16 32), Decidable (k4_chk64 v151) := fun v151 => decidable_of_iff' _ (Iff.of_eq (k4_chk64.eq_1 v151))
theorem k4_idx64_inb : ∀ (v151 : IVec S16 32) (k4_hw64 : k4_chk64 v151), ∀ a x, ((![v151] : Fin 1 → IVec S16 32) a x).toNat < S40064.size a := fun v151 k4_hw64 => k4_hw64
def k4_off13 (i : grid4.Coords) : Fin 3 → Nat :=
  let arg0 : BitVec 32 := BitVec.ofNat 32 (i 0).val
  let c0_i32_6 : BitVec 32 := 0#32
  let c0_i32_7 : BitVec 32 := 0#32
  ![arg0.toNat, 0, 0]
def k4_off14 (i : grid4.Coords) : Fin 4 → Nat :=
  let arg1 : BitVec 32 := BitVec.ofNat 32 (i 1).val
  let arg0 : BitVec 32 := BitVec.ofNat 32 (i 0).val
  let c0_i32_12 : BitVec 32 := 0#32
  let c0_i32_13_r2 : BitVec 32 := 0#32
  ![arg1.toNat, arg0.toNat, 0, 0]
abbrev grid5 : Pipeline.Grid := .none

abbrev stage5_0 : Fin 1 → Memref sig .tc .vmem S64x10000 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x10000 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S64x10000 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S10000x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S64x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S1x10000 .i32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S64x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S1x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev stage5_8 : Fin 1 → Memref sig .tc .vmem S64x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S320000_S2x160000 : S320000.ShapeCasts S2x160000
  pads_S2x160000_S2x163840_000_038400 : S2x160000.Pads (![0, 0] : Fin 2 → Nat) ![0, 3840] ![0, 0] S2x163840
  h_S_ : 0 < S_.numel
  shapeCasts_S2x163840_S2x1x163840 : S2x163840.ShapeCasts S2x1x163840
  shapeCasts_S320000_S32x10000 : S320000.ShapeCasts S32x10000
  pads_S32x10000_S32x10240_000_02400 : S32x10000.Pads (![0, 0] : Fin 2 → Nat) ![0, 240] ![0, 0] S32x10240
  bcast_S_S10240 : S_.BroadcastsInDim S10240 (![] : Fin 0 → Fin S10240.rank)
  bcast_S_S40064 : S_.BroadcastsInDim S40064 (![] : Fin 0 → Fin S40064.rank)
  shapeCasts_S10000_S1x10000 : S10000.ShapeCasts S1x10000
  shapeCasts_S64_S64x1 : S64.ShapeCasts S64x1
  shapeCasts_S1_S1x1 : S1.ShapeCasts S1x1
  squeezes_S1x10240_S10240 : S1x10240.Squeezes S10240
  h_S16 : 0 < S16.numel
  h_S10240 : 0 < S10240.numel
  slices_S32x10240_S32x10000_0_0 : S32x10240.Slices ![0, 0] S32x10000
  transposes_S32x10000_S10000x32_1_0 : S32x10000.Transposes [1, 0] S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  reduces_S10000x32_S10000 : S10000x32.Reduces [1] S10000
  inb_S128x64_S128x64_0_0 : ∀ a, (![0, 0] : Fin 2 → Nat) a + S128x64.size a ≤ S128x64.size a
  h_S128x64 : 0 < S128x64.numel
  inb_S10000x128_S10000x128_0_0 : ∀ a, (![0, 0] : Fin 2 → Nat) a + S10000x128.size a ≤ S10000x128.size a
  h_S10000x128 : 0 < S10000x128.numel
  broadcasts_S1x10000_S64x10000 : S1x10000.Broadcasts S64x10000
  inb_S64x10000_S64x10000_0_0 : ∀ a, (![0, 0] : Fin 2 → Nat) a + S64x10000.size a ≤ S64x10000.size a
  h_S64x10000 : 0 < S64x10000.numel
  pads_S64x10000_S64x10016_000_0160 : S64x10000.Pads (![0, 0] : Fin 2 → Nat) ![0, 16] ![0, 0] S64x10016
  shapeCasts_S64x10016_S16x1x40064 : S64x10016.ShapeCasts S16x1x40064
  squeezes_S1x1x40064_S40064 : S1x1x40064.Squeezes S40064
  squeezes_S1x1x8192_S8192 : S1x1x8192.Squeezes S8192
  h_S40064 : 0 < S40064.numel
  squeezes_S1x1x1x40064_S40064 : S1x1x1x40064.Squeezes S40064
  shapeCasts_S16x2x1x40064_S16x2x40064 : S16x2x1x40064.ShapeCasts S16x2x40064
  shapeCasts_S16x2x40064_S16x2x4x10016 : S16x2x40064.ShapeCasts S16x2x4x10016
  slices_S16x2x4x10016_S16x1x4x10016_0_0_0_0 : S16x2x4x10016.Slices ![0, 0, 0, 0] S16x1x4x10016
  shapeCasts_S16x1x4x10016_S16x4x10016 : S16x1x4x10016.ShapeCasts S16x4x10016
  shapeCasts_S16x4x10016_S64x10016 : S16x4x10016.ShapeCasts S64x10016
  slices_S64x10016_S64x10000_0_0 : S64x10016.Slices ![0, 0] S64x10000
  slices_S16x2x4x10016_S16x1x4x10016_0_1_0_0 : S16x2x4x10016.Slices ![0, 1, 0, 0] S16x1x4x10016
  shapeCasts_S64x10000_S64x10000 : S64x10000.ShapeCasts S64x10000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x10000 : S64x1.Broadcasts S64x10000
  inb_S64x64_S64x64_0_0 : ∀ a, (![0, 0] : Fin 2 → Nat) a + S64x64.size a ≤ S64x64.size a
  h_S64x64 : 0 < S64x64.numel
  inb_S1x10000_S1x10000_0_0 : ∀ a, (![0, 0] : Fin 2 → Nat) a + S1x10000.size a ≤ S1x10000.size a
  h_S1x10000 : 0 < S1x10000.numel
  shapeCasts_S1x10000_S10000 : S1x10000.ShapeCasts S10000
  shapeCasts_S10000_S10000x1 : S10000.ShapeCasts S10000x1
  iota_S1x64_d1_w32 : S1x64.Iotas .tc 32 [1]
  broadcasts_S10000x1_S10000x64 : S10000x1.Broadcasts S10000x64
  broadcasts_S1x64_S10000x64 : S1x64.Broadcasts S10000x64
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S128x64_S10000x128_S64x10000_0_1_1_0_n_n_wf : DotDims.WF S128x64 S10000x128 S64x10000 [0] [1] [1] [0] [] []
  dot_S64x64_S64x10000_S64x10000_0_0_1_1_n_n_wf : DotDims.WF S64x64 S64x10000 S64x10000 [0] [0] [1] [1] [] []
  dot_S64x10000_S10000x64_S64x64_1_0_0_1_n_n_wf : DotDims.WF S64x10000 S10000x64 S64x64 [1] [0] [0] [1] [] []
  dot_S64x64_S64x1_S64x1_0_0_1_1_n_n_wf : DotDims.WF S64x64 S64x1 S64x1 [0] [0] [1] [1] [] []
  hcc0_scoped0 : 0 + S_.numel ≤ 37
  hcc0_scoped1 : 1 + S_.numel ≤ 37
  hcc0_scoped2 : 2 + S_.numel ≤ 37
  hcc2_scratch6 : 7 + S_.numel ≤ 37
  hcc2_scratch7 : 8 + S_.numel ≤ 37
  hcc2_scratch8 : 9 + S_.numel ≤ 37
  hcc2_scratch9 : 10 + S_.numel ≤ 37
  hcc2_scoped0 : 11 + S_.numel ≤ 37
  hcc2_scoped1 : 12 + S_.numel ≤ 37
  hcc2_scoped2 : 13 + S_.numel ≤ 37
  hcc4_scratch6 : 21 + S_.numel ≤ 37
  hcc4_scratch7 : 22 + S_.numel ≤ 37
  hcc4_scratch8 : 23 + S_.numel ≤ 37
  hcc4_scratch9 : 24 + S_.numel ≤ 37
  hcc4_scoped0 : 25 + S_.numel ≤ 37
  hcc4_scoped1 : 26 + S_.numel ≤ 37
  hcc4_scoped2 : 27 + S_.numel ≤ 37
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x10240.size a ≤ S32x10240.size a
  k0_t1_ok : k0_t1_loop.OK
  k0_off2_inb : ∀ k0_t1 : Fin k0_t1_loop.trips, ∀ a, (k0_off2 k0_t1) a + S16.size a ≤ S10240.size a
  k0_off3_inb : ∀ k0_t1 : Fin k0_t1_loop.trips, ∀ a, (k0_off3 k0_t1) a + S16.size a ≤ S10240.size a
  k0_off4_inb : ∀ k0_t1 : Fin k0_t1_loop.trips, ∀ a, (k0_off4 k0_t1) a + S16.size a ≤ S10240.size a
  k0_off5_inb : ∀ k0_t1 : Fin k0_t1_loop.trips, ∀ a, (k0_off5 k0_t1) a + S16.size a ≤ S10240.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hcore2 : grid2.bound 0 ≤ τ.nSC
  hsub2 : grid2.bound 1 ≤ τ.nSub
  k2_off1_inb : ∀ i : grid2.Coords, ∀ a, (k2_off1 i) a + S1x1x40064.size a ≤ S16x1x40064.size a
  k2_mult1_dvd : 128 ∣ k2_mult1.toNat
  k2_off2_inb : ∀ i : grid2.Coords, ∀ a, (k2_off2 i) a + S1x1x8192.size a ≤ S2x1x163840.size a
  k2_t1_ok : k2_t1_loop.OK
  k2_off3_inb : ∀ i : grid2.Coords, ∀ a, (k2_off3 i) a + S1x1x8192.size a ≤ S2x1x163840.size a
  k2_mult2_dvd : ∀ k2_t1 : Fin k2_t1_loop.trips, 128 ∣ (k2_mult2 k2_t1).toNat
  k2_off4_inb : ∀ (i : grid2.Coords) (k2_t1 : Fin k2_t1_loop.trips), ∀ (r : Fin 2), ∀ a, (k2_off4 i k2_t1 (BitVec.ofNat 32 (1 + r.val))) a + S1x1x8192.size a ≤ S2x1x163840.size a
  k2_t2_ok : k2_t2_loop.OK
  k2_off5_inb : ∀ k2_t2 : Fin k2_t2_loop.trips, ∀ a, (k2_off5 k2_t2) a + S16.size a ≤ S8192.size a
  k2_off6_inb : ∀ k2_t2 : Fin k2_t2_loop.trips, ∀ a, (k2_off6 k2_t2) a + S16.size a ≤ S8192.size a
  k2_off7_inb : ∀ k2_t2 : Fin k2_t2_loop.trips, ∀ a, (k2_off7 k2_t2) a + S16.size a ≤ S8192.size a
  k2_off8_inb : ∀ k2_t2 : Fin k2_t2_loop.trips, ∀ a, (k2_off8 k2_t2) a + S16.size a ≤ S8192.size a
  k2_mult3_dvd : ∀ k2_t1 : Fin k2_t1_loop.trips, 128 ∣ (k2_mult3 k2_t1).toNat
  k2_t3_ok : k2_t3_loop.OK
  k2_off9_inb : ∀ k2_t3 : Fin k2_t3_loop.trips, ∀ a, (k2_off9 k2_t3) a + S16.size a ≤ S8192.size a
  k2_off10_inb : ∀ k2_t3 : Fin k2_t3_loop.trips, ∀ a, (k2_off10 k2_t3) a + S16.size a ≤ S8192.size a
  k2_off11_inb : ∀ k2_t3 : Fin k2_t3_loop.trips, ∀ a, (k2_off11 k2_t3) a + S16.size a ≤ S8192.size a
  k2_off12_inb : ∀ k2_t3 : Fin k2_t3_loop.trips, ∀ a, (k2_off12 k2_t3) a + S16.size a ≤ S8192.size a
  k2_off13_inb : ∀ i : grid2.Coords, ∀ a, (k2_off13 i) a + S1x1x8192.size a ≤ S2x1x163840.size a
  k2_off14_inb : ∀ i : grid2.Coords, ∀ a, (k2_off14 i) a + S1x1x1x40064.size a ≤ S16x2x1x40064.size a
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hstage3_6 : ∀ j, (stage3_6 j).IsWhole
  hcore4 : grid4.bound 0 ≤ τ.nSC
  hsub4 : grid4.bound 1 ≤ τ.nSub
  k4_off1_inb : ∀ i : grid4.Coords, ∀ a, (k4_off1 i) a + S1x1x40064.size a ≤ S16x1x40064.size a
  k4_mult1_dvd : 128 ∣ k4_mult1.toNat
  k4_off2_inb : ∀ i : grid4.Coords, ∀ a, (k4_off2 i) a + S1x1x8192.size a ≤ S2x1x163840.size a
  k4_t1_ok : k4_t1_loop.OK
  k4_off3_inb : ∀ i : grid4.Coords, ∀ a, (k4_off3 i) a + S1x1x8192.size a ≤ S2x1x163840.size a
  k4_mult2_dvd : ∀ k4_t1 : Fin k4_t1_loop.trips, 128 ∣ (k4_mult2 k4_t1).toNat
  k4_off4_inb : ∀ (i : grid4.Coords) (k4_t1 : Fin k4_t1_loop.trips), ∀ (r : Fin 2), ∀ a, (k4_off4 i k4_t1 (BitVec.ofNat 32 (1 + r.val))) a + S1x1x8192.size a ≤ S2x1x163840.size a
  k4_t2_ok : k4_t2_loop.OK
  k4_off5_inb : ∀ k4_t2 : Fin k4_t2_loop.trips, ∀ a, (k4_off5 k4_t2) a + S16.size a ≤ S8192.size a
  k4_off6_inb : ∀ k4_t2 : Fin k4_t2_loop.trips, ∀ a, (k4_off6 k4_t2) a + S16.size a ≤ S8192.size a
  k4_off7_inb : ∀ k4_t2 : Fin k4_t2_loop.trips, ∀ a, (k4_off7 k4_t2) a + S16.size a ≤ S8192.size a
  k4_off8_inb : ∀ k4_t2 : Fin k4_t2_loop.trips, ∀ a, (k4_off8 k4_t2) a + S16.size a ≤ S8192.size a
  k4_mult3_dvd : ∀ k4_t1 : Fin k4_t1_loop.trips, 128 ∣ (k4_mult3 k4_t1).toNat
  k4_t3_ok : k4_t3_loop.OK
  k4_off9_inb : ∀ k4_t3 : Fin k4_t3_loop.trips, ∀ a, (k4_off9 k4_t3) a + S16.size a ≤ S8192.size a
  k4_off10_inb : ∀ k4_t3 : Fin k4_t3_loop.trips, ∀ a, (k4_off10 k4_t3) a + S16.size a ≤ S8192.size a
  k4_off11_inb : ∀ k4_t3 : Fin k4_t3_loop.trips, ∀ a, (k4_off11 k4_t3) a + S16.size a ≤ S8192.size a
  k4_off12_inb : ∀ k4_t3 : Fin k4_t3_loop.trips, ∀ a, (k4_off12 k4_t3) a + S16.size a ≤ S8192.size a
  k4_off13_inb : ∀ i : grid4.Coords, ∀ a, (k4_off13 i) a + S1x1x8192.size a ≤ S2x1x163840.size a
  k4_off14_inb : ∀ i : grid4.Coords, ∀ a, (k4_off14 i) a + S1x1x1x40064.size a ≤ S16x2x1x40064.size a
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole
  hstage5_6 : ∀ j, (stage5_6 j).IsWhole
  hstage5_7 : ∀ j, (stage5_7 j).IsWhole
  hstage5_8 : ∀ j, (stage5_8 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc2_scratch6 : DmaSems sig S_ := SemArray.consecutive 7 S_ hcc2_scratch6
abbrev cc2_scratch7 : DmaSems sig S_ := SemArray.consecutive 8 S_ hcc2_scratch7
abbrev cc2_scratch8 : DmaSems sig S_ := SemArray.consecutive 9 S_ hcc2_scratch8
abbrev cc2_scratch9 : DmaSems sig S_ := SemArray.consecutive 10 S_ hcc2_scratch9
abbrev cc2_scoped0 : DmaSems sig S_ := SemArray.consecutive 11 S_ hcc2_scoped0
abbrev cc2_scoped1 : DmaSems sig S_ := SemArray.consecutive 12 S_ hcc2_scoped1
abbrev cc2_scoped2 : DmaSems sig S_ := SemArray.consecutive 13 S_ hcc2_scoped2
abbrev cc4_scratch6 : DmaSems sig S_ := SemArray.consecutive 21 S_ hcc4_scratch6
abbrev cc4_scratch7 : DmaSems sig S_ := SemArray.consecutive 22 S_ hcc4_scratch7
abbrev cc4_scratch8 : DmaSems sig S_ := SemArray.consecutive 23 S_ hcc4_scratch8
abbrev cc4_scratch9 : DmaSems sig S_ := SemArray.consecutive 24 S_ hcc4_scratch9
abbrev cc4_scoped0 : DmaSems sig S_ := SemArray.consecutive 25 S_ hcc4_scoped0
abbrev cc4_scoped1 : DmaSems sig S_ := SemArray.consecutive 26 S_ hcc4_scoped1
abbrev cc4_scoped2 : DmaSems sig S_ := SemArray.consecutive 27 S_ hcc4_scoped2
def dot_S128x64_S10000x128_S64x10000_0_1_1_0_n_n : DotDims S128x64 S10000x128 S64x10000 where
  lhsContracting := [0]
  rhsContracting := [1]
  lhsNonContracting := [1]
  rhsNonContracting := [0]
  lhsBatch := []
  rhsBatch := []
  wf := dot_S128x64_S10000x128_S64x10000_0_1_1_0_n_n_wf
def dot_S64x64_S64x10000_S64x10000_0_0_1_1_n_n : DotDims S64x64 S64x10000 S64x10000 where
  lhsContracting := [0]
  rhsContracting := [0]
  lhsNonContracting := [1]
  rhsNonContracting := [1]
  lhsBatch := []
  rhsBatch := []
  wf := dot_S64x64_S64x10000_S64x10000_0_0_1_1_n_n_wf
def dot_S64x10000_S10000x64_S64x64_1_0_0_1_n_n : DotDims S64x10000 S10000x64 S64x64 where
  lhsContracting := [1]
  rhsContracting := [0]
  lhsNonContracting := [0]
  rhsNonContracting := [1]
  lhsBatch := []
  rhsBatch := []
  wf := dot_S64x10000_S10000x64_S64x64_1_0_0_1_n_n_wf
def dot_S64x64_S64x1_S64x1_0_0_1_1_n_n : DotDims S64x64 S64x1 S64x1 where
  lhsContracting := [0]
  rhsContracting := [0]
  lhsNonContracting := [1]
  rhsNonContracting := [1]
  lhsBatch := []
  rhsBatch := []
  wf := dot_S64x64_S64x1_S64x1_0_0_1_1_n_n_wf

abbrev win1_0 : Pipeline.Window sig grid1 :=
  Pipeline.Window.whole (Memref.whole main_arg0) false false (stage1_0 0) (sem1_0 0) (Memref.isWhole_whole _) (hstage1_0 0)

abbrev win1_1 : Pipeline.Window sig grid1 :=
  Pipeline.Window.whole (Memref.whole main_arg3) false false (stage1_1 0) (sem1_1 0) (Memref.isWhole_whole _) (hstage1_1 0)

abbrev win1_2 : Pipeline.Window sig grid1 :=
  Pipeline.Window.whole (Memref.whole main_v20) false false (stage1_2 0) (sem1_2 0) (Memref.isWhole_whole _) (hstage1_2 0)

abbrev win1_3 : Pipeline.Window sig grid1 :=
  Pipeline.Window.whole (Memref.whole main_v21) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win3_0 : Pipeline.Window sig grid3 :=
  Pipeline.Window.whole (Memref.whole main_v30) false false (stage3_0 0) (sem3_0 0) (Memref.isWhole_whole _) (hstage3_0 0)

abbrev win3_1 : Pipeline.Window sig grid3 :=
  Pipeline.Window.whole (Memref.whole main_v34) false false (stage3_1 0) (sem3_1 0) (Memref.isWhole_whole _) (hstage3_1 0)

abbrev win3_2 : Pipeline.Window sig grid3 :=
  Pipeline.Window.whole (Memref.whole main_v21) false false (stage3_2 0) (sem3_2 0) (Memref.isWhole_whole _) (hstage3_2 0)

abbrev win3_3 : Pipeline.Window sig grid3 :=
  Pipeline.Window.whole (Memref.whole main_v20) false false (stage3_3 0) (sem3_3 0) (Memref.isWhole_whole _) (hstage3_3 0)

abbrev win3_4 : Pipeline.Window sig grid3 :=
  Pipeline.Window.whole (Memref.whole main_v15) false false (stage3_4 0) (sem3_4 0) (Memref.isWhole_whole _) (hstage3_4 0)

abbrev win3_5 : Pipeline.Window sig grid3 :=
  Pipeline.Window.whole (Memref.whole main_arg5) false false (stage3_5 0) (sem3_5 0) (Memref.isWhole_whole _) (hstage3_5 0)

abbrev win3_6 : Pipeline.Window sig grid3 :=
  Pipeline.Window.whole (Memref.whole main_v35) true false (stage3_6 0) (sem3_6 0) (Memref.isWhole_whole _) (hstage3_6 0)

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win5_0 : Pipeline.Window sig grid5 :=
  Pipeline.Window.whole (Memref.whole main_v44) false false (stage5_0 0) (sem5_0 0) (Memref.isWhole_whole _) (hstage5_0 0)

abbrev win5_1 : Pipeline.Window sig grid5 :=
  Pipeline.Window.whole (Memref.whole main_v48) false false (stage5_1 0) (sem5_1 0) (Memref.isWhole_whole _) (hstage5_1 0)

abbrev win5_2 : Pipeline.Window sig grid5 :=
  Pipeline.Window.whole (Memref.whole main_v35) false false (stage5_2 0) (sem5_2 0) (Memref.isWhole_whole _) (hstage5_2 0)

abbrev win5_3 : Pipeline.Window sig grid5 :=
  Pipeline.Window.whole (Memref.whole main_v20) false false (stage5_3 0) (sem5_3 0) (Memref.isWhole_whole _) (hstage5_3 0)

abbrev win5_4 : Pipeline.Window sig grid5 :=
  Pipeline.Window.whole (Memref.whole main_v16) false false (stage5_4 0) (sem5_4 0) (Memref.isWhole_whole _) (hstage5_4 0)

abbrev win5_5 : Pipeline.Window sig grid5 :=
  Pipeline.Window.whole (Memref.whole main_v14) false false (stage5_5 0) (sem5_5 0) (Memref.isWhole_whole _) (hstage5_5 0)

abbrev win5_6 : Pipeline.Window sig grid5 :=
  Pipeline.Window.whole (Memref.whole main_arg7) false false (stage5_6 0) (sem5_6 0) (Memref.isWhole_whole _) (hstage5_6 0)

abbrev win5_7 : Pipeline.Window sig grid5 :=
  Pipeline.Window.whole (Memref.whole main_v17) false false (stage5_7 0) (sem5_7 0) (Memref.isWhole_whole _) (hstage5_7 0)

abbrev win5_8 : Pipeline.Window sig grid5 :=
  Pipeline.Window.whole (Memref.whole main_v49) true false (stage5_8 0) (sem5_8 0) (Memref.isWhole_whole _) (hstage5_8 0)

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000 : Shape := ⟨1, ![10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x320000 : Shape := ⟨2, ![1, 320000]⟩
abbrev S320000 : Shape := ⟨1, ![320000]⟩
abbrev S330000 : Shape := ⟨1, ![330000]⟩
abbrev S10000x64 : Shape := ⟨2, ![10000, 64]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S10000x1 : Shape := ⟨2, ![10000, 1]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x320000, .i32⟩
  | 10 => ⟨S320000, .i32⟩
  | 11 => ⟨S1x320000, .i32⟩
  | 12 => ⟨S320000, .i32⟩
  | 13 => ⟨S10000, .i32⟩
  | 14 => ⟨S330000, .i32⟩
  | 15 => ⟨S330000, .i32⟩
  | 16 => ⟨S10000x64, .f32⟩
  | 17 => ⟨S_, .f32⟩
  | 18 => ⟨S330000, .f32⟩
  | 19 => ⟨S_, .f32⟩
  | 20 => ⟨S10000, .f32⟩
  | 21 => ⟨S330000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S10000, .f32⟩
  | 29 => ⟨S10000, .f32⟩
  | 30 => ⟨S_, .f32⟩
  | 31 => ⟨S_, .f32⟩
  | 32 => ⟨S10000, .f32⟩
  | 33 => ⟨S10000, .f32⟩
  | 34 => ⟨S_, .i32⟩
  | 35 => ⟨S330000, .i32⟩
  | 36 => ⟨S330000, .i1⟩
  | 37 => ⟨S_, .i32⟩
  | 38 => ⟨S330000, .i32⟩
  | 39 => ⟨S330000, .i32⟩
  | 40 => ⟨S330000, .i32⟩
  | 41 => ⟨S330000x1, .i32⟩
  | 42 => ⟨S330000, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000, .f32⟩
  | 52 => ⟨S330000, .f32⟩
  | 53 => ⟨S_, .i32⟩
  | 54 => ⟨S330000, .i32⟩
  | 55 => ⟨S330000, .i1⟩
  | 56 => ⟨S_, .i32⟩
  | 57 => ⟨S330000, .i32⟩
  | 58 => ⟨S330000, .i32⟩
  | 59 => ⟨S330000, .i32⟩
  | 60 => ⟨S330000x1, .i32⟩
  | 61 => ⟨S330000x64, .f32⟩
  | 62 => ⟨S330000x1, .f32⟩
  | 63 => ⟨S330000x64, .f32⟩
  | 64 => ⟨S330000x64, .f32⟩
  | 65 => ⟨S_, .f32⟩
  | 66 => ⟨S10000x64, .f32⟩
  | 67 => ⟨S330000x1, .i32⟩
  | 68 => ⟨S10000x64, .f32⟩
  | 69 => ⟨S1x64, .f32⟩
  | 70 => ⟨S10000x64, .f32⟩
  | 71 => ⟨S10000x64, .f32⟩
  | 72 => ⟨S_, .f32⟩
  | 73 => ⟨S10000x64, .f32⟩
  | 74 => ⟨S10000x64, .f32⟩
  | 75 => ⟨S1x320000, .i32⟩
  | 76 => ⟨S320000, .i32⟩
  | 77 => ⟨S1x320000, .i32⟩
  | 78 => ⟨S320000, .i32⟩
  | 79 => ⟨S10000, .i32⟩
  | 80 => ⟨S330000, .i32⟩
  | 81 => ⟨S330000, .i32⟩
  | 82 => ⟨S10000x64, .f32⟩
  | 83 => ⟨S_, .f32⟩
  | 84 => ⟨S330000, .f32⟩
  | 85 => ⟨S_, .f32⟩
  | 86 => ⟨S10000, .f32⟩
  | 87 => ⟨S330000x1, .i32⟩
  | 88 => ⟨S10000, .f32⟩
  | 89 => ⟨S_, .f32⟩
  | 90 => ⟨S10000, .f32⟩
  | 91 => ⟨S10000, .i1⟩
  | 92 => ⟨S10000, .f32⟩
  | 93 => ⟨S_, .f32⟩
  | 94 => ⟨S10000, .f32⟩
  | 95 => ⟨S10000, .f32⟩
  | 96 => ⟨S_, .f32⟩
  | 97 => ⟨S_, .f32⟩
  | 98 => ⟨S10000, .f32⟩
  | 99 => ⟨S10000, .f32⟩
  | 100 => ⟨S_, .i32⟩
  | 101 => ⟨S330000, .i32⟩
  | 102 => ⟨S330000, .i1⟩
  | 103 => ⟨S_, .i32⟩
  | 104 => ⟨S330000, .i32⟩
  | 105 => ⟨S330000, .i32⟩
  | 106 => ⟨S330000, .i32⟩
  | 107 => ⟨S330000x1, .i32⟩
  | 108 => ⟨S330000, .f32⟩
  | 109 => ⟨S_, .i32⟩
  | 110 => ⟨S330000, .i32⟩
  | 111 => ⟨S330000, .i1⟩
  | 112 => ⟨S_, .i32⟩
  | 113 => ⟨S330000, .i32⟩
  | 114 => ⟨S330000, .i32⟩
  | 115 => ⟨S330000, .i32⟩
  | 116 => ⟨S330000x1, .i32⟩
  | 117 => ⟨S330000, .f32⟩
  | 118 => ⟨S330000, .f32⟩
  | 119 => ⟨S_, .i32⟩
  | 120 => ⟨S330000, .i32⟩
  | 121 => ⟨S330000, .i1⟩
  | 122 => ⟨S_, .i32⟩
  | 123 => ⟨S330000, .i32⟩
  | 124 => ⟨S330000, .i32⟩
  | 125 => ⟨S330000, .i32⟩
  | 126 => ⟨S330000x1, .i32⟩
  | 127 => ⟨S330000x64, .f32⟩
  | _ => ⟨S10000x128, .f32⟩

abbrev hbmTy0_1 (i : Nat) : BufTy := match i % 128 with
  | 0 => ⟨S330000x1, .f32⟩
  | 1 => ⟨S330000x64, .f32⟩
  | 2 => ⟨S330000x64, .f32⟩
  | 3 => ⟨S_, .f32⟩
  | 4 => ⟨S10000x64, .f32⟩
  | 5 => ⟨S330000x1, .i32⟩
  | 6 => ⟨S10000x64, .f32⟩
  | 7 => ⟨S1x64, .f32⟩
  | 8 => ⟨S10000x64, .f32⟩
  | 9 => ⟨S10000x64, .f32⟩
  | 10 => ⟨S_, .f32⟩
  | 11 => ⟨S10000x64, .f32⟩
  | 12 => ⟨S10000x64, .f32⟩
  | 13 => ⟨S_, .f32⟩
  | 14 => ⟨S64x64, .f32⟩
  | 15 => ⟨S10000x1, .i32⟩
  | 16 => ⟨S64x64, .f32⟩
  | 17 => ⟨S64x1, .f32⟩
  | 18 => ⟨S1x1, .f32⟩
  | 19 => ⟨S64x1, .f32⟩
  | 20 => ⟨S64x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_19 : Ref sig .tc := ⟨.hbm, 119, rfl⟩
abbrev main_v83 : Ref sig .tc := ⟨.hbm, 120, rfl⟩
abbrev main_v84 : Ref sig .tc := ⟨.hbm, 121, rfl⟩
abbrev main_c_20 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_call3_cst : Ref sig .tc := ⟨.hbm, 138, rfl⟩
abbrev main_call3_v0 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S64x64 : S_.BroadcastsInDim S64x64 (![] : Fin 0 → Fin S64x64.rank)
  bcast_S10000_S10000x1_0 : S10000.BroadcastsInDim S10000x1 (![0] : Fin 1 → Fin S10000x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S10000x128_S128x64_S10000x64_1_0_0_1_n_n_wf : DotDims.WF S10000x128 S128x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  scatter_S64x64_S10000x1_S10000x64_1_0_0_1_wf : ScatterDims.WF S64x64 S10000x1 S10000x64 [1] [0] [0] 1
  dot_S64x64_S64x1_S64x1_1_0_0_1_n_n_wf : DotDims.WF S64x64 S64x1 S64x1 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64x64_S10000x1_S10000x64_1_0_0_1 : ScatterDims S64x64 S10000x1 S10000x64 where
  updateWindowDims := [1]
  insertedWindowDims := [0]
  scatterDimsToOperandDims := [0]
  indexVectorDim := 1
  wf := scatter_S64x64_S10000x1_S10000x64_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.RefFrame.lean ====
/-
  The reference program's frame. The reference is a host program with no kernel: every weakly fair execution
  ends with each result at the composed term of its operations (the generated run); dropping the result
  leaves "terminates, faults nowhere, arguments unchanged".
-/
import proofs.«219763_g10557029614292_week1_w2_488_21_alg».proof.Defs
import proofs.«219763_g10557029614292_week1_w2_488_21_alg».proof.Proof.Gen.ReferenceIdeal
import proofs.«219763_g10557029614292_week1_w2_488_21_alg».proof.Proof.RefRunP
import proofs.«219763_g10557029614292_week1_w2_488_21_alg».proof.Proof.RefReadP
import proofs.«219763_g10557029614292_week1_w2_488_21_alg».proof.Proof.Gen.Pre_input_domain

noncomputable section

namespace Cert.Proof.RefFrame

open Idealize.ShloMosaic Idealize.SL.Sem

/-- The reference runs to the end and leaves its nine arguments as it found them. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.Spec.lean ====
/-
  What the reference computes, as one function of its nine argument arrays, index by index, at the ideal
  instance (a float is an extended real, every operation exact).

  A two-layer graph convolution with self loops and symmetric normalisation, a sum over the nodes of each
  graph of the batch, and a final linear map.  The messages are the 320000 edges followed by one self loop per
  node, 330000 in all; deg i is the number of messages that arrive at node i, dinv i = 1 / sqrt (deg i), and
  one layer sends the node features h to
      relu ( Σ_{messages j arriving at i} (h · W) (source j, f) * (dinv (source j) * dinv (target j)) + b f ).

  Every sum is stated twice: in the CONCATENATED form, over the 330000 messages (the reference's own
  arrangement), and in the SPLIT form, the 320000 edges apart from the self loop (the theorems whose names end
  in _split); the two are proved equal here.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

abbrev S10000x128 : Shape := ⟨2, ![10000, 128]⟩
abbrev S2x320000 : Shape := ⟨2, ![2, 320000]⟩
abbrev S10000 : Shape := ⟨1, ![10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S10000x64 : Shape := ⟨2, ![10000, 64]⟩

/-! ## Node and graph numbers -/

/-- The node a 32-bit word names (clamped into range: under the precondition every word is in range). -/
def node (w : BitVec 32) : Fin 10000 := ⟨min w.toNat 9999, by omega⟩

/-- The graph of the batch a 32-bit word names (clamped likewise). -/
def group (w : BitVec 32) : Fin 64 := ⟨min w.toNat 63, by omega⟩

theorem node_val {w : BitVec 32} (h : w.toNat < 10000) : (node w).val = w.toNat := by
  show min w.toNat 9999 = w.toNat; omega

theorem group_val {w : BitVec 32} (h : w.toNat < 64) : (group w).val = w.toNat := by
  show min w.toNat 63 = w.toNat; omega

/-- The source of edge e. -/
def src (ei : IVec S2x320000 32) (e : Fin 320000) : Fin 10000 := node (ei (ix2 0 e))

/-- The target of edge e. -/
def dst (ei : IVec S2x320000 32) (e : Fin 320000) : Fin 10000 := node (ei (ix2 1 e))

/-- The source of message j: edge j's for j < 320000, node j - 320000 (a self loop) from there on. -/
def src2 (ei : IVec S2x320000 32) (j : Fin 330000) : Fin 10000 :=
  if h : j.val < 320000 then src ei ⟨j.val, h⟩ else ⟨j.val - 320000, by omega⟩

/-- The target of message j, likewise. -/
def dst2 (ei : IVec S2x320000 32) (j : Fin 330000) : Fin 10000 :=
  if h : j.val < 320000 then dst ei ⟨j.val, h⟩ else ⟨j.val - 320000, by omega⟩

/-- Message e < 320000 is edge e. -/
def edgeMsg (e : Fin 320000) : Fin 330000 := ⟨e.val, by omega⟩

/-- Message 320000 + i is node i's self loop. -/
def loopMsg (i : Fin 10000) : Fin 330000 := ⟨320000 + i.val, by omega⟩

theorem src2_edge (ei : IVec S2x320000 32) (e : Fin 320000) : src2 ei (edgeMsg e) = src ei e := by
  unfold src2 edgeMsg; rw [dif_pos e.isLt]
theorem dst2_edge (ei : IVec S2x320000 32) (e : Fin 320000) : dst2 ei (edgeMsg e) = dst ei e := by
  unfold dst2 edgeMsg; rw [dif_pos e.isLt]
theorem src2_loop (ei : IVec S2x320000 32) (i : Fin 10000) : src2 ei (loopMsg i) = i := by
  unfold src2 loopMsg; rw [dif_neg (by show ¬ (320000 + i.val < 320000); omega)]
  exact Fin.ext (by show 320000 + i.val - 320000 = i.val; omega)
theorem dst2_loop (ei : IVec S2x320000 32) (i : Fin 10000) : dst2 ei (loopMsg i) = i := by
  unfold dst2 loopMsg; rw [dif_neg (by show ¬ (320000 + i.val < 320000); omega)]
  exact Fin.ext (by show 320000 + i.val - 320000 = i.val; omega)

/-- A sum over the messages that arrive at node i is the sum over the edges that arrive there plus the self
    loop's term. -/
theorem sum_arriving {M : Type*} [AddCommMonoid M] (ei : IVec S2x320000 32) (i : Fin 10000) (t : Fin 330000 → M) :
    ∑ j ∈ Finset.univ.filter (fun j : Fin 330000 => dst2 ei j = i), t j
      = (∑ e ∈ Finset.univ.filter (fun e : Fin 320000 => dst ei e = i), t (edgeMsg e)) + t (loopMsg i) := by
  rw [Finset.sum_filter, Finset.sum_filter]
  refine (Fin.sum_univ_add (a := 320000) (b := 10000) fun j : Fin (320000 + 10000) =>
    if dst2 ei j = i then t j else 0).trans ?_
  have hl : ∀ e : Fin 320000, (Fin.castAdd 10000 e : Fin (320000 + 10000)) = edgeMsg e := fun _ => rfl
  have hr : ∀ n : Fin 10000, (Fin.natAdd 320000 n : Fin (320000 + 10000)) = loopMsg n := fun _ => rfl
  simp only [hl, hr, dst2_edge, dst2_loop]
  rw [Finset.sum_ite_eq', if_pos (Finset.mem_univ i)]

/-! ## Degrees -/

/-- The number of messages that arrive at node i (the concatenated form). -/
def deg (ei : IVec S2x320000 32) (i : Fin 10000) : EReal :=
  ∑ _j ∈ Finset.univ.filter (fun j : Fin 330000 => dst2 ei j = i), (1 : EReal)

/-- The split form: the edges that arrive at i, and one for the self loop. -/
theorem deg_split (ei : IVec S2x320000 32) (i : Fin 10000) :
    deg ei i = (∑ _e ∈ Finset.univ.filter (fun e : Fin 320000 => dst ei e = i), (1 : EReal)) + 1 :=
  sum_arriving ei i fun _ => (1 : EReal)

/-- 1 / sqrt (deg i), with the ideal instance's own division and square root. -/
def dinv (ei : IVec S2x320000 32) (i : Fin 10000) : EReal := Ideal.div 1 (Ideal.sqrt (deg ei i))

/-! ## The degree is a positive whole number, its inverse root a positive real -/

/-- The number of edges that arrive at node i. -/
def indeg (ei : IVec S2x320000 32) (i : Fin 10000) : ℕ :=
  (Finset.univ.filter (fun e : Fin 320000 => dst ei e = i)).card

/-- deg i is one more than the number of edges that arrive at i. -/
theorem deg_eq_card (ei : IVec S2x320000 32) (i : Fin 10000) : deg ei i = ((indeg ei i + 1 : ℕ) : EReal) := by
  rw [deg_split, Finset.sum_const, nsmul_one]
  exact (Nat.cast_succ _).symm

/-- deg i as a real number. -/
theorem deg_eq_coe (ei : IVec S2x320000 32) (i : Fin 10000) :
    deg ei i = (((indeg ei i + 1 : ℕ) : ℝ) : EReal) := by
  rw [deg_eq_card]; rfl

theorem one_le_deg (ei : IVec S2x320000 32) (i : Fin 10000) : 1 ≤ deg ei i := by
  rw [deg_eq_card, ← Nat.cast_one (R := EReal), EReal.natCast_le_iff]; omega

theorem deg_pos (ei : IVec S2x320000 32) (i : Fin 10000) : 0 < deg ei i :=
  lt_of_lt_of_le zero_lt_one (one_le_deg ei i)

/-- dinv i as a real number: one over the square root of the whole number deg i. -/
theorem dinv_eq_coe (ei : IVec S2x320000 32) (i : Fin 10000) :
    dinv ei i = ((1 / Real.sqrt ((indeg ei i + 1 : ℕ) : ℝ) : ℝ) : EReal) := by
  have hd : (0 : ℝ) < ((indeg ei i + 1 : ℕ) : ℝ) := by exact_mod_cast Nat.succ_pos _
  unfold dinv
  rw [deg_eq_coe, Ideal.sqrt_coe, if_neg (not_lt.mpr hd.le), Ideal.div_coe (Real.sqrt_pos.mpr hd).ne', one_mul]

theorem dinv_pos (ei : IVec S2x320000 32) (i : Fin 10000) : 0 < dinv ei i := by
  have hd : (0 : ℝ) < ((indeg ei i + 1 : ℕ) : ℝ) := by exact_mod_cast Nat.succ_pos _
  rw [dinv_eq_coe]
  exact EReal.coe_pos.mpr (one_div_pos.mpr (Real.sqrt_pos.mpr hd))

theorem dinv_nonneg (ei : IVec S2x320000 32) (i : Fin 10000) : 0 ≤ dinv ei i := (dinv_pos ei i).le

theorem dinv_ne_top (ei : IVec S2x320000 32) (i : Fin 10000) : dinv ei i ≠ ⊤ := by
  rw [dinv_eq_coe]; exact EReal.coe_ne_top _

theorem dinv_ne_bot (ei : IVec S2x320000 32) (i : Fin 10000) : dinv ei i ≠ ⊥ := by
  rw [dinv_eq_coe]; exact EReal.coe_ne_bot _

/-! ## One layer -/

/-- h · W: the features times the weights, summed over the contracted axis. -/
def lin {K : Nat} (h : (⟨2, ![10000, K]⟩ : Shape).Idx → EReal) (W : (⟨2, ![K, 64]⟩ : Shape).Idx → EReal)
    (i : Fin 10000) (f : Fin 64) : EReal :=
  ∑ k : Fin K, h (ix2 i k) * W (ix2 k f)

/-- The normalised aggregation of a node table g (the concatenated form): at (i, f), the sum over the messages j
    that arrive at i of g (source j, f) * (dinv (source j) * dinv (target j)). -/
def agg (ei : IVec S2x320000 32) (g : Fin 10000 → Fin 64 → EReal) (i : Fin 10000) (f : Fin 64) : EReal :=
  ∑ j ∈ Finset.univ.filter (fun j : Fin 330000 => dst2 ei j = i),
    g (src2 ei j) f * (dinv ei (src2 ei j) * dinv ei (dst2 ei j))

/-- The split form of the aggregation: the edges that arrive at i, then the self loop's term. -/
theorem agg_split (ei : IVec S2x320000 32) (g : Fin 10000 → Fin 64 → EReal) (i : Fin 10000) (f : Fin 64) :
    agg ei g i f
      = (∑ e ∈ Finset.univ.filter (fun e : Fin 320000 => dst ei e = i),
            g (src ei e) f * (dinv ei (src ei e) * dinv ei i))
        + g i f * (dinv ei i * dinv ei i) := by
  unfold agg
  rw [sum_arriving ei i fun j => g (src2 ei j) f * (dinv ei (src2 ei j) * dinv ei (dst2 ei j)), src2_loop, dst2_loop]
  refine congrArg (· + g i f * (dinv ei i * dinv ei i)) (Finset.sum_congr rfl fun e he => ?_)
  rw [src2_edge, dst2_edge, (Finset.mem_filter.mp he).2]

/-- One convolution layer before its relu (the concatenated form). -/
def conv {K : Nat} (ei : IVec S2x320000 32) (h : (⟨2, ![10000, K]⟩ : Shape).Idx → EReal)
    (W : (⟨2, ![K, 64]⟩ : Shape).Idx → EReal) (b : S64.Idx → EReal) (i : Fin 10000) (f : Fin 64) : EReal :=
  agg ei (lin h W) i f + b (ix1 f)

/-- The split form of one layer, as in the header: the edges, the self loop, the bias. -/
theorem conv_split {K : Nat} (ei : IVec S2x320000 32) (h : (⟨2, ![10000, K]⟩ : Shape).Idx → EReal)
    (W : (⟨2, ![K, 64]⟩ : Shape).Idx → EReal) (b : S64.Idx → EReal) (i : Fin 10000) (f : Fin 64) :
    conv ei h W b i f
      = (∑ e ∈ Finset.univ.filter (fun e : Fin 320000 => dst ei e = i),
            lin h W (src ei e) f * (dinv ei (src ei e) * dinv ei i))
        + lin h W i f * (dinv ei i * dinv ei i) + b (ix1 f) := by
  unfold conv
  rw [agg_split]

/-- relu of a node table given entry by entry, as an array: the maximum with zero. -/
def relu (a : Fin 10000 → Fin 64 → EReal) : S10000x64.Idx → EReal := fun p => max (a (p 0) (p 1)) 0

/-! ## The whole reference -/

/-- The node features after the first layer. -/
def h1 (x : S10000x128.Idx → EReal) (ei : IVec S2x320000 32) (W1 : S128x64.Idx → EReal) (b1 : S64.Idx → EReal) :
    S10000x64.Idx → EReal := relu (conv ei x W1 b1)

/-- The node features after the second layer. -/
def h2 (x : S10000x128.Idx → EReal) (ei : IVec S2x320000 32) (W1 : S128x64.Idx → EReal) (b1 : S64.Idx → EReal)
    (W2 : S64x64.Idx → EReal) (b2 : S64.Idx → EReal) : S10000x64.Idx → EReal :=
  relu (conv ei (h1 x ei W1 b1) W2 b2)

/-- The sum of a node table over the nodes of each graph of the batch. -/
def pool (batch : IVec S10000 32) (a : S10000x64.Idx → EReal) (g : Fin 64) (f : Fin 64) : EReal :=
  ∑ n ∈ Finset.univ.filter (fun n : Fin 10000 => group (batch (ix1 n)) = g), a (ix2 n f)

/-- The reference's result: the pooled features times W3, plus b3. -/
def out (x : S10000x128.Idx → EReal) (ei : IVec S2x320000 32) (batch : IVec S10000 32)
    (W1 : S128x64.Idx → EReal) (b1 : S64.Idx → EReal) (W2 : S64x64.Idx → EReal) (b2 : S64.Idx → EReal)
    (W3 : S64x1.Idx → EReal) (b3 : S1.Idx → EReal) : S64x1.Idx → EReal :=
  fun p => (∑ k : Fin 64, pool batch (h2 x ei W1 b1 W2 b2) (p 0) k * W3 (ix2 k (p 1))) + b3 (ix1 (p 1))

end Cert.Spec

end
-- ==== Proof.RefValue.lean ====
/-
  The reference's run term is the specification.

  First, a host gather of rows and a host accumulating scatter of rows read at an index, for the dimension numbers
  the reference uses (a flat array or a table of rows, indexed by one column of indices).  Then the reference's
  operations one at a time: the message lists (the edges, then the self loops), the degrees and their inverse roots,
  one layer for any node table, the two layers, the sum over each graph, the last linear map.
-/
import proofs.«219763_g10557029614292_week1_w2_488_21_alg».proof.Proof.RefRunP
import proofs.«219763_g10557029614292_week1_w2_488_21_alg».proof.Proof.RefReadP
import proofs.«219763_g10557029614292_week1_w2_488_21_alg».proof.Proof.Spec
import Idealize.ShloMosaic.Lib.IdealHost

noncomputable section

namespace Cert.RefSpec

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx
open scoped BigOperators

/-! ## Host gathers and accumulating scatters of rows, read at an index -/

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (t : (⟨1, ![n]⟩ : Shape).Idx → M) :
    ∑ j, t j = ∑ a : Fin n, t (ix1 a) :=
  (Equiv.sum_comp (idxEquiv1 (n := n)).symm t).symm

section Gather
variable {α : Type}

/-- The dimension numbers of x[idx] for a flat array x : [N] and a column of indices idx : [M, 1]. -/
abbrev gath1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry a of the gather is x at the a-th index, read signed and clamped into range. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (a : Fin M) :
    Host.gather (gath1 N M wf) x idx (ix1 a) = x (ix1 ⟨min (idx (ix2 a 0)).toInt.toNat (N - 1), by omega⟩) := by
  unfold Host.gather
  congr 1
  funext b
  obtain rfl : b = 0 := Subsingleton.elim _ _
  refine Fin.ext ?_
  show (gath1 N M wf).start (ix1 a) idx 0 + (gath1 N M wf).batchCoord (ix1 a) 0 + (gath1 N M wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N M wf).startIndexMap from List.mem_singleton.mpr rfl)]
  have hsi : (gath1 N M wf).siIdx (ix1 a) ⟨List.idxOf (0 : Fin 1) (gath1 N M wf).startIndexMap,
      List.idxOf_lt_length_iff.2 (List.mem_singleton.mpr rfl)⟩ = ix2 a 0 := by
    funext b; refine Fin.ext ?_
    match b with
    | ⟨0, _⟩ => rfl
    | ⟨1, _⟩ => rfl
  rw [hsi]
  rfl

/-- The dimension numbers of x[idx] for a table x : [N, C] of rows and a column of indices idx : [M, 1]. -/
abbrev gath2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem gath2_row {N M C w : Nat}
    (wf : GatherDims.WF ⟨2, ![N, C]⟩ ⟨2, ![M, 1]⟩ ⟨2, ![M, C]⟩ [1] [0] [] [0] [] 1 ![1, C])
    (idx : IVec ⟨2, ![M, 1]⟩ w) (a : Fin M) (f : Fin C) :
    ((gath2 N M C wf).operandIdx (ix2 a f) idx 0).val = min (idx (ix2 a 0)).toInt.toNat (N - 1) := by
  show (gath2 N M C wf).start (ix2 a f) idx 0 + (gath2 N M C wf).batchCoord (ix2 a f) 0 + (gath2 N M C wf).offCoord (ix2 a f) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gath2 N M C wf).startIndexMap from List.mem_singleton.mpr rfl)]
  have hsi : (gath2 N M C wf).siIdx (ix2 a f) ⟨List.idxOf (0 : Fin 2) (gath2 N M C wf).startIndexMap,
      List.idxOf_lt_length_iff.2 (List.mem_singleton.mpr rfl)⟩ = ix2 a 0 := by
    funext b; refine Fin.ext ?_
    match b with
    | ⟨0, _⟩ => rfl
    | ⟨1, _⟩ => rfl
  rw [hsi]
  rfl

theorem gath2_col {N M C w : Nat}
    (wf : GatherDims.WF ⟨2, ![N, C]⟩ ⟨2, ![M, 1]⟩ ⟨2, ![M, C]⟩ [1] [0] [] [0] [] 1 ![1, C])
    (idx : IVec ⟨2, ![M, 1]⟩ w) (a : Fin M) (f : Fin C) :
    ((gath2 N M C wf).operandIdx (ix2 a f) idx 1).val = f.val := by
  show (gath2 N M C wf).start (ix2 a f) idx 1 + (gath2 N M C wf).batchCoord (ix2 a f) 1 + (gath2 N M C wf).offCoord (ix2 a f) 1 = _
  rw [GatherDims.batchCoord_eq_zero _ _ _ List.not_mem_nil]
  unfold GatherDims.start
  rw [dif_neg (show ¬ (1 : Fin 2) ∈ (gath2 N M C wf).startIndexMap from (by decide : ¬ (1 : Fin 2) ∈ ([0] : List (Fin 2))))]
  unfold GatherDims.offCoord
  rw [dif_pos (show (1 : Fin 2) ∈ (gath2 N M C wf).sKept from
    (GatherDims.mem_sKept _ _).2 ⟨(by decide : ¬ (1 : Fin 2) ∈ ([0] : List (Fin 2))), List.not_mem_nil⟩)]
  simp only [Nat.zero_add]
  rfl

/-- Entry (a, f) of the gather is x at (the a-th index, read signed and clamped into range; f). -/
theorem gather2_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (a : Fin M) (f : Fin C) :
    Host.gather (gath2 N M C wf) x idx (ix2 a f)
      = x (ix2 ⟨min (idx (ix2 a 0)).toInt.toNat (N - 1), by omega⟩ f) := by
  unfold Host.gather
  congr 1
  funext b
  refine Fin.ext ?_
  match b with
  | ⟨0, _⟩ => exact gath2_row wf idx a f
  | ⟨1, _⟩ => exact gath2_col wf idx a f

end Gather

section Scatter

/-- The dimension numbers of x.at[idx].add(u) for a flat array x : [N], a column of indices idx : [M, 1] and
    updates u : [M]. -/
abbrev scat1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem scat1_start {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) :
    (scat1 N M wf).start j idx 0 = (idx (ix2 (j 0) 0)).toInt := by
  unfold ScatterDims.start
  rw [dif_pos (show (0 : Fin 1) ∈ (scat1 N M wf).scatterDimsToOperandDims from List.mem_singleton.mpr rfl)]
  have hsi : (scat1 N M wf).siIdx j ⟨List.idxOf (0 : Fin 1) (scat1 N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem scat1_window {N M : Nat} (wf : ScatterDims.WF ⟨1, ![N]⟩ ⟨2, ![M, 1]⟩ ⟨1, ![M]⟩ [] [0] [0] 1)
    (j : (⟨1, ![M]⟩ : Shape).Idx) : (scat1 N M wf).window j 0 = 0 := by
  unfold ScatterDims.window
  rw [dif_neg (show ¬ (0 : Fin 1) ∈ (scat1 N M wf).sKept by simp [Shape.kept])]

/-- Update j lands on entry i exactly when the j-th index, read signed, is i. -/
theorem scat1_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (scat1 N M wf).resultIdx? j idx = some i ↔ (idx (ix2 (j 0) 0)).toInt = ((i 0).val : Int) := by
  have hs : ∀ a, (scat1 N M wf).start j idx a + ((scat1 N M wf).window j a : Int) = (idx (ix2 (j 0) 0)).toInt := by
    intro a
    obtain rfl : a = 0 := Subsingleton.elim _ _
    rw [scat1_start, scat1_window]; simp
  have hi : (i 0).val < N := (i 0).isLt
  unfold ScatterDims.resultIdx?
  split
  · rename_i h
    have h0 := h 0
    rw [hs] at h0
    constructor
    · intro e
      have e' := congrArg (fun t : (⟨1, ![N]⟩ : Shape).Idx => (t 0).val) (Option.some.inj e)
      simp only [hs] at e'
      omega
    · intro e
      refine congrArg some (funext fun a => ?_)
      obtain rfl : a = 0 := Subsingleton.elim _ _
      refine Fin.ext ?_
      show ((scat1 N M wf).start j idx 0 + ((scat1 N M wf).window j 0 : Int)).toNat = (i 0).val
      rw [hs, e]; simp
  · rename_i h
    constructor
    · intro e; cases e
    · intro e; exfalso; apply h; intro a
      rw [hs, e]
      obtain rfl : a = 0 := Subsingleton.elim _ _
      exact ⟨by omega, by show ((i 0).val : Int) < ((N : Nat) : Int); omega⟩

/-- Entry i of the accumulating scatter: the operand's entry plus the updates whose index is i. -/
theorem scatterAdd1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (scat1 N M wf) x idx upd (ix1 i)
      = x (ix1 i) + ∑ a ∈ Finset.univ.filter (fun a : Fin M => (idx (ix2 a 0)).toInt = (i.val : Int)), upd (ix1 a) := by
  unfold Ideal.hostScatterAdd
  refine congrArg (x (ix1 i) + ·) ?_
  rw [Finset.sum_filter, Finset.sum_filter, sum_idx1]
  refine Finset.sum_congr rfl fun a _ => ?_
  simp only [scat1_resultIdx]
  rfl

/-- The dimension numbers of x.at[idx].add(u) for a table x : [N, C] of rows, a column of indices idx : [M, 1] and
    update rows u : [M, C]. -/
abbrev scat2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem scat2_start0 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (scat2 N M C wf).start j idx 0 = (idx (ix2 (j 0) 0)).toInt := by
  unfold ScatterDims.start
  rw [dif_pos (show (0 : Fin 2) ∈ (scat2 N M C wf).scatterDimsToOperandDims from List.mem_singleton.mpr rfl)]
  have hsi : (scat2 N M C wf).siIdx j ⟨List.idxOf (0 : Fin 2) (scat2 N M C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem scat2_start1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (scat2 N M C wf).start j idx 1 = 0 := by
  unfold ScatterDims.start
  rw [dif_neg (show ¬ (1 : Fin 2) ∈ (scat2 N M C wf).scatterDimsToOperandDims from
    (by decide : ¬ (1 : Fin 2) ∈ ([0] : List (Fin 2))))]

theorem scat2_window0 {N M C : Nat} (wf : ScatterDims.WF ⟨2, ![N, C]⟩ ⟨2, ![M, 1]⟩ ⟨2, ![M, C]⟩ [1] [0] [0] 1)
    (j : (⟨2, ![M, C]⟩ : Shape).Idx) : (scat2 N M C wf).window j 0 = 0 := by
  unfold ScatterDims.window
  rw [dif_neg (show ¬ (0 : Fin 2) ∈ (scat2 N M C wf).sKept by simp [Shape.kept])]

theorem scat2_window1 {N M C : Nat} (wf : ScatterDims.WF ⟨2, ![N, C]⟩ ⟨2, ![M, 1]⟩ ⟨2, ![M, C]⟩ [1] [0] [0] 1)
    (j : (⟨2, ![M, C]⟩ : Shape).Idx) : (scat2 N M C wf).window j 1 = (j 1).val := by
  unfold ScatterDims.window
  rw [dif_pos (show (1 : Fin 2) ∈ (scat2 N M C wf).sKept by simp [Shape.kept])]
  rfl

/-- Update (a, f') lands on entry (i, f) exactly when the a-th index, read signed, is i, and f' = f. -/
theorem scat2_resultIdx {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (p : (⟨2, ![N, C]⟩ : Shape).Idx) :
    (scat2 N M C wf).resultIdx? j idx = some p
      ↔ (idx (ix2 (j 0) 0)).toInt = ((p 0).val : Int) ∧ (j 1).val = (p 1).val := by
  have hs0 : (scat2 N M C wf).start j idx 0 + ((scat2 N M C wf).window j 0 : Int) = (idx (ix2 (j 0) 0)).toInt := by
    rw [scat2_start0, scat2_window0]; simp
  have hs1 : (scat2 N M C wf).start j idx 1 + ((scat2 N M C wf).window j 1 : Int) = ((j 1).val : Int) := by
    rw [scat2_start1, scat2_window1]; simp
  have hp0 : (p 0).val < N := (p 0).isLt
  have hp1 : (p 1).val < C := (p 1).isLt
  have hj1 : (j 1).val < C := (j 1).isLt
  unfold ScatterDims.resultIdx?
  split
  · rename_i h
    have h0 := h 0
    have h1 := h 1
    rw [hs0] at h0
    constructor
    · intro e
      have e0 := congrArg (fun t : (⟨2, ![N, C]⟩ : Shape).Idx => (t 0).val) (Option.some.inj e)
      have e1 := congrArg (fun t : (⟨2, ![N, C]⟩ : Shape).Idx => (t 1).val) (Option.some.inj e)
      simp only [hs0] at e0
      simp only [hs1] at e1
      constructor
      · omega
      · omega
    · intro e
      refine congrArg some (funext fun a => Fin.ext ?_)
      match a with
      | ⟨0, _⟩ =>
        show ((scat2 N M C wf).start j idx 0 + ((scat2 N M C wf).window j 0 : Int)).toNat = (p 0).val
        rw [hs0, e.1]; simp
      | ⟨1, _⟩ =>
        show ((scat2 N M C wf).start j idx 1 + ((scat2 N M C wf).window j 1 : Int)).toNat = (p 1).val
        rw [hs1, ← e.2]; simp
  · rename_i h
    constructor
    · intro e; cases e
    · intro e; exfalso; apply h; intro a
      match a with
      | ⟨0, _⟩ =>
        show 0 ≤ (scat2 N M C wf).start j idx 0 + ((scat2 N M C wf).window j 0 : Int)
          ∧ (scat2 N M C wf).start j idx 0 + ((scat2 N M C wf).window j 0 : Int) < ((N : Nat) : Int)
        rw [hs0, e.1]; exact ⟨by omega, by omega⟩
      | ⟨1, _⟩ =>
        show 0 ≤ (scat2 N M C wf).start j idx 1 + ((scat2 N M C wf).window j 1 : Int)
          ∧ (scat2 N M C wf).start j idx 1 + ((scat2 N M C wf).window j 1 : Int) < ((C : Nat) : Int)
        rw [hs1]; exact ⟨by omega, by omega⟩

/-- Entry (i, f) of the accumulating scatter of rows: the operand's entry plus entry f of the update rows whose
    index is i. -/
theorem scatterAdd2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (f : Fin C) :
    Ideal.hostScatterAdd (scat2 N M C wf) x idx upd (ix2 i f)
      = x (ix2 i f) + ∑ a ∈ Finset.univ.filter (fun a : Fin M => (idx (ix2 a 0)).toInt = (i.val : Int)), upd (ix2 a f) := by
  unfold Ideal.hostScatterAdd
  refine congrArg (x (ix2 i f) + ·) ?_
  rw [Finset.sum_filter, Finset.sum_filter, sum_idx2]
  refine Finset.sum_congr rfl fun a _ => ?_
  simp only [scat2_resultIdx]
  by_cases h : (idx (ix2 a 0)).toInt = (i.val : Int)
  · rw [if_pos h, Finset.sum_eq_single f]
    · exact if_pos ⟨h, rfl⟩
    · intro b _ hb
      exact if_neg fun hc => hb (Fin.ext hc.2)
    · intro hf; exact absurd (Finset.mem_univ f) hf
  · rw [if_neg h]
    exact Finset.sum_eq_zero fun b _ => if_neg fun hc => h hc.1

end Scatter

/-! ## Words that name nodes -/

/-- A 32-bit word below 2³¹ reads the same signed and unsigned. -/
theorem toInt_of_lt {w : BitVec 32} (h : w.toNat < 2147483648) : w.toInt = (w.toNat : Int) := by
  rw [BitVec.toInt_eq_toNat_cond]
  split
  · rfl
  · omega

/-- An index that is not negative is left alone by the wrap-around of negative indices. -/
theorem wrap_id (w : BitVec 32) (h : w.toNat < 2147483648) :
    Scalar.select (IntOp.cmpi .slt w 0#32) (IntOp.addi w 10000#32) w = w := by
  have hs : w.slt 0#32 = false := by
    rw [BitVec.slt, toInt_of_lt h]
    simp
  show (if BitVec.ofBool (w.slt 0#32) = 1 then _ else _) = _
  rw [hs]
  rfl

/-- The comparison "greater than zero" of a positive extended real answers yes. -/
theorem cmp_ogt_zero {d : EReal} (h : 0 < d) : FloatOps.cmpf (F := Ideal) (φ := .f32) .ogt d (0 : EReal) = 1#1 := by
  show BitVec.ofBool (decide ((0 : EReal) < d)) = 1#1
  rw [decide_eq_true h]
  rfl

/-- One over the square root, spelt with the host's operations, is the ideal instance's. -/
theorem host_inv_sqrt (d : EReal) :
    FloatOps.hostDivf (F := Ideal) (φ := .f32) (1 : EReal) (FloatOps.hostUnary (F := Ideal) (φ := .f32) .sqrt d)
      = Ideal.div 1 (Ideal.sqrt d) := rfl

/-- A word that names node n, read signed and clamped into range, is n. -/
theorem clamp_eq {w : BitVec 32} {n : Fin 10000} (h : w.toNat = n.val) (p : min w.toInt.toNat (10000 - 1) < 10000) :
    (⟨min w.toInt.toNat (10000 - 1), p⟩ : Fin 10000) = n := by
  have hn := n.isLt
  refine Fin.ext ?_
  show min w.toInt.toNat (10000 - 1) = n.val
  rw [toInt_of_lt (by omega), Int.toNat_natCast]
  omega

/-- The host's accumulating scatter is the ideal instance's exact sum. -/
theorem host_scatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The reference's three scatters have the dimension numbers read above. -/
theorem scat_deg_rec :
    scatter_S10000_S330000x1_S330000_n_0_0_1 = scat1 10000 330000 scatter_S10000_S330000x1_S330000_n_0_0_1_wf := rfl
theorem scat_agg_rec :
    scatter_S10000x64_S330000x1_S330000x64_1_0_0_1
      = scat2 10000 330000 64 scatter_S10000x64_S330000x1_S330000x64_1_0_0_1_wf := rfl
theorem scat_pool_rec :
    scatter_S64x64_S10000x1_S10000x64_1_0_0_1 = scat2 64 10000 64 scatter_S64x64_S10000x1_S10000x64_1_0_0_1_wf := rfl

section Ref

variable (x1 : (⟨S2x320000, .i32⟩ : BufTy).Contents (Elt Ideal))

/-! ## The message lists: the edges, then the self loops -/

/-- Word a of the list of sources. -/
theorem srcs_word (a : Fin 330000) :
    val_main_v5 (F := Ideal) x1 (ix1 a)
      = if h : a.val < 320000 then x1 (ix2 0 ⟨a.val, h⟩) else BitVec.ofNat 32 (a.val - 320000) := by
  unfold val_main_v5
  by_cases h : a.val < 320000
  · rw [dif_pos h]
    refine (concatenate_pair_apply_left (0 : Fin S330000.rank) _ _ concatenates_S320000_S10000_S330000_d0 (ix1 a) rfl
      (ix1 ⟨a.val, h⟩) (fun b => ?_)).trans ?_
    · obtain rfl : b = 0 := Subsingleton.elim _ _
      rfl
    · rw [val_main_v1_apply, val_main_v0_apply]
      refine congrArg x1 (funext fun b => Fin.ext ?_)
      match b with
      | ⟨0, _⟩ => rfl
      | ⟨1, _⟩ => exact Nat.mod_eq_of_lt h
  · rw [dif_neg h]
    have ha := a.isLt
    refine (concatenate_pair_apply_right (0 : Fin S330000.rank) _ _ concatenates_S320000_S10000_S330000_d0 (ix1 a) rfl rfl
      (ix1 ⟨a.val - 320000, by omega⟩) (fun b hb => ?_) ?_).trans ?_
    · exact absurd (Subsingleton.elim _ _) hb
    · show a.val - 320000 + 320000 = a.val
      omega
    · rfl

/-- Word a of the list of targets. -/
theorem dsts_word (a : Fin 330000) :
    val_main_v6 (F := Ideal) x1 (ix1 a)
      = if h : a.val < 320000 then x1 (ix2 1 ⟨a.val, h⟩) else BitVec.ofNat 32 (a.val - 320000) := by
  unfold val_main_v6
  by_cases h : a.val < 320000
  · rw [dif_pos h]
    refine (concatenate_pair_apply_left (0 : Fin S330000.rank) _ _ concatenates_S320000_S10000_S330000_d0 (ix1 a) rfl
      (ix1 ⟨a.val, h⟩) (fun b => ?_)).trans ?_
    · obtain rfl : b = 0 := Subsingleton.elim _ _
      rfl
    · rw [val_main_v3_apply, val_main_v2_apply]
      refine congrArg x1 (funext fun b => Fin.ext ?_)
      match b with
      | ⟨0, _⟩ => rfl
      | ⟨1, _⟩ => exact Nat.mod_eq_of_lt h
  · rw [dif_neg h]
    have ha := a.isLt
    refine (concatenate_pair_apply_right (0 : Fin S330000.rank) _ _ concatenates_S320000_S10000_S330000_d0 (ix1 a) rfl rfl
      (ix1 ⟨a.val - 320000, by omega⟩) (fun b hb => ?_) ?_).trans ?_
    · exact absurd (Subsingleton.elim _ _) hb
    · show a.val - 320000 + 320000 = a.val
      omega
    · rfl

variable (hei : ∀ j : S2x320000.Idx, (x1 j).toNat < 10000)
include hei

/-- Word a of the list of sources names the source of message a. -/
theorem srcs_val (a : Fin 330000) : (val_main_v5 (F := Ideal) x1 (ix1 a)).toNat = (Cert.Spec.src2 x1 a).val := by
  rw [srcs_word]
  unfold Cert.Spec.src2
  by_cases h : a.val < 320000
  · rw [dif_pos h, dif_pos h]
    exact (Cert.Spec.node_val (hei _)).symm
  · rw [dif_neg h, dif_neg h]
    have ha := a.isLt
    show (BitVec.ofNat 32 (a.val - 320000)).toNat = a.val - 320000
    rw [BitVec.toNat_ofNat]
    exact Nat.mod_eq_of_lt (by omega)

/-- Word a of the list of targets names the target of message a. -/
theorem dsts_val (a : Fin 330000) : (val_main_v6 (F := Ideal) x1 (ix1 a)).toNat = (Cert.Spec.dst2 x1 a).val := by
  rw [dsts_word]
  unfold Cert.Spec.dst2
  by_cases h : a.val < 320000
  · rw [dif_pos h, dif_pos h]
    exact (Cert.Spec.node_val (hei _)).symm
  · rw [dif_neg h, dif_neg h]
    have ha := a.isLt
    show (BitVec.ofNat 32 (a.val - 320000)).toNat = a.val - 320000
    rw [BitVec.toNat_ofNat]
    exact Nat.mod_eq_of_lt (by omega)

/-- The column of gather indices made of the sources: entry a is word a of the list. -/
theorem gsrc_word (a : Fin 330000) : val_main_v23 (F := Ideal) x1 (ix2 a 0) = val_main_v5 (F := Ideal) x1 (ix1 a) := by
  have e : idx_main_v23 (ix2 a (0 : Fin 1)) = ix1 a := funext fun b => Fin.ext (by match b with | ⟨0, _⟩ => rfl)
  rw [val_main_v23_apply, e]
  have hv := (Cert.Spec.src2 x1 a).isLt
  exact wrap_id _ (by rw [srcs_val x1 hei]; omega)

/-- The column of gather indices made of the targets: entry a is word a of the list. -/
theorem gdst_word (a : Fin 330000) : val_main_v30 (F := Ideal) x1 (ix2 a 0) = val_main_v6 (F := Ideal) x1 (ix1 a) := by
  have e : idx_main_v30 (ix2 a (0 : Fin 1)) = ix1 a := funext fun b => Fin.ext (by match b with | ⟨0, _⟩ => rfl)
  rw [val_main_v30_apply, e]
  have hv := (Cert.Spec.dst2 x1 a).isLt
  exact wrap_id _ (by rw [dsts_val x1 hei]; omega)

/-- The column of scatter indices: entry a, read signed, is node i exactly when message a arrives at i. -/
theorem scat_word_iff (a : Fin 330000) (i : Fin 10000) :
    (val_main_v10 (F := Ideal) x1 (ix2 a 0)).toInt = (i.val : Int) ↔ Cert.Spec.dst2 x1 a = i := by
  have e : idx_main_v10 (ix2 a (0 : Fin 1)) = ix1 a := funext fun b => Fin.ext (by match b with | ⟨0, _⟩ => rfl)
  have hv := (Cert.Spec.dst2 x1 a).isLt
  rw [val_main_v10_apply, e, toInt_of_lt (by rw [dsts_val x1 hei]; omega), dsts_val x1 hei]
  constructor
  · intro h; exact Fin.ext (by omega)
  · intro h; rw [h]

/-! ## Degrees and their inverse roots -/

theorem deg_eq (i : Fin 10000) : val_main_v11 (F := Ideal) x1 (ix1 i) = Cert.Spec.deg x1 i := by
  unfold val_main_v11
  rw [host_scatterAdd_eq, scat_deg_rec, scatterAdd1_apply]
  have h0 : val_main_v9 (F := Ideal) (ix1 i) = 0 := by
    rw [val_main_v9_apply, val_main_cst_0_apply]; exact Ideal.ofBits_zero_f32
  rw [h0, zero_add]
  unfold Cert.Spec.deg
  refine Finset.sum_congr (Finset.filter_congr fun a _ => scat_word_iff x1 hei a i) fun a _ => ?_
  rw [val_main_v8_apply, val_main_cst_apply]; exact Ideal.ofBits_one_f32

theorem dinv_eq (i : Fin 10000) : val_main_v17 (F := Ideal) x1 (ix1 i) = Cert.Spec.dinv x1 i := by
  have h12 : val_main_v12 (F := Ideal) (ix1 i) = 0 := by
    rw [val_main_v12_apply, val_main_cst_1_apply]; exact Ideal.ofBits_zero_f32
  have h15 : val_main_v15 (F := Ideal) (ix1 i) = 1 := by
    rw [val_main_v15_apply, val_main_cst_2_apply]; exact Ideal.ofBits_one_f32
  rw [val_main_v17_apply, val_main_v13_apply, val_main_v16_apply, val_main_v14_apply, deg_eq x1 hei, h12, h15]
  rw [cmp_ogt_zero (Cert.Spec.deg_pos x1 i), select_one, host_inv_sqrt]
  rfl

/-- The inverse root gathered at the sources. -/
theorem dinv_src (a : Fin 330000) : val_main_v24 (F := Ideal) x1 (ix1 a) = Cert.Spec.dinv x1 (Cert.Spec.src2 x1 a) := by
  unfold val_main_v24
  refine (gather1_apply (N := 10000) (M := 330000) (by decide) gather_S10000_S330000x1_S330000_n_0_n_n_0_1_1_wf
    (val_main_v17 (F := Ideal) x1) (val_main_v23 (F := Ideal) x1) a).trans ?_
  rw [← dinv_eq x1 hei]
  refine congrArg (fun n => val_main_v17 (F := Ideal) x1 (ix1 n)) (clamp_eq ?_ _)
  rw [gsrc_word x1 hei, srcs_val x1 hei]

/-- The inverse root gathered at the targets. -/
theorem dinv_dst (a : Fin 330000) : val_main_v31 (F := Ideal) x1 (ix1 a) = Cert.Spec.dinv x1 (Cert.Spec.dst2 x1 a) := by
  unfold val_main_v31
  refine (gather1_apply (N := 10000) (M := 330000) (by decide) gather_S10000_S330000x1_S330000_n_0_n_n_0_1_1_wf
    (val_main_v17 (F := Ideal) x1) (val_main_v30 (F := Ideal) x1) a).trans ?_
  rw [← dinv_eq x1 hei]
  refine congrArg (fun n => val_main_v17 (F := Ideal) x1 (ix1 n)) (clamp_eq ?_ _)
  rw [gdst_word x1 hei, dsts_val x1 hei]

/-- The weight of message a, as a row of 64 equal entries. -/
theorem norm_eq (a : Fin 330000) (f : Fin 64) :
    val_main_v41 (F := Ideal) x1 (ix2 a f)
      = Cert.Spec.dinv x1 (Cert.Spec.src2 x1 a) * Cert.Spec.dinv x1 (Cert.Spec.dst2 x1 a) := by
  have e : idx_main_v40 (idx_main_v41 (ix2 a f)) = ix1 a := funext fun b => Fin.ext (by match b with | ⟨0, _⟩ => rfl)
  rw [val_main_v41_apply, val_main_v40_apply, e, val_main_v32_apply, dinv_src x1 hei, dinv_dst x1 hei]
  rfl

/-! ## One layer, for any node table -/

/-- The normalised aggregation of a node table t, as the reference spells it: gather the rows at the sources,
    weight them, add them up at the targets. -/
theorem agg_eq (t : (⟨S10000x64, .f32⟩ : BufTy).Contents (Elt Ideal)) (i : Fin 10000) (f : Fin 64) :
    Host.scatterAdd (F := Ideal) (φ := .f32) scatter_S10000x64_S330000x1_S330000x64_1_0_0_1 (val_main_v43 (F := Ideal))
        (val_main_v44 (F := Ideal) x1)
        (mulf (F := Ideal) (φ := .f32) (Host.gather gather_S10000x64_S330000x1_S330000x64_1_0_n_n_0_1_164 t (val_main_v38 (F := Ideal) x1))
          (val_main_v41 (F := Ideal) x1)) (ix2 i f)
      = Cert.Spec.agg x1 (fun n f' => t (ix2 n f')) i f := by
  rw [host_scatterAdd_eq, scat_agg_rec, scatterAdd2_apply]
  have h0 : val_main_v43 (F := Ideal) (ix2 i f) = 0 := by
    rw [val_main_v43_apply, val_main_cst_9_apply]; exact Ideal.ofBits_zero_f32
  rw [h0, zero_add]
  unfold Cert.Spec.agg
  refine Finset.sum_congr (Finset.filter_congr fun a _ => scat_word_iff x1 hei a i) fun a _ => ?_
  rw [mulf_apply, norm_eq x1 hei]
  refine congrArg (· * (Cert.Spec.dinv x1 (Cert.Spec.src2 x1 a) * Cert.Spec.dinv x1 (Cert.Spec.dst2 x1 a))) ?_
  refine (gather2_apply (N := 10000) (M := 330000) (C := 64) (by decide)
    gather_S10000x64_S330000x1_S330000x64_1_0_n_n_0_1_164_wf t (val_main_v38 (F := Ideal) x1) a f).trans ?_
  refine congrArg (fun n => t (ix2 n f)) (clamp_eq ?_ _)
  exact (congrArg BitVec.toNat (gsrc_word x1 hei a)).trans (srcs_val x1 hei a)

omit hei in
/-- The bias, as an array of 10000 equal rows. -/
theorem bias1_eq (x4 : (⟨S64, .f32⟩ : BufTy).Contents (Elt Ideal)) (i : Fin 10000) (f : Fin 64) :
    val_main_v47 (F := Ideal) x4 (ix2 i f) = x4 (ix1 f) := by
  rw [val_main_v47_apply, val_main_v46_apply]
  exact congrArg x4 (funext fun b => Fin.ext (by match b with | ⟨0, _⟩ => rfl))

omit hei in
theorem bias2_eq (x6 : (⟨S64, .f32⟩ : BufTy).Contents (Elt Ideal)) (i : Fin 10000) (f : Fin 64) :
    val_main_v97 (F := Ideal) x6 (ix2 i f) = x6 (ix1 f) := by
  rw [val_main_v97_apply, val_main_v96_apply]
  exact congrArg x6 (funext fun b => Fin.ext (by match b with | ⟨0, _⟩ => rfl))

/-! ## The two layers -/

omit hei in
/-- The first layer's features times its weights. -/
theorem lin1_eq (x0 : (⟨S10000x128, .f32⟩ : BufTy).Contents (Elt Ideal)) (x3 : (⟨S128x64, .f32⟩ : BufTy).Contents (Elt Ideal))
    (n : Fin 10000) (f : Fin 64) : val_main_v7 (F := Ideal) x0 x3 (ix2 n f) = Cert.Spec.lin x0 x3 n f := by
  rw [val_main_v7_apply]
  unfold Cert.Spec.lin
  refine Finset.sum_congr rfl fun k _ => ?_
  have el : lidx_main_v7 (ix2 n f) k = ix2 n k := funext fun b => Fin.ext (by match b with | ⟨0, _⟩ => rfl | ⟨1, _⟩ => rfl)
  have er : ridx_main_v7 (ix2 n f) k = ix2 k f := funext fun b => Fin.ext (by match b with | ⟨0, _⟩ => rfl | ⟨1, _⟩ => rfl)
  rw [el, er]

theorem h1_eq (x0 : (⟨S10000x128, .f32⟩ : BufTy).Contents (Elt Ideal)) (x3 : (⟨S128x64, .f32⟩ : BufTy).Contents (Elt Ideal))
    (x4 : (⟨S64, .f32⟩ : BufTy).Contents (Elt Ideal)) :
    val_main_v49 (F := Ideal) x0 x1 x3 x4 = Cert.Spec.h1 x0 x1 x3 x4 := by
  funext p
  obtain ⟨i, f, rfl⟩ : ∃ (i : Fin 10000) (f : Fin 64), p = ix2 i f := ⟨p 0, p 1, eq_ix2 p⟩
  have hz : val_main_call1_v0 (F := Ideal) (ix2 i f) = 0 := by
    rw [val_main_call1_v0_apply, val_main_call1_cst_apply]; exact Ideal.ofBits_zero_f32
  have ha : val_main_v45 (F := Ideal) x0 x1 x3 (ix2 i f) = Cert.Spec.agg x1 (Cert.Spec.lin x0 x3) i f := by
    refine (agg_eq x1 hei (val_main_v7 (F := Ideal) x0 x3) i f).trans ?_
    exact congrArg (fun g => Cert.Spec.agg x1 g i f) (funext fun n => funext fun f' => lin1_eq x0 x3 n f')
  rw [val_main_v49_apply, val_main_v48_apply, ha, bias1_eq, hz]
  rfl

omit hei in
/-- The second layer's features times its weights, for the first layer's result h. -/
theorem lin2_eq (x0 : (⟨S10000x128, .f32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (n : Fin 10000) (f : Fin 64) :
    val_main_v57 (F := Ideal) x0 x1 x3 x4 x5 (ix2 n f) = Cert.Spec.lin (val_main_v49 (F := Ideal) x0 x1 x3 x4) x5 n f := by
  rw [val_main_v57_apply]
  unfold Cert.Spec.lin
  refine Finset.sum_congr rfl fun k _ => ?_
  have el : lidx_main_v57 (ix2 n f) k = ix2 n k := funext fun b => Fin.ext (by match b with | ⟨0, _⟩ => rfl | ⟨1, _⟩ => rfl)
  have er : ridx_main_v57 (ix2 n f) k = ix2 k f := funext fun b => Fin.ext (by match b with | ⟨0, _⟩ => rfl | ⟨1, _⟩ => rfl)
  rw [el, er]

theorem h2_eq (x0 : (⟨S10000x128, .f32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v99 (F := Ideal) x0 x1 x3 x4 x5 x6 = Cert.Spec.h2 x0 x1 x3 x4 x5 x6 := by
  funext p
  obtain ⟨i, f, rfl⟩ : ∃ (i : Fin 10000) (f : Fin 64), p = ix2 i f := ⟨p 0, p 1, eq_ix2 p⟩
  have hz : val_main_call3_v0 (F := Ideal) (ix2 i f) = 0 := by
    rw [val_main_call3_v0_apply, val_main_call3_cst_apply]; exact Ideal.ofBits_zero_f32
  have ha : val_main_v95 (F := Ideal) x0 x1 x3 x4 x5 (ix2 i f)
      = Cert.Spec.agg x1 (Cert.Spec.lin (Cert.Spec.h1 x0 x1 x3 x4) x5) i f := by
    refine (agg_eq x1 hei (val_main_v57 (F := Ideal) x0 x1 x3 x4 x5) i f).trans ?_
    refine congrArg (fun g => Cert.Spec.agg x1 g i f) (funext fun n => funext fun f' => ?_)
    rw [lin2_eq, h1_eq x1 hei]
  rw [val_main_v99_apply, val_main_v98_apply, ha, bias2_eq, hz]
  rfl

end Ref

/-! ## The sum over each graph, and the last linear map -/

section Out

variable (x0 : (⟨S10000x128, .f32⟩ : BufTy).Contents (Elt Ideal)) (x1 : (⟨S2x320000, .i32⟩ : BufTy).Contents (Elt Ideal))
  (x2 : (⟨S10000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x1, .f32⟩ : BufTy).Contents (Elt Ideal))
  (x8 : (⟨S1, .f32⟩ : BufTy).Contents (Elt Ideal))
  (hei : ∀ j : S2x320000.Idx, (x1 j).toNat < 10000) (hb : ∀ j : S10000.Idx, (x2 j).toNat < 64)
include hei hb

/-- The second layer's features summed over the nodes of each graph. -/
theorem pool_eq (g f : Fin 64) :
    val_main_v102 (F := Ideal) x0 x1 x2 x3 x4 x5 x6 (ix2 g f) = Cert.Spec.pool x2 (Cert.Spec.h2 x0 x1 x3 x4 x5 x6) g f := by
  unfold val_main_v102
  rw [host_scatterAdd_eq, scat_pool_rec, scatterAdd2_apply]
  have h0 : val_main_v100 (F := Ideal) (ix2 g f) = 0 := by
    rw [val_main_v100_apply, val_main_cst_22_apply]; exact Ideal.ofBits_zero_f32
  rw [h0, zero_add, h2_eq x1 hei]
  unfold Cert.Spec.pool
  refine Finset.sum_congr (Finset.filter_congr fun n _ => ?_) fun _ _ => rfl
  have e : idx_main_v101 (ix2 n (0 : Fin 1)) = ix1 n := funext fun b => Fin.ext (by match b with | ⟨0, _⟩ => rfl)
  have hn := hb (ix1 n)
  have hg := g.isLt
  rw [val_main_v101_apply, e, toInt_of_lt (by omega)]
  constructor
  · intro h; exact Fin.ext (by rw [Cert.Spec.group_val hn]; omega)
  · intro h; rw [← h, Cert.Spec.group_val hn]

/-- The reference's composed term of its nine arguments is the specification, where every word of the edge list
    names a node and every word of the batch vector names a graph. -/
theorem val_is_spec :
    val_main_v106 (F := Ideal) x0 x1 x2 x3 x4 x5 x6 x7 x8 = Cert.Spec.out x0 x1 x2 x3 x4 x5 x6 x7 x8 := by
  funext p
  obtain ⟨g, o, rfl⟩ : ∃ (g : Fin 64) (o : Fin 1), p = ix2 g o := ⟨p 0, p 1, eq_ix2 p⟩
  have hbias : val_main_v105 (F := Ideal) x8 (ix2 g o) = x8 (ix1 o) := by
    rw [val_main_v105_apply, val_main_v104_apply]
    have ho := o.isLt
    exact congrArg x8 (funext fun b => Fin.ext (by match b with | ⟨0, _⟩ => show 0 = o.val; omega))
  rw [val_main_v106_apply, val_main_v103_apply, hbias]
  unfold Cert.Spec.out
  refine congrArg (· + x8 (ix1 o)) (Finset.sum_congr rfl fun k _ => ?_)
  have el : lidx_main_v103 (ix2 g o) k = ix2 g k :=
    funext fun b => Fin.ext (by match b with | ⟨0, _⟩ => rfl | ⟨1, _⟩ => rfl)
  have er : ridx_main_v103 (ix2 g o) k = ix2 k o :=
    funext fun b => Fin.ext (by match b with | ⟨0, _⟩ => rfl | ⟨1, _⟩ => rfl)
  rw [el, er, pool_eq x0 x1 x2 x3 x4 x5 x6 hei hb]

end Out

/-- The reference's result, as its run states it, is the specification of the launch contents of its nine arguments. -/
theorem ref_is_spec (m' : (ℓ : Loc nD τ sig) → Buf (Elt Ideal) ℓ) (c : Dev nD)
    (hei : ∀ j : S2x320000.Idx, (m' ((c.tc : Thread nD τ).loc main_arg1) j).toNat < 10000)
    (hb : ∀ j : S10000.Idx, (m' ((c.tc : Thread nD τ).loc main_arg2) j).toNat < 64) :
    Cert.ReferenceIdeal.ValueP.res_out0 (F := Ideal) m' c
      = Cert.Spec.out (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))
          (m' ((c.tc : Thread nD τ).loc main_arg8)) :=
  (val_main_v106_eq m' c).trans (val_is_spec _ _ _ _ _ _ _ _ _ hei hb)

end Cert.RefSpec

end
-- ==== Proof.KI.Base.lean ====
/-
  The launch configuration of the program, its stated facts, and the ghost state every later module works in:
  the handshake cells' rounds, the TensorCore pipelines' staging cells' rounds, and the counters of the
  vector subcores' own local copies.
-/
import proofs.«219763_g10557029614292_week1_w2_488_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«219763_g10557029614292_week1_w2_488_21_alg».proof.Proof.Gen.KernelIdeal
import proofs.«219763_g10557029614292_week1_w2_488_21_alg».proof.Proof.Gen.KernelIdeal.Skeleton
import proofs.«219763_g10557029614292_week1_w2_488_21_alg».proof.Proof.Gen.KernelIdeal.Launch
import proofs.«219763_g10557029614292_week1_w2_488_21_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 3 := sc (F := F)
theorem nSub_eq (q : Fin 3) : (K (F := F)).nSub q = 16 := by
  match q with
  | 0 => rfl
  | 1 => rfl
  | 2 => rfl
theorem nCore_eq (q : Fin 3) : (K (F := F)).nCore q = 2 := by
  match q with
  | 0 => rfl
  | 1 => rfl
  | 2 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipelines' staging cells' rounds. -/
abbrev UP : Type := URounds (GSem nD τ sig) Unit
abbrev UU : Type := UH × (UP × Counters)

abbrev EH : Emb UH (MT nD τ sig (HIx 3) (Elt F) ℕ UU ℕ) := embL
def EP : Emb UP (MT nD τ sig (HIx 3) (Elt F) ℕ UU ℕ) :=
  ((Emb.inl : Emb UP (UP × Counters)).trans (Emb.inr : Emb (UP × Counters) UU)).trans
    (uEmb (nD := nD) (sig := sig) (Ix := HIx 3) (Val := Elt F) (Name := ℕ) (U := UU) (Lvl := ℕ)).toEmb

instance EP_landsIn : (EP : Emb UP (MT nD τ sig (HIx 3) (Elt F) ℕ UU ℕ)).LandsIn (upEmb : UEmb _ (MT nD τ sig (HIx 3) (Elt F) ℕ UU ℕ)) := by
  unfold EP; infer_instance

end Cert.KernelIdeal.Hand

end
-- ==== Proof.KI.Vals.lean ====
/-
  What the three SparseCore kernels compute, as pure functions of the arrays they are handed, at any float
  instance: each vector subcore's result is a left fold of the model's indexed store-with-add
  (lanes in ascending order, colliding lanes accumulated) over the index vectors it reads, sixteen words at a time.

  * The degree kernel: worker w (of 32) folds the 640 sixteen-word chunks of row w of the padded destination list
    into a 10240-word histogram that starts at the zero array, adding the all-ones vector at each chunk's indices.
  * The edge kernel: the tile at (feature group cg of 16, edge half eh of 2) holds rows 4 cg … 4 cg + 3 of the padded,
    transposed feature table as one 40064-word array (row k at offset k · 10016) and folds the 10240 sixteen-word
    chunks of half eh of the padded source and destination lists: for chunk n and row k it gathers the table at
    source + k · 10016 and adds the gathered vector at destination + k · 10016 into an accumulator that starts at
    the zero array.
-/
import proofs.«219763_g10557029614292_week1_w2_488_21_alg».proof.Proof.KI.Base
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-! ## The degree kernel -/

/-- Sixteen consecutive words of a 10240-word list, from word 16 j (zero past its end: never read there). -/
def chunkA (dv : IVec S10240 32) (j : Nat) : IVec S16 32 :=
  fun x => if h : 16 * j + (x 0).val < 10240 then dv (ix1 ⟨16 * j + (x 0).val, h⟩) else 0#32

/-- One indexed store-with-add of the sixteen lanes v at the indices idx into a 10240-word array
    (the array unchanged where an index is out of range: never the case under the precondition). -/
def scatA (h : Vec F S10240 .f32) (idx : IVec S16 32) (v : Vec F S16 .f32) : Vec F S10240 .f32 :=
  if hb : k0_chk1 idx then storeIdx (e := .f32) h ![idx] v (fun _ => 1#1) true (k0_idx1_inb idx hb) else h

/-- The histogram after the first n chunks. -/
def degAcc (dv : IVec S10240 32) (z : Vec F S10240 .f32) : Nat → Vec F S10240 .f32
  | 0 => z
  | n + 1 => scatA (degAcc dv z n) (chunkA dv n) (k0_pay1 (F := F))

/-- Row w of the 32 × 10240 padded destination list. -/
def dvRow (a : IVec S32x10240 32) (w : Fin 32) : IVec S10240 32 := fun j => a (ix2 w (j 0))

/-- The degree kernel's result: row w is worker w's histogram over all 640 chunks of its row. -/
def degOut (a : IVec S32x10240 32) (z : Vec F S10240 .f32) : Vec F S32x10240 .f32 :=
  fun i => degAcc (dvRow a (i 0)) z 640 (ix1 (i 1))

/-! ## The edge kernel -/

/-- An index vector moved to feature row k of the tile's four (row k of the table starts at word k · 10016). -/
def addK (v : IVec S16 32) : Nat → IVec S16 32
  | 0 => v
  | 1 => addi v (broadcast S16 10016#32)
  | 2 => addi v (broadcast S16 20032#32)
  | _ => addi v (broadcast S16 30048#32)

/-- Sixteen consecutive words of half eh of a 2 × 1 × 163840 padded edge list, from word 16 n. -/
def edgeChunk (a : IVec S2x1x163840 32) (eh : Fin 2) (n : Nat) : IVec S16 32 :=
  fun x => if h : 16 * n + (x 0).val < 163840 then a (ix3 eh 0 ⟨16 * n + (x 0).val, h⟩) else 0#32

/-- The tile's table: feature group cg of the 16 × 1 × 40064 packed table. -/
def tabRow (g : Vec F S16x1x40064 .f32) (cg : Fin 16) : Vec F S40064 .f32 := fun j => g (ix3 cg 0 (j 0))

/-- The gather of sixteen table words (the zero vector where an index is out of range: never the case). -/
def gathB (tab : Vec F S40064 .f32) (idx : IVec S16 32) : Vec F S16 .f32 :=
  if hb : k2_chk1 idx then loadIdx (e := .f32) tab ![idx] (k2_idx1_inb idx hb) else fun _ => (Scalar.ofBits .f32 0x00000000#32 : F .f32)

/-- One indexed store-with-add into the 40064-word accumulator. -/
def scatB (acc : Vec F S40064 .f32) (idx : IVec S16 32) (v : Vec F S16 .f32) : Vec F S40064 .f32 :=
  if hb : k2_chk1 idx then storeIdx (e := .f32) acc ![idx] v (fun _ => 1#1) true (k2_idx1_inb idx hb) else acc

/-- The accumulator after the first p steps; step p = 4 n + k is chunk n of the half's edge list at feature row k. -/
def edgeAcc (tab : Vec F S40064 .f32) (srcs dsts : IVec S2x1x163840 32) (eh : Fin 2) (z : Vec F S40064 .f32) : Nat → Vec F S40064 .f32
  | 0 => z
  | p + 1 => scatB (edgeAcc tab srcs dsts eh z p) (addK (edgeChunk dsts eh (p / 4)) (p % 4)) (gathB tab (addK (edgeChunk srcs eh (p / 4)) (p % 4)))

/-- The edge kernel's result: entry (cg, eh, 0, ·) is that tile's accumulator after all 4 · 10240 steps. -/
def edgeOut (g : Vec F S16x1x40064 .f32) (srcs dsts : IVec S2x1x163840 32) (z : Vec F S40064 .f32) : Vec F S16x2x1x40064 .f32 :=
  fun i => edgeAcc (tabRow g (i 0)) srcs dsts (i 1) z 40960 (ix1 (i 3))

/-! ## What the kernels' assumed index checks need of the lists they read -/

/-- Every word of the padded destination list names a histogram slot. -/
def DegPre (a : IVec S32x10240 32) : Prop := ∀ j, (a j).toNat < 10240

/-- Every word of a padded edge list is a node number or the padding word 10000. -/
def EdgePre (a : IVec S2x1x163840 32) : Prop := ∀ j, (a j).toNat ≤ 10000

theorem addK_one (v : IVec S16 32) : addK v 1 = k2_pay1 (F := F) v := rfl

end Cert.KernelIdeal.Hand

end
-- ==== Proof.KI.Chain.lean ====
/-
  The host side of the program, as data: the six straight lines of host operations between the three SparseCore
  calls and the three TensorCore regions, the program as their composition, and the chain of buffer contents the
  run passes through: each straight line rewrites the buffers its operations write, each SparseCore call puts its
  kernel's value at its result array, each TensorCore region its body's value at its result array. The value of the
  program's result is the last link of the chain read at the result array.
-/
import proofs.«219763_g10557029614292_week1_w2_488_21_alg».proof.Proof.KI.Vals
import Idealize.ShloMosaic.Lib.StableHlo.Run

noncomputable section

namespace Cert.KernelIdeal.Hand

open Cert.KernelIdeal Cert.KernelIdeal.Gen
open Idealize.ShloMosaic Idealize.ShloMosaic.StableHlo Idealize.SL.Sem

variable {F : FTy → Type} [FloatOps F]

/-! ## The straight lines -/

/-- Before the degree kernel: the edge list split, padded and laid out for the kernels, the zero arrays, the reshaped parameters. -/
abbrev ops0 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    reshape main_v1 main_v4 rfl shapeCasts_S320000_S2x160000,
    nullary main_c (constantI S_ 32 10000#32),
    TRef.unary (TRef.of (T := ⟨S_, .i32⟩) main_c) main_call0.v0 id,
    TRef.binary (TRef.of (T := ⟨S2x160000, .i32⟩) main_v4) main_call0.v0 main_call0.v1 (fun x v => pad S2x163840 ![0, 0] ![0, 3840] ![0, 0] x v pads_S2x160000_S2x163840_000_038400 h_S_),
    reshape main_v5 main_v6 rfl shapeCasts_S2x163840_S2x1x163840,
    reshape main_v3 main_v7 rfl shapeCasts_S320000_S2x160000,
    nullary main_c_0 (constantI S_ 32 10000#32),
    TRef.unary (TRef.of (T := ⟨S_, .i32⟩) main_c_0) main_call1.v0 id,
    TRef.binary (TRef.of (T := ⟨S2x160000, .i32⟩) main_v7) main_call1.v0 main_call1.v1 (fun x v => pad S2x163840 ![0, 0] ![0, 3840] ![0, 0] x v pads_S2x160000_S2x163840_000_038400 h_S_),
    reshape main_v8 main_v9 rfl shapeCasts_S2x163840_S2x1x163840,
    reshape main_v3 main_v10 rfl shapeCasts_S320000_S32x10000,
    nullary main_c_1 (constantI S_ 32 10000#32),
    TRef.unary (TRef.of (T := ⟨S_, .i32⟩) main_c_1) main_call2.v0 id,
    TRef.binary (TRef.of (T := ⟨S32x10000, .i32⟩) main_v10) main_call2.v0 main_call2.v1 (fun x v => pad S32x10240 ![0, 0] ![0, 240] ![0, 0] x v pads_S32x10000_S32x10240_000_02400 h_S_),
    nullary main_cst (constant S_ .f32 0x00000000#32),
    unary main_cst main_v12 (broadcastInDim S10240 ![] bcast_S_S10240 : (⟨S_, .f32⟩ : BufTy).Contents (Elt F) → (⟨S10240, .f32⟩ : BufTy).Contents (Elt F)),
    nullary main_cst_2 (constant S_ .f32 0x00000000#32),
    unary main_cst_2 main_v13 (broadcastInDim S40064 ![] bcast_S_S40064 : (⟨S_, .f32⟩ : BufTy).Contents (Elt F) → (⟨S40064, .f32⟩ : BufTy).Contents (Elt F)),
    reshape main_arg2 main_v14 rfl shapeCasts_S10000_S1x10000,
    reshape main_arg4 main_v15 rfl shapeCasts_S64_S64x1,
    reshape main_arg6 main_v16 rfl shapeCasts_S64_S64x1,
    reshape main_arg8 main_v17 rfl shapeCasts_S1_S1x1 ]

/-- After the degree kernel: the histograms cut to the nodes and transposed. -/
abbrev ops1 : List (HloOp τ sig (Elt F)) :=
  [ unary main_v18 main_v19 ((extractStridedSlice S32x10000 ![0, 0] · slices_S32x10240_S32x10000_0_0) : (⟨S32x10240, .f32⟩ : BufTy).Contents (Elt F) → (⟨S32x10000, .f32⟩ : BufTy).Contents (Elt F)),
    unary main_v19 main_v20 ((transpose S10000x32 [1, 0] · transposes_S32x10000_S10000x32_1_0) : (⟨S32x10000, .f32⟩ : BufTy).Contents (Elt F) → (⟨S10000x32, .f32⟩ : BufTy).Contents (Elt F)) ]

/-- Before the first edge kernel: the first layer's features padded and packed four rows to a tile. -/
abbrev ops2 : List (HloOp τ sig (Elt F)) :=
  [ nullary main_c_3 (constantI S_ 32 0#32),
    TRef.unary (TRef.of (T := ⟨S_, .i32⟩) main_c_3) main_call3.v0 (sitofp (F := F) .f32),
    TRef.binary (TRef.of (T := ⟨S64x10000, .f32⟩) main_v21) main_call3.v0 main_call3.v1 (fun x v => pad S64x10016 ![0, 0] ![0, 16] ![0, 0] x v pads_S64x10000_S64x10016_000_0160 h_S_),
    reshape main_v22 main_v23 rfl shapeCasts_S64x10016_S16x1x40064 ]

/-- After the first edge kernel: the two halves' accumulators unpacked and cut to the nodes. -/
abbrev ops3 : List (HloOp τ sig (Elt F)) :=
  [ reshape main_v24 main_v25 rfl shapeCasts_S16x2x1x40064_S16x2x40064,
    reshape main_v25 main_v26 rfl shapeCasts_S16x2x40064_S16x2x4x10016,
    unary main_v26 main_v27 ((extractStridedSlice S16x1x4x10016 ![0, 0, 0, 0] · slices_S16x2x4x10016_S16x1x4x10016_0_0_0_0) : (⟨S16x2x4x10016, .f32⟩ : BufTy).Contents (Elt F) → (⟨S16x1x4x10016, .f32⟩ : BufTy).Contents (Elt F)),
    reshape main_v27 main_v28 rfl shapeCasts_S16x1x4x10016_S16x4x10016,
    reshape main_v28 main_v29 rfl shapeCasts_S16x4x10016_S64x10016,
    unary main_v29 main_v30 ((extractStridedSlice S64x10000 ![0, 0] · slices_S64x10016_S64x10000_0_0) : (⟨S64x10016, .f32⟩ : BufTy).Contents (Elt F) → (⟨S64x10000, .f32⟩ : BufTy).Contents (Elt F)),
    unary main_v26 main_v31 ((extractStridedSlice S16x1x4x10016 ![0, 1, 0, 0] · slices_S16x2x4x10016_S16x1x4x10016_0_1_0_0) : (⟨S16x2x4x10016, .f32⟩ : BufTy).Contents (Elt F) → (⟨S16x1x4x10016, .f32⟩ : BufTy).Contents (Elt F)),
    reshape main_v31 main_v32 rfl shapeCasts_S16x1x4x10016_S16x4x10016,
    reshape main_v32 main_v33 rfl shapeCasts_S16x4x10016_S64x10016,
    unary main_v33 main_v34 ((extractStridedSlice S64x10000 ![0, 0] · slices_S64x10016_S64x10000_0_0) : (⟨S64x10016, .f32⟩ : BufTy).Contents (Elt F) → (⟨S64x10000, .f32⟩ : BufTy).Contents (Elt F)) ]

/-- Before the second edge kernel: the second layer's features padded and packed. -/
abbrev ops4 : List (HloOp τ sig (Elt F)) :=
  [ nullary main_c_4 (constantI S_ 32 0#32),
    TRef.unary (TRef.of (T := ⟨S_, .i32⟩) main_c_4) main_call4.v0 (sitofp (F := F) .f32),
    TRef.binary (TRef.of (T := ⟨S64x10000, .f32⟩) main_v35) main_call4.v0 main_call4.v1 (fun x v => pad S64x10016 ![0, 0] ![0, 16] ![0, 0] x v pads_S64x10000_S64x10016_000_0160 h_S_),
    reshape main_v36 main_v37 rfl shapeCasts_S64x10016_S16x1x40064 ]

/-- After the second edge kernel: the two halves' accumulators unpacked and cut to the nodes. -/
abbrev ops5 : List (HloOp τ sig (Elt F)) :=
  [ reshape main_v38 main_v39 rfl shapeCasts_S16x2x1x40064_S16x2x40064,
    reshape main_v39 main_v40 rfl shapeCasts_S16x2x40064_S16x2x4x10016,
    unary main_v40 main_v41 ((extractStridedSlice S16x1x4x10016 ![0, 0, 0, 0] · slices_S16x2x4x10016_S16x1x4x10016_0_0_0_0) : (⟨S16x2x4x10016, .f32⟩ : BufTy).Contents (Elt F) → (⟨S16x1x4x10016, .f32⟩ : BufTy).Contents (Elt F)),
    reshape main_v41 main_v42 rfl shapeCasts_S16x1x4x10016_S16x4x10016,
    reshape main_v42 main_v43 rfl shapeCasts_S16x4x10016_S64x10016,
    unary main_v43 main_v44 ((extractStridedSlice S64x10000 ![0, 0] · slices_S64x10016_S64x10000_0_0) : (⟨S64x10016, .f32⟩ : BufTy).Contents (Elt F) → (⟨S64x10000, .f32⟩ : BufTy).Contents (Elt F)),
    unary main_v40 main_v45 ((extractStridedSlice S16x1x4x10016 ![0, 1, 0, 0] · slices_S16x2x4x10016_S16x1x4x10016_0_1_0_0) : (⟨S16x2x4x10016, .f32⟩ : BufTy).Contents (Elt F) → (⟨S16x1x4x10016, .f32⟩ : BufTy).Contents (Elt F)),
    reshape main_v45 main_v46 rfl shapeCasts_S16x1x4x10016_S16x4x10016,
    reshape main_v46 main_v47 rfl shapeCasts_S16x4x10016_S64x10016,
    unary main_v47 main_v48 ((extractStridedSlice S64x10000 ![0, 0] · slices_S64x10016_S64x10000_0_0) : (⟨S64x10016, .f32⟩ : BufTy).Contents (Elt F) → (⟨S64x10000, .f32⟩ : BufTy).Contents (Elt F)) ]

set_option maxRecDepth 8192 in
set_option maxHeartbeats 4000000 in
/-- The program is the six lines with the three SparseCore calls and the three TensorCore regions between them. -/
theorem main_eq (d : Dev nD) : main (F := F) d =
    (seq ops0 >>= fun _ => sc.run d 0 >>= fun _ => seq ops1 >>= fun _ =>
      Prog.lift (.customCall (SparseCore.inner (Pipeline.entry 0)) ()) >>= fun _ => seq ops2 >>= fun _ => sc.run d 1 >>= fun _ => seq ops3 >>= fun _ =>
      Prog.lift (.customCall (SparseCore.inner (Pipeline.entry 1)) ()) >>= fun _ => seq ops4 >>= fun _ => sc.run d 2 >>= fun _ => seq ops5 >>= fun _ =>
      Prog.lift (.customCall (SparseCore.inner (Pipeline.entry 2)) ()) >>= fun _ => pure ⟨⟩) := rfl

/-! ## The buffers held, and the chain of their contents -/

/-- A TensorCore reference as a buffer of the device. -/
abbrev rf (r : Ref sig .tc) : DevRef τ sig := Proc.devRef .tc r

/-- The TensorCore's arrays that outlive a region: every buffer of the program's values. -/
abbrev Sall : Finset (DevRef τ sig) :=
  (Finset.univ.filter fun b : Ref sig .tc => ¬ b.isScoped).map ⟨Proc.devRef (sig := sig) (.tc : Proc τ), Proc.devRef_injective _⟩

theorem mem_Sall {b : Ref sig .tc} (h : b.isScoped = false) : rf b ∈ Sall :=
  Finset.mem_map_of_mem _ (Finset.mem_filter.mpr ⟨Finset.mem_univ _, by simp [h]⟩)

/-- The first layer's region: the features times the first weights, scaled by the inverse root degrees. -/
def tc0 (V : Valuation τ sig (Elt F)) : Vec F S64x10000 .f32 :=
  k1_pay1 (V (rf main_v20)) (V (rf main_arg3)) (V (rf main_arg0))
/-- The second layer's region. -/
def tc1 (V : Valuation τ sig (Elt F)) : Vec F S64x10000 .f32 :=
  k3_pay1 (V (rf main_v20)) (V (rf main_v30)) (V (rf main_v34)) (V (rf main_v21)) (V (rf main_v15)) (V (rf main_arg5))
/-- The read-out region. -/
def tc2 (V : Valuation τ sig (Elt F)) : Vec F S64x1 .f32 :=
  k5_pay1 (k5_pay2 (V (rf main_v20)) (V (rf main_v44)) (V (rf main_v48)) (V (rf main_v35)) (V (rf main_v16)) (V (rf main_v14)) (V (rf main_arg7))) (V (rf main_v17))

/-- One SparseCore call's value at its result array. -/
def scDeg (V : Valuation τ sig (Elt F)) : Vec F S32x10240 .f32 := degOut (V (rf main_v11)) (V (rf main_v12))
def scEdge1 (V : Valuation τ sig (Elt F)) : Vec F S16x2x1x40064 .f32 := edgeOut (V (rf main_v23)) (V (rf main_v6)) (V (rf main_v9)) (V (rf main_v13))
def scEdge2 (V : Valuation τ sig (Elt F)) : Vec F S16x2x1x40064 .f32 := edgeOut (V (rf main_v37)) (V (rf main_v6)) (V (rf main_v9)) (V (rf main_v13))

variable (m : (ℓ : Loc nD τ sig) → Buf (Elt F) ℓ) (d : Dev nD)

def V0 : Valuation τ sig (Elt F) := launchContents m d
def V1 : Valuation τ sig (Elt F) := after ops0 (V0 m d)
def V2 : Valuation τ sig (Elt F) := Function.update (V1 m d) (rf main_v18) (scDeg (V1 m d))
def V3 : Valuation τ sig (Elt F) := after ops1 (V2 m d)
def V4 : Valuation τ sig (Elt F) := Function.update (V3 m d) (rf main_v21) (tc0 (V3 m d))
def V5 : Valuation τ sig (Elt F) := after ops2 (V4 m d)
def V6 : Valuation τ sig (Elt F) := Function.update (V5 m d) (rf main_v24) (scEdge1 (V5 m d))
def V7 : Valuation τ sig (Elt F) := after ops3 (V6 m d)
def V8 : Valuation τ sig (Elt F) := Function.update (V7 m d) (rf main_v35) (tc1 (V7 m d))
def V9 : Valuation τ sig (Elt F) := after ops4 (V8 m d)
def V10 : Valuation τ sig (Elt F) := Function.update (V9 m d) (rf main_v38) (scEdge2 (V9 m d))
def V11 : Valuation τ sig (Elt F) := after ops5 (V10 m d)
def V12 : Valuation τ sig (Elt F) := Function.update (V11 m d) (rf main_v49) (tc2 (V11 m d))

/-- The program's result, as a term of the launch memory. -/
def kOut : Vec F S64x1 .f32 := V12 m d (rf main_v49)

end Cert.KernelIdeal.Hand

end
-- ==== Proof.KI.Glue.lean ====
/-
  The host operations of the program between its kernels, as pure functions of the arrays they read, at any float
  instance: each is the composition of slices, reshapes, pads, transposes and constants the program applies, in its
  order, and each comes with the lemma that reads it at an index given by coordinates.

  * The edge list (2 × 320000, row 0 the sources, row 1 the destinations): the degree kernel reads the destinations as
    32 rows of 10000 padded to 10240 with the word 10000; the edge kernel reads sources and destinations as 2 halves of
    160000 padded to 163840 with the word 10000.
  * The feature table handed to the edge kernel: the 64 × 10000 transposed features, each row padded to 10016 with the
    float of the integer 0, four consecutive rows to a group of 40064 words.
  * The edge kernel's result read back: group cg, half eh, word k · 10016 + n is feature row 4 cg + k at node n.
-/
import proofs.«219763_g10557029614292_week1_w2_488_21_alg».proof.Proof.KI.Vals
import Idealize.ShloMosaic.Lib.Pipeline.Value
import Idealize.ShloMosaic.Lib.KernelVsHost

noncomputable section

namespace Cert.KernelIdeal.Hand

open Cert.KernelIdeal Cert.KernelIdeal.Gen
open Idealize.ShloMosaic Idealize.ShloMosaic.ValueIdx

variable {F : FTy → Type} [FloatOps F]

/-! ## The edge list -/

/-- Row r of the edge list as one vector of 320000 words. -/
def gRow0 (ei : IVec S2x320000 32) : IVec S320000 32 :=
  shapeCast S320000 (extractStridedSlice S1x320000 ![0, 0] ei slices_S2x320000_S1x320000_0_0) shapeCasts_S1x320000_S320000
def gRow1 (ei : IVec S2x320000 32) : IVec S320000 32 :=
  shapeCast S320000 (extractStridedSlice S1x320000 ![1, 0] ei slices_S2x320000_S1x320000_1_0) shapeCasts_S1x320000_S320000

/-- The padding word of the edge lists. -/
def gPadW : IVec S_ 32 := constantI S_ 32 10000#32

/-- Two halves of 160000 words, each padded to 163840 with the word 10000, as a 2 × 1 × 163840 array. -/
def gHalves (r : IVec S320000 32) : IVec S2x1x163840 32 :=
  shapeCast S2x1x163840
    (pad S2x163840 ![0, 0] ![0, 3840] ![0, 0] (shapeCast S2x160000 r shapeCasts_S320000_S2x160000) (id gPadW)
      pads_S2x160000_S2x163840_000_038400 h_S_)
    shapeCasts_S2x163840_S2x1x163840

/-- The padded sources the edge kernel reads. -/
def gSrcp (ei : IVec S2x320000 32) : IVec S2x1x163840 32 := gHalves (gRow0 ei)
/-- The padded destinations the edge kernel reads. -/
def gDstp (ei : IVec S2x320000 32) : IVec S2x1x163840 32 := gHalves (gRow1 ei)

/-- The padded destinations the degree kernel reads: 32 rows of 10000, each padded to 10240 with the word 10000. -/
def gDst2 (ei : IVec S2x320000 32) : IVec S32x10240 32 :=
  pad S32x10240 ![0, 0] ![0, 240] ![0, 0] (shapeCast S32x10000 (gRow1 ei) shapeCasts_S320000_S32x10000) (id gPadW)
    pads_S32x10000_S32x10240_000_02400 h_S_

/-! ## The zero arrays and the reshaped small arguments -/

/-- The zero histogram the degree kernel starts from. -/
def gZn : Vec F S10240 .f32 := broadcastInDim S10240 ![] bcast_S_S10240 (constant S_ .f32 0x00000000#32)
/-- The zero accumulator the edge kernel starts from. -/
def gZer : Vec F S40064 .f32 := broadcastInDim S40064 ![] bcast_S_S40064 (constant S_ .f32 0x00000000#32)

/-- The graph assignment as one row. -/
def gBt2 (batch : IVec S10000 32) : IVec S1x10000 32 := shapeCast S1x10000 batch shapeCasts_S10000_S1x10000
/-- A 64-word bias as a column. -/
def gB1c (b : Vec F S64 .f32) : Vec F S64x1 .f32 := shapeCast S64x1 b shapeCasts_S64_S64x1
/-- The second bias as a column: the same reshape. -/
def gB2c (b : Vec F S64 .f32) : Vec F S64x1 .f32 := shapeCast S64x1 b shapeCasts_S64_S64x1
/-- The last bias as a 1 × 1 array. -/
def gB3r (b : Vec F S1 .f32) : Vec F S1x1 .f32 := shapeCast S1x1 b shapeCasts_S1_S1x1

/-! ## The degree kernel's result read back -/

/-- The 32 workers' histograms cut to the 10000 nodes and transposed: node by worker. -/
def gDegsT (v : Vec F S32x10240 .f32) : Vec F S10000x32 .f32 :=
  transpose S10000x32 [1, 0] (extractStridedSlice S32x10000 ![0, 0] v slices_S32x10240_S32x10000_0_0)
    transposes_S32x10000_S10000x32_1_0

/-! ## The edge kernel's table and its result read back -/

/-- The padding value of the feature table: the float of the integer 0. -/
def gPadF : Vec F S_ .f32 := sitofp .f32 (constantI S_ 32 0#32)

/-- The feature table the edge kernel reads: each of the 64 rows padded to 10016, four rows to a group. -/
def gPack (g : Vec F S64x10000 .f32) : Vec F S16x1x40064 .f32 :=
  shapeCast S16x1x40064 (pad S64x10016 ![0, 0] ![0, 16] ![0, 0] g (gPadF (F := F)) pads_S64x10000_S64x10016_000_0160 h_S_)
    shapeCasts_S64x10016_S16x1x40064

/-- The edge kernel's result as 16 groups × 2 halves × 4 rows × 10016. -/
def gRows (o : Vec F S16x2x1x40064 .f32) : Vec F S16x2x4x10016 .f32 :=
  shapeCast S16x2x4x10016 (shapeCast S16x2x40064 o shapeCasts_S16x2x1x40064_S16x2x40064) shapeCasts_S16x2x40064_S16x2x4x10016

/-- Half 0 of the edge kernel's result as 64 feature rows of 10000 nodes. -/
def gUnpack0 (o : Vec F S16x2x1x40064 .f32) : Vec F S64x10000 .f32 :=
  extractStridedSlice S64x10000 ![0, 0]
    (shapeCast S64x10016
      (shapeCast S16x4x10016
        (extractStridedSlice S16x1x4x10016 ![0, 0, 0, 0] (gRows o) slices_S16x2x4x10016_S16x1x4x10016_0_0_0_0)
        shapeCasts_S16x1x4x10016_S16x4x10016)
      shapeCasts_S16x4x10016_S64x10016)
    slices_S64x10016_S64x10000_0_0
/-- Half 1 of the edge kernel's result as 64 feature rows of 10000 nodes. -/
def gUnpack1 (o : Vec F S16x2x1x40064 .f32) : Vec F S64x10000 .f32 :=
  extractStridedSlice S64x10000 ![0, 0]
    (shapeCast S64x10016
      (shapeCast S16x4x10016
        (extractStridedSlice S16x1x4x10016 ![0, 1, 0, 0] (gRows o) slices_S16x2x4x10016_S16x1x4x10016_0_1_0_0)
        shapeCasts_S16x1x4x10016_S16x4x10016)
      shapeCasts_S16x4x10016_S64x10016)
    slices_S64x10016_S64x10000_0_0

/-! ## Read at an index -/

/-- Row 0 of the edge list at word p. -/
theorem gRow0_apply (ei : IVec S2x320000 32) (p : Fin 320000) : gRow0 ei (ix1 p) = ei (ix2 (0 : Fin 2) p) := by
  unfold gRow0
  refine (shapeCast_apply _ _ (ix1 p) (ix2 (0 : Fin 1) p) ?_).trans ?_
  · rw [Shape.rowMajor_val_two, Shape.rowMajor_val_one]
    show (0 : ℕ) * 320000 + p.val = p.val
    omega
  · refine extractStridedSlice_apply _ _ _ _ (ix2 (0 : Fin 2) p) fun a => ?_
    match a with
    | ⟨0, _⟩ => exact rfl
    | ⟨1, _⟩ => exact (Nat.zero_add _).symm
/-- Row 1 of the edge list at word p. -/
theorem gRow1_apply (ei : IVec S2x320000 32) (p : Fin 320000) : gRow1 ei (ix1 p) = ei (ix2 (1 : Fin 2) p) := by
  unfold gRow1
  refine (shapeCast_apply _ _ (ix1 p) (ix2 (0 : Fin 1) p) ?_).trans ?_
  · rw [Shape.rowMajor_val_two, Shape.rowMajor_val_one]
    show (0 : ℕ) * 320000 + p.val = p.val
    omega
  · refine extractStridedSlice_apply _ _ _ _ (ix2 (1 : Fin 2) p) fun a => ?_
    match a with
    | ⟨0, _⟩ => exact rfl
    | ⟨1, _⟩ => exact (Nat.zero_add _).symm

/-- Half h of a padded list at word p: word 160000 h + p of the list below 160000, the word 10000 from there on. -/
theorem gHalves_apply (r : IVec S320000 32) (h : Fin 2) (p : Fin 163840) :
    gHalves r (ix3 h (0 : Fin 1) p)
      = if hp : p.val < 160000 then r (ix1 ⟨160000 * h.val + p.val, by have := h.isLt; omega⟩) else 10000#32 := by
  unfold gHalves
  refine (shapeCast_apply _ _ (ix3 h (0 : Fin 1) p) (ix2 h p) ?_).trans ?_
  · rw [Shape.rowMajor_val_two, Shape.rowMajor_val_three]
    show h.val * 163840 + p.val = (h.val * 1 + 0) * 163840 + p.val
    omega
  · by_cases hp : p.val < 160000
    · rw [dif_pos hp]
      refine (pad_apply_of_inside _ _ _ _ _ _ _ (ix2 h p) (ix2 h ⟨p.val, hp⟩) fun a => ?_).trans ?_
      · match a with
        | ⟨0, _⟩ => show h.val = 0 + h.val * (0 + 1); omega
        | ⟨1, _⟩ => show p.val = 0 + p.val * (0 + 1); omega
      · refine shapeCast_apply _ _ (ix2 h ⟨p.val, hp⟩) (ix1 ⟨160000 * h.val + p.val, by have := h.isLt; omega⟩) ?_
        rw [Shape.rowMajor_val_one, Shape.rowMajor_val_two]
        show 160000 * h.val + p.val = h.val * 160000 + p.val
        omega
    · rw [dif_neg hp]
      refine (pad_apply_of_not_inside _ _ _ _ _ _ _ (ix2 h p) (1 : Fin 2) ?_).trans rfl
      show ¬(0 ≤ p.val ∧ (p.val - 0) % (0 + 1) = 0 ∧ (p.val - 0) / (0 + 1) < 160000)
      rintro ⟨_, _, h3⟩
      rw [Nat.sub_zero, Nat.zero_add, Nat.div_one] at h3
      exact hp h3

theorem gSrcp_apply (ei : IVec S2x320000 32) (h : Fin 2) (p : Fin 163840) :
    gSrcp ei (ix3 h (0 : Fin 1) p)
      = if hp : p.val < 160000 then ei (ix2 (0 : Fin 2) ⟨160000 * h.val + p.val, by have := h.isLt; omega⟩) else 10000#32 := by
  unfold gSrcp
  rw [gHalves_apply]
  by_cases hp : p.val < 160000
  · rw [dif_pos hp, dif_pos hp]; exact gRow0_apply ei _
  · rw [dif_neg hp, dif_neg hp]
theorem gDstp_apply (ei : IVec S2x320000 32) (h : Fin 2) (p : Fin 163840) :
    gDstp ei (ix3 h (0 : Fin 1) p)
      = if hp : p.val < 160000 then ei (ix2 (1 : Fin 2) ⟨160000 * h.val + p.val, by have := h.isLt; omega⟩) else 10000#32 := by
  unfold gDstp
  rw [gHalves_apply]
  by_cases hp : p.val < 160000
  · rw [dif_pos hp, dif_pos hp]; exact gRow1_apply ei _
  · rw [dif_neg hp, dif_neg hp]

/-- Worker w's padded destinations at word p: destination 10000 w + p below 10000, the word 10000 from there on. -/
theorem gDst2_apply (ei : IVec S2x320000 32) (w : Fin 32) (p : Fin 10240) :
    gDst2 ei (ix2 w p)
      = if hp : p.val < 10000 then ei (ix2 (1 : Fin 2) ⟨10000 * w.val + p.val, by have := w.isLt; omega⟩) else 10000#32 := by
  unfold gDst2
  by_cases hp : p.val < 10000
  · rw [dif_pos hp]
    refine (pad_apply_of_inside _ _ _ _ _ _ _ (ix2 w p) (ix2 w ⟨p.val, hp⟩) fun a => ?_).trans ?_
    · match a with
      | ⟨0, _⟩ => show w.val = 0 + w.val * (0 + 1); omega
      | ⟨1, _⟩ => show p.val = 0 + p.val * (0 + 1); omega
    · refine (shapeCast_apply _ _ (ix2 w ⟨p.val, hp⟩) (ix1 ⟨10000 * w.val + p.val, by have := w.isLt; omega⟩) ?_).trans
        (gRow1_apply ei _)
      rw [Shape.rowMajor_val_one, Shape.rowMajor_val_two]
      show 10000 * w.val + p.val = w.val * 10000 + p.val
      omega
  · rw [dif_neg hp]
    refine (pad_apply_of_not_inside _ _ _ _ _ _ _ (ix2 w p) (1 : Fin 2) ?_).trans rfl
    show ¬(0 ≤ p.val ∧ (p.val - 0) % (0 + 1) = 0 ∧ (p.val - 0) / (0 + 1) < 10000)
    rintro ⟨_, _, h3⟩
    rw [Nat.sub_zero, Nat.zero_add, Nat.div_one] at h3
    exact hp h3

theorem gZn_apply (j : S10240.Idx) : gZn (F := F) j = FloatOps.ofBits .f32 0x00000000#32 := rfl
theorem gZer_apply (j : S40064.Idx) : gZer (F := F) j = FloatOps.ofBits .f32 0x00000000#32 := rfl

theorem gBt2_apply (batch : IVec S10000 32) (n : Fin 10000) : gBt2 batch (ix2 (0 : Fin 1) n) = batch (ix1 n) := by
  unfold gBt2
  refine shapeCast_apply _ _ (ix2 (0 : Fin 1) n) (ix1 n) ?_
  rw [Shape.rowMajor_val_one, Shape.rowMajor_val_two]
  show n.val = 0 * 10000 + n.val
  omega
theorem gB1c_apply (b : Vec F S64 .f32) (f : Fin 64) : gB1c b (ix2 f (0 : Fin 1)) = b (ix1 f) := by
  unfold gB1c
  refine shapeCast_apply _ _ (ix2 f (0 : Fin 1)) (ix1 f) ?_
  rw [Shape.rowMajor_val_one, Shape.rowMajor_val_two]
  show f.val = f.val * 1 + 0
  omega
theorem gB2c_apply (b : Vec F S64 .f32) (f : Fin 64) : gB2c b (ix2 f (0 : Fin 1)) = b (ix1 f) := gB1c_apply b f
theorem gB3r_apply (b : Vec F S1 .f32) : gB3r b (ix2 (0 : Fin 1) (0 : Fin 1)) = b (ix1 (0 : Fin 1)) := by
  unfold gB3r
  refine shapeCast_apply _ _ (ix2 (0 : Fin 1) (0 : Fin 1)) (ix1 (0 : Fin 1)) ?_
  rw [Shape.rowMajor_val_one, Shape.rowMajor_val_two]
  show (0 : ℕ) = 0 * 1 + 0
  omega

/-- Node n, worker w of the transposed histograms is word n of worker w's histogram. -/
theorem gDegsT_apply (v : Vec F S32x10240 .f32) (n : Fin 10000) (w : Fin 32) :
    gDegsT v (ix2 n w) = v (ix2 w ⟨n.val, by have := n.isLt; omega⟩) := by
  unfold gDegsT
  refine (transpose_apply _ _ _ (ix2 n w) (ix2 w n) fun b => ?_).trans ?_
  · match b with
    | ⟨0, _⟩ => exact rfl
    | ⟨1, _⟩ => exact rfl
  · refine extractStridedSlice_apply _ _ _ (ix2 w n) (ix2 w ⟨n.val, by have := n.isLt; omega⟩) fun a => ?_
    match a with
    | ⟨0, _⟩ => exact (Nat.zero_add _).symm
    | ⟨1, _⟩ => exact (Nat.zero_add _).symm

/-- The padding value of the feature table is the float of the word 0. -/
theorem gPadF_apply (j : S_.Idx) : gPadF (F := F) j = FloatOps.sitofp .f32 (0#32 : BitVec 32) := rfl

/-- Group cg of the feature table at word k · 10016 + i (k below 4, i below 10016): feature row 4 cg + k at node i
    below 10000, the padding value from there on. -/
theorem gPack_apply (g : Vec F S64x10000 .f32) (cg : Fin 16) (k : Fin 4) (i : Fin 10016) :
    gPack g (ix3 cg (0 : Fin 1) ⟨k.val * 10016 + i.val, by have := k.isLt; have := i.isLt; omega⟩)
      = if hi : i.val < 10000 then g (ix2 ⟨4 * cg.val + k.val, by have := cg.isLt; have := k.isLt; omega⟩ ⟨i.val, hi⟩)
        else FloatOps.sitofp .f32 (0#32 : BitVec 32) := by
  have hr : 4 * cg.val + k.val < 64 := by have := cg.isLt; have := k.isLt; omega
  unfold gPack
  refine (shapeCast_apply _ _ (ix3 cg (0 : Fin 1) ⟨k.val * 10016 + i.val, by have := k.isLt; have := i.isLt; omega⟩)
    (ix2 ⟨4 * cg.val + k.val, hr⟩ i) ?_).trans ?_
  · rw [Shape.rowMajor_val_two, Shape.rowMajor_val_three]
    show (4 * cg.val + k.val) * 10016 + i.val = (cg.val * 1 + 0) * 40064 + (k.val * 10016 + i.val)
    omega
  · by_cases hi : i.val < 10000
    · rw [dif_pos hi]
      refine pad_apply_of_inside _ _ _ _ _ _ _ (ix2 ⟨4 * cg.val + k.val, hr⟩ i) (ix2 ⟨4 * cg.val + k.val, hr⟩ ⟨i.val, hi⟩) fun a => ?_
      match a with
      | ⟨0, _⟩ => show 4 * cg.val + k.val = 0 + (4 * cg.val + k.val) * (0 + 1); omega
      | ⟨1, _⟩ => show i.val = 0 + i.val * (0 + 1); omega
    · rw [dif_neg hi]
      refine (pad_apply_of_not_inside _ _ _ _ _ _ _ (ix2 ⟨4 * cg.val + k.val, hr⟩ i) (1 : Fin 2) ?_).trans rfl
      show ¬(0 ≤ i.val ∧ (i.val - 0) % (0 + 1) = 0 ∧ (i.val - 0) / (0 + 1) < 10000)
      rintro ⟨_, _, h3⟩
      rw [Nat.sub_zero, Nat.zero_add, Nat.div_one] at h3
      exact hi h3

/-- The edge kernel's result by rows: group a, half b, row c, node d is word c · 10016 + d of that tile's accumulator. -/
theorem gRows_apply (o : Vec F S16x2x1x40064 .f32) (a : Fin 16) (b : Fin 2) (c : Fin 4) (d : Fin 10016) :
    gRows o (ix4 a b c d)
      = o (ix4 a b (0 : Fin 1) ⟨c.val * 10016 + d.val, by have := c.isLt; have := d.isLt; omega⟩) := by
  have he : c.val * 10016 + d.val < 40064 := by have := c.isLt; have := d.isLt; omega
  unfold gRows
  refine (shapeCast_apply _ _ (ix4 a b c d) (ix3 a b ⟨c.val * 10016 + d.val, he⟩) ?_).trans ?_
  · rw [Shape.rowMajor_val_three, Shape.rowMajor_val_four]
    show (a.val * 2 + b.val) * 40064 + (c.val * 10016 + d.val) = ((a.val * 2 + b.val) * 4 + c.val) * 10016 + d.val
    omega
  · refine shapeCast_apply _ _ (ix3 a b ⟨c.val * 10016 + d.val, he⟩) (ix4 a b (0 : Fin 1) ⟨c.val * 10016 + d.val, he⟩) ?_
    rw [Shape.rowMajor_val_four, Shape.rowMajor_val_three]
    show ((a.val * 2 + b.val) * 1 + 0) * 40064 + (c.val * 10016 + d.val) = (a.val * 2 + b.val) * 40064 + (c.val * 10016 + d.val)
    omega

/-- Feature row f at node n of half 0 of the edge kernel's result: group f / 4, word (f % 4) · 10016 + n. -/
theorem gUnpack0_apply (o : Vec F S16x2x1x40064 .f32) (f : Fin 64) (n : Fin 10000) :
    gUnpack0 o (ix2 f n)
      = o (ix4 ⟨f.val / 4, by have := f.isLt; omega⟩ (0 : Fin 2) (0 : Fin 1)
            ⟨(f.val % 4) * 10016 + n.val, by have := n.isLt; omega⟩) := by
  have hq : f.val / 4 < 16 := by have := f.isLt; omega
  have hm : f.val % 4 < 4 := by omega
  have hn : n.val < 10016 := by have := n.isLt; omega
  unfold gUnpack0
  refine (extractStridedSlice_apply _ _ _ (ix2 f n) (ix2 f ⟨n.val, hn⟩) fun a => ?_).trans ?_
  · match a with
    | ⟨0, _⟩ => exact (Nat.zero_add _).symm
    | ⟨1, _⟩ => exact (Nat.zero_add _).symm
  refine (shapeCast_apply _ _ (ix2 f ⟨n.val, hn⟩) (ix3 ⟨f.val / 4, hq⟩ ⟨f.val % 4, hm⟩ ⟨n.val, hn⟩) ?_).trans ?_
  · rw [Shape.rowMajor_val_three, Shape.rowMajor_val_two]
    show (f.val / 4 * 4 + f.val % 4) * 10016 + n.val = f.val * 10016 + n.val
    omega
  refine (shapeCast_apply _ _ (ix3 ⟨f.val / 4, hq⟩ ⟨f.val % 4, hm⟩ ⟨n.val, hn⟩)
    (ix4 ⟨f.val / 4, hq⟩ (0 : Fin 1) ⟨f.val % 4, hm⟩ ⟨n.val, hn⟩) ?_).trans ?_
  · rw [Shape.rowMajor_val_four, Shape.rowMajor_val_three]
    show ((f.val / 4 * 1 + 0) * 4 + f.val % 4) * 10016 + n.val = (f.val / 4 * 4 + f.val % 4) * 10016 + n.val
    omega
  refine (extractStridedSlice_apply _ _ _ (ix4 ⟨f.val / 4, hq⟩ (0 : Fin 1) ⟨f.val % 4, hm⟩ ⟨n.val, hn⟩)
    (ix4 ⟨f.val / 4, hq⟩ (0 : Fin 2) ⟨f.val % 4, hm⟩ ⟨n.val, hn⟩) fun a => ?_).trans ?_
  · match a with
    | ⟨0, _⟩ => exact (Nat.zero_add _).symm
    | ⟨1, _⟩ => exact rfl
    | ⟨2, _⟩ => exact (Nat.zero_add _).symm
    | ⟨3, _⟩ => exact (Nat.zero_add _).symm
  exact gRows_apply o _ _ _ _
/-- The same of half 1. -/
theorem gUnpack1_apply (o : Vec F S16x2x1x40064 .f32) (f : Fin 64) (n : Fin 10000) :
    gUnpack1 o (ix2 f n)
      = o (ix4 ⟨f.val / 4, by have := f.isLt; omega⟩ (1 : Fin 2) (0 : Fin 1)
            ⟨(f.val % 4) * 10016 + n.val, by have := n.isLt; omega⟩) := by
  have hq : f.val / 4 < 16 := by have := f.isLt; omega
  have hm : f.val % 4 < 4 := by omega
  have hn : n.val < 10016 := by have := n.isLt; omega
  unfold gUnpack1
  refine (extractStridedSlice_apply _ _ _ (ix2 f n) (ix2 f ⟨n.val, hn⟩) fun a => ?_).trans ?_
  · match a with
    | ⟨0, _⟩ => exact (Nat.zero_add _).symm
    | ⟨1, _⟩ => exact (Nat.zero_add _).symm
  refine (shapeCast_apply _ _ (ix2 f ⟨n.val, hn⟩) (ix3 ⟨f.val / 4, hq⟩ ⟨f.val % 4, hm⟩ ⟨n.val, hn⟩) ?_).trans ?_
  · rw [Shape.rowMajor_val_three, Shape.rowMajor_val_two]
    show (f.val / 4 * 4 + f.val % 4) * 10016 + n.val = f.val * 10016 + n.val
    omega
  refine (shapeCast_apply _ _ (ix3 ⟨f.val / 4, hq⟩ ⟨f.val % 4, hm⟩ ⟨n.val, hn⟩)
    (ix4 ⟨f.val / 4, hq⟩ (0 : Fin 1) ⟨f.val % 4, hm⟩ ⟨n.val, hn⟩) ?_).trans ?_
  · rw [Shape.rowMajor_val_four, Shape.rowMajor_val_three]
    show ((f.val / 4 * 1 + 0) * 4 + f.val % 4) * 10016 + n.val = (f.val / 4 * 4 + f.val % 4) * 10016 + n.val
    omega
  refine (extractStridedSlice_apply _ _ _ (ix4 ⟨f.val / 4, hq⟩ (0 : Fin 1) ⟨f.val % 4, hm⟩ ⟨n.val, hn⟩)
    (ix4 ⟨f.val / 4, hq⟩ (1 : Fin 2) ⟨f.val % 4, hm⟩ ⟨n.val, hn⟩) fun a => ?_).trans ?_
  · match a with
    | ⟨0, _⟩ => exact (Nat.zero_add _).symm
    | ⟨1, _⟩ => exact rfl
    | ⟨2, _⟩ => exact (Nat.zero_add _).symm
    | ⟨3, _⟩ => exact (Nat.zero_add _).symm
  exact gRows_apply o _ _ _ _

end Cert.KernelIdeal.Hand

end
-- ==== Proof.KI.ChainValue.lean ====
/-
  The chain of buffer contents read off: every buffer the kernels and the regions read holds, at the stage where it is
  read, a pure function of the program's nine arguments at launch: the host's straight lines are evaluated operation by
  operation, a buffer no operation of a line writes keeps its contents, and a call's result array holds the call's value.
  The program's result is then one closed term of the arguments, the composition of the host's glue functions, the three
  SparseCore kernels' values and the three TensorCore bodies' stored values.
-/
import proofs.«219763_g10557029614292_week1_w2_488_21_alg».proof.Proof.KI.Chain
import proofs.«219763_g10557029614292_week1_w2_488_21_alg».proof.Proof.KI.Glue

noncomputable section

namespace Cert.KernelIdeal.Hand

open Cert.KernelIdeal Cert.KernelIdeal.Gen
open Idealize.ShloMosaic Idealize.ShloMosaic.StableHlo Idealize.SL.Sem

variable {F : FTy → Type} [FloatOps F]

/-! ## The buffers each straight line writes -/

/-- A result buffer that is in a list of references is in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references line 0 writes, in its order. -/
abbrev W0 : List (Ref sig .tc) := [main_v0, main_v1, main_v2, main_v3, main_v4, main_c, main_call0_v0, main_v5, main_v6, main_v7, main_c_0, main_call1_v0, main_v8, main_v9, main_v10, main_c_1, main_call2_v0, main_v11, main_cst, main_v12, main_cst_2, main_v13, main_v14, main_v15, main_v16, main_v17]
theorem ops0_writes : (ops0 (F := F)).Forall fun op => op.writes ⊆ (W0.map (Proc.devRef (τ := τ) .tc)).toFinset :=
  ⟨single_sub_of_mem (y := main_v0) (by decide),
   single_sub_of_mem (y := main_v1) (by decide),
   single_sub_of_mem (y := main_v2) (by decide),
   single_sub_of_mem (y := main_v3) (by decide),
   single_sub_of_mem (y := main_v4) (by decide),
   single_sub_of_mem (y := main_c) (by decide),
   single_sub_of_mem (y := main_call0_v0) (by decide),
   single_sub_of_mem (y := main_v5) (by decide),
   single_sub_of_mem (y := main_v6) (by decide),
   single_sub_of_mem (y := main_v7) (by decide),
   single_sub_of_mem (y := main_c_0) (by decide),
   single_sub_of_mem (y := main_call1_v0) (by decide),
   single_sub_of_mem (y := main_v8) (by decide),
   single_sub_of_mem (y := main_v9) (by decide),
   single_sub_of_mem (y := main_v10) (by decide),
   single_sub_of_mem (y := main_c_1) (by decide),
   single_sub_of_mem (y := main_call2_v0) (by decide),
   single_sub_of_mem (y := main_v11) (by decide),
   single_sub_of_mem (y := main_cst) (by decide),
   single_sub_of_mem (y := main_v12) (by decide),
   single_sub_of_mem (y := main_cst_2) (by decide),
   single_sub_of_mem (y := main_v13) (by decide),
   single_sub_of_mem (y := main_v14) (by decide),
   single_sub_of_mem (y := main_v15) (by decide),
   single_sub_of_mem (y := main_v16) (by decide),
   single_sub_of_mem (y := main_v17) (by decide)⟩

/-- The references line 1 writes, in its order. -/
abbrev W1 : List (Ref sig .tc) := [main_v19, main_v20]
theorem ops1_writes : (ops1 (F := F)).Forall fun op => op.writes ⊆ (W1.map (Proc.devRef (τ := τ) .tc)).toFinset :=
  ⟨single_sub_of_mem (y := main_v19) (by decide),
   single_sub_of_mem (y := main_v20) (by decide)⟩

/-- The references line 2 writes, in its order. -/
abbrev W2 : List (Ref sig .tc) := [main_c_3, main_call3_v0, main_v22, main_v23]
theorem ops2_writes : (ops2 (F := F)).Forall fun op => op.writes ⊆ (W2.map (Proc.devRef (τ := τ) .tc)).toFinset :=
  ⟨single_sub_of_mem (y := main_c_3) (by decide),
   single_sub_of_mem (y := main_call3_v0) (by decide),
   single_sub_of_mem (y := main_v22) (by decide),
   single_sub_of_mem (y := main_v23) (by decide)⟩

/-- The references line 3 writes, in its order. -/
abbrev W3 : List (Ref sig .tc) := [main_v25, main_v26, main_v27, main_v28, main_v29, main_v30, main_v31, main_v32, main_v33, main_v34]
theorem ops3_writes : (ops3 (F := F)).Forall fun op => op.writes ⊆ (W3.map (Proc.devRef (τ := τ) .tc)).toFinset :=
  ⟨single_sub_of_mem (y := main_v25) (by decide),
   single_sub_of_mem (y := main_v26) (by decide),
   single_sub_of_mem (y := main_v27) (by decide),
   single_sub_of_mem (y := main_v28) (by decide),
   single_sub_of_mem (y := main_v29) (by decide),
   single_sub_of_mem (y := main_v30) (by decide),
   single_sub_of_mem (y := main_v31) (by decide),
   single_sub_of_mem (y := main_v32) (by decide),
   single_sub_of_mem (y := main_v33) (by decide),
   single_sub_of_mem (y := main_v34) (by decide)⟩

/-- The references line 4 writes, in its order. -/
abbrev W4 : List (Ref sig .tc) := [main_c_4, main_call4_v0, main_v36, main_v37]
theorem ops4_writes : (ops4 (F := F)).Forall fun op => op.writes ⊆ (W4.map (Proc.devRef (τ := τ) .tc)).toFinset :=
  ⟨single_sub_of_mem (y := main_c_4) (by decide),
   single_sub_of_mem (y := main_call4_v0) (by decide),
   single_sub_of_mem (y := main_v36) (by decide),
   single_sub_of_mem (y := main_v37) (by decide)⟩

/-- The references line 5 writes, in its order. -/
abbrev W5 : List (Ref sig .tc) := [main_v39, main_v40, main_v41, main_v42, main_v43, main_v44, main_v45, main_v46, main_v47, main_v48]
theorem ops5_writes : (ops5 (F := F)).Forall fun op => op.writes ⊆ (W5.map (Proc.devRef (τ := τ) .tc)).toFinset :=
  ⟨single_sub_of_mem (y := main_v39) (by decide),
   single_sub_of_mem (y := main_v40) (by decide),
   single_sub_of_mem (y := main_v41) (by decide),
   single_sub_of_mem (y := main_v42) (by decide),
   single_sub_of_mem (y := main_v43) (by decide),
   single_sub_of_mem (y := main_v44) (by decide),
   single_sub_of_mem (y := main_v45) (by decide),
   single_sub_of_mem (y := main_v46) (by decide),
   single_sub_of_mem (y := main_v47) (by decide),
   single_sub_of_mem (y := main_v48) (by decide)⟩

variable (m : (ℓ : Loc nD τ sig) → Buf (Elt F) ℓ) (d : Dev nD)

/-! ## The arguments at launch -/

/-- The node features. -/
abbrev aX : Vec F S10000x128 .f32 := V0 m d (rf main_arg0)
/-- The edge list. -/
abbrev aEi : IVec S2x320000 32 := V0 m d (rf main_arg1)
/-- The node-to-graph assignment. -/
abbrev aBatch : IVec S10000 32 := V0 m d (rf main_arg2)
/-- The first layer's weights and bias, the second layer's, the read-out's. -/
abbrev aW1 : Vec F S128x64 .f32 := V0 m d (rf main_arg3)
abbrev aB1 : Vec F S64 .f32 := V0 m d (rf main_arg4)
abbrev aW2 : Vec F S64x64 .f32 := V0 m d (rf main_arg5)
abbrev aB2 : Vec F S64 .f32 := V0 m d (rf main_arg6)
abbrev aW3 : Vec F S64x1 .f32 := V0 m d (rf main_arg7)
abbrev aB3 : Vec F S1 .f32 := V0 m d (rf main_arg8)

/-! ## What each stage keeps -/

/-- Line 0 leaves every buffer it does not write as it was. -/
theorem V1_keep (r : Ref sig .tc) (hr : r ∉ W0) : V1 m d (rf r) = V0 m d (rf r) :=
  after_of_writes_sub ops0 (V0 m d) ops0_writes hr
/-- The call that writes `main_v18` leaves every other buffer as it was, and puts its value there. -/
theorem V2_ne (r : Ref sig .tc) (hr : r ≠ main_v18) : V2 m d (rf r) = V1 m d (rf r) :=
  Function.update_of_ne (devRef_ne_of_ne hr) _ _
/-- Line 1 leaves every buffer it does not write as it was. -/
theorem V3_keep (r : Ref sig .tc) (hr : r ∉ W1) : V3 m d (rf r) = V2 m d (rf r) :=
  after_of_writes_sub ops1 (V2 m d) ops1_writes hr
/-- The call that writes `main_v21` leaves every other buffer as it was, and puts its value there. -/
theorem V4_ne (r : Ref sig .tc) (hr : r ≠ main_v21) : V4 m d (rf r) = V3 m d (rf r) :=
  Function.update_of_ne (devRef_ne_of_ne hr) _ _
/-- Line 2 leaves every buffer it does not write as it was. -/
theorem V5_keep (r : Ref sig .tc) (hr : r ∉ W2) : V5 m d (rf r) = V4 m d (rf r) :=
  after_of_writes_sub ops2 (V4 m d) ops2_writes hr
/-- The call that writes `main_v24` leaves every other buffer as it was, and puts its value there. -/
theorem V6_ne (r : Ref sig .tc) (hr : r ≠ main_v24) : V6 m d (rf r) = V5 m d (rf r) :=
  Function.update_of_ne (devRef_ne_of_ne hr) _ _
/-- Line 3 leaves every buffer it does not write as it was. -/
theorem V7_keep (r : Ref sig .tc) (hr : r ∉ W3) : V7 m d (rf r) = V6 m d (rf r) :=
  after_of_writes_sub ops3 (V6 m d) ops3_writes hr
/-- The call that writes `main_v35` leaves every other buffer as it was, and puts its value there. -/
theorem V8_ne (r : Ref sig .tc) (hr : r ≠ main_v35) : V8 m d (rf r) = V7 m d (rf r) :=
  Function.update_of_ne (devRef_ne_of_ne hr) _ _
/-- Line 4 leaves every buffer it does not write as it was. -/
theorem V9_keep (r : Ref sig .tc) (hr : r ∉ W4) : V9 m d (rf r) = V8 m d (rf r) :=
  after_of_writes_sub ops4 (V8 m d) ops4_writes hr
/-- The call that writes `main_v38` leaves every other buffer as it was, and puts its value there. -/
theorem V10_ne (r : Ref sig .tc) (hr : r ≠ main_v38) : V10 m d (rf r) = V9 m d (rf r) :=
  Function.update_of_ne (devRef_ne_of_ne hr) _ _
/-- Line 5 leaves every buffer it does not write as it was. -/
theorem V11_keep (r : Ref sig .tc) (hr : r ∉ W5) : V11 m d (rf r) = V10 m d (rf r) :=
  after_of_writes_sub ops5 (V10 m d) ops5_writes hr
/-- The call that writes `main_v49` leaves every other buffer as it was, and puts its value there. -/
theorem V12_ne (r : Ref sig .tc) (hr : r ≠ main_v49) : V12 m d (rf r) = V11 m d (rf r) :=
  Function.update_of_ne (devRef_ne_of_ne hr) _ _

/-! ## The first line: the edge list laid out, the zero arrays, the reshaped parameters -/

theorem V1_v11 : V1 m d (rf main_v11) = gDst2 (aEi m d) := by
  unfold V1
  after_results
  rfl
theorem V1_v12 : V1 m d (rf main_v12) = gZn (F := F) := by
  unfold V1
  after_results
  rfl
theorem V1_v6 : V1 m d (rf main_v6) = gSrcp (aEi m d) := by
  unfold V1
  after_results
  rfl
theorem V1_v9 : V1 m d (rf main_v9) = gDstp (aEi m d) := by
  unfold V1
  after_results
  rfl
theorem V1_v13 : V1 m d (rf main_v13) = gZer (F := F) := by
  unfold V1
  after_results
  rfl
theorem V1_v14 : V1 m d (rf main_v14) = gBt2 (aBatch m d) := by
  unfold V1
  after_results
  rfl
theorem V1_v15 : V1 m d (rf main_v15) = gB1c (aB1 m d) := by
  unfold V1
  after_results
  rfl
theorem V1_v16 : V1 m d (rf main_v16) = gB2c (aB2 m d) := by
  unfold V1
  after_results
  rfl
theorem V1_v17 : V1 m d (rf main_v17) = gB3r (aB3 m d) := by
  unfold V1
  after_results
  rfl

/-! ## The arguments are never written -/

theorem V3_arg0 : V3 m d (rf main_arg0) = aX m d :=
  (V3_keep m d main_arg0 (by decide)).trans ((V2_ne m d main_arg0 (by decide)).trans ((V1_keep m d main_arg0 (by decide))))
theorem V3_arg3 : V3 m d (rf main_arg3) = aW1 m d :=
  (V3_keep m d main_arg3 (by decide)).trans ((V2_ne m d main_arg3 (by decide)).trans ((V1_keep m d main_arg3 (by decide))))
theorem V7_arg5 : V7 m d (rf main_arg5) = aW2 m d :=
  (V7_keep m d main_arg5 (by decide)).trans ((V6_ne m d main_arg5 (by decide)).trans ((V5_keep m d main_arg5 (by decide)).trans ((V4_ne m d main_arg5 (by decide)).trans ((V3_keep m d main_arg5 (by decide)).trans ((V2_ne m d main_arg5 (by decide)).trans ((V1_keep m d main_arg5 (by decide))))))))
theorem V11_arg7 : V11 m d (rf main_arg7) = aW3 m d :=
  (V11_keep m d main_arg7 (by decide)).trans ((V10_ne m d main_arg7 (by decide)).trans ((V9_keep m d main_arg7 (by decide)).trans ((V8_ne m d main_arg7 (by decide)).trans ((V7_keep m d main_arg7 (by decide)).trans ((V6_ne m d main_arg7 (by decide)).trans ((V5_keep m d main_arg7 (by decide)).trans ((V4_ne m d main_arg7 (by decide)).trans ((V3_keep m d main_arg7 (by decide)).trans ((V2_ne m d main_arg7 (by decide)).trans ((V1_keep m d main_arg7 (by decide))))))))))))

/-! ## The degree kernel's result and its transpose -/

/-- The inverse-root-degree input of the three regions: the 32 histograms cut to the nodes and transposed. -/
def degsG (ei : IVec S2x320000 32) : Vec F S10000x32 .f32 := gDegsT (degOut (gDst2 ei) (gZn (F := F)))

theorem V2_v18 : V2 m d (rf main_v18) = degOut (gDst2 (aEi m d)) (gZn (F := F)) := by
  unfold V2 scDeg
  rw [Function.update_self, V1_v11, V1_v12]

theorem V3_v20' : V3 m d (rf main_v20) = gDegsT (V2 m d (rf main_v18)) := by
  unfold V3
  generalize V2 m d = W
  after_results
  rfl

theorem V3_v20 : V3 m d (rf main_v20) = degsG (F := F) (aEi m d) := by
  rw [V3_v20', V2_v18]; rfl

/-! ## The first layer -/

/-- The first region's value. -/
def g1G (x : Vec F S10000x128 .f32) (ei : IVec S2x320000 32) (W1 : Vec F S128x64 .f32) : Vec F S64x10000 .f32 :=
  k1_pay1 (degsG (F := F) ei) W1 x

theorem V4_v21 : V4 m d (rf main_v21) = g1G (aX m d) (aEi m d) (aW1 m d) := by
  unfold V4 tc0
  rw [Function.update_self, V3_v20, V3_arg3, V3_arg0]; rfl

theorem V5_v23' : V5 m d (rf main_v23) = gPack (V4 m d (rf main_v21)) := by
  unfold V5
  generalize V4 m d = W
  after_results
  (try simp only [TRef.ofBuf, TRef.toBuf, cast_eq])
  rfl

theorem V5_v23 : V5 m d (rf main_v23) = gPack (g1G (aX m d) (aEi m d) (aW1 m d)) := by
  rw [V5_v23', V4_v21]

theorem V5_v6 : V5 m d (rf main_v6) = gSrcp (aEi m d) :=
  (V5_keep m d main_v6 (by decide)).trans ((V4_ne m d main_v6 (by decide)).trans ((V3_keep m d main_v6 (by decide)).trans ((V2_ne m d main_v6 (by decide)).trans ((V1_v6 m d)))))
theorem V5_v9 : V5 m d (rf main_v9) = gDstp (aEi m d) :=
  (V5_keep m d main_v9 (by decide)).trans ((V4_ne m d main_v9 (by decide)).trans ((V3_keep m d main_v9 (by decide)).trans ((V2_ne m d main_v9 (by decide)).trans ((V1_v9 m d)))))
theorem V5_v13 : V5 m d (rf main_v13) = gZer (F := F) :=
  (V5_keep m d main_v13 (by decide)).trans ((V4_ne m d main_v13 (by decide)).trans ((V3_keep m d main_v13 (by decide)).trans ((V2_ne m d main_v13 (by decide)).trans ((V1_v13 m d)))))

/-- The first edge kernel's value. -/
def e1G (x : Vec F S10000x128 .f32) (ei : IVec S2x320000 32) (W1 : Vec F S128x64 .f32) : Vec F S16x2x1x40064 .f32 :=
  edgeOut (gPack (g1G x ei W1)) (gSrcp ei) (gDstp ei) (gZer (F := F))

theorem V6_v24 : V6 m d (rf main_v24) = e1G (aX m d) (aEi m d) (aW1 m d) := by
  unfold V6 scEdge1
  rw [Function.update_self, V5_v23, V5_v6, V5_v9, V5_v13]; rfl

theorem V7_v30' : V7 m d (rf main_v30) = gUnpack0 (V6 m d (rf main_v24)) := by
  unfold V7
  generalize V6 m d = W
  after_results
  rfl
theorem V7_v34' : V7 m d (rf main_v34) = gUnpack1 (V6 m d (rf main_v24)) := by
  unfold V7
  generalize V6 m d = W
  after_results
  rfl

/-! ## The second layer -/

theorem V7_v20 : V7 m d (rf main_v20) = degsG (F := F) (aEi m d) :=
  (V7_keep m d main_v20 (by decide)).trans ((V6_ne m d main_v20 (by decide)).trans ((V5_keep m d main_v20 (by decide)).trans ((V4_ne m d main_v20 (by decide)).trans ((V3_v20 m d)))))
theorem V7_v21 : V7 m d (rf main_v21) = g1G (aX m d) (aEi m d) (aW1 m d) :=
  (V7_keep m d main_v21 (by decide)).trans ((V6_ne m d main_v21 (by decide)).trans ((V5_keep m d main_v21 (by decide)).trans ((V4_v21 m d))))
theorem V7_v15 : V7 m d (rf main_v15) = gB1c (aB1 m d) :=
  (V7_keep m d main_v15 (by decide)).trans ((V6_ne m d main_v15 (by decide)).trans ((V5_keep m d main_v15 (by decide)).trans ((V4_ne m d main_v15 (by decide)).trans ((V3_keep m d main_v15 (by decide)).trans ((V2_ne m d main_v15 (by decide)).trans ((V1_v15 m d)))))))

/-- The second region's value. -/
def g2G (x : Vec F S10000x128 .f32) (ei : IVec S2x320000 32) (W1 : Vec F S128x64 .f32) (b1 : Vec F S64 .f32)
    (W2 : Vec F S64x64 .f32) : Vec F S64x10000 .f32 :=
  k3_pay1 (degsG (F := F) ei) (gUnpack0 (e1G x ei W1)) (gUnpack1 (e1G x ei W1)) (g1G x ei W1) (gB1c b1) W2

theorem V8_v35 : V8 m d (rf main_v35) = g2G (aX m d) (aEi m d) (aW1 m d) (aB1 m d) (aW2 m d) := by
  unfold V8 tc1
  rw [Function.update_self, V7_v20, V7_v30', V7_v34', V6_v24, V7_v21, V7_v15, V7_arg5]; rfl

theorem V9_v37' : V9 m d (rf main_v37) = gPack (V8 m d (rf main_v35)) := by
  unfold V9
  generalize V8 m d = W
  after_results
  (try simp only [TRef.ofBuf, TRef.toBuf, cast_eq])
  rfl

theorem V9_v6 : V9 m d (rf main_v6) = gSrcp (aEi m d) :=
  (V9_keep m d main_v6 (by decide)).trans ((V8_ne m d main_v6 (by decide)).trans ((V7_keep m d main_v6 (by decide)).trans ((V6_ne m d main_v6 (by decide)).trans ((V5_v6 m d)))))
theorem V9_v9 : V9 m d (rf main_v9) = gDstp (aEi m d) :=
  (V9_keep m d main_v9 (by decide)).trans ((V8_ne m d main_v9 (by decide)).trans ((V7_keep m d main_v9 (by decide)).trans ((V6_ne m d main_v9 (by decide)).trans ((V5_v9 m d)))))
theorem V9_v13 : V9 m d (rf main_v13) = gZer (F := F) :=
  (V9_keep m d main_v13 (by decide)).trans ((V8_ne m d main_v13 (by decide)).trans ((V7_keep m d main_v13 (by decide)).trans ((V6_ne m d main_v13 (by decide)).trans ((V5_v13 m d)))))

/-- The second edge kernel's value. -/
def e2G (x : Vec F S10000x128 .f32) (ei : IVec S2x320000 32) (W1 : Vec F S128x64 .f32) (b1 : Vec F S64 .f32)
    (W2 : Vec F S64x64 .f32) : Vec F S16x2x1x40064 .f32 :=
  edgeOut (gPack (g2G x ei W1 b1 W2)) (gSrcp ei) (gDstp ei) (gZer (F := F))

theorem V10_v38 : V10 m d (rf main_v38) = e2G (aX m d) (aEi m d) (aW1 m d) (aB1 m d) (aW2 m d) := by
  unfold V10 scEdge2
  rw [Function.update_self, V9_v37', V8_v35, V9_v6, V9_v9, V9_v13]; rfl

theorem V11_v44' : V11 m d (rf main_v44) = gUnpack0 (V10 m d (rf main_v38)) := by
  unfold V11
  generalize V10 m d = W
  after_results
  rfl
theorem V11_v48' : V11 m d (rf main_v48) = gUnpack1 (V10 m d (rf main_v38)) := by
  unfold V11
  generalize V10 m d = W
  after_results
  rfl

/-! ## The read-out -/

theorem V11_v20 : V11 m d (rf main_v20) = degsG (F := F) (aEi m d) :=
  (V11_keep m d main_v20 (by decide)).trans ((V10_ne m d main_v20 (by decide)).trans ((V9_keep m d main_v20 (by decide)).trans ((V8_ne m d main_v20 (by decide)).trans ((V7_v20 m d)))))
theorem V11_v35 : V11 m d (rf main_v35) = g2G (aX m d) (aEi m d) (aW1 m d) (aB1 m d) (aW2 m d) :=
  (V11_keep m d main_v35 (by decide)).trans ((V10_ne m d main_v35 (by decide)).trans ((V9_keep m d main_v35 (by decide)).trans ((V8_v35 m d))))
theorem V11_v16 : V11 m d (rf main_v16) = gB2c (aB2 m d) :=
  (V11_keep m d main_v16 (by decide)).trans ((V10_ne m d main_v16 (by decide)).trans ((V9_keep m d main_v16 (by decide)).trans ((V8_ne m d main_v16 (by decide)).trans ((V7_keep m d main_v16 (by decide)).trans ((V6_ne m d main_v16 (by decide)).trans ((V5_keep m d main_v16 (by decide)).trans ((V4_ne m d main_v16 (by decide)).trans ((V3_keep m d main_v16 (by decide)).trans ((V2_ne m d main_v16 (by decide)).trans ((V1_v16 m d)))))))))))
theorem V11_v14 : V11 m d (rf main_v14) = gBt2 (aBatch m d) :=
  (V11_keep m d main_v14 (by decide)).trans ((V10_ne m d main_v14 (by decide)).trans ((V9_keep m d main_v14 (by decide)).trans ((V8_ne m d main_v14 (by decide)).trans ((V7_keep m d main_v14 (by decide)).trans ((V6_ne m d main_v14 (by decide)).trans ((V5_keep m d main_v14 (by decide)).trans ((V4_ne m d main_v14 (by decide)).trans ((V3_keep m d main_v14 (by decide)).trans ((V2_ne m d main_v14 (by decide)).trans ((V1_v14 m d)))))))))))
theorem V11_v17 : V11 m d (rf main_v17) = gB3r (aB3 m d) :=
  (V11_keep m d main_v17 (by decide)).trans ((V10_ne m d main_v17 (by decide)).trans ((V9_keep m d main_v17 (by decide)).trans ((V8_ne m d main_v17 (by decide)).trans ((V7_keep m d main_v17 (by decide)).trans ((V6_ne m d main_v17 (by decide)).trans ((V5_keep m d main_v17 (by decide)).trans ((V4_ne m d main_v17 (by decide)).trans ((V3_keep m d main_v17 (by decide)).trans ((V2_ne m d main_v17 (by decide)).trans ((V1_v17 m d)))))))))))

/-- The program's result as one term of its nine arguments: the degree histograms transposed, the first region, the
    first edge kernel over its packed table, the second region over the unpacked halves, the second edge kernel, the
    read-out region. -/
def kOutG (x : Vec F S10000x128 .f32) (ei : IVec S2x320000 32) (batch : IVec S10000 32) (W1 : Vec F S128x64 .f32)
    (b1 : Vec F S64 .f32) (W2 : Vec F S64x64 .f32) (b2 : Vec F S64 .f32) (W3 : Vec F S64x1 .f32) (b3 : Vec F S1 .f32) :
    Vec F S64x1 .f32 :=
  let degs : Vec F S10000x32 .f32 := gDegsT (degOut (gDst2 ei) (gZn (F := F)))
  let g1 : Vec F S64x10000 .f32 := k1_pay1 degs W1 x
  let e1 : Vec F S16x2x1x40064 .f32 := edgeOut (gPack g1) (gSrcp ei) (gDstp ei) (gZer (F := F))
  let g2 : Vec F S64x10000 .f32 := k3_pay1 degs (gUnpack0 e1) (gUnpack1 e1) g1 (gB1c b1) W2
  let e2 : Vec F S16x2x1x40064 .f32 := edgeOut (gPack g2) (gSrcp ei) (gDstp ei) (gZer (F := F))
  k5_pay1 (k5_pay2 degs (gUnpack0 e2) (gUnpack1 e2) g2 (gB2c b2) (gBt2 batch) W3) (gB3r b3)

/-- The program's result is that term of the arguments at launch. -/
theorem kOut_eq : kOut m d
    = kOutG (aX m d) (aEi m d) (aBatch m d) (aW1 m d) (aB1 m d) (aW2 m d) (aB2 m d) (aW3 m d) (aB3 m d) := by
  unfold kOut V12 tc2
  rw [Function.update_self, V11_v20, V11_v44', V11_v48', V10_v38, V11_v35, V11_v16, V11_v14, V11_arg7, V11_v17]; rfl

end Cert.KernelIdeal.Hand

end
-- ==== Proof.KI.PreDef.lean ====
/-
  What the kernels' assumed index checks need of the launch memory: the padded destination list the degree
  kernel reads names histogram slots only, and the padded edge lists both edge kernels read hold node numbers
  or the padding word, at the values @main's host operations give those buffers.
-/
import proofs.«219763_g10557029614292_week1_w2_488_21_alg».proof.Proof.KI.Chain

noncomputable section

namespace Cert.KernelIdeal.Hand

open Cert.KernelIdeal Cert.KernelIdeal.Gen
open Idealize.ShloMosaic Idealize.SL.Sem

variable {F : FTy → Type} [FloatOps F]

/-- The index lists the three SparseCore calls read, as @main computes them from the launch memory, are in range. -/
def PreOK (m : (ℓ : Loc nD τ sig) → Buf (Elt F) ℓ) : Prop :=
  ∀ d : Dev nD, DegPre (V1 m d (rf main_v11))
    ∧ EdgePre (V5 m d (rf main_v6)) ∧ EdgePre (V5 m d (rf main_v9))
    ∧ EdgePre (V9 m d (rf main_v6)) ∧ EdgePre (V9 m d (rf main_v9))

end Cert.KernelIdeal.Hand

end
-- ==== Proof.KI.PreOK.lean ====
/-
  The certificate's precondition decoded, at any float instance: every edge endpoint is a node (below 10000), every
  graph number is below 64, every float input entry passes the test |v| < +inf; and what the kernels' index checks ask of
  the padded edge lists follows: every padded destination of the degree kernel is below 10240 and every padded endpoint
  of the edge kernel is at most 10000.
-/
import proofs.«219763_g10557029614292_week1_w2_488_21_alg».proof.Proof.KI.Glue
import proofs.«219763_g10557029614292_week1_w2_488_21_alg».proof.Proof.Gen.Pre_input_domain
import Idealize.ShloMosaic.Lib.ReduceAll
import Idealize.ShloMosaic.Lib.StableHlo.Predicate

noncomputable section

namespace Cert.KernelIdeal.Hand

open Cert.KernelIdeal Cert.KernelIdeal.Gen
open Idealize.ShloMosaic Idealize.ShloMosaic.ValueIdx

variable {F : FTy → Type} [FloatOps F]

/-- The test the precondition makes of one float entry: |v| < +inf, as the host computes it. -/
def FinAt (v : F .f32) : Prop :=
  FloatOps.cmpf .olt (FloatOps.hostAbsf v) (FloatOps.ofBits .f32 0x7F800000#32 : F .f32) = 1#1

/-- The precondition over the nine inputs: the printed predicate is all ones. -/
def PreHolds (x : Vec F S10000x128 .f32) (ei : IVec S2x320000 32) (batch : IVec S10000 32) (W1 : Vec F S128x64 .f32)
    (b1 : Vec F S64 .f32) (W2 : Vec F S64x64 .f32) (b2 : Vec F S64 .f32) (W3 : Vec F S64x1 .f32) (b3 : Vec F S1 .f32) : Prop :=
  Cert.Pre_input_domain.fn (F := F) x ei batch W1 b1 W2 b2 W3 b3 = fun _ => 1#1

/-- What the precondition says, entry by entry. -/
structure PreFacts (x : Vec F S10000x128 .f32) (ei : IVec S2x320000 32) (batch : IVec S10000 32) (W1 : Vec F S128x64 .f32)
    (b1 : Vec F S64 .f32) (W2 : Vec F S64x64 .f32) (b2 : Vec F S64 .f32) (W3 : Vec F S64x1 .f32) (b3 : Vec F S1 .f32) : Prop where
  x_fin : ∀ j, FinAt (x j)
  W1_fin : ∀ j, FinAt (W1 j)
  b1_fin : ∀ j, FinAt (b1 j)
  W2_fin : ∀ j, FinAt (W2 j)
  b2_fin : ∀ j, FinAt (b2 j)
  W3_fin : ∀ j, FinAt (W3 j)
  b3_fin : ∀ j, FinAt (b3 j)
  ei_lt : ∀ j, (ei j).toNat < 10000
  batch_lt : ∀ j, (batch j).toNat < 64

instance subsingleton_S_Idx : Subsingleton S_.Idx := ⟨fun a b => funext fun d => d.elim0⟩

/-- A word that is at least 0 and at most n as a signed word, n below 2³¹, has unsigned value at most n. -/
theorem toNat_le_of_signed_range (v : BitVec 32) (n : Nat) (hn : n < 2 ^ 31)
    (h : IntOp.andi (IntOp.cmpi .sge v 0#32) (IntOp.cmpi .sle v (BitVec.ofNat 32 n)) = 1#1) : v.toNat ≤ n := by
  obtain ⟨h0, h1⟩ := IntOp.andi_eq_one.1 h
  have h0' := IntOp.cmpi_sge.1 h0
  have h1' := IntOp.cmpi_sle.1 h1
  rw [StableHlo.Predicate.toInt_ofNat_small n hn] at h1'
  have hz : (0#32 : BitVec 32).toInt = 0 := by decide
  rw [hz] at h0'
  have hv := v.isLt
  by_cases hc : 2 * v.toNat < 2 ^ 32
  · rw [BitVec.toInt_eq_toNat_cond, if_pos hc] at h1'
    omega
  · rw [BitVec.toInt_eq_toNat_cond, if_neg hc] at h0'
    omega

theorem preFacts_of_pre {x : Vec F S10000x128 .f32} {ei : IVec S2x320000 32} {batch : IVec S10000 32} {W1 : Vec F S128x64 .f32}
    {b1 : Vec F S64 .f32} {W2 : Vec F S64x64 .f32} {b2 : Vec F S64 .f32} {W3 : Vec F S64x1 .f32} {b3 : Vec F S1 .f32}
    (h : PreHolds x ei batch W1 b1 W2 b2 W3 b3) : PreFacts x ei batch W1 b1 W2 b2 W3 b3 := by
  have e := congrFun h ValueIdx.ix0
  dsimp only [Cert.Pre_input_domain.fn, Cert.Pre_input_domain.fn_part1, Cert.Pre_input_domain.fn_part2, andi] at e
  obtain ⟨e, hbatch⟩ := IntOp.andi_eq_one.1 e
  obtain ⟨e, hei⟩ := IntOp.andi_eq_one.1 e
  obtain ⟨e, hb3⟩ := IntOp.andi_eq_one.1 e
  obtain ⟨e, hW3⟩ := IntOp.andi_eq_one.1 e
  obtain ⟨e, hb2⟩ := IntOp.andi_eq_one.1 e
  obtain ⟨e, hW2⟩ := IntOp.andi_eq_one.1 e
  obtain ⟨e, hb1⟩ := IntOp.andi_eq_one.1 e
  obtain ⟨hx, hW1⟩ := IntOp.andi_eq_one.1 e
  refine ⟨fun j => Host.reduce_andi_all _ _ _ _ _ hx j, fun j => Host.reduce_andi_all _ _ _ _ _ hW1 j,
    fun j => Host.reduce_andi_all _ _ _ _ _ hb1 j, fun j => Host.reduce_andi_all _ _ _ _ _ hW2 j,
    fun j => Host.reduce_andi_all _ _ _ _ _ hb2 j, fun j => Host.reduce_andi_all _ _ _ _ _ hW3 j,
    fun j => Host.reduce_andi_all _ _ _ _ _ hb3 j, fun j => ?_, fun j => ?_⟩
  · have := toNat_le_of_signed_range (ei j) 9999 (by norm_num) (Host.reduce_andi_all _ _ _ _ _ hei j)
    omega
  · have := toNat_le_of_signed_range (batch j) 63 (by norm_num) (Host.reduce_andi_all _ _ _ _ _ hbatch j)
    omega

/-- Endpoints below 10000 make the degree kernel's padded destinations pass its check. -/
theorem degPre_gDst2 {ei : IVec S2x320000 32} (h : ∀ j, (ei j).toNat < 10000) : DegPre (gDst2 ei) := by
  intro j
  obtain ⟨w, p, rfl⟩ : ∃ w p, j = ix2 w p := ⟨j 0, j 1, eq_ix2 j⟩
  rw [gDst2_apply]
  split
  · have := h (ix2 (1 : Fin 2) ⟨10000 * w.val + p.val, by have := w.isLt; omega⟩)
    omega
  · show (10000#32 : BitVec 32).toNat < 10240
    decide

/-- Endpoints below 10000 keep every word of a padded half at most 10000. -/
theorem edgePre_gHalves {r : IVec S320000 32} (h : ∀ j, (r j).toNat < 10000) : EdgePre (gHalves r) := by
  intro j
  obtain ⟨a, z, p, rfl⟩ : ∃ a z p, j = ix3 a z p := ⟨j 0, j 1, j 2, eq_ix3 j⟩
  obtain rfl : z = (0 : Fin 1) := Subsingleton.elim _ _
  rw [gHalves_apply]
  split
  · have := h (ix1 ⟨160000 * a.val + p.val, by have := a.isLt; omega⟩)
    omega
  · show (10000#32 : BitVec 32).toNat ≤ 10000
    decide

/-- … and the edge kernel's padded sources … -/
theorem edgePre_gSrcp {ei : IVec S2x320000 32} (h : ∀ j, (ei j).toNat < 10000) : EdgePre (gSrcp ei) :=
  edgePre_gHalves fun j => by
    obtain ⟨p, rfl⟩ : ∃ p, j = ix1 p := ⟨j 0, eq_ix1 j⟩
    rw [gRow0_apply]; exact h _
/-- … and destinations pass its checks. -/
theorem edgePre_gDstp {ei : IVec S2x320000 32} (h : ∀ j, (ei j).toNat < 10000) : EdgePre (gDstp ei) :=
  edgePre_gHalves fun j => by
    obtain ⟨p, rfl⟩ : ∃ p, j = ix1 p := ⟨j 0, eq_ix1 j⟩
    rw [gRow1_apply]; exact h _

end Cert.KernelIdeal.Hand

end
-- ==== Proof.KI.PreChain.lean ====
/-
  From the certificate's precondition to what the kernels' index checks need: under the precondition every edge
  endpoint is a node, so the padded destination list the degree kernel reads names histogram slots only and the padded
  edge lists both edge kernels read hold node numbers or the padding word 10000, at the values the program's host
  operations give those buffers from the edge list at launch.
-/
import proofs.«219763_g10557029614292_week1_w2_488_21_alg».proof.Proof.KI.ChainValue
import proofs.«219763_g10557029614292_week1_w2_488_21_alg».proof.Proof.KI.PreDef
import proofs.«219763_g10557029614292_week1_w2_488_21_alg».proof.Proof.KI.PreOK

noncomputable section

namespace Cert.KernelIdeal.Hand

open Cert.KernelIdeal Cert.KernelIdeal.Gen
open Idealize.ShloMosaic Idealize.ShloMosaic.StableHlo Idealize.SL.Sem

variable {F : FTy → Type} [FloatOps F]

/-- An argument's contents at launch are the launch memory at the TensorCore's location of its buffer. -/
theorem V0_arg (m : (ℓ : Loc nD τ sig) → Buf (Elt F) ℓ) (d : Dev nD) (r : Ref sig .tc) :
    V0 m d (rf r) = m ((d.tc : Thread nD τ).loc r) := rfl

/-- The precondition, stated of the launch memory on every device, gives what the three SparseCore calls' index
    checks need. -/
theorem preOK_of_pre (m : (ℓ : Loc nD τ sig) → Buf (Elt F) ℓ)
    (h : ∀ c : Dev nD,
      (Cert.Pre_input_domain.fn (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))) = (fun _ => 1#1)) : PreOK m := by
  intro d
  have hf := preFacts_of_pre (F := F) (h d)
  have hei : ∀ j, (aEi m d j).toNat < 10000 := hf.ei_lt
  refine ⟨?_, ?_, ?_, ?_, ?_⟩
  · rw [V1_v11]; exact degPre_gDst2 hei
  · rw [V5_v6]; exact edgePre_gSrcp hei
  · rw [V5_v9]; exact edgePre_gDstp hei
  · rw [V9_v6]; exact edgePre_gSrcp hei
  · rw [V9_v9]; exact edgePre_gDstp hei

end Cert.KernelIdeal.Hand

end
-- ==== Proof.TcIdeal.lean ====
/-
  The values the three TensorCore kernel bodies store, read at an index, at the ideal float values (extended reals).

  Each body loads its operands whole, forms one pure value and stores it whole; here each stored value is read at a
  coordinate pair as sums and products of the loaded arrays at coordinates:
  * the first body stores (W1ᵀ · xᵀ) scaled column by column by 1 / sqrt (deg + 1), deg the sum of the 32 partial
    degree counts of the column's node;
  * the second stores (W2ᵀ · h) scaled the same way, h the rectified, scaled and biased sum of its three
    aggregate operands;
  * the third forms h likewise, multiplies it by the one-hot matrix of the node-to-graph assignment, and stores
    (h · onehot)ᵀ · W3 + b3.
  A product of matrices read at an index is the sum over the contracted coordinate; the scaling row, the bias column
  and the one-hot matrix are read through the layout operations that build them.
-/
import proofs.«219763_g10557029614292_week1_w2_488_21_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TcIdeal

open Cert.KernelIdeal Cert.KernelIdeal.Gen
open Idealize.ShloMosaic Idealize.ShloMosaic.ValueIdx

/-! ## The constants and the three scalar functions the statements are written in -/

/-- The pattern of `1.0` denotes the extended real `1`. -/
theorem ofBits_one_f32 : Ideal.ofBits .f32 0x3F800000#32 = 1 := by
  simp [Ideal.ofBits, Ideal.ieee, -EReal.coe_mul]; norm_num

/-- The scaling of node `n`: one over the square root of one plus its degree, the degree being the sum over the 32
    workers of their partial counts `degs (n, w)`. -/
def dinvK (degs : Vec Ideal S10000x32 .f32) (n : Fin 10000) : EReal :=
  Ideal.div 1 (Ideal.sqrt ((∑ w : Fin 32, degs (ix2 n w)) + 1))

/-- The hidden activation at feature `f` and node `n`: the three aggregate operands summed, scaled by the node's
    scaling, biased by the feature's bias, rectified. -/
def hidK (degs : Vec Ideal S10000x32 .f32) (s0 s1 g : Vec Ideal S64x10000 .f32) (b : Vec Ideal S64x1 .f32)
    (f : Fin 64) (n : Fin 10000) : EReal :=
  max ((s0 (ix2 f n) + s1 (ix2 f n) + g (ix2 f n)) * dinvK degs n + b (ix2 f 0)) 0

/-- The one-hot entry of node `n` against graph `q`: the comparison of the node's graph number with `q`, as one
    bit, widened to a word and converted, read signed, to a float: the program's own spelling. -/
def onehotK (batch : Vec Ideal S1x10000 .i32) (n : Fin 10000) (q : Fin 64) : EReal :=
  FloatOps.sitofp (F := Ideal) .f32 ((IntOp.cmpi .eq (batch (ix2 0 n)) (BitVec.ofNat 32 q.val)).setWidth 32)

/-! ## Layout operations in the column forms the bodies use -/

section Layout
variable {α : Type}

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The four products read at an index -/

theorem lhs_mm1_0 (i : S64x10000.Idx) (q : dot_S128x64_S10000x128_S64x10000_0_1_1_0_n_n.contr.Idx) :
    (dot_S128x64_S10000x128_S64x10000_0_1_1_0_n_n.lhsIdx i q 0).val = (q ⟨0, by decide⟩).val :=
  dot_S128x64_S10000x128_S64x10000_0_1_1_0_n_n.lhsIdx_val_of_single rfl i q
theorem lhs_mm1_1 (i : S64x10000.Idx) (q : dot_S128x64_S10000x128_S64x10000_0_1_1_0_n_n.contr.Idx) :
    (dot_S128x64_S10000x128_S64x10000_0_1_1_0_n_n.lhsIdx i q 1).val = (i 0).val := by
  unfold DotDims.lhsIdx
  rw [dif_neg (show ¬(1 : Fin S128x64.rank) ∈ dot_S128x64_S10000x128_S64x10000_0_1_1_0_n_n.lhsBatch by decide), dif_pos (show (1 : Fin S128x64.rank) ∈ dot_S128x64_S10000x128_S64x10000_0_1_1_0_n_n.lhsNonContracting by decide)]
  rfl
theorem rhs_mm1_0 (i : S64x10000.Idx) (q : dot_S128x64_S10000x128_S64x10000_0_1_1_0_n_n.contr.Idx) :
    (dot_S128x64_S10000x128_S64x10000_0_1_1_0_n_n.rhsIdx i q 0).val = (i 1).val := by
  unfold DotDims.rhsIdx
  rw [dif_neg (show ¬(0 : Fin S10000x128.rank) ∈ dot_S128x64_S10000x128_S64x10000_0_1_1_0_n_n.rhsBatch by decide), dif_pos (show (0 : Fin S10000x128.rank) ∈ dot_S128x64_S10000x128_S64x10000_0_1_1_0_n_n.rhsNonContracting by decide)]
  rfl
theorem rhs_mm1_1 (i : S64x10000.Idx) (q : dot_S128x64_S10000x128_S64x10000_0_1_1_0_n_n.contr.Idx) :
    (dot_S128x64_S10000x128_S64x10000_0_1_1_0_n_n.rhsIdx i q 1).val = (q ⟨0, by decide⟩).val :=
  dot_S128x64_S10000x128_S64x10000_0_1_1_0_n_n.rhsIdx_val_of_single rfl i q
/-- The product read at (`f`, `n`): the sum over the contracted coordinate `k` of the left operand at `(k, f)` times the
    right operand at `(n, k)`. -/
theorem mm1_apply (lhs : FVec Ideal S128x64 .f32) (rhs : FVec Ideal S10000x128 .f32) (f : Fin 64) (n : Fin 10000) :
    matmul (F := Ideal) dot_S128x64_S10000x128_S64x10000_0_1_1_0_n_n none lhs rhs (constant S64x10000 .f32 0x00000000#32) (ix2 f n)
      = ∑ k : Fin 128, lhs (ix2 k f) * rhs (ix2 n k) := by
  simp only [matmul]
  rw [Ideal.matmul_constant_zero_apply, ← Equiv.sum_comp (contrEquiv1 dot_S128x64_S10000x128_S64x10000_0_1_1_0_n_n 128 rfl rfl).symm]
  refine Finset.sum_congr rfl fun k _ => ?_
  have hk := contrEquiv1_symm_val dot_S128x64_S10000x128_S64x10000_0_1_1_0_n_n 128 rfl rfl k
  have el : dot_S128x64_S10000x128_S64x10000_0_1_1_0_n_n.lhsIdx (ix2 f n) ((contrEquiv1 dot_S128x64_S10000x128_S64x10000_0_1_1_0_n_n 128 rfl rfl).symm k) = ix2 k f := funext fun a => Fin.ext (by
    match a with
    | ⟨0, _⟩ => exact (lhs_mm1_0 _ _).trans hk
    | ⟨1, _⟩ => exact lhs_mm1_1 _ _)
  have er : dot_S128x64_S10000x128_S64x10000_0_1_1_0_n_n.rhsIdx (ix2 f n) ((contrEquiv1 dot_S128x64_S10000x128_S64x10000_0_1_1_0_n_n 128 rfl rfl).symm k) = ix2 n k := funext fun a => Fin.ext (by
    match a with
    | ⟨0, _⟩ => exact rhs_mm1_0 _ _
    | ⟨1, _⟩ => exact (rhs_mm1_1 _ _).trans hk)
  rw [el, er]

theorem lhs_mm2_0 (i : S64x10000.Idx) (q : dot_S64x64_S64x10000_S64x10000_0_0_1_1_n_n.contr.Idx) :
    (dot_S64x64_S64x10000_S64x10000_0_0_1_1_n_n.lhsIdx i q 0).val = (q ⟨0, by decide⟩).val :=
  dot_S64x64_S64x10000_S64x10000_0_0_1_1_n_n.lhsIdx_val_of_single rfl i q
theorem lhs_mm2_1 (i : S64x10000.Idx) (q : dot_S64x64_S64x10000_S64x10000_0_0_1_1_n_n.contr.Idx) :
    (dot_S64x64_S64x10000_S64x10000_0_0_1_1_n_n.lhsIdx i q 1).val = (i 0).val := by
  unfold DotDims.lhsIdx
  rw [dif_neg (show ¬(1 : Fin S64x64.rank) ∈ dot_S64x64_S64x10000_S64x10000_0_0_1_1_n_n.lhsBatch by decide), dif_pos (show (1 : Fin S64x64.rank) ∈ dot_S64x64_S64x10000_S64x10000_0_0_1_1_n_n.lhsNonContracting by decide)]
  rfl
theorem rhs_mm2_0 (i : S64x10000.Idx) (q : dot_S64x64_S64x10000_S64x10000_0_0_1_1_n_n.contr.Idx) :
    (dot_S64x64_S64x10000_S64x10000_0_0_1_1_n_n.rhsIdx i q 0).val = (q ⟨0, by decide⟩).val :=
  dot_S64x64_S64x10000_S64x10000_0_0_1_1_n_n.rhsIdx_val_of_single rfl i q
theorem rhs_mm2_1 (i : S64x10000.Idx) (q : dot_S64x64_S64x10000_S64x10000_0_0_1_1_n_n.contr.Idx) :
    (dot_S64x64_S64x10000_S64x10000_0_0_1_1_n_n.rhsIdx i q 1).val = (i 1).val := by
  unfold DotDims.rhsIdx
  rw [dif_neg (show ¬(1 : Fin S64x10000.rank) ∈ dot_S64x64_S64x10000_S64x10000_0_0_1_1_n_n.rhsBatch by decide), dif_pos (show (1 : Fin S64x10000.rank) ∈ dot_S64x64_S64x10000_S64x10000_0_0_1_1_n_n.rhsNonContracting by decide)]
  rfl
/-- The product read at (`f`, `n`): the sum over the contracted coordinate `j` of the left operand at `(j, f)` times the
    right operand at `(j, n)`. -/
theorem mm2_apply (lhs : FVec Ideal S64x64 .f32) (rhs : FVec Ideal S64x10000 .f32) (f : Fin 64) (n : Fin 10000) :
    matmul (F := Ideal) dot_S64x64_S64x10000_S64x10000_0_0_1_1_n_n none lhs rhs (constant S64x10000 .f32 0x00000000#32) (ix2 f n)
      = ∑ j : Fin 64, lhs (ix2 j f) * rhs (ix2 j n) := by
  simp only [matmul]
  rw [Ideal.matmul_constant_zero_apply, ← Equiv.sum_comp (contrEquiv1 dot_S64x64_S64x10000_S64x10000_0_0_1_1_n_n 64 rfl rfl).symm]
  refine Finset.sum_congr rfl fun j _ => ?_
  have hk := contrEquiv1_symm_val dot_S64x64_S64x10000_S64x10000_0_0_1_1_n_n 64 rfl rfl j
  have el : dot_S64x64_S64x10000_S64x10000_0_0_1_1_n_n.lhsIdx (ix2 f n) ((contrEquiv1 dot_S64x64_S64x10000_S64x10000_0_0_1_1_n_n 64 rfl rfl).symm j) = ix2 j f := funext fun a => Fin.ext (by
    match a with
    | ⟨0, _⟩ => exact (lhs_mm2_0 _ _).trans hk
    | ⟨1, _⟩ => exact lhs_mm2_1 _ _)
  have er : dot_S64x64_S64x10000_S64x10000_0_0_1_1_n_n.rhsIdx (ix2 f n) ((contrEquiv1 dot_S64x64_S64x10000_S64x10000_0_0_1_1_n_n 64 rfl rfl).symm j) = ix2 j n := funext fun a => Fin.ext (by
    match a with
    | ⟨0, _⟩ => exact (rhs_mm2_0 _ _).trans hk
    | ⟨1, _⟩ => exact rhs_mm2_1 _ _)
  rw [el, er]

theorem lhs_mm3_0 (i : S64x64.Idx) (q : dot_S64x10000_S10000x64_S64x64_1_0_0_1_n_n.contr.Idx) :
    (dot_S64x10000_S10000x64_S64x64_1_0_0_1_n_n.lhsIdx i q 0).val = (i 0).val := by
  unfold DotDims.lhsIdx
  rw [dif_neg (show ¬(0 : Fin S64x10000.rank) ∈ dot_S64x10000_S10000x64_S64x64_1_0_0_1_n_n.lhsBatch by decide), dif_pos (show (0 : Fin S64x10000.rank) ∈ dot_S64x10000_S10000x64_S64x64_1_0_0_1_n_n.lhsNonContracting by decide)]
  rfl
theorem lhs_mm3_1 (i : S64x64.Idx) (q : dot_S64x10000_S10000x64_S64x64_1_0_0_1_n_n.contr.Idx) :
    (dot_S64x10000_S10000x64_S64x64_1_0_0_1_n_n.lhsIdx i q 1).val = (q ⟨0, by decide⟩).val :=
  dot_S64x10000_S10000x64_S64x64_1_0_0_1_n_n.lhsIdx_val_of_single rfl i q
theorem rhs_mm3_0 (i : S64x64.Idx) (q : dot_S64x10000_S10000x64_S64x64_1_0_0_1_n_n.contr.Idx) :
    (dot_S64x10000_S10000x64_S64x64_1_0_0_1_n_n.rhsIdx i q 0).val = (q ⟨0, by decide⟩).val :=
  dot_S64x10000_S10000x64_S64x64_1_0_0_1_n_n.rhsIdx_val_of_single rfl i q
theorem rhs_mm3_1 (i : S64x64.Idx) (q : dot_S64x10000_S10000x64_S64x64_1_0_0_1_n_n.contr.Idx) :
    (dot_S64x10000_S10000x64_S64x64_1_0_0_1_n_n.rhsIdx i q 1).val = (i 1).val := by
  unfold DotDims.rhsIdx
  rw [dif_neg (show ¬(1 : Fin S10000x64.rank) ∈ dot_S64x10000_S10000x64_S64x64_1_0_0_1_n_n.rhsBatch by decide), dif_pos (show (1 : Fin S10000x64.rank) ∈ dot_S64x10000_S10000x64_S64x64_1_0_0_1_n_n.rhsNonContracting by decide)]
  rfl
/-- The product read at (`f`, `q`): the sum over the contracted coordinate `n` of the left operand at `(f, n)` times the
    right operand at `(n, q)`. -/
theorem mm3_apply (lhs : FVec Ideal S64x10000 .f32) (rhs : FVec Ideal S10000x64 .f32) (f : Fin 64) (q : Fin 64) :
    matmul (F := Ideal) dot_S64x10000_S10000x64_S64x64_1_0_0_1_n_n none lhs rhs (constant S64x64 .f32 0x00000000#32) (ix2 f q)
      = ∑ n : Fin 10000, lhs (ix2 f n) * rhs (ix2 n q) := by
  simp only [matmul]
  rw [Ideal.matmul_constant_zero_apply, ← Equiv.sum_comp (contrEquiv1 dot_S64x10000_S10000x64_S64x64_1_0_0_1_n_n 10000 rfl rfl).symm]
  refine Finset.sum_congr rfl fun n _ => ?_
  have hk := contrEquiv1_symm_val dot_S64x10000_S10000x64_S64x64_1_0_0_1_n_n 10000 rfl rfl n
  have el : dot_S64x10000_S10000x64_S64x64_1_0_0_1_n_n.lhsIdx (ix2 f q) ((contrEquiv1 dot_S64x10000_S10000x64_S64x64_1_0_0_1_n_n 10000 rfl rfl).symm n) = ix2 f n := funext fun a => Fin.ext (by
    match a with
    | ⟨0, _⟩ => exact lhs_mm3_0 _ _
    | ⟨1, _⟩ => exact (lhs_mm3_1 _ _).trans hk)
  have er : dot_S64x10000_S10000x64_S64x64_1_0_0_1_n_n.rhsIdx (ix2 f q) ((contrEquiv1 dot_S64x10000_S10000x64_S64x64_1_0_0_1_n_n 10000 rfl rfl).symm n) = ix2 n q := funext fun a => Fin.ext (by
    match a with
    | ⟨0, _⟩ => exact (rhs_mm3_0 _ _).trans hk
    | ⟨1, _⟩ => exact rhs_mm3_1 _ _)
  rw [el, er]

theorem lhs_mm4_0 (i : S64x1.Idx) (q : dot_S64x64_S64x1_S64x1_0_0_1_1_n_n.contr.Idx) :
    (dot_S64x64_S64x1_S64x1_0_0_1_1_n_n.lhsIdx i q 0).val = (q ⟨0, by decide⟩).val :=
  dot_S64x64_S64x1_S64x1_0_0_1_1_n_n.lhsIdx_val_of_single rfl i q
theorem lhs_mm4_1 (i : S64x1.Idx) (q : dot_S64x64_S64x1_S64x1_0_0_1_1_n_n.contr.Idx) :
    (dot_S64x64_S64x1_S64x1_0_0_1_1_n_n.lhsIdx i q 1).val = (i 0).val := by
  unfold DotDims.lhsIdx
  rw [dif_neg (show ¬(1 : Fin S64x64.rank) ∈ dot_S64x64_S64x1_S64x1_0_0_1_1_n_n.lhsBatch by decide), dif_pos (show (1 : Fin S64x64.rank) ∈ dot_S64x64_S64x1_S64x1_0_0_1_1_n_n.lhsNonContracting by decide)]
  rfl
theorem rhs_mm4_0 (i : S64x1.Idx) (q : dot_S64x64_S64x1_S64x1_0_0_1_1_n_n.contr.Idx) :
    (dot_S64x64_S64x1_S64x1_0_0_1_1_n_n.rhsIdx i q 0).val = (q ⟨0, by decide⟩).val :=
  dot_S64x64_S64x1_S64x1_0_0_1_1_n_n.rhsIdx_val_of_single rfl i q
theorem rhs_mm4_1 (i : S64x1.Idx) (q : dot_S64x64_S64x1_S64x1_0_0_1_1_n_n.contr.Idx) :
    (dot_S64x64_S64x1_S64x1_0_0_1_1_n_n.rhsIdx i q 1).val = (i 1).val := by
  unfold DotDims.rhsIdx
  rw [dif_neg (show ¬(1 : Fin S64x1.rank) ∈ dot_S64x64_S64x1_S64x1_0_0_1_1_n_n.rhsBatch by decide), dif_pos (show (1 : Fin S64x1.rank) ∈ dot_S64x64_S64x1_S64x1_0_0_1_1_n_n.rhsNonContracting by decide)]
  rfl
/-- The product read at (`q`, `c`): the sum over the contracted coordinate `f` of the left operand at `(f, q)` times the
    right operand at `(f, c)`. -/
theorem mm4_apply (lhs : FVec Ideal S64x64 .f32) (rhs : FVec Ideal S64x1 .f32) (q : Fin 64) (c : Fin 1) :
    matmul (F := Ideal) dot_S64x64_S64x1_S64x1_0_0_1_1_n_n none lhs rhs (constant S64x1 .f32 0x00000000#32) (ix2 q c)
      = ∑ f : Fin 64, lhs (ix2 f q) * rhs (ix2 f c) := by
  simp only [matmul]
  rw [Ideal.matmul_constant_zero_apply, ← Equiv.sum_comp (contrEquiv1 dot_S64x64_S64x1_S64x1_0_0_1_1_n_n 64 rfl rfl).symm]
  refine Finset.sum_congr rfl fun f _ => ?_
  have hk := contrEquiv1_symm_val dot_S64x64_S64x1_S64x1_0_0_1_1_n_n 64 rfl rfl f
  have el : dot_S64x64_S64x1_S64x1_0_0_1_1_n_n.lhsIdx (ix2 q c) ((contrEquiv1 dot_S64x64_S64x1_S64x1_0_0_1_1_n_n 64 rfl rfl).symm f) = ix2 f q := funext fun a => Fin.ext (by
    match a with
    | ⟨0, _⟩ => exact (lhs_mm4_0 _ _).trans hk
    | ⟨1, _⟩ => exact lhs_mm4_1 _ _)
  have er : dot_S64x64_S64x1_S64x1_0_0_1_1_n_n.rhsIdx (ix2 q c) ((contrEquiv1 dot_S64x64_S64x1_S64x1_0_0_1_1_n_n 64 rfl rfl).symm f) = ix2 f c := funext fun a => Fin.ext (by
    match a with
    | ⟨0, _⟩ => exact (rhs_mm4_0 _ _).trans hk
    | ⟨1, _⟩ => exact rhs_mm4_1 _ _)
  rw [el, er]

/-! ## The scaling row, the hidden activations and the one-hot matrix as the bodies build them -/

/-- The lane sum of the partial degree counts, read at node `n`. -/
theorem laneSum_apply (degs : FVec Ideal S10000x32 .f32) (n : Fin 10000) :
    multiReduction (F := Ideal) .add [1] S10000 degs 0x00000000#32 reduces_S10000x32_S10000 (.inl rfl) rfl (ix1 n)
      = ∑ w : Fin 32, degs (ix2 n w) := by
  refine (Ideal.multiReduction_add_single degs 0x00000000#32 reduces_S10000x32_S10000 (.inl rfl) rfl (ix1 n)).trans ?_
  refine Finset.sum_congr rfl fun w _ => congrArg degs ?_
  funext a
  match a with
  | ⟨0, _⟩ => rfl
  | ⟨1, _⟩ => rfl

/-- The scaling row `1 / sqrt (deg + 1)` as each of the three bodies builds it from its load of the partial counts. -/
def dinvRow (degs : Vec Ideal S10000x32 .f32) : FVec Ideal S1x10000 .f32 :=
  divf (broadcast S1x10000 (Scalar.ofBits (F := Ideal) .f32 0x3F800000#32))
    (sqrt (addf
      (shapeCast S1x10000
        (multiReduction (F := Ideal) .add [1] S10000 (shapeCast S10000x32 degs shapeCasts_S10000x32_S10000x32) 0x00000000#32
          reduces_S10000x32_S10000 (.inl rfl) rfl)
        shapeCasts_S10000_S1x10000)
      (broadcast S1x10000 (Scalar.ofBits (F := Ideal) .f32 0x3F800000#32))))

theorem dinvRow_apply (degs : Vec Ideal S10000x32 .f32) (u : Fin 1) (n : Fin 10000) :
    dinvRow degs (ix2 u n) = dinvK degs n := by
  have h1 : dinvRow degs (ix2 u n)
      = Ideal.div (Ideal.ofBits .f32 0x3F800000#32) (Ideal.sqrt (
          shapeCast S1x10000
            (multiReduction (F := Ideal) .add [1] S10000 (shapeCast S10000x32 degs shapeCasts_S10000x32_S10000x32) 0x00000000#32
              reduces_S10000x32_S10000 (.inl rfl) rfl)
            shapeCasts_S10000_S1x10000 (ix2 u n)
          + Ideal.ofBits .f32 0x3F800000#32)) := rfl
  rw [h1, shapeCast_a_1a_apply, shapeCast_self, laneSum_apply, ofBits_one_f32]
  rfl

/-- The hidden activations as the second and third bodies build them. -/
def hidMat (degs : Vec Ideal S10000x32 .f32) (s0 s1 g : Vec Ideal S64x10000 .f32) (b : Vec Ideal S64x1 .f32) :
    FVec Ideal S64x10000 .f32 :=
  maximumf
    (addf
      (mulf
        (addf (addf (shapeCast S64x10000 s0 shapeCasts_S64x10000_S64x10000) (shapeCast S64x10000 s1 shapeCasts_S64x10000_S64x10000))
          (shapeCast S64x10000 g shapeCasts_S64x10000_S64x10000))
        (broadcastTo S64x10000 (dinvRow degs) broadcasts_S1x10000_S64x10000))
      (broadcastTo S64x10000 (shapeCast S64x1 b shapeCasts_S64x1_S64x1) broadcasts_S64x1_S64x10000))
    (broadcast S64x10000 (Scalar.ofBits (F := Ideal) .f32 0x00000000#32))

theorem hidMat_apply (degs : Vec Ideal S10000x32 .f32) (s0 s1 g : Vec Ideal S64x10000 .f32) (b : Vec Ideal S64x1 .f32)
    (f : Fin 64) (n : Fin 10000) : hidMat degs s0 s1 g b (ix2 f n) = hidK degs s0 s1 g b f n := by
  have h1 : hidMat degs s0 s1 g b (ix2 f n)
      = max ((shapeCast S64x10000 s0 shapeCasts_S64x10000_S64x10000 (ix2 f n)
              + shapeCast S64x10000 s1 shapeCasts_S64x10000_S64x10000 (ix2 f n)
              + shapeCast S64x10000 g shapeCasts_S64x10000_S64x10000 (ix2 f n))
            * broadcastTo S64x10000 (dinvRow degs) broadcasts_S1x10000_S64x10000 (ix2 f n)
          + broadcastTo S64x10000 (shapeCast S64x1 b shapeCasts_S64x1_S64x1) broadcasts_S64x1_S64x10000 (ix2 f n))
          (Ideal.ofBits .f32 0x00000000#32) := rfl
  rw [h1, shapeCast_self, shapeCast_self, shapeCast_self, shapeCast_self, broadcastTo_1b_ab_apply, dinvRow_apply,
    broadcastTo_a1_ab_apply, Ideal.ofBits_zero_f32]
  rfl

/-- The one-hot matrix of the node-to-graph assignment as the third body builds it. -/
def onehotMat (batch : Vec Ideal S1x10000 .i32) : FVec Ideal S10000x64 .f32 :=
  sitofp .f32
    (extui 32
      (cmpi .eq
        (broadcastTo S10000x64
          (shapeCast S10000x1 (shapeCast S10000 batch shapeCasts_S1x10000_S10000) shapeCasts_S10000_S10000x1)
          broadcasts_S10000x1_S10000x64)
        (broadcastTo S10000x64 (iota .tc S1x64 32 [1] iota_S1x64_d1_w32) broadcasts_S1x64_S10000x64))
      natLt_1_32)

theorem onehotMat_apply (batch : Vec Ideal S1x10000 .i32) (n : Fin 10000) (q : Fin 64) :
    onehotMat batch (ix2 n q) = onehotK batch n q := by
  have h1 : onehotMat batch (ix2 n q)
      = FloatOps.sitofp (F := Ideal) .f32 ((IntOp.cmpi .eq
          (broadcastTo S10000x64
            (shapeCast S10000x1 (shapeCast S10000 batch shapeCasts_S1x10000_S10000) shapeCasts_S10000_S10000x1)
            broadcasts_S10000x1_S10000x64 (ix2 n q))
          (broadcastTo S10000x64 (iota .tc S1x64 32 [1] iota_S1x64_d1_w32) broadcasts_S1x64_S10000x64 (ix2 n q))).setWidth 32) := rfl
  rw [h1, broadcastTo_a1_ab_apply, shapeCast_a_a1_apply, shapeCast_1a_a_apply, broadcastTo_1b_ab_apply, iota_single_apply]
  rfl

/-! ## The three statements -/

/-- The first body's stored value at (feature `f`, node `n`). Operands in the payload's order: `degs` is the
    body's load of `%20` (the transposed partial degree counts, operand 2 of the call that makes `%21`), `W1` of
    `%arg3` (operand 1), `x` of `%arg0` (operand 0). -/
theorem k1_pay1_apply (degs : Vec Ideal S10000x32 .f32) (W1 : Vec Ideal S128x64 .f32) (x : Vec Ideal S10000x128 .f32)
    (f : Fin 64) (n : Fin 10000) :
    k1_pay1 (F := Ideal) degs W1 x (ix2 f n) = (∑ k : Fin 128, W1 (ix2 k f) * x (ix2 n k)) * dinvK degs n := by
  have h1 : k1_pay1 (F := Ideal) degs W1 x (ix2 f n)
      = matmul (F := Ideal) dot_S128x64_S10000x128_S64x10000_0_1_1_0_n_n none W1 x (constant S64x10000 .f32 0x00000000#32) (ix2 f n)
        * broadcastTo S64x10000 (dinvRow degs) broadcasts_S1x10000_S64x10000 (ix2 f n) := rfl
  rw [h1, mm1_apply, broadcastTo_1b_ab_apply, dinvRow_apply]

/-- The second body's stored value at (feature `f`, node `n`). Operands in the payload's order: `degs` is the
    body's load of `%20` (operand 3 of the call that makes `%35`), `s0` of `%30` (operand 0), `s1` of `%34`
    (operand 1), `g` of `%21` (operand 2), `b1c` of `%15` (operand 4), `W2` of `%arg5` (operand 5). -/
theorem k3_pay1_apply (degs : Vec Ideal S10000x32 .f32) (s0 s1 g : Vec Ideal S64x10000 .f32) (b1c : Vec Ideal S64x1 .f32)
    (W2 : Vec Ideal S64x64 .f32) (f : Fin 64) (n : Fin 10000) :
    k3_pay1 (F := Ideal) degs s0 s1 g b1c W2 (ix2 f n)
      = (∑ j : Fin 64, W2 (ix2 j f) * hidK degs s0 s1 g b1c j n) * dinvK degs n := by
  have h1 : k3_pay1 (F := Ideal) degs s0 s1 g b1c W2 (ix2 f n)
      = matmul (F := Ideal) dot_S64x64_S64x10000_S64x10000_0_0_1_1_n_n none W2 (hidMat degs s0 s1 g b1c)
          (constant S64x10000 .f32 0x00000000#32) (ix2 f n)
        * broadcastTo S64x10000 (dinvRow degs) broadcasts_S1x10000_S64x10000 (ix2 f n) := rfl
  rw [h1, mm2_apply, broadcastTo_1b_ab_apply, dinvRow_apply]
  congr 1
  exact Finset.sum_congr rfl fun j _ => by rw [hidMat_apply]

/-- The third body's stored value at (graph `q`, the one column). Operands in the payloads' order: `degs` is the
    body's load of `%20` (operand 3 of the call that makes `%49`), `s0` of `%44` (operand 0), `s1` of `%48`
    (operand 1), `g` of `%35` (operand 2), `b2c` of `%16` (operand 4), `batch` of `%14` (operand 5), `W3` of
    `%arg7` (operand 6), `b3r` of `%17` (operand 7). -/
theorem k5_store_apply (degs : Vec Ideal S10000x32 .f32) (s0 s1 g : Vec Ideal S64x10000 .f32) (b2c : Vec Ideal S64x1 .f32)
    (batch : Vec Ideal S1x10000 .i32) (W3 : Vec Ideal S64x1 .f32) (b3r : Vec Ideal S1x1 .f32) (q : Fin 64) :
    k5_pay1 (F := Ideal) (k5_pay2 (F := Ideal) degs s0 s1 g b2c batch W3) b3r (ix2 q 0)
      = (∑ f : Fin 64, (∑ n : Fin 10000, hidK degs s0 s1 g b2c f n * onehotK batch n q) * W3 (ix2 f 0)) + b3r (ix2 0 0) := by
  have h1 : k5_pay1 (F := Ideal) (k5_pay2 (F := Ideal) degs s0 s1 g b2c batch W3) b3r (ix2 q 0)
      = matmul (F := Ideal) dot_S64x64_S64x1_S64x1_0_0_1_1_n_n none
          (matmul (F := Ideal) dot_S64x10000_S10000x64_S64x64_1_0_0_1_n_n none (hidMat degs s0 s1 g b2c) (onehotMat batch)
            (constant S64x64 .f32 0x00000000#32))
          W3 (constant S64x1 .f32 0x00000000#32) (ix2 q 0)
        + broadcastTo S64x1 (shapeCast S1x1 b3r shapeCasts_S1x1_S1x1) broadcasts_S1x1_S64x1 (ix2 q 0) := rfl
  rw [h1, mm4_apply, broadcastTo_1b_ab_apply, shapeCast_self]
  congr 1
  refine Finset.sum_congr rfl fun f _ => ?_
  rw [mm3_apply]
  congr 1
  exact Finset.sum_congr rfl fun n _ => by rw [hidMat_apply, onehotMat_apply]

end Cert.KernelIdeal.TcIdeal

end
-- ==== Proof.FoldsIdeal.lean ====
/-
  The two folds of the vector subcores' values in closed form, where floats are extended reals and the indexed
  store's add is the exact sum.

  * One indexed store-with-add of sixteen lanes, read at an index j of a rank-one array: the old entry plus the sum of
    the lanes whose index word is j. Addition of extended reals is commutative and associative, so the order in which
    the lanes are taken plays no part; nothing else about the arithmetic is used.
  * The degree fold: the histogram after n chunks, read at j, is its start plus the number of the first 16 n words of
    the list that equal j; after all 640 chunks of a row, the number of that row's words equal to j.
  * The edge fold: the accumulator after the four steps of each of the first n chunks, read at column i of feature
    row k, is its start plus the sum over the first 16 n edges whose destination word is i of the table's entry at
    column (source word) of row k. Words are at most 10000 and rows are 10016 apart, so a word moved to row k stays
    inside row k, below 40064, and the 32-bit addition that moves it does not wrap; a step at another row never
    writes into row k.
-/
import proofs.«219763_g10557029614292_week1_w2_488_21_alg».proof.Proof.KI.Vals
import Idealize.ShloMosaic.PureOps.Ideal
import Idealize.ShloMosaic.Lib.ValueIdx
import Mathlib.Algebra.BigOperators.Fin
import Mathlib.Data.EReal.Basic

noncomputable section

namespace Cert.KernelIdeal.Hand

open Cert.KernelIdeal Cert.KernelIdeal.Gen
open Idealize.ShloMosaic Idealize.ShloMosaic.ValueIdx

/-! ## One indexed store-with-add, read at an index -/

/-- Lane k of a sixteen-lane vector, as the library's fold names it and as an explicit index. -/
theorem ofLane16_eq (k : Fin 16) : (Shape.ofLane (d := ![16]) k) = ix1 k := by
  funext a; match a with | ⟨0, _⟩ => rfl

/-- The store-with-add over any number of lanes: by induction over the lanes still to be taken, for every array
    reached so far. A lane whose index is j adds its value to entry j; any other lane leaves entry j alone. -/
theorem storeIdx_add_ideal_gen {N : Nat} {d : Fin 1 → Nat} (f : Vec Ideal ⟨1, ![N]⟩ .f32) (idx : IVec ⟨1, d⟩ 32) (v : Vec Ideal ⟨1, d⟩ .f32)
    (h : ∀ a x, ((![idx] : Fin 1 → IVec ⟨1, d⟩ 32) a x).toNat < (⟨1, ![N]⟩ : Shape).size a) (j : (⟨1, ![N]⟩ : Shape).Idx) :
    storeIdx (F := Ideal) (e := .f32) f ![idx] v (fun _ => 1#1) true h j
      = f j + ∑ k : Fin (d 0), if (idx (Shape.ofLane k)).toNat = (j 0).val then v (Shape.ofLane k) else 0 := by
  unfold storeIdx
  rw [Fin.sum_univ_def]
  generalize List.finRange (d 0) = l
  induction l generalizing f with
  | nil => simp
  | cons k l ih =>
    rw [List.foldl_cons, ih, List.map_cons, List.sum_cons, ← add_assoc]
    congr 1
    have hcond : (∀ a : Fin (⟨1, ![N]⟩ : Shape).rank, (j a).val = ((idxAt (s := ⟨1, ![N]⟩) ![idx] h (Shape.ofLane k)) a).val)
        ↔ (idx (Shape.ofLane k)).toNat = (j 0).val := by
      constructor
      · intro H; exact (H 0).symm
      · intro H a; match a with | ⟨0, _⟩ => exact H.symm
    by_cases hc : (idx (Shape.ofLane k)).toNat = (j 0).val
    · have hj : idxAt (s := ⟨1, ![N]⟩) ![idx] h (Shape.ofLane k) = j := by
        funext a; match a with | ⟨0, _⟩ => exact Fin.ext hc
      simp only [hcond, hc, hj, if_true]
      rw [if_pos (show (1#1 : BitVec 1) = 1 from rfl)]
      beta_reduce
      rw [if_pos (fun _ => rfl)]
      rfl
    · simp only [hcond, hc, if_false]
      rw [if_pos (show (1#1 : BitVec 1) = 1 from rfl)]
      beta_reduce
      rw [if_neg (fun H => hc (hcond.mp H)), add_zero]

/-- Sixteen lanes into a rank-one array of any length N. -/
theorem storeIdx_add_ideal {N : Nat} (f : Vec Ideal ⟨1, ![N]⟩ .f32) (idx : IVec S16 32) (v : Vec Ideal S16 .f32)
    (h : ∀ a x, ((![idx] : Fin 1 → IVec S16 32) a x).toNat < (⟨1, ![N]⟩ : Shape).size a) (j : (⟨1, ![N]⟩ : Shape).Idx) :
    storeIdx (F := Ideal) (e := .f32) f ![idx] v (fun _ => 1#1) true h j
      = (f j : EReal) + ∑ l : Fin 16, if (idx (ix1 l)).toNat = (j 0).val then (v (ix1 l) : EReal) else 0 := by
  refine (storeIdx_add_ideal_gen (d := ![16]) f idx v h j).trans ?_
  congr 1
  exact Finset.sum_congr rfl (fun k _ =>
    congrArg (fun y : S16.Idx => if (idx y).toNat = (j 0).val then (v y : EReal) else 0) (ofLane16_eq k))

/-- The indexed load: lane x reads the entry its index word names. -/
theorem loadIdx_ideal {N : Nat} (f : Vec Ideal ⟨1, ![N]⟩ .f32) (idx : IVec S16 32)
    (h : ∀ a x, ((![idx] : Fin 1 → IVec S16 32) a x).toNat < (⟨1, ![N]⟩ : Shape).size a) (x : S16.Idx) :
    loadIdx (F := Ideal) (e := .f32) f ![idx] h x = f (ix1 ⟨(idx x).toNat, h 0 x⟩) := by
  unfold loadIdx idxAt
  congr 1
  funext a; match a with | ⟨0, _⟩ => rfl

/-- The pattern of the float one denotes the real number one. -/
theorem ofBits_one_ideal : (Scalar.ofBits (F := Ideal) .f32 0x3F800000#32) = (1 : EReal) := by
  show Ideal.ofBits .f32 0x3F800000#32 = 1
  simp [Ideal.ofBits, Ideal.ieee, -EReal.coe_mul]; norm_num

/-! ## The degree fold -/

/-- Word p of a 10240-word list as a natural number (zero past its end). -/
def wordA (dv : IVec S10240 32) (p : ℕ) : ℕ := if h : p < 10240 then (dv (ix1 ⟨p, h⟩)).toNat else 0

theorem wordA_lt (dv : IVec S10240 32) (hdv : ∀ p : Fin 10240, (dv (ix1 p)).toNat < 10240) (p : ℕ) : wordA dv p < 10240 := by
  unfold wordA
  split_ifs with h
  · exact hdv ⟨p, h⟩
  · omega

/-- Lane l of chunk n is word 16 n + l. -/
theorem chunkA_toNat (dv : IVec S10240 32) (n : ℕ) (l : Fin 16) : (chunkA dv n (ix1 l)).toNat = wordA dv (16 * n + l.val) := by
  show (if h : 16 * n + l.val < 10240 then dv (ix1 ⟨16 * n + l.val, h⟩) else 0#32).toNat
    = if h : 16 * n + l.val < 10240 then (dv (ix1 ⟨16 * n + l.val, h⟩)).toNat else 0
  split_ifs <;> rfl

/-- Sixteen index words below 10240 pass the degree kernel's range check. -/
theorem chkA_of (idx : IVec S16 32) (hidx : ∀ l : Fin 16, (idx (ix1 l)).toNat < 10240) : k0_chk1 idx := by
  intro a x
  match a with
  | ⟨0, _⟩ => exact (congrArg (fun y : S16.Idx => (idx y).toNat < 10240) (eq_ix1 x)).mpr (hidx (x 0))

/-- The degree kernel's store-with-add under its check, read at j. -/
theorem scatA_ideal (h : Vec Ideal S10240 .f32) (idx : IVec S16 32) (v : Vec Ideal S16 .f32) (hb : k0_chk1 idx) (j : Fin 10240) :
    scatA (F := Ideal) h idx v (ix1 j)
      = (h (ix1 j) : EReal) + ∑ l : Fin 16, if (idx (ix1 l)).toNat = j.val then (v (ix1 l) : EReal) else 0 := by
  unfold scatA
  rw [dif_pos hb]
  exact storeIdx_add_ideal (N := 10240) h idx v _ (ix1 j)

/-- Every lane of the stored vector is one. -/
theorem k0_pay1_ideal (x : S16.Idx) : (k0_pay1 (F := Ideal) x : EReal) = 1 := ofBits_one_ideal

/-- One more chunk. -/
theorem degAcc_succ_ideal (dv : IVec S10240 32) (hdv : ∀ p : Fin 10240, (dv (ix1 p)).toNat < 10240)
    (z : Vec Ideal S10240 .f32) (n : ℕ) (j : Fin 10240) :
    degAcc (F := Ideal) dv z (n + 1) (ix1 j)
      = (degAcc (F := Ideal) dv z n (ix1 j) : EReal)
        + ∑ l ∈ Finset.range 16, if wordA dv (16 * n + l) = j.val then (1 : EReal) else 0 := by
  have hidx : ∀ l : Fin 16, (chunkA dv n (ix1 l)).toNat < 10240 := fun l => by
    rw [chunkA_toNat]; exact wordA_lt dv hdv _
  have h1 : degAcc (F := Ideal) dv z (n + 1) = scatA (degAcc dv z n) (chunkA dv n) (k0_pay1 (F := Ideal)) := by rw [degAcc]
  rw [h1, scatA_ideal _ _ _ (chkA_of _ hidx) j, Finset.sum_range]
  refine congrArg _ (Finset.sum_congr rfl (fun l _ => ?_))
  rw [chunkA_toNat, k0_pay1_ideal]

/-- The histogram after n chunks: its start plus the number of the first 16 n words equal to j. -/
theorem degAcc_ideal (dv : IVec S10240 32) (hdv : ∀ p : Fin 10240, (dv (ix1 p)).toNat < 10240)
    (z : Vec Ideal S10240 .f32) (n : ℕ) (j : Fin 10240) :
    degAcc (F := Ideal) dv z n (ix1 j)
      = (z (ix1 j) : EReal) + ∑ p ∈ Finset.range (16 * n), if wordA dv p = j.val then (1 : EReal) else 0 := by
  induction n with
  | zero =>
    show (z (ix1 j) : EReal) = _
    simp
  | succ n ih =>
    rw [degAcc_succ_ideal dv hdv, ih, add_assoc, show 16 * (n + 1) = 16 * n + 16 by ring, Finset.sum_range_add]

/-- The degree kernel's result at (w, j): the start plus the number of words of row w equal to j. -/
theorem degOut_ideal (a : IVec S32x10240 32) (ha : ∀ j, (a j).toNat < 10240) (z : Vec Ideal S10240 .f32)
    (w : Fin 32) (j : Fin 10240) :
    degOut (F := Ideal) a z (ix2 w j)
      = (z (ix1 j) : EReal) + ∑ p : Fin 10240, if (a (ix2 w p)).toNat = j.val then (1 : EReal) else 0 := by
  show degAcc (F := Ideal) (dvRow a w) z 640 (ix1 j) = _
  rw [degAcc_ideal (dvRow a w) (fun p => ha _) z 640 j, show 16 * 640 = 10240 from rfl, Finset.sum_range]
  refine congrArg _ (Finset.sum_congr rfl (fun p _ => ?_))
  have hw : wordA (dvRow a w) p.val = (a (ix2 w p)).toNat := by
    unfold wordA
    rw [dif_pos p.isLt]
    rfl
  rw [hw]

/-- The same, as a count. -/
theorem degOut_ideal_card (a : IVec S32x10240 32) (ha : ∀ j, (a j).toNat < 10240) (z : Vec Ideal S10240 .f32)
    (w : Fin 32) (j : Fin 10240) :
    degOut (F := Ideal) a z (ix2 w j)
      = (z (ix1 j) : EReal) + (((Finset.univ.filter fun p : Fin 10240 => (a (ix2 w p)).toNat = j.val).card : ℕ) : EReal) := by
  rw [degOut_ideal a ha z w j]
  refine congrArg _ ?_
  rw [← Finset.sum_filter, Finset.sum_const, nsmul_one]

/-! ## The edge fold -/

/-- Word e of half eh of a padded edge list as a natural number (zero past its end). -/
def wordB (a : IVec S2x1x163840 32) (eh : Fin 2) (e : ℕ) : ℕ :=
  if h : e < 163840 then (a (ix3 eh 0 ⟨e, h⟩)).toNat else 0

/-- Entry m of the tile's table (zero past its end). -/
def cellB (tab : Vec Ideal S40064 .f32) (m : ℕ) : EReal := if h : m < 40064 then tab (ix1 ⟨m, h⟩) else 0

theorem wordB_le (a : IVec S2x1x163840 32) (ha : ∀ j, (a j).toNat ≤ 10000) (eh : Fin 2) (e : ℕ) : wordB a eh e ≤ 10000 := by
  unfold wordB
  split_ifs with h
  · exact ha _
  · omega

/-- Lane l of chunk n is word 16 n + l. -/
theorem edgeChunk_toNat (a : IVec S2x1x163840 32) (eh : Fin 2) (n : ℕ) (l : Fin 16) :
    (edgeChunk a eh n (ix1 l)).toNat = wordB a eh (16 * n + l.val) := by
  show (if h : 16 * n + l.val < 163840 then a (ix3 eh 0 ⟨16 * n + l.val, h⟩) else 0#32).toNat
    = if h : 16 * n + l.val < 163840 then (a (ix3 eh 0 ⟨16 * n + l.val, h⟩)).toNat else 0
  split_ifs <;> rfl

/-- Column i of feature row k lies inside the 40064-word array. -/
theorem rowcol_lt (k : Fin 4) (i : Fin 10016) : k.val * 10016 + i.val < 40064 := by
  have := k.isLt; have := i.isLt; omega

/-- A source word moved to feature row k lies inside the 40064-word array. -/
theorem rowsrc_lt (srcs : IVec S2x1x163840 32) (hs : ∀ j, (srcs j).toNat ≤ 10000) (k : Fin 4) (eh : Fin 2) (e : Fin 163840) :
    k.val * 10016 + (srcs (ix3 eh 0 e)).toNat < 40064 := by
  have := k.isLt; have := hs (ix3 eh 0 e); omega

/-- Moving a word of at most 10000 to feature row r adds r · 10016 with no wrap of the 32-bit sum. -/
theorem addK_toNat (v : IVec S16 32) (r : ℕ) (hr : r < 4) (x : S16.Idx) (hv : (v x).toNat ≤ 10000) :
    (addK v r x).toNat = (v x).toNat + r * 10016 := by
  match r, hr with
  | 0, _ => show (v x).toNat = _; omega
  | 1, _ =>
    show (v x + 10016#32).toNat = _
    rw [BitVec.toNat_add, BitVec.toNat_ofNat]; omega
  | 2, _ =>
    show (v x + 20032#32).toNat = _
    rw [BitVec.toNat_add, BitVec.toNat_ofNat]; omega
  | 3, _ =>
    show (v x + 30048#32).toNat = _
    rw [BitVec.toNat_add, BitVec.toNat_ofNat]; omega

/-- Sixteen index words below 40064 pass the edge kernel's range check. -/
theorem chkB_of (idx : IVec S16 32) (hidx : ∀ l : Fin 16, (idx (ix1 l)).toNat < 40064) : k2_chk1 idx := by
  intro a x
  match a with
  | ⟨0, _⟩ => exact (congrArg (fun y : S16.Idx => (idx y).toNat < 40064) (eq_ix1 x)).mpr (hidx (x 0))

/-- The edge kernel's store-with-add under its check, read at m. -/
theorem scatB_ideal (acc : Vec Ideal S40064 .f32) (idx : IVec S16 32) (v : Vec Ideal S16 .f32) (hb : k2_chk1 idx) (m : Fin 40064) :
    scatB (F := Ideal) acc idx v (ix1 m)
      = (acc (ix1 m) : EReal) + ∑ l : Fin 16, if (idx (ix1 l)).toNat = m.val then (v (ix1 l) : EReal) else 0 := by
  unfold scatB
  rw [dif_pos hb]
  exact storeIdx_add_ideal (N := 40064) acc idx v _ (ix1 m)

/-- The edge kernel's gather under its check: lane l reads the table at its index word. -/
theorem gathB_ideal (tab : Vec Ideal S40064 .f32) (idx : IVec S16 32) (hb : k2_chk1 idx) (l : Fin 16) :
    (gathB (F := Ideal) tab idx (ix1 l) : EReal) = cellB tab (idx (ix1 l)).toNat := by
  have hl : (idx (ix1 l)).toNat < 40064 := hb 0 (ix1 l)
  unfold gathB cellB
  rw [dif_pos hb, dif_pos hl]
  exact loadIdx_ideal (N := 40064) tab idx _ (ix1 l)

/-- What edge e gives to column i of feature row k. -/
def termB (tab : Vec Ideal S40064 .f32) (srcs dsts : IVec S2x1x163840 32) (eh : Fin 2) (k : Fin 4) (i : Fin 10016) (e : ℕ) : EReal :=
  if wordB dsts eh e = i.val then cellB tab (k.val * 10016 + wordB srcs eh e) else 0

/-- One more step: step p works on chunk p / 4 at feature row p % 4, and changes column i of row k only when that
    row is k. -/
theorem edgeAcc_succ_ideal (tab : Vec Ideal S40064 .f32) (srcs dsts : IVec S2x1x163840 32)
    (hs : ∀ j, (srcs j).toNat ≤ 10000) (hd : ∀ j, (dsts j).toNat ≤ 10000) (eh : Fin 2) (z : Vec Ideal S40064 .f32)
    (p : ℕ) (k : Fin 4) (i : Fin 10016) :
    edgeAcc (F := Ideal) tab srcs dsts eh z (p + 1) (ix1 ⟨k.val * 10016 + i.val, rowcol_lt k i⟩)
      = (edgeAcc (F := Ideal) tab srcs dsts eh z p (ix1 ⟨k.val * 10016 + i.val, rowcol_lt k i⟩) : EReal)
        + if p % 4 = k.val then ∑ l ∈ Finset.range 16, termB tab srcs dsts eh k i (16 * (p / 4) + l) else 0 := by
  have hr4 : p % 4 < 4 := Nat.mod_lt _ (by norm_num)
  have hD : ∀ l : Fin 16, (addK (edgeChunk dsts eh (p / 4)) (p % 4) (ix1 l)).toNat
      = wordB dsts eh (16 * (p / 4) + l.val) + p % 4 * 10016 := fun l => by
    rw [addK_toNat _ _ hr4 _ (by rw [edgeChunk_toNat]; exact wordB_le dsts hd eh _), edgeChunk_toNat]
  have hS : ∀ l : Fin 16, (addK (edgeChunk srcs eh (p / 4)) (p % 4) (ix1 l)).toNat
      = wordB srcs eh (16 * (p / 4) + l.val) + p % 4 * 10016 := fun l => by
    rw [addK_toNat _ _ hr4 _ (by rw [edgeChunk_toNat]; exact wordB_le srcs hs eh _), edgeChunk_toNat]
  have hDb : k2_chk1 (addK (edgeChunk dsts eh (p / 4)) (p % 4)) := chkB_of _ (fun l => by
    rw [hD]; have := wordB_le dsts hd eh (16 * (p / 4) + l.val); omega)
  have hSb : k2_chk1 (addK (edgeChunk srcs eh (p / 4)) (p % 4)) := chkB_of _ (fun l => by
    rw [hS]; have := wordB_le srcs hs eh (16 * (p / 4) + l.val); omega)
  have h1 : edgeAcc (F := Ideal) tab srcs dsts eh z (p + 1)
      = scatB (edgeAcc tab srcs dsts eh z p) (addK (edgeChunk dsts eh (p / 4)) (p % 4))
          (gathB tab (addK (edgeChunk srcs eh (p / 4)) (p % 4))) := by rw [edgeAcc]
  rw [h1, scatB_ideal _ _ _ hDb ⟨k.val * 10016 + i.val, rowcol_lt k i⟩]
  refine congrArg _ ?_
  have hk := k.isLt
  have hi := i.isLt
  by_cases hrk : p % 4 = k.val
  · rw [if_pos hrk, Finset.sum_range]
    refine Finset.sum_congr rfl (fun l _ => ?_)
    have hwd := wordB_le dsts hd eh (16 * (p / 4) + l.val)
    rw [hD, gathB_ideal _ _ hSb, hS]
    unfold termB
    by_cases hw : wordB dsts eh (16 * (p / 4) + l.val) = i.val
    · rw [if_pos hw, if_pos (by show _ = k.val * 10016 + i.val; omega)]
      exact congrArg (cellB tab) (by omega)
    · rw [if_neg hw, if_neg (by show ¬ _ = k.val * 10016 + i.val; omega)]
  · rw [if_neg hrk]
    refine Finset.sum_eq_zero (fun l _ => ?_)
    have hwd := wordB_le dsts hd eh (16 * (p / 4) + l.val)
    rw [hD, if_neg (by show ¬ _ = k.val * 10016 + i.val; omega)]

/-- The accumulator after the four steps of each of the first n chunks, at column i of feature row k. -/
theorem edgeAcc_ideal (tab : Vec Ideal S40064 .f32) (srcs dsts : IVec S2x1x163840 32)
    (hs : ∀ j, (srcs j).toNat ≤ 10000) (hd : ∀ j, (dsts j).toNat ≤ 10000) (eh : Fin 2) (z : Vec Ideal S40064 .f32)
    (n : ℕ) (k : Fin 4) (i : Fin 10016) :
    edgeAcc (F := Ideal) tab srcs dsts eh z (4 * n) (ix1 ⟨k.val * 10016 + i.val, rowcol_lt k i⟩)
      = (z (ix1 ⟨k.val * 10016 + i.val, rowcol_lt k i⟩) : EReal)
        + ∑ e ∈ Finset.range (16 * n),
            if wordB dsts eh e = i.val then cellB tab (k.val * 10016 + wordB srcs eh e) else 0 := by
  show _ = _ + ∑ e ∈ Finset.range (16 * n), termB tab srcs dsts eh k i e
  induction n with
  | zero =>
    show (z _ : EReal) = _
    simp
  | succ n ih =>
    have e0 : (4 * n) % 4 = 0 := by omega
    have e1 : (4 * n + 1) % 4 = 1 := by omega
    have e2 : (4 * n + 1 + 1) % 4 = 2 := by omega
    have e3 : (4 * n + 1 + 1 + 1) % 4 = 3 := by omega
    have d0 : (4 * n) / 4 = n := by omega
    have d1 : (4 * n + 1) / 4 = n := by omega
    have d2 : (4 * n + 1 + 1) / 4 = n := by omega
    have d3 : (4 * n + 1 + 1 + 1) / 4 = n := by omega
    rw [show 4 * (n + 1) = 4 * n + 1 + 1 + 1 + 1 by ring,
      edgeAcc_succ_ideal tab srcs dsts hs hd, edgeAcc_succ_ideal tab srcs dsts hs hd,
      edgeAcc_succ_ideal tab srcs dsts hs hd, edgeAcc_succ_ideal tab srcs dsts hs hd, ih,
      e0, e1, e2, e3, d0, d1, d2, d3,
      show 16 * (n + 1) = 16 * n + 16 by ring, Finset.sum_range_add]
    generalize (∑ l ∈ Finset.range 16, termB tab srcs dsts eh k i (16 * n + l)) = C
    generalize (∑ e ∈ Finset.range (16 * n), termB tab srcs dsts eh k i e) = S
    generalize (z (ix1 ⟨k.val * 10016 + i.val, rowcol_lt k i⟩) : EReal) = Z
    have hk := k.isLt
    rcases (by omega : k.val = 0 ∨ k.val = 1 ∨ k.val = 2 ∨ k.val = 3) with h | h | h | h <;>
      simp [h, add_assoc]

/-- The edge kernel's result at (cg, eh, 0, k · 10016 + i): the start plus the sum, over the edges of half eh whose
    destination word is i, of the packed table's entry at (cg, 0, k · 10016 + source word). -/
theorem edgeOut_ideal (g : Vec Ideal S16x1x40064 .f32) (srcs dsts : IVec S2x1x163840 32)
    (hs : ∀ j, (srcs j).toNat ≤ 10000) (hd : ∀ j, (dsts j).toNat ≤ 10000) (z : Vec Ideal S40064 .f32)
    (cg : Fin 16) (eh : Fin 2) (k : Fin 4) (i : Fin 10016) :
    edgeOut (F := Ideal) g srcs dsts z (ix4 cg eh 0 ⟨k.val * 10016 + i.val, rowcol_lt k i⟩)
      = (z (ix1 ⟨k.val * 10016 + i.val, rowcol_lt k i⟩) : EReal)
        + ∑ e : Fin 163840,
            if (dsts (ix3 eh 0 e)).toNat = i.val
            then (g (ix3 cg 0 ⟨k.val * 10016 + (srcs (ix3 eh 0 e)).toNat, rowsrc_lt srcs hs k eh e⟩) : EReal) else 0 := by
  show edgeAcc (F := Ideal) (tabRow g cg) srcs dsts eh z (4 * 10240) (ix1 ⟨k.val * 10016 + i.val, rowcol_lt k i⟩) = _
  rw [edgeAcc_ideal (tabRow g cg) srcs dsts hs hd eh z 10240 k i, show 16 * 10240 = 163840 from rfl, Finset.sum_range]
  refine congrArg _ (Finset.sum_congr rfl (fun e _ => ?_))
  have hw : ∀ a : IVec S2x1x163840 32, wordB a eh e.val = (a (ix3 eh 0 e)).toNat := fun a => by
    unfold wordB
    rw [dif_pos e.isLt]
  rw [hw, hw]
  by_cases hc : (dsts (ix3 eh 0 e)).toNat = i.val
  · rw [if_pos hc, if_pos hc]
    unfold cellB
    rw [dif_pos (rowsrc_lt srcs hs k eh e)]
    rfl
  · rw [if_neg hc, if_neg hc]

end Cert.KernelIdeal.Hand

end
-- ==== Proof.LibGcnAlgebra.lean ====
/-
  General lemmas for certificates of graph convolutions at the extended reals.

  Three groups.
  * Coercions: a finite sum of reals read as an extended real is the sum of the terms read so; an extended real that
    is a real (IsReal) stays one under sums, products and maxima; the reciprocal square root of a count plus one.
  * Counting: a sum over a product of two finite ranges read through the flat index p + n · w, and a filtered sum cut
    down to the part of a longer range where the filter can hold at all.
  * The algebra of one normalised graph-convolution layer over the reals, in the two orders a hand-scheduled kernel
    and a textbook reference write it, and of a two-layer network with sum pooling and a linear head in both orders.
-/
import Idealize.ShloMosaic.PureOps.Ideal
import Mathlib.Algebra.BigOperators.Fin
import Mathlib.Logic.Equiv.Fin.Basic

noncomputable section

open scoped BigOperators

namespace GcnAlgebra

open Idealize.ShloMosaic

/-! ## Coercions -/

/-- A finite sum of reals, read as an extended real, is the sum of the terms read as extended reals. -/
@[norm_cast] theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, read as an extended real, is the maximum of the two read so. -/
@[norm_cast] theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A natural number read as an extended real is the real read so. -/
theorem coe_natCast (n : ℕ) : ((n : ℝ) : EReal) = (n : EReal) := rfl

/-- An extended real that is a real number. -/
def IsReal (v : EReal) : Prop := ∃ r : ℝ, v = (r : EReal)

theorem isReal_coe (r : ℝ) : IsReal (r : EReal) := ⟨r, rfl⟩

/-- Whatever is neither infinity is a real. -/
theorem isReal_of_ne {v : EReal} (ht : v ≠ ⊤) (hb : v ≠ ⊥) : IsReal v := ⟨v.toReal, (EReal.coe_toReal ht hb).symm⟩

/-- Whatever lies strictly between the two infinities in absolute value is a real. -/
theorem isReal_of_abs_lt_top {v : EReal} (h : max v (-v) < ⊤) : IsReal v := by
  refine isReal_of_ne (fun ht => ?_) (fun hb => ?_)
  · rw [ht] at h; exact absurd h (by simp)
  · rw [hb] at h; exact absurd h (by simp)

/-- A family of reals has a real-valued form. -/
theorem exists_real_form {α : Type*} {f : α → EReal} (h : ∀ i, IsReal (f i)) : ∃ g : α → ℝ, ∀ i, f i = (g i : EReal) :=
  ⟨fun i => (h i).choose, fun i => (h i).choose_spec⟩

/-- The reciprocal square root of a count plus one, at the extended reals, is the real one. -/
theorem div_one_sqrt_coe {c : ℝ} (hc : 0 ≤ c) :
    Ideal.div 1 (Ideal.sqrt ((c : EReal) + 1)) = ((1 / Real.sqrt (c + 1) : ℝ) : EReal) := by
  have hpos : 0 < c + 1 := by linarith
  have h1 : ((c : EReal) + 1) = ((c + 1 : ℝ) : EReal) := by rw [EReal.coe_add, EReal.coe_one]
  rw [h1, Ideal.sqrt_coe, if_neg (not_lt.2 hpos.le), Ideal.div_coe (Real.sqrt_pos.2 hpos).ne', one_mul]

/-! ## Counting -/

/-- A sum over two ranges of a function of the flat index p + n · w is the sum over the flat range. -/
theorem sum_fin_prod_flat {M : Type*} [AddCommMonoid M] (m n : ℕ) (f : Fin (m * n) → M) :
    ∑ w : Fin m, ∑ p : Fin n, f (finProdFinEquiv (w, p)) = ∑ e : Fin (m * n), f e := by
  rw [← Fintype.sum_prod_type' (fun w p => f (finProdFinEquiv (w, p)))]
  exact Equiv.sum_comp finProdFinEquiv f

/-- The flat index of (w, p) is p + n · w. -/
theorem finProdFinEquiv_val {m n : ℕ} (w : Fin m) (p : Fin n) : (finProdFinEquiv (w, p) : Fin (m * n)).val = p.val + n * w.val := rfl

/-- A sum over a longer range of terms that vanish past the first n is the sum over the first n. -/
theorem sum_fin_castLE {M : Type*} [AddCommMonoid M] {n N : ℕ} (h : n ≤ N) (f : Fin N → M)
    (hz : ∀ p : Fin N, n ≤ p.val → f p = 0) : ∑ p : Fin N, f p = ∑ p : Fin n, f (Fin.castLE h p) := by
  classical
  have hinj : Function.Injective (Fin.castLE h) := Fin.castLE_injective h
  have hm : ∑ p : Fin n, f (Fin.castLE h p) = ∑ q ∈ Finset.univ.map ⟨Fin.castLE h, hinj⟩, f q :=
    (Finset.sum_map Finset.univ ⟨Fin.castLE h, hinj⟩ f).symm
  rw [hm]
  symm
  refine Finset.sum_subset (Finset.subset_univ _) (fun p _ hp => hz p ?_)
  by_contra hlt
  exact hp (Finset.mem_map.2 ⟨⟨p.val, not_le.1 hlt⟩, Finset.mem_univ _, Fin.ext rfl⟩)

/-! ## One layer over the reals, in the two orders -/

section Layer

variable {ι ε κ φ : Type*} [Fintype ι] [Fintype ε] [Fintype κ] [Fintype φ] [DecidableEq ι]
variable (src dst : ε → ι) (d : ι → ℝ)

/-- The kernel's table of a layer: the features times the weights, each node's column scaled by its factor. -/
def tabK (W : κ → φ → ℝ) (h : κ → ι → ℝ) (f : φ) (n : ι) : ℝ := (∑ k, W k f * h k n) * d n

/-- The kernel's activations: the table summed over the edges into a node, plus the node's own column, scaled
    again, plus the bias, cut at zero. -/
def actK (g : φ → ι → ℝ) (b : φ → ℝ) (f : φ) (n : ι) : ℝ :=
  max (((∑ e ∈ Finset.univ.filter (fun e => dst e = n), g f (src e)) + g f n) * d n + b f) 0

/-- The reference's activations: each edge's message carries both ends' factors, the self loop the node's twice. -/
def actR (h : ι → κ → ℝ) (W : κ → φ → ℝ) (b : φ → ℝ) (i : ι) (f : φ) : ℝ :=
  max ((∑ e ∈ Finset.univ.filter (fun e => dst e = i), (∑ k, h (src e) k * W k f) * (d (src e) * d i))
    + (∑ k, h i k * W k f) * (d i * d i) + b f) 0

/-- The two orders agree: the outer factor distributes over the edge sum. -/
theorem actK_tabK (W : κ → φ → ℝ) (h : κ → ι → ℝ) (b : φ → ℝ) (f : φ) (n : ι) :
    actK src dst d (tabK d W h) b f n = actR src dst d (fun i k => h k i) W b n f := by
  have hk : ∀ m, (∑ k, W k f * h k m) = ∑ k, h k m * W k f :=
    fun m => Finset.sum_congr rfl (fun k _ => mul_comm _ _)
  simp only [actK, actR, tabK, hk]
  rw [add_mul, Finset.sum_mul]
  simp only [mul_assoc]

end Layer

/-! ## Two layers, sum pooling and a linear head, in the two orders -/

section Net

variable {ι ε κ φ γ : Type*} [Fintype ι] [Fintype ε] [Fintype κ] [Fintype φ] [DecidableEq ι] [DecidableEq γ]
variable (src dst : ε → ι) (d : ι → ℝ) (bat : ι → γ)

/-- The kernel's network: two layers over transposed tables, the pooling as a product with a one-hot matrix. -/
def netK (x : ι → κ → ℝ) (W1 : κ → φ → ℝ) (b1 : φ → ℝ) (W2 : φ → φ → ℝ) (b2 : φ → ℝ) (W3 : φ → ℝ) (b3 : ℝ) (g : γ) : ℝ :=
  (∑ f, (∑ n, actK src dst d (tabK d W2 (actK src dst d (tabK d W1 (fun k n => x n k)) b1)) b2 f n
      * (if bat n = g then 1 else 0)) * W3 f) + b3

/-- The reference's network: two layers, a segment sum, a matrix product and a bias. -/
def netR (x : ι → κ → ℝ) (W1 : κ → φ → ℝ) (b1 : φ → ℝ) (W2 : φ → φ → ℝ) (b2 : φ → ℝ) (W3 : φ → ℝ) (b3 : ℝ) (g : γ) : ℝ :=
  (∑ f, (∑ n ∈ Finset.univ.filter (fun n => bat n = g), actR src dst d (actR src dst d x W1 b1) W2 b2 n f) * W3 f) + b3

theorem netK_eq_netR (x : ι → κ → ℝ) (W1 : κ → φ → ℝ) (b1 : φ → ℝ) (W2 : φ → φ → ℝ) (b2 : φ → ℝ) (W3 : φ → ℝ) (b3 : ℝ) (g : γ) :
    netK src dst d bat x W1 b1 W2 b2 W3 b3 g = netR src dst d bat x W1 b1 W2 b2 W3 b3 g := by
  unfold netK netR
  congr 1
  refine Finset.sum_congr rfl (fun f _ => ?_)
  congr 1
  rw [Finset.sum_filter]
  refine Finset.sum_congr rfl (fun n _ => ?_)
  rw [actK_tabK]
  have h1 : (fun (i : ι) (k : φ) => actK src dst d (tabK d W1 (fun k n => x n k)) b1 k i) = actR src dst d x W1 b1 := by
    funext i k
    exact actK_tabK src dst d W1 (fun k n => x n k) b1 k i
  rw [h1]
  split_ifs <;> simp

end Net

end GcnAlgebra

end
-- ==== Proof.KernelValue.lean ====
/-
  The kernel program's value is the reference's, at the extended reals.

  The program's result is the composition of its stages: the degree histograms of the 32 workers, the first feature
  table, the first edge pass over the two halves of the edge list, the second table, the second edge pass, and the
  pooled linear head. Each stage has a closed form at an index (proved where the stage is defined); this file
  composes them. Three facts carry the composition.
  * The 32 histograms at a node sum to the number of edges into it: worker w holds edges 10000 w … 10000 w + 9999,
    and the padding words name column 10000, outside the kept columns.
  * The two halves' accumulators at a kept column sum to the table summed over the edges into the node: half h holds
    edges 160000 h … 160000 h + 159999, a padding word as destination lands outside the kept columns, and a source
    word is only read at a destination that is kept.
  * On real inputs every stage's value is a real, so the outer scaling distributes over the edge sum; over the reals
    the kernel's order of one layer and the reference's agree, and so do the two networks.
-/
import proofs.«219763_g10557029614292_week1_w2_488_21_alg».proof.Proof.KI.Vals
import proofs.«219763_g10557029614292_week1_w2_488_21_alg».proof.Proof.KI.Glue
import proofs.«219763_g10557029614292_week1_w2_488_21_alg».proof.Proof.TcIdeal
import proofs.«219763_g10557029614292_week1_w2_488_21_alg».proof.Proof.FoldsIdeal
import proofs.«219763_g10557029614292_week1_w2_488_21_alg».proof.Proof.Spec
import proofs.«219763_g10557029614292_week1_w2_488_21_alg».proof.Proof.LibGcnAlgebra
import Idealize.ShloMosaic.PureOps.Ideal.Laws
import Mathlib.Algebra.BigOperators.Fin
import Mathlib.Logic.Equiv.Fin.Basic

noncomputable section

open scoped BigOperators

namespace Cert.KernelIdeal.Hand

open Cert.KernelIdeal Cert.KernelIdeal.Gen Cert.KernelIdeal.TcIdeal
open Idealize.ShloMosaic Idealize.ShloMosaic.ValueIdx
open GcnAlgebra

/-- The kernel program's result as the composition of its stages, in the order the host program runs them:
    the degree histograms, the first table, the first edge pass, the second table, the second edge pass, the head. -/
def kOutPure (x : Vec Ideal S10000x128 .f32) (ei : IVec S2x320000 32) (batch : IVec S10000 32) (W1 : Vec Ideal S128x64 .f32)
    (b1 : Vec Ideal S64 .f32) (W2 : Vec Ideal S64x64 .f32) (b2 : Vec Ideal S64 .f32) (W3 : Vec Ideal S64x1 .f32)
    (b3 : Vec Ideal S1 .f32) : Vec Ideal S64x1 .f32 :=
  let degs : Vec Ideal S10000x32 .f32 := gDegsT (degOut (gDst2 ei) gZn)
  let g1 : Vec Ideal S64x10000 .f32 := k1_pay1 degs W1 x
  let e1 : Vec Ideal S16x2x1x40064 .f32 := edgeOut (gPack g1) (gSrcp ei) (gDstp ei) gZer
  let g2 : Vec Ideal S64x10000 .f32 := k3_pay1 degs (gUnpack0 e1) (gUnpack1 e1) g1 (gB1c b1) W2
  let e2 : Vec Ideal S16x2x1x40064 .f32 := edgeOut (gPack g2) (gSrcp ei) (gDstp ei) gZer
  k5_pay1 (k5_pay2 degs (gUnpack0 e2) (gUnpack1 e2) g2 (gB2c b2) (gBt2 batch) W3) (gB3r b3)

/-! ## The stages at the extended reals, on real inputs -/

section Stages

variable {ι ε κ φ γ : Type*} [Fintype ι] [Fintype ε] [Fintype κ] [Fintype φ] [DecidableEq ι] [DecidableEq γ]
variable (src dst : ε → ι) (d : ι → ℝ) (bat : ι → γ)

/-- A table stage on real inputs is the real table. -/
theorem tabK_coe (W : κ → φ → ℝ) (h : κ → ι → ℝ) (f : φ) (n : ι) :
    (∑ k, (W k f : EReal) * (h k n : EReal)) * (d n : EReal) = ((tabK d W h f n : ℝ) : EReal) := by
  unfold tabK
  push_cast
  rfl

/-- An activation stage on real inputs is the real activation. -/
theorem actK_coe (g : φ → ι → ℝ) (b : φ → ℝ) (f : φ) (n : ι) (s0 s1 : EReal)
    (hs : s0 + s1 = ∑ e ∈ Finset.univ.filter (fun e => dst e = n), (g f (src e) : EReal)) :
    max ((s0 + s1 + (g f n : EReal)) * (d n : EReal) + (b f : EReal)) 0 = ((actK src dst d g b f n : ℝ) : EReal) := by
  unfold actK
  rw [hs]
  push_cast
  rfl

/-- The head on real inputs is the real head. -/
theorem head_coe (a : φ → ι → ℝ) (W3 : φ → ℝ) (b3 : ℝ) (q : γ) :
    (∑ f, (∑ n, (a f n : EReal) * (if bat n = q then (1 : EReal) else 0)) * (W3 f : EReal)) + (b3 : EReal)
      = (((∑ f, (∑ n, a f n * (if bat n = q then 1 else 0)) * W3 f) + b3 : ℝ) : EReal) := by
  have hite : ∀ n, ((if bat n = q then (1 : ℝ) else 0 : ℝ) : EReal) = if bat n = q then (1 : EReal) else 0 :=
    fun n => by split_ifs <;> rfl
  push_cast
  simp only [hite]

/-- The reference's layer on real inputs is the real layer. -/
theorem actR_coe (h : ι → κ → ℝ) (W : κ → φ → ℝ) (b : φ → ℝ) (i : ι) (f : φ) :
    max ((∑ e ∈ Finset.univ.filter (fun e => dst e = i),
          (∑ k, (h (src e) k : EReal) * (W k f : EReal)) * ((d (src e) : EReal) * (d i : EReal)))
        + (∑ k, (h i k : EReal) * (W k f : EReal)) * ((d i : EReal) * (d i : EReal)) + (b f : EReal)) 0
      = ((actR src dst d h W b i f : ℝ) : EReal) := by
  unfold actR
  push_cast
  rfl

end Stages

/-! ## Padded rows -/

/-- Rows of a padded table whose entries vanish in the padding, summed row by row, are the flat list's sum. -/
theorem sum_rows_padded {M : Type*} [AddCommMonoid M] (m n N : ℕ) (h : n ≤ N) (A : Fin m → Fin N → M) (B : Fin (m * n) → M)
    (hpad : ∀ w (p : Fin N), n ≤ p.val → A w p = 0)
    (hAB : ∀ w (p : Fin n), A w (Fin.castLE h p) = B (finProdFinEquiv (w, p))) :
    ∑ w, ∑ p, A w p = ∑ e, B e := by
  rw [← sum_fin_prod_flat m n B]
  refine Finset.sum_congr rfl (fun w _ => ?_)
  rw [sum_fin_castLE h (A w) (hpad w)]
  exact Finset.sum_congr rfl (fun p _ => hAB w p)

theorem ite_zero_congr {M : Type*} [Zero M] {c1 c2 : Prop} [Decidable c1] [Decidable c2] {t1 t2 : M} (hc : c1 ↔ c2)
    (ht : c1 → t1 = t2) : (if c1 then t1 else 0) = (if c2 then t2 else 0) := by
  by_cases h : c1
  · rw [if_pos h, if_pos (hc.1 h), ht h]
  · rw [if_neg h, if_neg (fun h2 => h (hc.2 h2))]

/-! ## The graph the index words name -/

theorem toNat_pad : (10000#32 : BitVec 32).toNat = 10000 := by decide

theorem dst_eq_iff (ei : IVec S2x320000 32) (hei : ∀ j, (ei j).toNat < 10000) (e : Fin 320000) (n : Fin 10000) :
    Cert.Spec.dst ei e = n ↔ (ei (ix2 1 e)).toNat = n.val := by
  unfold Cert.Spec.dst
  constructor
  · intro h; rw [← h, Cert.Spec.node_val (hei _)]
  · intro h; exact Fin.ext (by rw [Cert.Spec.node_val (hei _), h])

theorem src_val (ei : IVec S2x320000 32) (hei : ∀ j, (ei j).toNat < 10000) (e : Fin 320000) :
    (Cert.Spec.src ei e).val = (ei (ix2 0 e)).toNat := Cert.Spec.node_val (hei _)

theorem gZn_zero (j : S10240.Idx) : (gZn (F := Ideal) j : EReal) = 0 := by
  rw [gZn_apply]; exact Ideal.ofBits_zero_f32

theorem gZer_zero (j : S40064.Idx) : (gZer (F := Ideal) j : EReal) = 0 := by
  rw [gZer_apply]; exact Ideal.ofBits_zero_f32

theorem gDst2_lt (ei : IVec S2x320000 32) (hei : ∀ j, (ei j).toNat < 10000) (j : S32x10240.Idx) : (gDst2 ei j).toNat < 10240 := by
  obtain ⟨w, p, rfl⟩ : ∃ w p, j = ix2 w p := ⟨j 0, j 1, eq_ix2 j⟩
  rw [gDst2_apply]
  split_ifs with h
  · have := hei (ix2 (1 : Fin 2) ⟨10000 * w.val + p.val, by have := w.isLt; omega⟩); omega
  · rw [toNat_pad]; omega

/-- The 32 workers' histograms at a node sum to the number of edges into it. -/
theorem deg_sum (ei : IVec S2x320000 32) (hei : ∀ j, (ei j).toNat < 10000) (n : Fin 10000) :
    ∑ w : Fin 32, (gDegsT (degOut (F := Ideal) (gDst2 ei) gZn) (ix2 n w) : EReal)
      = (((Finset.univ.filter fun e => Cert.Spec.dst ei e = n).card : ℝ) : EReal) := by
  have hcard : (∑ e : Fin (32 * 10000), if (ei (ix2 (1 : Fin 2) e)).toNat = n.val then (1 : EReal) else 0)
      = (((Finset.univ.filter fun e => Cert.Spec.dst ei e = n).card : ℝ) : EReal) := by
    rw [← Finset.sum_filter, Finset.sum_const, nsmul_one]
    have hf : (Finset.univ.filter fun e : Fin 320000 => (ei (ix2 (1 : Fin 2) e)).toNat = n.val)
        = Finset.univ.filter fun e => Cert.Spec.dst ei e = n :=
      Finset.filter_congr (fun e _ => (dst_eq_iff ei hei e n).symm)
    rw [hf]; rfl
  rw [← hcard]
  simp only [gDegsT_apply, degOut_ideal _ (gDst2_lt ei hei), gZn_zero, zero_add]
  refine sum_rows_padded 32 10000 10240 (by norm_num)
    (fun w p => if (gDst2 ei (ix2 w p)).toNat = n.val then (1 : EReal) else 0) _ ?_ ?_
  · intro w p hp
    have hn := n.isLt
    show (if (gDst2 ei (ix2 w p)).toNat = n.val then (1 : EReal) else 0) = 0
    rw [if_neg]
    rw [gDst2_apply, dif_neg (by omega), toNat_pad]; omega
  · intro w p
    show (if (gDst2 ei (ix2 w (Fin.castLE _ p))).toNat = n.val then (1 : EReal) else 0) = _
    have hp : (Fin.castLE (by norm_num : 10000 ≤ 10240) p).val < 10000 := p.isLt
    rw [gDst2_apply, dif_pos hp]
    have hidx : (⟨10000 * w.val + (Fin.castLE (by norm_num : 10000 ≤ 10240) p).val, by have := w.isLt; omega⟩ : Fin 320000)
        = finProdFinEquiv (w, p) := Fin.ext (by rw [finProdFinEquiv_val]; show 10000 * w.val + p.val = _; omega)
    rw [hidx]

theorem gSrcp_le (ei : IVec S2x320000 32) (hei : ∀ j, (ei j).toNat < 10000) (j : S2x1x163840.Idx) : (gSrcp ei j).toNat ≤ 10000 := by
  obtain ⟨a, z, q, rfl⟩ : ∃ a z q, j = ix3 a z q := ⟨j 0, j 1, j 2, eq_ix3 j⟩
  obtain rfl : z = 0 := Subsingleton.elim _ _
  rw [gSrcp_apply]
  split_ifs with h
  · have := hei (ix2 (0 : Fin 2) ⟨160000 * a.val + q.val, by have := a.isLt; omega⟩); omega
  · rw [toNat_pad]

theorem gDstp_le (ei : IVec S2x320000 32) (hei : ∀ j, (ei j).toNat < 10000) (j : S2x1x163840.Idx) : (gDstp ei j).toNat ≤ 10000 := by
  obtain ⟨a, z, q, rfl⟩ : ∃ a z q, j = ix3 a z q := ⟨j 0, j 1, j 2, eq_ix3 j⟩
  obtain rfl : z = 0 := Subsingleton.elim _ _
  rw [gDstp_apply]
  split_ifs with h
  · have := hei (ix2 (1 : Fin 2) ⟨160000 * a.val + q.val, by have := a.isLt; omega⟩); omega
  · rw [toNat_pad]

/-- A packed table word below the padding is the table's entry. -/
theorem gPack_at (g : Vec Ideal S64x10000 .f32) (cg : Fin 16) (k : Fin 4) (s : ℕ) (hs : s < 10000)
    (hlt : k.val * 10016 + s < 40064) :
    (gPack g (ix3 cg (0 : Fin 1) ⟨k.val * 10016 + s, hlt⟩) : EReal)
      = g (ix2 ⟨4 * cg.val + k.val, by have := cg.isLt; have := k.isLt; omega⟩ ⟨s, hs⟩) := by
  have h := gPack_apply g cg k ⟨s, by omega⟩
  rw [dif_pos hs] at h
  exact h

/-- The two halves' accumulators at a kept column sum to the table summed over the edges into the node. -/
theorem halves_sum (g : Vec Ideal S64x10000 .f32) (ei : IVec S2x320000 32) (hei : ∀ j, (ei j).toNat < 10000)
    (f : Fin 64) (n : Fin 10000) :
    (gUnpack0 (edgeOut (F := Ideal) (gPack g) (gSrcp ei) (gDstp ei) gZer) (ix2 f n) : EReal)
        + gUnpack1 (edgeOut (F := Ideal) (gPack g) (gSrcp ei) (gDstp ei) gZer) (ix2 f n)
      = ∑ e ∈ Finset.univ.filter (fun e => Cert.Spec.dst ei e = n), (g (ix2 f (Cert.Spec.src ei e)) : EReal) := by
  have hf := f.isLt
  have hn := n.isLt
  have hq4 : f.val / 4 < 16 := by omega
  have hm4 : f.val % 4 < 4 := by omega
  have hn16 : n.val < 10016 := by omega
  have e0 := edgeOut_ideal (gPack g) (gSrcp ei) (gDstp ei) (gSrcp_le ei hei) (gDstp_le ei hei) gZer ⟨f.val / 4, hq4⟩ 0 ⟨f.val % 4, hm4⟩ ⟨n.val, hn16⟩
  have e1 := edgeOut_ideal (gPack g) (gSrcp ei) (gDstp ei) (gSrcp_le ei hei) (gDstp_le ei hei) gZer ⟨f.val / 4, hq4⟩ 1 ⟨f.val % 4, hm4⟩ ⟨n.val, hn16⟩
  rw [gUnpack0_apply, gUnpack1_apply]
  refine (congrArg₂ (· + ·) e0 e1).trans ?_
  simp only [gZer_zero, zero_add]
  rw [Finset.sum_filter]
  let A : Fin 2 → Fin 163840 → EReal := fun eh q =>
    if (gDstp ei (ix3 eh 0 q)).toNat = n.val then
      (gPack g (ix3 ⟨f.val / 4, hq4⟩ 0 ⟨f.val % 4 * 10016 + (gSrcp ei (ix3 eh 0 q)).toNat,
        rowsrc_lt (gSrcp ei) (gSrcp_le ei hei) ⟨f.val % 4, hm4⟩ eh q⟩) : EReal) else 0
  refine (Fin.sum_univ_two (fun eh => ∑ q, A eh q)).symm.trans ?_
  refine sum_rows_padded 2 160000 163840 (by norm_num) A
    (fun e : Fin (2 * 160000) => if Cert.Spec.dst ei e = n then (g (ix2 f (Cert.Spec.src ei e)) : EReal) else 0) ?_ ?_
  · intro eh q hq
    show (if (gDstp ei (ix3 eh 0 q)).toNat = n.val then _ else (0 : EReal)) = 0
    rw [if_neg]
    rw [gDstp_apply, dif_neg (by omega), toNat_pad]; omega
  · intro eh q
    have hq : (Fin.castLE (by norm_num : 160000 ≤ 163840) q).val < 160000 := q.isLt
    have hidx : (⟨160000 * eh.val + (Fin.castLE (by norm_num : 160000 ≤ 163840) q).val, by have := eh.isLt; omega⟩ : Fin 320000)
        = finProdFinEquiv (eh, q) := Fin.ext (by rw [finProdFinEquiv_val]; show 160000 * eh.val + q.val = _; omega)
    have hdv : (gDstp ei (ix3 eh 0 (Fin.castLE (by norm_num : 160000 ≤ 163840) q))).toNat
        = (ei (ix2 (1 : Fin 2) (finProdFinEquiv (eh, q)))).toNat := by rw [gDstp_apply, dif_pos hq, hidx]
    have hsv : (gSrcp ei (ix3 eh 0 (Fin.castLE (by norm_num : 160000 ≤ 163840) q))).toNat
        = (ei (ix2 (0 : Fin 2) (finProdFinEquiv (eh, q)))).toNat := by rw [gSrcp_apply, dif_pos hq, hidx]
    refine ite_zero_congr ?_ (fun _ => ?_)
    · rw [hdv]; exact (dst_eq_iff ei hei _ n).symm
    · have hs1 : (gSrcp ei (ix3 eh 0 (Fin.castLE (by norm_num : 160000 ≤ 163840) q))).toNat < 10000 := by
        rw [hsv]; exact hei _
      rw [gPack_at g ⟨f.val / 4, hq4⟩ ⟨f.val % 4, hm4⟩ _ hs1]
      refine congrArg g ?_
      funext a
      match a with
      | ⟨0, _⟩ => exact Fin.ext (by show 4 * (f.val / 4) + f.val % 4 = f.val; omega)
      | ⟨1, _⟩ => exact Fin.ext (by show (gSrcp ei _).toNat = (Cert.Spec.src ei _).val; rw [hsv, src_val ei hei])

/-! ## The scaling over the reals, and the one-hot entries -/

/-- A node's scaling over the reals: one over the square root of one plus the number of edges into it. -/
def dR (ei : IVec S2x320000 32) (n : Fin 10000) : ℝ :=
  1 / Real.sqrt (((Finset.univ.filter fun e => Cert.Spec.dst ei e = n).card : ℝ) + 1)

theorem dinvK_coe (ei : IVec S2x320000 32) (hei : ∀ j, (ei j).toNat < 10000) (n : Fin 10000) :
    dinvK (gDegsT (degOut (F := Ideal) (gDst2 ei) gZn)) n = ((dR ei n : ℝ) : EReal) := by
  unfold dinvK
  rw [deg_sum ei hei n]
  exact div_one_sqrt_coe (Nat.cast_nonneg _)

theorem spec_dinv_coe (ei : IVec S2x320000 32) (i : Fin 10000) : Cert.Spec.dinv ei i = ((dR ei i : ℝ) : EReal) := by
  unfold Cert.Spec.dinv
  rw [Cert.Spec.deg_split, Finset.sum_const, nsmul_one]
  exact div_one_sqrt_coe (Nat.cast_nonneg _)

theorem onehot_eq (batch : IVec S10000 32) (hbt : ∀ j, (batch j).toNat < 64) (n : Fin 10000) (q : Fin 64) :
    onehotK (gBt2 batch) n q = if Cert.Spec.group (batch (ix1 n)) = q then (1 : EReal) else 0 := by
  unfold onehotK
  rw [gBt2_apply]
  have hq := q.isLt
  have hb := hbt (ix1 n)
  have hiff : batch (ix1 n) = BitVec.ofNat 32 q.val ↔ Cert.Spec.group (batch (ix1 n)) = q := by
    constructor
    · intro h
      apply Fin.ext
      rw [Cert.Spec.group_val hb, h, BitVec.toNat_ofNat]
      omega
    · intro h
      apply BitVec.eq_of_toNat_eq
      rw [BitVec.toNat_ofNat, ← h, Cert.Spec.group_val hb]
      omega
  by_cases h : batch (ix1 n) = BitVec.ofNat 32 q.val
  · rw [if_pos (hiff.1 h), h]
    have h1 : IntOp.cmpi .eq (BitVec.ofNat 32 q.val) (BitVec.ofNat 32 q.val) = 1#1 := by simp [IntOp.cmpi]
    rw [h1]
    show ((((BitVec.setWidth 32 (1#1 : BitVec 1)).toInt : ℤ) : ℝ) : EReal) = 1
    have h2 : (BitVec.setWidth 32 (1#1 : BitVec 1)).toInt = 1 := by decide
    rw [h2, Int.cast_one, EReal.coe_one]
  · rw [if_neg (fun h2 => h (hiff.2 h2))]
    have hbeq : (batch (ix1 n) == BitVec.ofNat 32 q.val) = false := beq_eq_false_iff_ne.2 h
    have h1 : IntOp.cmpi .eq (batch (ix1 n)) (BitVec.ofNat 32 q.val) = 0#1 := by
      show BitVec.ofBool (batch (ix1 n) == BitVec.ofNat 32 q.val) = 0#1
      rw [hbeq]; rfl
    rw [h1]
    show ((((BitVec.setWidth 32 (0#1 : BitVec 1)).toInt : ℤ) : ℝ) : EReal) = 0
    have h2 : (BitVec.setWidth 32 (0#1 : BitVec 1)).toInt = 0 := by decide
    rw [h2, Int.cast_zero, EReal.coe_zero]

/-! ## The two sides as the real networks -/

section Sides

variable (x : Vec Ideal S10000x128 .f32) (ei : IVec S2x320000 32) (batch : IVec S10000 32) (W1 : Vec Ideal S128x64 .f32)
  (b1 : Vec Ideal S64 .f32) (W2 : Vec Ideal S64x64 .f32) (b2 : Vec Ideal S64 .f32) (W3 : Vec Ideal S64x1 .f32) (b3 : Vec Ideal S1 .f32)
  (xr : Fin 10000 → Fin 128 → ℝ) (W1r : Fin 128 → Fin 64 → ℝ) (b1r : Fin 64 → ℝ) (W2r : Fin 64 → Fin 64 → ℝ) (b2r : Fin 64 → ℝ)
  (W3r : Fin 64 → ℝ) (b3r : ℝ)

/-- The reference's result on real inputs is the real reference network. -/
theorem spec_side (hx : ∀ n k, x (ix2 n k) = ((xr n k : ℝ) : EReal)) (hW1 : ∀ k f, W1 (ix2 k f) = ((W1r k f : ℝ) : EReal))
    (hb1 : ∀ f, b1 (ix1 f) = ((b1r f : ℝ) : EReal)) (hW2 : ∀ k f, W2 (ix2 k f) = ((W2r k f : ℝ) : EReal))
    (hb2 : ∀ f, b2 (ix1 f) = ((b2r f : ℝ) : EReal)) (hW3 : ∀ f, W3 (ix2 f (0 : Fin 1)) = ((W3r f : ℝ) : EReal))
    (hb3 : b3 (ix1 (0 : Fin 1)) = ((b3r : ℝ) : EReal)) (q : Fin 64) :
    Cert.Spec.out x ei batch W1 b1 W2 b2 W3 b3 (ix2 q (0 : Fin 1))
      = ((netR (Cert.Spec.src ei) (Cert.Spec.dst ei) (dR ei) (fun n => Cert.Spec.group (batch (ix1 n))) xr W1r b1r W2r b2r W3r b3r q : ℝ) : EReal) := by
  have h1 : ∀ i f, Cert.Spec.h1 x ei W1 b1 (ix2 i f)
      = ((actR (Cert.Spec.src ei) (Cert.Spec.dst ei) (dR ei) xr W1r b1r i f : ℝ) : EReal) := by
    intro i f
    show max (Cert.Spec.conv ei x W1 b1 i f) 0 = _
    rw [Cert.Spec.conv_split]
    unfold Cert.Spec.lin
    simp only [hx, hW1, hb1, spec_dinv_coe]
    exact actR_coe _ _ _ _ _ _ _ _
  have h2 : ∀ i f, Cert.Spec.h2 x ei W1 b1 W2 b2 (ix2 i f)
      = ((actR (Cert.Spec.src ei) (Cert.Spec.dst ei) (dR ei) (actR (Cert.Spec.src ei) (Cert.Spec.dst ei) (dR ei) xr W1r b1r) W2r b2r i f : ℝ) : EReal) := by
    intro i f
    show max (Cert.Spec.conv ei (Cert.Spec.h1 x ei W1 b1) W2 b2 i f) 0 = _
    rw [Cert.Spec.conv_split]
    unfold Cert.Spec.lin
    simp only [h1, hW2, hb2, spec_dinv_coe]
    exact actR_coe _ _ _ _ _ _ _ _
  show (∑ k : Fin 64, Cert.Spec.pool batch (Cert.Spec.h2 x ei W1 b1 W2 b2) q k * W3 (ix2 k (0 : Fin 1))) + b3 (ix1 (0 : Fin 1)) = _
  unfold Cert.Spec.pool netR
  simp only [h2, hW3, hb3]
  push_cast
  rfl

/-- A hidden activation of the kernel on a real table is the real activation. -/
theorem layer_act (hei : ∀ j, (ei j).toNat < 10000) (g : Vec Ideal S64x10000 .f32) (gr : Fin 64 → Fin 10000 → ℝ)
    (hg : ∀ f n, g (ix2 f n) = ((gr f n : ℝ) : EReal)) (bc : Vec Ideal S64x1 .f32) (br : Fin 64 → ℝ)
    (hb : ∀ f, bc (ix2 f (0 : Fin 1)) = ((br f : ℝ) : EReal)) (f : Fin 64) (n : Fin 10000) :
    hidK (gDegsT (degOut (F := Ideal) (gDst2 ei) gZn))
        (gUnpack0 (edgeOut (F := Ideal) (gPack g) (gSrcp ei) (gDstp ei) gZer))
        (gUnpack1 (edgeOut (F := Ideal) (gPack g) (gSrcp ei) (gDstp ei) gZer)) g bc f n
      = ((actK (Cert.Spec.src ei) (Cert.Spec.dst ei) (dR ei) gr br f n : ℝ) : EReal) := by
  unfold hidK
  rw [dinvK_coe ei hei, hg, hb]
  refine actK_coe _ _ _ _ _ _ _ _ _ ?_
  rw [halves_sum g ei hei f n]
  exact Finset.sum_congr rfl (fun e _ => hg f _)

/-- The kernel program's result on real inputs is the real kernel network. -/
theorem kernel_side (hei : ∀ j, (ei j).toNat < 10000) (hbt : ∀ j, (batch j).toNat < 64)
    (hx : ∀ n k, x (ix2 n k) = ((xr n k : ℝ) : EReal)) (hW1 : ∀ k f, W1 (ix2 k f) = ((W1r k f : ℝ) : EReal))
    (hb1 : ∀ f, b1 (ix1 f) = ((b1r f : ℝ) : EReal)) (hW2 : ∀ k f, W2 (ix2 k f) = ((W2r k f : ℝ) : EReal))
    (hb2 : ∀ f, b2 (ix1 f) = ((b2r f : ℝ) : EReal)) (hW3 : ∀ f, W3 (ix2 f (0 : Fin 1)) = ((W3r f : ℝ) : EReal))
    (hb3 : b3 (ix1 (0 : Fin 1)) = ((b3r : ℝ) : EReal)) (q : Fin 64) :
    kOutPure x ei batch W1 b1 W2 b2 W3 b3 (ix2 q (0 : Fin 1))
      = ((netK (Cert.Spec.src ei) (Cert.Spec.dst ei) (dR ei) (fun n => Cert.Spec.group (batch (ix1 n))) xr W1r b1r W2r b2r W3r b3r q : ℝ) : EReal) := by
  have hg1 : ∀ f n, k1_pay1 (F := Ideal) (gDegsT (degOut (F := Ideal) (gDst2 ei) gZn)) W1 x (ix2 f n)
      = ((tabK (dR ei) W1r (fun k n => xr n k) f n : ℝ) : EReal) := by
    intro f n
    rw [k1_pay1_apply, dinvK_coe ei hei]
    simp only [hW1, hx]
    exact tabK_coe (dR ei) W1r (fun k n => xr n k) f n
  have ha1 := layer_act ei hei _ _ hg1 (gB1c b1) b1r (fun f => by rw [gB1c_apply, hb1])
  have hg2 : ∀ f n, k3_pay1 (F := Ideal) (gDegsT (degOut (F := Ideal) (gDst2 ei) gZn))
        (gUnpack0 (edgeOut (F := Ideal) (gPack (k1_pay1 (F := Ideal) (gDegsT (degOut (F := Ideal) (gDst2 ei) gZn)) W1 x)) (gSrcp ei) (gDstp ei) gZer))
        (gUnpack1 (edgeOut (F := Ideal) (gPack (k1_pay1 (F := Ideal) (gDegsT (degOut (F := Ideal) (gDst2 ei) gZn)) W1 x)) (gSrcp ei) (gDstp ei) gZer))
        (k1_pay1 (F := Ideal) (gDegsT (degOut (F := Ideal) (gDst2 ei) gZn)) W1 x) (gB1c b1) W2 (ix2 f n)
      = ((tabK (dR ei) W2r (actK (Cert.Spec.src ei) (Cert.Spec.dst ei) (dR ei) (tabK (dR ei) W1r (fun k n => xr n k)) b1r) f n : ℝ) : EReal) := by
    intro f n
    rw [k3_pay1_apply, dinvK_coe ei hei]
    simp only [ha1, hW2]
    exact tabK_coe (dR ei) W2r _ f n
  have ha2 := layer_act ei hei _ _ hg2 (gB2c b2) b2r (fun f => by rw [gB2c_apply, hb2])
  show k5_pay1 (F := Ideal) (k5_pay2 (F := Ideal) _ _ _ _ (gB2c b2) (gBt2 batch) W3) (gB3r b3) (ix2 q (0 : Fin 1)) = _
  rw [k5_store_apply]
  simp only [ha2, onehot_eq batch hbt, hW3, gB3r_apply, hb3]
  exact head_coe _ _ _ _ _

end Sides

/-- THE VALUE: on index words in range and real float inputs, the kernel program's result is the reference's. -/
theorem kOutPure_eq_spec (x : Vec Ideal S10000x128 .f32) (ei : IVec S2x320000 32) (batch : IVec S10000 32) (W1 : Vec Ideal S128x64 .f32)
    (b1 : Vec Ideal S64 .f32) (W2 : Vec Ideal S64x64 .f32) (b2 : Vec Ideal S64 .f32) (W3 : Vec Ideal S64x1 .f32) (b3 : Vec Ideal S1 .f32)
    (hei : ∀ j, (ei j).toNat < 10000) (hbt : ∀ j, (batch j).toNat < 64)
    (hx : ∀ i, IsReal (x i)) (hW1 : ∀ i, IsReal (W1 i)) (hb1 : ∀ i, IsReal (b1 i)) (hW2 : ∀ i, IsReal (W2 i))
    (hb2 : ∀ i, IsReal (b2 i)) (hW3 : ∀ i, IsReal (W3 i)) (hb3 : ∀ i, IsReal (b3 i)) :
    kOutPure x ei batch W1 b1 W2 b2 W3 b3 = Cert.Spec.out x ei batch W1 b1 W2 b2 W3 b3 := by
  obtain ⟨xr, hxr⟩ := exists_real_form hx
  obtain ⟨W1r, hW1r⟩ := exists_real_form hW1
  obtain ⟨b1r, hb1r⟩ := exists_real_form hb1
  obtain ⟨W2r, hW2r⟩ := exists_real_form hW2
  obtain ⟨b2r, hb2r⟩ := exists_real_form hb2
  obtain ⟨W3r, hW3r⟩ := exists_real_form hW3
  obtain ⟨b3r, hb3r⟩ := exists_real_form hb3
  funext j
  obtain ⟨q, z, rfl⟩ : ∃ q z, j = ix2 q z := ⟨j 0, j 1, eq_ix2 j⟩
  obtain rfl : z = 0 := Subsingleton.elim _ _
  rw [kernel_side x ei batch W1 b1 W2 b2 W3 b3 (fun n k => xr (ix2 n k)) (fun k f => W1r (ix2 k f)) (fun f => b1r (ix1 f))
      (fun k f => W2r (ix2 k f)) (fun f => b2r (ix1 f)) (fun f => W3r (ix2 f 0)) (b3r (ix1 0)) hei hbt
      (fun _ _ => hxr _) (fun _ _ => hW1r _) (fun _ => hb1r _) (fun _ _ => hW2r _) (fun _ => hb2r _) (fun _ => hW3r _) (hb3r _) q,
    spec_side x ei batch W1 b1 W2 b2 W3 b3 (fun n k => xr (ix2 n k)) (fun k f => W1r (ix2 k f)) (fun f => b1r (ix1 f))
      (fun k f => W2r (ix2 k f)) (fun f => b2r (ix1 f)) (fun f => W3r (ix2 f 0)) (b3r (ix1 0))
      (fun _ _ => hxr _) (fun _ _ => hW1r _) (fun _ => hb1r _) (fun _ _ => hW2r _) (fun _ => hb2r _) (fun _ => hW3r _) (hb3r _) q,
    netK_eq_netR]

end Cert.KernelIdeal.Hand

end
-- ==== Proof.FiniteIdeal.lean ====
/-
  At the ideal instance an entry that passes the precondition's test |v| < +inf is a real: the pattern 0x7F800000
  denotes +inf, the host's absolute value is max v (-v), and an extended real whose absolute value is below +inf is
  neither infinity. So under the precondition every float input of the program is an array of reals.
-/
import proofs.«219763_g10557029614292_week1_w2_488_21_alg».proof.Proof.KI.PreOK
import Idealize.ShloMosaic.PureOps.Ideal

noncomputable section

namespace Cert.KernelIdeal.Hand

open Cert.KernelIdeal Cert.KernelIdeal.Gen
open Idealize.ShloMosaic Idealize.ShloMosaic.ValueIdx

/-- The pattern 0x7F800000 is +inf. -/
theorem ofBits_inf_ideal : (FloatOps.ofBits .f32 0x7F800000#32 : Ideal .f32) = (⊤ : EReal) := by
  show Ideal.ofBits .f32 0x7F800000#32 = ⊤
  simp [Ideal.ofBits, Ideal.ieee]

/-- An entry that passes the test is a real. -/
theorem real_of_finAt {v : EReal} (h : FinAt (F := Ideal) (v : Ideal .f32)) : ∃ r : ℝ, v = (r : EReal) := by
  unfold FinAt at h
  rw [ofBits_inf_ideal] at h
  have hb : BitVec.ofBool (decide (max v (-v) < (⊤ : EReal))) = 1#1 := h
  have h' : max v (-v) < (⊤ : EReal) := by
    cases hd : decide (max v (-v) < (⊤ : EReal)) with
    | true => exact of_decide_eq_true hd
    | false => rw [hd] at hb; exact absurd hb (by decide)
  induction v using EReal.rec with
  | bot => simp at h'
  | coe r => exact ⟨r, rfl⟩
  | top => simp at h'

section
variable {x : Vec Ideal S10000x128 .f32} {ei : IVec S2x320000 32} {batch : IVec S10000 32} {W1 : Vec Ideal S128x64 .f32}
  {b1 : Vec Ideal S64 .f32} {W2 : Vec Ideal S64x64 .f32} {b2 : Vec Ideal S64 .f32} {W3 : Vec Ideal S64x1 .f32} {b3 : Vec Ideal S1 .f32}

/-- Under the precondition every entry of each float input is a real. -/
theorem PreFacts.x_real (h : PreFacts x ei batch W1 b1 W2 b2 W3 b3) (j : S10000x128.Idx) : ∃ r : ℝ, x j = (r : EReal) :=
  real_of_finAt (h.x_fin j)
theorem PreFacts.W1_real (h : PreFacts x ei batch W1 b1 W2 b2 W3 b3) (j : S128x64.Idx) : ∃ r : ℝ, W1 j = (r : EReal) :=
  real_of_finAt (h.W1_fin j)
theorem PreFacts.b1_real (h : PreFacts x ei batch W1 b1 W2 b2 W3 b3) (j : S64.Idx) : ∃ r : ℝ, b1 j = (r : EReal) :=
  real_of_finAt (h.b1_fin j)
theorem PreFacts.W2_real (h : PreFacts x ei batch W1 b1 W2 b2 W3 b3) (j : S64x64.Idx) : ∃ r : ℝ, W2 j = (r : EReal) :=
  real_of_finAt (h.W2_fin j)
theorem PreFacts.b2_real (h : PreFacts x ei batch W1 b1 W2 b2 W3 b3) (j : S64.Idx) : ∃ r : ℝ, b2 j = (r : EReal) :=
  real_of_finAt (h.b2_fin j)
theorem PreFacts.W3_real (h : PreFacts x ei batch W1 b1 W2 b2 W3 b3) (j : S64x1.Idx) : ∃ r : ℝ, W3 j = (r : EReal) :=
  real_of_finAt (h.W3_fin j)
theorem PreFacts.b3_real (h : PreFacts x ei batch W1 b1 W2 b2 W3 b3) (j : S1.Idx) : ∃ r : ℝ, b3 j = (r : EReal) :=
  real_of_finAt (h.b3_fin j)

end

end Cert.KernelIdeal.Hand

end
-- ==== Proof.Join.lean ====
/-
  The kernel program's result is the specification: the value @main's chain of host operations, SparseCore calls
  and TensorCore calls leaves in its result buffer is, at the exact instance and under the precondition (edge and
  batch words in range, every float input a real), the two-layer graph convolution with sum pooling of the
  specification, as a function of the nine argument arrays of the launch memory.
-/
import proofs.«219763_g10557029614292_week1_w2_488_21_alg».proof.Defs
import proofs.«219763_g10557029614292_week1_w2_488_21_alg».proof.Proof.KI.ChainValue
import proofs.«219763_g10557029614292_week1_w2_488_21_alg».proof.Proof.KI.PreChain
import proofs.«219763_g10557029614292_week1_w2_488_21_alg».proof.Proof.KernelValue
import proofs.«219763_g10557029614292_week1_w2_488_21_alg».proof.Proof.FiniteIdeal

noncomputable section

namespace Cert.Proof.Join

open Cert.KernelIdeal Cert.KernelIdeal.Gen Cert.KernelIdeal.Hand
open Idealize.ShloMosaic Idealize.SL.Sem

/-- The chain's result buffer holds the specification of the launch memory's nine arguments. -/
theorem kOut_is_spec (m : (ℓ : Loc nD τ sig) → Buf (Elt Ideal) ℓ) (c : Dev nD) (hpre : Cert.Pre_KernelIdeal m) :
    kOut (F := Ideal) m c
      = Cert.Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  have hf := preFacts_of_pre (F := Ideal) (hpre c)
  rw [kOut_eq]
  exact kOutPure_eq_spec _ _ _ _ _ _ _ _ _ hf.ei_lt hf.batch_lt (fun j => hf.x_real j) (fun j => hf.W1_real j) (fun j => hf.b1_real j)
    (fun j => hf.W2_real j) (fun j => hf.b2_real j) (fun j => hf.W3_real j) (fun j => hf.b3_real j)

end Cert.Proof.Join

end
-- ==== Proof.KI.DegBody.lean ====
/-
  The degree kernel's task on one vector subcore, with its value.

  Worker w = 16 c + s (SparseCore c of 2, vector subcore s of 16) copies row w of the padded 32 × 10240 destination
  list into its index scratch and the 10240-word zero array into its histogram scratch; in 160 trips, four chunks
  of sixteen index words a trip, it adds the all-ones vector into the histogram at each chunk's indices (an indexed
  store-with-add, lanes in ascending order); it copies the histogram out to row w of the 32 × 10240 result.
  Under the hypothesis that every word of the destination list is below 10240, each of the 640 range checks the
  task meets holds, and the row it writes is the left fold degAcc over its 640 chunks: after trip t the histogram
  scratch holds degAcc at 4 t, the loop's invariant.
-/
import proofs.«219763_g10557029614292_week1_w2_488_21_alg».proof.Proof.KI.Vals
import Idealize.ShloMosaic.Lib.Writes

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## The arrays, the scratch, the rows -/

/-- The padded destination list, the zero array and the result, as locations of device `d`. -/
abbrev degALoc (d : Dev nD) : Loc nD τ sig := (SparseCore.T d).loc main_v11
abbrev degZLoc (d : Dev nD) : Loc nD τ sig := (SparseCore.T d).loc main_v12
abbrev degOLoc (d : Dev nD) : Loc nD τ sig := (SparseCore.T d).loc main_v18

abbrev degAV : Memref sig .scVector .hbm S32x10240 .i32 := Memref.whole main_v11_scv
abbrev degZV : Memref sig .scVector .hbm S10240 .f32 := Memref.whole main_v12_scv
abbrev degOV : Memref sig .scVector .hbm S32x10240 .f32 := Memref.whole main_v18_scv
/-- A task's scratch: the histogram, the fetched index row. -/
abbrev degSH : Memref sig .scVector .vmem S10240 .f32 := Memref.whole cc0_scratch0
abbrev degSI : Memref sig .scVector .vmem S10240 .i32 := Memref.whole cc0_scratch1

theorem degHdiv : 32 ∣ S32x10240.size 0 := ⟨1, rfl⟩
/-- Row `w` of a 32 × 10240 array, as a rectangle and as a set of indices. -/
abbrev degRow (w : Fin 32) : Rect S32x10240 := Rect.part (s := S32x10240) (a₀ := 0) degHdiv w
abbrev degRowSet (w : Fin 32) : Finset S32x10240.Idx := ((degOV : Memref sig .scVector .hbm S32x10240 .f32).view.slice (degRow w)).set

abbrev degCV (L : grid0.Coords) : Fin τ.nSC := (L 0).castLE hcore0
abbrev degJV (L : grid0.Coords) : Fin τ.nSub := (L 1).castLE hsub0
/-- The worker at grid point `L`: 16 times the SparseCore plus the vector subcore. -/
def degW (L : grid0.Coords) : Fin 32 :=
  ⟨16 * (L 0).val + (L 1).val, by
    have h0 : (L 0).val < 2 := (L 0).isLt
    have h1 : (L 1).val < 16 := (L 1).isLt
    omega⟩

/-- What worker `w`'s task is handed: a share of row `w` of the destination list, a share of the zero array, row `w`
    of the result at any contents. -/
abbrev degGo (a : IVec S32x10240 32) (z : Vec F S10240 .f32) (qa qz : PosShare TreeShare) (d : Dev nD) (w : Fin 32) : sProp 𝕄 :=
  iprop((degALoc d ↦[degRowSet w]{qa} a) ∗ (degZLoc d ↦{qz} z) ∗ ∃ f, degOLoc d ↦[degRowSet w]{fullShare} f)

/-! ## The task's row as its program slices it -/

abbrev degRowK (L : grid0.Coords) : Rect S32x10240 := Rect.unit (s := S32x10240) (k0_off1 L) S1x10240.size (k0_off1_inb L)
abbrev degARowK (L : grid0.Coords) : Memref sig .scVector .hbm S10240 .i32 :=
  ((degAV : Memref sig .scVector .hbm S32x10240 .i32).slice (degRowK L) (fun _ => rfl)).squeeze S10240 squeezes_S1x10240_S10240
abbrev degORowK (L : grid0.Coords) : Memref sig .scVector .hbm S10240 .f32 :=
  ((degOV : Memref sig .scVector .hbm S32x10240 .f32).slice (degRowK L) (fun _ => rfl)).squeeze S10240 squeezes_S1x10240_S10240

theorem degRowK_eq (L : grid0.Coords) : degRowK L = degRow (degW L) := by
  unfold degRowK degRow Rect.part Rect.block
  congr 1 <;> funext a
  · rw [k0_off1_eq]
    match a with
    | 0 => simp [Shape.partIx, Shape.partSize, degW]
    | 1 => simp [Shape.partIx, Shape.partSize]
  · match a with
    | 0 => simp [Shape.partSize]
    | 1 => simp [Shape.partSize]

theorem set_degARowK (L : grid0.Coords) : (degARowK L).view.set = degRowSet (degW L) := by
  show (((degAV : Memref sig .scVector .hbm S32x10240 .i32).view.slice (degRowK L)).reshape S10240 squeezes_S1x10240_S10240.numel_eq).set
    = ((degOV : Memref sig .scVector .hbm S32x10240 .f32).view.slice (degRow (degW L))).set
  rw [View.set_reshape]
  exact degRowK_eq L ▸ rfl
theorem set_degORowK (L : grid0.Coords) : (degORowK L).view.set = degRowSet (degW L) := by
  show (((degOV : Memref sig .scVector .hbm S32x10240 .f32).view.slice (degRowK L)).reshape S10240 squeezes_S1x10240_S10240.numel_eq).set
    = ((degOV : Memref sig .scVector .hbm S32x10240 .f32).view.slice (degRow (degW L))).set
  rw [View.set_reshape]
  exact degRowK_eq L ▸ rfl

/-- The rows as sets of indices: the parts of the cut of the first axis into 32. -/
theorem degRowSet_eq (w : Fin 32) : degRowSet w = (degRow w).set := by
  show ((View.whole (main_v18_scv : Ref sig .scVector)).slice (degRow w)).set = _
  rw [View.set_slice_whole]

section Tile

variable (d : Dev nD) (L : grid0.Coords)

theorem pts_degARowK (q : PosShare TreeShare) (f : Buf (Elt F) (degALoc d)) :
    ((degARowK L).view.loc (V d (degCV L) (degJV L)) ↦[(degARowK L).view.set]{q} f : sProp 𝕄) = degALoc d ↦[degRowSet (degW L)]{q} f := by
  rw [set_degARowK]
theorem pts_degORowK (f : Buf (Elt F) (degOLoc d)) :
    ((degORowK L).view.loc (V d (degCV L) (degJV L)) ↦[(degORowK L).view.set]{fullShare} f : sProp 𝕄) = degOLoc d ↦[degRowSet (degW L)]{fullShare} f := by
  rw [set_degORowK]
theorem pts_degZ (q : PosShare TreeShare) (f : Buf (Elt F) (degZLoc d)) :
    ((degZV : Memref sig .scVector .hbm S10240 .f32).view.loc (V d (degCV L) (degJV L)) ↦{q} f : sProp 𝕄) = degZLoc d ↦{q} f := rfl
theorem pts_degSH (f : Buf (Elt F) ((V d (degCV L) (degJV L)).loc cc0_scratch0)) :
    ((degSH : Memref sig .scVector .vmem S10240 .f32).view.loc (V d (degCV L) (degJV L)) ↦{fullShare} f : sProp 𝕄) = (V d (degCV L) (degJV L)).loc cc0_scratch0 ↦{fullShare} f := rfl
theorem pts_degSI (f : Buf (Elt F) ((V d (degCV L) (degJV L)).loc cc0_scratch1)) :
    ((degSI : Memref sig .scVector .vmem S10240 .i32).view.loc (V d (degCV L) (degJV L)) ↦{fullShare} f : sProp 𝕄) = (V d (degCV L) (degJV L)).loc cc0_scratch1 ↦{fullShare} f := rfl
/-- The histogram scratch as the indexed store holds it: through its whole-rectangle view. -/
theorem pts_degSH_whole (f : Buf (Elt F) ((V d (degCV L) (degJV L)).loc cc0_scratch0)) :
    (((degSH : Memref sig .scVector .vmem S10240 .f32).access (.whole S10240)).loc (V d (degCV L) (degJV L)) ↦[((degSH : Memref sig .scVector .vmem S10240 .f32).access (.whole S10240)).set]{fullShare} f : sProp 𝕄)
      = (V d (degCV L) (degJV L)).loc cc0_scratch0 ↦{fullShare} f := by
  rw [show ((degSH : Memref sig .scVector .vmem S10240 .f32).access (.whole S10240)).set = Finset.univ from Memref.set_access_whole (cc0_scratch0 : Ref sig .scVector)]

/-! ## The vector subcore's own semaphores and buffers -/

abbrev degCell0 : GSem nD τ sig := (V d (degCV L) (degJV L), .dma cc0_scoped0.sem)
abbrev degCell1 : GSem nD τ sig := (V d (degCV L) (degJV L), .dma cc0_scoped1.sem)
abbrev degCell2 : GSem nD τ sig := (V d (degCV L) (degJV L), .dma cc0_scoped2.sem)

theorem degOwnSems0_V :
    (ownSems0 (V d (degCV L) (degJV L)) : sProp 𝕄)
      = iprop(semVal (degCell0 d L) 0 ∗ semVal (degCell1 d L) 0 ∗ semVal (degCell2 d L) 0
          ∗ bigSep ((((ownCells (V d (degCV L) (degJV L))).erase (degCell0 d L)).erase (degCell1 d L)).erase (degCell2 d L))
              fun g => semVal g 0) := by
  unfold SparseCore.Cfg.ownSems0
  rw [SparseCore.bigSep_erase' ((mem_ownCells (g := degCell0 d L)).mpr ⟨rfl, by
      show (SemLoc.dma cc0_scoped0.sem : SemLoc sig).isScoped .scVector = true; decide⟩),
    SparseCore.bigSep_erase' (Finset.mem_erase.mpr ⟨by simp [degCell0, degCell1]; decide, (mem_ownCells (g := degCell1 d L)).mpr ⟨rfl, by
      show (SemLoc.dma cc0_scoped1.sem : SemLoc sig).isScoped .scVector = true; decide⟩⟩),
    SparseCore.bigSep_erase' (Finset.mem_erase.mpr ⟨by simp [degCell1, degCell2]; decide, Finset.mem_erase.mpr ⟨by simp [degCell0, degCell2]; decide,
      (mem_ownCells (g := degCell2 d L)).mpr ⟨rfl, by show (SemLoc.dma cc0_scoped2.sem : SemLoc sig).isScoped .scVector = true; decide⟩⟩⟩)]

/-- The two scratch buffers are among the subcore's own: they are them, at some contents, and the rest. -/
theorem degOwnBufs_V :
    (ownBufs (V d (degCV L) (degJV L)) : sProp 𝕄)
      = iprop((∃ f, (V d (degCV L) (degJV L)).loc cc0_scratch0 ↦{fullShare} f) ∗ (∃ f, (V d (degCV L) (degJV L)).loc cc0_scratch1 ↦{fullShare} f)
          ∗ bigSep (((ownRefs (τ := τ) (.scVector (degCV L) (degJV L))).erase ((Proc.scVector (degCV L) (degJV L)).devRef cc0_scratch0)).erase
              ((Proc.scVector (degCV L) (degJV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (degCV L) (degJV L))
    (b := (Proc.scVector (degCV L) (degJV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (degCV L) (degJV L)) (b := (Proc.scVector (degCV L) (degJV L)).devRef cc0_scratch1) rfl⟩)]

end Tile

/-! ## What the copies and the loads read, what the indexed stores leave -/

section Values
variable [FloatOps F]

/-- Row `w` of the destination list, read through the task's own slice of it: word `j` of the slice is entry
    `(16 c + s, j)` of the list. -/
theorem degARowK_read (a : IVec S32x10240 32) (L : grid0.Coords) :
    (degARowK L).view.read (Elt F) a = dvRow a (degW L) := by
  funext j
  refine ((View.read_apply _ _).trans (cast_eq _ _)).trans ?_
  have e : (degARowK L).view.emb j = ix2 (degW L) (j 0) := by
    show (degRowK L).emb (Shape.reshapeEquiv _ j) = _
    rw [Shape.reshapeEquiv_cons_one]
    funext ax; apply Fin.ext
    rw [Rect.emb_apply]
    match ax with
    | 0 =>
      show (k0_off1 L) 0 + 1 * 0 = 16 * (L 0).val + (L 1).val
      rw [k0_off1_eq]; simp
    | 1 =>
      show (k0_off1 L) 1 + 1 * (j 0).val = (j 0).val
      rw [k0_off1_eq]; simp
  rw [e]; rfl

/-- Sixteen words loaded from word `16 n` of the fetched row are its chunk `n`. -/
theorem degChunk_read (dv : IVec S10240 32) (off : Fin 1 → Nat) (inb : ∀ a, off a + S16.size a ≤ S10240.size a) (n : Nat)
    (ho : off = ![16 * n]) :
    (degSI : Memref sig .scVector .vmem S10240 .i32).view.readAt (Elt F) (Rect.unit (s := S10240) off S16.size inb).toLoadRect dv = chunkA dv n := by
  subst ho
  funext x
  have hx : 16 * n + (x 0).val < 10240 := by
    have h0 := inb 0
    have h1 : (x 0).val < 16 := (x 0).isLt
    simp at h0; omega
  rw [View.readAt_apply]
  show dv _ = _
  unfold chunkA
  rw [dif_pos hx]
  congr 1
  funext ax; apply Fin.ext
  match ax with
  | 0 =>
    show 16 * n + 1 * (x 0).val = 16 * n + (x 0).val
    omega

/-- Under the precondition every chunk of every row passes the range check. -/
theorem degChk1 {a : IVec S32x10240 32} (hpre : DegPre a) (w : Fin 32) (n : Nat) : k0_chk1 (chunkA (dvRow a w) n) := by
  intro ax x
  obtain rfl : ax = 0 := Subsingleton.elim _ _
  show ((chunkA (dvRow a w) n) x).toNat < 10240
  unfold chunkA
  split
  · exact hpre _
  · simp
theorem degChk2 {a : IVec S32x10240 32} (hpre : DegPre a) (w : Fin 32) (n : Nat) : k0_chk2 (chunkA (dvRow a w) n) := degChk1 hpre w n
theorem degChk3 {a : IVec S32x10240 32} (hpre : DegPre a) (w : Fin 32) (n : Nat) : k0_chk3 (chunkA (dvRow a w) n) := degChk1 hpre w n
theorem degChk4 {a : IVec S32x10240 32} (hpre : DegPre a) (w : Fin 32) (n : Nat) : k0_chk4 (chunkA (dvRow a w) n) := degChk1 hpre w n

/-- One indexed store-with-add through the histogram scratch's whole-rectangle view leaves `scatA` of what it held. -/
theorem degStore_eq (f : Vec F S10240 .f32) (v : IVec S16 32) (h : ∀ a x, ((![v] : Fin 1 → IVec S16 32) a x).toNat < S10240.size a) :
    ((degSH : Memref sig .scVector .vmem S10240 .f32).access (.whole S10240)).write (Elt F) f
        (storeIdx (((degSH : Memref sig .scVector .vmem S10240 .f32).access (.whole S10240)).read (Elt F) f) ![v] (k0_pay1 (F := F)) (fun _ => 1#1) true h) Finset.univ
      = scatA f v (k0_pay1 (F := F)) := by
  refine (Memref.write_access_whole_univ (Elt F) (cc0_scratch0 : Ref sig .scVector) _ _).trans ?_
  have hr : ((degSH : Memref sig .scVector .vmem S10240 .f32).access (.whole S10240)).read (Elt F) f = f :=
    Memref.read_access_whole (Elt F) (cc0_scratch0 : Ref sig .scVector) f
  rw [hr]
  unfold scatA
  exact (dif_pos (show k0_chk1 v from h)).symm

theorem degTrips : k0_t1_loop.trips = 160 := by decide

/-- The result's row as the task slices it: word `j` of the slice is entry `(16 c + s, j)` of the result. -/
theorem degORowK_emb (L : grid0.Coords) (j : S10240.Idx) : (degORowK L).view.emb j = ix2 (degW L) (j 0) := by
  show (degRowK L).emb (Shape.reshapeEquiv _ j) = _
  rw [Shape.reshapeEquiv_cons_one]
  funext ax; apply Fin.ext
  rw [Rect.emb_apply]
  match ax with
  | 0 =>
    show (k0_off1 L) 0 + 1 * 0 = 16 * (L 0).val + (L 1).val
    rw [k0_off1_eq]; simp
  | 1 =>
    show (k0_off1 L) 1 + 1 * (j 0).val = (j 0).val
    rw [k0_off1_eq]; simp

/-- The histogram copied out whole through the task's slice of the result leaves, on the task's row, the
    result array's value there. -/
theorem degOut_row (a : IVec S32x10240 32) (z : Vec F S10240 .f32) (L : grid0.Coords) (fo : Vec F S32x10240 .f32) :
    ∀ i ∈ (degORowK L).view.set,
      (degORowK L).view.writes (Elt F) fo [⟨Rect.whole S10240, degAcc (dvRow a (degW L)) z 640⟩] i = degOut a z i := by
  intro i hi
  obtain ⟨j, -, rfl⟩ := Finset.mem_map.mp hi
  have h1 := View.read_writes_cons_emb (degORowK L).view (Val := Elt F) fo (Rect.whole S10240) (degAcc (dvRow a (degW L)) z 640) [] j
  rw [Rect.emb_whole_apply] at h1
  have h2 := ((View.read_apply _ _).trans (cast_eq _ _)).symm.trans h1
  refine h2.trans ?_
  rw [degORowK_emb]
  exact congrArg (degAcc (dvRow a (degW L)) z 640) (eq_ix1 j)

/-- The copy out, read on the task's row of the result as the launch holds it. -/
theorem degOut_lands (a : IVec S32x10240 32) (z : Vec F S10240 .f32) (d : Dev nD) (L : grid0.Coords) (fo : Buf (Elt F) (degOLoc d)) :
    ((degORowK L).view.loc (V d (degCV L) (degJV L)) ↦[(degORowK L).view.set]{fullShare}
        (degORowK L).view.writes (Elt F) fo [⟨Rect.whole S10240, degAcc (dvRow a (degW L)) z 640⟩] : sProp 𝕄)
      ⊢ degOLoc d ↦[degRowSet (degW L)]{fullShare} degOut a z :=
  Entails.of_eq ((pointsTo_congr (degOut_row a z L fo)).trans (pts_degORowK (F := F) d L _))

end Values

/-! ## The task -/

section Body
variable [FloatOps F]

/-- What it hands back: the same shares, row `w` of the result at the histogram of row `w`'s 640 chunks. -/
abbrev degTd (a : IVec S32x10240 32) (z : Vec F S10240 .f32) (qa qz : PosShare TreeShare) (d : Dev nD) (w : Fin 32) : sProp 𝕄 :=
  iprop((degALoc d ↦[degRowSet w]{qa} a) ∗ (degZLoc d ↦{qz} z) ∗ (degOLoc d ↦[degRowSet w]{fullShare} degOut a z))

/-- The loop's invariant: before trip `t` the index scratch holds row `w` of the destination list and the histogram
    scratch the fold over the row's first `4 t` chunks. -/
def degInv (a : IVec S32x10240 32) (z : Vec F S10240 .f32) (d : Dev nD) (L : grid0.Coords) (t : Nat) (_ : Unit) : sProp 𝕄 :=
  iprop(((degSI : Memref sig .scVector .vmem S10240 .i32).view.loc (V d (degCV L) (degJV L)) ↦{fullShare} dvRow a (degW L))
    ∗ ((degSH : Memref sig .scVector .vmem S10240 .f32).view.loc (V d (degCV L) (degJV L)) ↦{fullShare} degAcc (dvRow a (degW L)) z (4 * t)))

/-- The index row's copy lands row `w` of the destination list in the index scratch. -/
theorem degFetchI (d : Dev nD) (L : grid0.Coords) (a : IVec S32x10240 32) (fi : Buf (Elt F) ((V d (degCV L) (degJV L)).loc cc0_scratch1)) :
    ((degSI : Memref sig .scVector .vmem S10240 .i32).view.loc (V d (degCV L) (degJV L)) ↦{fullShare}
        View.write (Elt F) (degSI : Memref sig .scVector .vmem S10240 .i32).view fi ((degARowK L).view.read (Elt F) a) Finset.univ : sProp 𝕄)
      = ((degSI : Memref sig .scVector .vmem S10240 .i32).view.loc (V d (degCV L) (degJV L)) ↦{fullShare} dvRow a (degW L)) := by
  rw [show View.write (Elt F) (degSI : Memref sig .scVector .vmem S10240 .i32).view fi ((degARowK L).view.read (Elt F) a) Finset.univ = dvRow a (degW L) from
    (View.write_whole_univ _ _ _).trans (degARowK_read a L)]
/-- The zero array's copy lands it in the histogram scratch: the fold over no chunk. -/
theorem degFetchZ (d : Dev nD) (L : grid0.Coords) (a : IVec S32x10240 32) (z : Vec F S10240 .f32) (fh : Buf (Elt F) ((V d (degCV L) (degJV L)).loc cc0_scratch0)) :
    ((degSH : Memref sig .scVector .vmem S10240 .f32).view.loc (V d (degCV L) (degJV L)) ↦{fullShare}
        View.write (Elt F) (degSH : Memref sig .scVector .vmem S10240 .f32).view fh ((degZV : Memref sig .scVector .hbm S10240 .f32).view.read (Elt F) z) Finset.univ : sProp 𝕄)
      = ((degSH : Memref sig .scVector .vmem S10240 .f32).view.loc (V d (degCV L) (degJV L)) ↦{fullShare} degAcc (dvRow a (degW L)) z (4 * 0)) := by
  rw [show View.write (Elt F) (degSH : Memref sig .scVector .vmem S10240 .f32).view fh ((degZV : Memref sig .scVector .hbm S10240 .f32).view.read (Elt F) z) Finset.univ
      = degAcc (dvRow a (degW L)) z (4 * 0) from View.write_whole_univ _ _ _]

/-- One indexed store-with-add of chunk `n` takes the fold over `n` chunks to the fold over `n + 1`. -/
theorem degStep (d : Dev nD) (L : grid0.Coords) (dv : IVec S10240 32) (z : Vec F S10240 .f32) (n : Nat) (v : IVec S16 32) (hv : v = chunkA dv n)
    (h : ∀ a x, ((![v] : Fin 1 → IVec S16 32) a x).toNat < S10240.size a) :
    (((degSH : Memref sig .scVector .vmem S10240 .f32).access (.whole S10240)).loc (V d (degCV L) (degJV L)) ↦[((degSH : Memref sig .scVector .vmem S10240 .f32).access (.whole S10240)).set]{fullShare}
        ((degSH : Memref sig .scVector .vmem S10240 .f32).access (.whole S10240)).write (Elt F) (degAcc dv z n)
          (storeIdx (((degSH : Memref sig .scVector .vmem S10240 .f32).access (.whole S10240)).read (Elt F) (degAcc dv z n)) ![v] (k0_pay1 (F := F)) (fun _ => 1#1) true h) Finset.univ : sProp 𝕄)
      = ((degSH : Memref sig .scVector .vmem S10240 .f32).view.loc (V d (degCV L) (degJV L)) ↦{fullShare} degAcc dv z (n + 1)) := by
  rw [degStore_eq, pts_degSH_whole]
  subst hv
  rfl

theorem deg_trip (a : IVec S32x10240 32) (z : Vec F S10240 .f32) (d : Dev nD) (L : grid0.Coords) (hpre : DegPre a) (k : Fin k0_t1_loop.trips) (u : Unit) :
    degInv a z d L k.val u ⊢ wp frame (wpE (defs₀ (F := F)) 𝒱₀ (V d (degCV L) (degJV L)) none) Set.univ
      (k0_t1_body L degAV (Memref.isWhole_whole _) degZV (Memref.isWhole_whole _) degOV (Memref.isWhole_whole _)
        degSH (Memref.isWhole_whole _) degSI (Memref.isWhole_whole _) cc0_scoped0 cc0_scoped1 cc0_scoped2 k u)
      (degInv a z d L (k.val + 1)) := by
  have hv0 := degChunk_read (F := F) (dvRow a (degW L)) (k0_off2 k) (k0_off2_inb k) (4 * k.val) ((k0_off2_eq k).trans (congrArg (fun n => ![n]) (by omega)))
  have hv1 := degChunk_read (F := F) (dvRow a (degW L)) (k0_off3 k) (k0_off3_inb k) (4 * k.val + 1) ((k0_off3_eq k).trans (congrArg (fun n => ![n]) (by omega)))
  have hv2 := degChunk_read (F := F) (dvRow a (degW L)) (k0_off4 k) (k0_off4_inb k) (4 * k.val + 2) ((k0_off4_eq k).trans (congrArg (fun n => ![n]) (by omega)))
  have hv3 := degChunk_read (F := F) (dvRow a (degW L)) (k0_off5 k) (k0_off5_inb k) (4 * k.val + 3) ((k0_off5_eq k).trans (congrArg (fun n => ![n]) (by omega)))
  have hc0 : k0_chk1 _ := hv0 ▸ degChk1 hpre (degW L) (4 * k.val)
  have hc1 : k0_chk2 _ := hv1 ▸ degChk2 hpre (degW L) (4 * k.val + 1)
  have hc2 : k0_chk3 _ := hv2 ▸ degChk3 hpre (degW L) (4 * k.val + 2)
  have hc3 : k0_chk4 _ := hv3 ▸ degChk4 hpre (degW L) (4 * k.val + 3)
  unfold degInv k0_t1_body
  simp only [Prog.lift, Prog.bind_op, Prog.bind_ret, Prog.pure_eq_ret]
  iintro ⟨Hi, Hh⟩
  -- chunk 4 * k.val
  iapply (wp_load 𝒱₀ (V d (degCV L) (degJV L)) none Set.univ (m := (degSI : Memref sig .scVector .vmem S10240 .i32)) (S := Finset.univ) (Finset.subset_univ _)) $$ Hi; iintro Hi
  rw [wp_assume_of _ _ _ _ hc0]
  ihave Hh' := (Entails.of_eq ((pts_degSH (F := F) d L _).trans (pts_degSH_whole (F := F) d L _).symm)) $$ Hh
  iapply (SparseCore.wp_vectorStoreIdx 𝒱₀ (V d (degCV L) (degJV L)) none Set.univ (base := (degSH : Memref sig .scVector .vmem S10240 .f32))) $$ Hh'; iintro Hh
  ihave Hh := (Entails.of_eq (degStep (F := F) d L (dvRow a (degW L)) z (4 * k.val) _ hv0 _)) $$ Hh
  -- chunk 4 * k.val + 1
  iapply (wp_load 𝒱₀ (V d (degCV L) (degJV L)) none Set.univ (m := (degSI : Memref sig .scVector .vmem S10240 .i32)) (S := Finset.univ) (Finset.subset_univ _)) $$ Hi; iintro Hi
  rw [wp_assume_of _ _ _ _ hc1]
  ihave Hh' := (Entails.of_eq ((pts_degSH (F := F) d L _).trans (pts_degSH_whole (F := F) d L _).symm)) $$ Hh
  iapply (SparseCore.wp_vectorStoreIdx 𝒱₀ (V d (degCV L) (degJV L)) none Set.univ (base := (degSH : Memref sig .scVector .vmem S10240 .f32))) $$ Hh'; iintro Hh
  ihave Hh := (Entails.of_eq (degStep (F := F) d L (dvRow a (degW L)) z (4 * k.val + 1) _ hv1 _)) $$ Hh
  -- chunk 4 * k.val + 2
  iapply (wp_load 𝒱₀ (V d (degCV L) (degJV L)) none Set.univ (m := (degSI : Memref sig .scVector .vmem S10240 .i32)) (S := Finset.univ) (Finset.subset_univ _)) $$ Hi; iintro Hi
  rw [wp_assume_of _ _ _ _ hc2]
  ihave Hh' := (Entails.of_eq ((pts_degSH (F := F) d L _).trans (pts_degSH_whole (F := F) d L _).symm)) $$ Hh
  iapply (SparseCore.wp_vectorStoreIdx 𝒱₀ (V d (degCV L) (degJV L)) none Set.univ (base := (degSH : Memref sig .scVector .vmem S10240 .f32))) $$ Hh'; iintro Hh
  ihave Hh := (Entails.of_eq (degStep (F := F) d L (dvRow a (degW L)) z (4 * k.val + 2) _ hv2 _)) $$ Hh
  -- chunk 4 * k.val + 3
  iapply (wp_load 𝒱₀ (V d (degCV L) (degJV L)) none Set.univ (m := (degSI : Memref sig .scVector .vmem S10240 .i32)) (S := Finset.univ) (Finset.subset_univ _)) $$ Hi; iintro Hi
  rw [wp_assume_of _ _ _ _ hc3]
  ihave Hh' := (Entails.of_eq ((pts_degSH (F := F) d L _).trans (pts_degSH_whole (F := F) d L _).symm)) $$ Hh
  iapply (SparseCore.wp_vectorStoreIdx 𝒱₀ (V d (degCV L) (degJV L)) none Set.univ (base := (degSH : Memref sig .scVector .vmem S10240 .f32))) $$ Hh'; iintro Hh
  ihave Hh := (Entails.of_eq (degStep (F := F) d L (dvRow a (degW L)) z (4 * k.val + 3) _ hv3 _)) $$ Hh
  rw [wp_ret]; imodintro
  rw [show 4 * (k.val + 1) = 4 * k.val + 3 + 1 from by omega]
  isplitl [Hi]
  · iexact Hi
  · iexact Hh

theorem deg_tile_body (a : IVec S32x10240 32) (z : Vec F S10240 .f32) (qa qz : PosShare TreeShare) (d : Dev nD) (L : grid0.Coords)
    (hF : (K (F := F)).Facts) (hpre : DegPre a) (O : CellTallies nD τ sig (HIx 3)) (W : Waits sig (HIx 3)) (hO : ∀ g, O g none = 0) :
    iprop(levAts (K (F := F)).L (K (F := F)).lev ∗ emp ∗ degGo a z qa qz d (degW L)
        ∗ scopedBufs (V d (degCV L) (degJV L)) ∗ scopedSems0 (V d (degCV L) (degJV L)) ∗ owes (V d (degCV L) (degJV L)) O W)
      ⊢ wp frame (wpE (defs₀ (F := F)) 𝒱₀ (V d (degCV L) (degJV L)) none) Set.univ
          (cc0_deg_kernel L degAV (Memref.isWhole_whole _) degZV (Memref.isWhole_whole _) degOV (Memref.isWhole_whole _)
            degSH (Memref.isWhole_whole _) degSI (Memref.isWhole_whole _) cc0_scoped0 cc0_scoped1 cc0_scoped2)
          fun _ => iprop(degTd a z qa qz d (degW L)
            ∗ scopedBufs (V d (degCV L) (degJV L)) ∗ scopedSems0 (V d (degCV L) (degJV L))
            ∗ ∃ W', ⌜∀ p ∈ W', p ∈ W ∨ p.2 = none⌝ ∗ owes (V d (degCV L) (degJV L)) O W') := by
  simp only [cc0_deg_kernel_eq_skeleton]; unfold cc0_deg_kernel_skel
  rw [(K (F := F)).scopedBufs_V hF d (degCV L) (degJV L), SparseCore.Cfg.scopedSems0_V (Val := Elt F) d (degCV L) (degJV L), degOwnSems0_V, degOwnBufs_V]
  iintro ⟨#Hlv, -, ⟨Ha, Hz, %fo, Ho⟩, ⟨⟨%fh, Hh⟩, ⟨%fi, Hi⟩, Hbufs⟩, ⟨Hsem0, Hsem1, Hsem2, Hsems⟩, HO⟩
  ihave Hmw := ((K (F := F)).mayWaits_none (thr := V d (degCV L) (degJV L)) hO) $$ Hlv
  ihave Ha' := (Entails.of_eq (pts_degARowK (F := F) d L qa _).symm) $$ Ha
  ihave Hz' := (Entails.of_eq (pts_degZ (F := F) d L qz _).symm) $$ Hz
  ihave Ho' := (Entails.of_eq (pts_degORowK (F := F) d L _).symm) $$ Ho
  ihave Hh' := (Entails.of_eq (pts_degSH (F := F) d L _).symm) $$ Hh
  ihave Hi' := (Entails.of_eq (pts_degSI (F := F) d L _).symm) $$ Hi
  sl_exec
  sl_for (degInv a z d L) $$ [Hi' Hh']
  case region =>
    intro k u
    exact deg_trip a z d L hpre k u
  · unfold degInv
    isplitl [Hi']
    · iapply (Entails.of_eq (degFetchI (F := F) d L a fi)); iexact Hi'
    · iapply (Entails.of_eq (degFetchZ (F := F) d L a z fh)); iexact Hh'
  iintro %_ HI
  unfold degInv
  rw [show Scf.trips k0_t1_loop.lb k0_t1_loop.ub k0_t1_loop.st = 160 from degTrips]
  icases HI with ⟨Hi, Hh⟩
  sl_exec
  sl_step
  isplitl [Ha' Hz' Ho']
  · isplitl [Ha']
    · iapply (Entails.of_eq (pts_degARowK (F := F) d L qa _)); iexact Ha'
    isplitl [Hz']
    · iexact Hz'
    · iapply (degOut_lands (F := F) a z d L fo); iexact Ho'
  isplitl [Hi Hh Hbufs]
  · isplitl [Hh]; · iexists _; iexact Hh
    isplitl [Hi]; · iexists _; iexact Hi
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (default : HIx 3)) (insert (SemLoc.dma cc0_scoped1.sem, (default : HIx 3)) (insert (SemLoc.dma cc0_scoped0.sem, (default : HIx 3)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Body

end Cert.KernelIdeal.Hand

end
-- ==== Proof.KI.EdgeDefs.lean ====
/-
  Names shared by the modules about the edge kernel's body on one vector subcore: the tile's place, its row of the
  result, the arrays' locations, and the staged chunk of an edge list.
-/
import proofs.«219763_g10557029614292_week1_w2_488_21_alg».proof.Proof.KI.Base
import proofs.«219763_g10557029614292_week1_w2_488_21_alg».proof.Proof.KI.Vals

noncomputable section

namespace Cert.KernelIdeal.Hand

open Cert.KernelIdeal Cert.KernelIdeal.Gen
open Idealize.ShloMosaic Idealize.ShloMosaic.ValueIdx
open Idealize.ShloMosaic.SparseCore (S V T)

namespace cc2_edge

/-- The elements of the result the tile at L writes: row (L 1, L 0). -/
def edgeRow (L : grid2.Coords) : Finset S16x2x1x40064.Idx := Finset.univ.filter fun j => (j 0).val = (L 1).val ∧ (j 1).val = (L 0).val

abbrev cV (L : grid2.Coords) : Fin τ.nSC := (L 0).castLE hcore2
abbrev jV (L : grid2.Coords) : Fin τ.nSub := (L 1).castLE hsub2

/-- The tile's row of the result, as the body slices it. -/
abbrev oRowK (L : grid2.Coords) : Memref sig .scVector .hbm S40064 .f32 :=
  ((Memref.whole main_v24_scv : Memref sig .scVector .hbm S16x2x1x40064 .f32).slice (Rect.unit (s := S16x2x1x40064) (k2_off14 L) S1x1x1x40064.size (k2_off14_inb L)) (fun _ => rfl)).squeeze S40064 squeezes_S1x1x1x40064_S40064

abbrev gLoc (d : Dev nD) : Loc nD τ sig := (SparseCore.T d).loc main_v23
abbrev sLoc (d : Dev nD) : Loc nD τ sig := (SparseCore.T d).loc main_v6
abbrev dLoc (d : Dev nD) : Loc nD τ sig := (SparseCore.T d).loc main_v9
abbrev zLoc (d : Dev nD) : Loc nD τ sig := (SparseCore.T d).loc main_v13
abbrev oLoc (d : Dev nD) : Loc nD τ sig := (SparseCore.T d).loc main_v24

/-- The 8192 words of chunk C of half eh of a padded edge list (zero past its end: never read there). -/
def chunkBuf (a : IVec S2x1x163840 32) (eh : Fin 2) (C : Nat) : IVec S8192 32 :=
  fun x => if h : 8192 * C + (x 0).val < 163840 then a (ix3 eh 0 ⟨8192 * C + (x 0).val, h⟩) else 0#32

theorem chunkBuf_le {a : IVec S2x1x163840 32} (ha : EdgePre a) (eh : Fin 2) (C : Nat) (j : S8192.Idx) : (chunkBuf a eh C j).toNat ≤ 10000 := by
  unfold chunkBuf
  split
  · exact ha _
  · simp

end cc2_edge

end Cert.KernelIdeal.Hand

end
-- ==== Proof.KI.EdgeAux.lean ====
/-
  What the edge kernel's copies read and write on one vector subcore, and the subcore's own semaphores and scratch.

  A copy of chunk C of half eh of a padded edge list reads the 8192 words chunkBuf of it; sixteen consecutive words of
  that staged chunk, from word 16 m, are the list's sixteen-word chunk 512 C + m. The copy of the tile's row of the
  packed feature table reads tabRow. The tile at grid point L writes row (L 1, L 0) of the result: the elements
  edgeRow L, and a whole write through the tile's slice leaves word n of what was written at element (L 1, L 0, 0, n).
  The tile's seven DMA semaphores and six scratch arrays are among the subcore's own, each beside the rest.
-/
import proofs.«219763_g10557029614292_week1_w2_488_21_alg».proof.Proof.KI.EdgeDefs

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc2_edge

variable {F : FTy → Type}

local notation "𝕄" => MT nD τ sig (HIx 3) (Elt F) ℕ UU ℕ

variable [FloatOps F]

local notation "gW" => (Memref.whole Cert.KernelIdeal.main_v23_scv : Memref Cert.KernelIdeal.sig Kind.scVector Space.hbm Cert.KernelIdeal.S16x1x40064 EltTy.f32)
local notation "sW" => (Memref.whole Cert.KernelIdeal.main_v6_scv : Memref Cert.KernelIdeal.sig Kind.scVector Space.hbm Cert.KernelIdeal.S2x1x163840 EltTy.i32)
local notation "dW" => (Memref.whole Cert.KernelIdeal.main_v9_scv : Memref Cert.KernelIdeal.sig Kind.scVector Space.hbm Cert.KernelIdeal.S2x1x163840 EltTy.i32)

section Aux
variable (d : Dev nD) (L : grid2.Coords)
local notation "thr" => (V d (cV L) (jV L))

/-- One word of a three-axis array read through a row cut from it and squeezed to one axis: the word at the row's
    offsets, the one free coordinate added on the last axis. -/
theorem reshape3_one {n : Nat} (j : (⟨1, ![n]⟩ : Shape).Idx) (h : (⟨1, ![n]⟩ : Shape).numel = (⟨3, ![1, 1, n]⟩ : Shape).numel) :
    Shape.reshapeEquiv h j = ix3 (0 : Fin 1) (0 : Fin 1) (⟨(j 0).val, (j 0).isLt⟩ : Fin n) :=
  Shape.reshapeEquiv_eq_of_rowMajor h (by
    rw [Shape.rowMajor_val_three, Shape.rowMajor_val_one]
    show ((0 : ℕ) * 1 + 0) * n + (j 0).val = (j 0).val
    omega)
/-- The same through a row cut from a four-axis array. -/
theorem reshape4_one {n : Nat} (j : (⟨1, ![n]⟩ : Shape).Idx) (h : (⟨1, ![n]⟩ : Shape).numel = (⟨4, ![1, 1, 1, n]⟩ : Shape).numel) :
    Shape.reshapeEquiv h j = ix4 (0 : Fin 1) (0 : Fin 1) (0 : Fin 1) (⟨(j 0).val, (j 0).isLt⟩ : Fin n) :=
  Shape.reshapeEquiv_eq_of_rowMajor h (by
    rw [Shape.rowMajor_val_four, Shape.rowMajor_val_one]
    show (((0 : ℕ) * 1 + 0) * 1 + 0) * n + (j 0).val = (j 0).val
    omega)

/-- What a copy of chunk C of half eh of the source list reads. -/
theorem read_chunk_v6 (a : IVec S2x1x163840 32) (off : Fin 3 → Nat) (inb : ∀ i, off i + S1x1x8192.size i ≤ S2x1x163840.size i)
    (eh : Fin 2) (C : Nat) (hoff : off = ![eh.val, 0, 8192 * C]) :
    (((sW).slice (Rect.unit (s := S2x1x163840) off S1x1x8192.size inb) (fun _ => rfl)).squeeze S8192 squeezes_S1x1x8192_S8192).view.read (Elt F) a
      = chunkBuf a eh C := by
  subst hoff
  funext j
  refine ((View.read_apply _ _).trans (cast_eq _ _)).trans ?_
  have hx : 8192 * C + (j 0).val < 163840 := by
    have h2 := inb 2
    have hj : (j 0).val < 8192 := (j 0).isLt
    simp at h2
    omega
  unfold chunkBuf
  rw [dif_pos hx]
  refine congrArg a ?_
  show (Rect.unit (s := S2x1x163840) ![eh.val, 0, 8192 * C] S1x1x8192.size inb).emb (Shape.reshapeEquiv _ j) = _
  rw [reshape3_one]
  funext ax; apply Fin.ext
  match ax with
  | 0 => show eh.val + 1 * 0 = eh.val; omega
  | 1 => show 0 + 1 * 0 = 0; rfl
  | 2 => show 8192 * C + 1 * (j 0).val = 8192 * C + (j 0).val; omega

/-- What a copy of chunk C of half eh of the destination list reads. -/
theorem read_chunk_v9 (a : IVec S2x1x163840 32) (off : Fin 3 → Nat) (inb : ∀ i, off i + S1x1x8192.size i ≤ S2x1x163840.size i)
    (eh : Fin 2) (C : Nat) (hoff : off = ![eh.val, 0, 8192 * C]) :
    (((dW).slice (Rect.unit (s := S2x1x163840) off S1x1x8192.size inb) (fun _ => rfl)).squeeze S8192 squeezes_S1x1x8192_S8192).view.read (Elt F) a
      = chunkBuf a eh C := by
  subst hoff
  funext j
  refine ((View.read_apply _ _).trans (cast_eq _ _)).trans ?_
  have hx : 8192 * C + (j 0).val < 163840 := by
    have h2 := inb 2
    have hj : (j 0).val < 8192 := (j 0).isLt
    simp at h2
    omega
  unfold chunkBuf
  rw [dif_pos hx]
  refine congrArg a ?_
  show (Rect.unit (s := S2x1x163840) ![eh.val, 0, 8192 * C] S1x1x8192.size inb).emb (Shape.reshapeEquiv _ j) = _
  rw [reshape3_one]
  funext ax; apply Fin.ext
  match ax with
  | 0 => show eh.val + 1 * 0 = eh.val; omega
  | 1 => show 0 + 1 * 0 = 0; rfl
  | 2 => show 8192 * C + 1 * (j 0).val = 8192 * C + (j 0).val; omega

/-- What the copy of the tile's table row reads. -/
theorem read_tab_row (g : Vec F S16x1x40064 .f32) (off : Fin 3 → Nat) (inb : ∀ i, off i + S1x1x40064.size i ≤ S16x1x40064.size i)
    (cg : Fin 16) (hoff : off = ![cg.val, 0, 0]) :
    (((gW).slice (Rect.unit (s := S16x1x40064) off S1x1x40064.size inb) (fun _ => rfl)).squeeze S40064 squeezes_S1x1x40064_S40064).view.read (Elt F) g
      = tabRow g cg := by
  subst hoff
  funext j
  refine ((View.read_apply _ _).trans (cast_eq _ _)).trans ?_
  unfold tabRow
  refine congrArg g ?_
  show (Rect.unit (s := S16x1x40064) ![cg.val, 0, 0] S1x1x40064.size inb).emb (Shape.reshapeEquiv _ j) = _
  rw [reshape3_one]
  funext ax; apply Fin.ext
  match ax with
  | 0 => show cg.val + 1 * 0 = cg.val; omega
  | 1 => show 0 + 1 * 0 = 0; rfl
  | 2 => show 0 + 1 * (j 0).val = (j 0).val; omega

omit [FloatOps F] in
/-- Where word j of the tile's row of the result lies in the result. -/
theorem oRowK_emb (j : S40064.Idx) :
    (oRowK L).view.emb j = ix4 ⟨(L 1).val, (L 1).isLt⟩ ⟨(L 0).val, (L 0).isLt⟩ (0 : Fin 1) (j 0) := by
  show (Rect.unit (s := S16x2x1x40064) (k2_off14 L) S1x1x1x40064.size (k2_off14_inb L)).emb (Shape.reshapeEquiv _ j) = _
  rw [reshape4_one]
  funext ax; apply Fin.ext
  match ax with
  | 0 => show (k2_off14 L) 0 + 1 * 0 = (L 1).val; rw [k2_off14_eq]; simp
  | 1 => show (k2_off14 L) 1 + 1 * 0 = (L 0).val; rw [k2_off14_eq]; simp
  | 2 => show (k2_off14 L) 2 + 1 * 0 = 0; rw [k2_off14_eq]; simp
  | 3 => show (k2_off14 L) 3 + 1 * (j 0).val = (j 0).val; rw [k2_off14_eq]; simp

omit [FloatOps F] in
/-- The tile's row of the result, as a set of elements: the entries of feature group L 1 and edge half L 0. -/
theorem oRowK_set : (oRowK L).view.set = edgeRow L := by
  ext i
  unfold edgeRow
  rw [Finset.mem_filter]
  constructor
  · intro hi
    obtain ⟨j, -, rfl⟩ := Finset.mem_map.mp hi
    rw [oRowK_emb]
    exact ⟨Finset.mem_univ _, rfl, rfl⟩
  · rintro ⟨-, h0, h1⟩
    refine Finset.mem_map.mpr ⟨ix1 (i 3), Finset.mem_univ _, ?_⟩
    rw [oRowK_emb]
    funext ax; apply Fin.ext
    match ax with
    | 0 => exact h0.symm
    | 1 => exact h1.symm
    | 2 =>
      have h2 : (i 2).val < 1 := (i 2).isLt
      show (0 : ℕ) = (i 2).val
      omega
    | 3 => rfl

/-- A whole write through the tile's row of the result leaves, at element i of the row, word i 3 of what is written. -/
theorem oRowK_write (o : Vec F S16x2x1x40064 .f32) (w : Vec F S40064 .f32) (i : S16x2x1x40064.Idx) (hi : i ∈ edgeRow L) :
    (oRowK L).view.write (Elt F) o w Finset.univ i = w (ix1 (i 3)) := by
  have hi' : i ∈ (oRowK L).view.set := by rw [oRowK_set]; exact hi
  obtain ⟨j, -, rfl⟩ := Finset.mem_map.mp hi'
  refine ((View.write_emb_of_mem _ _ (Finset.mem_univ j)).trans (cast_eq _ _)).trans ?_
  refine congrArg w ?_
  rw [oRowK_emb]
  exact eq_ix1 j

omit [FloatOps F] in
/-- Sixteen consecutive words of a staged chunk are a sixteen-word chunk of the list. -/
theorem chunk_idx (a : IVec S2x1x163840 32) (eh : Fin 2) (C : Nat) (off : Fin 1 → Nat) (inb : ∀ i, off i + S16.size i ≤ S8192.size i)
    (m : Nat) (hoff : off = ![16 * m]) :
    (fun x : S16.Idx => chunkBuf a eh C ((Rect.unit (s := S8192) off S16.size inb).toLoadRect.idx x)) = edgeChunk a eh (512 * C + m) := by
  subst hoff
  funext x
  have hy : ((Rect.unit (s := S8192) ![16 * m] S16.size inb).toLoadRect.idx x 0).val = 16 * m + (x 0).val := by
    show 16 * m + 1 * (x 0).val = _
    omega
  unfold chunkBuf edgeChunk
  by_cases h : 16 * (512 * C + m) + (x 0).val < 163840
  · rw [dif_pos h, dif_pos (by rw [hy]; omega)]
    refine congrArg a ?_
    funext ax
    match ax with
    | 0 => rfl
    | 1 => rfl
    | 2 => exact Fin.ext (by
        show 8192 * C + ((Rect.unit (s := S8192) ![16 * m] S16.size inb).toLoadRect.idx x 0).val = 16 * (512 * C + m) + (x 0).val
        rw [hy]; omega)
  · rw [dif_neg h, dif_neg (by rw [hy]; omega)]

omit [FloatOps F] in
/-- A cell of the tile named by another semaphore stays when that one is taken out. -/
theorem mem_erase_cell {s : Finset (GSem nD τ sig)} {t : Thread nD τ} {a b : SemLoc sig} (hne : a ≠ b) (h : (t, a) ∈ s) :
    (t, a) ∈ s.erase (t, b) :=
  Finset.mem_erase.mpr ⟨fun e => hne (Prod.mk.inj e).2, h⟩

omit [FloatOps F] in
/-- A scoped DMA semaphore of a vector subcore is one of its own cells. -/
theorem mem_ownCells_dma (x : DmaSem sig) (hx : (SemLoc.dma x : SemLoc sig).isScoped .scVector = true) :
    ((thr, SemLoc.dma x) : GSem nD τ sig) ∈ ownCells thr :=
  (mem_ownCells (g := ((thr, SemLoc.dma x) : GSem nD τ sig))).mpr ⟨rfl, hx⟩

omit [FloatOps F] in
/-- The tile's seven semaphores among its own, each at zero, and the rest. -/
theorem ownSems0_V :
    ∃ R : sProp 𝕄, (ownSems0 thr : sProp 𝕄)
      = iprop(semVal (thr, SemLoc.dma cc2_scratch6.sem) 0 ∗ semVal (thr, SemLoc.dma cc2_scratch7.sem) 0 ∗ semVal (thr, SemLoc.dma cc2_scratch8.sem) 0
          ∗ semVal (thr, SemLoc.dma cc2_scratch9.sem) 0 ∗ semVal (thr, SemLoc.dma cc2_scoped0.sem) 0 ∗ semVal (thr, SemLoc.dma cc2_scoped1.sem) 0
          ∗ semVal (thr, SemLoc.dma cc2_scoped2.sem) 0 ∗ R) := by
  have m6 := mem_ownCells_dma d L cc2_scratch6.sem (by decide)
  have m7 := mem_ownCells_dma d L cc2_scratch7.sem (by decide)
  have m8 := mem_ownCells_dma d L cc2_scratch8.sem (by decide)
  have m9 := mem_ownCells_dma d L cc2_scratch9.sem (by decide)
  have n0 := mem_ownCells_dma d L cc2_scoped0.sem (by decide)
  have n1 := mem_ownCells_dma d L cc2_scoped1.sem (by decide)
  have n2 := mem_ownCells_dma d L cc2_scoped2.sem (by decide)
  refine ⟨bigSep ((((((((ownCells thr).erase (thr, SemLoc.dma cc2_scratch6.sem)).erase (thr, SemLoc.dma cc2_scratch7.sem)).erase (thr, SemLoc.dma cc2_scratch8.sem)).erase (thr, SemLoc.dma cc2_scratch9.sem)).erase (thr, SemLoc.dma cc2_scoped0.sem)).erase (thr, SemLoc.dma cc2_scoped1.sem)).erase (thr, SemLoc.dma cc2_scoped2.sem))
      fun g => semVal g 0, ?_⟩
  unfold SparseCore.Cfg.ownSems0
  rw [SparseCore.bigSep_erase' m6,
    SparseCore.bigSep_erase' (mem_erase_cell (by decide) m7),
    SparseCore.bigSep_erase' (mem_erase_cell (by decide) (mem_erase_cell (by decide) m8)),
    SparseCore.bigSep_erase' (mem_erase_cell (by decide) (mem_erase_cell (by decide) (mem_erase_cell (by decide) m9))),
    SparseCore.bigSep_erase' (mem_erase_cell (by decide) (mem_erase_cell (by decide) (mem_erase_cell (by decide) (mem_erase_cell (by decide) n0)))),
    SparseCore.bigSep_erase' (mem_erase_cell (by decide) (mem_erase_cell (by decide) (mem_erase_cell (by decide) (mem_erase_cell (by decide) (mem_erase_cell (by decide) n1))))),
    SparseCore.bigSep_erase' (mem_erase_cell (by decide) (mem_erase_cell (by decide) (mem_erase_cell (by decide) (mem_erase_cell (by decide) (mem_erase_cell (by decide) (mem_erase_cell (by decide) n2))))))]

omit [FloatOps F] in
/-- A scratch array of the tile other than one taken out stays among its own buffers. -/
theorem mem_erase_ref {s : Finset (DevRef τ sig)} {a b : Ref sig .scVector} (hne : a ≠ b)
    (h : (Proc.scVector (cV L) (jV L)).devRef a ∈ s) :
    (Proc.scVector (cV L) (jV L)).devRef a ∈ s.erase ((Proc.scVector (cV L) (jV L)).devRef b) :=
  Finset.mem_erase.mpr ⟨fun e => hne (Proc.devRef_injective _ e), h⟩

omit [FloatOps F] in
/-- The tile's six scratch arrays among its own buffers, each at some contents, and the rest. -/
theorem ownBufs_V :
    ∃ R : sProp 𝕄, (ownBufs thr : sProp 𝕄)
      = iprop((∃ f, (thr).loc cc2_scratch0 ↦{fullShare} f) ∗ (∃ f, (thr).loc cc2_scratch1 ↦{fullShare} f) ∗ (∃ f, (thr).loc cc2_scratch2 ↦{fullShare} f)
          ∗ (∃ f, (thr).loc cc2_scratch3 ↦{fullShare} f) ∗ (∃ f, (thr).loc cc2_scratch4 ↦{fullShare} f) ∗ (∃ f, (thr).loc cc2_scratch5 ↦{fullShare} f)
          ∗ R) := by
  have r0 := SparseCore.Cfg.mem_ownRefs_of_owner (τ := τ) (sig := sig) (p := Proc.scVector (cV L) (jV L)) (b := (Proc.scVector (cV L) (jV L)).devRef cc2_scratch0) rfl
  have r1 := SparseCore.Cfg.mem_ownRefs_of_owner (τ := τ) (sig := sig) (p := Proc.scVector (cV L) (jV L)) (b := (Proc.scVector (cV L) (jV L)).devRef cc2_scratch1) rfl
  have r2 := SparseCore.Cfg.mem_ownRefs_of_owner (τ := τ) (sig := sig) (p := Proc.scVector (cV L) (jV L)) (b := (Proc.scVector (cV L) (jV L)).devRef cc2_scratch2) rfl
  have r3 := SparseCore.Cfg.mem_ownRefs_of_owner (τ := τ) (sig := sig) (p := Proc.scVector (cV L) (jV L)) (b := (Proc.scVector (cV L) (jV L)).devRef cc2_scratch3) rfl
  have r4 := SparseCore.Cfg.mem_ownRefs_of_owner (τ := τ) (sig := sig) (p := Proc.scVector (cV L) (jV L)) (b := (Proc.scVector (cV L) (jV L)).devRef cc2_scratch4) rfl
  have r5 := SparseCore.Cfg.mem_ownRefs_of_owner (τ := τ) (sig := sig) (p := Proc.scVector (cV L) (jV L)) (b := (Proc.scVector (cV L) (jV L)).devRef cc2_scratch5) rfl
  refine ⟨bigSep (((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5))
      fun b => iprop(∃ f, ((d, b) : Loc nD τ sig) ↦{fullShare} f), ?_⟩
  unfold SparseCore.Cfg.ownBufs
  refine (SparseCore.bigSep_erase' r0).trans ?_
  rw [SparseCore.bigSep_erase' (mem_erase_ref L (by decide) r1),
    SparseCore.bigSep_erase' (mem_erase_ref L (by decide) (mem_erase_ref L (by decide) r2)),
    SparseCore.bigSep_erase' (mem_erase_ref L (by decide) (mem_erase_ref L (by decide) (mem_erase_ref L (by decide) r3))),
    SparseCore.bigSep_erase' (mem_erase_ref L (by decide) (mem_erase_ref L (by decide) (mem_erase_ref L (by decide) (mem_erase_ref L (by decide) r4)))),
    SparseCore.bigSep_erase' (mem_erase_ref L (by decide) (mem_erase_ref L (by decide) (mem_erase_ref L (by decide) (mem_erase_ref L (by decide) (mem_erase_ref L (by decide) r5)))))]

end Aux

end cc2_edge

end Cert.KernelIdeal.Hand

end
-- ==== Proof.KI.EdgeSteps.lean ====
/-
  The edge kernel's fold, step by step: the pure bookkeeping between the fold over all 40960 steps and the groups of
  steps the tile's loops take.

  One step p = 4 n + k gathers the table at chunk n of the sources moved to feature row k and adds the gathered lanes
  into the accumulator at chunk n of the destinations moved to the same row. Four steps make one chunk, four chunks
  (sixteen steps) one trip of the inner loop. The table is never written, so the sixteen gathers of a trip may all
  come before its sixteen adds, which is the order the tile takes them in. Every index vector the tile forms is a
  chunk moved to a row; on lists whose words are at most 10000 its lanes are below 40064, so each gather and each
  add is the indexed load and the indexed store-with-add themselves.
-/
import proofs.«219763_g10557029614292_week1_w2_488_21_alg».proof.Proof.KI.Vals
import proofs.«219763_g10557029614292_week1_w2_488_21_alg».proof.Proof.KI.EdgeDefs
import Idealize.ShloMosaic.Lib.WholeRead

noncomputable section

namespace Cert.KernelIdeal.Hand

open Cert.KernelIdeal Cert.KernelIdeal.Gen
open Idealize.ShloMosaic Idealize.ShloMosaic.ValueIdx

namespace cc2_edge

variable {F : FTy → Type} [FloatOps F]

/-! ## Steps, chunks, trips -/

section Fold

variable (tab : Vec F S40064 .f32) (s t : IVec S2x1x163840 32) (eh : Fin 2)

/-- One step: chunk n at feature row k. -/
def stepB (acc : Vec F S40064 .f32) (n k : ℕ) : Vec F S40064 .f32 :=
  scatB acc (addK (edgeChunk t eh n) k) (gathB tab (addK (edgeChunk s eh n) k))

/-- The four steps of chunk n, rows 0 to 3 in order. -/
def chunkB (acc : Vec F S40064 .f32) (n : ℕ) : Vec F S40064 .f32 :=
  stepB tab s t eh (stepB tab s t eh (stepB tab s t eh (stepB tab s t eh acc n 0) n 1) n 2) n 3

/-- The sixteen steps of chunks m … m + 3. -/
def tripB (acc : Vec F S40064 .f32) (m : ℕ) : Vec F S40064 .f32 :=
  chunkB tab s t eh (chunkB tab s t eh (chunkB tab s t eh (chunkB tab s t eh acc m) (m + 1)) (m + 2)) (m + 3)

variable (z : Vec F S40064 .f32)

theorem edgeAcc_zero : edgeAcc tab s t eh z 0 = z := rfl

/-- The fold's next step. -/
theorem edgeAcc_succ (p : ℕ) :
    edgeAcc tab s t eh z (p + 1) = stepB tab s t eh (edgeAcc tab s t eh z p) (p / 4) (p % 4) := rfl

theorem edgeAcc_add4 (p : ℕ) :
    edgeAcc tab s t eh z (p + 4)
      = stepB tab s t eh (stepB tab s t eh (stepB tab s t eh (stepB tab s t eh (edgeAcc tab s t eh z p) (p / 4) (p % 4))
          ((p + 1) / 4) ((p + 1) % 4)) ((p + 2) / 4) ((p + 2) % 4)) ((p + 3) / 4) ((p + 3) % 4) := rfl

/-- The four steps of one chunk. -/
theorem edgeAcc_chunk (n : ℕ) : edgeAcc tab s t eh z (4 * n + 4) = chunkB tab s t eh (edgeAcc tab s t eh z (4 * n)) n := by
  rw [edgeAcc_add4]
  have h0 : 4 * n / 4 = n := by omega
  have h0' : 4 * n % 4 = 0 := by omega
  have h1 : (4 * n + 1) / 4 = n := by omega
  have h1' : (4 * n + 1) % 4 = 1 := by omega
  have h2 : (4 * n + 2) / 4 = n := by omega
  have h2' : (4 * n + 2) % 4 = 2 := by omega
  have h3 : (4 * n + 3) / 4 = n := by omega
  have h3' : (4 * n + 3) % 4 = 3 := by omega
  rw [h0, h0', h1, h1', h2, h2', h3, h3']
  rfl

/-- The same with every gather and add written out. -/
theorem edgeAcc_step4 (n : ℕ) :
    edgeAcc tab s t eh z (4 * n + 4)
      = scatB (scatB (scatB (scatB (edgeAcc tab s t eh z (4 * n))
            (addK (edgeChunk t eh n) 0) (gathB tab (addK (edgeChunk s eh n) 0)))
            (addK (edgeChunk t eh n) 1) (gathB tab (addK (edgeChunk s eh n) 1)))
            (addK (edgeChunk t eh n) 2) (gathB tab (addK (edgeChunk s eh n) 2)))
            (addK (edgeChunk t eh n) 3) (gathB tab (addK (edgeChunk s eh n) 3)) :=
  edgeAcc_chunk tab s t eh z n

/-- The sixteen steps of one trip: chunks m … m + 3. -/
theorem edgeAcc_trip (m : ℕ) : edgeAcc tab s t eh z (4 * m + 16) = tripB tab s t eh (edgeAcc tab s t eh z (4 * m)) m := by
  unfold tripB
  rw [show 4 * m + 16 = 4 * (m + 3) + 4 by ring, edgeAcc_chunk, show 4 * (m + 3) = 4 * (m + 2) + 4 by ring, edgeAcc_chunk,
    show 4 * (m + 2) = 4 * (m + 1) + 4 by ring, edgeAcc_chunk, show 4 * (m + 1) = 4 * m + 4 by ring, edgeAcc_chunk]

/-- Trip i of staging buffer c: chunks 512 c + 4 i … 512 c + 4 i + 3. -/
theorem edgeAcc_trip_at (c i : ℕ) :
    edgeAcc tab s t eh z (4 * (512 * c + 4 * i) + 16)
      = tripB tab s t eh (edgeAcc tab s t eh z (4 * (512 * c + 4 * i))) (512 * c + 4 * i) :=
  edgeAcc_trip tab s t eh z (512 * c + 4 * i)

/-- After trip i of buffer c the fold stands at the start of trip i + 1. -/
theorem trip_next (c i : ℕ) : 4 * (512 * c + 4 * i) + 16 = 4 * (512 * c + 4 * (i + 1)) := by ring

/-- After the 128 trips of buffer c the fold stands at the start of buffer c + 1. -/
theorem buffer_next (c : ℕ) : 4 * (512 * c + 4 * 128) = 4 * (512 * (c + 1) + 4 * 0) := by ring

/-- The twenty buffers are the whole fold. -/
theorem buffers_all : 4 * (512 * 20 + 4 * 0) = 40960 := by norm_num

end Fold

/-! ## The printed index vectors are chunks moved to a row -/

theorem k2_pay1_eq (v : IVec S16 32) : k2_pay1 (F := F) v = addK v 1 := rfl
theorem k2_pay2_eq (v : IVec S16 32) : k2_pay2 (F := F) v = addK v 1 := rfl
theorem k2_pay3_eq (v : IVec S16 32) : k2_pay3 (F := F) v = addK v 2 := rfl
theorem k2_pay4_eq (v : IVec S16 32) : k2_pay4 (F := F) v = addK v 2 := rfl
theorem k2_pay5_eq (v : IVec S16 32) : k2_pay5 (F := F) v = addK v 3 := rfl
theorem k2_pay6_eq (v : IVec S16 32) : k2_pay6 (F := F) v = addK v 3 := rfl
theorem k2_pay7_eq (v : IVec S16 32) : k2_pay7 (F := F) v = addK v 1 := rfl
theorem k2_pay8_eq : k2_pay8 = (broadcast S16 10016#32 : IVec S16 32) := rfl
theorem addi_k2_pay8 (v : IVec S16 32) : addi v k2_pay8 = addK v 1 := rfl
theorem k2_pay9_eq (v : IVec S16 32) : k2_pay9 (F := F) v = addK v 2 := rfl
theorem k2_pay10_eq (v : IVec S16 32) : k2_pay10 (F := F) v = addK v 2 := rfl
theorem k2_pay11_eq (v : IVec S16 32) : k2_pay11 (F := F) v = addK v 3 := rfl
theorem k2_pay12_eq (v : IVec S16 32) : k2_pay12 (F := F) v = addK v 3 := rfl
theorem k2_pay13_eq (v : IVec S16 32) : k2_pay13 (F := F) v = addK v 1 := rfl
theorem k2_pay14_eq (v : IVec S16 32) : k2_pay14 (F := F) v = addK v 1 := rfl
theorem k2_pay15_eq (v : IVec S16 32) : k2_pay15 (F := F) v = addK v 2 := rfl
theorem k2_pay16_eq (v : IVec S16 32) : k2_pay16 (F := F) v = addK v 2 := rfl
theorem k2_pay17_eq (v : IVec S16 32) : k2_pay17 (F := F) v = addK v 3 := rfl
theorem k2_pay18_eq (v : IVec S16 32) : k2_pay18 (F := F) v = addK v 3 := rfl
theorem k2_pay19_eq (v : IVec S16 32) : k2_pay19 (F := F) v = addK v 1 := rfl
theorem k2_pay20_eq (v : IVec S16 32) : k2_pay20 (F := F) v = addK v 1 := rfl
theorem k2_pay21_eq (v : IVec S16 32) : k2_pay21 (F := F) v = addK v 2 := rfl
theorem k2_pay22_eq (v : IVec S16 32) : k2_pay22 (F := F) v = addK v 2 := rfl
theorem k2_pay23_eq (v : IVec S16 32) : k2_pay23 (F := F) v = addK v 3 := rfl
theorem k2_pay24_eq (v : IVec S16 32) : k2_pay24 (F := F) v = addK v 3 := rfl
theorem k2_pay25_eq (v : IVec S16 32) : k2_pay25 (F := F) v = addK v 1 := rfl
theorem k2_pay26_eq : k2_pay26 = (broadcast S16 10016#32 : IVec S16 32) := rfl
theorem addi_k2_pay26 (v : IVec S16 32) : addi v k2_pay26 = addK v 1 := rfl
theorem k2_pay27_eq (v : IVec S16 32) : k2_pay27 (F := F) v = addK v 2 := rfl
theorem k2_pay28_eq (v : IVec S16 32) : k2_pay28 (F := F) v = addK v 2 := rfl
theorem k2_pay29_eq (v : IVec S16 32) : k2_pay29 (F := F) v = addK v 3 := rfl
theorem k2_pay30_eq (v : IVec S16 32) : k2_pay30 (F := F) v = addK v 3 := rfl
theorem k2_pay31_eq (v : IVec S16 32) : k2_pay31 (F := F) v = addK v 1 := rfl
theorem k2_pay32_eq (v : IVec S16 32) : k2_pay32 (F := F) v = addK v 1 := rfl
theorem k2_pay33_eq (v : IVec S16 32) : k2_pay33 (F := F) v = addK v 2 := rfl
theorem k2_pay34_eq (v : IVec S16 32) : k2_pay34 (F := F) v = addK v 2 := rfl
theorem k2_pay35_eq (v : IVec S16 32) : k2_pay35 (F := F) v = addK v 3 := rfl
theorem k2_pay36_eq (v : IVec S16 32) : k2_pay36 (F := F) v = addK v 3 := rfl
theorem k2_pay37_eq (v : IVec S16 32) : k2_pay37 (F := F) v = addK v 1 := rfl
theorem k2_pay38_eq (v : IVec S16 32) : k2_pay38 (F := F) v = addK v 1 := rfl
theorem k2_pay39_eq (v : IVec S16 32) : k2_pay39 (F := F) v = addK v 2 := rfl
theorem k2_pay40_eq (v : IVec S16 32) : k2_pay40 (F := F) v = addK v 2 := rfl
theorem k2_pay41_eq (v : IVec S16 32) : k2_pay41 (F := F) v = addK v 3 := rfl
theorem k2_pay42_eq (v : IVec S16 32) : k2_pay42 (F := F) v = addK v 3 := rfl
theorem k2_pay43_eq (v : IVec S16 32) : k2_pay43 (F := F) v = addK v 1 := rfl
theorem k2_pay44_eq (v : IVec S16 32) : k2_pay44 (F := F) v = addK v 1 := rfl
theorem k2_pay45_eq (v : IVec S16 32) : k2_pay45 (F := F) v = addK v 2 := rfl
theorem k2_pay46_eq (v : IVec S16 32) : k2_pay46 (F := F) v = addK v 2 := rfl
theorem k2_pay47_eq (v : IVec S16 32) : k2_pay47 (F := F) v = addK v 3 := rfl
theorem k2_pay48_eq (v : IVec S16 32) : k2_pay48 (F := F) v = addK v 3 := rfl

theorem addK_zero (v : IVec S16 32) : addK v 0 = v := rfl

/-! ## The range checks -/

/-- A chunk of a list whose words are at most 10000 has lanes at most 10000 (the lanes past the list's end are 0). -/
theorem edgeChunk_le (a : IVec S2x1x163840 32) (ha : EdgePre a) (eh : Fin 2) (n : ℕ) (x : S16.Idx) :
    (edgeChunk a eh n x).toNat ≤ 10000 := by
  unfold edgeChunk
  split_ifs with h
  · exact ha _
  · show (0#32 : BitVec 32).toNat ≤ 10000
    decide

/-- Moving a lane of at most 10000 to row r adds r · 10016: the 32-bit sum does not wrap. -/
theorem addK_val (v : IVec S16 32) (r : ℕ) (hr : r < 4) (x : S16.Idx) (hv : (v x).toNat ≤ 10000) :
    (addK v r x).toNat = (v x).toNat + r * 10016 := by
  have hlt : (v x).toNat + 3 * 10016 < 2 ^ 32 := by omega
  interval_cases r
  · show (v x).toNat = _
    omega
  · show (v x + 10016#32).toNat = _
    rw [BitVec.toNat_add, BitVec.toNat_ofNat]; omega
  · show (v x + 20032#32).toNat = _
    rw [BitVec.toNat_add, BitVec.toNat_ofNat]; omega
  · show (v x + 30048#32).toNat = _
    rw [BitVec.toNat_add, BitVec.toNat_ofNat]; omega

/-- Every lane of a chunk moved to a row is below 40064: the side condition of every indexed load and store of the
    edge kernel, in the form each of its printed checks unfolds to. -/
theorem addK_chunk_inb (a : IVec S2x1x163840 32) (ha : EdgePre a) (eh : Fin 2) (n r : ℕ) (hr : r < 4) :
    ∀ (b : Fin 1) (x : S16.Idx), ((![addK (edgeChunk a eh n) r] : Fin 1 → IVec S16 32) b x).toNat < S40064.size b := by
  intro b x
  obtain rfl : b = 0 := Subsingleton.elim _ _
  show (addK (edgeChunk a eh n) r x).toNat < 40064
  rw [addK_val _ r hr x (edgeChunk_le a ha eh n x)]
  have := edgeChunk_le a ha eh n x
  omega

theorem addK_chunk_chk (a : IVec S2x1x163840 32) (ha : EdgePre a) (eh : Fin 2) (n r : ℕ) (hr : r < 4) :
    k2_chk1 (addK (edgeChunk a eh n) r) := addK_chunk_inb a ha eh n r hr

/-- Under its side condition a gather is the indexed load, whatever evidence the load carries. -/
theorem gathB_eq (tab : Vec F S40064 .f32) (idx : IVec S16 32)
    (h : ∀ (b : Fin 1) (x : S16.Idx), ((![idx] : Fin 1 → IVec S16 32) b x).toNat < S40064.size b) :
    gathB tab idx = loadIdx (e := .f32) tab ![idx] h := by
  unfold gathB
  exact dif_pos h

/-- Under its side condition an add is the indexed store-with-add, whatever evidence the store carries. -/
theorem scatB_eq (acc : Vec F S40064 .f32) (idx : IVec S16 32) (v : Vec F S16 .f32)
    (h : ∀ (b : Fin 1) (x : S16.Idx), ((![idx] : Fin 1 → IVec S16 32) b x).toNat < S40064.size b) :
    scatB acc idx v = storeIdx (e := .f32) acc ![idx] v (fun _ => 1#1) true h := by
  unfold scatB
  exact dif_pos h

/-! ## A chunk's lanes -/

/-- Lane x of chunk n (n below 10240) is word 16 n + x of the half list. -/
theorem edgeChunk_apply (a : IVec S2x1x163840 32) (eh : Fin 2) (n : ℕ) (hn : n < 10240) (x : S16.Idx) :
    edgeChunk a eh n x = a (ix3 eh 0 ⟨16 * n + (x 0).val, by have h16 : (x 0).val < 16 := (x 0).isLt; omega⟩) := by
  unfold edgeChunk
  exact dif_pos _

/-! ## One step as the indexed load and store, and a staged chunk's lanes -/

/-- One step of the fold written with the indexed load and the indexed store-with-add themselves: from the
    accumulator after 4 n + k steps, the add at chunk n of the destinations moved to row k of the lanes gathered at
    chunk n of the sources moved to row k is the accumulator after one step more. -/
theorem edgeAcc_step (tab : Vec F S40064 .f32) (s t : IVec S2x1x163840 32) (eh : Fin 2) (z : Vec F S40064 .f32) (n k : ℕ)
    (hk : k < 4) (sv dv : IVec S16 32) (hsv : sv = addK (edgeChunk s eh n) k) (hdv : dv = addK (edgeChunk t eh n) k)
    (h1 : ∀ (b : Fin 1) (x : S16.Idx), ((![sv] : Fin 1 → IVec S16 32) b x).toNat < S40064.size b)
    (h2 : ∀ (b : Fin 1) (x : S16.Idx), ((![dv] : Fin 1 → IVec S16 32) b x).toNat < S40064.size b) :
    storeIdx (e := .f32) (edgeAcc tab s t eh z (4 * n + k)) ![dv] (loadIdx (e := .f32) tab ![sv] h1) (fun _ => 1#1) true h2
      = edgeAcc tab s t eh z (4 * n + k + 1) := by
  subst hsv hdv
  rw [edgeAcc_succ, show (4 * n + k) / 4 = n by omega, show (4 * n + k) % 4 = k by omega]
  unfold stepB
  rw [scatB_eq _ _ _ h2, gathB_eq _ _ h1]

/-- The sixteen words of a staged 8192-word piece read from word 64 i + 16 u are chunk 512 C + 4 i + u of the half
    list: piece C starts at word 8192 C, which is chunk 512 C. -/
theorem chunkBuf_lanes (a : IVec S2x1x163840 32) (eh : Fin 2) (C i u : ℕ)
    (inb : ∀ b, (![64 * i + 16 * u] : Fin 1 → ℕ) b + S16.size b ≤ S8192.size b) :
    (fun x => chunkBuf a eh C ((Rect.unit (s := S8192) ![64 * i + 16 * u] S16.size inb).toLoadRect.idx x))
      = edgeChunk a eh (512 * C + 4 * i + u) := by
  funext x
  have h16 : (x 0).val < 16 := (x 0).isLt
  show (if h : 8192 * C + (64 * i + 16 * u + 1 * (x 0).val) < 163840 then a (ix3 eh 0 ⟨8192 * C + (64 * i + 16 * u + 1 * (x 0).val), h⟩) else 0#32)
    = (if h : 16 * (512 * C + 4 * i + u) + (x 0).val < 163840 then a (ix3 eh 0 ⟨16 * (512 * C + 4 * i + u) + (x 0).val, h⟩) else 0#32)
  have he : 8192 * C + (64 * i + 16 * u + 1 * (x 0).val) = 16 * (512 * C + 4 * i + u) + (x 0).val := by omega
  simp only [he]

/-- The same as the value a load through a whole 8192-word scratch array holding the piece reads. -/
theorem chunk_read (a : IVec S2x1x163840 32) (eh : Fin 2) (C i u : ℕ)
    (inb : ∀ c, (![64 * i + 16 * u] : Fin 1 → ℕ) c + S16.size c ≤ S8192.size c)
    (m : Memref sig .scVector .vmem S8192 .i32) (hm : m.IsWhole) :
    View.readAt (Elt F) m.view (Rect.unit (s := S8192) ![64 * i + 16 * u] S16.size inb).toLoadRect (hm.unread (chunkBuf a eh C))
      = edgeChunk a eh (512 * C + 4 * i + u) := by
  rw [← chunkBuf_lanes a eh C i u inb]
  funext x
  exact hm.readAt_unread (Val := Elt F) (chunkBuf a eh C) _ x

end cc2_edge

end Cert.KernelIdeal.Hand

end
-- ==== Proof.KI.EdgeCompute.lean ====
/-
  One trip of each of the edge kernel's two inner loops on one vector subcore, with its value.

  A trip takes four sixteen-word chunks of the staged piece of the source list and of the destination list. For
  each chunk n and each feature row k it gathers the table at the sources moved to row k, sixteen gathers in all;
  then, in the same order, it adds each gathered vector into the accumulator at the destinations moved to row k.
  The table is not written, so the accumulator after the trip is the fold edgeAcc sixteen steps further on: before
  trip i of piece C it stands at step 4 (512 C + 4 i), after it at step 4 (512 C + 4 (i + 1)). Every index the trip
  forms is a list word of at most 10000 moved by at most 3 · 10016, hence below 40064: each of its range checks holds.
-/
import proofs.«219763_g10557029614292_week1_w2_488_21_alg».proof.Proof.KI.Base
import proofs.«219763_g10557029614292_week1_w2_488_21_alg».proof.Proof.KI.Vals
import proofs.«219763_g10557029614292_week1_w2_488_21_alg».proof.Proof.KI.EdgeDefs
import proofs.«219763_g10557029614292_week1_w2_488_21_alg».proof.Proof.KI.EdgeSteps

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc2_edge

variable {F : FTy → Type}

local notation "𝕄" => MT nD τ sig (HIx 3) (Elt F) ℕ UU ℕ

local notation "gW" => (Memref.whole Cert.KernelIdeal.main_v23_scv : Memref Cert.KernelIdeal.sig Kind.scVector Space.hbm Cert.KernelIdeal.S16x1x40064 EltTy.f32)
local notation "sW" => (Memref.whole Cert.KernelIdeal.main_v6_scv : Memref Cert.KernelIdeal.sig Kind.scVector Space.hbm Cert.KernelIdeal.S2x1x163840 EltTy.i32)
local notation "dW" => (Memref.whole Cert.KernelIdeal.main_v9_scv : Memref Cert.KernelIdeal.sig Kind.scVector Space.hbm Cert.KernelIdeal.S2x1x163840 EltTy.i32)
local notation "zW" => (Memref.whole Cert.KernelIdeal.main_v13_scv : Memref Cert.KernelIdeal.sig Kind.scVector Space.hbm Cert.KernelIdeal.S40064 EltTy.f32)
local notation "oW" => (Memref.whole Cert.KernelIdeal.main_v24_scv : Memref Cert.KernelIdeal.sig Kind.scVector Space.hbm Cert.KernelIdeal.S16x2x1x40064 EltTy.f32)
local notation "tabM" => (Memref.whole Cert.KernelIdeal.cc2_scratch0 : Memref Cert.KernelIdeal.sig Kind.scVector Space.vmem Cert.KernelIdeal.S40064 EltTy.f32)
local notation "accM" => (Memref.whole Cert.KernelIdeal.cc2_scratch1 : Memref Cert.KernelIdeal.sig Kind.scVector Space.vmem Cert.KernelIdeal.S40064 EltTy.f32)
local notation "sb0M" => (Memref.whole Cert.KernelIdeal.cc2_scratch2 : Memref Cert.KernelIdeal.sig Kind.scVector Space.vmem Cert.KernelIdeal.S8192 EltTy.i32)
local notation "db0M" => (Memref.whole Cert.KernelIdeal.cc2_scratch3 : Memref Cert.KernelIdeal.sig Kind.scVector Space.vmem Cert.KernelIdeal.S8192 EltTy.i32)
local notation "sb1M" => (Memref.whole Cert.KernelIdeal.cc2_scratch4 : Memref Cert.KernelIdeal.sig Kind.scVector Space.vmem Cert.KernelIdeal.S8192 EltTy.i32)
local notation "db1M" => (Memref.whole Cert.KernelIdeal.cc2_scratch5 : Memref Cert.KernelIdeal.sig Kind.scVector Space.vmem Cert.KernelIdeal.S8192 EltTy.i32)

variable [FloatOps F]

/-! ## The range checks on what the trip reads off a staged piece -/

/-- An index vector all of whose lanes are below 40064 passes every check of the body (they all say this). -/
theorem chk_of_lt (v : IVec S16 32) (h : ∀ x, (v x).toNat < 40064) : k2_chk1 v := by
  intro a x
  obtain rfl : a = 0 := Subsingleton.elim _ _
  exact h x

theorem chk_small (v : IVec S16 32) (h : ∀ x, (v x).toNat ≤ 10000) : k2_chk1 v :=
  chk_of_lt v fun x => lt_of_le_of_lt (h x) (by decide)

/-- A node number moved to one of the four feature rows stays below 40064: no wrap, no overrun. -/
theorem chk_addi (v : IVec S16 32) (c : BitVec 32) (h : ∀ x, (v x).toNat ≤ 10000) (hc : c.toNat ≤ 30048) :
    k2_chk1 (addi v (broadcast S16 c)) := by
  refine chk_of_lt _ fun x => ?_
  show (v x + c).toNat < 40064
  rw [BitVec.toNat_add]
  have := h x
  omega

section Checks
variable {a : IVec S2x1x163840 32} (ha : EdgePre a) (eh : Fin 2) (C : Nat) (off : Fin 1 → Nat) (inb : ∀ i, off i + S16.size i ≤ S8192.size i)
include ha

theorem chk_rd2 : k2_chk1 ((sb0M).view.readAt (Elt F) (Rect.unit (s := S8192) off S16.size inb).toLoadRect (chunkBuf a eh C)) := chk_small _ fun _ => chunkBuf_le ha eh C _
theorem chk_rd3 : k2_chk1 ((db0M).view.readAt (Elt F) (Rect.unit (s := S8192) off S16.size inb).toLoadRect (chunkBuf a eh C)) := chk_small _ fun _ => chunkBuf_le ha eh C _
theorem chk_rd4 : k2_chk1 ((sb1M).view.readAt (Elt F) (Rect.unit (s := S8192) off S16.size inb).toLoadRect (chunkBuf a eh C)) := chk_small _ fun _ => chunkBuf_le ha eh C _
theorem chk_rd5 : k2_chk1 ((db1M).view.readAt (Elt F) (Rect.unit (s := S8192) off S16.size inb).toLoadRect (chunkBuf a eh C)) := chk_small _ fun _ => chunkBuf_le ha eh C _
theorem chk_rd2a (c : BitVec 32) (hc : c.toNat ≤ 30048) : k2_chk1 (addi ((sb0M).view.readAt (Elt F) (Rect.unit (s := S8192) off S16.size inb).toLoadRect (chunkBuf a eh C)) (broadcast S16 c)) :=
  chk_addi _ _ (fun _ => chunkBuf_le ha eh C _) hc
theorem chk_rd3a (c : BitVec 32) (hc : c.toNat ≤ 30048) : k2_chk1 (addi ((db0M).view.readAt (Elt F) (Rect.unit (s := S8192) off S16.size inb).toLoadRect (chunkBuf a eh C)) (broadcast S16 c)) :=
  chk_addi _ _ (fun _ => chunkBuf_le ha eh C _) hc
theorem chk_rd4a (c : BitVec 32) (hc : c.toNat ≤ 30048) : k2_chk1 (addi ((sb1M).view.readAt (Elt F) (Rect.unit (s := S8192) off S16.size inb).toLoadRect (chunkBuf a eh C)) (broadcast S16 c)) :=
  chk_addi _ _ (fun _ => chunkBuf_le ha eh C _) hc
theorem chk_rd5a (c : BitVec 32) (hc : c.toNat ≤ 30048) : k2_chk1 (addi ((db1M).view.readAt (Elt F) (Rect.unit (s := S8192) off S16.size inb).toLoadRect (chunkBuf a eh C)) (broadcast S16 c)) :=
  chk_addi _ _ (fun _ => chunkBuf_le ha eh C _) hc

end Checks

/-! ## What the trip's loads read: chunks of the half lists -/

section Reads
variable (a : IVec S2x1x163840 32) (eh : Fin 2) (C : Nat) (off : Fin 1 → Nat) (inb : ∀ i, off i + S16.size i ≤ S8192.size i) (i u : Nat)
  (ho : off = ![64 * i + 16 * u])
include ho

theorem rd_sb0 : (sb0M).view.readAt (Elt F) (Rect.unit (s := S8192) off S16.size inb).toLoadRect (chunkBuf a eh C) = edgeChunk a eh (512 * C + 4 * i + u) := by
  subst ho; exact chunkBuf_lanes a eh C i u inb
theorem rd_db0 : (db0M).view.readAt (Elt F) (Rect.unit (s := S8192) off S16.size inb).toLoadRect (chunkBuf a eh C) = edgeChunk a eh (512 * C + 4 * i + u) := by
  subst ho; exact chunkBuf_lanes a eh C i u inb
theorem rd_sb1 : (sb1M).view.readAt (Elt F) (Rect.unit (s := S8192) off S16.size inb).toLoadRect (chunkBuf a eh C) = edgeChunk a eh (512 * C + 4 * i + u) := by
  subst ho; exact chunkBuf_lanes a eh C i u inb
theorem rd_db1 : (db1M).view.readAt (Elt F) (Rect.unit (s := S8192) off S16.size inb).toLoadRect (chunkBuf a eh C) = edgeChunk a eh (512 * C + 4 * i + u) := by
  subst ho; exact chunkBuf_lanes a eh C i u inb

end Reads

section Tile
variable (d : Dev nD) (L : grid2.Coords)

local notation "thr" => (V d (cV L) (jV L))

/-! ## The gather and the add, on the scratch arrays held whole -/

/-- The gather off the table scratch, held whole at any share. -/
theorem wp_gather_tab {α : Type} {Q : α → sProp 𝕄} {idxs : Fin S40064.rank → IVec S16 32} {h : ∀ a x, (idxs a x).toNat < S40064.size a}
    {hl : (tabM).view.Loads} {k : Vec F S16 .f32 → Prog (TpuEff nD τ sig (Elt F) Λ₀ (thr).2) α} {q : PosShare TreeShare} (tb : Vec F S40064 .f32) :
    ((tabM).view.loc thr ↦{q} tb : sProp 𝕄)
      ⊢ iprop((((tabM).view.loc thr ↦{q} tb) -∗ wp frame (wpE (defs₀ (F := F)) 𝒱₀ thr none) Set.univ (k (loadIdx tb idxs h)) Q)
        -∗ wp frame (wpE (defs₀ (F := F)) 𝒱₀ thr none) Set.univ (SparseCore.vectorLoadIdx tabM idxs h hl >>= k) Q) := by
  have e := SparseCore.wp_vectorLoadIdx (defs := defs₀ (F := F)) (Q := Q) 𝒱₀ thr none Set.univ (base := tabM) (idxs := idxs) (h := h) (hl := hl) (k := k)
    (S := Finset.univ) (q := q) (f := tb) (Finset.subset_univ _)
  rw [Memref.read_access_whole] at e
  exact e

/-- The indexed store-with-add into the accumulator scratch, held whole. -/
theorem wp_scatter_acc {α : Type} {Q : α → sProp 𝕄} {idxs : Fin S40064.rank → IVec S16 32} {v : Vec F S16 .f32}
    {h : ∀ a x, (idxs a x).toNat < S40064.size a} {hs : ((accM).access (.whole S40064)).Stores Finset.univ}
    {k : PUnit → Prog (TpuEff nD τ sig (Elt F) Λ₀ (thr).2) α} (f : Vec F S40064 .f32) :
    ((accM).view.loc thr ↦{fullShare} f : sProp 𝕄)
      ⊢ iprop((((accM).view.loc thr ↦{fullShare} storeIdx f idxs v (fun _ => 1#1) true h) -∗ wp frame (wpE (defs₀ (F := F)) 𝒱₀ thr none) Set.univ (k ⟨⟩) Q)
        -∗ wp frame (wpE (defs₀ (F := F)) 𝒱₀ thr none) Set.univ (SparseCore.vectorStoreIdx accM idxs v (fun _ => 1#1) true h hs >>= k) Q) := by
  have e := SparseCore.wp_vectorStoreIdx (defs := defs₀ (F := F)) (Q := Q) 𝒱₀ thr none Set.univ (base := accM) (idxs := idxs) (v := v)
    (mask := fun _ => 1#1) (add := true) (h := h) (hs := hs) (k := k) (f := f)
  rw [Memref.read_access_whole, Memref.write_access_whole_univ, Memref.set_access_whole] at e
  exact e

/-- One add of the trip, with its value: from the fold after p = 4 n + r steps, adding at chunk n of the destinations
    moved to row r what was gathered at chunk n of the sources moved to row r leaves the fold after p + 1 steps. -/
theorem wp_scatter_step {α : Type} {Q : α → sProp 𝕄} (tb : Vec F S40064 .f32) (s t : IVec S2x1x163840 32) (z : Vec F S40064 .f32) (eh : Fin 2)
    (p m n r : Nat) (hp : p = 4 * n + r) (hm : m = p + 1) (hr : r < 4) (sv dv : IVec S16 32)
    (hsv : sv = addK (edgeChunk s eh n) r) (hdv : dv = addK (edgeChunk t eh n) r)
    {h1 : ∀ a x, ((![sv] : Fin 1 → IVec S16 32) a x).toNat < S40064.size a} {h2 : ∀ a x, ((![dv] : Fin 1 → IVec S16 32) a x).toNat < S40064.size a}
    {hst : ((accM).access (.whole S40064)).Stores Finset.univ} {kk : PUnit → Prog (TpuEff nD τ sig (Elt F) Λ₀ (thr).2) α} :
    ((accM).view.loc thr ↦{fullShare} edgeAcc tb s t eh z p : sProp 𝕄)
      ⊢ iprop((((accM).view.loc thr ↦{fullShare} edgeAcc tb s t eh z m) -∗ wp frame (wpE (defs₀ (F := F)) 𝒱₀ thr none) Set.univ (kk ⟨⟩) Q)
        -∗ wp frame (wpE (defs₀ (F := F)) 𝒱₀ thr none) Set.univ
            (SparseCore.vectorStoreIdx accM ![dv] (loadIdx tb ![sv] h1) (fun _ => 1#1) true h2 hst >>= kk) Q) := by
  subst hp hm
  have e := wp_scatter_acc (F := F) d L (Q := Q) (idxs := ![dv]) (v := loadIdx tb ![sv] h1) (h := h2) (hs := hst) (k := kk) (edgeAcc tb s t eh z (4 * n + r))
  rw [edgeAcc_step tb s t eh z n r hr sv dv hsv hdv h1 h2] at e
  exact e

/-- The invariant of the loop over the staged pieces in sb0M and db0M: before trip `i` of piece `C` the table scratch
    holds the tile's table, the two staging buffers piece `C` of the half lists, the accumulator the fold after
    `4 (512 C + 4 i)` steps. -/
def innerInv0 (tb : Vec F S40064 .f32) (s t : IVec S2x1x163840 32) (z : Vec F S40064 .f32) (eh : Fin 2) (C : Nat) (i : Nat) (_ : Unit) : sProp 𝕄 :=
  iprop(((tabM).view.loc thr ↦{fullShare} tb)
    ∗ ((accM).view.loc thr ↦{fullShare} edgeAcc tb s t eh z (4 * (512 * C + 4 * i)))
    ∗ ((sb0M).view.loc thr ↦{fullShare} chunkBuf s eh C)
    ∗ ((db0M).view.loc thr ↦{fullShare} chunkBuf t eh C))

set_option maxHeartbeats 4000000 in
/-- One trip: sixteen gathers off the table, then the sixteen adds in the fold's order. -/
theorem inner0_region (tb : Vec F S40064 .f32) (s t : IVec S2x1x163840 32) (z : Vec F S40064 .f32) (hs : EdgePre s) (ht : EdgePre t) (eh : Fin 2) (C : Nat)
    (c0 c1 : BitVec 32) (t1 : Fin k2_t1_loop.trips) (k : Fin k2_t2_loop.trips) (a : Unit) :
    innerInv0 d L tb s t z eh C k.val a
      ⊢ wp frame (wpE (defs₀ (F := F)) 𝒱₀ thr none) Set.univ
          (k2_t2_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2 c0 c1 t1 k a)
          (innerInv0 d L tb s t z eh C (k.val + 1)) := by
  unfold innerInv0 k2_t2_body
  iintro ⟨Htab, Hacc, Hsb, Hdb⟩
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  iapply (wp_scatter_step (F := F) d L tb s t z eh (4 * (512 * C + 4 * k.val)) (4 * (512 * C + 4 * k.val) + 1) (512 * C + 4 * k.val + 0) 0 (by omega) (by omega) (by omega) _ _
      (congrArg (fun v => addK v 0) (rd_sb0 (F := F) s eh C (k2_off5 k) (k2_off5_inb k) k.val 0 ((k2_off5_eq k).trans (congrArg (fun n => (![n] : Fin 1 → Nat)) (by omega)))))
      (congrArg (fun v => addK v 0) (rd_db0 (F := F) t eh C (k2_off5 k) (k2_off5_inb k) k.val 0 ((k2_off5_eq k).trans (congrArg (fun n => (![n] : Fin 1 → Nat)) (by omega)))))) $$ Hacc; iintro Hacc
  iapply (wp_scatter_step (F := F) d L tb s t z eh (4 * (512 * C + 4 * k.val) + 1) (4 * (512 * C + 4 * k.val) + 2) (512 * C + 4 * k.val + 0) 1 (by omega) (by omega) (by omega) _ _
      (congrArg (fun v => addK v 1) (rd_sb0 (F := F) s eh C (k2_off5 k) (k2_off5_inb k) k.val 0 ((k2_off5_eq k).trans (congrArg (fun n => (![n] : Fin 1 → Nat)) (by omega)))))
      (congrArg (fun v => addK v 1) (rd_db0 (F := F) t eh C (k2_off5 k) (k2_off5_inb k) k.val 0 ((k2_off5_eq k).trans (congrArg (fun n => (![n] : Fin 1 → Nat)) (by omega)))))) $$ Hacc; iintro Hacc
  iapply (wp_scatter_step (F := F) d L tb s t z eh (4 * (512 * C + 4 * k.val) + 2) (4 * (512 * C + 4 * k.val) + 3) (512 * C + 4 * k.val + 0) 2 (by omega) (by omega) (by omega) _ _
      (congrArg (fun v => addK v 2) (rd_sb0 (F := F) s eh C (k2_off5 k) (k2_off5_inb k) k.val 0 ((k2_off5_eq k).trans (congrArg (fun n => (![n] : Fin 1 → Nat)) (by omega)))))
      (congrArg (fun v => addK v 2) (rd_db0 (F := F) t eh C (k2_off5 k) (k2_off5_inb k) k.val 0 ((k2_off5_eq k).trans (congrArg (fun n => (![n] : Fin 1 → Nat)) (by omega)))))) $$ Hacc; iintro Hacc
  iapply (wp_scatter_step (F := F) d L tb s t z eh (4 * (512 * C + 4 * k.val) + 3) (4 * (512 * C + 4 * k.val) + 4) (512 * C + 4 * k.val + 0) 3 (by omega) (by omega) (by omega) _ _
      (congrArg (fun v => addK v 3) (rd_sb0 (F := F) s eh C (k2_off5 k) (k2_off5_inb k) k.val 0 ((k2_off5_eq k).trans (congrArg (fun n => (![n] : Fin 1 → Nat)) (by omega)))))
      (congrArg (fun v => addK v 3) (rd_db0 (F := F) t eh C (k2_off5 k) (k2_off5_inb k) k.val 0 ((k2_off5_eq k).trans (congrArg (fun n => (![n] : Fin 1 → Nat)) (by omega)))))) $$ Hacc; iintro Hacc
  iapply (wp_scatter_step (F := F) d L tb s t z eh (4 * (512 * C + 4 * k.val) + 4) (4 * (512 * C + 4 * k.val) + 5) (512 * C + 4 * k.val + 1) 0 (by omega) (by omega) (by omega) _ _
      (congrArg (fun v => addK v 0) (rd_sb0 (F := F) s eh C (k2_off6 k) (k2_off6_inb k) k.val 1 ((k2_off6_eq k).trans (congrArg (fun n => (![n] : Fin 1 → Nat)) (by omega)))))
      (congrArg (fun v => addK v 0) (rd_db0 (F := F) t eh C (k2_off6 k) (k2_off6_inb k) k.val 1 ((k2_off6_eq k).trans (congrArg (fun n => (![n] : Fin 1 → Nat)) (by omega)))))) $$ Hacc; iintro Hacc
  iapply (wp_scatter_step (F := F) d L tb s t z eh (4 * (512 * C + 4 * k.val) + 5) (4 * (512 * C + 4 * k.val) + 6) (512 * C + 4 * k.val + 1) 1 (by omega) (by omega) (by omega) _ _
      (congrArg (fun v => addK v 1) (rd_sb0 (F := F) s eh C (k2_off6 k) (k2_off6_inb k) k.val 1 ((k2_off6_eq k).trans (congrArg (fun n => (![n] : Fin 1 → Nat)) (by omega)))))
      (congrArg (fun v => addK v 1) (rd_db0 (F := F) t eh C (k2_off6 k) (k2_off6_inb k) k.val 1 ((k2_off6_eq k).trans (congrArg (fun n => (![n] : Fin 1 → Nat)) (by omega)))))) $$ Hacc; iintro Hacc
  iapply (wp_scatter_step (F := F) d L tb s t z eh (4 * (512 * C + 4 * k.val) + 6) (4 * (512 * C + 4 * k.val) + 7) (512 * C + 4 * k.val + 1) 2 (by omega) (by omega) (by omega) _ _
      (congrArg (fun v => addK v 2) (rd_sb0 (F := F) s eh C (k2_off6 k) (k2_off6_inb k) k.val 1 ((k2_off6_eq k).trans (congrArg (fun n => (![n] : Fin 1 → Nat)) (by omega)))))
      (congrArg (fun v => addK v 2) (rd_db0 (F := F) t eh C (k2_off6 k) (k2_off6_inb k) k.val 1 ((k2_off6_eq k).trans (congrArg (fun n => (![n] : Fin 1 → Nat)) (by omega)))))) $$ Hacc; iintro Hacc
  iapply (wp_scatter_step (F := F) d L tb s t z eh (4 * (512 * C + 4 * k.val) + 7) (4 * (512 * C + 4 * k.val) + 8) (512 * C + 4 * k.val + 1) 3 (by omega) (by omega) (by omega) _ _
      (congrArg (fun v => addK v 3) (rd_sb0 (F := F) s eh C (k2_off6 k) (k2_off6_inb k) k.val 1 ((k2_off6_eq k).trans (congrArg (fun n => (![n] : Fin 1 → Nat)) (by omega)))))
      (congrArg (fun v => addK v 3) (rd_db0 (F := F) t eh C (k2_off6 k) (k2_off6_inb k) k.val 1 ((k2_off6_eq k).trans (congrArg (fun n => (![n] : Fin 1 → Nat)) (by omega)))))) $$ Hacc; iintro Hacc
  iapply (wp_scatter_step (F := F) d L tb s t z eh (4 * (512 * C + 4 * k.val) + 8) (4 * (512 * C + 4 * k.val) + 9) (512 * C + 4 * k.val + 2) 0 (by omega) (by omega) (by omega) _ _
      (congrArg (fun v => addK v 0) (rd_sb0 (F := F) s eh C (k2_off7 k) (k2_off7_inb k) k.val 2 ((k2_off7_eq k).trans (congrArg (fun n => (![n] : Fin 1 → Nat)) (by omega)))))
      (congrArg (fun v => addK v 0) (rd_db0 (F := F) t eh C (k2_off7 k) (k2_off7_inb k) k.val 2 ((k2_off7_eq k).trans (congrArg (fun n => (![n] : Fin 1 → Nat)) (by omega)))))) $$ Hacc; iintro Hacc
  iapply (wp_scatter_step (F := F) d L tb s t z eh (4 * (512 * C + 4 * k.val) + 9) (4 * (512 * C + 4 * k.val) + 10) (512 * C + 4 * k.val + 2) 1 (by omega) (by omega) (by omega) _ _
      (congrArg (fun v => addK v 1) (rd_sb0 (F := F) s eh C (k2_off7 k) (k2_off7_inb k) k.val 2 ((k2_off7_eq k).trans (congrArg (fun n => (![n] : Fin 1 → Nat)) (by omega)))))
      (congrArg (fun v => addK v 1) (rd_db0 (F := F) t eh C (k2_off7 k) (k2_off7_inb k) k.val 2 ((k2_off7_eq k).trans (congrArg (fun n => (![n] : Fin 1 → Nat)) (by omega)))))) $$ Hacc; iintro Hacc
  iapply (wp_scatter_step (F := F) d L tb s t z eh (4 * (512 * C + 4 * k.val) + 10) (4 * (512 * C + 4 * k.val) + 11) (512 * C + 4 * k.val + 2) 2 (by omega) (by omega) (by omega) _ _
      (congrArg (fun v => addK v 2) (rd_sb0 (F := F) s eh C (k2_off7 k) (k2_off7_inb k) k.val 2 ((k2_off7_eq k).trans (congrArg (fun n => (![n] : Fin 1 → Nat)) (by omega)))))
      (congrArg (fun v => addK v 2) (rd_db0 (F := F) t eh C (k2_off7 k) (k2_off7_inb k) k.val 2 ((k2_off7_eq k).trans (congrArg (fun n => (![n] : Fin 1 → Nat)) (by omega)))))) $$ Hacc; iintro Hacc
  iapply (wp_scatter_step (F := F) d L tb s t z eh (4 * (512 * C + 4 * k.val) + 11) (4 * (512 * C + 4 * k.val) + 12) (512 * C + 4 * k.val + 2) 3 (by omega) (by omega) (by omega) _ _
      (congrArg (fun v => addK v 3) (rd_sb0 (F := F) s eh C (k2_off7 k) (k2_off7_inb k) k.val 2 ((k2_off7_eq k).trans (congrArg (fun n => (![n] : Fin 1 → Nat)) (by omega)))))
      (congrArg (fun v => addK v 3) (rd_db0 (F := F) t eh C (k2_off7 k) (k2_off7_inb k) k.val 2 ((k2_off7_eq k).trans (congrArg (fun n => (![n] : Fin 1 → Nat)) (by omega)))))) $$ Hacc; iintro Hacc
  iapply (wp_scatter_step (F := F) d L tb s t z eh (4 * (512 * C + 4 * k.val) + 12) (4 * (512 * C + 4 * k.val) + 13) (512 * C + 4 * k.val + 3) 0 (by omega) (by omega) (by omega) _ _
      (congrArg (fun v => addK v 0) (rd_sb0 (F := F) s eh C (k2_off8 k) (k2_off8_inb k) k.val 3 ((k2_off8_eq k).trans (congrArg (fun n => (![n] : Fin 1 → Nat)) (by omega)))))
      (congrArg (fun v => addK v 0) (rd_db0 (F := F) t eh C (k2_off8 k) (k2_off8_inb k) k.val 3 ((k2_off8_eq k).trans (congrArg (fun n => (![n] : Fin 1 → Nat)) (by omega)))))) $$ Hacc; iintro Hacc
  iapply (wp_scatter_step (F := F) d L tb s t z eh (4 * (512 * C + 4 * k.val) + 13) (4 * (512 * C + 4 * k.val) + 14) (512 * C + 4 * k.val + 3) 1 (by omega) (by omega) (by omega) _ _
      (congrArg (fun v => addK v 1) (rd_sb0 (F := F) s eh C (k2_off8 k) (k2_off8_inb k) k.val 3 ((k2_off8_eq k).trans (congrArg (fun n => (![n] : Fin 1 → Nat)) (by omega)))))
      (congrArg (fun v => addK v 1) (rd_db0 (F := F) t eh C (k2_off8 k) (k2_off8_inb k) k.val 3 ((k2_off8_eq k).trans (congrArg (fun n => (![n] : Fin 1 → Nat)) (by omega)))))) $$ Hacc; iintro Hacc
  iapply (wp_scatter_step (F := F) d L tb s t z eh (4 * (512 * C + 4 * k.val) + 14) (4 * (512 * C + 4 * k.val) + 15) (512 * C + 4 * k.val + 3) 2 (by omega) (by omega) (by omega) _ _
      (congrArg (fun v => addK v 2) (rd_sb0 (F := F) s eh C (k2_off8 k) (k2_off8_inb k) k.val 3 ((k2_off8_eq k).trans (congrArg (fun n => (![n] : Fin 1 → Nat)) (by omega)))))
      (congrArg (fun v => addK v 2) (rd_db0 (F := F) t eh C (k2_off8 k) (k2_off8_inb k) k.val 3 ((k2_off8_eq k).trans (congrArg (fun n => (![n] : Fin 1 → Nat)) (by omega)))))) $$ Hacc; iintro Hacc
  iapply (wp_scatter_step (F := F) d L tb s t z eh (4 * (512 * C + 4 * k.val) + 15) (4 * (512 * C + 4 * k.val) + 16) (512 * C + 4 * k.val + 3) 3 (by omega) (by omega) (by omega) _ _
      (congrArg (fun v => addK v 3) (rd_sb0 (F := F) s eh C (k2_off8 k) (k2_off8_inb k) k.val 3 ((k2_off8_eq k).trans (congrArg (fun n => (![n] : Fin 1 → Nat)) (by omega)))))
      (congrArg (fun v => addK v 3) (rd_db0 (F := F) t eh C (k2_off8 k) (k2_off8_inb k) k.val 3 ((k2_off8_eq k).trans (congrArg (fun n => (![n] : Fin 1 → Nat)) (by omega)))))) $$ Hacc; iintro Hacc
  sl_step
  rw [show 4 * (512 * C + 4 * (k.val + 1)) = 4 * (512 * C + 4 * k.val) + 16 from by omega]
  isplitl [Htab]; · iexact Htab
  isplitl [Hacc]; · iexact Hacc
  isplitl [Hsb]; · iexact Hsb
  iexact Hdb

/-- The invariant of the loop over the staged pieces in sb1M and db1M: before trip `i` of piece `C` the table scratch
    holds the tile's table, the two staging buffers piece `C` of the half lists, the accumulator the fold after
    `4 (512 C + 4 i)` steps. -/
def innerInv1 (tb : Vec F S40064 .f32) (s t : IVec S2x1x163840 32) (z : Vec F S40064 .f32) (eh : Fin 2) (C : Nat) (i : Nat) (_ : Unit) : sProp 𝕄 :=
  iprop(((tabM).view.loc thr ↦{fullShare} tb)
    ∗ ((accM).view.loc thr ↦{fullShare} edgeAcc tb s t eh z (4 * (512 * C + 4 * i)))
    ∗ ((sb1M).view.loc thr ↦{fullShare} chunkBuf s eh C)
    ∗ ((db1M).view.loc thr ↦{fullShare} chunkBuf t eh C))

set_option maxHeartbeats 4000000 in
/-- One trip: sixteen gathers off the table, then the sixteen adds in the fold's order. -/
theorem inner1_region (tb : Vec F S40064 .f32) (s t : IVec S2x1x163840 32) (z : Vec F S40064 .f32) (hs : EdgePre s) (ht : EdgePre t) (eh : Fin 2) (C : Nat)
    (k : Fin k2_t3_loop.trips) (a : Unit) :
    innerInv1 d L tb s t z eh C k.val a
      ⊢ wp frame (wpE (defs₀ (F := F)) 𝒱₀ thr none) Set.univ
          (k2_t3_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2 k a)
          (innerInv1 d L tb s t z eh C (k.val + 1)) := by
  unfold innerInv1 k2_t3_body
  iintro ⟨Htab, Hacc, Hsb, Hdb⟩
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  iapply (wp_scatter_step (F := F) d L tb s t z eh (4 * (512 * C + 4 * k.val)) (4 * (512 * C + 4 * k.val) + 1) (512 * C + 4 * k.val + 0) 0 (by omega) (by omega) (by omega) _ _
      (congrArg (fun v => addK v 0) (rd_sb1 (F := F) s eh C (k2_off9 k) (k2_off9_inb k) k.val 0 ((k2_off9_eq k).trans (congrArg (fun n => (![n] : Fin 1 → Nat)) (by omega)))))
      (congrArg (fun v => addK v 0) (rd_db1 (F := F) t eh C (k2_off9 k) (k2_off9_inb k) k.val 0 ((k2_off9_eq k).trans (congrArg (fun n => (![n] : Fin 1 → Nat)) (by omega)))))) $$ Hacc; iintro Hacc
  iapply (wp_scatter_step (F := F) d L tb s t z eh (4 * (512 * C + 4 * k.val) + 1) (4 * (512 * C + 4 * k.val) + 2) (512 * C + 4 * k.val + 0) 1 (by omega) (by omega) (by omega) _ _
      (congrArg (fun v => addK v 1) (rd_sb1 (F := F) s eh C (k2_off9 k) (k2_off9_inb k) k.val 0 ((k2_off9_eq k).trans (congrArg (fun n => (![n] : Fin 1 → Nat)) (by omega)))))
      (congrArg (fun v => addK v 1) (rd_db1 (F := F) t eh C (k2_off9 k) (k2_off9_inb k) k.val 0 ((k2_off9_eq k).trans (congrArg (fun n => (![n] : Fin 1 → Nat)) (by omega)))))) $$ Hacc; iintro Hacc
  iapply (wp_scatter_step (F := F) d L tb s t z eh (4 * (512 * C + 4 * k.val) + 2) (4 * (512 * C + 4 * k.val) + 3) (512 * C + 4 * k.val + 0) 2 (by omega) (by omega) (by omega) _ _
      (congrArg (fun v => addK v 2) (rd_sb1 (F := F) s eh C (k2_off9 k) (k2_off9_inb k) k.val 0 ((k2_off9_eq k).trans (congrArg (fun n => (![n] : Fin 1 → Nat)) (by omega)))))
      (congrArg (fun v => addK v 2) (rd_db1 (F := F) t eh C (k2_off9 k) (k2_off9_inb k) k.val 0 ((k2_off9_eq k).trans (congrArg (fun n => (![n] : Fin 1 → Nat)) (by omega)))))) $$ Hacc; iintro Hacc
  iapply (wp_scatter_step (F := F) d L tb s t z eh (4 * (512 * C + 4 * k.val) + 3) (4 * (512 * C + 4 * k.val) + 4) (512 * C + 4 * k.val + 0) 3 (by omega) (by omega) (by omega) _ _
      (congrArg (fun v => addK v 3) (rd_sb1 (F := F) s eh C (k2_off9 k) (k2_off9_inb k) k.val 0 ((k2_off9_eq k).trans (congrArg (fun n => (![n] : Fin 1 → Nat)) (by omega)))))
      (congrArg (fun v => addK v 3) (rd_db1 (F := F) t eh C (k2_off9 k) (k2_off9_inb k) k.val 0 ((k2_off9_eq k).trans (congrArg (fun n => (![n] : Fin 1 → Nat)) (by omega)))))) $$ Hacc; iintro Hacc
  iapply (wp_scatter_step (F := F) d L tb s t z eh (4 * (512 * C + 4 * k.val) + 4) (4 * (512 * C + 4 * k.val) + 5) (512 * C + 4 * k.val + 1) 0 (by omega) (by omega) (by omega) _ _
      (congrArg (fun v => addK v 0) (rd_sb1 (F := F) s eh C (k2_off10 k) (k2_off10_inb k) k.val 1 ((k2_off10_eq k).trans (congrArg (fun n => (![n] : Fin 1 → Nat)) (by omega)))))
      (congrArg (fun v => addK v 0) (rd_db1 (F := F) t eh C (k2_off10 k) (k2_off10_inb k) k.val 1 ((k2_off10_eq k).trans (congrArg (fun n => (![n] : Fin 1 → Nat)) (by omega)))))) $$ Hacc; iintro Hacc
  iapply (wp_scatter_step (F := F) d L tb s t z eh (4 * (512 * C + 4 * k.val) + 5) (4 * (512 * C + 4 * k.val) + 6) (512 * C + 4 * k.val + 1) 1 (by omega) (by omega) (by omega) _ _
      (congrArg (fun v => addK v 1) (rd_sb1 (F := F) s eh C (k2_off10 k) (k2_off10_inb k) k.val 1 ((k2_off10_eq k).trans (congrArg (fun n => (![n] : Fin 1 → Nat)) (by omega)))))
      (congrArg (fun v => addK v 1) (rd_db1 (F := F) t eh C (k2_off10 k) (k2_off10_inb k) k.val 1 ((k2_off10_eq k).trans (congrArg (fun n => (![n] : Fin 1 → Nat)) (by omega)))))) $$ Hacc; iintro Hacc
  iapply (wp_scatter_step (F := F) d L tb s t z eh (4 * (512 * C + 4 * k.val) + 6) (4 * (512 * C + 4 * k.val) + 7) (512 * C + 4 * k.val + 1) 2 (by omega) (by omega) (by omega) _ _
      (congrArg (fun v => addK v 2) (rd_sb1 (F := F) s eh C (k2_off10 k) (k2_off10_inb k) k.val 1 ((k2_off10_eq k).trans (congrArg (fun n => (![n] : Fin 1 → Nat)) (by omega)))))
      (congrArg (fun v => addK v 2) (rd_db1 (F := F) t eh C (k2_off10 k) (k2_off10_inb k) k.val 1 ((k2_off10_eq k).trans (congrArg (fun n => (![n] : Fin 1 → Nat)) (by omega)))))) $$ Hacc; iintro Hacc
  iapply (wp_scatter_step (F := F) d L tb s t z eh (4 * (512 * C + 4 * k.val) + 7) (4 * (512 * C + 4 * k.val) + 8) (512 * C + 4 * k.val + 1) 3 (by omega) (by omega) (by omega) _ _
      (congrArg (fun v => addK v 3) (rd_sb1 (F := F) s eh C (k2_off10 k) (k2_off10_inb k) k.val 1 ((k2_off10_eq k).trans (congrArg (fun n => (![n] : Fin 1 → Nat)) (by omega)))))
      (congrArg (fun v => addK v 3) (rd_db1 (F := F) t eh C (k2_off10 k) (k2_off10_inb k) k.val 1 ((k2_off10_eq k).trans (congrArg (fun n => (![n] : Fin 1 → Nat)) (by omega)))))) $$ Hacc; iintro Hacc
  iapply (wp_scatter_step (F := F) d L tb s t z eh (4 * (512 * C + 4 * k.val) + 8) (4 * (512 * C + 4 * k.val) + 9) (512 * C + 4 * k.val + 2) 0 (by omega) (by omega) (by omega) _ _
      (congrArg (fun v => addK v 0) (rd_sb1 (F := F) s eh C (k2_off11 k) (k2_off11_inb k) k.val 2 ((k2_off11_eq k).trans (congrArg (fun n => (![n] : Fin 1 → Nat)) (by omega)))))
      (congrArg (fun v => addK v 0) (rd_db1 (F := F) t eh C (k2_off11 k) (k2_off11_inb k) k.val 2 ((k2_off11_eq k).trans (congrArg (fun n => (![n] : Fin 1 → Nat)) (by omega)))))) $$ Hacc; iintro Hacc
  iapply (wp_scatter_step (F := F) d L tb s t z eh (4 * (512 * C + 4 * k.val) + 9) (4 * (512 * C + 4 * k.val) + 10) (512 * C + 4 * k.val + 2) 1 (by omega) (by omega) (by omega) _ _
      (congrArg (fun v => addK v 1) (rd_sb1 (F := F) s eh C (k2_off11 k) (k2_off11_inb k) k.val 2 ((k2_off11_eq k).trans (congrArg (fun n => (![n] : Fin 1 → Nat)) (by omega)))))
      (congrArg (fun v => addK v 1) (rd_db1 (F := F) t eh C (k2_off11 k) (k2_off11_inb k) k.val 2 ((k2_off11_eq k).trans (congrArg (fun n => (![n] : Fin 1 → Nat)) (by omega)))))) $$ Hacc; iintro Hacc
  iapply (wp_scatter_step (F := F) d L tb s t z eh (4 * (512 * C + 4 * k.val) + 10) (4 * (512 * C + 4 * k.val) + 11) (512 * C + 4 * k.val + 2) 2 (by omega) (by omega) (by omega) _ _
      (congrArg (fun v => addK v 2) (rd_sb1 (F := F) s eh C (k2_off11 k) (k2_off11_inb k) k.val 2 ((k2_off11_eq k).trans (congrArg (fun n => (![n] : Fin 1 → Nat)) (by omega)))))
      (congrArg (fun v => addK v 2) (rd_db1 (F := F) t eh C (k2_off11 k) (k2_off11_inb k) k.val 2 ((k2_off11_eq k).trans (congrArg (fun n => (![n] : Fin 1 → Nat)) (by omega)))))) $$ Hacc; iintro Hacc
  iapply (wp_scatter_step (F := F) d L tb s t z eh (4 * (512 * C + 4 * k.val) + 11) (4 * (512 * C + 4 * k.val) + 12) (512 * C + 4 * k.val + 2) 3 (by omega) (by omega) (by omega) _ _
      (congrArg (fun v => addK v 3) (rd_sb1 (F := F) s eh C (k2_off11 k) (k2_off11_inb k) k.val 2 ((k2_off11_eq k).trans (congrArg (fun n => (![n] : Fin 1 → Nat)) (by omega)))))
      (congrArg (fun v => addK v 3) (rd_db1 (F := F) t eh C (k2_off11 k) (k2_off11_inb k) k.val 2 ((k2_off11_eq k).trans (congrArg (fun n => (![n] : Fin 1 → Nat)) (by omega)))))) $$ Hacc; iintro Hacc
  iapply (wp_scatter_step (F := F) d L tb s t z eh (4 * (512 * C + 4 * k.val) + 12) (4 * (512 * C + 4 * k.val) + 13) (512 * C + 4 * k.val + 3) 0 (by omega) (by omega) (by omega) _ _
      (congrArg (fun v => addK v 0) (rd_sb1 (F := F) s eh C (k2_off12 k) (k2_off12_inb k) k.val 3 ((k2_off12_eq k).trans (congrArg (fun n => (![n] : Fin 1 → Nat)) (by omega)))))
      (congrArg (fun v => addK v 0) (rd_db1 (F := F) t eh C (k2_off12 k) (k2_off12_inb k) k.val 3 ((k2_off12_eq k).trans (congrArg (fun n => (![n] : Fin 1 → Nat)) (by omega)))))) $$ Hacc; iintro Hacc
  iapply (wp_scatter_step (F := F) d L tb s t z eh (4 * (512 * C + 4 * k.val) + 13) (4 * (512 * C + 4 * k.val) + 14) (512 * C + 4 * k.val + 3) 1 (by omega) (by omega) (by omega) _ _
      (congrArg (fun v => addK v 1) (rd_sb1 (F := F) s eh C (k2_off12 k) (k2_off12_inb k) k.val 3 ((k2_off12_eq k).trans (congrArg (fun n => (![n] : Fin 1 → Nat)) (by omega)))))
      (congrArg (fun v => addK v 1) (rd_db1 (F := F) t eh C (k2_off12 k) (k2_off12_inb k) k.val 3 ((k2_off12_eq k).trans (congrArg (fun n => (![n] : Fin 1 → Nat)) (by omega)))))) $$ Hacc; iintro Hacc
  iapply (wp_scatter_step (F := F) d L tb s t z eh (4 * (512 * C + 4 * k.val) + 14) (4 * (512 * C + 4 * k.val) + 15) (512 * C + 4 * k.val + 3) 2 (by omega) (by omega) (by omega) _ _
      (congrArg (fun v => addK v 2) (rd_sb1 (F := F) s eh C (k2_off12 k) (k2_off12_inb k) k.val 3 ((k2_off12_eq k).trans (congrArg (fun n => (![n] : Fin 1 → Nat)) (by omega)))))
      (congrArg (fun v => addK v 2) (rd_db1 (F := F) t eh C (k2_off12 k) (k2_off12_inb k) k.val 3 ((k2_off12_eq k).trans (congrArg (fun n => (![n] : Fin 1 → Nat)) (by omega)))))) $$ Hacc; iintro Hacc
  iapply (wp_scatter_step (F := F) d L tb s t z eh (4 * (512 * C + 4 * k.val) + 15) (4 * (512 * C + 4 * k.val) + 16) (512 * C + 4 * k.val + 3) 3 (by omega) (by omega) (by omega) _ _
      (congrArg (fun v => addK v 3) (rd_sb1 (F := F) s eh C (k2_off12 k) (k2_off12_inb k) k.val 3 ((k2_off12_eq k).trans (congrArg (fun n => (![n] : Fin 1 → Nat)) (by omega)))))
      (congrArg (fun v => addK v 3) (rd_db1 (F := F) t eh C (k2_off12 k) (k2_off12_inb k) k.val 3 ((k2_off12_eq k).trans (congrArg (fun n => (![n] : Fin 1 → Nat)) (by omega)))))) $$ Hacc; iintro Hacc
  sl_step
  rw [show 4 * (512 * C + 4 * (k.val + 1)) = 4 * (512 * C + 4 * k.val) + 16 from by omega]
  isplitl [Htab]; · iexact Htab
  isplitl [Hacc]; · iexact Hacc
  isplitl [Hsb]; · iexact Hsb
  iexact Hdb

theorem inner0_trips : k2_t2_loop.trips = 128 := by decide
theorem inner1_trips : k2_t3_loop.trips = 128 := by decide

end Tile

end cc2_edge

end Cert.KernelIdeal.Hand

end
-- ==== Proof.KI.EdgeLoops.lean ====
/-
  The edge kernel's two inner loops, whole, and the value of its copy-out.

  Each inner loop takes 128 trips over one staged 8192-word piece of the two half lists; a trip moves the fold
  edgeAcc sixteen steps on, so the loop over piece C takes it from step 4 · 512 C to step 4 · 512 (C + 1), the staged
  piece and the table unchanged. The statements are in continuation form: what follows the loop runs from the fold at
  the start of the next piece. After the twentieth piece the fold has taken all 4 · 512 · 20 = 40960 steps, and what the
  copy-out writes through the tile's row of the result is the kernel's value on that row.
-/
import proofs.«219763_g10557029614292_week1_w2_488_21_alg».proof.Proof.KI.Base
import proofs.«219763_g10557029614292_week1_w2_488_21_alg».proof.Proof.KI.Vals
import proofs.«219763_g10557029614292_week1_w2_488_21_alg».proof.Proof.KI.EdgeDefs
import proofs.«219763_g10557029614292_week1_w2_488_21_alg».proof.Proof.KI.EdgeSteps
import proofs.«219763_g10557029614292_week1_w2_488_21_alg».proof.Proof.KI.EdgeCompute
import proofs.«219763_g10557029614292_week1_w2_488_21_alg».proof.Proof.KI.EdgeAux
import Idealize.ShloMosaic.Lib.Scf

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc2_edge

variable {F : FTy → Type}

local notation "𝕄" => MT nD τ sig (HIx 3) (Elt F) ℕ UU ℕ

local notation "gW" => (Memref.whole Cert.KernelIdeal.main_v23_scv : Memref Cert.KernelIdeal.sig Kind.scVector Space.hbm Cert.KernelIdeal.S16x1x40064 EltTy.f32)
local notation "sW" => (Memref.whole Cert.KernelIdeal.main_v6_scv : Memref Cert.KernelIdeal.sig Kind.scVector Space.hbm Cert.KernelIdeal.S2x1x163840 EltTy.i32)
local notation "dW" => (Memref.whole Cert.KernelIdeal.main_v9_scv : Memref Cert.KernelIdeal.sig Kind.scVector Space.hbm Cert.KernelIdeal.S2x1x163840 EltTy.i32)
local notation "zW" => (Memref.whole Cert.KernelIdeal.main_v13_scv : Memref Cert.KernelIdeal.sig Kind.scVector Space.hbm Cert.KernelIdeal.S40064 EltTy.f32)
local notation "oW" => (Memref.whole Cert.KernelIdeal.main_v24_scv : Memref Cert.KernelIdeal.sig Kind.scVector Space.hbm Cert.KernelIdeal.S16x2x1x40064 EltTy.f32)
local notation "tabM" => (Memref.whole Cert.KernelIdeal.cc2_scratch0 : Memref Cert.KernelIdeal.sig Kind.scVector Space.vmem Cert.KernelIdeal.S40064 EltTy.f32)
local notation "accM" => (Memref.whole Cert.KernelIdeal.cc2_scratch1 : Memref Cert.KernelIdeal.sig Kind.scVector Space.vmem Cert.KernelIdeal.S40064 EltTy.f32)
local notation "sb0M" => (Memref.whole Cert.KernelIdeal.cc2_scratch2 : Memref Cert.KernelIdeal.sig Kind.scVector Space.vmem Cert.KernelIdeal.S8192 EltTy.i32)
local notation "db0M" => (Memref.whole Cert.KernelIdeal.cc2_scratch3 : Memref Cert.KernelIdeal.sig Kind.scVector Space.vmem Cert.KernelIdeal.S8192 EltTy.i32)
local notation "sb1M" => (Memref.whole Cert.KernelIdeal.cc2_scratch4 : Memref Cert.KernelIdeal.sig Kind.scVector Space.vmem Cert.KernelIdeal.S8192 EltTy.i32)
local notation "db1M" => (Memref.whole Cert.KernelIdeal.cc2_scratch5 : Memref Cert.KernelIdeal.sig Kind.scVector Space.vmem Cert.KernelIdeal.S8192 EltTy.i32)

variable [FloatOps F]
section Tile
variable (d : Dev nD) (L : grid2.Coords)

local notation "thr" => (V d (cV L) (jV L))

omit [FloatOps F] in
/-- Each inner loop takes 128 trips. -/
theorem k2_t2_trips : k2_t2_loop.trips = 128 := by decide +kernel
omit [FloatOps F] in
theorem k2_t3_trips : k2_t3_loop.trips = 128 := by decide +kernel

/-- The first inner loop, whole: from the fold at the start of piece C, held with the piece staged in the first
    pair of buffers, to the fold at the start of piece C + 1. -/
theorem compute0 {α : Type} {Q : α → sProp 𝕄} (kk : Unit → Prog (TpuEff nD τ sig (Elt F) Λ₀ (thr).2) α)
    (tb : Vec F S40064 .f32) (s t : IVec S2x1x163840 32) (z : Vec F S40064 .f32) (hs : EdgePre s) (ht : EdgePre t) (eh : Fin 2) (C : Nat)
    (c0 c1 : BitVec 32) (t1 : Fin k2_t1_loop.trips) :
    iprop(((tabM).view.loc thr ↦{fullShare} tb) ∗ ((accM).view.loc thr ↦{fullShare} edgeAcc tb s t eh z (4 * (512 * C)))
        ∗ ((sb0M).view.loc thr ↦{fullShare} chunkBuf s eh C) ∗ ((db0M).view.loc thr ↦{fullShare} chunkBuf t eh C)
        ∗ ((((tabM).view.loc thr ↦{fullShare} tb) ∗ ((accM).view.loc thr ↦{fullShare} edgeAcc tb s t eh z (4 * (512 * (C + 1))))
            ∗ ((sb0M).view.loc thr ↦{fullShare} chunkBuf s eh C) ∗ ((db0M).view.loc thr ↦{fullShare} chunkBuf t eh C))
          -∗ wp frame (wpE (defs₀ (F := F)) 𝒱₀ thr none) Set.univ (kk ⟨⟩) Q))
      ⊢ wp frame (wpE (defs₀ (F := F)) 𝒱₀ thr none) Set.univ
          (Scf.Loop.for k2_t2_loop k2_t2_ok ⟨⟩ (k2_t2_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2 c0 c1 t1) >>= kk) Q := by
  have hloop := Scf.wp_for_bind frame (wpE (defs₀ (F := F)) 𝒱₀ thr none) Set.univ k2_t2_loop.lb k2_t2_loop.ub k2_t2_loop.st k2_t2_ok (⟨⟩ : Unit)
    (k2_t2_body L gW (Memref.isWhole_whole _) sW (Memref.isWhole_whole _) dW (Memref.isWhole_whole _) zW (Memref.isWhole_whole _)
      oW (Memref.isWhole_whole _) tabM (Memref.isWhole_whole _) accM (Memref.isWhole_whole _) sb0M (Memref.isWhole_whole _)
      db0M (Memref.isWhole_whole _) sb1M (Memref.isWhole_whole _) db1M (Memref.isWhole_whole _)
      cc2_scratch6 cc2_scratch7 cc2_scratch8 cc2_scratch9 cc2_scoped0 cc2_scoped1 cc2_scoped2 c0 c1 t1)
    (innerInv0 d L tb s t z eh C) (fun k a => inner0_region d L tb s t z hs ht eh C c0 c1 t1 k a) (kk := kk) (Q := Q)
  iintro ⟨Htab, Hacc, Hsb, Hdb, Hk⟩
  iapply hloop $$ [Htab Hacc Hsb Hdb] [Hk]
  · unfold innerInv0
    rw [show 4 * (512 * C + 4 * 0) = 4 * (512 * C) by ring]
    isplitl [Htab]; · iexact Htab
    isplitl [Hacc]; · iexact Hacc
    isplitl [Hsb]; · iexact Hsb
    iexact Hdb
  · iintro %a HI
    iapply Hk
    have hidx : 4 * (512 * C + 4 * Scf.trips k2_t2_loop.lb k2_t2_loop.ub k2_t2_loop.st) = 4 * (512 * (C + 1)) := by
      rw [show Scf.trips k2_t2_loop.lb k2_t2_loop.ub k2_t2_loop.st = 128 from k2_t2_trips]; ring
    unfold innerInv0
    rw [hidx]
    iexact HI

/-- The second inner loop, whole: the same over the second pair of buffers. -/
theorem compute1 {α : Type} {Q : α → sProp 𝕄} (kk : Unit → Prog (TpuEff nD τ sig (Elt F) Λ₀ (thr).2) α)
    (tb : Vec F S40064 .f32) (s t : IVec S2x1x163840 32) (z : Vec F S40064 .f32) (hs : EdgePre s) (ht : EdgePre t) (eh : Fin 2) (C : Nat) :
    iprop(((tabM).view.loc thr ↦{fullShare} tb) ∗ ((accM).view.loc thr ↦{fullShare} edgeAcc tb s t eh z (4 * (512 * C)))
        ∗ ((sb1M).view.loc thr ↦{fullShare} chunkBuf s eh C) ∗ ((db1M).view.loc thr ↦{fullShare} chunkBuf t eh C)
        ∗ ((((tabM).view.loc thr ↦{fullShare} tb) ∗ ((accM).view.loc thr ↦{fullShare} edgeAcc tb s t eh z (4 * (512 * (C + 1))))
            ∗ ((sb1M).view.loc thr ↦{fullShare} chunkBuf s eh C) ∗ ((db1M).view.loc thr ↦{fullShare} chunkBuf t eh C))
          -∗ wp frame (wpE (defs₀ (F := F)) 𝒱₀ thr none) Set.univ (kk ⟨⟩) Q))
      ⊢ wp frame (wpE (defs₀ (F := F)) 𝒱₀ thr none) Set.univ
          (Scf.Loop.for k2_t3_loop k2_t3_ok ⟨⟩ (k2_t3_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2) >>= kk) Q := by
  have hloop := Scf.wp_for_bind frame (wpE (defs₀ (F := F)) 𝒱₀ thr none) Set.univ k2_t3_loop.lb k2_t3_loop.ub k2_t3_loop.st k2_t3_ok (⟨⟩ : Unit)
    (k2_t3_body L gW (Memref.isWhole_whole _) sW (Memref.isWhole_whole _) dW (Memref.isWhole_whole _) zW (Memref.isWhole_whole _)
      oW (Memref.isWhole_whole _) tabM (Memref.isWhole_whole _) accM (Memref.isWhole_whole _) sb0M (Memref.isWhole_whole _)
      db0M (Memref.isWhole_whole _) sb1M (Memref.isWhole_whole _) db1M (Memref.isWhole_whole _)
      cc2_scratch6 cc2_scratch7 cc2_scratch8 cc2_scratch9 cc2_scoped0 cc2_scoped1 cc2_scoped2)
    (innerInv1 d L tb s t z eh C) (fun k a => inner1_region d L tb s t z hs ht eh C k a) (kk := kk) (Q := Q)
  iintro ⟨Htab, Hacc, Hsb, Hdb, Hk⟩
  iapply hloop $$ [Htab Hacc Hsb Hdb] [Hk]
  · unfold innerInv1
    rw [show 4 * (512 * C + 4 * 0) = 4 * (512 * C) by ring]
    isplitl [Htab]; · iexact Htab
    isplitl [Hacc]; · iexact Hacc
    isplitl [Hsb]; · iexact Hsb
    iexact Hdb
  · iintro %a HI
    iapply Hk
    have hidx : 4 * (512 * C + 4 * Scf.trips k2_t3_loop.lb k2_t3_loop.ub k2_t3_loop.st) = 4 * (512 * (C + 1)) := by
      rw [show Scf.trips k2_t3_loop.lb k2_t3_loop.ub k2_t3_loop.st = 128 from k2_t3_trips]; ring
    unfold innerInv1
    rw [hidx]
    iexact HI

end Tile

/-! ## What the copy-out leaves in the tile's row of the result -/

/-- The accumulator after all twenty pieces, written through the tile's row of the result, is the edge kernel's
    value there: the row's tile is (feature group L 1, edge half L 0), and 4 · 512 · 20 = 40960 steps are the whole fold. -/
theorem out_value (L : grid2.Coords) (g : Vec F S16x1x40064 .f32) (s t : IVec S2x1x163840 32) (z : Vec F S40064 .f32)
    (o : Vec F S16x2x1x40064 .f32) (i : S16x2x1x40064.Idx) (hi : i ∈ edgeRow L) :
    (oRowK L).view.write (Elt F) o (edgeAcc (tabRow g (L 1 : Fin 16)) s t (L 0 : Fin 2) z (4 * (512 * (2 * 10)))) Finset.univ i
      = edgeOut g s t z i := by
  rw [oRowK_write L o _ i hi]
  obtain ⟨-, h0, h1⟩ := Finset.mem_filter.mp hi
  have e0 : (i 0 : Fin 16) = (L 1 : Fin 16) := Fin.ext h0
  have e1 : (i 1 : Fin 2) = (L 0 : Fin 2) := Fin.ext h1
  show _ = edgeAcc (tabRow g (i 0)) s t (i 1) z 40960 (ix1 (i 3))
  rw [e0, e1]

end cc2_edge

end Cert.KernelIdeal.Hand

end
-- ==== Proof.KI.EdgeBody.lean ====
/-
  The body of the edge kernel on one vector subcore, with its value.

  The tile at (edge half eh, feature group cg) copies row cg of the packed table and the zero array into its two
  large scratch arrays, then walks the twenty 8192-word chunks of half eh of the source and destination lists through
  two pairs of staging buffers, one pair being filled while the other is read: for each sixteen-word chunk n of the
  lists and each feature row k it gathers the table at source + k · 10016 and adds the gathered lanes into the
  accumulator at destination + k · 10016. Sixteen such steps make one trip of the inner loop, 128 trips one staging
  buffer, two staging buffers one trip of the outer loop, ten trips the whole half list: 40960 steps in the order
  p = 4 n + k, which is the order of the fold `edgeAcc`. The accumulator is then copied to the tile's row of the result.

  Every word of the two lists is at most 10000, so every index the tile forms is below 40064.
-/
import proofs.«219763_g10557029614292_week1_w2_488_21_alg».proof.Proof.KI.Base
import proofs.«219763_g10557029614292_week1_w2_488_21_alg».proof.Proof.KI.Vals
import proofs.«219763_g10557029614292_week1_w2_488_21_alg».proof.Proof.KI.EdgeDefs
import proofs.«219763_g10557029614292_week1_w2_488_21_alg».proof.Proof.KI.EdgeAux
import proofs.«219763_g10557029614292_week1_w2_488_21_alg».proof.Proof.KI.EdgeLoops

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc2_edge

variable {F : FTy → Type}

local notation "𝕄" => MT nD τ sig (HIx 3) (Elt F) ℕ UU ℕ

variable [FloatOps F]

local notation "gW" => (Memref.whole Cert.KernelIdeal.main_v23_scv : Memref Cert.KernelIdeal.sig Kind.scVector Space.hbm Cert.KernelIdeal.S16x1x40064 EltTy.f32)
local notation "sW" => (Memref.whole Cert.KernelIdeal.main_v6_scv : Memref Cert.KernelIdeal.sig Kind.scVector Space.hbm Cert.KernelIdeal.S2x1x163840 EltTy.i32)
local notation "dW" => (Memref.whole Cert.KernelIdeal.main_v9_scv : Memref Cert.KernelIdeal.sig Kind.scVector Space.hbm Cert.KernelIdeal.S2x1x163840 EltTy.i32)
local notation "zW" => (Memref.whole Cert.KernelIdeal.main_v13_scv : Memref Cert.KernelIdeal.sig Kind.scVector Space.hbm Cert.KernelIdeal.S40064 EltTy.f32)
local notation "oW" => (Memref.whole Cert.KernelIdeal.main_v24_scv : Memref Cert.KernelIdeal.sig Kind.scVector Space.hbm Cert.KernelIdeal.S16x2x1x40064 EltTy.f32)
local notation "tabM" => (Memref.whole Cert.KernelIdeal.cc2_scratch0 : Memref Cert.KernelIdeal.sig Kind.scVector Space.vmem Cert.KernelIdeal.S40064 EltTy.f32)
local notation "accM" => (Memref.whole Cert.KernelIdeal.cc2_scratch1 : Memref Cert.KernelIdeal.sig Kind.scVector Space.vmem Cert.KernelIdeal.S40064 EltTy.f32)
local notation "sb0M" => (Memref.whole Cert.KernelIdeal.cc2_scratch2 : Memref Cert.KernelIdeal.sig Kind.scVector Space.vmem Cert.KernelIdeal.S8192 EltTy.i32)
local notation "db0M" => (Memref.whole Cert.KernelIdeal.cc2_scratch3 : Memref Cert.KernelIdeal.sig Kind.scVector Space.vmem Cert.KernelIdeal.S8192 EltTy.i32)
local notation "sb1M" => (Memref.whole Cert.KernelIdeal.cc2_scratch4 : Memref Cert.KernelIdeal.sig Kind.scVector Space.vmem Cert.KernelIdeal.S8192 EltTy.i32)
local notation "db1M" => (Memref.whole Cert.KernelIdeal.cc2_scratch5 : Memref Cert.KernelIdeal.sig Kind.scVector Space.vmem Cert.KernelIdeal.S8192 EltTy.i32)

/-- The counters' copy in the ghost state. -/
abbrev EC : UEmb Counters 𝕄 := countersEmb

omit [FloatOps F] in
/-- A transfer in flight delivers, beside what it delivers, anything kept aside for its landing. -/
theorem Flight_frame (c : Thread nD τ) {sm : SemLoc sig} {ι : HIx 3} {N : ℕ} {D P : sProp 𝕄} :
    iprop(Transfers.Flight (EC (F := F)) c sm ι N D ∗ P) ⊢ Transfers.Flight (EC (F := F)) c sm ι N iprop(D ∗ P) := by
  unfold Transfers.Flight
  iintro ⟨⟨⟨%R, HR, %hcap, %hpeek⟩, Hcred⟩, HP⟩
  isplitl [HR HP]
  · iexists iprop(R ∗ P)
    isplitl [HR HP]; · isplitl [HR] <;> iassumption
    isplit
    · ipureintro
      intro K
      iintro ⟨⟨HR, HP⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HP⟩, HK⟩
      iapply (hpeek K)
      isplitl [HR]; · iexact HR
      iintro HR
      iapply HK
      isplitl [HR] <;> iassumption
  · iexact Hcred

omit [FloatOps F] in
theorem pts_of_eq {ℓ : Loc nD τ sig} {S : Finset (Idx ℓ)} {q : PosShare TreeShare} {f g : Buf (Elt F) ℓ} (h : f = g) :
    (ℓ ↦[S]{q} f : sProp 𝕄) ⊢ ℓ ↦[S]{q} g := by rw [h]

section Tile
variable (d : Dev nD) (L : grid2.Coords)

local notation "thr" => (V d (cV L) (jV L))

/-- The start of a local copy out of an array held on any set of elements that includes the source's, into a buffer
    held on any set of elements that includes the destination's, on a semaphore at zero: the copy in flight delivers
    the buffer rewritten and the array as it was held. -/
theorem wp_issue {α : Type} {Q : α → sProp 𝕄} {sp sp' : Space} {s₀ : Shape} {e₀ : EltTy}
    {src : Memref sig (thr).2.kind sp s₀ e₀} {dst : Memref sig (thr).2.kind sp' s₀ e₀} {sem : DmaSem sig}
    {hsrc : src.view.WordExact} {hdst : dst.view.WordExact} {hsem : DmaTarget.Typed (nD := nD) sp (SemLoc.dma sem) (.here dst)}
    {k : PUnit → Prog (TpuEff nD τ sig (Elt F) Λ₀ (thr).2) α} {q : PosShare TreeShare}
    {S : Finset (Idx (src.view.loc thr))} {fs : Buf (Elt F) (src.view.loc thr)}
    {Sd : Finset (Idx (dst.view.loc thr))} {fd : Buf (Elt F) (dst.view.loc thr)}
    (N : ℕ) (hN : dst.view.amount (SemLoc.dma sem) = N) (hN0 : 0 < N) (hS : src.view.set ⊆ S) (hSd : dst.view.set ⊆ Sd) :
    iprop((src.view.loc thr ↦[S]{q} fs) ∗ (dst.view.loc thr ↦[Sd]{fullShare} fd) ∗ semVal (thr, SemLoc.dma sem) 0)
      ⊢ iprop((Transfers.Flight (EC (F := F)) thr (SemLoc.dma sem) none N
                iprop((dst.view.loc thr ↦[Sd]{fullShare} (dst.view.write (Elt F) fd (ReadAs.same.apply (src.view.read (Elt F) fs)) Finset.univ))
                      ∗ (src.view.loc thr ↦[S]{q} fs))
              -∗ wp frame (wpE (defs₀ (F := F)) 𝒱₀ thr none) Set.univ (k ⟨⟩) Q)
          -∗ wp frame (wpE (defs₀ (F := F)) 𝒱₀ thr none) Set.univ (.op (.enqueueDmaAs src (.here dst) .same (SemLoc.dma sem) hsrc hdst hsem) k) Q) := by
  iintro ⟨Hs, Hd, Hv⟩ Hk
  ihave Hs' := (pointsTo_split_subset hS).1 $$ Hs
  icases Hs' with ⟨Hs1, Hs2⟩
  iapply (Transfers.wp_dmaLocal (EC (F := F)) 𝒱₀ thr none (none : HIx 3) N hN hN0 hSd) $$ [Hs1 Hd Hv]
  · isplitl [Hs1]; · iexact Hs1
    isplitl [Hd] <;> iassumption
  iintro HF
  iapply Hk
  iapply (Transfers.Flight_mono (EC (F := F)) thr ?_)
  rotate_left
  · iapply (Flight_frame thr)
    isplitl [HF]; · iexact HF
    iexact Hs2
  · iintro ⟨⟨Hd, Hs1⟩, Hs2⟩
    isplitl [Hd]; · iexact Hd
    iapply (pointsTo_split_subset hS).2
    isplitl [Hs1] <;> iassumption

/-- The start of the copy of chunk C of half eh of a list into a staging buffer: in flight it delivers the buffer at
    that chunk and the list as it was held. -/
theorem wp_issue_s0 {α : Type} {Q : α → sProp 𝕄} {sem : DmaSem sig} {off : Fin 3 → Nat} {inb : ∀ i, off i + S1x1x8192.size i ≤ S2x1x163840.size i}
    {hsrc : (((sW).slice (Rect.unit (s := S2x1x163840) off S1x1x8192.size inb) (fun _ => rfl)).squeeze S8192 squeezes_S1x1x8192_S8192).view.WordExact}
    {hdst : (sb0M).view.WordExact}
    {hsem : DmaTarget.Typed (nD := nD) Space.hbm (SemLoc.dma sem) (DmaTarget.here (sb0M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((sLoc d ↦{q} a) ∗ ((sb0M).view.loc thr ↦{fullShare} fd) ∗ semVal (thr, SemLoc.dma sem) 0)
      ⊢ iprop((Transfers.Flight (EC (F := F)) thr (SemLoc.dma sem) none (sb0M).view.dmaCredit
                iprop(((sb0M).view.loc thr ↦{fullShare} chunkBuf a eh C) ∗ (sLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((sW).slice (Rect.unit (s := S2x1x163840) off S1x1x8192.size inb) (fun _ => rfl)).squeeze S8192 squeezes_S1x1x8192_S8192)
                (.here (sb0M)) .same (SemLoc.dma sem) hsrc hdst hsem) k) Q) := by
  iintro ⟨Hs, Hd, Hv⟩ Hk
  iapply (wp_issue d L (src := (((sW).slice (Rect.unit (s := S2x1x163840) off S1x1x8192.size inb) (fun _ => rfl)).squeeze S8192 squeezes_S1x1x8192_S8192)) (dst := sb0M) (S := Finset.univ) (Sd := Finset.univ) (fs := a) (fd := fd) (q := q)
    (sb0M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v6 a off inb eh C hoff))) $$ Hd
  · iexact Hs

/-- The start of the copy of chunk C of half eh of a list into a staging buffer: in flight it delivers the buffer at
    that chunk and the list as it was held. -/
theorem wp_issue_d0 {α : Type} {Q : α → sProp 𝕄} {sem : DmaSem sig} {off : Fin 3 → Nat} {inb : ∀ i, off i + S1x1x8192.size i ≤ S2x1x163840.size i}
    {hsrc : (((dW).slice (Rect.unit (s := S2x1x163840) off S1x1x8192.size inb) (fun _ => rfl)).squeeze S8192 squeezes_S1x1x8192_S8192).view.WordExact}
    {hdst : (db0M).view.WordExact}
    {hsem : DmaTarget.Typed (nD := nD) Space.hbm (SemLoc.dma sem) (DmaTarget.here (db0M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((dLoc d ↦{q} a) ∗ ((db0M).view.loc thr ↦{fullShare} fd) ∗ semVal (thr, SemLoc.dma sem) 0)
      ⊢ iprop((Transfers.Flight (EC (F := F)) thr (SemLoc.dma sem) none (db0M).view.dmaCredit
                iprop(((db0M).view.loc thr ↦{fullShare} chunkBuf a eh C) ∗ (dLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((dW).slice (Rect.unit (s := S2x1x163840) off S1x1x8192.size inb) (fun _ => rfl)).squeeze S8192 squeezes_S1x1x8192_S8192)
                (.here (db0M)) .same (SemLoc.dma sem) hsrc hdst hsem) k) Q) := by
  iintro ⟨Hs, Hd, Hv⟩ Hk
  iapply (wp_issue d L (src := (((dW).slice (Rect.unit (s := S2x1x163840) off S1x1x8192.size inb) (fun _ => rfl)).squeeze S8192 squeezes_S1x1x8192_S8192)) (dst := db0M) (S := Finset.univ) (Sd := Finset.univ) (fs := a) (fd := fd) (q := q)
    (db0M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v9 a off inb eh C hoff))) $$ Hd
  · iexact Hs

/-- The start of the copy of chunk C of half eh of a list into a staging buffer: in flight it delivers the buffer at
    that chunk and the list as it was held. -/
theorem wp_issue_s1 {α : Type} {Q : α → sProp 𝕄} {sem : DmaSem sig} {off : Fin 3 → Nat} {inb : ∀ i, off i + S1x1x8192.size i ≤ S2x1x163840.size i}
    {hsrc : (((sW).slice (Rect.unit (s := S2x1x163840) off S1x1x8192.size inb) (fun _ => rfl)).squeeze S8192 squeezes_S1x1x8192_S8192).view.WordExact}
    {hdst : (sb1M).view.WordExact}
    {hsem : DmaTarget.Typed (nD := nD) Space.hbm (SemLoc.dma sem) (DmaTarget.here (sb1M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((sLoc d ↦{q} a) ∗ ((sb1M).view.loc thr ↦{fullShare} fd) ∗ semVal (thr, SemLoc.dma sem) 0)
      ⊢ iprop((Transfers.Flight (EC (F := F)) thr (SemLoc.dma sem) none (sb1M).view.dmaCredit
                iprop(((sb1M).view.loc thr ↦{fullShare} chunkBuf a eh C) ∗ (sLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((sW).slice (Rect.unit (s := S2x1x163840) off S1x1x8192.size inb) (fun _ => rfl)).squeeze S8192 squeezes_S1x1x8192_S8192)
                (.here (sb1M)) .same (SemLoc.dma sem) hsrc hdst hsem) k) Q) := by
  iintro ⟨Hs, Hd, Hv⟩ Hk
  iapply (wp_issue d L (src := (((sW).slice (Rect.unit (s := S2x1x163840) off S1x1x8192.size inb) (fun _ => rfl)).squeeze S8192 squeezes_S1x1x8192_S8192)) (dst := sb1M) (S := Finset.univ) (Sd := Finset.univ) (fs := a) (fd := fd) (q := q)
    (sb1M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v6 a off inb eh C hoff))) $$ Hd
  · iexact Hs

/-- The start of the copy of chunk C of half eh of a list into a staging buffer: in flight it delivers the buffer at
    that chunk and the list as it was held. -/
theorem wp_issue_d1 {α : Type} {Q : α → sProp 𝕄} {sem : DmaSem sig} {off : Fin 3 → Nat} {inb : ∀ i, off i + S1x1x8192.size i ≤ S2x1x163840.size i}
    {hsrc : (((dW).slice (Rect.unit (s := S2x1x163840) off S1x1x8192.size inb) (fun _ => rfl)).squeeze S8192 squeezes_S1x1x8192_S8192).view.WordExact}
    {hdst : (db1M).view.WordExact}
    {hsem : DmaTarget.Typed (nD := nD) Space.hbm (SemLoc.dma sem) (DmaTarget.here (db1M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((dLoc d ↦{q} a) ∗ ((db1M).view.loc thr ↦{fullShare} fd) ∗ semVal (thr, SemLoc.dma sem) 0)
      ⊢ iprop((Transfers.Flight (EC (F := F)) thr (SemLoc.dma sem) none (db1M).view.dmaCredit
                iprop(((db1M).view.loc thr ↦{fullShare} chunkBuf a eh C) ∗ (dLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((dW).slice (Rect.unit (s := S2x1x163840) off S1x1x8192.size inb) (fun _ => rfl)).squeeze S8192 squeezes_S1x1x8192_S8192)
                (.here (db1M)) .same (SemLoc.dma sem) hsrc hdst hsem) k) Q) := by
  iintro ⟨Hs, Hd, Hv⟩ Hk
  iapply (wp_issue d L (src := (((dW).slice (Rect.unit (s := S2x1x163840) off S1x1x8192.size inb) (fun _ => rfl)).squeeze S8192 squeezes_S1x1x8192_S8192)) (dst := db1M) (S := Finset.univ) (Sd := Finset.univ) (fs := a) (fd := fd) (q := q)
    (db1M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v9 a off inb eh C hoff))) $$ Hd
  · iexact Hs

/-- The edge half of the tile, as an index of the lists. -/
abbrev ehL : Fin 2 := (L 0 : Fin 2)

/-- Before outer trip n: the table; the accumulator after the steps of chunks 0 … 2 n − 1; the copies of chunk
    min (2 n) 19 of both lists into staging buffers 0 in flight, each to hand back its buffer at that chunk and the
    list's share it was started from; staging buffers 1 at any contents, their semaphores at zero; the other share of
    both lists; what the tile owes. -/
def outerInv (q₀ q₁ : PosShare TreeShare) (tb : Vec F S40064 .f32) (s t : IVec S2x1x163840 32) (z : Vec F S40064 .f32)
    (O : CellTallies nD τ sig (HIx 3)) (W : Waits sig (HIx 3)) (n : Nat) (_ : Unit) : sProp 𝕄 :=
  iprop(Transfers.MayWaits thr (none : HIx 3) O
    ∗ ((tabM).view.loc thr ↦{fullShare} tb)
    ∗ ((accM).view.loc thr ↦{fullShare} edgeAcc tb s t (ehL L) z (4 * (512 * (2 * n))))
    ∗ Transfers.Flight (EC (F := F)) thr (SemLoc.dma cc2_scratch6.sem) none (sb0M).view.dmaCredit
        iprop(((sb0M).view.loc thr ↦{fullShare} chunkBuf s (ehL L) (min (2 * n) 19)) ∗ (sLoc d ↦{q₀} s))
    ∗ Transfers.Flight (EC (F := F)) thr (SemLoc.dma cc2_scratch7.sem) none (db0M).view.dmaCredit
        iprop(((db0M).view.loc thr ↦{fullShare} chunkBuf t (ehL L) (min (2 * n) 19)) ∗ (dLoc d ↦{q₀} t))
    ∗ (∃ f, (sb1M).view.loc thr ↦{fullShare} f) ∗ (∃ f, (db1M).view.loc thr ↦{fullShare} f)
    ∗ semVal (thr, SemLoc.dma cc2_scratch8.sem) 0 ∗ semVal (thr, SemLoc.dma cc2_scratch9.sem) 0
    ∗ (sLoc d ↦{q₁} s) ∗ (dLoc d ↦{q₁} t)
    ∗ ∃ W', ⌜∀ p ∈ W', p ∈ W ∨ p.2 = none⌝ ∗ owes thr O W')

omit [FloatOps F] in
theorem off4_1 (t1 : Fin k2_t1_loop.trips) (h : t1.val < 10) : k2_off4 L t1 1#32 = ![(ehL L).val, 0, 8192 * (2 * t1.val + 1)] := by
  refine (k2_off4_eq L t1 ⟨0, by decide⟩).trans ?_
  have e : min (2 * t1.val + (⟨0, by decide⟩ : Fin 2).val + 1) 19 = 2 * t1.val + 1 := by simp only []; omega
  rw [e]

omit [FloatOps F] in
theorem off4_2 (t1 : Fin k2_t1_loop.trips) : k2_off4 L t1 2#32 = ![(ehL L).val, 0, 8192 * (min (2 * (t1.val + 1)) 19)] := by
  refine (k2_off4_eq L t1 ⟨1, by decide⟩).trans ?_
  have e : min (2 * t1.val + (⟨1, by decide⟩ : Fin 2).val + 1) 19 = min (2 * (t1.val + 1)) 19 := by simp only []; omega
  rw [e]

set_option maxHeartbeats 4000000 in
theorem outer_region (q₀ q₁ : PosShare TreeShare) (tb : Vec F S40064 .f32) (s t : IVec S2x1x163840 32) (z : Vec F S40064 .f32)
    (hs : EdgePre s) (ht : EdgePre t) (O : CellTallies nD τ sig (HIx 3)) (W : Waits sig (HIx 3))
    (t1 : Fin k2_t1_loop.trips) (a : Unit) :
    outerInv d L q₀ q₁ tb s t z O W t1.val a
      ⊢ wp frame (wpE (defs₀ (F := F)) 𝒱₀ thr none) Set.univ
          (k2_t1_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2 t1 a)
          (outerInv d L q₀ q₁ tb s t z O W (t1.val + 1)) := by
  have ht10 : t1.val < 10 := lt_of_lt_of_le t1.isLt k2_t1_abs.2.1
  unfold outerInv k2_t1_body
  rw [k2_part5_eq_skeleton]; unfold k2_part5_skel
  simp only [Prog.bind_lift, Prog.bind_op, Prog.bind_ret, Prog.pure_eq_ret, Prog.bind_assoc]
  iintro ⟨#Hmw, Htab, Hacc, HF0, HF1, ⟨%f4, Hsb1⟩, ⟨%f5, Hdb1⟩, Hs2, Hs3, HsR, HdR, %W', %hW', HO⟩
  -- buffers 0 have landed: chunk 2 t of both lists
  iapply (Transfers.wp_waitLocalO (EC (F := F)) 𝒱₀ thr none (none : HIx 3) rfl) $$ [HF0 HO]
  · isplitl [HF0]; · iexact HF0
    isplitl [HO]; · iexact HO
    iapply (Transfers.MayWaits.elim (SemLoc.dma cc2_scratch6.sem)); iexact Hmw
  iintro ⟨⟨Hsb0, HsL⟩, Hs0, HO⟩
  iapply (Transfers.wp_waitLocalO (EC (F := F)) 𝒱₀ thr none (none : HIx 3) rfl) $$ [HF1 HO]
  · isplitl [HF1]; · iexact HF1
    isplitl [HO]; · iexact HO
    iapply (Transfers.MayWaits.elim (SemLoc.dma cc2_scratch7.sem)); iexact Hmw
  iintro ⟨⟨Hdb0, HdL⟩, Hs1, HO⟩
  -- chunk 2 t + 1 starts into buffers 1
  iapply (wp_issue_s1 d L s f4 (ehL L) (2 * t1.val + 1) (off4_1 L t1 ht10)) $$ [HsR Hsb1 Hs2]
  · isplitl [HsR]; · iexact HsR
    isplitl [Hsb1] <;> iassumption
  iintro HF2
  iapply (wp_issue_d1 d L t f5 (ehL L) (2 * t1.val + 1) (off4_1 L t1 ht10)) $$ [HdR Hdb1 Hs3]
  · isplitl [HdR]; · iexact HdR
    isplitl [Hdb1] <;> iassumption
  iintro HF3
  -- the steps of chunk 2 t off buffers 0
  have e0 : min (2 * t1.val) 19 = 2 * t1.val := by omega
  rw [e0]
  iapply (compute0 d L _ tb s t z hs ht (ehL L) (2 * t1.val) _ _ t1)
  isplitl [Htab]; · iexact Htab
  isplitl [Hacc]; · iexact Hacc
  isplitl [Hsb0]; · iexact Hsb0
  isplitl [Hdb0]; · iexact Hdb0
  iintro ⟨Htab, Hacc, Hsb0, Hdb0⟩
  -- buffers 1 have landed: chunk 2 t + 1
  iapply (Transfers.wp_waitLocalO (EC (F := F)) 𝒱₀ thr none (none : HIx 3) rfl) $$ [HF2 HO]
  · isplitl [HF2]; · iexact HF2
    isplitl [HO]; · iexact HO
    iapply (Transfers.MayWaits.elim (SemLoc.dma cc2_scratch8.sem)); iexact Hmw
  iintro ⟨⟨Hsb1, HsR⟩, Hs2, HO⟩
  iapply (Transfers.wp_waitLocalO (EC (F := F)) 𝒱₀ thr none (none : HIx 3) rfl) $$ [HF3 HO]
  · isplitl [HF3]; · iexact HF3
    isplitl [HO]; · iexact HO
    iapply (Transfers.MayWaits.elim (SemLoc.dma cc2_scratch9.sem)); iexact Hmw
  iintro ⟨⟨Hdb1, HdR⟩, Hs3, HO⟩
  -- chunk min (2 t + 2) 19 starts into buffers 0
  iapply (wp_issue_s0 d L s _ (ehL L) (min (2 * (t1.val + 1)) 19) (off4_2 L t1)) $$ [HsL Hsb0 Hs0]
  · isplitl [HsL]; · iexact HsL
    isplitl [Hsb0] <;> iassumption
  iintro HF0
  iapply (wp_issue_d0 d L t _ (ehL L) (min (2 * (t1.val + 1)) 19) (off4_2 L t1)) $$ [HdL Hdb0 Hs1]
  · isplitl [HdL]; · iexact HdL
    isplitl [Hdb0] <;> iassumption
  iintro HF1
  -- the steps of chunk 2 t + 1 off buffers 1
  iapply (compute1 d L _ tb s t z hs ht (ehL L) (2 * t1.val + 1))
  isplitl [Htab]; · iexact Htab
  isplitl [Hacc]; · iexact Hacc
  isplitl [Hsb1]; · iexact Hsb1
  isplitl [Hdb1]; · iexact Hdb1
  iintro ⟨Htab, Hacc, Hsb1, Hdb1⟩
  rw [wp_ret]; imodintro
  isplitr; · iexact Hmw
  isplitl [Htab]; · iexact Htab
  isplitl [Hacc]
  · iapply (pts_of_eq (congrArg (edgeAcc tb s t (ehL L) z) (show 4 * (512 * (2 * t1.val + 1 + 1)) = 4 * (512 * (2 * (t1.val + 1))) by omega))) $$ Hacc
  isplitl [HF0]; · iexact HF0
  isplitl [HF1]; · iexact HF1
  isplitl [Hsb1]; · iexists _; iexact Hsb1
  isplitl [Hdb1]; · iexists _; iexact Hdb1
  isplitl [Hs2]; · iexact Hs2
  isplitl [Hs3]; · iexact Hs3
  isplitl [HsR]; · iexact HsR
  isplitl [HdR]; · iexact HdR
  iexists (insert (SemLoc.dma cc2_scratch9.sem, (none : HIx 3)) (insert (SemLoc.dma cc2_scratch8.sem, (none : HIx 3))
    (insert (SemLoc.dma cc2_scratch7.sem, (none : HIx 3)) (insert (SemLoc.dma cc2_scratch6.sem, (none : HIx 3)) W')))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- The tile's feature group, as an index of the table. -/
abbrev cgL : Fin 16 := (L 1 : Fin 16)

/-- What the tile holds of the device's arrays: a read share of the table, of the two lists and of the zero array,
    each whole, and its own row of the result. -/
abbrev arrays (q : PosShare TreeShare) (g : Vec F S16x1x40064 .f32) (s t : IVec S2x1x163840 32) (z : Vec F S40064 .f32)
    (o : Vec F S16x2x1x40064 .f32) : sProp 𝕄 :=
  iprop((gLoc d ↦{q} g) ∗ (sLoc d ↦{q} s) ∗ (dLoc d ↦{q} t) ∗ (zLoc d ↦{q} z) ∗ (oLoc d ↦[edgeRow L]{fullShare} o))

omit [FloatOps F] in
theorem off2_0 : k2_off2 L = ![(ehL L).val, 0, 8192 * 0] := k2_off2_eq L

set_option maxHeartbeats 4000000 in
set_option maxRecDepth 8192 in
theorem edge_tile_body (hF : (K (F := F)).Facts) (q : PosShare TreeShare) (g : Vec F S16x1x40064 .f32) (s t : IVec S2x1x163840 32) (z : Vec F S40064 .f32)
    (o : Vec F S16x2x1x40064 .f32) (hs : EdgePre s) (ht : EdgePre t)
    (O : CellTallies nD τ sig (HIx 3)) (W : Waits sig (HIx 3)) (hO : ∀ g, O g none = 0) :
    iprop(levAts (K (F := F)).L (K (F := F)).lev ∗ arrays d L q g s t z o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_edge_kernel L (Memref.whole main_v23_scv) (Memref.isWhole_whole _) (Memref.whole main_v6_scv) (Memref.isWhole_whole _)
            (Memref.whole main_v9_scv) (Memref.isWhole_whole _) (Memref.whole main_v13_scv) (Memref.isWhole_whole _)
            (Memref.whole main_v24_scv) (Memref.isWhole_whole _) (Memref.whole cc2_scratch0) (Memref.isWhole_whole _)
            (Memref.whole cc2_scratch1) (Memref.isWhole_whole _) (Memref.whole cc2_scratch2) (Memref.isWhole_whole _)
            (Memref.whole cc2_scratch3) (Memref.isWhole_whole _) (Memref.whole cc2_scratch4) (Memref.isWhole_whole _)
            (Memref.whole cc2_scratch5) (Memref.isWhole_whole _) cc2_scratch6 cc2_scratch7 cc2_scratch8 cc2_scratch9 cc2_scoped0 cc2_scoped1 cc2_scoped2)
          fun _ => iprop(arrays d L q g s t z (edgeOut g s t z)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  simp only [cc2_edge_kernel_eq_skeleton]; unfold cc2_edge_kernel_skel
  rw [k2_part6_eq_skeleton]; unfold k2_part6_skel
  simp only [Prog.bind_lift, Prog.bind_op, Prog.bind_ret, Prog.pure_eq_ret, Prog.bind_assoc]
  rw [(K (F := F)).scopedBufs_V hF d (cV L) (jV L), SparseCore.Cfg.scopedSems0_V (Val := Elt F) d (cV L) (jV L), hRS, hRB]
  unfold arrays
  iintro ⟨#Hlv, ⟨Hg, Hs, Hd, Hz, Ho⟩, ⟨⟨%f0, Htab⟩, ⟨%f1, Hacc⟩, ⟨%f2, Hsb0⟩, ⟨%f3, Hdb0⟩, ⟨%f4, Hsb1⟩, ⟨%f5, Hdb1⟩, Hbufs⟩,
    ⟨Hs0, Hs1, Hs2, Hs3, Hc0, Hc1, Hc2, Hsems⟩, HO⟩
  ihave Hmw' := ((K (F := F)).mayWaits_none hO : (levAts (K (F := F)).L (K (F := F)).lev : sProp 𝕄) ⊢ Transfers.MayWaits thr (none : HIx 3) O) $$ Hlv
  icases Hmw' with #Hmw
  -- one share of each list per pair of staging buffers
  ihave Hs' := (pointsTo_share (PosShare.mem_left_op_right q)).1 $$ Hs
  icases Hs' with ⟨HsL, HsR⟩
  ihave Hd' := (pointsTo_share (PosShare.mem_left_op_right q)).1 $$ Hd
  icases Hd' with ⟨HdL, HdR⟩
  -- the tile's row of the table into its scratch
  iapply (wp_issue d L (src := (((gW).slice (Rect.unit (s := S16x1x40064) (k2_off1 L) S1x1x40064.size (k2_off1_inb L)) (fun _ => rfl)).squeeze S40064 squeezes_S1x1x40064_S40064)) (dst := tabM) (S := Finset.univ) (Sd := Finset.univ) (fs := g) (fd := f0) (q := q)
      (tabM).view.dmaCredit rfl (View.dmaCredit_pos _ (by decide)) (Finset.subset_univ _) (Finset.subset_univ _)) $$ [Hg Htab Hc0]
  · isplitl [Hg]; · iexact Hg
    isplitl [Htab] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc2_scoped0.sem)); iexact Hmw
  iintro ⟨⟨Htab, Hg⟩, Hc0, HO⟩
  ihave Htab := (pts_of_eq ((View.write_whole_univ _ _ _).trans (read_tab_row g _ _ (cgL L) (k2_off1_eq L)))) $$ Htab
  -- the zero array into the accumulator
  iapply (wp_issue d L (src := zW) (dst := accM) (S := Finset.univ) (Sd := Finset.univ) (fs := z) (fd := f1) (q := q)
      (accM).view.dmaCredit rfl (View.dmaCredit_pos _ (by decide)) (Finset.subset_univ _) (Finset.subset_univ _)) $$ [Hz Hacc Hc1]
  · isplitl [Hz]; · iexact Hz
    isplitl [Hacc] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc2_scoped1.sem)); iexact Hmw
  iintro ⟨⟨Hacc, Hz⟩, Hc1, HO⟩
  ihave Hacc := (pts_of_eq (View.write_whole_univ _ _ _)) $$ Hacc
  -- chunk 0 of both lists starts into buffers 0
  iapply (wp_issue_s0 d L s f2 (ehL L) 0 (off2_0 L)) $$ [HsL Hsb0 Hs0]
  · isplitl [HsL]; · iexact HsL
    isplitl [Hsb0] <;> iassumption
  iintro HF0
  iapply (wp_issue_d0 d L t f3 (ehL L) 0 (off2_0 L)) $$ [HdL Hdb0 Hs1]
  · isplitl [HdL]; · iexact HdL
    isplitl [Hdb0] <;> iassumption
  iintro HF1
  -- the ten trips
  sl_for (outerInv d L q.left q.right (tabRow g (cgL L)) s t z O W) $$ [Htab Hacc HF0 HF1 Hsb1 Hdb1 Hs2 Hs3 HsR HdR HO]
  case region => intro k a; exact outer_region d L q.left q.right (tabRow g (cgL L)) s t z hs ht O W k a
  · unfold outerInv
    isplitr; · iexact Hmw
    isplitl [Htab]; · iexact Htab
    isplitl [Hacc]; · iexact Hacc
    isplitl [HF0]; · iexact HF0
    isplitl [HF1]; · iexact HF1
    isplitl [Hsb1]; · iexists _; iexact Hsb1
    isplitl [Hdb1]; · iexists _; iexact Hdb1
    isplitl [Hs2]; · iexact Hs2
    isplitl [Hs3]; · iexact Hs3
    isplitl [HsR]; · iexact HsR
    isplitl [HdR]; · iexact HdR
    iexists (insert (SemLoc.dma cc2_scoped1.sem, (none : HIx 3)) (insert (SemLoc.dma cc2_scoped0.sem, (none : HIx 3)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold outerInv
  have htr : Scf.trips k2_t1_loop.lb k2_t1_loop.ub k2_t1_loop.st = 10 := by decide
  rw [htr]
  icases HI with ⟨-, Htab, Hacc, HF0, HF1, ⟨%f4', Hsb1⟩, ⟨%f5', Hdb1⟩, Hs2, Hs3, HsR, HdR, %W', %hW', HO⟩
  -- the last copies into buffers 0 land
  iapply (Transfers.wp_waitLocalO (EC (F := F)) 𝒱₀ thr none (none : HIx 3) rfl) $$ [HF0 HO]
  · isplitl [HF0]; · iexact HF0
    isplitl [HO]; · iexact HO
    iapply (Transfers.MayWaits.elim (SemLoc.dma cc2_scratch6.sem)); iexact Hmw
  iintro ⟨⟨Hsb0, HsL⟩, Hs0, HO⟩
  iapply (Transfers.wp_waitLocalO (EC (F := F)) 𝒱₀ thr none (none : HIx 3) rfl) $$ [HF1 HO]
  · isplitl [HF1]; · iexact HF1
    isplitl [HO]; · iexact HO
    iapply (Transfers.MayWaits.elim (SemLoc.dma cc2_scratch7.sem)); iexact Hmw
  iintro ⟨⟨Hdb0, HdL⟩, Hs1, HO⟩
  -- the accumulator out to the tile's row of the result
  ihave Ho := (Entails.of_eq (congrArg (fun S => (oLoc d ↦[S]{fullShare} o : sProp 𝕄)) (oRowK_set L).symm)) $$ Ho
  iapply (wp_issue d L (src := accM) (dst := oRowK L) (S := Finset.univ) (Sd := (oRowK L).view.set) (fd := o) (q := fullShare)
      (oRowK L).view.dmaCredit rfl (View.dmaCredit_pos _ (by decide)) (Finset.subset_univ _) (subset_refl _)) $$ [Hacc Ho Hc2]
  · isplitl [Hacc]; · iexact Hacc
    isplitl [Ho] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc2_scoped2.sem)); iexact Hmw
  iintro ⟨⟨Ho, Hacc⟩, Hc2, HO⟩
  have key : ((oRowK L).view.loc thr ↦[(oRowK L).view.set]{fullShare}
        (oRowK L).view.write (Elt F) o (ReadAs.same.apply ((accM).view.read (Elt F) (edgeAcc (tabRow g (cgL L)) s t (ehL L) z (4 * (512 * (2 * 10))))))
          Finset.univ : sProp 𝕄)
      ⊢ oLoc d ↦[edgeRow L]{fullShare} edgeOut g s t z := by
    have e1 : ReadAs.same.apply ((accM).view.read (Elt F) (edgeAcc (tabRow g (cgL L)) s t (ehL L) z (4 * (512 * (2 * 10)))))
        = edgeAcc (tabRow g (cgL L)) s t (ehL L) z (4 * (512 * (2 * 10))) :=
      (ReadAs.apply_same _).trans (View.read_whole _ _)
    rw [oRowK_set, e1]
    exact Entails.of_eq (pointsTo_congr fun i hi => out_value L g s t z o i hi)
  rw [wp_ret]; imodintro
  isplitl [Hg HsL HsR HdL HdR Hz Ho]
  · isplitl [Hg]; · iexact Hg
    isplitl [HsL HsR]
    · iapply (pointsTo_share (PosShare.mem_left_op_right q)).2
      isplitl [HsL] <;> iassumption
    isplitl [HdL HdR]
    · iapply (pointsTo_share (PosShare.mem_left_op_right q)).2
      isplitl [HdL] <;> iassumption
    isplitl [Hz]; · iexact Hz
    iapply key $$ Ho
  isplitl [Htab Hacc Hsb0 Hdb0 Hsb1 Hdb1 Hbufs]
  · isplitl [Htab]; · iexists _; iexact Htab
    isplitl [Hacc]; · iexists _; iexact Hacc
    isplitl [Hsb0]; · iexists _; iexact Hsb0
    isplitl [Hdb0]; · iexists _; iexact Hdb0
    isplitl [Hsb1]; · iexists _; iexact Hsb1
    isplitl [Hdb1]; · iexists _; iexact Hdb1
    iexact Hbufs
  isplitl [Hs0 Hs1 Hs2 Hs3 Hc0 Hc1 Hc2 Hsems]
  · isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    iexact Hsems
  iexists (insert (SemLoc.dma cc2_scoped2.sem, (none : HIx 3)) (insert (SemLoc.dma cc2_scratch7.sem, (none : HIx 3))
    (insert (SemLoc.dma cc2_scratch6.sem, (none : HIx 3)) W'))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

end Tile

end cc2_edge

end Cert.KernelIdeal.Hand

end
-- ==== Proof.KI.EdgeDefs4.lean ====
/-
  Names shared by the modules about the edge kernel's body on one vector subcore: the tile's place, its row of the
  result, the arrays' locations, and the staged chunk of an edge list.
-/
import proofs.«219763_g10557029614292_week1_w2_488_21_alg».proof.Proof.KI.Base
import proofs.«219763_g10557029614292_week1_w2_488_21_alg».proof.Proof.KI.Vals

noncomputable section

namespace Cert.KernelIdeal.Hand

open Cert.KernelIdeal Cert.KernelIdeal.Gen
open Idealize.ShloMosaic Idealize.ShloMosaic.ValueIdx
open Idealize.ShloMosaic.SparseCore (S V T)

namespace cc4_edge

/-- The elements of the result the tile at L writes: row (L 1, L 0). -/
def edgeRow (L : grid4.Coords) : Finset S16x2x1x40064.Idx := Finset.univ.filter fun j => (j 0).val = (L 1).val ∧ (j 1).val = (L 0).val

abbrev cV (L : grid4.Coords) : Fin τ.nSC := (L 0).castLE hcore4
abbrev jV (L : grid4.Coords) : Fin τ.nSub := (L 1).castLE hsub4

/-- The tile's row of the result, as the body slices it. -/
abbrev oRowK (L : grid4.Coords) : Memref sig .scVector .hbm S40064 .f32 :=
  ((Memref.whole main_v38_scv : Memref sig .scVector .hbm S16x2x1x40064 .f32).slice (Rect.unit (s := S16x2x1x40064) (k4_off14 L) S1x1x1x40064.size (k4_off14_inb L)) (fun _ => rfl)).squeeze S40064 squeezes_S1x1x1x40064_S40064

abbrev gLoc (d : Dev nD) : Loc nD τ sig := (SparseCore.T d).loc main_v37
abbrev sLoc (d : Dev nD) : Loc nD τ sig := (SparseCore.T d).loc main_v6
abbrev dLoc (d : Dev nD) : Loc nD τ sig := (SparseCore.T d).loc main_v9
abbrev zLoc (d : Dev nD) : Loc nD τ sig := (SparseCore.T d).loc main_v13
abbrev oLoc (d : Dev nD) : Loc nD τ sig := (SparseCore.T d).loc main_v38

/-- The 8192 words of chunk C of half eh of a padded edge list (zero past its end: never read there). -/
def chunkBuf (a : IVec S2x1x163840 32) (eh : Fin 2) (C : Nat) : IVec S8192 32 :=
  fun x => if h : 8192 * C + (x 0).val < 163840 then a (ix3 eh 0 ⟨8192 * C + (x 0).val, h⟩) else 0#32

theorem chunkBuf_le {a : IVec S2x1x163840 32} (ha : EdgePre a) (eh : Fin 2) (C : Nat) (j : S8192.Idx) : (chunkBuf a eh C j).toNat ≤ 10000 := by
  unfold chunkBuf
  split
  · exact ha _
  · simp

end cc4_edge

end Cert.KernelIdeal.Hand

end
-- ==== Proof.KI.EdgeAux4.lean ====
/-
  What the edge kernel's copies read and write on one vector subcore, and the subcore's own semaphores and scratch.

  A copy of chunk C of half eh of a padded edge list reads the 8192 words chunkBuf of it; sixteen consecutive words of
  that staged chunk, from word 16 m, are the list's sixteen-word chunk 512 C + m. The copy of the tile's row of the
  packed feature table reads tabRow. The tile at grid point L writes row (L 1, L 0) of the result: the elements
  edgeRow L, and a whole write through the tile's slice leaves word n of what was written at element (L 1, L 0, 0, n).
  The tile's seven DMA semaphores and six scratch arrays are among the subcore's own, each beside the rest.
-/
import proofs.«219763_g10557029614292_week1_w2_488_21_alg».proof.Proof.KI.EdgeDefs4

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc4_edge

variable {F : FTy → Type}

local notation "𝕄" => MT nD τ sig (HIx 3) (Elt F) ℕ UU ℕ

variable [FloatOps F]

local notation "gW" => (Memref.whole Cert.KernelIdeal.main_v37_scv : Memref Cert.KernelIdeal.sig Kind.scVector Space.hbm Cert.KernelIdeal.S16x1x40064 EltTy.f32)
local notation "sW" => (Memref.whole Cert.KernelIdeal.main_v6_scv : Memref Cert.KernelIdeal.sig Kind.scVector Space.hbm Cert.KernelIdeal.S2x1x163840 EltTy.i32)
local notation "dW" => (Memref.whole Cert.KernelIdeal.main_v9_scv : Memref Cert.KernelIdeal.sig Kind.scVector Space.hbm Cert.KernelIdeal.S2x1x163840 EltTy.i32)

section Aux
variable (d : Dev nD) (L : grid4.Coords)
local notation "thr" => (V d (cV L) (jV L))

/-- One word of a three-axis array read through a row cut from it and squeezed to one axis: the word at the row's
    offsets, the one free coordinate added on the last axis. -/
theorem reshape3_one {n : Nat} (j : (⟨1, ![n]⟩ : Shape).Idx) (h : (⟨1, ![n]⟩ : Shape).numel = (⟨3, ![1, 1, n]⟩ : Shape).numel) :
    Shape.reshapeEquiv h j = ix3 (0 : Fin 1) (0 : Fin 1) (⟨(j 0).val, (j 0).isLt⟩ : Fin n) :=
  Shape.reshapeEquiv_eq_of_rowMajor h (by
    rw [Shape.rowMajor_val_three, Shape.rowMajor_val_one]
    show ((0 : ℕ) * 1 + 0) * n + (j 0).val = (j 0).val
    omega)
/-- The same through a row cut from a four-axis array. -/
theorem reshape4_one {n : Nat} (j : (⟨1, ![n]⟩ : Shape).Idx) (h : (⟨1, ![n]⟩ : Shape).numel = (⟨4, ![1, 1, 1, n]⟩ : Shape).numel) :
    Shape.reshapeEquiv h j = ix4 (0 : Fin 1) (0 : Fin 1) (0 : Fin 1) (⟨(j 0).val, (j 0).isLt⟩ : Fin n) :=
  Shape.reshapeEquiv_eq_of_rowMajor h (by
    rw [Shape.rowMajor_val_four, Shape.rowMajor_val_one]
    show (((0 : ℕ) * 1 + 0) * 1 + 0) * n + (j 0).val = (j 0).val
    omega)

/-- What a copy of chunk C of half eh of the source list reads. -/
theorem read_chunk_v6 (a : IVec S2x1x163840 32) (off : Fin 3 → Nat) (inb : ∀ i, off i + S1x1x8192.size i ≤ S2x1x163840.size i)
    (eh : Fin 2) (C : Nat) (hoff : off = ![eh.val, 0, 8192 * C]) :
    (((sW).slice (Rect.unit (s := S2x1x163840) off S1x1x8192.size inb) (fun _ => rfl)).squeeze S8192 squeezes_S1x1x8192_S8192).view.read (Elt F) a
      = chunkBuf a eh C := by
  subst hoff
  funext j
  refine ((View.read_apply _ _).trans (cast_eq _ _)).trans ?_
  have hx : 8192 * C + (j 0).val < 163840 := by
    have h2 := inb 2
    have hj : (j 0).val < 8192 := (j 0).isLt
    simp at h2
    omega
  unfold chunkBuf
  rw [dif_pos hx]
  refine congrArg a ?_
  show (Rect.unit (s := S2x1x163840) ![eh.val, 0, 8192 * C] S1x1x8192.size inb).emb (Shape.reshapeEquiv _ j) = _
  rw [reshape3_one]
  funext ax; apply Fin.ext
  match ax with
  | 0 => show eh.val + 1 * 0 = eh.val; omega
  | 1 => show 0 + 1 * 0 = 0; rfl
  | 2 => show 8192 * C + 1 * (j 0).val = 8192 * C + (j 0).val; omega

/-- What a copy of chunk C of half eh of the destination list reads. -/
theorem read_chunk_v9 (a : IVec S2x1x163840 32) (off : Fin 3 → Nat) (inb : ∀ i, off i + S1x1x8192.size i ≤ S2x1x163840.size i)
    (eh : Fin 2) (C : Nat) (hoff : off = ![eh.val, 0, 8192 * C]) :
    (((dW).slice (Rect.unit (s := S2x1x163840) off S1x1x8192.size inb) (fun _ => rfl)).squeeze S8192 squeezes_S1x1x8192_S8192).view.read (Elt F) a
      = chunkBuf a eh C := by
  subst hoff
  funext j
  refine ((View.read_apply _ _).trans (cast_eq _ _)).trans ?_
  have hx : 8192 * C + (j 0).val < 163840 := by
    have h2 := inb 2
    have hj : (j 0).val < 8192 := (j 0).isLt
    simp at h2
    omega
  unfold chunkBuf
  rw [dif_pos hx]
  refine congrArg a ?_
  show (Rect.unit (s := S2x1x163840) ![eh.val, 0, 8192 * C] S1x1x8192.size inb).emb (Shape.reshapeEquiv _ j) = _
  rw [reshape3_one]
  funext ax; apply Fin.ext
  match ax with
  | 0 => show eh.val + 1 * 0 = eh.val; omega
  | 1 => show 0 + 1 * 0 = 0; rfl
  | 2 => show 8192 * C + 1 * (j 0).val = 8192 * C + (j 0).val; omega

/-- What the copy of the tile's table row reads. -/
theorem read_tab_row (g : Vec F S16x1x40064 .f32) (off : Fin 3 → Nat) (inb : ∀ i, off i + S1x1x40064.size i ≤ S16x1x40064.size i)
    (cg : Fin 16) (hoff : off = ![cg.val, 0, 0]) :
    (((gW).slice (Rect.unit (s := S16x1x40064) off S1x1x40064.size inb) (fun _ => rfl)).squeeze S40064 squeezes_S1x1x40064_S40064).view.read (Elt F) g
      = tabRow g cg := by
  subst hoff
  funext j
  refine ((View.read_apply _ _).trans (cast_eq _ _)).trans ?_
  unfold tabRow
  refine congrArg g ?_
  show (Rect.unit (s := S16x1x40064) ![cg.val, 0, 0] S1x1x40064.size inb).emb (Shape.reshapeEquiv _ j) = _
  rw [reshape3_one]
  funext ax; apply Fin.ext
  match ax with
  | 0 => show cg.val + 1 * 0 = cg.val; omega
  | 1 => show 0 + 1 * 0 = 0; rfl
  | 2 => show 0 + 1 * (j 0).val = (j 0).val; omega

omit [FloatOps F] in
/-- Where word j of the tile's row of the result lies in the result. -/
theorem oRowK_emb (j : S40064.Idx) :
    (oRowK L).view.emb j = ix4 ⟨(L 1).val, (L 1).isLt⟩ ⟨(L 0).val, (L 0).isLt⟩ (0 : Fin 1) (j 0) := by
  show (Rect.unit (s := S16x2x1x40064) (k4_off14 L) S1x1x1x40064.size (k4_off14_inb L)).emb (Shape.reshapeEquiv _ j) = _
  rw [reshape4_one]
  funext ax; apply Fin.ext
  match ax with
  | 0 => show (k4_off14 L) 0 + 1 * 0 = (L 1).val; rw [k4_off14_eq]; simp
  | 1 => show (k4_off14 L) 1 + 1 * 0 = (L 0).val; rw [k4_off14_eq]; simp
  | 2 => show (k4_off14 L) 2 + 1 * 0 = 0; rw [k4_off14_eq]; simp
  | 3 => show (k4_off14 L) 3 + 1 * (j 0).val = (j 0).val; rw [k4_off14_eq]; simp

omit [FloatOps F] in
/-- The tile's row of the result, as a set of elements: the entries of feature group L 1 and edge half L 0. -/
theorem oRowK_set : (oRowK L).view.set = edgeRow L := by
  ext i
  unfold edgeRow
  rw [Finset.mem_filter]
  constructor
  · intro hi
    obtain ⟨j, -, rfl⟩ := Finset.mem_map.mp hi
    rw [oRowK_emb]
    exact ⟨Finset.mem_univ _, rfl, rfl⟩
  · rintro ⟨-, h0, h1⟩
    refine Finset.mem_map.mpr ⟨ix1 (i 3), Finset.mem_univ _, ?_⟩
    rw [oRowK_emb]
    funext ax; apply Fin.ext
    match ax with
    | 0 => exact h0.symm
    | 1 => exact h1.symm
    | 2 =>
      have h2 : (i 2).val < 1 := (i 2).isLt
      show (0 : ℕ) = (i 2).val
      omega
    | 3 => rfl

/-- A whole write through the tile's row of the result leaves, at element i of the row, word i 3 of what is written. -/
theorem oRowK_write (o : Vec F S16x2x1x40064 .f32) (w : Vec F S40064 .f32) (i : S16x2x1x40064.Idx) (hi : i ∈ edgeRow L) :
    (oRowK L).view.write (Elt F) o w Finset.univ i = w (ix1 (i 3)) := by
  have hi' : i ∈ (oRowK L).view.set := by rw [oRowK_set]; exact hi
  obtain ⟨j, -, rfl⟩ := Finset.mem_map.mp hi'
  refine ((View.write_emb_of_mem _ _ (Finset.mem_univ j)).trans (cast_eq _ _)).trans ?_
  refine congrArg w ?_
  rw [oRowK_emb]
  exact eq_ix1 j

omit [FloatOps F] in
/-- Sixteen consecutive words of a staged chunk are a sixteen-word chunk of the list. -/
theorem chunk_idx (a : IVec S2x1x163840 32) (eh : Fin 2) (C : Nat) (off : Fin 1 → Nat) (inb : ∀ i, off i + S16.size i ≤ S8192.size i)
    (m : Nat) (hoff : off = ![16 * m]) :
    (fun x : S16.Idx => chunkBuf a eh C ((Rect.unit (s := S8192) off S16.size inb).toLoadRect.idx x)) = edgeChunk a eh (512 * C + m) := by
  subst hoff
  funext x
  have hy : ((Rect.unit (s := S8192) ![16 * m] S16.size inb).toLoadRect.idx x 0).val = 16 * m + (x 0).val := by
    show 16 * m + 1 * (x 0).val = _
    omega
  unfold chunkBuf edgeChunk
  by_cases h : 16 * (512 * C + m) + (x 0).val < 163840
  · rw [dif_pos h, dif_pos (by rw [hy]; omega)]
    refine congrArg a ?_
    funext ax
    match ax with
    | 0 => rfl
    | 1 => rfl
    | 2 => exact Fin.ext (by
        show 8192 * C + ((Rect.unit (s := S8192) ![16 * m] S16.size inb).toLoadRect.idx x 0).val = 16 * (512 * C + m) + (x 0).val
        rw [hy]; omega)
  · rw [dif_neg h, dif_neg (by rw [hy]; omega)]

omit [FloatOps F] in
/-- A cell of the tile named by another semaphore stays when that one is taken out. -/
theorem mem_erase_cell {s : Finset (GSem nD τ sig)} {t : Thread nD τ} {a b : SemLoc sig} (hne : a ≠ b) (h : (t, a) ∈ s) :
    (t, a) ∈ s.erase (t, b) :=
  Finset.mem_erase.mpr ⟨fun e => hne (Prod.mk.inj e).2, h⟩

omit [FloatOps F] in
/-- A scoped DMA semaphore of a vector subcore is one of its own cells. -/
theorem mem_ownCells_dma (x : DmaSem sig) (hx : (SemLoc.dma x : SemLoc sig).isScoped .scVector = true) :
    ((thr, SemLoc.dma x) : GSem nD τ sig) ∈ ownCells thr :=
  (mem_ownCells (g := ((thr, SemLoc.dma x) : GSem nD τ sig))).mpr ⟨rfl, hx⟩

omit [FloatOps F] in
/-- The tile's seven semaphores among its own, each at zero, and the rest. -/
theorem ownSems0_V :
    ∃ R : sProp 𝕄, (ownSems0 thr : sProp 𝕄)
      = iprop(semVal (thr, SemLoc.dma cc4_scratch6.sem) 0 ∗ semVal (thr, SemLoc.dma cc4_scratch7.sem) 0 ∗ semVal (thr, SemLoc.dma cc4_scratch8.sem) 0
          ∗ semVal (thr, SemLoc.dma cc4_scratch9.sem) 0 ∗ semVal (thr, SemLoc.dma cc4_scoped0.sem) 0 ∗ semVal (thr, SemLoc.dma cc4_scoped1.sem) 0
          ∗ semVal (thr, SemLoc.dma cc4_scoped2.sem) 0 ∗ R) := by
  have m6 := mem_ownCells_dma d L cc4_scratch6.sem (by decide)
  have m7 := mem_ownCells_dma d L cc4_scratch7.sem (by decide)
  have m8 := mem_ownCells_dma d L cc4_scratch8.sem (by decide)
  have m9 := mem_ownCells_dma d L cc4_scratch9.sem (by decide)
  have n0 := mem_ownCells_dma d L cc4_scoped0.sem (by decide)
  have n1 := mem_ownCells_dma d L cc4_scoped1.sem (by decide)
  have n2 := mem_ownCells_dma d L cc4_scoped2.sem (by decide)
  refine ⟨bigSep ((((((((ownCells thr).erase (thr, SemLoc.dma cc4_scratch6.sem)).erase (thr, SemLoc.dma cc4_scratch7.sem)).erase (thr, SemLoc.dma cc4_scratch8.sem)).erase (thr, SemLoc.dma cc4_scratch9.sem)).erase (thr, SemLoc.dma cc4_scoped0.sem)).erase (thr, SemLoc.dma cc4_scoped1.sem)).erase (thr, SemLoc.dma cc4_scoped2.sem))
      fun g => semVal g 0, ?_⟩
  unfold SparseCore.Cfg.ownSems0
  rw [SparseCore.bigSep_erase' m6,
    SparseCore.bigSep_erase' (mem_erase_cell (by decide) m7),
    SparseCore.bigSep_erase' (mem_erase_cell (by decide) (mem_erase_cell (by decide) m8)),
    SparseCore.bigSep_erase' (mem_erase_cell (by decide) (mem_erase_cell (by decide) (mem_erase_cell (by decide) m9))),
    SparseCore.bigSep_erase' (mem_erase_cell (by decide) (mem_erase_cell (by decide) (mem_erase_cell (by decide) (mem_erase_cell (by decide) n0)))),
    SparseCore.bigSep_erase' (mem_erase_cell (by decide) (mem_erase_cell (by decide) (mem_erase_cell (by decide) (mem_erase_cell (by decide) (mem_erase_cell (by decide) n1))))),
    SparseCore.bigSep_erase' (mem_erase_cell (by decide) (mem_erase_cell (by decide) (mem_erase_cell (by decide) (mem_erase_cell (by decide) (mem_erase_cell (by decide) (mem_erase_cell (by decide) n2))))))]

omit [FloatOps F] in
/-- A scratch array of the tile other than one taken out stays among its own buffers. -/
theorem mem_erase_ref {s : Finset (DevRef τ sig)} {a b : Ref sig .scVector} (hne : a ≠ b)
    (h : (Proc.scVector (cV L) (jV L)).devRef a ∈ s) :
    (Proc.scVector (cV L) (jV L)).devRef a ∈ s.erase ((Proc.scVector (cV L) (jV L)).devRef b) :=
  Finset.mem_erase.mpr ⟨fun e => hne (Proc.devRef_injective _ e), h⟩

omit [FloatOps F] in
/-- The tile's six scratch arrays among its own buffers, each at some contents, and the rest. -/
theorem ownBufs_V :
    ∃ R : sProp 𝕄, (ownBufs thr : sProp 𝕄)
      = iprop((∃ f, (thr).loc cc4_scratch0 ↦{fullShare} f) ∗ (∃ f, (thr).loc cc4_scratch1 ↦{fullShare} f) ∗ (∃ f, (thr).loc cc4_scratch2 ↦{fullShare} f)
          ∗ (∃ f, (thr).loc cc4_scratch3 ↦{fullShare} f) ∗ (∃ f, (thr).loc cc4_scratch4 ↦{fullShare} f) ∗ (∃ f, (thr).loc cc4_scratch5 ↦{fullShare} f)
          ∗ R) := by
  have r0 := SparseCore.Cfg.mem_ownRefs_of_owner (τ := τ) (sig := sig) (p := Proc.scVector (cV L) (jV L)) (b := (Proc.scVector (cV L) (jV L)).devRef cc4_scratch0) rfl
  have r1 := SparseCore.Cfg.mem_ownRefs_of_owner (τ := τ) (sig := sig) (p := Proc.scVector (cV L) (jV L)) (b := (Proc.scVector (cV L) (jV L)).devRef cc4_scratch1) rfl
  have r2 := SparseCore.Cfg.mem_ownRefs_of_owner (τ := τ) (sig := sig) (p := Proc.scVector (cV L) (jV L)) (b := (Proc.scVector (cV L) (jV L)).devRef cc4_scratch2) rfl
  have r3 := SparseCore.Cfg.mem_ownRefs_of_owner (τ := τ) (sig := sig) (p := Proc.scVector (cV L) (jV L)) (b := (Proc.scVector (cV L) (jV L)).devRef cc4_scratch3) rfl
  have r4 := SparseCore.Cfg.mem_ownRefs_of_owner (τ := τ) (sig := sig) (p := Proc.scVector (cV L) (jV L)) (b := (Proc.scVector (cV L) (jV L)).devRef cc4_scratch4) rfl
  have r5 := SparseCore.Cfg.mem_ownRefs_of_owner (τ := τ) (sig := sig) (p := Proc.scVector (cV L) (jV L)) (b := (Proc.scVector (cV L) (jV L)).devRef cc4_scratch5) rfl
  refine ⟨bigSep (((((((ownRefs (τ := τ) (.scVector (cV L) (jV L))).erase ((Proc.scVector (cV L) (jV L)).devRef cc4_scratch0)).erase ((Proc.scVector (cV L) (jV L)).devRef cc4_scratch1)).erase ((Proc.scVector (cV L) (jV L)).devRef cc4_scratch2)).erase ((Proc.scVector (cV L) (jV L)).devRef cc4_scratch3)).erase ((Proc.scVector (cV L) (jV L)).devRef cc4_scratch4)).erase ((Proc.scVector (cV L) (jV L)).devRef cc4_scratch5))
      fun b => iprop(∃ f, ((d, b) : Loc nD τ sig) ↦{fullShare} f), ?_⟩
  unfold SparseCore.Cfg.ownBufs
  refine (SparseCore.bigSep_erase' r0).trans ?_
  rw [SparseCore.bigSep_erase' (mem_erase_ref L (by decide) r1),
    SparseCore.bigSep_erase' (mem_erase_ref L (by decide) (mem_erase_ref L (by decide) r2)),
    SparseCore.bigSep_erase' (mem_erase_ref L (by decide) (mem_erase_ref L (by decide) (mem_erase_ref L (by decide) r3))),
    SparseCore.bigSep_erase' (mem_erase_ref L (by decide) (mem_erase_ref L (by decide) (mem_erase_ref L (by decide) (mem_erase_ref L (by decide) r4)))),
    SparseCore.bigSep_erase' (mem_erase_ref L (by decide) (mem_erase_ref L (by decide) (mem_erase_ref L (by decide) (mem_erase_ref L (by decide) (mem_erase_ref L (by decide) r5)))))]

end Aux

end cc4_edge

end Cert.KernelIdeal.Hand

end
-- ==== Proof.KI.EdgeSteps4.lean ====
/-
  The edge kernel's fold, step by step: the pure bookkeeping between the fold over all 40960 steps and the groups of
  steps the tile's loops take.

  One step p = 4 n + k gathers the table at chunk n of the sources moved to feature row k and adds the gathered lanes
  into the accumulator at chunk n of the destinations moved to the same row. Four steps make one chunk, four chunks
  (sixteen steps) one trip of the inner loop. The table is never written, so the sixteen gathers of a trip may all
  come before its sixteen adds, which is the order the tile takes them in. Every index vector the tile forms is a
  chunk moved to a row; on lists whose words are at most 10000 its lanes are below 40064, so each gather and each
  add is the indexed load and the indexed store-with-add themselves.
-/
import proofs.«219763_g10557029614292_week1_w2_488_21_alg».proof.Proof.KI.Vals
import proofs.«219763_g10557029614292_week1_w2_488_21_alg».proof.Proof.KI.EdgeDefs4
import Idealize.ShloMosaic.Lib.WholeRead

noncomputable section

namespace Cert.KernelIdeal.Hand

open Cert.KernelIdeal Cert.KernelIdeal.Gen
open Idealize.ShloMosaic Idealize.ShloMosaic.ValueIdx

namespace cc4_edge

variable {F : FTy → Type} [FloatOps F]

/-! ## Steps, chunks, trips -/

section Fold

variable (tab : Vec F S40064 .f32) (s t : IVec S2x1x163840 32) (eh : Fin 2)

/-- One step: chunk n at feature row k. -/
def stepB (acc : Vec F S40064 .f32) (n k : ℕ) : Vec F S40064 .f32 :=
  scatB acc (addK (edgeChunk t eh n) k) (gathB tab (addK (edgeChunk s eh n) k))

/-- The four steps of chunk n, rows 0 to 3 in order. -/
def chunkB (acc : Vec F S40064 .f32) (n : ℕ) : Vec F S40064 .f32 :=
  stepB tab s t eh (stepB tab s t eh (stepB tab s t eh (stepB tab s t eh acc n 0) n 1) n 2) n 3

/-- The sixteen steps of chunks m … m + 3. -/
def tripB (acc : Vec F S40064 .f32) (m : ℕ) : Vec F S40064 .f32 :=
  chunkB tab s t eh (chunkB tab s t eh (chunkB tab s t eh (chunkB tab s t eh acc m) (m + 1)) (m + 2)) (m + 3)

variable (z : Vec F S40064 .f32)

theorem edgeAcc_zero : edgeAcc tab s t eh z 0 = z := rfl

/-- The fold's next step. -/
theorem edgeAcc_succ (p : ℕ) :
    edgeAcc tab s t eh z (p + 1) = stepB tab s t eh (edgeAcc tab s t eh z p) (p / 4) (p % 4) := rfl

theorem edgeAcc_add4 (p : ℕ) :
    edgeAcc tab s t eh z (p + 4)
      = stepB tab s t eh (stepB tab s t eh (stepB tab s t eh (stepB tab s t eh (edgeAcc tab s t eh z p) (p / 4) (p % 4))
          ((p + 1) / 4) ((p + 1) % 4)) ((p + 2) / 4) ((p + 2) % 4)) ((p + 3) / 4) ((p + 3) % 4) := rfl

/-- The four steps of one chunk. -/
theorem edgeAcc_chunk (n : ℕ) : edgeAcc tab s t eh z (4 * n + 4) = chunkB tab s t eh (edgeAcc tab s t eh z (4 * n)) n := by
  rw [edgeAcc_add4]
  have h0 : 4 * n / 4 = n := by omega
  have h0' : 4 * n % 4 = 0 := by omega
  have h1 : (4 * n + 1) / 4 = n := by omega
  have h1' : (4 * n + 1) % 4 = 1 := by omega
  have h2 : (4 * n + 2) / 4 = n := by omega
  have h2' : (4 * n + 2) % 4 = 2 := by omega
  have h3 : (4 * n + 3) / 4 = n := by omega
  have h3' : (4 * n + 3) % 4 = 3 := by omega
  rw [h0, h0', h1, h1', h2, h2', h3, h3']
  rfl

/-- The same with every gather and add written out. -/
theorem edgeAcc_step4 (n : ℕ) :
    edgeAcc tab s t eh z (4 * n + 4)
      = scatB (scatB (scatB (scatB (edgeAcc tab s t eh z (4 * n))
            (addK (edgeChunk t eh n) 0) (gathB tab (addK (edgeChunk s eh n) 0)))
            (addK (edgeChunk t eh n) 1) (gathB tab (addK (edgeChunk s eh n) 1)))
            (addK (edgeChunk t eh n) 2) (gathB tab (addK (edgeChunk s eh n) 2)))
            (addK (edgeChunk t eh n) 3) (gathB tab (addK (edgeChunk s eh n) 3)) :=
  edgeAcc_chunk tab s t eh z n

/-- The sixteen steps of one trip: chunks m … m + 3. -/
theorem edgeAcc_trip (m : ℕ) : edgeAcc tab s t eh z (4 * m + 16) = tripB tab s t eh (edgeAcc tab s t eh z (4 * m)) m := by
  unfold tripB
  rw [show 4 * m + 16 = 4 * (m + 3) + 4 by ring, edgeAcc_chunk, show 4 * (m + 3) = 4 * (m + 2) + 4 by ring, edgeAcc_chunk,
    show 4 * (m + 2) = 4 * (m + 1) + 4 by ring, edgeAcc_chunk, show 4 * (m + 1) = 4 * m + 4 by ring, edgeAcc_chunk]

/-- Trip i of staging buffer c: chunks 512 c + 4 i … 512 c + 4 i + 3. -/
theorem edgeAcc_trip_at (c i : ℕ) :
    edgeAcc tab s t eh z (4 * (512 * c + 4 * i) + 16)
      = tripB tab s t eh (edgeAcc tab s t eh z (4 * (512 * c + 4 * i))) (512 * c + 4 * i) :=
  edgeAcc_trip tab s t eh z (512 * c + 4 * i)

/-- After trip i of buffer c the fold stands at the start of trip i + 1. -/
theorem trip_next (c i : ℕ) : 4 * (512 * c + 4 * i) + 16 = 4 * (512 * c + 4 * (i + 1)) := by ring

/-- After the 128 trips of buffer c the fold stands at the start of buffer c + 1. -/
theorem buffer_next (c : ℕ) : 4 * (512 * c + 4 * 128) = 4 * (512 * (c + 1) + 4 * 0) := by ring

/-- The twenty buffers are the whole fold. -/
theorem buffers_all : 4 * (512 * 20 + 4 * 0) = 40960 := by norm_num

end Fold

/-! ## The printed index vectors are chunks moved to a row -/

theorem k4_pay1_eq (v : IVec S16 32) : k4_pay1 (F := F) v = addK v 1 := rfl
theorem k4_pay2_eq (v : IVec S16 32) : k4_pay2 (F := F) v = addK v 1 := rfl
theorem k4_pay3_eq (v : IVec S16 32) : k4_pay3 (F := F) v = addK v 2 := rfl
theorem k4_pay4_eq (v : IVec S16 32) : k4_pay4 (F := F) v = addK v 2 := rfl
theorem k4_pay5_eq (v : IVec S16 32) : k4_pay5 (F := F) v = addK v 3 := rfl
theorem k4_pay6_eq (v : IVec S16 32) : k4_pay6 (F := F) v = addK v 3 := rfl
theorem k4_pay7_eq (v : IVec S16 32) : k4_pay7 (F := F) v = addK v 1 := rfl
theorem k4_pay8_eq : k4_pay8 = (broadcast S16 10016#32 : IVec S16 32) := rfl
theorem addi_k2_pay8 (v : IVec S16 32) : addi v k4_pay8 = addK v 1 := rfl
theorem k4_pay9_eq (v : IVec S16 32) : k4_pay9 (F := F) v = addK v 2 := rfl
theorem k4_pay10_eq (v : IVec S16 32) : k4_pay10 (F := F) v = addK v 2 := rfl
theorem k4_pay11_eq (v : IVec S16 32) : k4_pay11 (F := F) v = addK v 3 := rfl
theorem k4_pay12_eq (v : IVec S16 32) : k4_pay12 (F := F) v = addK v 3 := rfl
theorem k4_pay13_eq (v : IVec S16 32) : k4_pay13 (F := F) v = addK v 1 := rfl
theorem k4_pay14_eq (v : IVec S16 32) : k4_pay14 (F := F) v = addK v 1 := rfl
theorem k4_pay15_eq (v : IVec S16 32) : k4_pay15 (F := F) v = addK v 2 := rfl
theorem k4_pay16_eq (v : IVec S16 32) : k4_pay16 (F := F) v = addK v 2 := rfl
theorem k4_pay17_eq (v : IVec S16 32) : k4_pay17 (F := F) v = addK v 3 := rfl
theorem k4_pay18_eq (v : IVec S16 32) : k4_pay18 (F := F) v = addK v 3 := rfl
theorem k4_pay19_eq (v : IVec S16 32) : k4_pay19 (F := F) v = addK v 1 := rfl
theorem k4_pay20_eq (v : IVec S16 32) : k4_pay20 (F := F) v = addK v 1 := rfl
theorem k4_pay21_eq (v : IVec S16 32) : k4_pay21 (F := F) v = addK v 2 := rfl
theorem k4_pay22_eq (v : IVec S16 32) : k4_pay22 (F := F) v = addK v 2 := rfl
theorem k4_pay23_eq (v : IVec S16 32) : k4_pay23 (F := F) v = addK v 3 := rfl
theorem k4_pay24_eq (v : IVec S16 32) : k4_pay24 (F := F) v = addK v 3 := rfl
theorem k4_pay25_eq (v : IVec S16 32) : k4_pay25 (F := F) v = addK v 1 := rfl
theorem k4_pay26_eq : k4_pay26 = (broadcast S16 10016#32 : IVec S16 32) := rfl
theorem addi_k2_pay26 (v : IVec S16 32) : addi v k4_pay26 = addK v 1 := rfl
theorem k4_pay27_eq (v : IVec S16 32) : k4_pay27 (F := F) v = addK v 2 := rfl
theorem k4_pay28_eq (v : IVec S16 32) : k4_pay28 (F := F) v = addK v 2 := rfl
theorem k4_pay29_eq (v : IVec S16 32) : k4_pay29 (F := F) v = addK v 3 := rfl
theorem k4_pay30_eq (v : IVec S16 32) : k4_pay30 (F := F) v = addK v 3 := rfl
theorem k4_pay31_eq (v : IVec S16 32) : k4_pay31 (F := F) v = addK v 1 := rfl
theorem k4_pay32_eq (v : IVec S16 32) : k4_pay32 (F := F) v = addK v 1 := rfl
theorem k4_pay33_eq (v : IVec S16 32) : k4_pay33 (F := F) v = addK v 2 := rfl
theorem k4_pay34_eq (v : IVec S16 32) : k4_pay34 (F := F) v = addK v 2 := rfl
theorem k4_pay35_eq (v : IVec S16 32) : k4_pay35 (F := F) v = addK v 3 := rfl
theorem k4_pay36_eq (v : IVec S16 32) : k4_pay36 (F := F) v = addK v 3 := rfl
theorem k4_pay37_eq (v : IVec S16 32) : k4_pay37 (F := F) v = addK v 1 := rfl
theorem k4_pay38_eq (v : IVec S16 32) : k4_pay38 (F := F) v = addK v 1 := rfl
theorem k4_pay39_eq (v : IVec S16 32) : k4_pay39 (F := F) v = addK v 2 := rfl
theorem k4_pay40_eq (v : IVec S16 32) : k4_pay40 (F := F) v = addK v 2 := rfl
theorem k4_pay41_eq (v : IVec S16 32) : k4_pay41 (F := F) v = addK v 3 := rfl
theorem k4_pay42_eq (v : IVec S16 32) : k4_pay42 (F := F) v = addK v 3 := rfl
theorem k4_pay43_eq (v : IVec S16 32) : k4_pay43 (F := F) v = addK v 1 := rfl
theorem k4_pay44_eq (v : IVec S16 32) : k4_pay44 (F := F) v = addK v 1 := rfl
theorem k4_pay45_eq (v : IVec S16 32) : k4_pay45 (F := F) v = addK v 2 := rfl
theorem k4_pay46_eq (v : IVec S16 32) : k4_pay46 (F := F) v = addK v 2 := rfl
theorem k4_pay47_eq (v : IVec S16 32) : k4_pay47 (F := F) v = addK v 3 := rfl
theorem k4_pay48_eq (v : IVec S16 32) : k4_pay48 (F := F) v = addK v 3 := rfl

theorem addK_zero (v : IVec S16 32) : addK v 0 = v := rfl

/-! ## The range checks -/

/-- A chunk of a list whose words are at most 10000 has lanes at most 10000 (the lanes past the list's end are 0). -/
theorem edgeChunk_le (a : IVec S2x1x163840 32) (ha : EdgePre a) (eh : Fin 2) (n : ℕ) (x : S16.Idx) :
    (edgeChunk a eh n x).toNat ≤ 10000 := by
  unfold edgeChunk
  split_ifs with h
  · exact ha _
  · show (0#32 : BitVec 32).toNat ≤ 10000
    decide

/-- Moving a lane of at most 10000 to row r adds r · 10016: the 32-bit sum does not wrap. -/
theorem addK_val (v : IVec S16 32) (r : ℕ) (hr : r < 4) (x : S16.Idx) (hv : (v x).toNat ≤ 10000) :
    (addK v r x).toNat = (v x).toNat + r * 10016 := by
  have hlt : (v x).toNat + 3 * 10016 < 2 ^ 32 := by omega
  interval_cases r
  · show (v x).toNat = _
    omega
  · show (v x + 10016#32).toNat = _
    rw [BitVec.toNat_add, BitVec.toNat_ofNat]; omega
  · show (v x + 20032#32).toNat = _
    rw [BitVec.toNat_add, BitVec.toNat_ofNat]; omega
  · show (v x + 30048#32).toNat = _
    rw [BitVec.toNat_add, BitVec.toNat_ofNat]; omega

/-- Every lane of a chunk moved to a row is below 40064: the side condition of every indexed load and store of the
    edge kernel, in the form each of its printed checks unfolds to. -/
theorem addK_chunk_inb (a : IVec S2x1x163840 32) (ha : EdgePre a) (eh : Fin 2) (n r : ℕ) (hr : r < 4) :
    ∀ (b : Fin 1) (x : S16.Idx), ((![addK (edgeChunk a eh n) r] : Fin 1 → IVec S16 32) b x).toNat < S40064.size b := by
  intro b x
  obtain rfl : b = 0 := Subsingleton.elim _ _
  show (addK (edgeChunk a eh n) r x).toNat < 40064
  rw [addK_val _ r hr x (edgeChunk_le a ha eh n x)]
  have := edgeChunk_le a ha eh n x
  omega

theorem addK_chunk_chk (a : IVec S2x1x163840 32) (ha : EdgePre a) (eh : Fin 2) (n r : ℕ) (hr : r < 4) :
    k4_chk1 (addK (edgeChunk a eh n) r) := addK_chunk_inb a ha eh n r hr

/-- Under its side condition a gather is the indexed load, whatever evidence the load carries. -/
theorem gathB_eq (tab : Vec F S40064 .f32) (idx : IVec S16 32)
    (h : ∀ (b : Fin 1) (x : S16.Idx), ((![idx] : Fin 1 → IVec S16 32) b x).toNat < S40064.size b) :
    gathB tab idx = loadIdx (e := .f32) tab ![idx] h := by
  unfold gathB
  exact dif_pos h

/-- Under its side condition an add is the indexed store-with-add, whatever evidence the store carries. -/
theorem scatB_eq (acc : Vec F S40064 .f32) (idx : IVec S16 32) (v : Vec F S16 .f32)
    (h : ∀ (b : Fin 1) (x : S16.Idx), ((![idx] : Fin 1 → IVec S16 32) b x).toNat < S40064.size b) :
    scatB acc idx v = storeIdx (e := .f32) acc ![idx] v (fun _ => 1#1) true h := by
  unfold scatB
  exact dif_pos h

/-! ## A chunk's lanes -/

/-- Lane x of chunk n (n below 10240) is word 16 n + x of the half list. -/
theorem edgeChunk_apply (a : IVec S2x1x163840 32) (eh : Fin 2) (n : ℕ) (hn : n < 10240) (x : S16.Idx) :
    edgeChunk a eh n x = a (ix3 eh 0 ⟨16 * n + (x 0).val, by have h16 : (x 0).val < 16 := (x 0).isLt; omega⟩) := by
  unfold edgeChunk
  exact dif_pos _

/-! ## One step as the indexed load and store, and a staged chunk's lanes -/

/-- One step of the fold written with the indexed load and the indexed store-with-add themselves: from the
    accumulator after 4 n + k steps, the add at chunk n of the destinations moved to row k of the lanes gathered at
    chunk n of the sources moved to row k is the accumulator after one step more. -/
theorem edgeAcc_step (tab : Vec F S40064 .f32) (s t : IVec S2x1x163840 32) (eh : Fin 2) (z : Vec F S40064 .f32) (n k : ℕ)
    (hk : k < 4) (sv dv : IVec S16 32) (hsv : sv = addK (edgeChunk s eh n) k) (hdv : dv = addK (edgeChunk t eh n) k)
    (h1 : ∀ (b : Fin 1) (x : S16.Idx), ((![sv] : Fin 1 → IVec S16 32) b x).toNat < S40064.size b)
    (h2 : ∀ (b : Fin 1) (x : S16.Idx), ((![dv] : Fin 1 → IVec S16 32) b x).toNat < S40064.size b) :
    storeIdx (e := .f32) (edgeAcc tab s t eh z (4 * n + k)) ![dv] (loadIdx (e := .f32) tab ![sv] h1) (fun _ => 1#1) true h2
      = edgeAcc tab s t eh z (4 * n + k + 1) := by
  subst hsv hdv
  rw [edgeAcc_succ, show (4 * n + k) / 4 = n by omega, show (4 * n + k) % 4 = k by omega]
  unfold stepB
  rw [scatB_eq _ _ _ h2, gathB_eq _ _ h1]

/-- The sixteen words of a staged 8192-word piece read from word 64 i + 16 u are chunk 512 C + 4 i + u of the half
    list: piece C starts at word 8192 C, which is chunk 512 C. -/
theorem chunkBuf_lanes (a : IVec S2x1x163840 32) (eh : Fin 2) (C i u : ℕ)
    (inb : ∀ b, (![64 * i + 16 * u] : Fin 1 → ℕ) b + S16.size b ≤ S8192.size b) :
    (fun x => chunkBuf a eh C ((Rect.unit (s := S8192) ![64 * i + 16 * u] S16.size inb).toLoadRect.idx x))
      = edgeChunk a eh (512 * C + 4 * i + u) := by
  funext x
  have h16 : (x 0).val < 16 := (x 0).isLt
  show (if h : 8192 * C + (64 * i + 16 * u + 1 * (x 0).val) < 163840 then a (ix3 eh 0 ⟨8192 * C + (64 * i + 16 * u + 1 * (x 0).val), h⟩) else 0#32)
    = (if h : 16 * (512 * C + 4 * i + u) + (x 0).val < 163840 then a (ix3 eh 0 ⟨16 * (512 * C + 4 * i + u) + (x 0).val, h⟩) else 0#32)
  have he : 8192 * C + (64 * i + 16 * u + 1 * (x 0).val) = 16 * (512 * C + 4 * i + u) + (x 0).val := by omega
  simp only [he]

/-- The same as the value a load through a whole 8192-word scratch array holding the piece reads. -/
theorem chunk_read (a : IVec S2x1x163840 32) (eh : Fin 2) (C i u : ℕ)
    (inb : ∀ c, (![64 * i + 16 * u] : Fin 1 → ℕ) c + S16.size c ≤ S8192.size c)
    (m : Memref sig .scVector .vmem S8192 .i32) (hm : m.IsWhole) :
    View.readAt (Elt F) m.view (Rect.unit (s := S8192) ![64 * i + 16 * u] S16.size inb).toLoadRect (hm.unread (chunkBuf a eh C))
      = edgeChunk a eh (512 * C + 4 * i + u) := by
  rw [← chunkBuf_lanes a eh C i u inb]
  funext x
  exact hm.readAt_unread (Val := Elt F) (chunkBuf a eh C) _ x

end cc4_edge

end Cert.KernelIdeal.Hand

end
-- ==== Proof.KI.EdgeCompute4.lean ====
/-
  One trip of each of the edge kernel's two inner loops on one vector subcore, with its value.

  A trip takes four sixteen-word chunks of the staged piece of the source list and of the destination list. For
  each chunk n and each feature row k it gathers the table at the sources moved to row k, sixteen gathers in all;
  then, in the same order, it adds each gathered vector into the accumulator at the destinations moved to row k.
  The table is not written, so the accumulator after the trip is the fold edgeAcc sixteen steps further on: before
  trip i of piece C it stands at step 4 (512 C + 4 i), after it at step 4 (512 C + 4 (i + 1)). Every index the trip
  forms is a list word of at most 10000 moved by at most 3 · 10016, hence below 40064: each of its range checks holds.
-/
import proofs.«219763_g10557029614292_week1_w2_488_21_alg».proof.Proof.KI.Base
import proofs.«219763_g10557029614292_week1_w2_488_21_alg».proof.Proof.KI.Vals
import proofs.«219763_g10557029614292_week1_w2_488_21_alg».proof.Proof.KI.EdgeDefs4
import proofs.«219763_g10557029614292_week1_w2_488_21_alg».proof.Proof.KI.EdgeSteps4

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc4_edge

variable {F : FTy → Type}

local notation "𝕄" => MT nD τ sig (HIx 3) (Elt F) ℕ UU ℕ

local notation "gW" => (Memref.whole Cert.KernelIdeal.main_v37_scv : Memref Cert.KernelIdeal.sig Kind.scVector Space.hbm Cert.KernelIdeal.S16x1x40064 EltTy.f32)
local notation "sW" => (Memref.whole Cert.KernelIdeal.main_v6_scv : Memref Cert.KernelIdeal.sig Kind.scVector Space.hbm Cert.KernelIdeal.S2x1x163840 EltTy.i32)
local notation "dW" => (Memref.whole Cert.KernelIdeal.main_v9_scv : Memref Cert.KernelIdeal.sig Kind.scVector Space.hbm Cert.KernelIdeal.S2x1x163840 EltTy.i32)
local notation "zW" => (Memref.whole Cert.KernelIdeal.main_v13_scv : Memref Cert.KernelIdeal.sig Kind.scVector Space.hbm Cert.KernelIdeal.S40064 EltTy.f32)
local notation "oW" => (Memref.whole Cert.KernelIdeal.main_v38_scv : Memref Cert.KernelIdeal.sig Kind.scVector Space.hbm Cert.KernelIdeal.S16x2x1x40064 EltTy.f32)
local notation "tabM" => (Memref.whole Cert.KernelIdeal.cc4_scratch0 : Memref Cert.KernelIdeal.sig Kind.scVector Space.vmem Cert.KernelIdeal.S40064 EltTy.f32)
local notation "accM" => (Memref.whole Cert.KernelIdeal.cc4_scratch1 : Memref Cert.KernelIdeal.sig Kind.scVector Space.vmem Cert.KernelIdeal.S40064 EltTy.f32)
local notation "sb0M" => (Memref.whole Cert.KernelIdeal.cc4_scratch2 : Memref Cert.KernelIdeal.sig Kind.scVector Space.vmem Cert.KernelIdeal.S8192 EltTy.i32)
local notation "db0M" => (Memref.whole Cert.KernelIdeal.cc4_scratch3 : Memref Cert.KernelIdeal.sig Kind.scVector Space.vmem Cert.KernelIdeal.S8192 EltTy.i32)
local notation "sb1M" => (Memref.whole Cert.KernelIdeal.cc4_scratch4 : Memref Cert.KernelIdeal.sig Kind.scVector Space.vmem Cert.KernelIdeal.S8192 EltTy.i32)
local notation "db1M" => (Memref.whole Cert.KernelIdeal.cc4_scratch5 : Memref Cert.KernelIdeal.sig Kind.scVector Space.vmem Cert.KernelIdeal.S8192 EltTy.i32)

variable [FloatOps F]

/-! ## The range checks on what the trip reads off a staged piece -/

/-- An index vector all of whose lanes are below 40064 passes every check of the body (they all say this). -/
theorem chk_of_lt (v : IVec S16 32) (h : ∀ x, (v x).toNat < 40064) : k4_chk1 v := by
  intro a x
  obtain rfl : a = 0 := Subsingleton.elim _ _
  exact h x

theorem chk_small (v : IVec S16 32) (h : ∀ x, (v x).toNat ≤ 10000) : k4_chk1 v :=
  chk_of_lt v fun x => lt_of_le_of_lt (h x) (by decide)

/-- A node number moved to one of the four feature rows stays below 40064: no wrap, no overrun. -/
theorem chk_addi (v : IVec S16 32) (c : BitVec 32) (h : ∀ x, (v x).toNat ≤ 10000) (hc : c.toNat ≤ 30048) :
    k4_chk1 (addi v (broadcast S16 c)) := by
  refine chk_of_lt _ fun x => ?_
  show (v x + c).toNat < 40064
  rw [BitVec.toNat_add]
  have := h x
  omega

section Checks
variable {a : IVec S2x1x163840 32} (ha : EdgePre a) (eh : Fin 2) (C : Nat) (off : Fin 1 → Nat) (inb : ∀ i, off i + S16.size i ≤ S8192.size i)
include ha

theorem chk_rd2 : k4_chk1 ((sb0M).view.readAt (Elt F) (Rect.unit (s := S8192) off S16.size inb).toLoadRect (chunkBuf a eh C)) := chk_small _ fun _ => chunkBuf_le ha eh C _
theorem chk_rd3 : k4_chk1 ((db0M).view.readAt (Elt F) (Rect.unit (s := S8192) off S16.size inb).toLoadRect (chunkBuf a eh C)) := chk_small _ fun _ => chunkBuf_le ha eh C _
theorem chk_rd4 : k4_chk1 ((sb1M).view.readAt (Elt F) (Rect.unit (s := S8192) off S16.size inb).toLoadRect (chunkBuf a eh C)) := chk_small _ fun _ => chunkBuf_le ha eh C _
theorem chk_rd5 : k4_chk1 ((db1M).view.readAt (Elt F) (Rect.unit (s := S8192) off S16.size inb).toLoadRect (chunkBuf a eh C)) := chk_small _ fun _ => chunkBuf_le ha eh C _
theorem chk_rd2a (c : BitVec 32) (hc : c.toNat ≤ 30048) : k4_chk1 (addi ((sb0M).view.readAt (Elt F) (Rect.unit (s := S8192) off S16.size inb).toLoadRect (chunkBuf a eh C)) (broadcast S16 c)) :=
  chk_addi _ _ (fun _ => chunkBuf_le ha eh C _) hc
theorem chk_rd3a (c : BitVec 32) (hc : c.toNat ≤ 30048) : k4_chk1 (addi ((db0M).view.readAt (Elt F) (Rect.unit (s := S8192) off S16.size inb).toLoadRect (chunkBuf a eh C)) (broadcast S16 c)) :=
  chk_addi _ _ (fun _ => chunkBuf_le ha eh C _) hc
theorem chk_rd4a (c : BitVec 32) (hc : c.toNat ≤ 30048) : k4_chk1 (addi ((sb1M).view.readAt (Elt F) (Rect.unit (s := S8192) off S16.size inb).toLoadRect (chunkBuf a eh C)) (broadcast S16 c)) :=
  chk_addi _ _ (fun _ => chunkBuf_le ha eh C _) hc
theorem chk_rd5a (c : BitVec 32) (hc : c.toNat ≤ 30048) : k4_chk1 (addi ((db1M).view.readAt (Elt F) (Rect.unit (s := S8192) off S16.size inb).toLoadRect (chunkBuf a eh C)) (broadcast S16 c)) :=
  chk_addi _ _ (fun _ => chunkBuf_le ha eh C _) hc

end Checks

/-! ## What the trip's loads read: chunks of the half lists -/

section Reads
variable (a : IVec S2x1x163840 32) (eh : Fin 2) (C : Nat) (off : Fin 1 → Nat) (inb : ∀ i, off i + S16.size i ≤ S8192.size i) (i u : Nat)
  (ho : off = ![64 * i + 16 * u])
include ho

theorem rd_sb0 : (sb0M).view.readAt (Elt F) (Rect.unit (s := S8192) off S16.size inb).toLoadRect (chunkBuf a eh C) = edgeChunk a eh (512 * C + 4 * i + u) := by
  subst ho; exact chunkBuf_lanes a eh C i u inb
theorem rd_db0 : (db0M).view.readAt (Elt F) (Rect.unit (s := S8192) off S16.size inb).toLoadRect (chunkBuf a eh C) = edgeChunk a eh (512 * C + 4 * i + u) := by
  subst ho; exact chunkBuf_lanes a eh C i u inb
theorem rd_sb1 : (sb1M).view.readAt (Elt F) (Rect.unit (s := S8192) off S16.size inb).toLoadRect (chunkBuf a eh C) = edgeChunk a eh (512 * C + 4 * i + u) := by
  subst ho; exact chunkBuf_lanes a eh C i u inb
theorem rd_db1 : (db1M).view.readAt (Elt F) (Rect.unit (s := S8192) off S16.size inb).toLoadRect (chunkBuf a eh C) = edgeChunk a eh (512 * C + 4 * i + u) := by
  subst ho; exact chunkBuf_lanes a eh C i u inb

end Reads

section Tile
variable (d : Dev nD) (L : grid4.Coords)

local notation "thr" => (V d (cV L) (jV L))

/-! ## The gather and the add, on the scratch arrays held whole -/

/-- The gather off the table scratch, held whole at any share. -/
theorem wp_gather_tab {α : Type} {Q : α → sProp 𝕄} {idxs : Fin S40064.rank → IVec S16 32} {h : ∀ a x, (idxs a x).toNat < S40064.size a}
    {hl : (tabM).view.Loads} {k : Vec F S16 .f32 → Prog (TpuEff nD τ sig (Elt F) Λ₀ (thr).2) α} {q : PosShare TreeShare} (tb : Vec F S40064 .f32) :
    ((tabM).view.loc thr ↦{q} tb : sProp 𝕄)
      ⊢ iprop((((tabM).view.loc thr ↦{q} tb) -∗ wp frame (wpE (defs₀ (F := F)) 𝒱₀ thr none) Set.univ (k (loadIdx tb idxs h)) Q)
        -∗ wp frame (wpE (defs₀ (F := F)) 𝒱₀ thr none) Set.univ (SparseCore.vectorLoadIdx tabM idxs h hl >>= k) Q) := by
  have e := SparseCore.wp_vectorLoadIdx (defs := defs₀ (F := F)) (Q := Q) 𝒱₀ thr none Set.univ (base := tabM) (idxs := idxs) (h := h) (hl := hl) (k := k)
    (S := Finset.univ) (q := q) (f := tb) (Finset.subset_univ _)
  rw [Memref.read_access_whole] at e
  exact e

/-- The indexed store-with-add into the accumulator scratch, held whole. -/
theorem wp_scatter_acc {α : Type} {Q : α → sProp 𝕄} {idxs : Fin S40064.rank → IVec S16 32} {v : Vec F S16 .f32}
    {h : ∀ a x, (idxs a x).toNat < S40064.size a} {hs : ((accM).access (.whole S40064)).Stores Finset.univ}
    {k : PUnit → Prog (TpuEff nD τ sig (Elt F) Λ₀ (thr).2) α} (f : Vec F S40064 .f32) :
    ((accM).view.loc thr ↦{fullShare} f : sProp 𝕄)
      ⊢ iprop((((accM).view.loc thr ↦{fullShare} storeIdx f idxs v (fun _ => 1#1) true h) -∗ wp frame (wpE (defs₀ (F := F)) 𝒱₀ thr none) Set.univ (k ⟨⟩) Q)
        -∗ wp frame (wpE (defs₀ (F := F)) 𝒱₀ thr none) Set.univ (SparseCore.vectorStoreIdx accM idxs v (fun _ => 1#1) true h hs >>= k) Q) := by
  have e := SparseCore.wp_vectorStoreIdx (defs := defs₀ (F := F)) (Q := Q) 𝒱₀ thr none Set.univ (base := accM) (idxs := idxs) (v := v)
    (mask := fun _ => 1#1) (add := true) (h := h) (hs := hs) (k := k) (f := f)
  rw [Memref.read_access_whole, Memref.write_access_whole_univ, Memref.set_access_whole] at e
  exact e

/-- One add of the trip, with its value: from the fold after p = 4 n + r steps, adding at chunk n of the destinations
    moved to row r what was gathered at chunk n of the sources moved to row r leaves the fold after p + 1 steps. -/
theorem wp_scatter_step {α : Type} {Q : α → sProp 𝕄} (tb : Vec F S40064 .f32) (s t : IVec S2x1x163840 32) (z : Vec F S40064 .f32) (eh : Fin 2)
    (p m n r : Nat) (hp : p = 4 * n + r) (hm : m = p + 1) (hr : r < 4) (sv dv : IVec S16 32)
    (hsv : sv = addK (edgeChunk s eh n) r) (hdv : dv = addK (edgeChunk t eh n) r)
    {h1 : ∀ a x, ((![sv] : Fin 1 → IVec S16 32) a x).toNat < S40064.size a} {h2 : ∀ a x, ((![dv] : Fin 1 → IVec S16 32) a x).toNat < S40064.size a}
    {hst : ((accM).access (.whole S40064)).Stores Finset.univ} {kk : PUnit → Prog (TpuEff nD τ sig (Elt F) Λ₀ (thr).2) α} :
    ((accM).view.loc thr ↦{fullShare} edgeAcc tb s t eh z p : sProp 𝕄)
      ⊢ iprop((((accM).view.loc thr ↦{fullShare} edgeAcc tb s t eh z m) -∗ wp frame (wpE (defs₀ (F := F)) 𝒱₀ thr none) Set.univ (kk ⟨⟩) Q)
        -∗ wp frame (wpE (defs₀ (F := F)) 𝒱₀ thr none) Set.univ
            (SparseCore.vectorStoreIdx accM ![dv] (loadIdx tb ![sv] h1) (fun _ => 1#1) true h2 hst >>= kk) Q) := by
  subst hp hm
  have e := wp_scatter_acc (F := F) d L (Q := Q) (idxs := ![dv]) (v := loadIdx tb ![sv] h1) (h := h2) (hs := hst) (k := kk) (edgeAcc tb s t eh z (4 * n + r))
  rw [edgeAcc_step tb s t eh z n r hr sv dv hsv hdv h1 h2] at e
  exact e

/-- The invariant of the loop over the staged pieces in sb0M and db0M: before trip `i` of piece `C` the table scratch
    holds the tile's table, the two staging buffers piece `C` of the half lists, the accumulator the fold after
    `4 (512 C + 4 i)` steps. -/
def innerInv0 (tb : Vec F S40064 .f32) (s t : IVec S2x1x163840 32) (z : Vec F S40064 .f32) (eh : Fin 2) (C : Nat) (i : Nat) (_ : Unit) : sProp 𝕄 :=
  iprop(((tabM).view.loc thr ↦{fullShare} tb)
    ∗ ((accM).view.loc thr ↦{fullShare} edgeAcc tb s t eh z (4 * (512 * C + 4 * i)))
    ∗ ((sb0M).view.loc thr ↦{fullShare} chunkBuf s eh C)
    ∗ ((db0M).view.loc thr ↦{fullShare} chunkBuf t eh C))

set_option maxHeartbeats 4000000 in
/-- One trip: sixteen gathers off the table, then the sixteen adds in the fold's order. -/
theorem inner0_region (tb : Vec F S40064 .f32) (s t : IVec S2x1x163840 32) (z : Vec F S40064 .f32) (hs : EdgePre s) (ht : EdgePre t) (eh : Fin 2) (C : Nat)
    (c0 c1 : BitVec 32) (t1 : Fin k4_t1_loop.trips) (k : Fin k4_t2_loop.trips) (a : Unit) :
    innerInv0 d L tb s t z eh C k.val a
      ⊢ wp frame (wpE (defs₀ (F := F)) 𝒱₀ thr none) Set.univ
          (k4_t2_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2 c0 c1 t1 k a)
          (innerInv0 d L tb s t z eh C (k.val + 1)) := by
  unfold innerInv0 k4_t2_body
  iintro ⟨Htab, Hacc, Hsb, Hdb⟩
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  iapply (wp_scatter_step (F := F) d L tb s t z eh (4 * (512 * C + 4 * k.val)) (4 * (512 * C + 4 * k.val) + 1) (512 * C + 4 * k.val + 0) 0 (by omega) (by omega) (by omega) _ _
      (congrArg (fun v => addK v 0) (rd_sb0 (F := F) s eh C (k4_off5 k) (k4_off5_inb k) k.val 0 ((k4_off5_eq k).trans (congrArg (fun n => (![n] : Fin 1 → Nat)) (by omega)))))
      (congrArg (fun v => addK v 0) (rd_db0 (F := F) t eh C (k4_off5 k) (k4_off5_inb k) k.val 0 ((k4_off5_eq k).trans (congrArg (fun n => (![n] : Fin 1 → Nat)) (by omega)))))) $$ Hacc; iintro Hacc
  iapply (wp_scatter_step (F := F) d L tb s t z eh (4 * (512 * C + 4 * k.val) + 1) (4 * (512 * C + 4 * k.val) + 2) (512 * C + 4 * k.val + 0) 1 (by omega) (by omega) (by omega) _ _
      (congrArg (fun v => addK v 1) (rd_sb0 (F := F) s eh C (k4_off5 k) (k4_off5_inb k) k.val 0 ((k4_off5_eq k).trans (congrArg (fun n => (![n] : Fin 1 → Nat)) (by omega)))))
      (congrArg (fun v => addK v 1) (rd_db0 (F := F) t eh C (k4_off5 k) (k4_off5_inb k) k.val 0 ((k4_off5_eq k).trans (congrArg (fun n => (![n] : Fin 1 → Nat)) (by omega)))))) $$ Hacc; iintro Hacc
  iapply (wp_scatter_step (F := F) d L tb s t z eh (4 * (512 * C + 4 * k.val) + 2) (4 * (512 * C + 4 * k.val) + 3) (512 * C + 4 * k.val + 0) 2 (by omega) (by omega) (by omega) _ _
      (congrArg (fun v => addK v 2) (rd_sb0 (F := F) s eh C (k4_off5 k) (k4_off5_inb k) k.val 0 ((k4_off5_eq k).trans (congrArg (fun n => (![n] : Fin 1 → Nat)) (by omega)))))
      (congrArg (fun v => addK v 2) (rd_db0 (F := F) t eh C (k4_off5 k) (k4_off5_inb k) k.val 0 ((k4_off5_eq k).trans (congrArg (fun n => (![n] : Fin 1 → Nat)) (by omega)))))) $$ Hacc; iintro Hacc
  iapply (wp_scatter_step (F := F) d L tb s t z eh (4 * (512 * C + 4 * k.val) + 3) (4 * (512 * C + 4 * k.val) + 4) (512 * C + 4 * k.val + 0) 3 (by omega) (by omega) (by omega) _ _
      (congrArg (fun v => addK v 3) (rd_sb0 (F := F) s eh C (k4_off5 k) (k4_off5_inb k) k.val 0 ((k4_off5_eq k).trans (congrArg (fun n => (![n] : Fin 1 → Nat)) (by omega)))))
      (congrArg (fun v => addK v 3) (rd_db0 (F := F) t eh C (k4_off5 k) (k4_off5_inb k) k.val 0 ((k4_off5_eq k).trans (congrArg (fun n => (![n] : Fin 1 → Nat)) (by omega)))))) $$ Hacc; iintro Hacc
  iapply (wp_scatter_step (F := F) d L tb s t z eh (4 * (512 * C + 4 * k.val) + 4) (4 * (512 * C + 4 * k.val) + 5) (512 * C + 4 * k.val + 1) 0 (by omega) (by omega) (by omega) _ _
      (congrArg (fun v => addK v 0) (rd_sb0 (F := F) s eh C (k4_off6 k) (k4_off6_inb k) k.val 1 ((k4_off6_eq k).trans (congrArg (fun n => (![n] : Fin 1 → Nat)) (by omega)))))
      (congrArg (fun v => addK v 0) (rd_db0 (F := F) t eh C (k4_off6 k) (k4_off6_inb k) k.val 1 ((k4_off6_eq k).trans (congrArg (fun n => (![n] : Fin 1 → Nat)) (by omega)))))) $$ Hacc; iintro Hacc
  iapply (wp_scatter_step (F := F) d L tb s t z eh (4 * (512 * C + 4 * k.val) + 5) (4 * (512 * C + 4 * k.val) + 6) (512 * C + 4 * k.val + 1) 1 (by omega) (by omega) (by omega) _ _
      (congrArg (fun v => addK v 1) (rd_sb0 (F := F) s eh C (k4_off6 k) (k4_off6_inb k) k.val 1 ((k4_off6_eq k).trans (congrArg (fun n => (![n] : Fin 1 → Nat)) (by omega)))))
      (congrArg (fun v => addK v 1) (rd_db0 (F := F) t eh C (k4_off6 k) (k4_off6_inb k) k.val 1 ((k4_off6_eq k).trans (congrArg (fun n => (![n] : Fin 1 → Nat)) (by omega)))))) $$ Hacc; iintro Hacc
  iapply (wp_scatter_step (F := F) d L tb s t z eh (4 * (512 * C + 4 * k.val) + 6) (4 * (512 * C + 4 * k.val) + 7) (512 * C + 4 * k.val + 1) 2 (by omega) (by omega) (by omega) _ _
      (congrArg (fun v => addK v 2) (rd_sb0 (F := F) s eh C (k4_off6 k) (k4_off6_inb k) k.val 1 ((k4_off6_eq k).trans (congrArg (fun n => (![n] : Fin 1 → Nat)) (by omega)))))
      (congrArg (fun v => addK v 2) (rd_db0 (F := F) t eh C (k4_off6 k) (k4_off6_inb k) k.val 1 ((k4_off6_eq k).trans (congrArg (fun n => (![n] : Fin 1 → Nat)) (by omega)))))) $$ Hacc; iintro Hacc
  iapply (wp_scatter_step (F := F) d L tb s t z eh (4 * (512 * C + 4 * k.val) + 7) (4 * (512 * C + 4 * k.val) + 8) (512 * C + 4 * k.val + 1) 3 (by omega) (by omega) (by omega) _ _
      (congrArg (fun v => addK v 3) (rd_sb0 (F := F) s eh C (k4_off6 k) (k4_off6_inb k) k.val 1 ((k4_off6_eq k).trans (congrArg (fun n => (![n] : Fin 1 → Nat)) (by omega)))))
      (congrArg (fun v => addK v 3) (rd_db0 (F := F) t eh C (k4_off6 k) (k4_off6_inb k) k.val 1 ((k4_off6_eq k).trans (congrArg (fun n => (![n] : Fin 1 → Nat)) (by omega)))))) $$ Hacc; iintro Hacc
  iapply (wp_scatter_step (F := F) d L tb s t z eh (4 * (512 * C + 4 * k.val) + 8) (4 * (512 * C + 4 * k.val) + 9) (512 * C + 4 * k.val + 2) 0 (by omega) (by omega) (by omega) _ _
      (congrArg (fun v => addK v 0) (rd_sb0 (F := F) s eh C (k4_off7 k) (k4_off7_inb k) k.val 2 ((k4_off7_eq k).trans (congrArg (fun n => (![n] : Fin 1 → Nat)) (by omega)))))
      (congrArg (fun v => addK v 0) (rd_db0 (F := F) t eh C (k4_off7 k) (k4_off7_inb k) k.val 2 ((k4_off7_eq k).trans (congrArg (fun n => (![n] : Fin 1 → Nat)) (by omega)))))) $$ Hacc; iintro Hacc
  iapply (wp_scatter_step (F := F) d L tb s t z eh (4 * (512 * C + 4 * k.val) + 9) (4 * (512 * C + 4 * k.val) + 10) (512 * C + 4 * k.val + 2) 1 (by omega) (by omega) (by omega) _ _
      (congrArg (fun v => addK v 1) (rd_sb0 (F := F) s eh C (k4_off7 k) (k4_off7_inb k) k.val 2 ((k4_off7_eq k).trans (congrArg (fun n => (![n] : Fin 1 → Nat)) (by omega)))))
      (congrArg (fun v => addK v 1) (rd_db0 (F := F) t eh C (k4_off7 k) (k4_off7_inb k) k.val 2 ((k4_off7_eq k).trans (congrArg (fun n => (![n] : Fin 1 → Nat)) (by omega)))))) $$ Hacc; iintro Hacc
  iapply (wp_scatter_step (F := F) d L tb s t z eh (4 * (512 * C + 4 * k.val) + 10) (4 * (512 * C + 4 * k.val) + 11) (512 * C + 4 * k.val + 2) 2 (by omega) (by omega) (by omega) _ _
      (congrArg (fun v => addK v 2) (rd_sb0 (F := F) s eh C (k4_off7 k) (k4_off7_inb k) k.val 2 ((k4_off7_eq k).trans (congrArg (fun n => (![n] : Fin 1 → Nat)) (by omega)))))
      (congrArg (fun v => addK v 2) (rd_db0 (F := F) t eh C (k4_off7 k) (k4_off7_inb k) k.val 2 ((k4_off7_eq k).trans (congrArg (fun n => (![n] : Fin 1 → Nat)) (by omega)))))) $$ Hacc; iintro Hacc
  iapply (wp_scatter_step (F := F) d L tb s t z eh (4 * (512 * C + 4 * k.val) + 11) (4 * (512 * C + 4 * k.val) + 12) (512 * C + 4 * k.val + 2) 3 (by omega) (by omega) (by omega) _ _
      (congrArg (fun v => addK v 3) (rd_sb0 (F := F) s eh C (k4_off7 k) (k4_off7_inb k) k.val 2 ((k4_off7_eq k).trans (congrArg (fun n => (![n] : Fin 1 → Nat)) (by omega)))))
      (congrArg (fun v => addK v 3) (rd_db0 (F := F) t eh C (k4_off7 k) (k4_off7_inb k) k.val 2 ((k4_off7_eq k).trans (congrArg (fun n => (![n] : Fin 1 → Nat)) (by omega)))))) $$ Hacc; iintro Hacc
  iapply (wp_scatter_step (F := F) d L tb s t z eh (4 * (512 * C + 4 * k.val) + 12) (4 * (512 * C + 4 * k.val) + 13) (512 * C + 4 * k.val + 3) 0 (by omega) (by omega) (by omega) _ _
      (congrArg (fun v => addK v 0) (rd_sb0 (F := F) s eh C (k4_off8 k) (k4_off8_inb k) k.val 3 ((k4_off8_eq k).trans (congrArg (fun n => (![n] : Fin 1 → Nat)) (by omega)))))
      (congrArg (fun v => addK v 0) (rd_db0 (F := F) t eh C (k4_off8 k) (k4_off8_inb k) k.val 3 ((k4_off8_eq k).trans (congrArg (fun n => (![n] : Fin 1 → Nat)) (by omega)))))) $$ Hacc; iintro Hacc
  iapply (wp_scatter_step (F := F) d L tb s t z eh (4 * (512 * C + 4 * k.val) + 13) (4 * (512 * C + 4 * k.val) + 14) (512 * C + 4 * k.val + 3) 1 (by omega) (by omega) (by omega) _ _
      (congrArg (fun v => addK v 1) (rd_sb0 (F := F) s eh C (k4_off8 k) (k4_off8_inb k) k.val 3 ((k4_off8_eq k).trans (congrArg (fun n => (![n] : Fin 1 → Nat)) (by omega)))))
      (congrArg (fun v => addK v 1) (rd_db0 (F := F) t eh C (k4_off8 k) (k4_off8_inb k) k.val 3 ((k4_off8_eq k).trans (congrArg (fun n => (![n] : Fin 1 → Nat)) (by omega)))))) $$ Hacc; iintro Hacc
  iapply (wp_scatter_step (F := F) d L tb s t z eh (4 * (512 * C + 4 * k.val) + 14) (4 * (512 * C + 4 * k.val) + 15) (512 * C + 4 * k.val + 3) 2 (by omega) (by omega) (by omega) _ _
      (congrArg (fun v => addK v 2) (rd_sb0 (F := F) s eh C (k4_off8 k) (k4_off8_inb k) k.val 3 ((k4_off8_eq k).trans (congrArg (fun n => (![n] : Fin 1 → Nat)) (by omega)))))
      (congrArg (fun v => addK v 2) (rd_db0 (F := F) t eh C (k4_off8 k) (k4_off8_inb k) k.val 3 ((k4_off8_eq k).trans (congrArg (fun n => (![n] : Fin 1 → Nat)) (by omega)))))) $$ Hacc; iintro Hacc
  iapply (wp_scatter_step (F := F) d L tb s t z eh (4 * (512 * C + 4 * k.val) + 15) (4 * (512 * C + 4 * k.val) + 16) (512 * C + 4 * k.val + 3) 3 (by omega) (by omega) (by omega) _ _
      (congrArg (fun v => addK v 3) (rd_sb0 (F := F) s eh C (k4_off8 k) (k4_off8_inb k) k.val 3 ((k4_off8_eq k).trans (congrArg (fun n => (![n] : Fin 1 → Nat)) (by omega)))))
      (congrArg (fun v => addK v 3) (rd_db0 (F := F) t eh C (k4_off8 k) (k4_off8_inb k) k.val 3 ((k4_off8_eq k).trans (congrArg (fun n => (![n] : Fin 1 → Nat)) (by omega)))))) $$ Hacc; iintro Hacc
  sl_step
  rw [show 4 * (512 * C + 4 * (k.val + 1)) = 4 * (512 * C + 4 * k.val) + 16 from by omega]
  isplitl [Htab]; · iexact Htab
  isplitl [Hacc]; · iexact Hacc
  isplitl [Hsb]; · iexact Hsb
  iexact Hdb

/-- The invariant of the loop over the staged pieces in sb1M and db1M: before trip `i` of piece `C` the table scratch
    holds the tile's table, the two staging buffers piece `C` of the half lists, the accumulator the fold after
    `4 (512 C + 4 i)` steps. -/
def innerInv1 (tb : Vec F S40064 .f32) (s t : IVec S2x1x163840 32) (z : Vec F S40064 .f32) (eh : Fin 2) (C : Nat) (i : Nat) (_ : Unit) : sProp 𝕄 :=
  iprop(((tabM).view.loc thr ↦{fullShare} tb)
    ∗ ((accM).view.loc thr ↦{fullShare} edgeAcc tb s t eh z (4 * (512 * C + 4 * i)))
    ∗ ((sb1M).view.loc thr ↦{fullShare} chunkBuf s eh C)
    ∗ ((db1M).view.loc thr ↦{fullShare} chunkBuf t eh C))

set_option maxHeartbeats 4000000 in
/-- One trip: sixteen gathers off the table, then the sixteen adds in the fold's order. -/
theorem inner1_region (tb : Vec F S40064 .f32) (s t : IVec S2x1x163840 32) (z : Vec F S40064 .f32) (hs : EdgePre s) (ht : EdgePre t) (eh : Fin 2) (C : Nat)
    (k : Fin k4_t3_loop.trips) (a : Unit) :
    innerInv1 d L tb s t z eh C k.val a
      ⊢ wp frame (wpE (defs₀ (F := F)) 𝒱₀ thr none) Set.univ
          (k4_t3_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2 k a)
          (innerInv1 d L tb s t z eh C (k.val + 1)) := by
  unfold innerInv1 k4_t3_body
  iintro ⟨Htab, Hacc, Hsb, Hdb⟩
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  iapply (wp_scatter_step (F := F) d L tb s t z eh (4 * (512 * C + 4 * k.val)) (4 * (512 * C + 4 * k.val) + 1) (512 * C + 4 * k.val + 0) 0 (by omega) (by omega) (by omega) _ _
      (congrArg (fun v => addK v 0) (rd_sb1 (F := F) s eh C (k4_off9 k) (k4_off9_inb k) k.val 0 ((k4_off9_eq k).trans (congrArg (fun n => (![n] : Fin 1 → Nat)) (by omega)))))
      (congrArg (fun v => addK v 0) (rd_db1 (F := F) t eh C (k4_off9 k) (k4_off9_inb k) k.val 0 ((k4_off9_eq k).trans (congrArg (fun n => (![n] : Fin 1 → Nat)) (by omega)))))) $$ Hacc; iintro Hacc
  iapply (wp_scatter_step (F := F) d L tb s t z eh (4 * (512 * C + 4 * k.val) + 1) (4 * (512 * C + 4 * k.val) + 2) (512 * C + 4 * k.val + 0) 1 (by omega) (by omega) (by omega) _ _
      (congrArg (fun v => addK v 1) (rd_sb1 (F := F) s eh C (k4_off9 k) (k4_off9_inb k) k.val 0 ((k4_off9_eq k).trans (congrArg (fun n => (![n] : Fin 1 → Nat)) (by omega)))))
      (congrArg (fun v => addK v 1) (rd_db1 (F := F) t eh C (k4_off9 k) (k4_off9_inb k) k.val 0 ((k4_off9_eq k).trans (congrArg (fun n => (![n] : Fin 1 → Nat)) (by omega)))))) $$ Hacc; iintro Hacc
  iapply (wp_scatter_step (F := F) d L tb s t z eh (4 * (512 * C + 4 * k.val) + 2) (4 * (512 * C + 4 * k.val) + 3) (512 * C + 4 * k.val + 0) 2 (by omega) (by omega) (by omega) _ _
      (congrArg (fun v => addK v 2) (rd_sb1 (F := F) s eh C (k4_off9 k) (k4_off9_inb k) k.val 0 ((k4_off9_eq k).trans (congrArg (fun n => (![n] : Fin 1 → Nat)) (by omega)))))
      (congrArg (fun v => addK v 2) (rd_db1 (F := F) t eh C (k4_off9 k) (k4_off9_inb k) k.val 0 ((k4_off9_eq k).trans (congrArg (fun n => (![n] : Fin 1 → Nat)) (by omega)))))) $$ Hacc; iintro Hacc
  iapply (wp_scatter_step (F := F) d L tb s t z eh (4 * (512 * C + 4 * k.val) + 3) (4 * (512 * C + 4 * k.val) + 4) (512 * C + 4 * k.val + 0) 3 (by omega) (by omega) (by omega) _ _
      (congrArg (fun v => addK v 3) (rd_sb1 (F := F) s eh C (k4_off9 k) (k4_off9_inb k) k.val 0 ((k4_off9_eq k).trans (congrArg (fun n => (![n] : Fin 1 → Nat)) (by omega)))))
      (congrArg (fun v => addK v 3) (rd_db1 (F := F) t eh C (k4_off9 k) (k4_off9_inb k) k.val 0 ((k4_off9_eq k).trans (congrArg (fun n => (![n] : Fin 1 → Nat)) (by omega)))))) $$ Hacc; iintro Hacc
  iapply (wp_scatter_step (F := F) d L tb s t z eh (4 * (512 * C + 4 * k.val) + 4) (4 * (512 * C + 4 * k.val) + 5) (512 * C + 4 * k.val + 1) 0 (by omega) (by omega) (by omega) _ _
      (congrArg (fun v => addK v 0) (rd_sb1 (F := F) s eh C (k4_off10 k) (k4_off10_inb k) k.val 1 ((k4_off10_eq k).trans (congrArg (fun n => (![n] : Fin 1 → Nat)) (by omega)))))
      (congrArg (fun v => addK v 0) (rd_db1 (F := F) t eh C (k4_off10 k) (k4_off10_inb k) k.val 1 ((k4_off10_eq k).trans (congrArg (fun n => (![n] : Fin 1 → Nat)) (by omega)))))) $$ Hacc; iintro Hacc
  iapply (wp_scatter_step (F := F) d L tb s t z eh (4 * (512 * C + 4 * k.val) + 5) (4 * (512 * C + 4 * k.val) + 6) (512 * C + 4 * k.val + 1) 1 (by omega) (by omega) (by omega) _ _
      (congrArg (fun v => addK v 1) (rd_sb1 (F := F) s eh C (k4_off10 k) (k4_off10_inb k) k.val 1 ((k4_off10_eq k).trans (congrArg (fun n => (![n] : Fin 1 → Nat)) (by omega)))))
      (congrArg (fun v => addK v 1) (rd_db1 (F := F) t eh C (k4_off10 k) (k4_off10_inb k) k.val 1 ((k4_off10_eq k).trans (congrArg (fun n => (![n] : Fin 1 → Nat)) (by omega)))))) $$ Hacc; iintro Hacc
  iapply (wp_scatter_step (F := F) d L tb s t z eh (4 * (512 * C + 4 * k.val) + 6) (4 * (512 * C + 4 * k.val) + 7) (512 * C + 4 * k.val + 1) 2 (by omega) (by omega) (by omega) _ _
      (congrArg (fun v => addK v 2) (rd_sb1 (F := F) s eh C (k4_off10 k) (k4_off10_inb k) k.val 1 ((k4_off10_eq k).trans (congrArg (fun n => (![n] : Fin 1 → Nat)) (by omega)))))
      (congrArg (fun v => addK v 2) (rd_db1 (F := F) t eh C (k4_off10 k) (k4_off10_inb k) k.val 1 ((k4_off10_eq k).trans (congrArg (fun n => (![n] : Fin 1 → Nat)) (by omega)))))) $$ Hacc; iintro Hacc
  iapply (wp_scatter_step (F := F) d L tb s t z eh (4 * (512 * C + 4 * k.val) + 7) (4 * (512 * C + 4 * k.val) + 8) (512 * C + 4 * k.val + 1) 3 (by omega) (by omega) (by omega) _ _
      (congrArg (fun v => addK v 3) (rd_sb1 (F := F) s eh C (k4_off10 k) (k4_off10_inb k) k.val 1 ((k4_off10_eq k).trans (congrArg (fun n => (![n] : Fin 1 → Nat)) (by omega)))))
      (congrArg (fun v => addK v 3) (rd_db1 (F := F) t eh C (k4_off10 k) (k4_off10_inb k) k.val 1 ((k4_off10_eq k).trans (congrArg (fun n => (![n] : Fin 1 → Nat)) (by omega)))))) $$ Hacc; iintro Hacc
  iapply (wp_scatter_step (F := F) d L tb s t z eh (4 * (512 * C + 4 * k.val) + 8) (4 * (512 * C + 4 * k.val) + 9) (512 * C + 4 * k.val + 2) 0 (by omega) (by omega) (by omega) _ _
      (congrArg (fun v => addK v 0) (rd_sb1 (F := F) s eh C (k4_off11 k) (k4_off11_inb k) k.val 2 ((k4_off11_eq k).trans (congrArg (fun n => (![n] : Fin 1 → Nat)) (by omega)))))
      (congrArg (fun v => addK v 0) (rd_db1 (F := F) t eh C (k4_off11 k) (k4_off11_inb k) k.val 2 ((k4_off11_eq k).trans (congrArg (fun n => (![n] : Fin 1 → Nat)) (by omega)))))) $$ Hacc; iintro Hacc
  iapply (wp_scatter_step (F := F) d L tb s t z eh (4 * (512 * C + 4 * k.val) + 9) (4 * (512 * C + 4 * k.val) + 10) (512 * C + 4 * k.val + 2) 1 (by omega) (by omega) (by omega) _ _
      (congrArg (fun v => addK v 1) (rd_sb1 (F := F) s eh C (k4_off11 k) (k4_off11_inb k) k.val 2 ((k4_off11_eq k).trans (congrArg (fun n => (![n] : Fin 1 → Nat)) (by omega)))))
      (congrArg (fun v => addK v 1) (rd_db1 (F := F) t eh C (k4_off11 k) (k4_off11_inb k) k.val 2 ((k4_off11_eq k).trans (congrArg (fun n => (![n] : Fin 1 → Nat)) (by omega)))))) $$ Hacc; iintro Hacc
  iapply (wp_scatter_step (F := F) d L tb s t z eh (4 * (512 * C + 4 * k.val) + 10) (4 * (512 * C + 4 * k.val) + 11) (512 * C + 4 * k.val + 2) 2 (by omega) (by omega) (by omega) _ _
      (congrArg (fun v => addK v 2) (rd_sb1 (F := F) s eh C (k4_off11 k) (k4_off11_inb k) k.val 2 ((k4_off11_eq k).trans (congrArg (fun n => (![n] : Fin 1 → Nat)) (by omega)))))
      (congrArg (fun v => addK v 2) (rd_db1 (F := F) t eh C (k4_off11 k) (k4_off11_inb k) k.val 2 ((k4_off11_eq k).trans (congrArg (fun n => (![n] : Fin 1 → Nat)) (by omega)))))) $$ Hacc; iintro Hacc
  iapply (wp_scatter_step (F := F) d L tb s t z eh (4 * (512 * C + 4 * k.val) + 11) (4 * (512 * C + 4 * k.val) + 12) (512 * C + 4 * k.val + 2) 3 (by omega) (by omega) (by omega) _ _
      (congrArg (fun v => addK v 3) (rd_sb1 (F := F) s eh C (k4_off11 k) (k4_off11_inb k) k.val 2 ((k4_off11_eq k).trans (congrArg (fun n => (![n] : Fin 1 → Nat)) (by omega)))))
      (congrArg (fun v => addK v 3) (rd_db1 (F := F) t eh C (k4_off11 k) (k4_off11_inb k) k.val 2 ((k4_off11_eq k).trans (congrArg (fun n => (![n] : Fin 1 → Nat)) (by omega)))))) $$ Hacc; iintro Hacc
  iapply (wp_scatter_step (F := F) d L tb s t z eh (4 * (512 * C + 4 * k.val) + 12) (4 * (512 * C + 4 * k.val) + 13) (512 * C + 4 * k.val + 3) 0 (by omega) (by omega) (by omega) _ _
      (congrArg (fun v => addK v 0) (rd_sb1 (F := F) s eh C (k4_off12 k) (k4_off12_inb k) k.val 3 ((k4_off12_eq k).trans (congrArg (fun n => (![n] : Fin 1 → Nat)) (by omega)))))
      (congrArg (fun v => addK v 0) (rd_db1 (F := F) t eh C (k4_off12 k) (k4_off12_inb k) k.val 3 ((k4_off12_eq k).trans (congrArg (fun n => (![n] : Fin 1 → Nat)) (by omega)))))) $$ Hacc; iintro Hacc
  iapply (wp_scatter_step (F := F) d L tb s t z eh (4 * (512 * C + 4 * k.val) + 13) (4 * (512 * C + 4 * k.val) + 14) (512 * C + 4 * k.val + 3) 1 (by omega) (by omega) (by omega) _ _
      (congrArg (fun v => addK v 1) (rd_sb1 (F := F) s eh C (k4_off12 k) (k4_off12_inb k) k.val 3 ((k4_off12_eq k).trans (congrArg (fun n => (![n] : Fin 1 → Nat)) (by omega)))))
      (congrArg (fun v => addK v 1) (rd_db1 (F := F) t eh C (k4_off12 k) (k4_off12_inb k) k.val 3 ((k4_off12_eq k).trans (congrArg (fun n => (![n] : Fin 1 → Nat)) (by omega)))))) $$ Hacc; iintro Hacc
  iapply (wp_scatter_step (F := F) d L tb s t z eh (4 * (512 * C + 4 * k.val) + 14) (4 * (512 * C + 4 * k.val) + 15) (512 * C + 4 * k.val + 3) 2 (by omega) (by omega) (by omega) _ _
      (congrArg (fun v => addK v 2) (rd_sb1 (F := F) s eh C (k4_off12 k) (k4_off12_inb k) k.val 3 ((k4_off12_eq k).trans (congrArg (fun n => (![n] : Fin 1 → Nat)) (by omega)))))
      (congrArg (fun v => addK v 2) (rd_db1 (F := F) t eh C (k4_off12 k) (k4_off12_inb k) k.val 3 ((k4_off12_eq k).trans (congrArg (fun n => (![n] : Fin 1 → Nat)) (by omega)))))) $$ Hacc; iintro Hacc
  iapply (wp_scatter_step (F := F) d L tb s t z eh (4 * (512 * C + 4 * k.val) + 15) (4 * (512 * C + 4 * k.val) + 16) (512 * C + 4 * k.val + 3) 3 (by omega) (by omega) (by omega) _ _
      (congrArg (fun v => addK v 3) (rd_sb1 (F := F) s eh C (k4_off12 k) (k4_off12_inb k) k.val 3 ((k4_off12_eq k).trans (congrArg (fun n => (![n] : Fin 1 → Nat)) (by omega)))))
      (congrArg (fun v => addK v 3) (rd_db1 (F := F) t eh C (k4_off12 k) (k4_off12_inb k) k.val 3 ((k4_off12_eq k).trans (congrArg (fun n => (![n] : Fin 1 → Nat)) (by omega)))))) $$ Hacc; iintro Hacc
  sl_step
  rw [show 4 * (512 * C + 4 * (k.val + 1)) = 4 * (512 * C + 4 * k.val) + 16 from by omega]
  isplitl [Htab]; · iexact Htab
  isplitl [Hacc]; · iexact Hacc
  isplitl [Hsb]; · iexact Hsb
  iexact Hdb

theorem inner0_trips : k4_t2_loop.trips = 128 := by decide
theorem inner1_trips : k4_t3_loop.trips = 128 := by decide

end Tile

end cc4_edge

end Cert.KernelIdeal.Hand

end
-- ==== Proof.KI.EdgeLoops4.lean ====
/-
  The edge kernel's two inner loops, whole, and the value of its copy-out.

  Each inner loop takes 128 trips over one staged 8192-word piece of the two half lists; a trip moves the fold
  edgeAcc sixteen steps on, so the loop over piece C takes it from step 4 · 512 C to step 4 · 512 (C + 1), the staged
  piece and the table unchanged. The statements are in continuation form: what follows the loop runs from the fold at
  the start of the next piece. After the twentieth piece the fold has taken all 4 · 512 · 20 = 40960 steps, and what the
  copy-out writes through the tile's row of the result is the kernel's value on that row.
-/
import proofs.«219763_g10557029614292_week1_w2_488_21_alg».proof.Proof.KI.Base
import proofs.«219763_g10557029614292_week1_w2_488_21_alg».proof.Proof.KI.Vals
import proofs.«219763_g10557029614292_week1_w2_488_21_alg».proof.Proof.KI.EdgeDefs4
import proofs.«219763_g10557029614292_week1_w2_488_21_alg».proof.Proof.KI.EdgeSteps4
import proofs.«219763_g10557029614292_week1_w2_488_21_alg».proof.Proof.KI.EdgeCompute4
import proofs.«219763_g10557029614292_week1_w2_488_21_alg».proof.Proof.KI.EdgeAux4
import Idealize.ShloMosaic.Lib.Scf

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc4_edge

variable {F : FTy → Type}

local notation "𝕄" => MT nD τ sig (HIx 3) (Elt F) ℕ UU ℕ

local notation "gW" => (Memref.whole Cert.KernelIdeal.main_v37_scv : Memref Cert.KernelIdeal.sig Kind.scVector Space.hbm Cert.KernelIdeal.S16x1x40064 EltTy.f32)
local notation "sW" => (Memref.whole Cert.KernelIdeal.main_v6_scv : Memref Cert.KernelIdeal.sig Kind.scVector Space.hbm Cert.KernelIdeal.S2x1x163840 EltTy.i32)
local notation "dW" => (Memref.whole Cert.KernelIdeal.main_v9_scv : Memref Cert.KernelIdeal.sig Kind.scVector Space.hbm Cert.KernelIdeal.S2x1x163840 EltTy.i32)
local notation "zW" => (Memref.whole Cert.KernelIdeal.main_v13_scv : Memref Cert.KernelIdeal.sig Kind.scVector Space.hbm Cert.KernelIdeal.S40064 EltTy.f32)
local notation "oW" => (Memref.whole Cert.KernelIdeal.main_v38_scv : Memref Cert.KernelIdeal.sig Kind.scVector Space.hbm Cert.KernelIdeal.S16x2x1x40064 EltTy.f32)
local notation "tabM" => (Memref.whole Cert.KernelIdeal.cc4_scratch0 : Memref Cert.KernelIdeal.sig Kind.scVector Space.vmem Cert.KernelIdeal.S40064 EltTy.f32)
local notation "accM" => (Memref.whole Cert.KernelIdeal.cc4_scratch1 : Memref Cert.KernelIdeal.sig Kind.scVector Space.vmem Cert.KernelIdeal.S40064 EltTy.f32)
local notation "sb0M" => (Memref.whole Cert.KernelIdeal.cc4_scratch2 : Memref Cert.KernelIdeal.sig Kind.scVector Space.vmem Cert.KernelIdeal.S8192 EltTy.i32)
local notation "db0M" => (Memref.whole Cert.KernelIdeal.cc4_scratch3 : Memref Cert.KernelIdeal.sig Kind.scVector Space.vmem Cert.KernelIdeal.S8192 EltTy.i32)
local notation "sb1M" => (Memref.whole Cert.KernelIdeal.cc4_scratch4 : Memref Cert.KernelIdeal.sig Kind.scVector Space.vmem Cert.KernelIdeal.S8192 EltTy.i32)
local notation "db1M" => (Memref.whole Cert.KernelIdeal.cc4_scratch5 : Memref Cert.KernelIdeal.sig Kind.scVector Space.vmem Cert.KernelIdeal.S8192 EltTy.i32)

variable [FloatOps F]
section Tile
variable (d : Dev nD) (L : grid4.Coords)

local notation "thr" => (V d (cV L) (jV L))

omit [FloatOps F] in
/-- Each inner loop takes 128 trips. -/
theorem k4_t2_trips : k4_t2_loop.trips = 128 := by decide +kernel
omit [FloatOps F] in
theorem k4_t3_trips : k4_t3_loop.trips = 128 := by decide +kernel

/-- The first inner loop, whole: from the fold at the start of piece C, held with the piece staged in the first
    pair of buffers, to the fold at the start of piece C + 1. -/
theorem compute0 {α : Type} {Q : α → sProp 𝕄} (kk : Unit → Prog (TpuEff nD τ sig (Elt F) Λ₀ (thr).2) α)
    (tb : Vec F S40064 .f32) (s t : IVec S2x1x163840 32) (z : Vec F S40064 .f32) (hs : EdgePre s) (ht : EdgePre t) (eh : Fin 2) (C : Nat)
    (c0 c1 : BitVec 32) (t1 : Fin k4_t1_loop.trips) :
    iprop(((tabM).view.loc thr ↦{fullShare} tb) ∗ ((accM).view.loc thr ↦{fullShare} edgeAcc tb s t eh z (4 * (512 * C)))
        ∗ ((sb0M).view.loc thr ↦{fullShare} chunkBuf s eh C) ∗ ((db0M).view.loc thr ↦{fullShare} chunkBuf t eh C)
        ∗ ((((tabM).view.loc thr ↦{fullShare} tb) ∗ ((accM).view.loc thr ↦{fullShare} edgeAcc tb s t eh z (4 * (512 * (C + 1))))
            ∗ ((sb0M).view.loc thr ↦{fullShare} chunkBuf s eh C) ∗ ((db0M).view.loc thr ↦{fullShare} chunkBuf t eh C))
          -∗ wp frame (wpE (defs₀ (F := F)) 𝒱₀ thr none) Set.univ (kk ⟨⟩) Q))
      ⊢ wp frame (wpE (defs₀ (F := F)) 𝒱₀ thr none) Set.univ
          (Scf.Loop.for k4_t2_loop k4_t2_ok ⟨⟩ (k4_t2_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2 c0 c1 t1) >>= kk) Q := by
  have hloop := Scf.wp_for_bind frame (wpE (defs₀ (F := F)) 𝒱₀ thr none) Set.univ k4_t2_loop.lb k4_t2_loop.ub k4_t2_loop.st k4_t2_ok (⟨⟩ : Unit)
    (k4_t2_body L gW (Memref.isWhole_whole _) sW (Memref.isWhole_whole _) dW (Memref.isWhole_whole _) zW (Memref.isWhole_whole _)
      oW (Memref.isWhole_whole _) tabM (Memref.isWhole_whole _) accM (Memref.isWhole_whole _) sb0M (Memref.isWhole_whole _)
      db0M (Memref.isWhole_whole _) sb1M (Memref.isWhole_whole _) db1M (Memref.isWhole_whole _)
      cc4_scratch6 cc4_scratch7 cc4_scratch8 cc4_scratch9 cc4_scoped0 cc4_scoped1 cc4_scoped2 c0 c1 t1)
    (innerInv0 d L tb s t z eh C) (fun k a => inner0_region d L tb s t z hs ht eh C c0 c1 t1 k a) (kk := kk) (Q := Q)
  iintro ⟨Htab, Hacc, Hsb, Hdb, Hk⟩
  iapply hloop $$ [Htab Hacc Hsb Hdb] [Hk]
  · unfold innerInv0
    rw [show 4 * (512 * C + 4 * 0) = 4 * (512 * C) by ring]
    isplitl [Htab]; · iexact Htab
    isplitl [Hacc]; · iexact Hacc
    isplitl [Hsb]; · iexact Hsb
    iexact Hdb
  · iintro %a HI
    iapply Hk
    have hidx : 4 * (512 * C + 4 * Scf.trips k4_t2_loop.lb k4_t2_loop.ub k4_t2_loop.st) = 4 * (512 * (C + 1)) := by
      rw [show Scf.trips k4_t2_loop.lb k4_t2_loop.ub k4_t2_loop.st = 128 from k4_t2_trips]; ring
    unfold innerInv0
    rw [hidx]
    iexact HI

/-- The second inner loop, whole: the same over the second pair of buffers. -/
theorem compute1 {α : Type} {Q : α → sProp 𝕄} (kk : Unit → Prog (TpuEff nD τ sig (Elt F) Λ₀ (thr).2) α)
    (tb : Vec F S40064 .f32) (s t : IVec S2x1x163840 32) (z : Vec F S40064 .f32) (hs : EdgePre s) (ht : EdgePre t) (eh : Fin 2) (C : Nat) :
    iprop(((tabM).view.loc thr ↦{fullShare} tb) ∗ ((accM).view.loc thr ↦{fullShare} edgeAcc tb s t eh z (4 * (512 * C)))
        ∗ ((sb1M).view.loc thr ↦{fullShare} chunkBuf s eh C) ∗ ((db1M).view.loc thr ↦{fullShare} chunkBuf t eh C)
        ∗ ((((tabM).view.loc thr ↦{fullShare} tb) ∗ ((accM).view.loc thr ↦{fullShare} edgeAcc tb s t eh z (4 * (512 * (C + 1))))
            ∗ ((sb1M).view.loc thr ↦{fullShare} chunkBuf s eh C) ∗ ((db1M).view.loc thr ↦{fullShare} chunkBuf t eh C))
          -∗ wp frame (wpE (defs₀ (F := F)) 𝒱₀ thr none) Set.univ (kk ⟨⟩) Q))
      ⊢ wp frame (wpE (defs₀ (F := F)) 𝒱₀ thr none) Set.univ
          (Scf.Loop.for k4_t3_loop k4_t3_ok ⟨⟩ (k4_t3_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2) >>= kk) Q := by
  have hloop := Scf.wp_for_bind frame (wpE (defs₀ (F := F)) 𝒱₀ thr none) Set.univ k4_t3_loop.lb k4_t3_loop.ub k4_t3_loop.st k4_t3_ok (⟨⟩ : Unit)
    (k4_t3_body L gW (Memref.isWhole_whole _) sW (Memref.isWhole_whole _) dW (Memref.isWhole_whole _) zW (Memref.isWhole_whole _)
      oW (Memref.isWhole_whole _) tabM (Memref.isWhole_whole _) accM (Memref.isWhole_whole _) sb0M (Memref.isWhole_whole _)
      db0M (Memref.isWhole_whole _) sb1M (Memref.isWhole_whole _) db1M (Memref.isWhole_whole _)
      cc4_scratch6 cc4_scratch7 cc4_scratch8 cc4_scratch9 cc4_scoped0 cc4_scoped1 cc4_scoped2)
    (innerInv1 d L tb s t z eh C) (fun k a => inner1_region d L tb s t z hs ht eh C k a) (kk := kk) (Q := Q)
  iintro ⟨Htab, Hacc, Hsb, Hdb, Hk⟩
  iapply hloop $$ [Htab Hacc Hsb Hdb] [Hk]
  · unfold innerInv1
    rw [show 4 * (512 * C + 4 * 0) = 4 * (512 * C) by ring]
    isplitl [Htab]; · iexact Htab
    isplitl [Hacc]; · iexact Hacc
    isplitl [Hsb]; · iexact Hsb
    iexact Hdb
  · iintro %a HI
    iapply Hk
    have hidx : 4 * (512 * C + 4 * Scf.trips k4_t3_loop.lb k4_t3_loop.ub k4_t3_loop.st) = 4 * (512 * (C + 1)) := by
      rw [show Scf.trips k4_t3_loop.lb k4_t3_loop.ub k4_t3_loop.st = 128 from k4_t3_trips]; ring
    unfold innerInv1
    rw [hidx]
    iexact HI

end Tile

/-! ## What the copy-out leaves in the tile's row of the result -/

/-- The accumulator after all twenty pieces, written through the tile's row of the result, is the edge kernel's
    value there: the row's tile is (feature group L 1, edge half L 0), and 4 · 512 · 20 = 40960 steps are the whole fold. -/
theorem out_value (L : grid4.Coords) (g : Vec F S16x1x40064 .f32) (s t : IVec S2x1x163840 32) (z : Vec F S40064 .f32)
    (o : Vec F S16x2x1x40064 .f32) (i : S16x2x1x40064.Idx) (hi : i ∈ edgeRow L) :
    (oRowK L).view.write (Elt F) o (edgeAcc (tabRow g (L 1 : Fin 16)) s t (L 0 : Fin 2) z (4 * (512 * (2 * 10)))) Finset.univ i
      = edgeOut g s t z i := by
  rw [oRowK_write L o _ i hi]
  obtain ⟨-, h0, h1⟩ := Finset.mem_filter.mp hi
  have e0 : (i 0 : Fin 16) = (L 1 : Fin 16) := Fin.ext h0
  have e1 : (i 1 : Fin 2) = (L 0 : Fin 2) := Fin.ext h1
  show _ = edgeAcc (tabRow g (i 0)) s t (i 1) z 40960 (ix1 (i 3))
  rw [e0, e1]

end cc4_edge

end Cert.KernelIdeal.Hand

end
-- ==== Proof.KI.EdgeBody4.lean ====
/-
  The body of the edge kernel on one vector subcore, with its value.

  The tile at (edge half eh, feature group cg) copies row cg of the packed table and the zero array into its two
  large scratch arrays, then walks the twenty 8192-word chunks of half eh of the source and destination lists through
  two pairs of staging buffers, one pair being filled while the other is read: for each sixteen-word chunk n of the
  lists and each feature row k it gathers the table at source + k · 10016 and adds the gathered lanes into the
  accumulator at destination + k · 10016. Sixteen such steps make one trip of the inner loop, 128 trips one staging
  buffer, two staging buffers one trip of the outer loop, ten trips the whole half list: 40960 steps in the order
  p = 4 n + k, which is the order of the fold `edgeAcc`. The accumulator is then copied to the tile's row of the result.

  Every word of the two lists is at most 10000, so every index the tile forms is below 40064.
-/
import proofs.«219763_g10557029614292_week1_w2_488_21_alg».proof.Proof.KI.Base
import proofs.«219763_g10557029614292_week1_w2_488_21_alg».proof.Proof.KI.Vals
import proofs.«219763_g10557029614292_week1_w2_488_21_alg».proof.Proof.KI.EdgeDefs4
import proofs.«219763_g10557029614292_week1_w2_488_21_alg».proof.Proof.KI.EdgeAux4
import proofs.«219763_g10557029614292_week1_w2_488_21_alg».proof.Proof.KI.EdgeLoops4

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc4_edge

variable {F : FTy → Type}

local notation "𝕄" => MT nD τ sig (HIx 3) (Elt F) ℕ UU ℕ

variable [FloatOps F]

local notation "gW" => (Memref.whole Cert.KernelIdeal.main_v37_scv : Memref Cert.KernelIdeal.sig Kind.scVector Space.hbm Cert.KernelIdeal.S16x1x40064 EltTy.f32)
local notation "sW" => (Memref.whole Cert.KernelIdeal.main_v6_scv : Memref Cert.KernelIdeal.sig Kind.scVector Space.hbm Cert.KernelIdeal.S2x1x163840 EltTy.i32)
local notation "dW" => (Memref.whole Cert.KernelIdeal.main_v9_scv : Memref Cert.KernelIdeal.sig Kind.scVector Space.hbm Cert.KernelIdeal.S2x1x163840 EltTy.i32)
local notation "zW" => (Memref.whole Cert.KernelIdeal.main_v13_scv : Memref Cert.KernelIdeal.sig Kind.scVector Space.hbm Cert.KernelIdeal.S40064 EltTy.f32)
local notation "oW" => (Memref.whole Cert.KernelIdeal.main_v38_scv : Memref Cert.KernelIdeal.sig Kind.scVector Space.hbm Cert.KernelIdeal.S16x2x1x40064 EltTy.f32)
local notation "tabM" => (Memref.whole Cert.KernelIdeal.cc4_scratch0 : Memref Cert.KernelIdeal.sig Kind.scVector Space.vmem Cert.KernelIdeal.S40064 EltTy.f32)
local notation "accM" => (Memref.whole Cert.KernelIdeal.cc4_scratch1 : Memref Cert.KernelIdeal.sig Kind.scVector Space.vmem Cert.KernelIdeal.S40064 EltTy.f32)
local notation "sb0M" => (Memref.whole Cert.KernelIdeal.cc4_scratch2 : Memref Cert.KernelIdeal.sig Kind.scVector Space.vmem Cert.KernelIdeal.S8192 EltTy.i32)
local notation "db0M" => (Memref.whole Cert.KernelIdeal.cc4_scratch3 : Memref Cert.KernelIdeal.sig Kind.scVector Space.vmem Cert.KernelIdeal.S8192 EltTy.i32)
local notation "sb1M" => (Memref.whole Cert.KernelIdeal.cc4_scratch4 : Memref Cert.KernelIdeal.sig Kind.scVector Space.vmem Cert.KernelIdeal.S8192 EltTy.i32)
local notation "db1M" => (Memref.whole Cert.KernelIdeal.cc4_scratch5 : Memref Cert.KernelIdeal.sig Kind.scVector Space.vmem Cert.KernelIdeal.S8192 EltTy.i32)

/-- The counters' copy in the ghost state. -/
abbrev EC : UEmb Counters 𝕄 := countersEmb

omit [FloatOps F] in
/-- A transfer in flight delivers, beside what it delivers, anything kept aside for its landing. -/
theorem Flight_frame (c : Thread nD τ) {sm : SemLoc sig} {ι : HIx 3} {N : ℕ} {D P : sProp 𝕄} :
    iprop(Transfers.Flight (EC (F := F)) c sm ι N D ∗ P) ⊢ Transfers.Flight (EC (F := F)) c sm ι N iprop(D ∗ P) := by
  unfold Transfers.Flight
  iintro ⟨⟨⟨%R, HR, %hcap, %hpeek⟩, Hcred⟩, HP⟩
  isplitl [HR HP]
  · iexists iprop(R ∗ P)
    isplitl [HR HP]; · isplitl [HR] <;> iassumption
    isplit
    · ipureintro
      intro K
      iintro ⟨⟨HR, HP⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HP⟩, HK⟩
      iapply (hpeek K)
      isplitl [HR]; · iexact HR
      iintro HR
      iapply HK
      isplitl [HR] <;> iassumption
  · iexact Hcred

omit [FloatOps F] in
theorem pts_of_eq {ℓ : Loc nD τ sig} {S : Finset (Idx ℓ)} {q : PosShare TreeShare} {f g : Buf (Elt F) ℓ} (h : f = g) :
    (ℓ ↦[S]{q} f : sProp 𝕄) ⊢ ℓ ↦[S]{q} g := by rw [h]

section Tile
variable (d : Dev nD) (L : grid4.Coords)

local notation "thr" => (V d (cV L) (jV L))

/-- The start of a local copy out of an array held on any set of elements that includes the source's, into a buffer
    held on any set of elements that includes the destination's, on a semaphore at zero: the copy in flight delivers
    the buffer rewritten and the array as it was held. -/
theorem wp_issue {α : Type} {Q : α → sProp 𝕄} {sp sp' : Space} {s₀ : Shape} {e₀ : EltTy}
    {src : Memref sig (thr).2.kind sp s₀ e₀} {dst : Memref sig (thr).2.kind sp' s₀ e₀} {sem : DmaSem sig}
    {hsrc : src.view.WordExact} {hdst : dst.view.WordExact} {hsem : DmaTarget.Typed (nD := nD) sp (SemLoc.dma sem) (.here dst)}
    {k : PUnit → Prog (TpuEff nD τ sig (Elt F) Λ₀ (thr).2) α} {q : PosShare TreeShare}
    {S : Finset (Idx (src.view.loc thr))} {fs : Buf (Elt F) (src.view.loc thr)}
    {Sd : Finset (Idx (dst.view.loc thr))} {fd : Buf (Elt F) (dst.view.loc thr)}
    (N : ℕ) (hN : dst.view.amount (SemLoc.dma sem) = N) (hN0 : 0 < N) (hS : src.view.set ⊆ S) (hSd : dst.view.set ⊆ Sd) :
    iprop((src.view.loc thr ↦[S]{q} fs) ∗ (dst.view.loc thr ↦[Sd]{fullShare} fd) ∗ semVal (thr, SemLoc.dma sem) 0)
      ⊢ iprop((Transfers.Flight (EC (F := F)) thr (SemLoc.dma sem) none N
                iprop((dst.view.loc thr ↦[Sd]{fullShare} (dst.view.write (Elt F) fd (ReadAs.same.apply (src.view.read (Elt F) fs)) Finset.univ))
                      ∗ (src.view.loc thr ↦[S]{q} fs))
              -∗ wp frame (wpE (defs₀ (F := F)) 𝒱₀ thr none) Set.univ (k ⟨⟩) Q)
          -∗ wp frame (wpE (defs₀ (F := F)) 𝒱₀ thr none) Set.univ (.op (.enqueueDmaAs src (.here dst) .same (SemLoc.dma sem) hsrc hdst hsem) k) Q) := by
  iintro ⟨Hs, Hd, Hv⟩ Hk
  ihave Hs' := (pointsTo_split_subset hS).1 $$ Hs
  icases Hs' with ⟨Hs1, Hs2⟩
  iapply (Transfers.wp_dmaLocal (EC (F := F)) 𝒱₀ thr none (none : HIx 3) N hN hN0 hSd) $$ [Hs1 Hd Hv]
  · isplitl [Hs1]; · iexact Hs1
    isplitl [Hd] <;> iassumption
  iintro HF
  iapply Hk
  iapply (Transfers.Flight_mono (EC (F := F)) thr ?_)
  rotate_left
  · iapply (Flight_frame thr)
    isplitl [HF]; · iexact HF
    iexact Hs2
  · iintro ⟨⟨Hd, Hs1⟩, Hs2⟩
    isplitl [Hd]; · iexact Hd
    iapply (pointsTo_split_subset hS).2
    isplitl [Hs1] <;> iassumption

/-- The start of the copy of chunk C of half eh of a list into a staging buffer: in flight it delivers the buffer at
    that chunk and the list as it was held. -/
theorem wp_issue_s0 {α : Type} {Q : α → sProp 𝕄} {sem : DmaSem sig} {off : Fin 3 → Nat} {inb : ∀ i, off i + S1x1x8192.size i ≤ S2x1x163840.size i}
    {hsrc : (((sW).slice (Rect.unit (s := S2x1x163840) off S1x1x8192.size inb) (fun _ => rfl)).squeeze S8192 squeezes_S1x1x8192_S8192).view.WordExact}
    {hdst : (sb0M).view.WordExact}
    {hsem : DmaTarget.Typed (nD := nD) Space.hbm (SemLoc.dma sem) (DmaTarget.here (sb0M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((sLoc d ↦{q} a) ∗ ((sb0M).view.loc thr ↦{fullShare} fd) ∗ semVal (thr, SemLoc.dma sem) 0)
      ⊢ iprop((Transfers.Flight (EC (F := F)) thr (SemLoc.dma sem) none (sb0M).view.dmaCredit
                iprop(((sb0M).view.loc thr ↦{fullShare} chunkBuf a eh C) ∗ (sLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((sW).slice (Rect.unit (s := S2x1x163840) off S1x1x8192.size inb) (fun _ => rfl)).squeeze S8192 squeezes_S1x1x8192_S8192)
                (.here (sb0M)) .same (SemLoc.dma sem) hsrc hdst hsem) k) Q) := by
  iintro ⟨Hs, Hd, Hv⟩ Hk
  iapply (wp_issue d L (src := (((sW).slice (Rect.unit (s := S2x1x163840) off S1x1x8192.size inb) (fun _ => rfl)).squeeze S8192 squeezes_S1x1x8192_S8192)) (dst := sb0M) (S := Finset.univ) (Sd := Finset.univ) (fs := a) (fd := fd) (q := q)
    (sb0M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v6 a off inb eh C hoff))) $$ Hd
  · iexact Hs

/-- The start of the copy of chunk C of half eh of a list into a staging buffer: in flight it delivers the buffer at
    that chunk and the list as it was held. -/
theorem wp_issue_d0 {α : Type} {Q : α → sProp 𝕄} {sem : DmaSem sig} {off : Fin 3 → Nat} {inb : ∀ i, off i + S1x1x8192.size i ≤ S2x1x163840.size i}
    {hsrc : (((dW).slice (Rect.unit (s := S2x1x163840) off S1x1x8192.size inb) (fun _ => rfl)).squeeze S8192 squeezes_S1x1x8192_S8192).view.WordExact}
    {hdst : (db0M).view.WordExact}
    {hsem : DmaTarget.Typed (nD := nD) Space.hbm (SemLoc.dma sem) (DmaTarget.here (db0M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((dLoc d ↦{q} a) ∗ ((db0M).view.loc thr ↦{fullShare} fd) ∗ semVal (thr, SemLoc.dma sem) 0)
      ⊢ iprop((Transfers.Flight (EC (F := F)) thr (SemLoc.dma sem) none (db0M).view.dmaCredit
                iprop(((db0M).view.loc thr ↦{fullShare} chunkBuf a eh C) ∗ (dLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((dW).slice (Rect.unit (s := S2x1x163840) off S1x1x8192.size inb) (fun _ => rfl)).squeeze S8192 squeezes_S1x1x8192_S8192)
                (.here (db0M)) .same (SemLoc.dma sem) hsrc hdst hsem) k) Q) := by
  iintro ⟨Hs, Hd, Hv⟩ Hk
  iapply (wp_issue d L (src := (((dW).slice (Rect.unit (s := S2x1x163840) off S1x1x8192.size inb) (fun _ => rfl)).squeeze S8192 squeezes_S1x1x8192_S8192)) (dst := db0M) (S := Finset.univ) (Sd := Finset.univ) (fs := a) (fd := fd) (q := q)
    (db0M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v9 a off inb eh C hoff))) $$ Hd
  · iexact Hs

/-- The start of the copy of chunk C of half eh of a list into a staging buffer: in flight it delivers the buffer at
    that chunk and the list as it was held. -/
theorem wp_issue_s1 {α : Type} {Q : α → sProp 𝕄} {sem : DmaSem sig} {off : Fin 3 → Nat} {inb : ∀ i, off i + S1x1x8192.size i ≤ S2x1x163840.size i}
    {hsrc : (((sW).slice (Rect.unit (s := S2x1x163840) off S1x1x8192.size inb) (fun _ => rfl)).squeeze S8192 squeezes_S1x1x8192_S8192).view.WordExact}
    {hdst : (sb1M).view.WordExact}
    {hsem : DmaTarget.Typed (nD := nD) Space.hbm (SemLoc.dma sem) (DmaTarget.here (sb1M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((sLoc d ↦{q} a) ∗ ((sb1M).view.loc thr ↦{fullShare} fd) ∗ semVal (thr, SemLoc.dma sem) 0)
      ⊢ iprop((Transfers.Flight (EC (F := F)) thr (SemLoc.dma sem) none (sb1M).view.dmaCredit
                iprop(((sb1M).view.loc thr ↦{fullShare} chunkBuf a eh C) ∗ (sLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((sW).slice (Rect.unit (s := S2x1x163840) off S1x1x8192.size inb) (fun _ => rfl)).squeeze S8192 squeezes_S1x1x8192_S8192)
                (.here (sb1M)) .same (SemLoc.dma sem) hsrc hdst hsem) k) Q) := by
  iintro ⟨Hs, Hd, Hv⟩ Hk
  iapply (wp_issue d L (src := (((sW).slice (Rect.unit (s := S2x1x163840) off S1x1x8192.size inb) (fun _ => rfl)).squeeze S8192 squeezes_S1x1x8192_S8192)) (dst := sb1M) (S := Finset.univ) (Sd := Finset.univ) (fs := a) (fd := fd) (q := q)
    (sb1M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v6 a off inb eh C hoff))) $$ Hd
  · iexact Hs

/-- The start of the copy of chunk C of half eh of a list into a staging buffer: in flight it delivers the buffer at
    that chunk and the list as it was held. -/
theorem wp_issue_d1 {α : Type} {Q : α → sProp 𝕄} {sem : DmaSem sig} {off : Fin 3 → Nat} {inb : ∀ i, off i + S1x1x8192.size i ≤ S2x1x163840.size i}
    {hsrc : (((dW).slice (Rect.unit (s := S2x1x163840) off S1x1x8192.size inb) (fun _ => rfl)).squeeze S8192 squeezes_S1x1x8192_S8192).view.WordExact}
    {hdst : (db1M).view.WordExact}
    {hsem : DmaTarget.Typed (nD := nD) Space.hbm (SemLoc.dma sem) (DmaTarget.here (db1M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((dLoc d ↦{q} a) ∗ ((db1M).view.loc thr ↦{fullShare} fd) ∗ semVal (thr, SemLoc.dma sem) 0)
      ⊢ iprop((Transfers.Flight (EC (F := F)) thr (SemLoc.dma sem) none (db1M).view.dmaCredit
                iprop(((db1M).view.loc thr ↦{fullShare} chunkBuf a eh C) ∗ (dLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((dW).slice (Rect.unit (s := S2x1x163840) off S1x1x8192.size inb) (fun _ => rfl)).squeeze S8192 squeezes_S1x1x8192_S8192)
                (.here (db1M)) .same (SemLoc.dma sem) hsrc hdst hsem) k) Q) := by
  iintro ⟨Hs, Hd, Hv⟩ Hk
  iapply (wp_issue d L (src := (((dW).slice (Rect.unit (s := S2x1x163840) off S1x1x8192.size inb) (fun _ => rfl)).squeeze S8192 squeezes_S1x1x8192_S8192)) (dst := db1M) (S := Finset.univ) (Sd := Finset.univ) (fs := a) (fd := fd) (q := q)
    (db1M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v9 a off inb eh C hoff))) $$ Hd
  · iexact Hs

/-- The edge half of the tile, as an index of the lists. -/
abbrev ehL : Fin 2 := (L 0 : Fin 2)

/-- Before outer trip n: the table; the accumulator after the steps of chunks 0 … 2 n − 1; the copies of chunk
    min (2 n) 19 of both lists into staging buffers 0 in flight, each to hand back its buffer at that chunk and the
    list's share it was started from; staging buffers 1 at any contents, their semaphores at zero; the other share of
    both lists; what the tile owes. -/
def outerInv (q₀ q₁ : PosShare TreeShare) (tb : Vec F S40064 .f32) (s t : IVec S2x1x163840 32) (z : Vec F S40064 .f32)
    (O : CellTallies nD τ sig (HIx 3)) (W : Waits sig (HIx 3)) (n : Nat) (_ : Unit) : sProp 𝕄 :=
  iprop(Transfers.MayWaits thr (none : HIx 3) O
    ∗ ((tabM).view.loc thr ↦{fullShare} tb)
    ∗ ((accM).view.loc thr ↦{fullShare} edgeAcc tb s t (ehL L) z (4 * (512 * (2 * n))))
    ∗ Transfers.Flight (EC (F := F)) thr (SemLoc.dma cc4_scratch6.sem) none (sb0M).view.dmaCredit
        iprop(((sb0M).view.loc thr ↦{fullShare} chunkBuf s (ehL L) (min (2 * n) 19)) ∗ (sLoc d ↦{q₀} s))
    ∗ Transfers.Flight (EC (F := F)) thr (SemLoc.dma cc4_scratch7.sem) none (db0M).view.dmaCredit
        iprop(((db0M).view.loc thr ↦{fullShare} chunkBuf t (ehL L) (min (2 * n) 19)) ∗ (dLoc d ↦{q₀} t))
    ∗ (∃ f, (sb1M).view.loc thr ↦{fullShare} f) ∗ (∃ f, (db1M).view.loc thr ↦{fullShare} f)
    ∗ semVal (thr, SemLoc.dma cc4_scratch8.sem) 0 ∗ semVal (thr, SemLoc.dma cc4_scratch9.sem) 0
    ∗ (sLoc d ↦{q₁} s) ∗ (dLoc d ↦{q₁} t)
    ∗ ∃ W', ⌜∀ p ∈ W', p ∈ W ∨ p.2 = none⌝ ∗ owes thr O W')

omit [FloatOps F] in
theorem off4_1 (t1 : Fin k4_t1_loop.trips) (h : t1.val < 10) : k4_off4 L t1 1#32 = ![(ehL L).val, 0, 8192 * (2 * t1.val + 1)] := by
  refine (k4_off4_eq L t1 ⟨0, by decide⟩).trans ?_
  have e : min (2 * t1.val + (⟨0, by decide⟩ : Fin 2).val + 1) 19 = 2 * t1.val + 1 := by simp only []; omega
  rw [e]

omit [FloatOps F] in
theorem off4_2 (t1 : Fin k4_t1_loop.trips) : k4_off4 L t1 2#32 = ![(ehL L).val, 0, 8192 * (min (2 * (t1.val + 1)) 19)] := by
  refine (k4_off4_eq L t1 ⟨1, by decide⟩).trans ?_
  have e : min (2 * t1.val + (⟨1, by decide⟩ : Fin 2).val + 1) 19 = min (2 * (t1.val + 1)) 19 := by simp only []; omega
  rw [e]

set_option maxHeartbeats 4000000 in
theorem outer_region (q₀ q₁ : PosShare TreeShare) (tb : Vec F S40064 .f32) (s t : IVec S2x1x163840 32) (z : Vec F S40064 .f32)
    (hs : EdgePre s) (ht : EdgePre t) (O : CellTallies nD τ sig (HIx 3)) (W : Waits sig (HIx 3))
    (t1 : Fin k4_t1_loop.trips) (a : Unit) :
    outerInv d L q₀ q₁ tb s t z O W t1.val a
      ⊢ wp frame (wpE (defs₀ (F := F)) 𝒱₀ thr none) Set.univ
          (k4_t1_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2 t1 a)
          (outerInv d L q₀ q₁ tb s t z O W (t1.val + 1)) := by
  have ht10 : t1.val < 10 := lt_of_lt_of_le t1.isLt k4_t1_abs.2.1
  unfold outerInv k4_t1_body
  rw [k4_part5_eq_skeleton]; unfold k4_part5_skel
  simp only [Prog.bind_lift, Prog.bind_op, Prog.bind_ret, Prog.pure_eq_ret, Prog.bind_assoc]
  iintro ⟨#Hmw, Htab, Hacc, HF0, HF1, ⟨%f4, Hsb1⟩, ⟨%f5, Hdb1⟩, Hs2, Hs3, HsR, HdR, %W', %hW', HO⟩
  -- buffers 0 have landed: chunk 2 t of both lists
  iapply (Transfers.wp_waitLocalO (EC (F := F)) 𝒱₀ thr none (none : HIx 3) rfl) $$ [HF0 HO]
  · isplitl [HF0]; · iexact HF0
    isplitl [HO]; · iexact HO
    iapply (Transfers.MayWaits.elim (SemLoc.dma cc4_scratch6.sem)); iexact Hmw
  iintro ⟨⟨Hsb0, HsL⟩, Hs0, HO⟩
  iapply (Transfers.wp_waitLocalO (EC (F := F)) 𝒱₀ thr none (none : HIx 3) rfl) $$ [HF1 HO]
  · isplitl [HF1]; · iexact HF1
    isplitl [HO]; · iexact HO
    iapply (Transfers.MayWaits.elim (SemLoc.dma cc4_scratch7.sem)); iexact Hmw
  iintro ⟨⟨Hdb0, HdL⟩, Hs1, HO⟩
  -- chunk 2 t + 1 starts into buffers 1
  iapply (wp_issue_s1 d L s f4 (ehL L) (2 * t1.val + 1) (off4_1 L t1 ht10)) $$ [HsR Hsb1 Hs2]
  · isplitl [HsR]; · iexact HsR
    isplitl [Hsb1] <;> iassumption
  iintro HF2
  iapply (wp_issue_d1 d L t f5 (ehL L) (2 * t1.val + 1) (off4_1 L t1 ht10)) $$ [HdR Hdb1 Hs3]
  · isplitl [HdR]; · iexact HdR
    isplitl [Hdb1] <;> iassumption
  iintro HF3
  -- the steps of chunk 2 t off buffers 0
  have e0 : min (2 * t1.val) 19 = 2 * t1.val := by omega
  rw [e0]
  iapply (compute0 d L _ tb s t z hs ht (ehL L) (2 * t1.val) _ _ t1)
  isplitl [Htab]; · iexact Htab
  isplitl [Hacc]; · iexact Hacc
  isplitl [Hsb0]; · iexact Hsb0
  isplitl [Hdb0]; · iexact Hdb0
  iintro ⟨Htab, Hacc, Hsb0, Hdb0⟩
  -- buffers 1 have landed: chunk 2 t + 1
  iapply (Transfers.wp_waitLocalO (EC (F := F)) 𝒱₀ thr none (none : HIx 3) rfl) $$ [HF2 HO]
  · isplitl [HF2]; · iexact HF2
    isplitl [HO]; · iexact HO
    iapply (Transfers.MayWaits.elim (SemLoc.dma cc4_scratch8.sem)); iexact Hmw
  iintro ⟨⟨Hsb1, HsR⟩, Hs2, HO⟩
  iapply (Transfers.wp_waitLocalO (EC (F := F)) 𝒱₀ thr none (none : HIx 3) rfl) $$ [HF3 HO]
  · isplitl [HF3]; · iexact HF3
    isplitl [HO]; · iexact HO
    iapply (Transfers.MayWaits.elim (SemLoc.dma cc4_scratch9.sem)); iexact Hmw
  iintro ⟨⟨Hdb1, HdR⟩, Hs3, HO⟩
  -- chunk min (2 t + 2) 19 starts into buffers 0
  iapply (wp_issue_s0 d L s _ (ehL L) (min (2 * (t1.val + 1)) 19) (off4_2 L t1)) $$ [HsL Hsb0 Hs0]
  · isplitl [HsL]; · iexact HsL
    isplitl [Hsb0] <;> iassumption
  iintro HF0
  iapply (wp_issue_d0 d L t _ (ehL L) (min (2 * (t1.val + 1)) 19) (off4_2 L t1)) $$ [HdL Hdb0 Hs1]
  · isplitl [HdL]; · iexact HdL
    isplitl [Hdb0] <;> iassumption
  iintro HF1
  -- the steps of chunk 2 t + 1 off buffers 1
  iapply (compute1 d L _ tb s t z hs ht (ehL L) (2 * t1.val + 1))
  isplitl [Htab]; · iexact Htab
  isplitl [Hacc]; · iexact Hacc
  isplitl [Hsb1]; · iexact Hsb1
  isplitl [Hdb1]; · iexact Hdb1
  iintro ⟨Htab, Hacc, Hsb1, Hdb1⟩
  rw [wp_ret]; imodintro
  isplitr; · iexact Hmw
  isplitl [Htab]; · iexact Htab
  isplitl [Hacc]
  · iapply (pts_of_eq (congrArg (edgeAcc tb s t (ehL L) z) (show 4 * (512 * (2 * t1.val + 1 + 1)) = 4 * (512 * (2 * (t1.val + 1))) by omega))) $$ Hacc
  isplitl [HF0]; · iexact HF0
  isplitl [HF1]; · iexact HF1
  isplitl [Hsb1]; · iexists _; iexact Hsb1
  isplitl [Hdb1]; · iexists _; iexact Hdb1
  isplitl [Hs2]; · iexact Hs2
  isplitl [Hs3]; · iexact Hs3
  isplitl [HsR]; · iexact HsR
  isplitl [HdR]; · iexact HdR
  iexists (insert (SemLoc.dma cc4_scratch9.sem, (none : HIx 3)) (insert (SemLoc.dma cc4_scratch8.sem, (none : HIx 3))
    (insert (SemLoc.dma cc4_scratch7.sem, (none : HIx 3)) (insert (SemLoc.dma cc4_scratch6.sem, (none : HIx 3)) W')))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- The tile's feature group, as an index of the table. -/
abbrev cgL : Fin 16 := (L 1 : Fin 16)

/-- What the tile holds of the device's arrays: a read share of the table, of the two lists and of the zero array,
    each whole, and its own row of the result. -/
abbrev arrays (q : PosShare TreeShare) (g : Vec F S16x1x40064 .f32) (s t : IVec S2x1x163840 32) (z : Vec F S40064 .f32)
    (o : Vec F S16x2x1x40064 .f32) : sProp 𝕄 :=
  iprop((gLoc d ↦{q} g) ∗ (sLoc d ↦{q} s) ∗ (dLoc d ↦{q} t) ∗ (zLoc d ↦{q} z) ∗ (oLoc d ↦[edgeRow L]{fullShare} o))

omit [FloatOps F] in
theorem off2_0 : k4_off2 L = ![(ehL L).val, 0, 8192 * 0] := k4_off2_eq L

set_option maxHeartbeats 4000000 in
set_option maxRecDepth 8192 in
theorem edge_tile_body (hF : (K (F := F)).Facts) (q : PosShare TreeShare) (g : Vec F S16x1x40064 .f32) (s t : IVec S2x1x163840 32) (z : Vec F S40064 .f32)
    (o : Vec F S16x2x1x40064 .f32) (hs : EdgePre s) (ht : EdgePre t)
    (O : CellTallies nD τ sig (HIx 3)) (W : Waits sig (HIx 3)) (hO : ∀ g, O g none = 0) :
    iprop(levAts (K (F := F)).L (K (F := F)).lev ∗ arrays d L q g s t z o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_edge_kernel L (Memref.whole main_v37_scv) (Memref.isWhole_whole _) (Memref.whole main_v6_scv) (Memref.isWhole_whole _)
            (Memref.whole main_v9_scv) (Memref.isWhole_whole _) (Memref.whole main_v13_scv) (Memref.isWhole_whole _)
            (Memref.whole main_v38_scv) (Memref.isWhole_whole _) (Memref.whole cc4_scratch0) (Memref.isWhole_whole _)
            (Memref.whole cc4_scratch1) (Memref.isWhole_whole _) (Memref.whole cc4_scratch2) (Memref.isWhole_whole _)
            (Memref.whole cc4_scratch3) (Memref.isWhole_whole _) (Memref.whole cc4_scratch4) (Memref.isWhole_whole _)
            (Memref.whole cc4_scratch5) (Memref.isWhole_whole _) cc4_scratch6 cc4_scratch7 cc4_scratch8 cc4_scratch9 cc4_scoped0 cc4_scoped1 cc4_scoped2)
          fun _ => iprop(arrays d L q g s t z (edgeOut g s t z)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  simp only [cc4_edge_kernel_eq_skeleton]; unfold cc4_edge_kernel_skel
  rw [k4_part6_eq_skeleton]; unfold k4_part6_skel
  simp only [Prog.bind_lift, Prog.bind_op, Prog.bind_ret, Prog.pure_eq_ret, Prog.bind_assoc]
  rw [(K (F := F)).scopedBufs_V hF d (cV L) (jV L), SparseCore.Cfg.scopedSems0_V (Val := Elt F) d (cV L) (jV L), hRS, hRB]
  unfold arrays
  iintro ⟨#Hlv, ⟨Hg, Hs, Hd, Hz, Ho⟩, ⟨⟨%f0, Htab⟩, ⟨%f1, Hacc⟩, ⟨%f2, Hsb0⟩, ⟨%f3, Hdb0⟩, ⟨%f4, Hsb1⟩, ⟨%f5, Hdb1⟩, Hbufs⟩,
    ⟨Hs0, Hs1, Hs2, Hs3, Hc0, Hc1, Hc2, Hsems⟩, HO⟩
  ihave Hmw' := ((K (F := F)).mayWaits_none hO : (levAts (K (F := F)).L (K (F := F)).lev : sProp 𝕄) ⊢ Transfers.MayWaits thr (none : HIx 3) O) $$ Hlv
  icases Hmw' with #Hmw
  -- one share of each list per pair of staging buffers
  ihave Hs' := (pointsTo_share (PosShare.mem_left_op_right q)).1 $$ Hs
  icases Hs' with ⟨HsL, HsR⟩
  ihave Hd' := (pointsTo_share (PosShare.mem_left_op_right q)).1 $$ Hd
  icases Hd' with ⟨HdL, HdR⟩
  -- the tile's row of the table into its scratch
  iapply (wp_issue d L (src := (((gW).slice (Rect.unit (s := S16x1x40064) (k4_off1 L) S1x1x40064.size (k4_off1_inb L)) (fun _ => rfl)).squeeze S40064 squeezes_S1x1x40064_S40064)) (dst := tabM) (S := Finset.univ) (Sd := Finset.univ) (fs := g) (fd := f0) (q := q)
      (tabM).view.dmaCredit rfl (View.dmaCredit_pos _ (by decide)) (Finset.subset_univ _) (Finset.subset_univ _)) $$ [Hg Htab Hc0]
  · isplitl [Hg]; · iexact Hg
    isplitl [Htab] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc4_scoped0.sem)); iexact Hmw
  iintro ⟨⟨Htab, Hg⟩, Hc0, HO⟩
  ihave Htab := (pts_of_eq ((View.write_whole_univ _ _ _).trans (read_tab_row g _ _ (cgL L) (k4_off1_eq L)))) $$ Htab
  -- the zero array into the accumulator
  iapply (wp_issue d L (src := zW) (dst := accM) (S := Finset.univ) (Sd := Finset.univ) (fs := z) (fd := f1) (q := q)
      (accM).view.dmaCredit rfl (View.dmaCredit_pos _ (by decide)) (Finset.subset_univ _) (Finset.subset_univ _)) $$ [Hz Hacc Hc1]
  · isplitl [Hz]; · iexact Hz
    isplitl [Hacc] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc4_scoped1.sem)); iexact Hmw
  iintro ⟨⟨Hacc, Hz⟩, Hc1, HO⟩
  ihave Hacc := (pts_of_eq (View.write_whole_univ _ _ _)) $$ Hacc
  -- chunk 0 of both lists starts into buffers 0
  iapply (wp_issue_s0 d L s f2 (ehL L) 0 (off2_0 L)) $$ [HsL Hsb0 Hs0]
  · isplitl [HsL]; · iexact HsL
    isplitl [Hsb0] <;> iassumption
  iintro HF0
  iapply (wp_issue_d0 d L t f3 (ehL L) 0 (off2_0 L)) $$ [HdL Hdb0 Hs1]
  · isplitl [HdL]; · iexact HdL
    isplitl [Hdb0] <;> iassumption
  iintro HF1
  -- the ten trips
  sl_for (outerInv d L q.left q.right (tabRow g (cgL L)) s t z O W) $$ [Htab Hacc HF0 HF1 Hsb1 Hdb1 Hs2 Hs3 HsR HdR HO]
  case region => intro k a; exact outer_region d L q.left q.right (tabRow g (cgL L)) s t z hs ht O W k a
  · unfold outerInv
    isplitr; · iexact Hmw
    isplitl [Htab]; · iexact Htab
    isplitl [Hacc]; · iexact Hacc
    isplitl [HF0]; · iexact HF0
    isplitl [HF1]; · iexact HF1
    isplitl [Hsb1]; · iexists _; iexact Hsb1
    isplitl [Hdb1]; · iexists _; iexact Hdb1
    isplitl [Hs2]; · iexact Hs2
    isplitl [Hs3]; · iexact Hs3
    isplitl [HsR]; · iexact HsR
    isplitl [HdR]; · iexact HdR
    iexists (insert (SemLoc.dma cc4_scoped1.sem, (none : HIx 3)) (insert (SemLoc.dma cc4_scoped0.sem, (none : HIx 3)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold outerInv
  have htr : Scf.trips k4_t1_loop.lb k4_t1_loop.ub k4_t1_loop.st = 10 := by decide
  rw [htr]
  icases HI with ⟨-, Htab, Hacc, HF0, HF1, ⟨%f4', Hsb1⟩, ⟨%f5', Hdb1⟩, Hs2, Hs3, HsR, HdR, %W', %hW', HO⟩
  -- the last copies into buffers 0 land
  iapply (Transfers.wp_waitLocalO (EC (F := F)) 𝒱₀ thr none (none : HIx 3) rfl) $$ [HF0 HO]
  · isplitl [HF0]; · iexact HF0
    isplitl [HO]; · iexact HO
    iapply (Transfers.MayWaits.elim (SemLoc.dma cc4_scratch6.sem)); iexact Hmw
  iintro ⟨⟨Hsb0, HsL⟩, Hs0, HO⟩
  iapply (Transfers.wp_waitLocalO (EC (F := F)) 𝒱₀ thr none (none : HIx 3) rfl) $$ [HF1 HO]
  · isplitl [HF1]; · iexact HF1
    isplitl [HO]; · iexact HO
    iapply (Transfers.MayWaits.elim (SemLoc.dma cc4_scratch7.sem)); iexact Hmw
  iintro ⟨⟨Hdb0, HdL⟩, Hs1, HO⟩
  -- the accumulator out to the tile's row of the result
  ihave Ho := (Entails.of_eq (congrArg (fun S => (oLoc d ↦[S]{fullShare} o : sProp 𝕄)) (oRowK_set L).symm)) $$ Ho
  iapply (wp_issue d L (src := accM) (dst := oRowK L) (S := Finset.univ) (Sd := (oRowK L).view.set) (fd := o) (q := fullShare)
      (oRowK L).view.dmaCredit rfl (View.dmaCredit_pos _ (by decide)) (Finset.subset_univ _) (subset_refl _)) $$ [Hacc Ho Hc2]
  · isplitl [Hacc]; · iexact Hacc
    isplitl [Ho] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc4_scoped2.sem)); iexact Hmw
  iintro ⟨⟨Ho, Hacc⟩, Hc2, HO⟩
  have key : ((oRowK L).view.loc thr ↦[(oRowK L).view.set]{fullShare}
        (oRowK L).view.write (Elt F) o (ReadAs.same.apply ((accM).view.read (Elt F) (edgeAcc (tabRow g (cgL L)) s t (ehL L) z (4 * (512 * (2 * 10))))))
          Finset.univ : sProp 𝕄)
      ⊢ oLoc d ↦[edgeRow L]{fullShare} edgeOut g s t z := by
    have e1 : ReadAs.same.apply ((accM).view.read (Elt F) (edgeAcc (tabRow g (cgL L)) s t (ehL L) z (4 * (512 * (2 * 10)))))
        = edgeAcc (tabRow g (cgL L)) s t (ehL L) z (4 * (512 * (2 * 10))) :=
      (ReadAs.apply_same _).trans (View.read_whole _ _)
    rw [oRowK_set, e1]
    exact Entails.of_eq (pointsTo_congr fun i hi => out_value L g s t z o i hi)
  rw [wp_ret]; imodintro
  isplitl [Hg HsL HsR HdL HdR Hz Ho]
  · isplitl [Hg]; · iexact Hg
    isplitl [HsL HsR]
    · iapply (pointsTo_share (PosShare.mem_left_op_right q)).2
      isplitl [HsL] <;> iassumption
    isplitl [HdL HdR]
    · iapply (pointsTo_share (PosShare.mem_left_op_right q)).2
      isplitl [HdL] <;> iassumption
    isplitl [Hz]; · iexact Hz
    iapply key $$ Ho
  isplitl [Htab Hacc Hsb0 Hdb0 Hsb1 Hdb1 Hbufs]
  · isplitl [Htab]; · iexists _; iexact Htab
    isplitl [Hacc]; · iexists _; iexact Hacc
    isplitl [Hsb0]; · iexists _; iexact Hsb0
    isplitl [Hdb0]; · iexists _; iexact Hdb0
    isplitl [Hsb1]; · iexists _; iexact Hsb1
    isplitl [Hdb1]; · iexists _; iexact Hdb1
    iexact Hbufs
  isplitl [Hs0 Hs1 Hs2 Hs3 Hc0 Hc1 Hc2 Hsems]
  · isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    iexact Hsems
  iexists (insert (SemLoc.dma cc4_scoped2.sem, (none : HIx 3)) (insert (SemLoc.dma cc4_scratch7.sem, (none : HIx 3))
    (insert (SemLoc.dma cc4_scratch6.sem, (none : HIx 3)) W'))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

end Tile

end cc4_edge

end Cert.KernelIdeal.Hand

end
-- ==== Proof.KI.LaunchPay.lean ====
/-
  What the three SparseCore calls hand their SparseCores and tiles, and each tile's obligation from its body's proof.

  Every call's read-only operands go to each of the thirty-two tiles as a read share of the whole array (the share of
  tile (c, i) is the i-th token of the c-th token of the full share; the remainders stay with the TensorCore), its
  result array as the tile's own row at the full share: the rows are pairwise disjoint and cover the array. A
  SparseCore's share of a call is the separating conjunction of its sixteen tiles' shares, so that the split of a
  SparseCore's operands among its tiles is the identity.
-/
import proofs.«219763_g10557029614292_week1_w2_488_21_alg».proof.Proof.KI.Chain
import proofs.«219763_g10557029614292_week1_w2_488_21_alg».proof.Proof.KI.PreDef
import proofs.«219763_g10557029614292_week1_w2_488_21_alg».proof.Proof.KI.DegBody
import proofs.«219763_g10557029614292_week1_w2_488_21_alg».proof.Proof.KI.EdgeBody
import proofs.«219763_g10557029614292_week1_w2_488_21_alg».proof.Proof.KI.EdgeBody4

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq launchContents held_sub_split held_congr)
open Idealize.ShloMosaic.Transfers (shareTok shareDrop pointsTo_toks pointsTo_toks_split pointsTo_toks_join)
open Idealize.ShloMosaic.Tactic

variable {F : FTy → Type}

local notation "𝕄" => MT nD τ sig (HIx 3) (Elt F) ℕ UU ℕ

/-! ## The thirty-two tiles: workers, read shares, rows -/

/-- The worker at SparseCore c, vector subcore i. -/
def wOf (c : Fin 2) (i : Fin 16) : Fin 32 := ⟨16 * c.val + i.val, by omega⟩

/-- The thirty-two workers are the pairs (SparseCore, vector subcore). -/
def wEquiv : Fin 2 × Fin 16 ≃ Fin 32 where
  toFun x := wOf x.1 x.2
  invFun w := (⟨w.val / 16, by omega⟩, ⟨w.val % 16, by omega⟩)
  left_inv x := by
    rcases x with ⟨⟨c, hc⟩, ⟨i, hi⟩⟩
    refine Prod.ext (Fin.ext ?_) (Fin.ext ?_) <;> simp only [wOf] <;> omega
  right_inv w := by
    refine Fin.ext ?_
    simp only [wOf]; omega

theorem bigSep_fin32 {M : Type} [URA M] (Φ : Fin 32 → sProp M) :
    bigSep Finset.univ Φ = bigSep Finset.univ fun c : Fin 2 => bigSep Finset.univ fun i : Fin 16 => Φ (wOf c i) := by
  rw [← bigSep_univ_prod (fun x : Fin 2 × Fin 16 => Φ (wOf x.1 x.2)), ← Finset.map_univ_equiv wEquiv, bigSep_map]
  rfl

/-- The read share of tile (c, i): the i-th token of the c-th token of the whole. -/
abbrev σ (c : Fin 2) (i : Fin 16) : PosShare TreeShare := shareTok (shareTok fullShare 2 c) 16 i

section Shares

variable {ℓ : Loc nD τ sig} (f : Buf (Elt F) ℓ)

/-- What of a read-only array stays with the TensorCore while the thirty-two tiles read it. -/
def Rem : sProp 𝕄 :=
  iprop((ℓ ↦{shareDrop fullShare 2} f) ∗ bigSep Finset.univ fun c : Fin 2 => ℓ ↦{shareDrop (shareTok fullShare 2 c) 16} f)

theorem toks_all : (bigSep Finset.univ fun c : Fin 2 => (ℓ ↦{shareTok fullShare 2 c} f : sProp 𝕄))
    ⊣⊢ iprop((bigSep Finset.univ fun c : Fin 2 => ℓ ↦{shareDrop (shareTok fullShare 2 c) 16} f)
        ∗ bigSep Finset.univ fun c : Fin 2 => bigSep Finset.univ fun i : Fin 16 => ℓ ↦{σ c i} f) := by
  rw [← bigSep_sep']
  exact ⟨bigSep_mono fun c _ => pointsTo_toks_split _ 16, bigSep_mono fun c _ => pointsTo_toks_join _ 16⟩

/-- A whole array is the remainder and the thirty-two tiles' read shares. -/
theorem shares32 : (ℓ ↦{fullShare} f : sProp 𝕄) ⊣⊢ iprop(Rem f ∗ bigSep Finset.univ fun c : Fin 2 => bigSep Finset.univ fun i : Fin 16 => ℓ ↦{σ c i} f) := by
  unfold Rem
  constructor
  · refine BIBase.Entails.trans (pointsTo_toks_split fullShare 2) ?_
    iintro ⟨Hd, Ht⟩
    ihave Ht' := (toks_all f).1 $$ Ht
    icases Ht' with ⟨Hd', Ht'⟩
    isplitl [Hd Hd']
    · isplitl [Hd] <;> iassumption
    · iexact Ht'
  · refine BIBase.Entails.trans ?_ (pointsTo_toks_join fullShare 2)
    iintro ⟨⟨Hd, Hd'⟩, Ht⟩
    isplitl [Hd]; · iexact Hd
    iapply ((toks_all f).2)
    isplitl [Hd'] <;> iassumption

end Shares

/-! ## The result rows -/

theorem degRowSet_eq' (w : Fin 32) : degRowSet w = (degRow w).set := by
  show ((View.whole (main_v18_scv : Ref sig .scVector)).slice (degRow w)).set = _
  rw [View.set_slice]; exact Finset.map_refl
theorem degRows_disjoint : ∀ w ∈ (Finset.univ : Finset (Fin 32)), ∀ w' ∈ (Finset.univ : Finset (Fin 32)), w ≠ w' → Disjoint (degRowSet w) (degRowSet w') :=
  fun i _ j _ h => by rw [degRowSet_eq', degRowSet_eq']; exact Rect.part_disjoint degHdiv h
theorem degRows_cover : (Finset.univ : Finset (Fin 32)).biUnion degRowSet = Finset.univ :=
  (Finset.biUnion_congr rfl fun i _ => degRowSet_eq' i).trans (Rect.biUnion_part degHdiv)

/-- The 32 × 10240 list is its thirty-two rows, one per tile. -/
theorem degA_rows (d : Dev nD) (q : PosShare TreeShare) (f : Buf (Elt F) (degALoc d)) :
    (degALoc d ↦{q} f : sProp 𝕄) = bigSep Finset.univ fun c : Fin 2 => bigSep Finset.univ fun i : Fin 16 => degALoc d ↦[degRowSet (wOf c i)]{q} f := by
  rw [← bigSep_fin32 (fun w => (degALoc d ↦[degRowSet w]{q} f : sProp 𝕄)), ← pointsTo_biUnion Finset.univ (ℓ := degALoc d) degRowSet degRows_disjoint, degRows_cover]; try rfl
theorem degO_rows (d : Dev nD) (q : PosShare TreeShare) (f : Buf (Elt F) (degOLoc d)) :
    (degOLoc d ↦{q} f : sProp 𝕄) = bigSep Finset.univ fun c : Fin 2 => bigSep Finset.univ fun i : Fin 16 => degOLoc d ↦[degRowSet (wOf c i)]{q} f := by
  rw [← bigSep_fin32 (fun w => (degOLoc d ↦[degRowSet w]{q} f : sProp 𝕄)), ← pointsTo_biUnion Finset.univ (ℓ := degOLoc d) degRowSet degRows_disjoint, degRows_cover]; try rfl

/-- Row families of the 16 × 2 × 1 × 40064 result indexed by (edge half, feature group) are pairwise disjoint and cover it. -/
theorem rows_disjoint_of (R : Fin 2 → Fin 16 → Finset S16x2x1x40064.Idx) (hR : ∀ c i j, j ∈ R c i ↔ (j 0).val = i.val ∧ (j 1).val = c.val) :
    ∀ x ∈ (Finset.univ : Finset (Fin 2 × Fin 16)), ∀ x' ∈ (Finset.univ : Finset (Fin 2 × Fin 16)), x ≠ x' → Disjoint (R x.1 x.2) (R x'.1 x'.2) := by
  intro x _ x' _ hne
  rw [Finset.disjoint_left]
  intro j hj hj'
  obtain ⟨h0, h1⟩ := (hR _ _ j).1 hj
  obtain ⟨h0', h1'⟩ := (hR _ _ j).1 hj'
  exact hne (Prod.ext (Fin.ext (h1.symm.trans h1')) (Fin.ext (h0.symm.trans h0')))
theorem rows_cover_of (R : Fin 2 → Fin 16 → Finset S16x2x1x40064.Idx) (hR : ∀ c i j, j ∈ R c i ↔ (j 0).val = i.val ∧ (j 1).val = c.val) :
    (Finset.univ : Finset (Fin 2 × Fin 16)).biUnion (fun x => R x.1 x.2) = Finset.univ := by
  ext j
  simp only [Finset.mem_biUnion, Finset.mem_univ, true_and, iff_true]
  exact ⟨(⟨(j 1).val, (j 1).isLt⟩, ⟨(j 0).val, (j 0).isLt⟩), (hR _ _ j).2 ⟨rfl, rfl⟩⟩

/-- The grid point of tile (c, i) in each edge kernel's grid. -/
def L2 (c : Fin 2) (i : Fin 16) : grid2.Coords := fun | 0 => c | 1 => i | ⟨_ + 2, h⟩ => absurd h (Nat.not_lt.2 (Nat.le_add_left _ _))
def L4 (c : Fin 2) (i : Fin 16) : grid4.Coords := fun | 0 => c | 1 => i | ⟨_ + 2, h⟩ => absurd h (Nat.not_lt.2 (Nat.le_add_left _ _))
def L0 (c : Fin 2) (i : Fin 16) : grid0.Coords := fun | 0 => c | 1 => i | ⟨_ + 2, h⟩ => absurd h (Nat.not_lt.2 (Nat.le_add_left _ _))

theorem hR2 : ∀ c i j, j ∈ cc2_edge.edgeRow (L2 c i) ↔ (j 0).val = i.val ∧ (j 1).val = c.val := by
  intro c i j; unfold cc2_edge.edgeRow; simp only [Finset.mem_filter, Finset.mem_univ, true_and]; exact Iff.rfl
theorem hR4 : ∀ c i j, j ∈ cc4_edge.edgeRow (L4 c i) ↔ (j 0).val = i.val ∧ (j 1).val = c.val := by
  intro c i j; unfold cc4_edge.edgeRow; simp only [Finset.mem_filter, Finset.mem_univ, true_and]; exact Iff.rfl

theorem edge2_rows (d : Dev nD) (q : PosShare TreeShare) (f : Buf (Elt F) (cc2_edge.oLoc d)) :
    (cc2_edge.oLoc d ↦{q} f : sProp 𝕄) = bigSep Finset.univ fun c : Fin 2 => bigSep Finset.univ fun i : Fin 16 => cc2_edge.oLoc d ↦[cc2_edge.edgeRow (L2 c i)]{q} f := by
  rw [← bigSep_univ_prod (fun x : Fin 2 × Fin 16 => (cc2_edge.oLoc d ↦[cc2_edge.edgeRow (L2 x.1 x.2)]{q} f : sProp 𝕄)),
    ← pointsTo_biUnion Finset.univ (ℓ := cc2_edge.oLoc d) (fun x : Fin 2 × Fin 16 => cc2_edge.edgeRow (L2 x.1 x.2)) (rows_disjoint_of _ hR2), rows_cover_of _ hR2]; try rfl
theorem edge4_rows (d : Dev nD) (q : PosShare TreeShare) (f : Buf (Elt F) (cc4_edge.oLoc d)) :
    (cc4_edge.oLoc d ↦{q} f : sProp 𝕄) = bigSep Finset.univ fun c : Fin 2 => bigSep Finset.univ fun i : Fin 16 => cc4_edge.oLoc d ↦[cc4_edge.edgeRow (L4 c i)]{q} f := by
  rw [← bigSep_univ_prod (fun x : Fin 2 × Fin 16 => (cc4_edge.oLoc d ↦[cc4_edge.edgeRow (L4 x.1 x.2)]{q} f : sProp 𝕄)),
    ← pointsTo_biUnion Finset.univ (ℓ := cc4_edge.oLoc d) (fun x : Fin 2 × Fin 16 => cc4_edge.edgeRow (L4 x.1 x.2)) (rows_disjoint_of _ hR4), rows_cover_of _ hR4]; try rfl

/-! ## What the handshakes carry -/

variable (m : (ℓ : Loc nD τ sig) → Buf (Elt F) ℓ) (ρ : Dev nD → PrngReg)
variable [FloatOps F]

/-- What tile (c, i) is handed at call q: its read shares of the call's operands whole, at the chain's contents, and its
    own row of the result array. -/
def goQ : Fin 3 → Dev nD → Fin 2 → Fin 16 → sProp 𝕄
  | 0, d, c, i => iprop((degALoc d ↦[degRowSet (wOf c i)]{fullShare} V1 m d (rf main_v11)) ∗ (degZLoc d ↦{σ c i} V1 m d (rf main_v12))
      ∗ ∃ f, degOLoc d ↦[degRowSet (wOf c i)]{fullShare} f)
  | 1, d, c, i => cc2_edge.arrays d (L2 c i) (σ c i) (V5 m d (rf main_v23)) (V5 m d (rf main_v6)) (V5 m d (rf main_v9)) (V5 m d (rf main_v13)) (V5 m d (rf main_v24))
  | 2, d, c, i => cc4_edge.arrays d (L4 c i) (σ c i) (V9 m d (rf main_v37)) (V9 m d (rf main_v6)) (V9 m d (rf main_v9)) (V9 m d (rf main_v13)) (V9 m d (rf main_v38))

/-- What it hands back: the same, its row at the kernel's value. -/
def tdQ : Fin 3 → Dev nD → Fin 2 → Fin 16 → sProp 𝕄
  | 0, d, c, i => iprop((degALoc d ↦[degRowSet (wOf c i)]{fullShare} V1 m d (rf main_v11)) ∗ (degZLoc d ↦{σ c i} V1 m d (rf main_v12))
      ∗ (degOLoc d ↦[degRowSet (wOf c i)]{fullShare} degOut (V1 m d (rf main_v11)) (V1 m d (rf main_v12))))
  | 1, d, c, i => cc2_edge.arrays d (L2 c i) (σ c i) (V5 m d (rf main_v23)) (V5 m d (rf main_v6)) (V5 m d (rf main_v9)) (V5 m d (rf main_v13))
      (edgeOut (V5 m d (rf main_v23)) (V5 m d (rf main_v6)) (V5 m d (rf main_v9)) (V5 m d (rf main_v13)))
  | 2, d, c, i => cc4_edge.arrays d (L4 c i) (σ c i) (V9 m d (rf main_v37)) (V9 m d (rf main_v6)) (V9 m d (rf main_v9)) (V9 m d (rf main_v13))
      (edgeOut (V9 m d (rf main_v37)) (V9 m d (rf main_v6)) (V9 m d (rf main_v9)) (V9 m d (rf main_v13)))

/-- A SparseCore's share of a call: its sixteen tiles'. -/
def stQ (q : Fin 3) (d : Dev nD) (c : Fin 2) : sProp 𝕄 := bigSep Finset.univ fun i : Fin 16 => goQ m q d c i
def dnQ (q : Fin 3) (d : Dev nD) (c : Fin 2) : sProp 𝕄 := bigSep Finset.univ fun i : Fin 16 => tdQ m q d c i

instance goQ_storable (q : Fin 3) (d : Dev nD) (c : Fin 2) (i : Fin 16) : BI.Storable (upEmb : UEmb _ 𝕄) (goQ m q d c i) := by
  match q with
  | 0 => unfold goQ; infer_instance
  | 1 => unfold goQ; infer_instance
  | 2 => unfold goQ; infer_instance
instance tdQ_storable (q : Fin 3) (d : Dev nD) (c : Fin 2) (i : Fin 16) : BI.Storable (upEmb : UEmb _ 𝕄) (tdQ m q d c i) := by
  match q with
  | 0 => unfold tdQ; infer_instance
  | 1 => unfold tdQ; infer_instance
  | 2 => unfold tdQ; infer_instance

/-- The payloads of the three calls; no kernel's proof consumes anything of the launch's. -/
def P : (K (F := F)).Pay (nD := nD) (Val := Elt F) (Name := ℕ) (U := UU) where
  st q d c := stQ m q d (Fin.cast (nCore_eq q) c)
  dn q d c := dnQ m q d (Fin.cast (nCore_eq q) c)
  go q d c i := goQ m q d (Fin.cast (nCore_eq q) c) (Fin.cast (nSub_eq q) i)
  td q d c i := tdQ m q d (Fin.cast (nCore_eq q) c) (Fin.cast (nSub_eq q) i)
  x _ _ := iprop(emp)

instance P_storable : (P (F := F) m).IsStorable where
  st q d c := by unfold P stQ; infer_instance
  dn q d c := by unfold P dnQ; infer_instance
  go q d c i := by unfold P; infer_instance
  td q d c i := by unfold P; infer_instance

/-! ## The launch theorem's obligations -/

theorem defs₀_vector0 (c : Fin τ.nSC) (s : Fin τ.nSub) :
    defs₀ (F := F) (.scVector c s) 0 ()
      = SparseCore.onTile hcore0 hsub0 (fun c s => cc0_deg_kernel (L0 c s) degAV (Memref.isWhole_whole _) degZV (Memref.isWhole_whole _) degOV (Memref.isWhole_whole _)
          degSH (Memref.isWhole_whole _) degSI (Memref.isWhole_whole _) cc0_scoped0 cc0_scoped1 cc0_scoped2) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 2048 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (deg_tile_body (V1 m d (rf main_v11)) (V1 m d (rf main_v12)) fullShare (σ (Fin.cast (nCore_eq 0) c) (Fin.cast (nSub_eq 0) i)) d (L0 ⟨_, hc.1⟩ ⟨_, hc.2⟩) hF (hpre d).1 O W hO).trans
    (wp_mono frame _ _ fun _ => obl_post)

theorem defs₀_vector2 (c : Fin τ.nSC) (s : Fin τ.nSub) :
    defs₀ (F := F) (.scVector c s) 2 ()
      = SparseCore.onTile hcore2 hsub2 (fun c s => cc2_edge_kernel (L2 c s) (Memref.whole main_v23_scv) (Memref.isWhole_whole _) (Memref.whole main_v6_scv) (Memref.isWhole_whole _)
          (Memref.whole main_v9_scv) (Memref.isWhole_whole _) (Memref.whole main_v13_scv) (Memref.isWhole_whole _)
          (Memref.whole main_v24_scv) (Memref.isWhole_whole _) (Memref.whole cc2_scratch0) (Memref.isWhole_whole _)
          (Memref.whole cc2_scratch1) (Memref.isWhole_whole _) (Memref.whole cc2_scratch2) (Memref.isWhole_whole _)
          (Memref.whole cc2_scratch3) (Memref.isWhole_whole _) (Memref.whole cc2_scratch4) (Memref.isWhole_whole _)
          (Memref.whole cc2_scratch5) (Memref.isWhole_whole _) cc2_scratch6 cc2_scratch7 cc2_scratch8 cc2_scratch9 cc2_scoped0 cc2_scoped1 cc2_scoped2) ⟨⟩ c s := rfl

set_option maxRecDepth 2048 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  refine BIBase.Entails.trans ?_ ((cc2_edge.edge_tile_body d (L2 ⟨_, hc.1⟩ ⟨_, hc.2⟩) hF (σ (Fin.cast (nCore_eq 1) c) (Fin.cast (nSub_eq 1) i))
    (V5 m d (rf main_v23)) (V5 m d (rf main_v6)) (V5 m d (rf main_v9)) (V5 m d (rf main_v13)) (V5 m d (rf main_v24)) (hpre d).2.1 (hpre d).2.2.1 O W hO).trans
    (wp_mono frame _ _ fun _ => obl_post))
  iintro ⟨Hl, -, H⟩
  isplitl [Hl]; · iexact Hl
  iexact H

theorem defs₀_vector4 (c : Fin τ.nSC) (s : Fin τ.nSub) :
    defs₀ (F := F) (.scVector c s) 4 ()
      = SparseCore.onTile hcore4 hsub4 (fun c s => cc4_edge_kernel (L4 c s) (Memref.whole main_v37_scv) (Memref.isWhole_whole _) (Memref.whole main_v6_scv) (Memref.isWhole_whole _)
          (Memref.whole main_v9_scv) (Memref.isWhole_whole _) (Memref.whole main_v13_scv) (Memref.isWhole_whole _)
          (Memref.whole main_v38_scv) (Memref.isWhole_whole _) (Memref.whole cc4_scratch0) (Memref.isWhole_whole _)
          (Memref.whole cc4_scratch1) (Memref.isWhole_whole _) (Memref.whole cc4_scratch2) (Memref.isWhole_whole _)
          (Memref.whole cc4_scratch3) (Memref.isWhole_whole _) (Memref.whole cc4_scratch4) (Memref.isWhole_whole _)
          (Memref.whole cc4_scratch5) (Memref.isWhole_whole _) cc4_scratch6 cc4_scratch7 cc4_scratch8 cc4_scratch9 cc4_scoped0 cc4_scoped1 cc4_scoped2) ⟨⟩ c s := rfl

set_option maxRecDepth 2048 in
theorem tileObl2 (hF : (K (F := F)).Facts) (hpre : PreOK m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector4]; simp only [SparseCore.onTile, hc, and_self, ↓reduceDIte]
  refine BIBase.Entails.trans ?_ ((cc4_edge.edge_tile_body d (L4 ⟨_, hc.1⟩ ⟨_, hc.2⟩) hF (σ (Fin.cast (nCore_eq 2) c) (Fin.cast (nSub_eq 2) i))
    (V9 m d (rf main_v37)) (V9 m d (rf main_v6)) (V9 m d (rf main_v9)) (V9 m d (rf main_v13)) (V9 m d (rf main_v38)) (hpre d).2.2.2.1 (hpre d).2.2.2.2 O W hO).trans
    (wp_mono frame _ _ fun _ => obl_post))
  iintro ⟨Hl, -, H⟩
  isplitl [Hl]; · iexact Hl
  iexact H

omit [FloatOps F] in
theorem bigSep_tasks (q : Fin 3) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)

/-- A SparseCore's share of a call is its tiles' shares, and their results are its result. -/
theorem vecSplit (q : Fin 3) : (K (F := F)).VecSplit' (P m) q := by
  intro d c
  show stQ m q d (Fin.cast (nCore_eq q) c) ⊢ |={Set.univ}=> iprop(
      (bigSep Finset.univ fun i : Fin ((K (F := F)).nSub q) => goQ m q d (Fin.cast (nCore_eq q) c) (Fin.cast (nSub_eq q) i))
      ∗ ((bigSep Finset.univ fun i : Fin ((K (F := F)).nSub q) => tdQ m q d (Fin.cast (nCore_eq q) c) (Fin.cast (nSub_eq q) i))
          -∗ dnQ m q d (Fin.cast (nCore_eq q) c)))
  rw [bigSep_tasks (F := F) q (fun i => goQ m q d (Fin.cast (nCore_eq q) c) i), bigSep_tasks (F := F) q (fun i => tdQ m q d (Fin.cast (nCore_eq q) c) i)]
  unfold stQ dnQ
  iintro H; imodintro
  isplitl [H]; · iexact H
  iintro H; iexact H

omit [FloatOps F] in
theorem bigSep_cores (q : Fin 3) (Φ : Fin 2 → sProp 𝕄) :
    (bigSep Finset.univ fun c : Fin ((K (F := F)).nCore q) => Φ (Fin.cast (nCore_eq q) c)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)

/-! ## The calls' arrays among the TensorCore's -/

/-- The arrays each SparseCore call reads and writes. -/
abbrev T0 : Finset (DevRef τ sig) := {rf main_v11, rf main_v12, rf main_v18}
abbrev T1 : Finset (DevRef τ sig) := {rf main_v23, rf main_v6, rf main_v9, rf main_v13, rf main_v24}
abbrev T2 : Finset (DevRef τ sig) := {rf main_v37, rf main_v6, rf main_v9, rf main_v13, rf main_v38}

omit [FloatOps F] in
/-- Holding a set at a valuation rewritten at one buffer of a subset: the subset at the new valuation, the rest at the old. -/
theorem held_split_upd (c : Thread nD τ) {S Ts : Finset (DevRef τ sig)} (hT : Ts ⊆ S) {b : DevRef τ sig} (hb : b ∈ Ts) (W : Valuation τ sig (Elt F)) (x : b.ty.Contents (Elt F)) :
    (held c S (Function.update W b x) : sProp 𝕄) = iprop(held c Ts (Function.update W b x) ∗ held c (S \ Ts) W) := by
  rw [held_sub_split c hT]
  congr 1
  exact held_congr c fun b' hb' => Function.update_of_ne (fun (e : b' = b) => (Finset.mem_sdiff.mp hb').2 (by rw [e]; exact hb)) _ _

/-- What stays with the TensorCore during each call: its other arrays, and the remainders of the read-only operands. -/
def Fr0 (d : Dev nD) : sProp 𝕄 :=
  iprop(held (T d) (Sall \ T0) (V1 m d) ∗ Rem (ℓ := degZLoc d) (V1 m d (rf main_v12)))
def Fr1 (d : Dev nD) : sProp 𝕄 :=
  iprop(held (T d) (Sall \ T1) (V5 m d) ∗ Rem (ℓ := cc2_edge.gLoc d) (V5 m d (rf main_v23)) ∗ Rem (ℓ := cc2_edge.sLoc d) (V5 m d (rf main_v6))
    ∗ Rem (ℓ := cc2_edge.dLoc d) (V5 m d (rf main_v9)) ∗ Rem (ℓ := cc2_edge.zLoc d) (V5 m d (rf main_v13)))
def Fr2 (d : Dev nD) : sProp 𝕄 :=
  iprop(held (T d) (Sall \ T2) (V9 m d) ∗ Rem (ℓ := cc4_edge.gLoc d) (V9 m d (rf main_v37)) ∗ Rem (ℓ := cc4_edge.sLoc d) (V9 m d (rf main_v6))
    ∗ Rem (ℓ := cc4_edge.dLoc d) (V9 m d (rf main_v9)) ∗ Rem (ℓ := cc4_edge.zLoc d) (V9 m d (rf main_v13)))

end Cert.KernelIdeal.Hand

end
-- ==== Proof.KI.ChainFacts.lean ====
/-
  Side facts of the host side of the program, for running its six straight lines inside the launch.

  * Every host operation touches only buffers of the TensorCore that outlive a region, and none of them leaves a
    buffer at contents of the machine's choosing: the two side conditions of running a straight line while all those
    buffers are held.
  * What the launch deals the TensorCore of its arrays is all of them held at the launch contents.
  * No operation and no call writes one of the program's nine arguments: at the end of the chain each still holds its
    launch contents. The two padded edge lists and the zero accumulator, made before the degree kernel, are not written
    again: the two edge kernels read them as the first line left them.
-/
import proofs.«219763_g10557029614292_week1_w2_488_21_alg».proof.Proof.KI.Base
import proofs.«219763_g10557029614292_week1_w2_488_21_alg».proof.Proof.KI.Chain
import proofs.«219763_g10557029614292_week1_w2_488_21_alg».proof.Proof.KI.ChainValue
import Idealize.ShloMosaic.Lib.SparseCore.Launch

noncomputable section

namespace Cert.KernelIdeal.Hand

open Cert.KernelIdeal Cert.KernelIdeal.Gen
open Idealize.ShloMosaic Idealize.ShloMosaic.StableHlo Idealize.SL.Sem
open Idealize.ShloMosaic.SparseCore.Cfg (HIx)
open Idealize.SL Idealize.SL.BI
open scoped Idealize.SL.BI

variable {F : FTy → Type} [FloatOps F]

local notation "𝕄" => MT nD τ sig (HIx 3) (Elt F) ℕ UU ℕ

/-! ## The straight lines' side conditions -/

/-- An operation on TensorCore references only touches only the unscoped ones: it names no scoped buffer. -/
theorem sub_Sall (op : HloOp τ sig (Elt F)) (h : op.bufs ⊆ tcRefs τ sig) : op.bufs ⊆ Sall := fun b hb => by
  obtain ⟨r, _, rfl⟩ := Finset.mem_map.mp (h hb)
  exact mem_Sall (op.no_scoped _ hb)

/-- Every operation of line 0 (before the degree kernel) touches TensorCore references only. -/
theorem ops0_tc : (ops0 : List (HloOp τ sig (Elt F))).Forall fun op => op.bufs ⊆ tcRefs τ sig :=
  ⟨unary_bufs_sub ..,
   reshape_bufs_sub ..,
   unary_bufs_sub ..,
   reshape_bufs_sub ..,
   reshape_bufs_sub ..,
   nullary_bufs_sub ..,
   unary_bufs_sub ..,
   binary_bufs_sub ..,
   reshape_bufs_sub ..,
   reshape_bufs_sub ..,
   nullary_bufs_sub ..,
   unary_bufs_sub ..,
   binary_bufs_sub ..,
   reshape_bufs_sub ..,
   reshape_bufs_sub ..,
   nullary_bufs_sub ..,
   unary_bufs_sub ..,
   binary_bufs_sub ..,
   nullary_bufs_sub ..,
   unary_bufs_sub ..,
   nullary_bufs_sub ..,
   unary_bufs_sub ..,
   reshape_bufs_sub ..,
   reshape_bufs_sub ..,
   reshape_bufs_sub ..,
   reshape_bufs_sub ..⟩
/-- Every operation of line 0 touches unscoped buffers of the TensorCore only. -/
theorem ops0_sub : ∀ op ∈ (ops0 : List (HloOp τ sig (Elt F))), op.bufs ⊆ Sall :=
  fun op hop => sub_Sall op (List.forall_iff_forall_mem.mp ops0_tc op hop)
/-- No operation of line 0 leaves a buffer it writes at contents of the machine's choosing. -/
theorem ops0_freshF : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem ops0_fresh : ∀ op ∈ (ops0 : List (HloOp τ sig (Elt F))), op.fresh = ∅ :=
  fun op hop => List.forall_iff_forall_mem.mp ops0_freshF op hop

/-- Every operation of line 1 (after the degree kernel) touches TensorCore references only. -/
theorem ops1_tc : (ops1 : List (HloOp τ sig (Elt F))).Forall fun op => op.bufs ⊆ tcRefs τ sig :=
  ⟨unary_bufs_sub ..,
   unary_bufs_sub ..⟩
/-- Every operation of line 1 touches unscoped buffers of the TensorCore only. -/
theorem ops1_sub : ∀ op ∈ (ops1 : List (HloOp τ sig (Elt F))), op.bufs ⊆ Sall :=
  fun op hop => sub_Sall op (List.forall_iff_forall_mem.mp ops1_tc op hop)
/-- No operation of line 1 leaves a buffer it writes at contents of the machine's choosing. -/
theorem ops1_freshF : (ops1 : List (HloOp τ sig (Elt F))).Forall fun op => op.fresh = ∅ :=
  ⟨rfl, rfl⟩
theorem ops1_fresh : ∀ op ∈ (ops1 : List (HloOp τ sig (Elt F))), op.fresh = ∅ :=
  fun op hop => List.forall_iff_forall_mem.mp ops1_freshF op hop

/-- Every operation of line 2 (before the first edge kernel) touches TensorCore references only. -/
theorem ops2_tc : (ops2 : List (HloOp τ sig (Elt F))).Forall fun op => op.bufs ⊆ tcRefs τ sig :=
  ⟨nullary_bufs_sub ..,
   unary_bufs_sub ..,
   binary_bufs_sub ..,
   reshape_bufs_sub ..⟩
/-- Every operation of line 2 touches unscoped buffers of the TensorCore only. -/
theorem ops2_sub : ∀ op ∈ (ops2 : List (HloOp τ sig (Elt F))), op.bufs ⊆ Sall :=
  fun op hop => sub_Sall op (List.forall_iff_forall_mem.mp ops2_tc op hop)
/-- No operation of line 2 leaves a buffer it writes at contents of the machine's choosing. -/
theorem ops2_freshF : (ops2 : List (HloOp τ sig (Elt F))).Forall fun op => op.fresh = ∅ :=
  ⟨rfl, rfl, rfl, rfl⟩
theorem ops2_fresh : ∀ op ∈ (ops2 : List (HloOp τ sig (Elt F))), op.fresh = ∅ :=
  fun op hop => List.forall_iff_forall_mem.mp ops2_freshF op hop

/-- Every operation of line 3 (after the first edge kernel) touches TensorCore references only. -/
theorem ops3_tc : (ops3 : List (HloOp τ sig (Elt F))).Forall fun op => op.bufs ⊆ tcRefs τ sig :=
  ⟨reshape_bufs_sub ..,
   reshape_bufs_sub ..,
   unary_bufs_sub ..,
   reshape_bufs_sub ..,
   reshape_bufs_sub ..,
   unary_bufs_sub ..,
   unary_bufs_sub ..,
   reshape_bufs_sub ..,
   reshape_bufs_sub ..,
   unary_bufs_sub ..⟩
/-- Every operation of line 3 touches unscoped buffers of the TensorCore only. -/
theorem ops3_sub : ∀ op ∈ (ops3 : List (HloOp τ sig (Elt F))), op.bufs ⊆ Sall :=
  fun op hop => sub_Sall op (List.forall_iff_forall_mem.mp ops3_tc op hop)
/-- No operation of line 3 leaves a buffer it writes at contents of the machine's choosing. -/
theorem ops3_freshF : (ops3 : List (HloOp τ sig (Elt F))).Forall fun op => op.fresh = ∅ :=
  ⟨rfl, rfl, rfl, rfl, rfl, rfl, rfl, rfl, rfl, rfl⟩
theorem ops3_fresh : ∀ op ∈ (ops3 : List (HloOp τ sig (Elt F))), op.fresh = ∅ :=
  fun op hop => List.forall_iff_forall_mem.mp ops3_freshF op hop

/-- Every operation of line 4 (before the second edge kernel) touches TensorCore references only. -/
theorem ops4_tc : (ops4 : List (HloOp τ sig (Elt F))).Forall fun op => op.bufs ⊆ tcRefs τ sig :=
  ⟨nullary_bufs_sub ..,
   unary_bufs_sub ..,
   binary_bufs_sub ..,
   reshape_bufs_sub ..⟩
/-- Every operation of line 4 touches unscoped buffers of the TensorCore only. -/
theorem ops4_sub : ∀ op ∈ (ops4 : List (HloOp τ sig (Elt F))), op.bufs ⊆ Sall :=
  fun op hop => sub_Sall op (List.forall_iff_forall_mem.mp ops4_tc op hop)
/-- No operation of line 4 leaves a buffer it writes at contents of the machine's choosing. -/
theorem ops4_freshF : (ops4 : List (HloOp τ sig (Elt F))).Forall fun op => op.fresh = ∅ :=
  ⟨rfl, rfl, rfl, rfl⟩
theorem ops4_fresh : ∀ op ∈ (ops4 : List (HloOp τ sig (Elt F))), op.fresh = ∅ :=
  fun op hop => List.forall_iff_forall_mem.mp ops4_freshF op hop

/-- Every operation of line 5 (after the second edge kernel) touches TensorCore references only. -/
theorem ops5_tc : (ops5 : List (HloOp τ sig (Elt F))).Forall fun op => op.bufs ⊆ tcRefs τ sig :=
  ⟨reshape_bufs_sub ..,
   reshape_bufs_sub ..,
   unary_bufs_sub ..,
   reshape_bufs_sub ..,
   reshape_bufs_sub ..,
   unary_bufs_sub ..,
   unary_bufs_sub ..,
   reshape_bufs_sub ..,
   reshape_bufs_sub ..,
   unary_bufs_sub ..⟩
/-- Every operation of line 5 touches unscoped buffers of the TensorCore only. -/
theorem ops5_sub : ∀ op ∈ (ops5 : List (HloOp τ sig (Elt F))), op.bufs ⊆ Sall :=
  fun op hop => sub_Sall op (List.forall_iff_forall_mem.mp ops5_tc op hop)
/-- No operation of line 5 leaves a buffer it writes at contents of the machine's choosing. -/
theorem ops5_freshF : (ops5 : List (HloOp τ sig (Elt F))).Forall fun op => op.fresh = ∅ :=
  ⟨rfl, rfl, rfl, rfl, rfl, rfl, rfl, rfl, rfl, rfl⟩
theorem ops5_fresh : ∀ op ∈ (ops5 : List (HloOp τ sig (Elt F))), op.fresh = ∅ :=
  fun op hop => List.forall_iff_forall_mem.mp ops5_freshF op hop

/-! ## The launch's holdings -/

/-- What the launch deals the TensorCore of its arrays: every unscoped buffer whole, at the launch contents. -/
theorem unscoped_held (m : (ℓ : Loc nD τ sig) → Buf (Elt F) ℓ) (d : Dev nD) :
    (unscopedBufs d (fun b => m ((SparseCore.T d).loc b)) : sProp 𝕄) = held (SparseCore.T d) Sall (V0 m d) := by
  unfold unscopedBufs held Sall
  rw [bigSep_map]
  rfl

variable (m : (ℓ : Loc nD τ sig) → Buf (Elt F) ℓ) (d : Dev nD)

/-! ## The arguments are never written -/

theorem V12_arg0_keep : V12 m d (rf main_arg0) = m ((SparseCore.T d).loc main_arg0) :=
  (V12_ne m d main_arg0 (by decide)).trans ((V11_keep m d main_arg0 (by decide)).trans ((V10_ne m d main_arg0 (by decide)).trans ((V9_keep m d main_arg0 (by decide)).trans ((V8_ne m d main_arg0 (by decide)).trans ((V7_keep m d main_arg0 (by decide)).trans ((V6_ne m d main_arg0 (by decide)).trans ((V5_keep m d main_arg0 (by decide)).trans ((V4_ne m d main_arg0 (by decide)).trans ((V3_keep m d main_arg0 (by decide)).trans ((V2_ne m d main_arg0 (by decide)).trans ((V1_keep m d main_arg0 (by decide)))))))))))))
theorem V12_arg1_keep : V12 m d (rf main_arg1) = m ((SparseCore.T d).loc main_arg1) :=
  (V12_ne m d main_arg1 (by decide)).trans ((V11_keep m d main_arg1 (by decide)).trans ((V10_ne m d main_arg1 (by decide)).trans ((V9_keep m d main_arg1 (by decide)).trans ((V8_ne m d main_arg1 (by decide)).trans ((V7_keep m d main_arg1 (by decide)).trans ((V6_ne m d main_arg1 (by decide)).trans ((V5_keep m d main_arg1 (by decide)).trans ((V4_ne m d main_arg1 (by decide)).trans ((V3_keep m d main_arg1 (by decide)).trans ((V2_ne m d main_arg1 (by decide)).trans ((V1_keep m d main_arg1 (by decide)))))))))))))
theorem V12_arg2_keep : V12 m d (rf main_arg2) = m ((SparseCore.T d).loc main_arg2) :=
  (V12_ne m d main_arg2 (by decide)).trans ((V11_keep m d main_arg2 (by decide)).trans ((V10_ne m d main_arg2 (by decide)).trans ((V9_keep m d main_arg2 (by decide)).trans ((V8_ne m d main_arg2 (by decide)).trans ((V7_keep m d main_arg2 (by decide)).trans ((V6_ne m d main_arg2 (by decide)).trans ((V5_keep m d main_arg2 (by decide)).trans ((V4_ne m d main_arg2 (by decide)).trans ((V3_keep m d main_arg2 (by decide)).trans ((V2_ne m d main_arg2 (by decide)).trans ((V1_keep m d main_arg2 (by decide)))))))))))))
theorem V12_arg3_keep : V12 m d (rf main_arg3) = m ((SparseCore.T d).loc main_arg3) :=
  (V12_ne m d main_arg3 (by decide)).trans ((V11_keep m d main_arg3 (by decide)).trans ((V10_ne m d main_arg3 (by decide)).trans ((V9_keep m d main_arg3 (by decide)).trans ((V8_ne m d main_arg3 (by decide)).trans ((V7_keep m d main_arg3 (by decide)).trans ((V6_ne m d main_arg3 (by decide)).trans ((V5_keep m d main_arg3 (by decide)).trans ((V4_ne m d main_arg3 (by decide)).trans ((V3_keep m d main_arg3 (by decide)).trans ((V2_ne m d main_arg3 (by decide)).trans ((V1_keep m d main_arg3 (by decide)))))))))))))
theorem V12_arg4_keep : V12 m d (rf main_arg4) = m ((SparseCore.T d).loc main_arg4) :=
  (V12_ne m d main_arg4 (by decide)).trans ((V11_keep m d main_arg4 (by decide)).trans ((V10_ne m d main_arg4 (by decide)).trans ((V9_keep m d main_arg4 (by decide)).trans ((V8_ne m d main_arg4 (by decide)).trans ((V7_keep m d main_arg4 (by decide)).trans ((V6_ne m d main_arg4 (by decide)).trans ((V5_keep m d main_arg4 (by decide)).trans ((V4_ne m d main_arg4 (by decide)).trans ((V3_keep m d main_arg4 (by decide)).trans ((V2_ne m d main_arg4 (by decide)).trans ((V1_keep m d main_arg4 (by decide)))))))))))))
theorem V12_arg5_keep : V12 m d (rf main_arg5) = m ((SparseCore.T d).loc main_arg5) :=
  (V12_ne m d main_arg5 (by decide)).trans ((V11_keep m d main_arg5 (by decide)).trans ((V10_ne m d main_arg5 (by decide)).trans ((V9_keep m d main_arg5 (by decide)).trans ((V8_ne m d main_arg5 (by decide)).trans ((V7_keep m d main_arg5 (by decide)).trans ((V6_ne m d main_arg5 (by decide)).trans ((V5_keep m d main_arg5 (by decide)).trans ((V4_ne m d main_arg5 (by decide)).trans ((V3_keep m d main_arg5 (by decide)).trans ((V2_ne m d main_arg5 (by decide)).trans ((V1_keep m d main_arg5 (by decide)))))))))))))
theorem V12_arg6_keep : V12 m d (rf main_arg6) = m ((SparseCore.T d).loc main_arg6) :=
  (V12_ne m d main_arg6 (by decide)).trans ((V11_keep m d main_arg6 (by decide)).trans ((V10_ne m d main_arg6 (by decide)).trans ((V9_keep m d main_arg6 (by decide)).trans ((V8_ne m d main_arg6 (by decide)).trans ((V7_keep m d main_arg6 (by decide)).trans ((V6_ne m d main_arg6 (by decide)).trans ((V5_keep m d main_arg6 (by decide)).trans ((V4_ne m d main_arg6 (by decide)).trans ((V3_keep m d main_arg6 (by decide)).trans ((V2_ne m d main_arg6 (by decide)).trans ((V1_keep m d main_arg6 (by decide)))))))))))))
theorem V12_arg7_keep : V12 m d (rf main_arg7) = m ((SparseCore.T d).loc main_arg7) :=
  (V12_ne m d main_arg7 (by decide)).trans ((V11_keep m d main_arg7 (by decide)).trans ((V10_ne m d main_arg7 (by decide)).trans ((V9_keep m d main_arg7 (by decide)).trans ((V8_ne m d main_arg7 (by decide)).trans ((V7_keep m d main_arg7 (by decide)).trans ((V6_ne m d main_arg7 (by decide)).trans ((V5_keep m d main_arg7 (by decide)).trans ((V4_ne m d main_arg7 (by decide)).trans ((V3_keep m d main_arg7 (by decide)).trans ((V2_ne m d main_arg7 (by decide)).trans ((V1_keep m d main_arg7 (by decide)))))))))))))
theorem V12_arg8_keep : V12 m d (rf main_arg8) = m ((SparseCore.T d).loc main_arg8) :=
  (V12_ne m d main_arg8 (by decide)).trans ((V11_keep m d main_arg8 (by decide)).trans ((V10_ne m d main_arg8 (by decide)).trans ((V9_keep m d main_arg8 (by decide)).trans ((V8_ne m d main_arg8 (by decide)).trans ((V7_keep m d main_arg8 (by decide)).trans ((V6_ne m d main_arg8 (by decide)).trans ((V5_keep m d main_arg8 (by decide)).trans ((V4_ne m d main_arg8 (by decide)).trans ((V3_keep m d main_arg8 (by decide)).trans ((V2_ne m d main_arg8 (by decide)).trans ((V1_keep m d main_arg8 (by decide)))))))))))))

/-! ## The padded edge lists and the zero accumulator are written once -/

theorem V5_v6_keep : V5 m d (rf main_v6) = V1 m d (rf main_v6) :=
  (V5_keep m d main_v6 (by decide)).trans ((V4_ne m d main_v6 (by decide)).trans ((V3_keep m d main_v6 (by decide)).trans ((V2_ne m d main_v6 (by decide)))))
theorem V5_v9_keep : V5 m d (rf main_v9) = V1 m d (rf main_v9) :=
  (V5_keep m d main_v9 (by decide)).trans ((V4_ne m d main_v9 (by decide)).trans ((V3_keep m d main_v9 (by decide)).trans ((V2_ne m d main_v9 (by decide)))))
theorem V5_v13_keep : V5 m d (rf main_v13) = V1 m d (rf main_v13) :=
  (V5_keep m d main_v13 (by decide)).trans ((V4_ne m d main_v13 (by decide)).trans ((V3_keep m d main_v13 (by decide)).trans ((V2_ne m d main_v13 (by decide)))))
theorem V9_v6_keep : V9 m d (rf main_v6) = V1 m d (rf main_v6) :=
  (V9_keep m d main_v6 (by decide)).trans ((V8_ne m d main_v6 (by decide)).trans ((V7_keep m d main_v6 (by decide)).trans ((V6_ne m d main_v6 (by decide)).trans ((V5_keep m d main_v6 (by decide)).trans ((V4_ne m d main_v6 (by decide)).trans ((V3_keep m d main_v6 (by decide)).trans ((V2_ne m d main_v6 (by decide)))))))))
theorem V9_v9_keep : V9 m d (rf main_v9) = V1 m d (rf main_v9) :=
  (V9_keep m d main_v9 (by decide)).trans ((V8_ne m d main_v9 (by decide)).trans ((V7_keep m d main_v9 (by decide)).trans ((V6_ne m d main_v9 (by decide)).trans ((V5_keep m d main_v9 (by decide)).trans ((V4_ne m d main_v9 (by decide)).trans ((V3_keep m d main_v9 (by decide)).trans ((V2_ne m d main_v9 (by decide)))))))))
theorem V9_v13_keep : V9 m d (rf main_v13) = V1 m d (rf main_v13) :=
  (V9_keep m d main_v13 (by decide)).trans ((V8_ne m d main_v13 (by decide)).trans ((V7_keep m d main_v13 (by decide)).trans ((V6_ne m d main_v13 (by decide)).trans ((V5_keep m d main_v13 (by decide)).trans ((V4_ne m d main_v13 (by decide)).trans ((V3_keep m d main_v13 (by decide)).trans ((V2_ne m d main_v13 (by decide)))))))))

end Cert.KernelIdeal.Hand

end
-- ==== Proof.KI.HeldAgree.lean ====
/-
  Buffers held whole against the state interpretation: the physical contents of every held buffer are the held contents.
-/
import proofs.«219763_g10557029614292_week1_w2_488_21_alg».proof.Proof.KI.Base

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 3) (Elt F) ℕ UU ℕ

/-- A set of a thread's device's buffers held whole at a valuation, together with the state interpretation of a
    physical state, pins each of those buffers' physical contents to the valuation's. -/
theorem held_agree_all (c : Thread nD τ) (S : Finset (DevRef τ sig)) (V : Valuation τ sig (Elt F)) (s' : Phys nD τ sig (Elt F)) :
    iprop((held c S V : sProp 𝕄) ∗ SI s') ⊢ (⌜∀ b ∈ S, s'.mem.mem (c.1, b) = V b⌝ : sProp 𝕄) := by
  unfold held
  iintro ⟨H, HSI⟩
  ihave %h := (SI_pointsTo_bufs_agree (qs := fun _ => fullShare) S) $$ [HSI H]
  · isplitl [HSI]; · iexact HSI
    iexact H
  ipureintro
  exact h

end Cert.KernelIdeal.Hand

end
-- ==== Proof.KI.TcRegion.lean ====
/-
  The three TensorCore kernels that run between the SparseCore kernels, each as a rule for the TensorCore's proof
  of the host program: from the region boundary, the host program's arrays held whole at a valuation, what the
  TensorCore owes the SparseCores, and the rounds of the kernel's staging cells, the call runs to the same
  holdings with the valuation updated at the call's result array by the kernel body's value of its operands.

  Each call has one grid point; every operand is one window whose block is the whole array, staged through one
  buffer. The body loads every staged operand whole, loads the staged result, and stores the result whole once.
-/
import proofs.«219763_g10557029614292_week1_w2_488_21_alg».proof.Proof.KI.Base
import proofs.«219763_g10557029614292_week1_w2_488_21_alg».proof.Proof.KI.Chain
import Idealize.ShloMosaic.Lib.Pipeline.FrameBody
import Idealize.ShloMosaic.Lib.Pipeline.Value
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## What is common to the three calls -/

/-- No call prefetches a table. -/
abbrev adm : (p : Fin 3) → (pcfgs (F := F) p).Adm := fun p => (cfgs p).toPCfg_adm

/-- A valuation read at the TensorCore's references. -/
abbrev atTc (W : Valuation τ sig (Elt F)) (c : Dev nD) : (b : Ref sig .tc) → Buf (Elt F) ((c : Thread nD τ).loc b) := fun b => W b

/-- The pairs a TensorCore may have recorded before SparseCore call n. -/
abbrev recB (c : Dev nD) (n : ℕ) : Set (SemLoc sig × HIx 3) := {pr | (K (F := F)).lev (T c, pr.1) pr.2 ≤ 8 * n}

/-- What the TensorCore owes before SparseCore call n, and the bound on its recorded pairs. -/
abbrev owesTc (c : Dev nD) (n : ℕ) : sProp 𝕄 :=
  iprop(∃ Wt, ⌜(K (F := F)).WBelow (T c) Wt (8 * n)⌝ ∗ owes (T c) ((K (F := F)).Otc c n) Wt)

/-- The rounds of call p's staging cells, as the launch deals them. -/
abbrev RG (p : Fin 3) (c : Dev nD) : sProp 𝕄 :=
  iprop(Pipeline.cellsGhost (Pipeline.pin (pcfgs (F := F)) adm) EP p c ∗ Pipeline.toksInit (Pipeline.pin (pcfgs (F := F)) adm) EP p c)

/-- The element of the staging cells' rounds the launch funds. -/
abbrev uP : UP := initOf (Pipeline.cells (nD := nD) (τ := τ) cfgs cellOf_inj) (Pipeline.launchToks (nD := nD) (τ := τ) cfgs cellOf_inj)

/-- The launch's share: from the staging cells' rounds element, every TensorCore's rounds for the three calls. -/
theorem fund_RG : BI.own ((EP : Emb UP 𝕄) uP) ⊢ |={Set.univ}=> bigSep Finset.univ fun d : Dev nD => iprop(RG (F := F) 0 d ∗ RG (F := F) 1 d ∗ RG (F := F) 2 d) := by
  have h3 : ∀ Φ : Fin 3 → sProp 𝕄, bigSep Finset.univ Φ = iprop(Φ 0 ∗ Φ 1 ∗ Φ 2) := fun Φ =>
    bigSep_univ_eq_bigSepL [(0 : Fin 3), (1 : Fin 3), (2 : Fin 3)] (by decide) (by decide) Φ
  have hre : iprop((bigSep Finset.univ fun c : Dev nD => bigSep Finset.univ fun p : Fin 3 => Pipeline.cellsGhost (Ix := HIx 3) (Val := Elt F) (Name := ℕ) (U := UU) (Lvl := ℕ) cfgs EP p c)
        ∗ (bigSep Finset.univ fun c : Dev nD => bigSep Finset.univ fun p : Fin 3 => (Pipeline.toksInit (Ix := HIx 3) (Val := Elt F) (Name := ℕ) (U := UU) (Lvl := ℕ) cfgs EP p c : sProp 𝕄)))
      ⊢ bigSep Finset.univ fun d : Dev nD => iprop(RG (F := F) 0 d ∗ RG (F := F) 1 d ∗ RG (F := F) 2 d) := by
    have hd : ∀ (g t : Fin 3 → sProp 𝕄), iprop((g 0 ∗ g 1 ∗ g 2) ∗ t 0 ∗ t 1 ∗ t 2) ⊢ iprop((g 0 ∗ t 0) ∗ (g 1 ∗ t 1) ∗ g 2 ∗ t 2) := fun g t => by
      iintro ⟨⟨Hg0, Hg1, Hg2⟩, ⟨Ht0, Ht1, Ht2⟩⟩
      isplitl [Hg0 Ht0]; · isplitl [Hg0] <;> iassumption
      isplitl [Hg1 Ht1]; · isplitl [Hg1] <;> iassumption
      isplitl [Hg2] <;> iassumption
    rw [← bigSep_sep']
    refine bigSep_mono fun d _ => ?_
    rw [h3, h3]
    exact hd (fun p => Pipeline.cellsGhost (Ix := HIx 3) (Val := Elt F) (Name := ℕ) (U := UU) (Lvl := ℕ) cfgs EP p d)
      (fun p => Pipeline.toksInit (Ix := HIx 3) (Val := Elt F) (Name := ℕ) (U := UU) (Lvl := ℕ) cfgs EP p d)
  iintro Hu
  imod (Pipeline.fund_ghost (nD := nD) (τ := τ) (Val := Elt F) (Ix := HIx 3) (Name := ℕ) (U := UU) (Lvl := ℕ) cfgs EP cellOf_inj) $$ Hu with ⟨Hg, Ht⟩
  imodintro
  iapply hre
  isplitl [Hg] <;> iassumption

/-- Proof data that say nothing: what a call's rule puts at the other two calls' indices. -/
def datNone (cfg : Cfg sig Λ₀) (c : Dev nD) : Dat τ (Elt F) (HIx 3) ℕ UU ℕ cfg c where
  A _ := Classical.arbitrary _
  after _ _ := Classical.arbitrary _
  Φ _ := BI.emp
  q _ := fullShare
  owed _ := 0

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The TensorCore's unscoped buffers at a valuation are the program's arrays held at it. -/
theorem unscopedBufs_Sall (c : Dev nD) (W : Valuation τ sig (Elt F)) :
    (unscopedBufs (Ix := HIx 3) (Name := ℕ) (U := UU) (Lvl := ℕ) c (atTc W c) : sProp 𝕄) = StableHlo.held (c.tc : Thread nD τ) Sall W := by
  unfold unscopedBufs StableHlo.held
  rw [bigSep_map]
  rfl

/-- The bound on the recorded pairs comes back from the region: its own waits are at the kernels' index. -/
theorem owesTc_of_owesAt (c : Dev nD) (n : ℕ) {cfg : Cfg sig Λ₀} (dat : Dat τ (Elt F) (HIx 3) ℕ UU ℕ cfg c)
    (t : Fin (cfg.N + 1)) (ho : dat.owed t = (K (F := F)).Otc c n) (hr : dat.recorded t = recB (F := F) c n) :
    dat.owesAt none t ⊢ owesTc (F := F) c n := by
  unfold Pipeline.Dat.owesAt Pipeline.owesWithin
  rw [ho]
  iintro ⟨%Wt, %hW, HO⟩
  iexists Wt
  isplitr
  · ipureintro
    intro pr hpr
    rcases hW hpr with h | ⟨w, s, h⟩
    · rw [hr] at h; exact h
    · rw [h]; exact Nat.zero_le _
  iexact HO

theorem owesAt_of_owesTc (c : Dev nD) (n : ℕ) {cfg : Cfg sig Λ₀} (dat : Dat τ (Elt F) (HIx 3) ℕ UU ℕ cfg c)
    (t : Fin (cfg.N + 1)) (ho : dat.owed t = (K (F := F)).Otc c n) (hr : dat.recorded t = recB (F := F) c n) :
    owesTc (F := F) c n ⊢ dat.owesAt none t := by
  unfold Pipeline.Dat.owesAt Pipeline.owesWithin
  rw [ho]
  iintro ⟨%Wt, %hW, HO⟩
  iexists Wt
  isplitr
  · ipureintro
    intro pr hpr
    refine Or.inl ?_
    rw [hr]; exact hW pr hpr
  iexact HO

/-! ## custom_call 1 -/

section Call1

variable (W : Valuation τ sig (Elt F))

/-- Window w's block at the point, read off its array at the entry valuation. -/
def iblk1 (c : Dev nD) (w : Fin cfg1.W) (t : Fin cfg1.N) : ((cfg1.win w).xblock (cfg1.grid.coords t)).Idx → Elt F (cfg1.win w).elt :=
  ((cfg1.win w).blk t).view.read (Elt F) (atTc W c (Pipeline.arrRef spec1 w))

theorem before1_0_of {c : Dev nD} (dat : Dat τ (Elt F) (HIx 3) ℕ UU ℕ cfg1 c) (hA : dat.A 0 = atTc W c (Pipeline.arrRef spec1 0))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 3) ℕ UU ℕ cfg1 c) (hA : dat.A 1 = atTc W c (Pipeline.arrRef spec1 1))
    (hafter : ∀ t, dat.after 1 t = iblk1 W c 1 t) (t : Fin cfg1.N) (d) : dat.before 1 t d = iblk1 W c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 3) ℕ UU ℕ cfg1 c) (hA : dat.A 2 = atTc W c (Pipeline.arrRef spec1 2))
    (hafter : ∀ t, dat.after 2 t = iblk1 W c 2 t) (t : Fin cfg1.N) (d) : dat.before 2 t d = iblk1 W c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x128 := Rect.unit (s := S10000x128) ![0, 0] S10000x128.size inb_S10000x128_S10000x128_0_0
abbrev r1_1 : Rect S128x64 := Rect.unit (s := S128x64) ![0, 0] S128x64.size inb_S128x64_S128x64_0_0
abbrev r1_2 : Rect S10000x32 := Rect.unit (s := S10000x32) ![0, 0] S10000x32.size inb_S10000x32_S10000x32_0_0
abbrev r1_3 : Rect S64x10000 := Rect.unit (s := S64x10000) ![0, 0] S64x10000.size inb_S64x10000_S64x10000_0_0

/-- The result window's buffer after the body: its one store's payload of the three loads. -/
def out1 (x0 : Vec F S10000x128 .f32) (x1 : Vec F S128x64 .f32) (x2 : Vec F S10000x32 .f32) : Vec F S64x10000 .f32 :=
  View.canon [⟨r1_3, k1_pay1 (View.ld x2 r1_2) (View.ld x1 r1_1) (View.ld x0 r1_0)⟩]

theorem cover1 (p0 : Vec F S64x10000 .f32) (y : S64x10000.Idx) :
    ∃ pc ∈ ([⟨r1_3, p0⟩] : List (View.Piece (Elt F) S64x10000 .f32)), y ∈ pc.1.set :=
  ⟨_, List.mem_singleton_self _, View.mem_set_unit_zero (by funext a; fin_cases a <;> rfl) inb_S64x10000_S64x10000_0_0 y⟩

theorem out1_eq (x0 : Vec F S10000x128 .f32) (x1 : Vec F S128x64 .f32) (x2 : Vec F S10000x32 .f32) :
    out1 x0 x1 x2 = k1_pay1 x2 x1 x0 := by
  have h2 : ∀ a : Fin 2, (![0, 0] : Fin 2 → ℕ) a = 0 := fun a => by fin_cases a <;> rfl
  unfold out1
  rw [View.canon_unit_zero (funext h2), View.ld_unit_zero (funext h2), View.ld_unit_zero (funext h2), View.ld_unit_zero (funext h2)]

set_option maxHeartbeats 1000000 in
/-- The body on whole staging memrefs: the operands' as they were, the result's at the payload of the operands'. -/
theorem sound_kernel1 (c : Dev nD) (E : Set ℕ) (arg0 : Memref sig .tc .vmem S10000x128 .f32) (harg0 : arg0.IsWhole) (arg1 : Memref sig .tc .vmem S128x64 .f32) (harg1 : arg1.IsWhole)
    (arg2 : Memref sig .tc .vmem S10000x32 .f32) (harg2 : arg2.IsWhole) (arg3 : Memref sig .tc .vmem S64x10000 .f32) (harg3 : arg3.IsWhole)
    (x0 : Vec F S10000x128 .f32) (x1 : Vec F S128x64 .f32) (x2 : Vec F S10000x32 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1 x0 x1 x2)) -∗ Kk ⟨⟩))
      ⊢ wp frame (wpE (defs₀ (F := F)) Variants.none c none) E (cc1_body arg0 harg0 arg1 harg1 arg2 harg2 arg3 harg3) Kk := by
  simp only [cc1_body_eq_skeleton]; unfold cc1_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of call 1 on core c at the entry valuation W, the core owing O with its recorded pairs within B. -/
def dat1 (O : CellTallies nD τ sig (HIx 3)) (B : Set (SemLoc sig × HIx 3)) (c : Dev nD) : Dat τ (Elt F) (HIx 3) ℕ UU ℕ cfg1 c where
  A w := atTc W c (Pipeline.arrRef spec1 w)
  after w t := match w with
    | ⟨0, _⟩ => iblk1 W c 0 t
    | ⟨1, _⟩ => iblk1 W c 1 t
    | ⟨2, _⟩ => iblk1 W c 2 t
    | ⟨3, _⟩ => out1 (iblk1 W c 0 t) (iblk1 W c 1 t) (iblk1 W c 2 t)
  Φ _ := Pipeline.scopedRest spec1 c
  q _ := fullShare
  owed _ := O
  recorded _ := B

variable (O : CellTallies nD τ sig (HIx 3)) (B : Set (SemLoc sig × HIx 3))

theorem A_eq1 (c : Dev nD) (w : Fin cfg1.W) : (dat1 W O B c).A w = atTc W c (Pipeline.arrRef spec1 w) := by
  dsimp only [dat1]
theorem after1_0 (c : Dev nD) (t : Fin cfg1.N) : (dat1 W O B c).after 0 t = iblk1 W c 0 t := by dsimp only [dat1]
theorem after1_1 (c : Dev nD) (t : Fin cfg1.N) : (dat1 W O B c).after 1 t = iblk1 W c 1 t := by dsimp only [dat1]
theorem after1_2 (c : Dev nD) (t : Fin cfg1.N) : (dat1 W O B c).after 2 t = iblk1 W c 2 t := by dsimp only [dat1]
theorem after1_3 (c : Dev nD) (t : Fin cfg1.N) :
    (dat1 W O B c).after 3 t = out1 (iblk1 W c 0 t) (iblk1 W c 1 t) (iblk1 W c 2 t) := by dsimp only [dat1]
theorem before1_0 (c : Dev nD) (t : Fin cfg1.N) (d) : (dat1 W O B c).before 0 t d = iblk1 W c 0 t :=
  before1_0_of W (dat1 W O B c) (A_eq1 W O B c 0) (after1_0 W O B c) t d
theorem before1_1 (c : Dev nD) (t : Fin cfg1.N) (d) : (dat1 W O B c).before 1 t d = iblk1 W c 1 t :=
  before1_1_of W (dat1 W O B c) (A_eq1 W O B c 1) (after1_1 W O B c) t d
theorem before1_2 (c : Dev nD) (t : Fin cfg1.N) (d) : (dat1 W O B c).before 2 t d = iblk1 W c 2 t :=
  before1_2_of W (dat1 W O B c) (A_eq1 W O B c 2) (after1_2 W O B c) t d

/-- What the body is called with at the point, the windows one by one, -/
def bodyPre1 (c : Dev nD) (t : Fin cfg1.N) : sProp 𝕄 :=
  iprop((dat1 W O B c).Φ t.castSucc ∗ (dat1 W O B c).owesAt none t.castSucc
    ∗ (∃ d, owns (c : Thread nD τ) (st1_0 t) fullShare ((dat1 W O B c).before 0 t d))
    ∗ (∃ d, owns (c : Thread nD τ) (st1_1 t) fullShare ((dat1 W O B c).before 1 t d))
    ∗ (∃ d, owns (c : Thread nD τ) (st1_2 t) fullShare ((dat1 W O B c).before 2 t d))
    ∗ (∃ d, owns (c : Thread nD τ) (st1_3 t) fullShare ((dat1 W O B c).before 3 t d)))

/-- and what it returns. -/
def bodyPost1 (c : Dev nD) (t : Fin cfg1.N) : sProp 𝕄 :=
  iprop((dat1 W O B c).Φ t.succ ∗ (dat1 W O B c).owesAt none t.succ
    ∗ owns (c : Thread nD τ) (st1_0 t) fullShare ((dat1 W O B c).after 0 t)
    ∗ owns (c : Thread nD τ) (st1_1 t) fullShare ((dat1 W O B c).after 1 t)
    ∗ owns (c : Thread nD τ) (st1_2 t) fullShare ((dat1 W O B c).after 2 t)
    ∗ owns (c : Thread nD τ) (st1_3 t) fullShare ((dat1 W O B c).after 3 t))

theorem sound_body1 (c : Dev nD) (t : Fin cfg1.N) :
    bodyPre1 W O B c t ⊢ wp frame (wpE (defs₀ (F := F)) Variants.none c none) Set.univ (bodyAt1 t) (fun _ => bodyPost1 W O B c t) := by
  unfold bodyPre1 bodyPost1 bodyAt1
  simp only [before1_0, before1_1, before1_2]
  rw [show (dat1 W O B c).Φ t.succ = (dat1 W O B c).Φ t.castSucc from rfl,
    show (dat1 W O B c).owesAt none t.succ = (dat1 W O B c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 W c 0 t) (iblk1 W c 1 t) (iblk1 W c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 1, at its one point. -/
theorem body_obligation1 (c : Dev nD) : BodyObligation (dat1 (F := F) W O B c) (defs₀ (F := F)) Variants.none none Set.univ := fun t => by
  rw [bigSep_W1, bigSep_W1]
  exact sound_body1 W O B c t

/-! ### The result array after the call -/

theorem emb1_0 (t : Fin cfg1.N) (y : ((cfg1.win 0).xblock (cfg1.grid.coords t)).Idx) : ((cfg1.win 0).blk t).view.emb y = y := by
  funext a; exact Fin.ext ((cfg1.win 0).rect_emb_val_of_index_zero t a rfl y)
theorem emb1_1 (t : Fin cfg1.N) (y : ((cfg1.win 1).xblock (cfg1.grid.coords t)).Idx) : ((cfg1.win 1).blk t).view.emb y = y := by
  funext a; exact Fin.ext ((cfg1.win 1).rect_emb_val_of_index_zero t a rfl y)
theorem emb1_2 (t : Fin cfg1.N) (y : ((cfg1.win 2).xblock (cfg1.grid.coords t)).Idx) : ((cfg1.win 2).blk t).view.emb y = y := by
  funext a; exact Fin.ext ((cfg1.win 2).rect_emb_val_of_index_zero t a rfl y)
theorem emb1_3 (t : Fin cfg1.N) (y : ((cfg1.win 3).xblock (cfg1.grid.coords t)).Idx) : ((cfg1.win 3).blk t).view.emb y = y := by
  funext a; exact Fin.ext ((cfg1.win 3).rect_emb_val_of_index_zero t a rfl y)

/-- An operand's block is its whole array. -/
theorem iblk1_0 (c : Dev nD) (t : Fin cfg1.N) : iblk1 W c 0 t = (W main_arg0 : Vec F S10000x128 .f32) := by
  funext y; unfold iblk1; rw [View.read_apply, emb1_0]; rfl
theorem iblk1_1 (c : Dev nD) (t : Fin cfg1.N) : iblk1 W c 1 t = (W main_arg3 : Vec F S128x64 .f32) := by
  funext y; unfold iblk1; rw [View.read_apply, emb1_1]; rfl
theorem iblk1_2 (c : Dev nD) (t : Fin cfg1.N) : iblk1 W c 2 t = (W main_v20 : Vec F S10000x32 .f32) := by
  funext y; unfold iblk1; rw [View.read_apply, emb1_2]; rfl

/-- The value the call leaves in its result array. -/
def tcv1 : Vec F S64x10000 .f32 := k1_pay1 (W main_v20) (W main_arg3) (W main_arg0)

/-- The result array after the write-back: the payload. -/
theorem arrAt1_3 (c : Dev nD) : (dat1 W O B c).arrAt 3 cfg1.N = tcv1 W := by
  have hN : cfg1.N = t1_0.val + 1 := N_1
  rw [hN, Dat.arrAt_succ, if_pos (flush1_3 t1_0)]
  funext i
  have h := View.write_emb_of_mem (Val := Elt F) (v := ((cfg1.win 3).blk t1_0).view) ((dat1 W O B c).arrAt 3 t1_0.val) ((dat1 W O B c).flushed 3 t1_0) (Finset.mem_univ i)
  rw [emb1_3] at h
  refine h.trans ?_
  show (dat1 W O B c).after 3 t1_0 i = _
  rw [after1_3, out1_eq, iblk1_0, iblk1_1, iblk1_2]
  rfl

/-- An operand's array is as it was. -/
theorem arrAt1_in (c : Dev nD) (w : Fin cfg1.W) (hw : (cfg1.win w).isOut = false) :
    (dat1 W O B c).arrAt w cfg1.N = atTc W c (Pipeline.arrRef spec1 w) :=
  ((dat1 W O B c).arrAt_in w hw _).trans (A_eq1 W O B c w)

/-! ### The region -/

/-- The proof data family of call 1's rule, entered before SparseCore call n. -/
def fam1 (n : ℕ) : (p : Fin 3) → (c : Dev nD) → Dat τ (Elt F) (HIx 3) ℕ UU ℕ (Pipeline.pin (pcfgs (F := F)) adm p) c
  | ⟨0, _⟩ => fun c => dat1 W ((K (F := F)).Otc c n) (recB (F := F) c n) c
  | ⟨1, _⟩ => fun c => datNone cfg3 c
  | ⟨2, _⟩ => fun c => datNone cfg5 c

/-- The valuation after call 1. -/
def upd1 : Valuation τ sig (Elt F) := Function.update W (rf main_v21) (tc0 W)

theorem upd1_arr (c : Dev nD) (n : ℕ) : ∀ w : Fin cfg1.W,
    (fam1 W n 0 c).arrAt w cfg1.N = atTc (upd1 W) c (Pipeline.arrRef spec1 w)
  | ⟨0, _⟩ => (arrAt1_in W _ _ c 0 rfl).trans
      (Function.update_of_ne (StableHlo.devRef_ne_of_ne (by decide : main_arg0 ≠ main_v21)) _ _).symm
  | ⟨1, _⟩ => (arrAt1_in W _ _ c 1 rfl).trans
      (Function.update_of_ne (StableHlo.devRef_ne_of_ne (by decide : main_arg3 ≠ main_v21)) _ _).symm
  | ⟨2, _⟩ => (arrAt1_in W _ _ c 2 rfl).trans
      (Function.update_of_ne (StableHlo.devRef_ne_of_ne (by decide : main_v20 ≠ main_v21)) _ _).symm
  | ⟨3, _⟩ => (arrAt1_3 W _ _ c).trans (by
      show tcv1 W = Function.update W (rf main_v21) (tc0 W) (rf main_v21)
      rw [Function.update_self]; rfl)

theorem upd1_rest (c : Dev nD) : ∀ b, b ∉ Finset.univ.image (Pipeline.arrRef spec1) → atTc (upd1 W) c b = atTc W c b :=
  fun b hb => Function.update_of_ne (fun e => hb (Finset.mem_image.mpr ⟨3, Finset.mem_univ _, (Proc.devRef_injective _ e).symm⟩)) _ _

set_option backward.isDefEq.respectTransparency.types false in
/-- Call 1 as a region of the host program, entered before SparseCore call n from the arrays at W. -/
def reg1 (n : ℕ) : Pipeline.RegionSeg (pcfgs (F := F)) adm (fam1 W n) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 W _ _ c).loose
  hwaits c := Pipeline.cellsWaits_intro _ _ _ 0 c fun w s t => (K (F := F)).mayWait_none _ (Otc_none c n)
  pre c := iprop(StableHlo.held (c.tc : Thread nD τ) Sall W ∗ owesTc c n)
  post c := iprop(StableHlo.held (c.tc : Thread nD τ) Sall (upd1 W) ∗ owesTc c n)
  X c := BI.emp
  Y c := BI.emp
  Z c := Pipeline.unscopedRest (Ix := HIx 3) (Name := ℕ) (U := UU) (Lvl := ℕ) spec1 c (atTc W c)
  hentry c := by
    rw [Pipeline.ownSems0_none]
    have hsplit := Pipeline.arrays_of_unscopedBufs (p := 0) (pcfgs (F := F)) adm (fam1 W n) launch1.win launch1.arr_whole c
      ((fam1 W n 0 c).share_full fun _ => rfl) (atTc W c) fun _ => rfl
    rw [unscopedBufs_Sall] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owesTc c n (fam1 W n 0 c) 0 rfl rfl); iexact HO
    isplitr; · iempintro
    iexact Hrest
  hin c := by
    rw [show (fam1 W n 0 c).Φ 0 = Pipeline.scopedRest spec1 c from rfl]
    iintro ⟨-, -, Hr⟩
    iexact Hr
  hout c := by
    rw [Pipeline.ownSems0_none, show (fam1 W n 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 3) (Name := ℕ) (U := UU) (Lvl := ℕ)
      launch1.win launch1.arr_whole c (fam1 W n) ((fam1 W n 0 c).share_full fun _ => rfl)
      (atTc W c) (atTc (upd1 W) c) ((fam1 W n 0 c).arrAt · cfg1.N) (upd1_arr W c n) (upd1_rest W c)
    rw [unscopedBufs_Sall] at hjoin
    iintro ⟨Ha, HO, -, Hrest⟩
    imodintro
    isplitl [Ha Hrest]
    · iapply hjoin; isplitl [Ha] <;> iassumption
    iapply (owesTc_of_owesAt c n (fam1 W n 0 c) (Fin.last _) rfl rfl); iexact HO

theorem reg1_pre (n : ℕ) (c : Dev nD) : (reg1 W n).pre c = iprop(StableHlo.held (c.tc : Thread nD τ) Sall W ∗ owesTc c n) := rfl
theorem reg1_post (n : ℕ) (c : Dev nD) : (reg1 W n).post c = iprop(StableHlo.held (c.tc : Thread nD τ) Sall (upd1 W) ∗ owesTc c n) := rfl

/-! ### The rule -/

set_option backward.isDefEq.respectTransparency.types false in
/-- Call 1 in the TensorCore's proof of the host program, before SparseCore call n: from the handshake state, the
    region boundary, the program's arrays at V and the rounds of the call's staging cells, to the same with the
    result array at the body's value of the operands. -/
theorem region_0 {P : (K (F := F)).Pay (nD := nD) (Val := Elt F) (Name := ℕ) (U := UU)} (κ : GSem nD τ sig → ℕ) (d : Dev nD) (n : ℕ)
    (V : Valuation τ sig (Elt F)) {α : Type} (k : PUnit → Prog (TpuEff nD τ sig (Elt F) (SparseCore.Sig (ΛP (F := F)) 3) .tc) α) (Φ : α → sProp 𝕄) :
    iprop((K (F := F)).ctx EH P κ ∗ (K (F := F)).tcSt EH d n ∗ boundary (T d) ∗ StableHlo.held (T d) Sall V ∗ RG (F := F) 0 d
        ∗ (iprop((K (F := F)).tcSt EH d n ∗ boundary (T d) ∗ StableHlo.held (T d) Sall (Function.update V (rf main_v21) (tc0 V))) -∗
            wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  rw [wp_bind]
  unfold SparseCore.Cfg.tcSt
  iintro ⟨#Hctx, ⟨HO, Hst⟩, Hbd, Hh, ⟨Hg, Ht⟩, Hk⟩
  ihave Hlev := (SparseCore.Cfg.ctx_levAts κ) $$ Hctx
  iapply ((K (F := F)).wp_liftProg (D (F := F)) 𝒱 (T d) Set.univ none (.op (.customCall (Pipeline.entry 0) ()) fun x => .ret x) _)
  iapply (Pipeline.RegionSeg.wp (pcfgs (F := F)) adm (fam1 V n) none cellOf_inj EP defs₀ 𝒱₀ (K (F := F)).L (K (F := F)).lev (reg1 V n) d none
      (fun u hu => by cases hu) (fun x => .ret x) _)
  rw [reg1_pre, reg1_post]
  isplitl [Hk Hst]
  · iintro ⟨Hbd, ⟨Hh, HO⟩⟩
    rw [wp_ret]; imodintro
    iapply Hk
    isplitl [HO Hst]
    · isplitl [HO]; · iexact HO
      iexact Hst
    isplitl [Hbd]; · iexact Hbd
    iexact Hh
  isplitl [Hbd]; · iexact Hbd
  isplitl [Hh HO]
  · isplitl [Hh]; · iexact Hh
    iexact HO
  isplitr; · iexact Hlev
  isplitl [Hg]; · iexact Hg
  iexact Ht

end Call1

/-! ## custom_call 3 -/

section Call3

variable (W : Valuation τ sig (Elt F))

/-- Window w's block at the point, read off its array at the entry valuation. -/
def iblk3 (c : Dev nD) (w : Fin cfg3.W) (t : Fin cfg3.N) : ((cfg3.win w).xblock (cfg3.grid.coords t)).Idx → Elt F (cfg3.win w).elt :=
  ((cfg3.win w).blk t).view.read (Elt F) (atTc W c (Pipeline.arrRef spec3 w))

theorem before3_0_of {c : Dev nD} (dat : Dat τ (Elt F) (HIx 3) ℕ UU ℕ cfg3 c) (hA : dat.A 0 = atTc W c (Pipeline.arrRef spec3 0))
    (hafter : ∀ t, dat.after 0 t = iblk3 W c 0 t) (t : Fin cfg3.N) (d) : dat.before 0 t d = iblk3 W c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 3) ℕ UU ℕ cfg3 c) (hA : dat.A 1 = atTc W c (Pipeline.arrRef spec3 1))
    (hafter : ∀ t, dat.after 1 t = iblk3 W c 1 t) (t : Fin cfg3.N) (d) : dat.before 1 t d = iblk3 W c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 3) ℕ UU ℕ cfg3 c) (hA : dat.A 2 = atTc W c (Pipeline.arrRef spec3 2))
    (hafter : ∀ t, dat.after 2 t = iblk3 W c 2 t) (t : Fin cfg3.N) (d) : dat.before 2 t d = iblk3 W c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) (HIx 3) ℕ UU ℕ cfg3 c) (hA : dat.A 3 = atTc W c (Pipeline.arrRef spec3 3))
    (hafter : ∀ t, dat.after 3 t = iblk3 W c 3 t) (t : Fin cfg3.N) (d) : dat.before 3 t d = iblk3 W c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) (HIx 3) ℕ UU ℕ cfg3 c) (hA : dat.A 4 = atTc W c (Pipeline.arrRef spec3 4))
    (hafter : ∀ t, dat.after 4 t = iblk3 W c 4 t) (t : Fin cfg3.N) (d) : dat.before 4 t d = iblk3 W c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) (HIx 3) ℕ UU ℕ cfg3 c) (hA : dat.A 5 = atTc W c (Pipeline.arrRef spec3 5))
    (hafter : ∀ t, dat.after 5 t = iblk3 W c 5 t) (t : Fin cfg3.N) (d) : dat.before 5 t d = iblk3 W c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S64x10000 := Rect.unit (s := S64x10000) ![0, 0] S64x10000.size inb_S64x10000_S64x10000_0_0
abbrev r3_1 : Rect S64x10000 := Rect.unit (s := S64x10000) ![0, 0] S64x10000.size inb_S64x10000_S64x10000_0_0
abbrev r3_2 : Rect S64x10000 := Rect.unit (s := S64x10000) ![0, 0] S64x10000.size inb_S64x10000_S64x10000_0_0
abbrev r3_3 : Rect S10000x32 := Rect.unit (s := S10000x32) ![0, 0] S10000x32.size inb_S10000x32_S10000x32_0_0
abbrev r3_4 : Rect S64x1 := Rect.unit (s := S64x1) ![0, 0] S64x1.size inb_S64x1_S64x1_0_0
abbrev r3_5 : Rect S64x64 := Rect.unit (s := S64x64) ![0, 0] S64x64.size inb_S64x64_S64x64_0_0
abbrev r3_6 : Rect S64x10000 := Rect.unit (s := S64x10000) ![0, 0] S64x10000.size inb_S64x10000_S64x10000_0_0

/-- The result window's buffer after the body: its one store's payload of the loads. -/
def out3 (x0 : Vec F S64x10000 .f32) (x1 : Vec F S64x10000 .f32) (x2 : Vec F S64x10000 .f32) (x3 : Vec F S10000x32 .f32) (x4 : Vec F S64x1 .f32) (x5 : Vec F S64x64 .f32) : Vec F S64x10000 .f32 :=
  View.canon [⟨r3_6, k3_pay1 (View.ld x3 r3_3) (View.ld x0 r3_0) (View.ld x1 r3_1) (View.ld x2 r3_2) (View.ld x4 r3_4) (View.ld x5 r3_5)⟩]

theorem cover3 (p0 : Vec F S64x10000 .f32) (y : S64x10000.Idx) :
    ∃ pc ∈ ([⟨r3_6, p0⟩] : List (View.Piece (Elt F) S64x10000 .f32)), y ∈ pc.1.set :=
  ⟨_, List.mem_singleton_self _, View.mem_set_unit_zero (by funext a; fin_cases a <;> rfl) inb_S64x10000_S64x10000_0_0 y⟩

theorem out3_eq (x0 : Vec F S64x10000 .f32) (x1 : Vec F S64x10000 .f32) (x2 : Vec F S64x10000 .f32) (x3 : Vec F S10000x32 .f32) (x4 : Vec F S64x1 .f32) (x5 : Vec F S64x64 .f32) :
    out3 x0 x1 x2 x3 x4 x5 = k3_pay1 x3 x0 x1 x2 x4 x5 := by
  have h2 : ∀ a : Fin 2, (![0, 0] : Fin 2 → ℕ) a = 0 := fun a => by fin_cases a <;> rfl
  unfold out3
  rw [View.canon_unit_zero (funext h2), View.ld_unit_zero (funext h2), View.ld_unit_zero (funext h2), View.ld_unit_zero (funext h2), View.ld_unit_zero (funext h2), View.ld_unit_zero (funext h2), View.ld_unit_zero (funext h2)]

set_option maxHeartbeats 4000000 in
/-- The body on whole staging memrefs: the operands' as they were, the result's at the payload of the operands'. -/
theorem sound_kernel3 (c : Dev nD) (E : Set ℕ) (arg0 : Memref sig .tc .vmem S64x10000 .f32) (harg0 : arg0.IsWhole) (arg1 : Memref sig .tc .vmem S64x10000 .f32) (harg1 : arg1.IsWhole) (arg2 : Memref sig .tc .vmem S64x10000 .f32) (harg2 : arg2.IsWhole) (arg3 : Memref sig .tc .vmem S10000x32 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x10000 .f32) (harg6 : arg6.IsWhole)
    (x0 : Vec F S64x10000 .f32) (x1 : Vec F S64x10000 .f32) (x2 : Vec F S64x10000 .f32) (x3 : Vec F S10000x32 .f32) (x4 : Vec F S64x1 .f32) (x5 : Vec F S64x64 .f32) (Kk : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3 x0 x1 x2 x3 x4 x5)) -∗ Kk ⟨⟩))
      ⊢ wp frame (wpE (defs₀ (F := F)) Variants.none c none) E (cc3_body arg0 harg0 arg1 harg1 arg2 harg2 arg3 harg3 arg4 harg4 arg5 harg5 arg6 harg6) Kk := by
  simp only [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of call 3 on core c at the entry valuation W, the core owing O with its recorded pairs within B. -/
def dat3 (O : CellTallies nD τ sig (HIx 3)) (B : Set (SemLoc sig × HIx 3)) (c : Dev nD) : Dat τ (Elt F) (HIx 3) ℕ UU ℕ cfg3 c where
  A w := atTc W c (Pipeline.arrRef spec3 w)
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => iblk3 W c 4 t
    | ⟨5, _⟩ => iblk3 W c 5 t
    | ⟨6, _⟩ => out3 (iblk3 W c 0 t) (iblk3 W c 1 t) (iblk3 W c 2 t) (iblk3 W c 3 t) (iblk3 W c 4 t) (iblk3 W c 5 t)
  Φ _ := Pipeline.scopedRest spec3 c
  q _ := fullShare
  owed _ := O
  recorded _ := B

variable (O : CellTallies nD τ sig (HIx 3)) (B : Set (SemLoc sig × HIx 3))

theorem A_eq3 (c : Dev nD) (w : Fin cfg3.W) : (dat3 W O B c).A w = atTc W c (Pipeline.arrRef spec3 w) := by
  dsimp only [dat3]
theorem after3_0 (c : Dev nD) (t : Fin cfg3.N) : (dat3 W O B c).after 0 t = iblk3 W c 0 t := by dsimp only [dat3]
theorem after3_1 (c : Dev nD) (t : Fin cfg3.N) : (dat3 W O B c).after 1 t = iblk3 W c 1 t := by dsimp only [dat3]
theorem after3_2 (c : Dev nD) (t : Fin cfg3.N) : (dat3 W O B c).after 2 t = iblk3 W c 2 t := by dsimp only [dat3]
theorem after3_3 (c : Dev nD) (t : Fin cfg3.N) : (dat3 W O B c).after 3 t = iblk3 W c 3 t := by dsimp only [dat3]
theorem after3_4 (c : Dev nD) (t : Fin cfg3.N) : (dat3 W O B c).after 4 t = iblk3 W c 4 t := by dsimp only [dat3]
theorem after3_5 (c : Dev nD) (t : Fin cfg3.N) : (dat3 W O B c).after 5 t = iblk3 W c 5 t := by dsimp only [dat3]
theorem after3_6 (c : Dev nD) (t : Fin cfg3.N) :
    (dat3 W O B c).after 6 t = out3 (iblk3 W c 0 t) (iblk3 W c 1 t) (iblk3 W c 2 t) (iblk3 W c 3 t) (iblk3 W c 4 t) (iblk3 W c 5 t) := by dsimp only [dat3]
theorem before3_0 (c : Dev nD) (t : Fin cfg3.N) (d) : (dat3 W O B c).before 0 t d = iblk3 W c 0 t :=
  before3_0_of W (dat3 W O B c) (A_eq3 W O B c 0) (after3_0 W O B c) t d
theorem before3_1 (c : Dev nD) (t : Fin cfg3.N) (d) : (dat3 W O B c).before 1 t d = iblk3 W c 1 t :=
  before3_1_of W (dat3 W O B c) (A_eq3 W O B c 1) (after3_1 W O B c) t d
theorem before3_2 (c : Dev nD) (t : Fin cfg3.N) (d) : (dat3 W O B c).before 2 t d = iblk3 W c 2 t :=
  before3_2_of W (dat3 W O B c) (A_eq3 W O B c 2) (after3_2 W O B c) t d
theorem before3_3 (c : Dev nD) (t : Fin cfg3.N) (d) : (dat3 W O B c).before 3 t d = iblk3 W c 3 t :=
  before3_3_of W (dat3 W O B c) (A_eq3 W O B c 3) (after3_3 W O B c) t d
theorem before3_4 (c : Dev nD) (t : Fin cfg3.N) (d) : (dat3 W O B c).before 4 t d = iblk3 W c 4 t :=
  before3_4_of W (dat3 W O B c) (A_eq3 W O B c 4) (after3_4 W O B c) t d
theorem before3_5 (c : Dev nD) (t : Fin cfg3.N) (d) : (dat3 W O B c).before 5 t d = iblk3 W c 5 t :=
  before3_5_of W (dat3 W O B c) (A_eq3 W O B c 5) (after3_5 W O B c) t d

/-- What the body is called with at the point, the windows one by one, -/
def bodyPre3 (c : Dev nD) (t : Fin cfg3.N) : sProp 𝕄 :=
  iprop((dat3 W O B c).Φ t.castSucc ∗ (dat3 W O B c).owesAt none t.castSucc
    ∗ (∃ d, owns (c : Thread nD τ) (st3_0 t) fullShare ((dat3 W O B c).before 0 t d))
    ∗ (∃ d, owns (c : Thread nD τ) (st3_1 t) fullShare ((dat3 W O B c).before 1 t d))
    ∗ (∃ d, owns (c : Thread nD τ) (st3_2 t) fullShare ((dat3 W O B c).before 2 t d))
    ∗ (∃ d, owns (c : Thread nD τ) (st3_3 t) fullShare ((dat3 W O B c).before 3 t d))
    ∗ (∃ d, owns (c : Thread nD τ) (st3_4 t) fullShare ((dat3 W O B c).before 4 t d))
    ∗ (∃ d, owns (c : Thread nD τ) (st3_5 t) fullShare ((dat3 W O B c).before 5 t d))
    ∗ (∃ d, owns (c : Thread nD τ) (st3_6 t) fullShare ((dat3 W O B c).before 6 t d)))

/-- and what it returns. -/
def bodyPost3 (c : Dev nD) (t : Fin cfg3.N) : sProp 𝕄 :=
  iprop((dat3 W O B c).Φ t.succ ∗ (dat3 W O B c).owesAt none t.succ
    ∗ owns (c : Thread nD τ) (st3_0 t) fullShare ((dat3 W O B c).after 0 t)
    ∗ owns (c : Thread nD τ) (st3_1 t) fullShare ((dat3 W O B c).after 1 t)
    ∗ owns (c : Thread nD τ) (st3_2 t) fullShare ((dat3 W O B c).after 2 t)
    ∗ owns (c : Thread nD τ) (st3_3 t) fullShare ((dat3 W O B c).after 3 t)
    ∗ owns (c : Thread nD τ) (st3_4 t) fullShare ((dat3 W O B c).after 4 t)
    ∗ owns (c : Thread nD τ) (st3_5 t) fullShare ((dat3 W O B c).after 5 t)
    ∗ owns (c : Thread nD τ) (st3_6 t) fullShare ((dat3 W O B c).after 6 t))

theorem sound_body3 (c : Dev nD) (t : Fin cfg3.N) :
    bodyPre3 W O B c t ⊢ wp frame (wpE (defs₀ (F := F)) Variants.none c none) Set.univ (bodyAt3 t) (fun _ => bodyPost3 W O B c t) := by
  unfold bodyPre3 bodyPost3 bodyAt3
  simp only [before3_0, before3_1, before3_2, before3_3, before3_4, before3_5]
  rw [show (dat3 W O B c).Φ t.succ = (dat3 W O B c).Φ t.castSucc from rfl,
    show (dat3 W O B c).owesAt none t.succ = (dat3 W O B c).owesAt none t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ (iblk3 W c 0 t) (iblk3 W c 1 t) (iblk3 W c 2 t) (iblk3 W c 3 t) (iblk3 W c 4 t) (iblk3 W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of call 3, at its one point. -/
theorem body_obligation3 (c : Dev nD) : BodyObligation (dat3 (F := F) W O B c) (defs₀ (F := F)) Variants.none none Set.univ := fun t => by
  rw [bigSep_W3, bigSep_W3]
  exact sound_body3 W O B c t

/-! ### The result array after the call -/

theorem emb3_0 (t : Fin cfg3.N) (y : ((cfg3.win 0).xblock (cfg3.grid.coords t)).Idx) : ((cfg3.win 0).blk t).view.emb y = y := by
  funext a; exact Fin.ext ((cfg3.win 0).rect_emb_val_of_index_zero t a rfl y)
theorem emb3_1 (t : Fin cfg3.N) (y : ((cfg3.win 1).xblock (cfg3.grid.coords t)).Idx) : ((cfg3.win 1).blk t).view.emb y = y := by
  funext a; exact Fin.ext ((cfg3.win 1).rect_emb_val_of_index_zero t a rfl y)
theorem emb3_2 (t : Fin cfg3.N) (y : ((cfg3.win 2).xblock (cfg3.grid.coords t)).Idx) : ((cfg3.win 2).blk t).view.emb y = y := by
  funext a; exact Fin.ext ((cfg3.win 2).rect_emb_val_of_index_zero t a rfl y)
theorem emb3_3 (t : Fin cfg3.N) (y : ((cfg3.win 3).xblock (cfg3.grid.coords t)).Idx) : ((cfg3.win 3).blk t).view.emb y = y := by
  funext a; exact Fin.ext ((cfg3.win 3).rect_emb_val_of_index_zero t a rfl y)
theorem emb3_4 (t : Fin cfg3.N) (y : ((cfg3.win 4).xblock (cfg3.grid.coords t)).Idx) : ((cfg3.win 4).blk t).view.emb y = y := by
  funext a; exact Fin.ext ((cfg3.win 4).rect_emb_val_of_index_zero t a rfl y)
theorem emb3_5 (t : Fin cfg3.N) (y : ((cfg3.win 5).xblock (cfg3.grid.coords t)).Idx) : ((cfg3.win 5).blk t).view.emb y = y := by
  funext a; exact Fin.ext ((cfg3.win 5).rect_emb_val_of_index_zero t a rfl y)
theorem emb3_6 (t : Fin cfg3.N) (y : ((cfg3.win 6).xblock (cfg3.grid.coords t)).Idx) : ((cfg3.win 6).blk t).view.emb y = y := by
  funext a; exact Fin.ext ((cfg3.win 6).rect_emb_val_of_index_zero t a rfl y)

/-- An operand's block is its whole array. -/
theorem iblk3_0 (c : Dev nD) (t : Fin cfg3.N) : iblk3 W c 0 t = (W (rf main_v30) : Vec F S64x10000 .f32) := by
  funext y; unfold iblk3; rw [View.read_apply, emb3_0]; rfl
theorem iblk3_1 (c : Dev nD) (t : Fin cfg3.N) : iblk3 W c 1 t = (W (rf main_v34) : Vec F S64x10000 .f32) := by
  funext y; unfold iblk3; rw [View.read_apply, emb3_1]; rfl
theorem iblk3_2 (c : Dev nD) (t : Fin cfg3.N) : iblk3 W c 2 t = (W (rf main_v21) : Vec F S64x10000 .f32) := by
  funext y; unfold iblk3; rw [View.read_apply, emb3_2]; rfl
theorem iblk3_3 (c : Dev nD) (t : Fin cfg3.N) : iblk3 W c 3 t = (W (rf main_v20) : Vec F S10000x32 .f32) := by
  funext y; unfold iblk3; rw [View.read_apply, emb3_3]; rfl
theorem iblk3_4 (c : Dev nD) (t : Fin cfg3.N) : iblk3 W c 4 t = (W (rf main_v15) : Vec F S64x1 .f32) := by
  funext y; unfold iblk3; rw [View.read_apply, emb3_4]; rfl
theorem iblk3_5 (c : Dev nD) (t : Fin cfg3.N) : iblk3 W c 5 t = (W (rf main_arg5) : Vec F S64x64 .f32) := by
  funext y; unfold iblk3; rw [View.read_apply, emb3_5]; rfl

/-- The result array after the write-back: the payload. -/
theorem arrAt3_6 (c : Dev nD) : (dat3 W O B c).arrAt 6 cfg3.N = tc1 W := by
  have hN : cfg3.N = t3_0.val + 1 := N_3
  rw [hN, Dat.arrAt_succ, if_pos (flush3_6 t3_0)]
  funext i
  have h := View.write_emb_of_mem (Val := Elt F) (v := ((cfg3.win 6).blk t3_0).view) ((dat3 W O B c).arrAt 6 t3_0.val) ((dat3 W O B c).flushed 6 t3_0) (Finset.mem_univ i)
  rw [emb3_6] at h
  refine h.trans ?_
  show (dat3 W O B c).after 6 t3_0 i = _
  rw [after3_6, out3_eq, iblk3_0, iblk3_1, iblk3_2, iblk3_3, iblk3_4, iblk3_5]
  rfl

/-- An operand's array is as it was. -/
theorem arrAt3_in (c : Dev nD) (w : Fin cfg3.W) (hw : (cfg3.win w).isOut = false) :
    (dat3 W O B c).arrAt w cfg3.N = atTc W c (Pipeline.arrRef spec3 w) :=
  ((dat3 W O B c).arrAt_in w hw _).trans (A_eq3 W O B c w)

/-! ### The region -/

/-- The proof data family of call 3's rule, entered before SparseCore call n. -/
def fam3 (n : ℕ) : (p : Fin 3) → (c : Dev nD) → Dat τ (Elt F) (HIx 3) ℕ UU ℕ (Pipeline.pin (pcfgs (F := F)) adm p) c
  | ⟨0, _⟩ => fun c => datNone cfg1 c
  | ⟨1, _⟩ => fun c => dat3 W ((K (F := F)).Otc c n) (recB (F := F) c n) c
  | ⟨2, _⟩ => fun c => datNone cfg5 c

/-- The valuation after call 3. -/
def upd3 : Valuation τ sig (Elt F) := Function.update W (rf main_v35) (tc1 W)

theorem upd3_arr (c : Dev nD) (n : ℕ) : ∀ w : Fin cfg3.W,
    (fam3 W n 1 c).arrAt w cfg3.N = atTc (upd3 W) c (Pipeline.arrRef spec3 w)
  | ⟨0, _⟩ => (arrAt3_in W _ _ c 0 rfl).trans
      (Function.update_of_ne (StableHlo.devRef_ne_of_ne (by decide : main_v30 ≠ main_v35)) _ _).symm
  | ⟨1, _⟩ => (arrAt3_in W _ _ c 1 rfl).trans
      (Function.update_of_ne (StableHlo.devRef_ne_of_ne (by decide : main_v34 ≠ main_v35)) _ _).symm
  | ⟨2, _⟩ => (arrAt3_in W _ _ c 2 rfl).trans
      (Function.update_of_ne (StableHlo.devRef_ne_of_ne (by decide : main_v21 ≠ main_v35)) _ _).symm
  | ⟨3, _⟩ => (arrAt3_in W _ _ c 3 rfl).trans
      (Function.update_of_ne (StableHlo.devRef_ne_of_ne (by decide : main_v20 ≠ main_v35)) _ _).symm
  | ⟨4, _⟩ => (arrAt3_in W _ _ c 4 rfl).trans
      (Function.update_of_ne (StableHlo.devRef_ne_of_ne (by decide : main_v15 ≠ main_v35)) _ _).symm
  | ⟨5, _⟩ => (arrAt3_in W _ _ c 5 rfl).trans
      (Function.update_of_ne (StableHlo.devRef_ne_of_ne (by decide : main_arg5 ≠ main_v35)) _ _).symm
  | ⟨6, _⟩ => (arrAt3_6 W _ _ c).trans (by
      show tc1 W = Function.update W (rf main_v35) (tc1 W) (rf main_v35)
      rw [Function.update_self])

theorem upd3_rest (c : Dev nD) : ∀ b, b ∉ Finset.univ.image (Pipeline.arrRef spec3) → atTc (upd3 W) c b = atTc W c b :=
  fun b hb => Function.update_of_ne (fun e => hb (Finset.mem_image.mpr ⟨6, Finset.mem_univ _, (Proc.devRef_injective _ e).symm⟩)) _ _

set_option backward.isDefEq.respectTransparency.types false in
/-- Call 3 as a region of the host program, entered before SparseCore call n from the arrays at W. -/
def reg3 (n : ℕ) : Pipeline.RegionSeg (pcfgs (F := F)) adm (fam3 W n) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 W _ _ c).loose
  hwaits c := Pipeline.cellsWaits_intro _ _ _ 1 c fun w s t => (K (F := F)).mayWait_none _ (Otc_none c n)
  pre c := iprop(StableHlo.held (c.tc : Thread nD τ) Sall W ∗ owesTc c n)
  post c := iprop(StableHlo.held (c.tc : Thread nD τ) Sall (upd3 W) ∗ owesTc c n)
  X c := BI.emp
  Y c := BI.emp
  Z c := Pipeline.unscopedRest (Ix := HIx 3) (Name := ℕ) (U := UU) (Lvl := ℕ) spec3 c (atTc W c)
  hentry c := by
    rw [Pipeline.ownSems0_none]
    have hsplit := Pipeline.arrays_of_unscopedBufs (p := 1) (pcfgs (F := F)) adm (fam3 W n) launch3.win launch3.arr_whole c
      ((fam3 W n 1 c).share_full fun _ => rfl) (atTc W c) fun _ => rfl
    rw [unscopedBufs_Sall] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owesTc c n (fam3 W n 1 c) 0 rfl rfl); iexact HO
    isplitr; · iempintro
    iexact Hrest
  hin c := by
    rw [show (fam3 W n 1 c).Φ 0 = Pipeline.scopedRest spec3 c from rfl]
    iintro ⟨-, -, Hr⟩
    iexact Hr
  hout c := by
    rw [Pipeline.ownSems0_none, show (fam3 W n 1 c).Φ (Fin.last _) = Pipeline.scopedRest spec3 c from rfl]
    iintro Hr
    isplitr; · iempintro
    isplitr; · iempintro
    iexact Hr
  hexit c := by
    have hjoin := Pipeline.unscopedBufs_of_arrays (p := 1) (pcfgs (F := F)) adm (Ix := HIx 3) (Name := ℕ) (U := UU) (Lvl := ℕ)
      launch3.win launch3.arr_whole c (fam3 W n) ((fam3 W n 1 c).share_full fun _ => rfl)
      (atTc W c) (atTc (upd3 W) c) ((fam3 W n 1 c).arrAt · cfg3.N) (upd3_arr W c n) (upd3_rest W c)
    rw [unscopedBufs_Sall] at hjoin
    iintro ⟨Ha, HO, -, Hrest⟩
    imodintro
    isplitl [Ha Hrest]
    · iapply hjoin; isplitl [Ha] <;> iassumption
    iapply (owesTc_of_owesAt c n (fam3 W n 1 c) (Fin.last _) rfl rfl); iexact HO

theorem reg3_pre (n : ℕ) (c : Dev nD) : (reg3 W n).pre c = iprop(StableHlo.held (c.tc : Thread nD τ) Sall W ∗ owesTc c n) := rfl
theorem reg3_post (n : ℕ) (c : Dev nD) : (reg3 W n).post c = iprop(StableHlo.held (c.tc : Thread nD τ) Sall (upd3 W) ∗ owesTc c n) := rfl

/-! ### The rule -/

set_option backward.isDefEq.respectTransparency.types false in
/-- Call 3 in the TensorCore's proof of the host program, before SparseCore call n: from the handshake state, the
    region boundary, the program's arrays at V and the rounds of the call's staging cells, to the same with the
    result array at the body's value of the operands. -/
theorem region_1 {P : (K (F := F)).Pay (nD := nD) (Val := Elt F) (Name := ℕ) (U := UU)} (κ : GSem nD τ sig → ℕ) (d : Dev nD) (n : ℕ)
    (V : Valuation τ sig (Elt F)) {α : Type} (k : PUnit → Prog (TpuEff nD τ sig (Elt F) (SparseCore.Sig (ΛP (F := F)) 3) .tc) α) (Φ : α → sProp 𝕄) :
    iprop((K (F := F)).ctx EH P κ ∗ (K (F := F)).tcSt EH d n ∗ boundary (T d) ∗ StableHlo.held (T d) Sall V ∗ RG (F := F) 1 d
        ∗ (iprop((K (F := F)).tcSt EH d n ∗ boundary (T d) ∗ StableHlo.held (T d) Sall (Function.update V (rf main_v35) (tc1 V))) -∗
            wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 1)) ()) >>= k) Φ := by
  rw [wp_bind]
  unfold SparseCore.Cfg.tcSt
  iintro ⟨#Hctx, ⟨HO, Hst⟩, Hbd, Hh, ⟨Hg, Ht⟩, Hk⟩
  ihave Hlev := (SparseCore.Cfg.ctx_levAts κ) $$ Hctx
  iapply ((K (F := F)).wp_liftProg (D (F := F)) 𝒱 (T d) Set.univ none (.op (.customCall (Pipeline.entry 1) ()) fun x => .ret x) _)
  iapply (Pipeline.RegionSeg.wp (pcfgs (F := F)) adm (fam3 V n) none cellOf_inj EP defs₀ 𝒱₀ (K (F := F)).L (K (F := F)).lev (reg3 V n) d none
      (fun u hu => by cases hu) (fun x => .ret x) _)
  rw [reg3_pre, reg3_post]
  isplitl [Hk Hst]
  · iintro ⟨Hbd, ⟨Hh, HO⟩⟩
    rw [wp_ret]; imodintro
    iapply Hk
    isplitl [HO Hst]
    · isplitl [HO]; · iexact HO
      iexact Hst
    isplitl [Hbd]; · iexact Hbd
    iexact Hh
  isplitl [Hbd]; · iexact Hbd
  isplitl [Hh HO]
  · isplitl [Hh]; · iexact Hh
    iexact HO
  isplitr; · iexact Hlev
  isplitl [Hg]; · iexact Hg
  iexact Ht

end Call3

/-! ## custom_call 5 -/

section Call5

variable (W : Valuation τ sig (Elt F))

/-- Window w's block at the point, read off its array at the entry valuation. -/
def iblk5 (c : Dev nD) (w : Fin cfg5.W) (t : Fin cfg5.N) : ((cfg5.win w).xblock (cfg5.grid.coords t)).Idx → Elt F (cfg5.win w).elt :=
  ((cfg5.win w).blk t).view.read (Elt F) (atTc W c (Pipeline.arrRef spec5 w))

theorem before5_0_of {c : Dev nD} (dat : Dat τ (Elt F) (HIx 3) ℕ UU ℕ cfg5 c) (hA : dat.A 0 = atTc W c (Pipeline.arrRef spec5 0))
    (hafter : ∀ t, dat.after 0 t = iblk5 W c 0 t) (t : Fin cfg5.N) (d) : dat.before 0 t d = iblk5 W c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) (HIx 3) ℕ UU ℕ cfg5 c) (hA : dat.A 1 = atTc W c (Pipeline.arrRef spec5 1))
    (hafter : ∀ t, dat.after 1 t = iblk5 W c 1 t) (t : Fin cfg5.N) (d) : dat.before 1 t d = iblk5 W c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) (HIx 3) ℕ UU ℕ cfg5 c) (hA : dat.A 2 = atTc W c (Pipeline.arrRef spec5 2))
    (hafter : ∀ t, dat.after 2 t = iblk5 W c 2 t) (t : Fin cfg5.N) (d) : dat.before 2 t d = iblk5 W c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) (HIx 3) ℕ UU ℕ cfg5 c) (hA : dat.A 3 = atTc W c (Pipeline.arrRef spec5 3))
    (hafter : ∀ t, dat.after 3 t = iblk5 W c 3 t) (t : Fin cfg5.N) (d) : dat.before 3 t d = iblk5 W c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) (HIx 3) ℕ UU ℕ cfg5 c) (hA : dat.A 4 = atTc W c (Pipeline.arrRef spec5 4))
    (hafter : ∀ t, dat.after 4 t = iblk5 W c 4 t) (t : Fin cfg5.N) (d) : dat.before 4 t d = iblk5 W c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) (HIx 3) ℕ UU ℕ cfg5 c) (hA : dat.A 5 = atTc W c (Pipeline.arrRef spec5 5))
    (hafter : ∀ t, dat.after 5 t = iblk5 W c 5 t) (t : Fin cfg5.N) (d) : dat.before 5 t d = iblk5 W c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) (HIx 3) ℕ UU ℕ cfg5 c) (hA : dat.A 6 = atTc W c (Pipeline.arrRef spec5 6))
    (hafter : ∀ t, dat.after 6 t = iblk5 W c 6 t) (t : Fin cfg5.N) (d) : dat.before 6 t d = iblk5 W c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) (HIx 3) ℕ UU ℕ cfg5 c) (hA : dat.A 7 = atTc W c (Pipeline.arrRef spec5 7))
    (hafter : ∀ t, dat.after 7 t = iblk5 W c 7 t) (t : Fin cfg5.N) (d) : dat.before 7 t d = iblk5 W c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S64x10000 := Rect.unit (s := S64x10000) ![0, 0] S64x10000.size inb_S64x10000_S64x10000_0_0
abbrev r5_1 : Rect S64x10000 := Rect.unit (s := S64x10000) ![0, 0] S64x10000.size inb_S64x10000_S64x10000_0_0
abbrev r5_2 : Rect S64x10000 := Rect.unit (s := S64x10000) ![0, 0] S64x10000.size inb_S64x10000_S64x10000_0_0
abbrev r5_3 : Rect S10000x32 := Rect.unit (s := S10000x32) ![0, 0] S10000x32.size inb_S10000x32_S10000x32_0_0
abbrev r5_4 : Rect S64x1 := Rect.unit (s := S64x1) ![0, 0] S64x1.size inb_S64x1_S64x1_0_0
abbrev r5_5 : Rect S1x10000 := Rect.unit (s := S1x10000) ![0, 0] S1x10000.size inb_S1x10000_S1x10000_0_0
abbrev r5_6 : Rect S64x1 := Rect.unit (s := S64x1) ![0, 0] S64x1.size inb_S64x1_S64x1_0_0
abbrev r5_7 : Rect S1x1 := Rect.unit (s := S1x1) ![0, 0] S1x1.size inb_S1x1_S1x1_0_0
abbrev r5_8 : Rect S64x1 := Rect.unit (s := S64x1) ![0, 0] S64x1.size inb_S64x1_S64x1_0_0

/-- The result window's buffer after the body: its one store's payload of the loads. -/
def out5 (x0 : Vec F S64x10000 .f32) (x1 : Vec F S64x10000 .f32) (x2 : Vec F S64x10000 .f32) (x3 : Vec F S10000x32 .f32) (x4 : Vec F S64x1 .f32) (x5 : Vec F S1x10000 .i32) (x6 : Vec F S64x1 .f32) (x7 : Vec F S1x1 .f32) : Vec F S64x1 .f32 :=
  View.canon [⟨r5_8, k5_pay1 (k5_pay2 (View.ld x3 r5_3) (View.ld x0 r5_0) (View.ld x1 r5_1) (View.ld x2 r5_2) (View.ld x4 r5_4) (View.ld x5 r5_5) (View.ld x6 r5_6)) (View.ld x7 r5_7)⟩]

theorem cover5 (p0 : Vec F S64x1 .f32) (y : S64x1.Idx) :
    ∃ pc ∈ ([⟨r5_8, p0⟩] : List (View.Piece (Elt F) S64x1 .f32)), y ∈ pc.1.set :=
  ⟨_, List.mem_singleton_self _, View.mem_set_unit_zero (by funext a; fin_cases a <;> rfl) inb_S64x1_S64x1_0_0 y⟩

theorem out5_eq (x0 : Vec F S64x10000 .f32) (x1 : Vec F S64x10000 .f32) (x2 : Vec F S64x10000 .f32) (x3 : Vec F S10000x32 .f32) (x4 : Vec F S64x1 .f32) (x5 : Vec F S1x10000 .i32) (x6 : Vec F S64x1 .f32) (x7 : Vec F S1x1 .f32) :
    out5 x0 x1 x2 x3 x4 x5 x6 x7 = k5_pay1 (k5_pay2 x3 x0 x1 x2 x4 x5 x6) x7 := by
  have h2 : ∀ a : Fin 2, (![0, 0] : Fin 2 → ℕ) a = 0 := fun a => by fin_cases a <;> rfl
  unfold out5
  rw [View.canon_unit_zero (funext h2), View.ld_unit_zero (funext h2), View.ld_unit_zero (funext h2), View.ld_unit_zero (funext h2), View.ld_unit_zero (funext h2), View.ld_unit_zero (funext h2), View.ld_unit_zero (funext h2), View.ld_unit_zero (funext h2), View.ld_unit_zero (funext h2)]

set_option maxHeartbeats 4000000 in
/-- The body on whole staging memrefs: the operands' as they were, the result's at the payload of the operands'. -/
theorem sound_kernel5 (c : Dev nD) (E : Set ℕ) (arg0 : Memref sig .tc .vmem S64x10000 .f32) (harg0 : arg0.IsWhole) (arg1 : Memref sig .tc .vmem S64x10000 .f32) (harg1 : arg1.IsWhole) (arg2 : Memref sig .tc .vmem S64x10000 .f32) (harg2 : arg2.IsWhole) (arg3 : Memref sig .tc .vmem S10000x32 .f32) (harg3 : arg3.IsWhole) (arg4 : Memref sig .tc .vmem S64x1 .f32) (harg4 : arg4.IsWhole) (arg5 : Memref sig .tc .vmem S1x10000 .i32) (harg5 : arg5.IsWhole) (arg6 : Memref sig .tc .vmem S64x1 .f32) (harg6 : arg6.IsWhole) (arg7 : Memref sig .tc .vmem S1x1 .f32) (harg7 : arg7.IsWhole) (arg8 : Memref sig .tc .vmem S64x1 .f32) (harg8 : arg8.IsWhole)
    (x0 : Vec F S64x10000 .f32) (x1 : Vec F S64x10000 .f32) (x2 : Vec F S64x10000 .f32) (x3 : Vec F S10000x32 .f32) (x4 : Vec F S64x1 .f32) (x5 : Vec F S1x10000 .i32) (x6 : Vec F S64x1 .f32) (x7 : Vec F S1x1 .f32) (Kk : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out5 x0 x1 x2 x3 x4 x5 x6 x7)) -∗ Kk ⟨⟩))
      ⊢ wp frame (wpE (defs₀ (F := F)) Variants.none c none) E (cc5_body arg0 harg0 arg1 harg1 arg2 harg2 arg3 harg3 arg4 harg4 arg5 harg5 arg6 harg6 arg7 harg7 arg8 harg8) Kk := by
  simp only [cc5_body_eq_skeleton]; unfold cc5_body_skel; simp only [k5_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover5 _)

/-- The proof data of call 5 on core c at the entry valuation W, the core owing O with its recorded pairs within B. -/
def dat5 (O : CellTallies nD τ sig (HIx 3)) (B : Set (SemLoc sig × HIx 3)) (c : Dev nD) : Dat τ (Elt F) (HIx 3) ℕ UU ℕ cfg5 c where
  A w := atTc W c (Pipeline.arrRef spec5 w)
  after w t := match w with
    | ⟨0, _⟩ => iblk5 W c 0 t
    | ⟨1, _⟩ => iblk5 W c 1 t
    | ⟨2, _⟩ => iblk5 W c 2 t
    | ⟨3, _⟩ => iblk5 W c 3 t
    | ⟨4, _⟩ => iblk5 W c 4 t
    | ⟨5, _⟩ => iblk5 W c 5 t
    | ⟨6, _⟩ => iblk5 W c 6 t
    | ⟨7, _⟩ => iblk5 W c 7 t
    | ⟨8, _⟩ => out5 (iblk5 W c 0 t) (iblk5 W c 1 t) (iblk5 W c 2 t) (iblk5 W c 3 t) (iblk5 W c 4 t) (iblk5 W c 5 t) (iblk5 W c 6 t) (iblk5 W c 7 t)
  Φ _ := Pipeline.scopedRest spec5 c
  q _ := fullShare
  owed _ := O
  recorded _ := B

variable (O : CellTallies nD τ sig (HIx 3)) (B : Set (SemLoc sig × HIx 3))

theorem A_eq5 (c : Dev nD) (w : Fin cfg5.W) : (dat5 W O B c).A w = atTc W c (Pipeline.arrRef spec5 w) := by
  dsimp only [dat5]
theorem after5_0 (c : Dev nD) (t : Fin cfg5.N) : (dat5 W O B c).after 0 t = iblk5 W c 0 t := by dsimp only [dat5]
theorem after5_1 (c : Dev nD) (t : Fin cfg5.N) : (dat5 W O B c).after 1 t = iblk5 W c 1 t := by dsimp only [dat5]
theorem after5_2 (c : Dev nD) (t : Fin cfg5.N) : (dat5 W O B c).after 2 t = iblk5 W c 2 t := by dsimp only [dat5]
theorem after5_3 (c : Dev nD) (t : Fin cfg5.N) : (dat5 W O B c).after 3 t = iblk5 W c 3 t := by dsimp only [dat5]
theorem after5_4 (c : Dev nD) (t : Fin cfg5.N) : (dat5 W O B c).after 4 t = iblk5 W c 4 t := by dsimp only [dat5]
theorem after5_5 (c : Dev nD) (t : Fin cfg5.N) : (dat5 W O B c).after 5 t = iblk5 W c 5 t := by dsimp only [dat5]
theorem after5_6 (c : Dev nD) (t : Fin cfg5.N) : (dat5 W O B c).after 6 t = iblk5 W c 6 t := by dsimp only [dat5]
theorem after5_7 (c : Dev nD) (t : Fin cfg5.N) : (dat5 W O B c).after 7 t = iblk5 W c 7 t := by dsimp only [dat5]
theorem after5_8 (c : Dev nD) (t : Fin cfg5.N) :
    (dat5 W O B c).after 8 t = out5 (iblk5 W c 0 t) (iblk5 W c 1 t) (iblk5 W c 2 t) (iblk5 W c 3 t) (iblk5 W c 4 t) (iblk5 W c 5 t) (iblk5 W c 6 t) (iblk5 W c 7 t) := by dsimp only [dat5]
theorem before5_0 (c : Dev nD) (t : Fin cfg5.N) (d) : (dat5 W O B c).before 0 t d = iblk5 W c 0 t :=
  before5_0_of W (dat5 W O B c) (A_eq5 W O B c 0) (after5_0 W O B c) t d
theorem before5_1 (c : Dev nD) (t : Fin cfg5.N) (d) : (dat5 W O B c).before 1 t d = iblk5 W c 1 t :=
  before5_1_of W (dat5 W O B c) (A_eq5 W O B c 1) (after5_1 W O B c) t d
theorem before5_2 (c : Dev nD) (t : Fin cfg5.N) (d) : (dat5 W O B c).before 2 t d = iblk5 W c 2 t :=
  before5_2_of W (dat5 W O B c) (A_eq5 W O B c 2) (after5_2 W O B c) t d
theorem before5_3 (c : Dev nD) (t : Fin cfg5.N) (d) : (dat5 W O B c).before 3 t d = iblk5 W c 3 t :=
  before5_3_of W (dat5 W O B c) (A_eq5 W O B c 3) (after5_3 W O B c) t d
theorem before5_4 (c : Dev nD) (t : Fin cfg5.N) (d) : (dat5 W O B c).before 4 t d = iblk5 W c 4 t :=
  before5_4_of W (dat5 W O B c) (A_eq5 W O B c 4) (after5_4 W O B c) t d
theorem before5_5 (c : Dev nD) (t : Fin cfg5.N) (d) : (dat5 W O B c).before 5 t d = iblk5 W c 5 t :=
  before5_5_of W (dat5 W O B c) (A_eq5 W O B c 5) (after5_5 W O B c) t d
theorem before5_6 (c : Dev nD) (t : Fin cfg5.N) (d) : (dat5 W O B c).before 6 t d = iblk5 W c 6 t :=
  before5_6_of W (dat5 W O B c) (A_eq5 W O B c 6) (after5_6 W O B c) t d
theorem before5_7 (c : Dev nD) (t : Fin cfg5.N) (d) : (dat5 W O B c).before 7 t d = iblk5 W c 7 t :=
  before5_7_of W (dat5 W O B c) (A_eq5 W O B c 7) (after5_7 W O B c) t d

/-- What the body is called with at the point, the windows one by one, -/
def bodyPre5 (c : Dev nD) (t : Fin cfg5.N) : sProp 𝕄 :=
  iprop((dat5 W O B c).Φ t.castSucc ∗ (dat5 W O B c).owesAt none t.castSucc
    ∗ (∃ d, owns (c : Thread nD τ) (st5_0 t) fullShare ((dat5 W O B c).before 0 t d))
    ∗ (∃ d, owns (c : Thread nD τ) (st5_1 t) fullShare ((dat5 W O B c).before 1 t d))
    ∗ (∃ d, owns (c : Thread nD τ) (st5_2 t) fullShare ((dat5 W O B c).before 2 t d))
    ∗ (∃ d, owns (c : Thread nD τ) (st5_3 t) fullShare ((dat5 W O B c).before 3 t d))
    ∗ (∃ d, owns (c : Thread nD τ) (st5_4 t) fullShare ((dat5 W O B c).before 4 t d))
    ∗ (∃ d, owns (c : Thread nD τ) (st5_5 t) fullShare ((dat5 W O B c).before 5 t d))
    ∗ (∃ d, owns (c : Thread nD τ) (st5_6 t) fullShare ((dat5 W O B c).before 6 t d))
    ∗ (∃ d, owns (c : Thread nD τ) (st5_7 t) fullShare ((dat5 W O B c).before 7 t d))
    ∗ (∃ d, owns (c : Thread nD τ) (st5_8 t) fullShare ((dat5 W O B c).before 8 t d)))

/-- and what it returns. -/
def bodyPost5 (c : Dev nD) (t : Fin cfg5.N) : sProp 𝕄 :=
  iprop((dat5 W O B c).Φ t.succ ∗ (dat5 W O B c).owesAt none t.succ
    ∗ owns (c : Thread nD τ) (st5_0 t) fullShare ((dat5 W O B c).after 0 t)
    ∗ owns (c : Thread nD τ) (st5_1 t) fullShare ((dat5 W O B c).after 1 t)
    ∗ owns (c : Thread nD τ) (st5_2 t) fullShare ((dat5 W O B c).after 2 t)
    ∗ owns (c : Thread nD τ) (st5_3 t) fullShare ((dat5 W O B c).after 3 t)
    ∗ owns (c : Thread nD τ) (st5_4 t) fullShare ((dat5 W O B c).after 4 t)
    ∗ owns (c : Thread nD τ) (st5_5 t) fullShare ((dat5 W O B c).after 5 t)
    ∗ owns (c : Thread nD τ) (st5_6 t) fullShare ((dat5 W O B c).after 6 t)
    ∗ owns (c : Thread nD τ) (st5_7 t) fullShare ((dat5 W O B c).after 7 t)
    ∗ owns (c : Thread nD τ) (st5_8 t) fullShare ((dat5 W O B c).after 8 t))

theorem sound_body5 (c : Dev nD) (t : Fin cfg5.N) :
    bodyPre5 W O B c t ⊢ wp frame (wpE (defs₀ (F := F)) Variants.none c none) Set.univ (bodyAt5 t) (fun _ => bodyPost5 W O B c t) := by
  unfold bodyPre5 bodyPost5 bodyAt5
  simp only [before5_0, before5_1, before5_2, before5_3, before5_4, before5_5, before5_6, before5_7]
  rw [show (dat5 W O B c).Φ t.succ = (dat5 W O B c).Φ t.castSucc from rfl,
    show (dat5 W O B c).owesAt none t.succ = (dat5 W O B c).owesAt none t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ (iblk5 W c 0 t) (iblk5 W c 1 t) (iblk5 W c 2 t) (iblk5 W c 3 t) (iblk5 W c 4 t) (iblk5 W c 5 t) (iblk5 W c 6 t) (iblk5 W c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of call 5, at its one point. -/
theorem body_obligation5 (c : Dev nD) : BodyObligation (dat5 (F := F) W O B c) (defs₀ (F := F)) Variants.none none Set.univ := fun t => by
  rw [bigSep_W5, bigSep_W5]
  exact sound_body5 W O B c t

/-! ### The result array after the call -/

theorem emb5_0 (t : Fin cfg5.N) (y : ((cfg5.win 0).xblock (cfg5.grid.coords t)).Idx) : ((cfg5.win 0).blk t).view.emb y = y := by
  funext a; exact Fin.ext ((cfg5.win 0).rect_emb_val_of_index_zero t a rfl y)
theorem emb5_1 (t : Fin cfg5.N) (y : ((cfg5.win 1).xblock (cfg5.grid.coords t)).Idx) : ((cfg5.win 1).blk t).view.emb y = y := by
  funext a; exact Fin.ext ((cfg5.win 1).rect_emb_val_of_index_zero t a rfl y)
theorem emb5_2 (t : Fin cfg5.N) (y : ((cfg5.win 2).xblock (cfg5.grid.coords t)).Idx) : ((cfg5.win 2).blk t).view.emb y = y := by
  funext a; exact Fin.ext ((cfg5.win 2).rect_emb_val_of_index_zero t a rfl y)
theorem emb5_3 (t : Fin cfg5.N) (y : ((cfg5.win 3).xblock (cfg5.grid.coords t)).Idx) : ((cfg5.win 3).blk t).view.emb y = y := by
  funext a; exact Fin.ext ((cfg5.win 3).rect_emb_val_of_index_zero t a rfl y)
theorem emb5_4 (t : Fin cfg5.N) (y : ((cfg5.win 4).xblock (cfg5.grid.coords t)).Idx) : ((cfg5.win 4).blk t).view.emb y = y := by
  funext a; exact Fin.ext ((cfg5.win 4).rect_emb_val_of_index_zero t a rfl y)
theorem emb5_5 (t : Fin cfg5.N) (y : ((cfg5.win 5).xblock (cfg5.grid.coords t)).Idx) : ((cfg5.win 5).blk t).view.emb y = y := by
  funext a; exact Fin.ext ((cfg5.win 5).rect_emb_val_of_index_zero t a rfl y)
theorem emb5_6 (t : Fin cfg5.N) (y : ((cfg5.win 6).xblock (cfg5.grid.coords t)).Idx) : ((cfg5.win 6).blk t).view.emb y = y := by
  funext a; exact Fin.ext ((cfg5.win 6).rect_emb_val_of_index_zero t a rfl y)
theorem emb5_7 (t : Fin cfg5.N) (y : ((cfg5.win 7).xblock (cfg5.grid.coords t)).Idx) : ((cfg5.win 7).blk t).view.emb y = y := by
  funext a; exact Fin.ext ((cfg5.win 7).rect_emb_val_of_index_zero t a rfl y)
theorem emb5_8 (t : Fin cfg5.N) (y : ((cfg5.win 8).xblock (cfg5.grid.coords t)).Idx) : ((cfg5.win 8).blk t).view.emb y = y := by
  funext a; exact Fin.ext ((cfg5.win 8).rect_emb_val_of_index_zero t a rfl y)

/-- An operand's block is its whole array. -/
theorem iblk5_0 (c : Dev nD) (t : Fin cfg5.N) : iblk5 W c 0 t = (W (rf main_v44) : Vec F S64x10000 .f32) := by
  funext y; unfold iblk5; rw [View.read_apply, emb5_0]; rfl
theorem iblk5_1 (c : Dev nD) (t : Fin cfg5.N) : iblk5 W c 1 t = (W (rf main_v48) : Vec F S64x10000 .f32) := by
  funext y; unfold iblk5; rw [View.read_apply, emb5_1]; rfl
theorem iblk5_2 (c : Dev nD) (t : Fin cfg5.N) : iblk5 W c 2 t = (W (rf main_v35) : Vec F S64x10000 .f32) := by
  funext y; unfold iblk5; rw [View.read_apply, emb5_2]; rfl
theorem iblk5_3 (c : Dev nD) (t : Fin cfg5.N) : iblk5 W c 3 t = (W (rf main_v20) : Vec F S10000x32 .f32) := by
  funext y; unfold iblk5; rw [View.read_apply, emb5_3]; rfl
theorem iblk5_4 (c : Dev nD) (t : Fin cfg5.N) : iblk5 W c 4 t = (W (rf main_v16) : Vec F S64x1 .f32) := by
  funext y; unfold iblk5; rw [View.read_apply, emb5_4]; rfl
theorem iblk5_5 (c : Dev nD) (t : Fin cfg5.N) : iblk5 W c 5 t = (W (rf main_v14) : Vec F S1x10000 .i32) := by
  funext y; unfold iblk5; rw [View.read_apply, emb5_5]; rfl
theorem iblk5_6 (c : Dev nD) (t : Fin cfg5.N) : iblk5 W c 6 t = (W (rf main_arg7) : Vec F S64x1 .f32) := by
  funext y; unfold iblk5; rw [View.read_apply, emb5_6]; rfl
theorem iblk5_7 (c : Dev nD) (t : Fin cfg5.N) : iblk5 W c 7 t = (W (rf main_v17) : Vec F S1x1 .f32) := by
  funext y; unfold iblk5; rw [View.read_apply, emb5_7]; rfl

/-- The result array after the write-back: the payload. -/
theorem arrAt5_8 (c : Dev nD) : (dat5 W O B c).arrAt 8 cfg5.N = tc2 W := by
  have hN : cfg5.N = t5_0.val + 1 := N_5
  rw [hN, Dat.arrAt_succ, if_pos (flush5_8 t5_0)]
  funext i
  have h := View.write_emb_of_mem (Val := Elt F) (v := ((cfg5.win 8).blk t5_0).view) ((dat5 W O B c).arrAt 8 t5_0.val) ((dat5 W O B c).flushed 8 t5_0) (Finset.mem_univ i)
  rw [emb5_8] at h
  refine h.trans ?_
  show (dat5 W O B c).after 8 t5_0 i = _
  rw [after5_8, out5_eq, iblk5_0, iblk5_1, iblk5_2, iblk5_3, iblk5_4, iblk5_5, iblk5_6, iblk5_7]
  rfl

/-- An operand's array is as it was. -/
theorem arrAt5_in (c : Dev nD) (w : Fin cfg5.W) (hw : (cfg5.win w).isOut = false) :
    (dat5 W O B c).arrAt w cfg5.N = atTc W c (Pipeline.arrRef spec5 w) :=
  ((dat5 W O B c).arrAt_in w hw _).trans (A_eq5 W O B c w)

/-! ### The region -/

/-- The proof data family of call 5's rule, entered before SparseCore call n. -/
def fam5 (n : ℕ) : (p : Fin 3) → (c : Dev nD) → Dat τ (Elt F) (HIx 3) ℕ UU ℕ (Pipeline.pin (pcfgs (F := F)) adm p) c
  | ⟨0, _⟩ => fun c => datNone cfg1 c
  | ⟨1, _⟩ => fun c => datNone cfg3 c
  | ⟨2, _⟩ => fun c => dat5 W ((K (F := F)).Otc c n) (recB (F := F) c n) c

/-- The valuation after call 5. -/
def upd5 : Valuation τ sig (Elt F) := Function.update W (rf main_v49) (tc2 W)

set_option maxHeartbeats 4000000 in
theorem upd5_arr (c : Dev nD) (n : ℕ) : ∀ w : Fin cfg5.W,
    (fam5 W n 2 c).arrAt w cfg5.N = atTc (upd5 W) c (Pipeline.arrRef spec5 w)
  | ⟨0, _⟩ => (arrAt5_in W _ _ c 0 rfl).trans
      (Function.update_of_ne (StableHlo.devRef_ne_of_ne (by decide : main_v44 ≠ main_v49)) _ _).symm
  | ⟨1, _⟩ => (arrAt5_in W _ _ c 1 rfl).trans
      (Function.update_of_ne (StableHlo.devRef_ne_of_ne (by decide : main_v48 ≠ main_v49)) _ _).symm
  | ⟨2, _⟩ => (arrAt5_in W _ _ c 2 rfl).trans
      (Function.update_of_ne (StableHlo.devRef_ne_of_ne (by decide : main_v35 ≠ main_v49)) _ _).symm
  | ⟨3, _⟩ => (arrAt5_in W _ _ c 3 rfl).trans
      (Function.update_of_ne (StableHlo.devRef_ne_of_ne (by decide : main_v20 ≠ main_v49)) _ _).symm
  | ⟨4, _⟩ => (arrAt5_in W _ _ c 4 rfl).trans
      (Function.update_of_ne (StableHlo.devRef_ne_of_ne (by decide : main_v16 ≠ main_v49)) _ _).symm
  | ⟨5, _⟩ => (arrAt5_in W _ _ c 5 rfl).trans
      (Function.update_of_ne (StableHlo.devRef_ne_of_ne (by decide : main_v14 ≠ main_v49)) _ _).symm
  | ⟨6, _⟩ => (arrAt5_in W _ _ c 6 rfl).trans
      (Function.update_of_ne (StableHlo.devRef_ne_of_ne (by decide : main_arg7 ≠ main_v49)) _ _).symm
  | ⟨7, _⟩ => (arrAt5_in W _ _ c 7 rfl).trans
      (Function.update_of_ne (StableHlo.devRef_ne_of_ne (by decide : main_v17 ≠ main_v49)) _ _).symm
  | ⟨8, _⟩ => (arrAt5_8 W _ _ c).trans (by
      show tc2 W = Function.update W (rf main_v49) (tc2 W) (rf main_v49)
      rw [Function.update_self])

theorem upd5_rest (c : Dev nD) : ∀ b, b ∉ Finset.univ.image (Pipeline.arrRef spec5) → atTc (upd5 W) c b = atTc W c b :=
  fun b hb => Function.update_of_ne (fun e => hb (Finset.mem_image.mpr ⟨8, Finset.mem_univ _, (Proc.devRef_injective _ e).symm⟩)) _ _

set_option backward.isDefEq.respectTransparency.types false in
/-- Call 5 as a region of the host program, entered before SparseCore call n from the arrays at W. -/
def reg5 (n : ℕ) : Pipeline.RegionSeg (pcfgs (F := F)) adm (fam5 W n) none defs₀ 𝒱₀ (K (F := F)).L (K (F := F)).lev 2 where
  win := launch5.win.to₀
  block_pos := launch5.block_pos
  stage_whole := launch5.stage_whole
  K := PEmpty
  osem k := k.elim
  ho := Pipeline.OwnSemFacts.none _
  hbody c := (body_obligation5 W _ _ c).loose
  hwaits c := Pipeline.cellsWaits_intro _ _ _ 2 c fun w s t => (K (F := F)).mayWait_none _ (Otc_none c n)
  pre c := iprop(StableHlo.held (c.tc : Thread nD τ) Sall W ∗ owesTc c n)
  post c := iprop(StableHlo.held (c.tc : Thread nD τ) Sall (upd5 W) ∗ owesTc c n)
  X c := BI.emp
  Y c := BI.emp
  Z c := Pipeline.unscopedRest (Ix := HIx 3) (Name := ℕ) (U := UU) (Lvl := ℕ) spec5 c (atTc W c)
  hentry c := by
    rw [Pipeline.ownSems0_none]
    have hsplit := Pipeline.arrays_of_unscopedBufs (p := 2) (pcfgs (F := F)) adm (fam5 W n) launch5.win launch5.arr_whole c
      ((fam5 W n 2 c).share_full fun _ => rfl) (atTc W c) fun _ => rfl
    rw [unscopedBufs_Sall] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owesTc c n (fam5 W n 2 c) 0 rfl rfl); iexact HO
    isplitr; · iempintro
    iexact Hrest
  hin c := by
    rw [show (fam5 W n 2 c).Φ 0 = Pipeline.scopedRest spec5 c from rfl]
    iintro ⟨-, -, Hr⟩
    iexact Hr
  hout c := by
    rw [Pipeline.ownSems0_none, show (fam5 W n 2 c).Φ (Fin.last _) = Pipeline.scopedRest spec5 c from rfl]
    iintro Hr
    isplitr; · iempintro
    isplitr; · iempintro
    iexact Hr
  hexit c := by
    have hjoin := Pipeline.unscopedBufs_of_arrays (p := 2) (pcfgs (F := F)) adm (Ix := HIx 3) (Name := ℕ) (U := UU) (Lvl := ℕ)
      launch5.win launch5.arr_whole c (fam5 W n) ((fam5 W n 2 c).share_full fun _ => rfl)
      (atTc W c) (atTc (upd5 W) c) ((fam5 W n 2 c).arrAt · cfg5.N) (upd5_arr W c n) (upd5_rest W c)
    rw [unscopedBufs_Sall] at hjoin
    iintro ⟨Ha, HO, -, Hrest⟩
    imodintro
    isplitl [Ha Hrest]
    · iapply hjoin; isplitl [Ha] <;> iassumption
    iapply (owesTc_of_owesAt c n (fam5 W n 2 c) (Fin.last _) rfl rfl); iexact HO

theorem reg5_pre (n : ℕ) (c : Dev nD) : (reg5 W n).pre c = iprop(StableHlo.held (c.tc : Thread nD τ) Sall W ∗ owesTc c n) := rfl
theorem reg5_post (n : ℕ) (c : Dev nD) : (reg5 W n).post c = iprop(StableHlo.held (c.tc : Thread nD τ) Sall (upd5 W) ∗ owesTc c n) := rfl

/-! ### The rule -/

set_option backward.isDefEq.respectTransparency.types false in
/-- Call 5 in the TensorCore's proof of the host program, before SparseCore call n: from the handshake state, the
    region boundary, the program's arrays at V and the rounds of the call's staging cells, to the same with the
    result array at the body's value of the operands. -/
theorem region_2 {P : (K (F := F)).Pay (nD := nD) (Val := Elt F) (Name := ℕ) (U := UU)} (κ : GSem nD τ sig → ℕ) (d : Dev nD) (n : ℕ)
    (V : Valuation τ sig (Elt F)) {α : Type} (k : PUnit → Prog (TpuEff nD τ sig (Elt F) (SparseCore.Sig (ΛP (F := F)) 3) .tc) α) (Φ : α → sProp 𝕄) :
    iprop((K (F := F)).ctx EH P κ ∗ (K (F := F)).tcSt EH d n ∗ boundary (T d) ∗ StableHlo.held (T d) Sall V ∗ RG (F := F) 2 d
        ∗ (iprop((K (F := F)).tcSt EH d n ∗ boundary (T d) ∗ StableHlo.held (T d) Sall (Function.update V (rf main_v49) (tc2 V))) -∗
            wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 2)) ()) >>= k) Φ := by
  rw [wp_bind]
  unfold SparseCore.Cfg.tcSt
  iintro ⟨#Hctx, ⟨HO, Hst⟩, Hbd, Hh, ⟨Hg, Ht⟩, Hk⟩
  ihave Hlev := (SparseCore.Cfg.ctx_levAts κ) $$ Hctx
  iapply ((K (F := F)).wp_liftProg (D (F := F)) 𝒱 (T d) Set.univ none (.op (.customCall (Pipeline.entry 2) ()) fun x => .ret x) _)
  iapply (Pipeline.RegionSeg.wp (pcfgs (F := F)) adm (fam5 V n) none cellOf_inj EP defs₀ 𝒱₀ (K (F := F)).L (K (F := F)).lev (reg5 V n) d none
      (fun u hu => by cases hu) (fun x => .ret x) _)
  rw [reg5_pre, reg5_post]
  isplitl [Hk Hst]
  · iintro ⟨Hbd, ⟨Hh, HO⟩⟩
    rw [wp_ret]; imodintro
    iapply Hk
    isplitl [HO Hst]
    · isplitl [HO]; · iexact HO
      iexact Hst
    isplitl [Hbd]; · iexact Hbd
    iexact Hh
  isplitl [Hbd]; · iexact Hbd
  isplitl [Hh HO]
  · isplitl [Hh]; · iexact Hh
    iexact HO
  isplitr; · iexact Hlev
  isplitl [Hg]; · iexact Hg
  iexact Ht

end Call5

end Cert.KernelIdeal.Hand

end
-- ==== Proof.KI.LaunchSplit.lean ====
/-
  The two edge calls' hand-over at the TensorCore: before a call the TensorCore's arrays, held whole, split into what
  the call's SparseCores are handed and what stays behind; after it, what they hand back and what stayed behind are
  the TensorCore's arrays again, the call's result array at the kernel's value.

  Each read-only operand goes out as the thirty-two tiles' read shares of the whole array, its remainder staying
  behind; the result array goes out as its thirty-two rows at the full share, which are pairwise disjoint and cover it.
-/
import proofs.«219763_g10557029614292_week1_w2_488_21_alg».proof.Proof.KI.LaunchPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq launchContents held_sub_split held_congr)
open Idealize.ShloMosaic.Transfers (shareTok shareDrop pointsTo_toks pointsTo_toks_split pointsTo_toks_join)
open Idealize.ShloMosaic.Tactic

variable {F : FTy → Type}

local notation "𝕄" => MT nD τ sig (HIx 3) (Elt F) ℕ UU ℕ

variable (m : (ℓ : Loc nD τ sig) → Buf (Elt F) ℓ)
variable [FloatOps F]

/-! ## The first edge call -/

theorem hT1 : T1 ⊆ Sall := by
  intro b hb
  simp only [Finset.mem_insert, Finset.mem_singleton] at hb
  rcases hb with rfl | rfl | rfl | rfl | rfl <;> exact mem_Sall rfl

omit [FloatOps F] in
/-- The call's five arrays held whole are five whole points-to at the full share. -/
theorem held_T1 (d : Dev nD) (W : Valuation τ sig (Elt F)) :
    (held (T d) T1 W : sProp 𝕄)
      = iprop((cc2_edge.gLoc d ↦{fullShare} W (rf main_v23)) ∗ (cc2_edge.sLoc d ↦{fullShare} W (rf main_v6)) ∗ (cc2_edge.dLoc d ↦{fullShare} W (rf main_v9))
          ∗ (cc2_edge.zLoc d ↦{fullShare} W (rf main_v13)) ∗ (cc2_edge.oLoc d ↦{fullShare} W (rf main_v24))) := by
  unfold held
  rw [SparseCore.bigSep_insert' (by decide), SparseCore.bigSep_insert' (by decide), SparseCore.bigSep_insert' (by decide),
    SparseCore.bigSep_insert' (by decide), bigSep_singleton]

/-- The thirty-two tiles' shares of the call, array by array. -/
theorem go1_arrays (d : Dev nD) :
    (bigSep Finset.univ fun c : Fin 2 => bigSep Finset.univ fun i : Fin 16 => goQ m 1 d c i)
      = iprop((bigSep Finset.univ fun c : Fin 2 => bigSep Finset.univ fun i : Fin 16 => (cc2_edge.gLoc d ↦{σ c i} V5 m d (rf main_v23) : sProp 𝕄))
          ∗ (bigSep Finset.univ fun c : Fin 2 => bigSep Finset.univ fun i : Fin 16 => (cc2_edge.sLoc d ↦{σ c i} V5 m d (rf main_v6) : sProp 𝕄))
          ∗ (bigSep Finset.univ fun c : Fin 2 => bigSep Finset.univ fun i : Fin 16 => (cc2_edge.dLoc d ↦{σ c i} V5 m d (rf main_v9) : sProp 𝕄))
          ∗ (bigSep Finset.univ fun c : Fin 2 => bigSep Finset.univ fun i : Fin 16 => (cc2_edge.zLoc d ↦{σ c i} V5 m d (rf main_v13) : sProp 𝕄))
          ∗ (bigSep Finset.univ fun c : Fin 2 => bigSep Finset.univ fun i : Fin 16 => (cc2_edge.oLoc d ↦[cc2_edge.edgeRow (L2 c i)]{fullShare} V5 m d (rf main_v24) : sProp 𝕄))) := by
  simp only [goQ, cc2_edge.arrays, bigSep_sep']
theorem td1_arrays (d : Dev nD) :
    (bigSep Finset.univ fun c : Fin 2 => bigSep Finset.univ fun i : Fin 16 => tdQ m 1 d c i)
      = iprop((bigSep Finset.univ fun c : Fin 2 => bigSep Finset.univ fun i : Fin 16 => (cc2_edge.gLoc d ↦{σ c i} V5 m d (rf main_v23) : sProp 𝕄))
          ∗ (bigSep Finset.univ fun c : Fin 2 => bigSep Finset.univ fun i : Fin 16 => (cc2_edge.sLoc d ↦{σ c i} V5 m d (rf main_v6) : sProp 𝕄))
          ∗ (bigSep Finset.univ fun c : Fin 2 => bigSep Finset.univ fun i : Fin 16 => (cc2_edge.dLoc d ↦{σ c i} V5 m d (rf main_v9) : sProp 𝕄))
          ∗ (bigSep Finset.univ fun c : Fin 2 => bigSep Finset.univ fun i : Fin 16 => (cc2_edge.zLoc d ↦{σ c i} V5 m d (rf main_v13) : sProp 𝕄))
          ∗ (bigSep Finset.univ fun c : Fin 2 => bigSep Finset.univ fun i : Fin 16 => (cc2_edge.oLoc d ↦[cc2_edge.edgeRow (L2 c i)]{fullShare} scEdge1 (V5 m d) : sProp 𝕄))) := by
  simp only [tdQ, scEdge1, cc2_edge.arrays, bigSep_sep']

/-- Before the call the TensorCore's arrays split into the SparseCores' shares of the call and what stays behind. -/
theorem st1 (d : Dev nD) :
    (held (T d) Sall (V5 m d) : sProp 𝕄)
      ⊢ iprop((bigSep Finset.univ fun c : Fin ((K (F := F)).nCore 1) => (P m).st 1 d c) ∗ Fr1 m d) := by
  show _ ⊢ iprop((bigSep Finset.univ fun c : Fin ((K (F := F)).nCore 1) => stQ m 1 d (Fin.cast (nCore_eq 1) c)) ∗ Fr1 m d)
  rw [bigSep_cores (F := F) 1 (fun c => stQ m 1 d c), held_sub_split (T d) hT1, held_T1]
  unfold Fr1 stQ
  rw [go1_arrays, edge2_rows d fullShare]
  iintro ⟨⟨Hg, Hs, Ht, Hz, Ho⟩, Hrest⟩
  ihave Hg' := (shares32 (F := F) _).1 $$ Hg
  icases Hg' with ⟨Rg, Hg⟩
  ihave Hs' := (shares32 (F := F) _).1 $$ Hs
  icases Hs' with ⟨Rs, Hs⟩
  ihave Ht' := (shares32 (F := F) _).1 $$ Ht
  icases Ht' with ⟨Rt, Ht⟩
  ihave Hz' := (shares32 (F := F) _).1 $$ Hz
  icases Hz' with ⟨Rz, Hz⟩
  isplitl [Hg Hs Ht Hz Ho]
  · isplitl [Hg]; · iexact Hg
    isplitl [Hs]; · iexact Hs
    isplitl [Ht]; · iexact Ht
    isplitl [Hz]; · iexact Hz
    iexact Ho
  · isplitl [Hrest]; · iexact Hrest
    isplitl [Rg]; · iexact Rg
    isplitl [Rs]; · iexact Rs
    isplitl [Rt]; · iexact Rt
    iexact Rz

/-- After the call the shares handed back and what stayed behind are the TensorCore's arrays, the result array at the
    call's value. -/
theorem dn1 (d : Dev nD) :
    iprop((bigSep Finset.univ fun c : Fin ((K (F := F)).nCore 1) => (P m).dn 1 d c) ∗ Fr1 m d)
      ⊢ (held (T d) Sall (V6 m d) : sProp 𝕄) := by
  show iprop((bigSep Finset.univ fun c : Fin ((K (F := F)).nCore 1) => dnQ m 1 d (Fin.cast (nCore_eq 1) c)) ∗ Fr1 m d) ⊢ _
  rw [bigSep_cores (F := F) 1 (fun c => dnQ m 1 d c)]
  unfold V6
  rw [held_split_upd (T d) hT1 (b := rf main_v24) (by decide) (V5 m d) (scEdge1 (V5 m d)), held_T1,
    Function.update_of_ne (show rf main_v23 ≠ rf main_v24 by decide), Function.update_of_ne (show rf main_v6 ≠ rf main_v24 by decide),
    Function.update_of_ne (show rf main_v9 ≠ rf main_v24 by decide), Function.update_of_ne (show rf main_v13 ≠ rf main_v24 by decide),
    Function.update_self]
  unfold Fr1 dnQ
  rw [td1_arrays, edge2_rows d fullShare]
  iintro ⟨⟨Hg, Hs, Ht, Hz, Ho⟩, Hrest, Rg, Rs, Rt, Rz⟩
  isplitr [Hrest]
  · isplitl [Hg Rg]
    · iapply ((shares32 (F := F) _).2)
      isplitl [Rg]; · iexact Rg
      iexact Hg
    isplitl [Hs Rs]
    · iapply ((shares32 (F := F) _).2)
      isplitl [Rs]; · iexact Rs
      iexact Hs
    isplitl [Ht Rt]
    · iapply ((shares32 (F := F) _).2)
      isplitl [Rt]; · iexact Rt
      iexact Ht
    isplitl [Hz Rz]
    · iapply ((shares32 (F := F) _).2)
      isplitl [Rz]; · iexact Rz
      iexact Hz
    iexact Ho
  · iexact Hrest

/-! ## The second edge call -/

theorem hT2 : T2 ⊆ Sall := by
  intro b hb
  simp only [Finset.mem_insert, Finset.mem_singleton] at hb
  rcases hb with rfl | rfl | rfl | rfl | rfl <;> exact mem_Sall rfl

omit [FloatOps F] in
/-- The call's five arrays held whole are five whole points-to at the full share. -/
theorem held_T2 (d : Dev nD) (W : Valuation τ sig (Elt F)) :
    (held (T d) T2 W : sProp 𝕄)
      = iprop((cc4_edge.gLoc d ↦{fullShare} W (rf main_v37)) ∗ (cc4_edge.sLoc d ↦{fullShare} W (rf main_v6)) ∗ (cc4_edge.dLoc d ↦{fullShare} W (rf main_v9))
          ∗ (cc4_edge.zLoc d ↦{fullShare} W (rf main_v13)) ∗ (cc4_edge.oLoc d ↦{fullShare} W (rf main_v38))) := by
  unfold held
  rw [SparseCore.bigSep_insert' (by decide), SparseCore.bigSep_insert' (by decide), SparseCore.bigSep_insert' (by decide),
    SparseCore.bigSep_insert' (by decide), bigSep_singleton]

/-- The thirty-two tiles' shares of the call, array by array. -/
theorem go2_arrays (d : Dev nD) :
    (bigSep Finset.univ fun c : Fin 2 => bigSep Finset.univ fun i : Fin 16 => goQ m 2 d c i)
      = iprop((bigSep Finset.univ fun c : Fin 2 => bigSep Finset.univ fun i : Fin 16 => (cc4_edge.gLoc d ↦{σ c i} V9 m d (rf main_v37) : sProp 𝕄))
          ∗ (bigSep Finset.univ fun c : Fin 2 => bigSep Finset.univ fun i : Fin 16 => (cc4_edge.sLoc d ↦{σ c i} V9 m d (rf main_v6) : sProp 𝕄))
          ∗ (bigSep Finset.univ fun c : Fin 2 => bigSep Finset.univ fun i : Fin 16 => (cc4_edge.dLoc d ↦{σ c i} V9 m d (rf main_v9) : sProp 𝕄))
          ∗ (bigSep Finset.univ fun c : Fin 2 => bigSep Finset.univ fun i : Fin 16 => (cc4_edge.zLoc d ↦{σ c i} V9 m d (rf main_v13) : sProp 𝕄))
          ∗ (bigSep Finset.univ fun c : Fin 2 => bigSep Finset.univ fun i : Fin 16 => (cc4_edge.oLoc d ↦[cc4_edge.edgeRow (L4 c i)]{fullShare} V9 m d (rf main_v38) : sProp 𝕄))) := by
  simp only [goQ, cc4_edge.arrays, bigSep_sep']
theorem td2_arrays (d : Dev nD) :
    (bigSep Finset.univ fun c : Fin 2 => bigSep Finset.univ fun i : Fin 16 => tdQ m 2 d c i)
      = iprop((bigSep Finset.univ fun c : Fin 2 => bigSep Finset.univ fun i : Fin 16 => (cc4_edge.gLoc d ↦{σ c i} V9 m d (rf main_v37) : sProp 𝕄))
          ∗ (bigSep Finset.univ fun c : Fin 2 => bigSep Finset.univ fun i : Fin 16 => (cc4_edge.sLoc d ↦{σ c i} V9 m d (rf main_v6) : sProp 𝕄))
          ∗ (bigSep Finset.univ fun c : Fin 2 => bigSep Finset.univ fun i : Fin 16 => (cc4_edge.dLoc d ↦{σ c i} V9 m d (rf main_v9) : sProp 𝕄))
          ∗ (bigSep Finset.univ fun c : Fin 2 => bigSep Finset.univ fun i : Fin 16 => (cc4_edge.zLoc d ↦{σ c i} V9 m d (rf main_v13) : sProp 𝕄))
          ∗ (bigSep Finset.univ fun c : Fin 2 => bigSep Finset.univ fun i : Fin 16 => (cc4_edge.oLoc d ↦[cc4_edge.edgeRow (L4 c i)]{fullShare} scEdge2 (V9 m d) : sProp 𝕄))) := by
  simp only [tdQ, scEdge2, cc4_edge.arrays, bigSep_sep']

/-- Before the call the TensorCore's arrays split into the SparseCores' shares of the call and what stays behind. -/
theorem st2 (d : Dev nD) :
    (held (T d) Sall (V9 m d) : sProp 𝕄)
      ⊢ iprop((bigSep Finset.univ fun c : Fin ((K (F := F)).nCore 2) => (P m).st 2 d c) ∗ Fr2 m d) := by
  show _ ⊢ iprop((bigSep Finset.univ fun c : Fin ((K (F := F)).nCore 2) => stQ m 2 d (Fin.cast (nCore_eq 2) c)) ∗ Fr2 m d)
  rw [bigSep_cores (F := F) 2 (fun c => stQ m 2 d c), held_sub_split (T d) hT2, held_T2]
  unfold Fr2 stQ
  rw [go2_arrays, edge4_rows d fullShare]
  iintro ⟨⟨Hg, Hs, Ht, Hz, Ho⟩, Hrest⟩
  ihave Hg' := (shares32 (F := F) _).1 $$ Hg
  icases Hg' with ⟨Rg, Hg⟩
  ihave Hs' := (shares32 (F := F) _).1 $$ Hs
  icases Hs' with ⟨Rs, Hs⟩
  ihave Ht' := (shares32 (F := F) _).1 $$ Ht
  icases Ht' with ⟨Rt, Ht⟩
  ihave Hz' := (shares32 (F := F) _).1 $$ Hz
  icases Hz' with ⟨Rz, Hz⟩
  isplitl [Hg Hs Ht Hz Ho]
  · isplitl [Hg]; · iexact Hg
    isplitl [Hs]; · iexact Hs
    isplitl [Ht]; · iexact Ht
    isplitl [Hz]; · iexact Hz
    iexact Ho
  · isplitl [Hrest]; · iexact Hrest
    isplitl [Rg]; · iexact Rg
    isplitl [Rs]; · iexact Rs
    isplitl [Rt]; · iexact Rt
    iexact Rz

/-- After the call the shares handed back and what stayed behind are the TensorCore's arrays, the result array at the
    call's value. -/
theorem dn2 (d : Dev nD) :
    iprop((bigSep Finset.univ fun c : Fin ((K (F := F)).nCore 2) => (P m).dn 2 d c) ∗ Fr2 m d)
      ⊢ (held (T d) Sall (V10 m d) : sProp 𝕄) := by
  show iprop((bigSep Finset.univ fun c : Fin ((K (F := F)).nCore 2) => dnQ m 2 d (Fin.cast (nCore_eq 2) c)) ∗ Fr2 m d) ⊢ _
  rw [bigSep_cores (F := F) 2 (fun c => dnQ m 2 d c)]
  unfold V10
  rw [held_split_upd (T d) hT2 (b := rf main_v38) (by decide) (V9 m d) (scEdge2 (V9 m d)), held_T2,
    Function.update_of_ne (show rf main_v37 ≠ rf main_v38 by decide), Function.update_of_ne (show rf main_v6 ≠ rf main_v38 by decide),
    Function.update_of_ne (show rf main_v9 ≠ rf main_v38 by decide), Function.update_of_ne (show rf main_v13 ≠ rf main_v38 by decide),
    Function.update_self]
  unfold Fr2 dnQ
  rw [td2_arrays, edge4_rows d fullShare]
  iintro ⟨⟨Hg, Hs, Ht, Hz, Ho⟩, Hrest, Rg, Rs, Rt, Rz⟩
  isplitr [Hrest]
  · isplitl [Hg Rg]
    · iapply ((shares32 (F := F) _).2)
      isplitl [Rg]; · iexact Rg
      iexact Hg
    isplitl [Hs Rs]
    · iapply ((shares32 (F := F) _).2)
      isplitl [Rs]; · iexact Rs
      iexact Hs
    isplitl [Ht Rt]
    · iapply ((shares32 (F := F) _).2)
      isplitl [Rt]; · iexact Rt
      iexact Ht
    isplitl [Hz Rz]
    · iapply ((shares32 (F := F) _).2)
      isplitl [Rz]; · iexact Rz
      iexact Hz
    iexact Ho
  · iexact Hrest

end Cert.KernelIdeal.Hand

end
-- ==== Proof.KI.Launch.lean ====
/-
  The program's run: every weakly fair execution of the TensorCore's host program and the two SparseCores' sequencers
  and thirty-two tiles, from a memory with zero counters, terminates, faults nowhere, and ends with the result array
  at the last link of the chain of buffer contents and the nine arguments as launched.

  The launch element is the handshakes' rounds beside the rounds of the three TensorCore regions' staging cells; the
  kernels' own copies need no schedule. The TensorCore's proof walks the program's thirteen segments: a straight line
  of host operations takes the arrays held at one link of the chain to the next; a SparseCore call deals its operands
  to the tiles (read shares of the read-only arrays, the rows of the result) and gets them back with the result at the
  kernel's value; a region runs by its rule. The final memory agrees with every array held at the end.
-/
import proofs.«219763_g10557029614292_week1_w2_488_21_alg».proof.Proof.KI.LaunchPay
import proofs.«219763_g10557029614292_week1_w2_488_21_alg».proof.Proof.KI.ChainFacts
import proofs.«219763_g10557029614292_week1_w2_488_21_alg».proof.Proof.KI.HeldAgree
import proofs.«219763_g10557029614292_week1_w2_488_21_alg».proof.Proof.KI.TcRegion
import proofs.«219763_g10557029614292_week1_w2_488_21_alg».proof.Proof.KI.LaunchSplit

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq launchContents held_sub_split held_congr)
open Idealize.ShloMosaic.Transfers (shareTok shareDrop pointsTo_toks pointsTo_toks_split pointsTo_toks_join)
open Idealize.ShloMosaic.Tactic

variable {F : FTy → Type}

local notation "𝕄" => MT nD τ sig (HIx 3) (Elt F) ℕ UU ℕ

variable (m : (ℓ : Loc nD τ sig) → Buf (Elt F) ℓ) (ρ : Dev nD → PrngReg)
variable [FloatOps F]

/-! ## The launch element -/

/-- What the TensorCore's proof starts from beyond the launch's deal: the rounds of the three regions' staging cells. -/
abbrev G (d : Dev nD) : sProp 𝕄 := iprop(RG (F := F) 0 d ∗ RG (F := F) 1 d ∗ RG (F := F) 2 d)

/-- The handshakes' rounds, the regions' staging cells' rounds, no counter. -/
def u₀ : UU := (initOf (K (F := F)).hsCells (K (F := F)).hsToks, ((uP : UP), (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (P m).x q thr) := by
  unfold u₀
  iintro Hu
  ihave H := (ownU_pair _ _) $$ Hu
  icases H with ⟨HH, HR⟩
  ihave HR' := (own_pair_emb embR (uP : UP) (1 : Counters)) $$ HR
  icases HR' with ⟨HP, -⟩
  ihave HP' := (Entails.of_eq (show (BI.own ((((Emb.inl : Emb UP (UP × Counters)).trans embR) : Emb UP 𝕄) uP) : sProp 𝕄) = BI.own ((EP : Emb UP 𝕄) uP) from rfl)) $$ HP
  imod (fund_RG (F := F)) $$ HP' with HG
  imodintro
  isplitl [HH]; · iexact HH
  isplitl [HG]; · iexact HG
  unfold P; dsimp only
  rw [show (bigSep Finset.univ fun _ : Thread nD τ => bigSep Finset.univ fun _ : Fin 3 => (iprop(emp) : sProp 𝕄)) = iprop(emp) from by
    rw [bigSep_congr fun _ _ => bigSep_emp' _, bigSep_emp']]
  iempintro

/-! ## The degree call's arrays, out and back -/

omit [FloatOps F] in
theorem hT0 : (T0 : Finset (DevRef τ sig)) ⊆ Sall := by
  intro b hb
  simp only [Finset.mem_insert, Finset.mem_singleton] at hb
  rcases hb with rfl | rfl | rfl <;> exact mem_Sall rfl

omit [FloatOps F] in
theorem held_T0 (d : Dev nD) (W : Valuation τ sig (Elt F)) :
    (held (T d) T0 W : sProp 𝕄) = iprop((degALoc d ↦{fullShare} W (rf main_v11)) ∗ (degZLoc d ↦{fullShare} W (rf main_v12)) ∗ (degOLoc d ↦{fullShare} W (rf main_v18))) := by
  unfold held
  rw [SparseCore.bigSep_insert' (by decide), SparseCore.bigSep_insert' (by decide), bigSep_singleton]

omit [FloatOps F] in
theorem degO_rows_ex (d : Dev nD) (f : Buf (Elt F) (degOLoc d)) :
    (degOLoc d ↦{fullShare} f : sProp 𝕄) ⊢ bigSep Finset.univ fun c : Fin 2 => bigSep Finset.univ fun i : Fin 16 => iprop(∃ g, degOLoc d ↦[degRowSet (wOf c i)]{fullShare} g) := by
  rw [degO_rows]
  refine bigSep_mono fun c _ => bigSep_mono fun i _ => ?_
  show _ ⊢ iprop(∃ g, degOLoc d ↦[degRowSet (wOf c i)]{fullShare} g)
  iintro H; iexists _; iexact H

theorem st0 (d : Dev nD) :
    (held (T d) Sall (V1 m d) : sProp 𝕄) ⊢ iprop((bigSep Finset.univ fun c : Fin ((K (F := F)).nCore 0) => (P m).st 0 d c) ∗ Fr0 m d) := by
  show _ ⊢ iprop((bigSep Finset.univ fun c : Fin ((K (F := F)).nCore 0) => stQ m 0 d (Fin.cast (nCore_eq 0) c)) ∗ Fr0 m d)
  rw [bigSep_cores (F := F) 0 (fun c => stQ m 0 d c), held_sub_split (T d) hT0 (V1 m d), held_T0]
  unfold stQ Fr0
  simp only [goQ, bigSep_sep']
  iintro ⟨⟨Ha, Hz, Ho⟩, Hrest⟩
  ihave Hz' := ((shares32 (ℓ := degZLoc d) (V1 m d (rf main_v12))).1) $$ Hz
  icases Hz' with ⟨Hrem, Hzs⟩
  ihave Ha' := (Entails.of_eq (degA_rows d fullShare (V1 m d (rf main_v11)))) $$ Ha
  ihave Ho' := (degO_rows_ex d (V1 m d (rf main_v18))) $$ Ho
  isplitl [Ha' Hzs Ho']
  · isplitl [Ha']; · iexact Ha'
    isplitl [Hzs]; · iexact Hzs
    iexact Ho'
  · isplitl [Hrest]; · iexact Hrest
    iexact Hrem

theorem dn0 (d : Dev nD) :
    iprop((bigSep Finset.univ fun c : Fin ((K (F := F)).nCore 0) => (P m).dn 0 d c) ∗ Fr0 m d) ⊢ (held (T d) Sall (V2 m d) : sProp 𝕄) := by
  show iprop((bigSep Finset.univ fun c : Fin ((K (F := F)).nCore 0) => dnQ m 0 d (Fin.cast (nCore_eq 0) c)) ∗ Fr0 m d) ⊢ _
  rw [bigSep_cores (F := F) 0 (fun c => dnQ m 0 d c)]
  unfold V2
  rw [held_split_upd (T d) hT0 (show rf main_v18 ∈ (T0 : Finset (DevRef τ sig)) by decide), held_T0,
    Function.update_of_ne (show (rf main_v11 : DevRef τ sig) ≠ rf main_v18 by decide), Function.update_of_ne (show (rf main_v12 : DevRef τ sig) ≠ rf main_v18 by decide),
    Function.update_self]
  unfold dnQ Fr0 scDeg
  simp only [tdQ, bigSep_sep']
  iintro ⟨⟨Ha, Hzs, Ho⟩, Hrest, Hrem⟩
  isplitr [Hrest]
  · isplitl [Ha]; · iapply (Entails.of_eq (degA_rows d fullShare _).symm); iexact Ha
    isplitl [Hzs Hrem]
    · iapply ((shares32 (ℓ := degZLoc d) (V1 m d (rf main_v12))).2)
      isplitl [Hrem] <;> iassumption
    iapply (Entails.of_eq (degO_rows d fullShare _).symm); iexact Ho
  · iexact Hrest

theorem call0 (κ : GSem nD τ sig → ℕ) (d : Dev nD) {β : Type} (k : PUnit → Prog (TpuEff nD τ sig (Elt F) (SparseCore.Sig (ΛP (F := F)) 3) .tc) β) (Φ : β → sProp 𝕄) :
    iprop((K (F := F)).ctx EH (P m) κ ∗ (K (F := F)).tcSt EH d 0 ∗ held (T d) Sall (V1 m d)
        ∗ (iprop((K (F := F)).tcSt EH d 1 ∗ held (T d) Sall (V2 m d)) -∗
            wp frame (wpE ((K (F := F)).defs (D (F := F))) 𝒱 (T d) none) Set.univ (k ⟨⟩) Φ))
      ⊢ wp frame (wpE ((K (F := F)).defs (D (F := F))) 𝒱 (T d) none) Set.univ (sc.run d 0 >>= k) Φ := by
  rw [wp_bind]
  iintro ⟨#Hctx, Hst, Hheld, Hk⟩
  ihave H := (st0 m d) $$ Hheld
  icases H with ⟨Hs, Hfr⟩
  iapply ((K (F := F)).wp_run (D (F := F)) 𝒱 (EH := EH) (P := P m) κ d 0)
  isplitr; · iexact Hctx
  isplitl [Hst]; · iexact Hst
  isplitl [Hs]; · iexact Hs
  iintro ⟨Hst, Hdn⟩
  iapply Hk
  isplitl [Hst]; · iexact Hst
  iapply (dn0 m d)
  isplitl [Hdn]; · iexact Hdn
  iexact Hfr

theorem call1 (κ : GSem nD τ sig → ℕ) (d : Dev nD) {β : Type} (k : PUnit → Prog (TpuEff nD τ sig (Elt F) (SparseCore.Sig (ΛP (F := F)) 3) .tc) β) (Φ : β → sProp 𝕄) :
    iprop((K (F := F)).ctx EH (P m) κ ∗ (K (F := F)).tcSt EH d 1 ∗ held (T d) Sall (V5 m d)
        ∗ (iprop((K (F := F)).tcSt EH d 2 ∗ held (T d) Sall (V6 m d)) -∗
            wp frame (wpE ((K (F := F)).defs (D (F := F))) 𝒱 (T d) none) Set.univ (k ⟨⟩) Φ))
      ⊢ wp frame (wpE ((K (F := F)).defs (D (F := F))) 𝒱 (T d) none) Set.univ (sc.run d 1 >>= k) Φ := by
  rw [wp_bind]
  iintro ⟨#Hctx, Hst, Hheld, Hk⟩
  ihave H := (st1 m d) $$ Hheld
  icases H with ⟨Hs, Hfr⟩
  iapply ((K (F := F)).wp_run (D (F := F)) 𝒱 (EH := EH) (P := P m) κ d 1)
  isplitr; · iexact Hctx
  isplitl [Hst]; · iexact Hst
  isplitl [Hs]; · iexact Hs
  iintro ⟨Hst, Hdn⟩
  iapply Hk
  isplitl [Hst]; · iexact Hst
  iapply (dn1 m d)
  isplitl [Hdn]; · iexact Hdn
  iexact Hfr

theorem call2 (κ : GSem nD τ sig → ℕ) (d : Dev nD) {β : Type} (k : PUnit → Prog (TpuEff nD τ sig (Elt F) (SparseCore.Sig (ΛP (F := F)) 3) .tc) β) (Φ : β → sProp 𝕄) :
    iprop((K (F := F)).ctx EH (P m) κ ∗ (K (F := F)).tcSt EH d 2 ∗ held (T d) Sall (V9 m d)
        ∗ (iprop((K (F := F)).tcSt EH d 3 ∗ held (T d) Sall (V10 m d)) -∗
            wp frame (wpE ((K (F := F)).defs (D (F := F))) 𝒱 (T d) none) Set.univ (k ⟨⟩) Φ))
      ⊢ wp frame (wpE ((K (F := F)).defs (D (F := F))) 𝒱 (T d) none) Set.univ (sc.run d 2 >>= k) Φ := by
  rw [wp_bind]
  iintro ⟨#Hctx, Hst, Hheld, Hk⟩
  ihave H := (st2 m d) $$ Hheld
  icases H with ⟨Hs, Hfr⟩
  iapply ((K (F := F)).wp_run (D (F := F)) 𝒱 (EH := EH) (P := P m) κ d 2)
  isplitr; · iexact Hctx
  isplitl [Hst]; · iexact Hst
  isplitl [Hs]; · iexact Hs
  iintro ⟨Hst, Hdn⟩
  iapply Hk
  isplitl [Hst]; · iexact Hst
  iapply (dn2 m d)
  isplitl [Hdn]; · iexact Hdn
  iexact Hfr

/-! ## The host program on the TensorCore -/

/-- What the host program leaves the claim: every array of its values at the end of the chain. -/
abbrev FIN (d : Dev nD) : sProp 𝕄 := held (T d) Sall (V12 m d)

set_option maxHeartbeats 4000000 in
set_option backward.isDefEq.respectTransparency.types false in
/-- The host program on device d's TensorCore: each straight line from the arrays held at one link of the chain to the next,
    each SparseCore call from its operands dealt to the tiles to its result, each region by its rule. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m d) := by
  unfold SparseCore.Cfg.tcRes
  rw [unscoped_held, main_eq]
  iintro ⟨#Hctx, Hst, ⟨Hb, Hheld, -, -⟩, HG0, HG1, HG2⟩
  iapply (wp_seq 𝒱 none Set.univ d Sall _ ops0 ops0_sub ops0_fresh (V0 m d)) $$ [Hb Hheld]
  · isplitl [Hb]; · iexact Hb
    iexact Hheld
  iintro ⟨Hb, Hheld⟩
  iapply (call0 m κ d _ _)
  isplitr; · iexact Hctx
  isplitl [Hst]; · iexact Hst
  isplitl [Hheld]; · iexact Hheld
  iintro ⟨Hst, Hheld⟩
  iapply (wp_seq 𝒱 none Set.univ d Sall _ ops1 ops1_sub ops1_fresh (V2 m d)) $$ [Hb Hheld]
  · isplitl [Hb]; · iexact Hb
    iexact Hheld
  iintro ⟨Hb, Hheld⟩
  iapply (region_0 (P := P m) κ d 1 (V3 m d) _ _)
  isplitr; · iexact Hctx
  isplitl [Hst]; · iexact Hst
  isplitl [Hb]; · iexact Hb
  isplitl [Hheld]; · iexact Hheld
  isplitl [HG0]; · iexact HG0
  iintro ⟨Hst, Hb, Hheld⟩
  iapply (wp_seq 𝒱 none Set.univ d Sall _ ops2 ops2_sub ops2_fresh (V4 m d)) $$ [Hb Hheld]
  · isplitl [Hb]; · iexact Hb
    iexact Hheld
  iintro ⟨Hb, Hheld⟩
  iapply (call1 m κ d _ _)
  isplitr; · iexact Hctx
  isplitl [Hst]; · iexact Hst
  isplitl [Hheld]; · iexact Hheld
  iintro ⟨Hst, Hheld⟩
  iapply (wp_seq 𝒱 none Set.univ d Sall _ ops3 ops3_sub ops3_fresh (V6 m d)) $$ [Hb Hheld]
  · isplitl [Hb]; · iexact Hb
    iexact Hheld
  iintro ⟨Hb, Hheld⟩
  iapply (region_1 (P := P m) κ d 2 (V7 m d) _ _)
  isplitr; · iexact Hctx
  isplitl [Hst]; · iexact Hst
  isplitl [Hb]; · iexact Hb
  isplitl [Hheld]; · iexact Hheld
  isplitl [HG1]; · iexact HG1
  iintro ⟨Hst, Hb, Hheld⟩
  iapply (wp_seq 𝒱 none Set.univ d Sall _ ops4 ops4_sub ops4_fresh (V8 m d)) $$ [Hb Hheld]
  · isplitl [Hb]; · iexact Hb
    iexact Hheld
  iintro ⟨Hb, Hheld⟩
  iapply (call2 m κ d _ _)
  isplitr; · iexact Hctx
  isplitl [Hst]; · iexact Hst
  isplitl [Hheld]; · iexact Hheld
  iintro ⟨Hst, Hheld⟩
  iapply (wp_seq 𝒱 none Set.univ d Sall _ ops5 ops5_sub ops5_fresh (V10 m d)) $$ [Hb Hheld]
  · isplitl [Hb]; · iexact Hb
    iexact Hheld
  iintro ⟨Hb, Hheld⟩
  iapply (region_2 (P := P m) κ d 3 (V11 m d) _ _)
  isplitr; · iexact Hctx
  isplitl [Hst]; · iexact Hst
  isplitl [Hb]; · iexact Hb
  isplitl [Hheld]; · iexact Hheld
  isplitl [HG2]; · iexact HG2
  iintro ⟨Hst, Hb, Hheld⟩
  rw [wp_pure]; imodintro
  isplitl [Hst]; · iexact Hst
  iexact Hheld

/-! ## The final memory reads the chain's end -/

abbrev fq (d : Dev nD) (s' : Phys nD τ sig (Elt F)) : Prop := ∀ b ∈ (Sall : Finset (DevRef τ sig)), s'.mem.mem ((SparseCore.T d : Thread nD τ).1, b) = V12 m d b

theorem hfin (d : Dev nD) (s' : Phys nD τ sig (Elt F)) : iprop(FIN m d ∗ SI s') ⊢ (⌜fq m d s'⌝ : sProp 𝕄) :=
  held_agree_all (SparseCore.T d) Sall (V12 m d) s'

/-! ## The program's run -/

/-- The run's post: on every device the result array holds the chain's value and the nine arguments are as launched. -/
def QC : PUnit × MemSt nD τ sig (Elt F) → Prop := fun r => ∀ c : Dev nD,
  r.2.mem ((c.tc : Thread nD τ).loc main_v49) = kOut m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

theorem hQ (s' : Phys nD τ sig (Elt F)) (h : ∀ d, fq m d s') : QC m (⟨⟩, s'.mem) := fun c =>
  ⟨h c (rf main_v49) (mem_Sall rfl),
    (h c (rf main_arg0) (mem_Sall rfl)).trans (V12_arg0_keep m c), (h c (rf main_arg1) (mem_Sall rfl)).trans (V12_arg1_keep m c),
    (h c (rf main_arg2) (mem_Sall rfl)).trans (V12_arg2_keep m c), (h c (rf main_arg3) (mem_Sall rfl)).trans (V12_arg3_keep m c),
    (h c (rf main_arg4) (mem_Sall rfl)).trans (V12_arg4_keep m c), (h c (rf main_arg5) (mem_Sall rfl)).trans (V12_arg5_keep m c),
    (h c (rf main_arg6) (mem_Sall rfl)).trans (V12_arg6_keep m c), (h c (rf main_arg7) (mem_Sall rfl)).trans (V12_arg7_keep m c),
    (h c (rf main_arg8) (mem_Sall rfl)).trans (V12_arg8_keep m c)⟩

/-- Every weakly fair execution of the program's threads from a memory with zero counters terminates, faults nowhere,
    and ends with the result at the chain's value and the arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq | 2 => nomatch hq)
    (fun q _ => match q with | 0 => tileObl0 m facts hpre | 1 => tileObl1 m facts hpre | 2 => tileObl2 m facts hpre)
    (fun q _ => SparseCore.Cfg.VecSplit.of_plain (vecSplit m q))
    m ρ main (fun d => G (F := F) d) (FIN m) (u₀ (F := F)) (sep_elim_left.trans (hu₀ m)) (hmain m ρ) (fq m) (hfin m) (QC m) (hQ m)

end Cert.KernelIdeal.Hand

end
-- ==== Proof.K.Base.lean ====
/-
  The launch configuration of the program, its stated facts, and the ghost state every later module works in:
  the handshake cells' rounds, the TensorCore pipelines' staging cells' rounds, and the counters of the
  vector subcores' own local copies.
-/
import proofs.«219763_g10557029614292_week1_w2_488_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«219763_g10557029614292_week1_w2_488_21_alg».proof.Proof.Gen.Kernel
import proofs.«219763_g10557029614292_week1_w2_488_21_alg».proof.Proof.Gen.Kernel.Skeleton
import proofs.«219763_g10557029614292_week1_w2_488_21_alg».proof.Proof.Gen.Kernel.Launch
import proofs.«219763_g10557029614292_week1_w2_488_21_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 3 := sc (F := F)
theorem nSub_eq (q : Fin 3) : (K (F := F)).nSub q = 16 := by
  match q with
  | 0 => rfl
  | 1 => rfl
  | 2 => rfl
theorem nCore_eq (q : Fin 3) : (K (F := F)).nCore q = 2 := by
  match q with
  | 0 => rfl
  | 1 => rfl
  | 2 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipelines' staging cells' rounds. -/
abbrev UP : Type := URounds (GSem nD τ sig) Unit
abbrev UU : Type := UH × (UP × Counters)

abbrev EH : Emb UH (MT nD τ sig (HIx 3) (Elt F) ℕ UU ℕ) := embL
def EP : Emb UP (MT nD τ sig (HIx 3) (Elt F) ℕ UU ℕ) :=
  ((Emb.inl : Emb UP (UP × Counters)).trans (Emb.inr : Emb (UP × Counters) UU)).trans
    (uEmb (nD := nD) (sig := sig) (Ix := HIx 3) (Val := Elt F) (Name := ℕ) (U := UU) (Lvl := ℕ)).toEmb

instance EP_landsIn : (EP : Emb UP (MT nD τ sig (HIx 3) (Elt F) ℕ UU ℕ)).LandsIn (upEmb : UEmb _ (MT nD τ sig (HIx 3) (Elt F) ℕ UU ℕ)) := by
  unfold EP; infer_instance

end Cert.Kernel.Hand

end
-- ==== Proof.K.Vals.lean ====
/-
  What the three SparseCore kernels compute, as pure functions of the arrays they are handed, at any float
  instance: each vector subcore's result is a left fold of the model's indexed store-with-add
  (lanes in ascending order, colliding lanes accumulated) over the index vectors it reads, sixteen words at a time.

  * The degree kernel: worker w (of 32) folds the 640 sixteen-word chunks of row w of the padded destination list
    into a 10240-word histogram that starts at the zero array, adding the all-ones vector at each chunk's indices.
  * The edge kernel: the tile at (feature group cg of 16, edge half eh of 2) holds rows 4 cg … 4 cg + 3 of the padded,
    transposed feature table as one 40064-word array (row k at offset k · 10016) and folds the 10240 sixteen-word
    chunks of half eh of the padded source and destination lists: for chunk n and row k it gathers the table at
    source + k · 10016 and adds the gathered vector at destination + k · 10016 into an accumulator that starts at
    the zero array.
-/
import proofs.«219763_g10557029614292_week1_w2_488_21_alg».proof.Proof.K.Base
import Idealize.ShloMosaic.Lib.ValueIdx

noncomputable section

namespace Cert.Kernel.Hand

open Cert.Kernel Cert.Kernel.Gen
open Idealize.ShloMosaic Idealize.ShloMosaic.ValueIdx

variable {F : FTy → Type} [FloatOps F]

/-! ## The degree kernel -/

/-- Sixteen consecutive words of a 10240-word list, from word 16 j (zero past its end: never read there). -/
def chunkA (dv : IVec S10240 32) (j : Nat) : IVec S16 32 :=
  fun x => if h : 16 * j + (x 0).val < 10240 then dv (ix1 ⟨16 * j + (x 0).val, h⟩) else 0#32

/-- One indexed store-with-add of the sixteen lanes v at the indices idx into a 10240-word array
    (the array unchanged where an index is out of range: never the case under the precondition). -/
def scatA (h : Vec F S10240 .f32) (idx : IVec S16 32) (v : Vec F S16 .f32) : Vec F S10240 .f32 :=
  if hb : k0_chk1 idx then storeIdx (e := .f32) h ![idx] v (fun _ => 1#1) true (k0_idx1_inb idx hb) else h

/-- The histogram after the first n chunks. -/
def degAcc (dv : IVec S10240 32) (z : Vec F S10240 .f32) : Nat → Vec F S10240 .f32
  | 0 => z
  | n + 1 => scatA (degAcc dv z n) (chunkA dv n) (k0_pay1 (F := F))

/-- Row w of the 32 × 10240 padded destination list. -/
def dvRow (a : IVec S32x10240 32) (w : Fin 32) : IVec S10240 32 := fun j => a (ix2 w (j 0))

/-- The degree kernel's result: row w is worker w's histogram over all 640 chunks of its row. -/
def degOut (a : IVec S32x10240 32) (z : Vec F S10240 .f32) : Vec F S32x10240 .f32 :=
  fun i => degAcc (dvRow a (i 0)) z 640 (ix1 (i 1))

/-! ## The edge kernel -/

/-- An index vector moved to feature row k of the tile's four (row k of the table starts at word k · 10016). -/
def addK (v : IVec S16 32) : Nat → IVec S16 32
  | 0 => v
  | 1 => addi v (broadcast S16 10016#32)
  | 2 => addi v (broadcast S16 20032#32)
  | _ => addi v (broadcast S16 30048#32)

/-- Sixteen consecutive words of half eh of a 2 × 1 × 163840 padded edge list, from word 16 n. -/
def edgeChunk (a : IVec S2x1x163840 32) (eh : Fin 2) (n : Nat) : IVec S16 32 :=
  fun x => if h : 16 * n + (x 0).val < 163840 then a (ix3 eh 0 ⟨16 * n + (x 0).val, h⟩) else 0#32

/-- The tile's table: feature group cg of the 16 × 1 × 40064 packed table. -/
def tabRow (g : Vec F S16x1x40064 .f32) (cg : Fin 16) : Vec F S40064 .f32 := fun j => g (ix3 cg 0 (j 0))

/-- The gather of sixteen table words (the zero vector where an index is out of range: never the case). -/
def gathB (tab : Vec F S40064 .f32) (idx : IVec S16 32) : Vec F S16 .f32 :=
  if hb : k2_chk1 idx then loadIdx (e := .f32) tab ![idx] (k2_idx1_inb idx hb) else fun _ => (Scalar.ofBits .f32 0x00000000#32 : F .f32)

/-- One indexed store-with-add into the 40064-word accumulator. -/
def scatB (acc : Vec F S40064 .f32) (idx : IVec S16 32) (v : Vec F S16 .f32) : Vec F S40064 .f32 :=
  if hb : k2_chk1 idx then storeIdx (e := .f32) acc ![idx] v (fun _ => 1#1) true (k2_idx1_inb idx hb) else acc

/-- The accumulator after the first p steps; step p = 4 n + k is chunk n of the half's edge list at feature row k. -/
def edgeAcc (tab : Vec F S40064 .f32) (srcs dsts : IVec S2x1x163840 32) (eh : Fin 2) (z : Vec F S40064 .f32) : Nat → Vec F S40064 .f32
  | 0 => z
  | p + 1 => scatB (edgeAcc tab srcs dsts eh z p) (addK (edgeChunk dsts eh (p / 4)) (p % 4)) (gathB tab (addK (edgeChunk srcs eh (p / 4)) (p % 4)))

/-- The edge kernel's result: entry (cg, eh, 0, ·) is that tile's accumulator after all 4 · 10240 steps. -/
def edgeOut (g : Vec F S16x1x40064 .f32) (srcs dsts : IVec S2x1x163840 32) (z : Vec F S40064 .f32) : Vec F S16x2x1x40064 .f32 :=
  fun i => edgeAcc (tabRow g (i 0)) srcs dsts (i 1) z 40960 (ix1 (i 3))

/-! ## What the kernels' assumed index checks need of the lists they read -/

/-- Every word of the padded destination list names a histogram slot. -/
def DegPre (a : IVec S32x10240 32) : Prop := ∀ j, (a j).toNat < 10240

/-- Every word of a padded edge list is a node number or the padding word 10000. -/
def EdgePre (a : IVec S2x1x163840 32) : Prop := ∀ j, (a j).toNat ≤ 10000

theorem addK_one (v : IVec S16 32) : addK v 1 = k2_pay1 (F := F) v := rfl

end Cert.Kernel.Hand

end
-- ==== Proof.K.Chain.lean ====
/-
  The host side of the program, as data: the six straight lines of host operations between the three SparseCore
  calls and the three TensorCore regions, the program as their composition, and the chain of buffer contents the
  run passes through: each straight line rewrites the buffers its operations write, each SparseCore call puts its
  kernel's value at its result array, each TensorCore region its body's value at its result array. The value of the
  program's result is the last link of the chain read at the result array.
-/
import proofs.«219763_g10557029614292_week1_w2_488_21_alg».proof.Proof.K.Vals
import Idealize.ShloMosaic.Lib.StableHlo.Run

noncomputable section

namespace Cert.Kernel.Hand

open Cert.Kernel Cert.Kernel.Gen
open Idealize.ShloMosaic Idealize.ShloMosaic.StableHlo Idealize.SL.Sem

variable {F : FTy → Type} [FloatOps F]

/-! ## The straight lines -/

/-- Before the degree kernel: the edge list split, padded and laid out for the kernels, the zero arrays, the reshaped parameters. -/
abbrev ops0 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    reshape main_v1 main_v4 rfl shapeCasts_S320000_S2x160000,
    nullary main_c (constantI S_ 32 10000#32),
    TRef.unary (TRef.of (T := ⟨S_, .i32⟩) main_c) main_call0.v0 id,
    TRef.binary (TRef.of (T := ⟨S2x160000, .i32⟩) main_v4) main_call0.v0 main_call0.v1 (fun x v => pad S2x163840 ![0, 0] ![0, 3840] ![0, 0] x v pads_S2x160000_S2x163840_000_038400 h_S_),
    reshape main_v5 main_v6 rfl shapeCasts_S2x163840_S2x1x163840,
    reshape main_v3 main_v7 rfl shapeCasts_S320000_S2x160000,
    nullary main_c_0 (constantI S_ 32 10000#32),
    TRef.unary (TRef.of (T := ⟨S_, .i32⟩) main_c_0) main_call1.v0 id,
    TRef.binary (TRef.of (T := ⟨S2x160000, .i32⟩) main_v7) main_call1.v0 main_call1.v1 (fun x v => pad S2x163840 ![0, 0] ![0, 3840] ![0, 0] x v pads_S2x160000_S2x163840_000_038400 h_S_),
    reshape main_v8 main_v9 rfl shapeCasts_S2x163840_S2x1x163840,
    reshape main_v3 main_v10 rfl shapeCasts_S320000_S32x10000,
    nullary main_c_1 (constantI S_ 32 10000#32),
    TRef.unary (TRef.of (T := ⟨S_, .i32⟩) main_c_1) main_call2.v0 id,
    TRef.binary (TRef.of (T := ⟨S32x10000, .i32⟩) main_v10) main_call2.v0 main_call2.v1 (fun x v => pad S32x10240 ![0, 0] ![0, 240] ![0, 0] x v pads_S32x10000_S32x10240_000_02400 h_S_),
    nullary main_cst (constant S_ .f32 0x00000000#32),
    unary main_cst main_v12 (broadcastInDim S10240 ![] bcast_S_S10240 : (⟨S_, .f32⟩ : BufTy).Contents (Elt F) → (⟨S10240, .f32⟩ : BufTy).Contents (Elt F)),
    nullary main_cst_2 (constant S_ .f32 0x00000000#32),
    unary main_cst_2 main_v13 (broadcastInDim S40064 ![] bcast_S_S40064 : (⟨S_, .f32⟩ : BufTy).Contents (Elt F) → (⟨S40064, .f32⟩ : BufTy).Contents (Elt F)),
    reshape main_arg2 main_v14 rfl shapeCasts_S10000_S1x10000,
    reshape main_arg4 main_v15 rfl shapeCasts_S64_S64x1,
    reshape main_arg6 main_v16 rfl shapeCasts_S64_S64x1,
    reshape main_arg8 main_v17 rfl shapeCasts_S1_S1x1 ]

/-- After the degree kernel: the histograms cut to the nodes and transposed. -/
abbrev ops1 : List (HloOp τ sig (Elt F)) :=
  [ unary main_v18 main_v19 ((extractStridedSlice S32x10000 ![0, 0] · slices_S32x10240_S32x10000_0_0) : (⟨S32x10240, .f32⟩ : BufTy).Contents (Elt F) → (⟨S32x10000, .f32⟩ : BufTy).Contents (Elt F)),
    unary main_v19 main_v20 ((transpose S10000x32 [1, 0] · transposes_S32x10000_S10000x32_1_0) : (⟨S32x10000, .f32⟩ : BufTy).Contents (Elt F) → (⟨S10000x32, .f32⟩ : BufTy).Contents (Elt F)) ]

/-- Before the first edge kernel: the first layer's features padded and packed four rows to a tile. -/
abbrev ops2 : List (HloOp τ sig (Elt F)) :=
  [ nullary main_c_3 (constantI S_ 32 0#32),
    TRef.unary (TRef.of (T := ⟨S_, .i32⟩) main_c_3) main_call3.v0 (sitofp (F := F) .f32),
    TRef.binary (TRef.of (T := ⟨S64x10000, .f32⟩) main_v21) main_call3.v0 main_call3.v1 (fun x v => pad S64x10016 ![0, 0] ![0, 16] ![0, 0] x v pads_S64x10000_S64x10016_000_0160 h_S_),
    reshape main_v22 main_v23 rfl shapeCasts_S64x10016_S16x1x40064 ]

/-- After the first edge kernel: the two halves' accumulators unpacked and cut to the nodes. -/
abbrev ops3 : List (HloOp τ sig (Elt F)) :=
  [ reshape main_v24 main_v25 rfl shapeCasts_S16x2x1x40064_S16x2x40064,
    reshape main_v25 main_v26 rfl shapeCasts_S16x2x40064_S16x2x4x10016,
    unary main_v26 main_v27 ((extractStridedSlice S16x1x4x10016 ![0, 0, 0, 0] · slices_S16x2x4x10016_S16x1x4x10016_0_0_0_0) : (⟨S16x2x4x10016, .f32⟩ : BufTy).Contents (Elt F) → (⟨S16x1x4x10016, .f32⟩ : BufTy).Contents (Elt F)),
    reshape main_v27 main_v28 rfl shapeCasts_S16x1x4x10016_S16x4x10016,
    reshape main_v28 main_v29 rfl shapeCasts_S16x4x10016_S64x10016,
    unary main_v29 main_v30 ((extractStridedSlice S64x10000 ![0, 0] · slices_S64x10016_S64x10000_0_0) : (⟨S64x10016, .f32⟩ : BufTy).Contents (Elt F) → (⟨S64x10000, .f32⟩ : BufTy).Contents (Elt F)),
    unary main_v26 main_v31 ((extractStridedSlice S16x1x4x10016 ![0, 1, 0, 0] · slices_S16x2x4x10016_S16x1x4x10016_0_1_0_0) : (⟨S16x2x4x10016, .f32⟩ : BufTy).Contents (Elt F) → (⟨S16x1x4x10016, .f32⟩ : BufTy).Contents (Elt F)),
    reshape main_v31 main_v32 rfl shapeCasts_S16x1x4x10016_S16x4x10016,
    reshape main_v32 main_v33 rfl shapeCasts_S16x4x10016_S64x10016,
    unary main_v33 main_v34 ((extractStridedSlice S64x10000 ![0, 0] · slices_S64x10016_S64x10000_0_0) : (⟨S64x10016, .f32⟩ : BufTy).Contents (Elt F) → (⟨S64x10000, .f32⟩ : BufTy).Contents (Elt F)) ]

/-- Before the second edge kernel: the second layer's features padded and packed. -/
abbrev ops4 : List (HloOp τ sig (Elt F)) :=
  [ nullary main_c_4 (constantI S_ 32 0#32),
    TRef.unary (TRef.of (T := ⟨S_, .i32⟩) main_c_4) main_call4.v0 (sitofp (F := F) .f32),
    TRef.binary (TRef.of (T := ⟨S64x10000, .f32⟩) main_v35) main_call4.v0 main_call4.v1 (fun x v => pad S64x10016 ![0, 0] ![0, 16] ![0, 0] x v pads_S64x10000_S64x10016_000_0160 h_S_),
    reshape main_v36 main_v37 rfl shapeCasts_S64x10016_S16x1x40064 ]

/-- After the second edge kernel: the two halves' accumulators unpacked and cut to the nodes. -/
abbrev ops5 : List (HloOp τ sig (Elt F)) :=
  [ reshape main_v38 main_v39 rfl shapeCasts_S16x2x1x40064_S16x2x40064,
    reshape main_v39 main_v40 rfl shapeCasts_S16x2x40064_S16x2x4x10016,
    unary main_v40 main_v41 ((extractStridedSlice S16x1x4x10016 ![0, 0, 0, 0] · slices_S16x2x4x10016_S16x1x4x10016_0_0_0_0) : (⟨S16x2x4x10016, .f32⟩ : BufTy).Contents (Elt F) → (⟨S16x1x4x10016, .f32⟩ : BufTy).Contents (Elt F)),
    reshape main_v41 main_v42 rfl shapeCasts_S16x1x4x10016_S16x4x10016,
    reshape main_v42 main_v43 rfl shapeCasts_S16x4x10016_S64x10016,
    unary main_v43 main_v44 ((extractStridedSlice S64x10000 ![0, 0] · slices_S64x10016_S64x10000_0_0) : (⟨S64x10016, .f32⟩ : BufTy).Contents (Elt F) → (⟨S64x10000, .f32⟩ : BufTy).Contents (Elt F)),
    unary main_v40 main_v45 ((extractStridedSlice S16x1x4x10016 ![0, 1, 0, 0] · slices_S16x2x4x10016_S16x1x4x10016_0_1_0_0) : (⟨S16x2x4x10016, .f32⟩ : BufTy).Contents (Elt F) → (⟨S16x1x4x10016, .f32⟩ : BufTy).Contents (Elt F)),
    reshape main_v45 main_v46 rfl shapeCasts_S16x1x4x10016_S16x4x10016,
    reshape main_v46 main_v47 rfl shapeCasts_S16x4x10016_S64x10016,
    unary main_v47 main_v48 ((extractStridedSlice S64x10000 ![0, 0] · slices_S64x10016_S64x10000_0_0) : (⟨S64x10016, .f32⟩ : BufTy).Contents (Elt F) → (⟨S64x10000, .f32⟩ : BufTy).Contents (Elt F)) ]

set_option maxRecDepth 8192 in
set_option maxHeartbeats 4000000 in
/-- The program is the six lines with the three SparseCore calls and the three TensorCore regions between them. -/
theorem main_eq (d : Dev nD) : main (F := F) d =
    (seq ops0 >>= fun _ => sc.run d 0 >>= fun _ => seq ops1 >>= fun _ =>
      Prog.lift (.customCall (SparseCore.inner (Pipeline.entry 0)) ()) >>= fun _ => seq ops2 >>= fun _ => sc.run d 1 >>= fun _ => seq ops3 >>= fun _ =>
      Prog.lift (.customCall (SparseCore.inner (Pipeline.entry 1)) ()) >>= fun _ => seq ops4 >>= fun _ => sc.run d 2 >>= fun _ => seq ops5 >>= fun _ =>
      Prog.lift (.customCall (SparseCore.inner (Pipeline.entry 2)) ()) >>= fun _ => pure ⟨⟩) := rfl

/-! ## The buffers held, and the chain of their contents -/

/-- A TensorCore reference as a buffer of the device. -/
abbrev rf (r : Ref sig .tc) : DevRef τ sig := Proc.devRef .tc r

/-- The TensorCore's arrays that outlive a region: every buffer of the program's values. -/
abbrev Sall : Finset (DevRef τ sig) :=
  (Finset.univ.filter fun b : Ref sig .tc => ¬ b.isScoped).map ⟨Proc.devRef (sig := sig) (.tc : Proc τ), Proc.devRef_injective _⟩

theorem mem_Sall {b : Ref sig .tc} (h : b.isScoped = false) : rf b ∈ Sall :=
  Finset.mem_map_of_mem _ (Finset.mem_filter.mpr ⟨Finset.mem_univ _, by simp [h]⟩)

/-- The first layer's region: the features times the first weights, scaled by the inverse root degrees. -/
def tc0 (V : Valuation τ sig (Elt F)) : Vec F S64x10000 .f32 :=
  k1_pay1 (V (rf main_v20)) (V (rf main_arg3)) (V (rf main_arg0))
/-- The second layer's region. -/
def tc1 (V : Valuation τ sig (Elt F)) : Vec F S64x10000 .f32 :=
  k3_pay1 (V (rf main_v20)) (V (rf main_v30)) (V (rf main_v34)) (V (rf main_v21)) (V (rf main_v15)) (V (rf main_arg5))
/-- The read-out region. -/
def tc2 (V : Valuation τ sig (Elt F)) : Vec F S64x1 .f32 :=
  k5_pay1 (k5_pay2 (V (rf main_v20)) (V (rf main_v44)) (V (rf main_v48)) (V (rf main_v35)) (V (rf main_v16)) (V (rf main_v14)) (V (rf main_arg7))) (V (rf main_v17))

/-- One SparseCore call's value at its result array. -/
def scDeg (V : Valuation τ sig (Elt F)) : Vec F S32x10240 .f32 := degOut (V (rf main_v11)) (V (rf main_v12))
def scEdge1 (V : Valuation τ sig (Elt F)) : Vec F S16x2x1x40064 .f32 := edgeOut (V (rf main_v23)) (V (rf main_v6)) (V (rf main_v9)) (V (rf main_v13))
def scEdge2 (V : Valuation τ sig (Elt F)) : Vec F S16x2x1x40064 .f32 := edgeOut (V (rf main_v37)) (V (rf main_v6)) (V (rf main_v9)) (V (rf main_v13))

variable (m : (ℓ : Loc nD τ sig) → Buf (Elt F) ℓ) (d : Dev nD)

def V0 : Valuation τ sig (Elt F) := launchContents m d
def V1 : Valuation τ sig (Elt F) := after ops0 (V0 m d)
def V2 : Valuation τ sig (Elt F) := Function.update (V1 m d) (rf main_v18) (scDeg (V1 m d))
def V3 : Valuation τ sig (Elt F) := after ops1 (V2 m d)
def V4 : Valuation τ sig (Elt F) := Function.update (V3 m d) (rf main_v21) (tc0 (V3 m d))
def V5 : Valuation τ sig (Elt F) := after ops2 (V4 m d)
def V6 : Valuation τ sig (Elt F) := Function.update (V5 m d) (rf main_v24) (scEdge1 (V5 m d))
def V7 : Valuation τ sig (Elt F) := after ops3 (V6 m d)
def V8 : Valuation τ sig (Elt F) := Function.update (V7 m d) (rf main_v35) (tc1 (V7 m d))
def V9 : Valuation τ sig (Elt F) := after ops4 (V8 m d)
def V10 : Valuation τ sig (Elt F) := Function.update (V9 m d) (rf main_v38) (scEdge2 (V9 m d))
def V11 : Valuation τ sig (Elt F) := after ops5 (V10 m d)
def V12 : Valuation τ sig (Elt F) := Function.update (V11 m d) (rf main_v49) (tc2 (V11 m d))

/-- The program's result, as a term of the launch memory. -/
def kOut : Vec F S64x1 .f32 := V12 m d (rf main_v49)

end Cert.Kernel.Hand

end
-- ==== Proof.K.PreDef.lean ====
/-
  What the kernels' assumed index checks need of the launch memory: the padded destination list the degree
  kernel reads names histogram slots only, and the padded edge lists both edge kernels read hold node numbers
  or the padding word, at the values @main's host operations give those buffers.
-/
import proofs.«219763_g10557029614292_week1_w2_488_21_alg».proof.Proof.K.Chain

noncomputable section

namespace Cert.Kernel.Hand

open Cert.Kernel Cert.Kernel.Gen
open Idealize.ShloMosaic Idealize.SL.Sem

variable {F : FTy → Type} [FloatOps F]

/-- The index lists the three SparseCore calls read, as @main computes them from the launch memory, are in range. -/
def PreOK (m : (ℓ : Loc nD τ sig) → Buf (Elt F) ℓ) : Prop :=
  ∀ d : Dev nD, DegPre (V1 m d (rf main_v11))
    ∧ EdgePre (V5 m d (rf main_v6)) ∧ EdgePre (V5 m d (rf main_v9))
    ∧ EdgePre (V9 m d (rf main_v6)) ∧ EdgePre (V9 m d (rf main_v9))

end Cert.Kernel.Hand

end
-- ==== Proof.K.DegBody.lean ====
/-
  The degree kernel's task on one vector subcore, with its value.

  Worker w = 16 c + s (SparseCore c of 2, vector subcore s of 16) copies row w of the padded 32 × 10240 destination
  list into its index scratch and the 10240-word zero array into its histogram scratch; in 160 trips, four chunks
  of sixteen index words a trip, it adds the all-ones vector into the histogram at each chunk's indices (an indexed
  store-with-add, lanes in ascending order); it copies the histogram out to row w of the 32 × 10240 result.
  Under the hypothesis that every word of the destination list is below 10240, each of the 640 range checks the
  task meets holds, and the row it writes is the left fold degAcc over its 640 chunks: after trip t the histogram
  scratch holds degAcc at 4 t, the loop's invariant.
-/
import proofs.«219763_g10557029614292_week1_w2_488_21_alg».proof.Proof.K.Vals
import Idealize.ShloMosaic.Lib.Writes

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## The arrays, the scratch, the rows -/

/-- The padded destination list, the zero array and the result, as locations of device `d`. -/
abbrev degALoc (d : Dev nD) : Loc nD τ sig := (SparseCore.T d).loc main_v11
abbrev degZLoc (d : Dev nD) : Loc nD τ sig := (SparseCore.T d).loc main_v12
abbrev degOLoc (d : Dev nD) : Loc nD τ sig := (SparseCore.T d).loc main_v18

abbrev degAV : Memref sig .scVector .hbm S32x10240 .i32 := Memref.whole main_v11_scv
abbrev degZV : Memref sig .scVector .hbm S10240 .f32 := Memref.whole main_v12_scv
abbrev degOV : Memref sig .scVector .hbm S32x10240 .f32 := Memref.whole main_v18_scv
/-- A task's scratch: the histogram, the fetched index row. -/
abbrev degSH : Memref sig .scVector .vmem S10240 .f32 := Memref.whole cc0_scratch0
abbrev degSI : Memref sig .scVector .vmem S10240 .i32 := Memref.whole cc0_scratch1

theorem degHdiv : 32 ∣ S32x10240.size 0 := ⟨1, rfl⟩
/-- Row `w` of a 32 × 10240 array, as a rectangle and as a set of indices. -/
abbrev degRow (w : Fin 32) : Rect S32x10240 := Rect.part (s := S32x10240) (a₀ := 0) degHdiv w
abbrev degRowSet (w : Fin 32) : Finset S32x10240.Idx := ((degOV : Memref sig .scVector .hbm S32x10240 .f32).view.slice (degRow w)).set

abbrev degCV (L : grid0.Coords) : Fin τ.nSC := (L 0).castLE hcore0
abbrev degJV (L : grid0.Coords) : Fin τ.nSub := (L 1).castLE hsub0
/-- The worker at grid point `L`: 16 times the SparseCore plus the vector subcore. -/
def degW (L : grid0.Coords) : Fin 32 :=
  ⟨16 * (L 0).val + (L 1).val, by
    have h0 : (L 0).val < 2 := (L 0).isLt
    have h1 : (L 1).val < 16 := (L 1).isLt
    omega⟩

/-- What worker `w`'s task is handed: a share of row `w` of the destination list, a share of the zero array, row `w`
    of the result at any contents. -/
abbrev degGo (a : IVec S32x10240 32) (z : Vec F S10240 .f32) (qa qz : PosShare TreeShare) (d : Dev nD) (w : Fin 32) : sProp 𝕄 :=
  iprop((degALoc d ↦[degRowSet w]{qa} a) ∗ (degZLoc d ↦{qz} z) ∗ ∃ f, degOLoc d ↦[degRowSet w]{fullShare} f)

/-! ## The task's row as its program slices it -/

abbrev degRowK (L : grid0.Coords) : Rect S32x10240 := Rect.unit (s := S32x10240) (k0_off1 L) S1x10240.size (k0_off1_inb L)
abbrev degARowK (L : grid0.Coords) : Memref sig .scVector .hbm S10240 .i32 :=
  ((degAV : Memref sig .scVector .hbm S32x10240 .i32).slice (degRowK L) (fun _ => rfl)).squeeze S10240 squeezes_S1x10240_S10240
abbrev degORowK (L : grid0.Coords) : Memref sig .scVector .hbm S10240 .f32 :=
  ((degOV : Memref sig .scVector .hbm S32x10240 .f32).slice (degRowK L) (fun _ => rfl)).squeeze S10240 squeezes_S1x10240_S10240

theorem degRowK_eq (L : grid0.Coords) : degRowK L = degRow (degW L) := by
  unfold degRowK degRow Rect.part Rect.block
  congr 1 <;> funext a
  · rw [k0_off1_eq]
    match a with
    | 0 => simp [Shape.partIx, Shape.partSize, degW]
    | 1 => simp [Shape.partIx, Shape.partSize]
  · match a with
    | 0 => simp [Shape.partSize]
    | 1 => simp [Shape.partSize]

theorem set_degARowK (L : grid0.Coords) : (degARowK L).view.set = degRowSet (degW L) := by
  show (((degAV : Memref sig .scVector .hbm S32x10240 .i32).view.slice (degRowK L)).reshape S10240 squeezes_S1x10240_S10240.numel_eq).set
    = ((degOV : Memref sig .scVector .hbm S32x10240 .f32).view.slice (degRow (degW L))).set
  rw [View.set_reshape]
  exact degRowK_eq L ▸ rfl
theorem set_degORowK (L : grid0.Coords) : (degORowK L).view.set = degRowSet (degW L) := by
  show (((degOV : Memref sig .scVector .hbm S32x10240 .f32).view.slice (degRowK L)).reshape S10240 squeezes_S1x10240_S10240.numel_eq).set
    = ((degOV : Memref sig .scVector .hbm S32x10240 .f32).view.slice (degRow (degW L))).set
  rw [View.set_reshape]
  exact degRowK_eq L ▸ rfl

/-- The rows as sets of indices: the parts of the cut of the first axis into 32. -/
theorem degRowSet_eq (w : Fin 32) : degRowSet w = (degRow w).set := by
  show ((View.whole (main_v18_scv : Ref sig .scVector)).slice (degRow w)).set = _
  rw [View.set_slice_whole]

section Tile

variable (d : Dev nD) (L : grid0.Coords)

theorem pts_degARowK (q : PosShare TreeShare) (f : Buf (Elt F) (degALoc d)) :
    ((degARowK L).view.loc (V d (degCV L) (degJV L)) ↦[(degARowK L).view.set]{q} f : sProp 𝕄) = degALoc d ↦[degRowSet (degW L)]{q} f := by
  rw [set_degARowK]
theorem pts_degORowK (f : Buf (Elt F) (degOLoc d)) :
    ((degORowK L).view.loc (V d (degCV L) (degJV L)) ↦[(degORowK L).view.set]{fullShare} f : sProp 𝕄) = degOLoc d ↦[degRowSet (degW L)]{fullShare} f := by
  rw [set_degORowK]
theorem pts_degZ (q : PosShare TreeShare) (f : Buf (Elt F) (degZLoc d)) :
    ((degZV : Memref sig .scVector .hbm S10240 .f32).view.loc (V d (degCV L) (degJV L)) ↦{q} f : sProp 𝕄) = degZLoc d ↦{q} f := rfl
theorem pts_degSH (f : Buf (Elt F) ((V d (degCV L) (degJV L)).loc cc0_scratch0)) :
    ((degSH : Memref sig .scVector .vmem S10240 .f32).view.loc (V d (degCV L) (degJV L)) ↦{fullShare} f : sProp 𝕄) = (V d (degCV L) (degJV L)).loc cc0_scratch0 ↦{fullShare} f := rfl
theorem pts_degSI (f : Buf (Elt F) ((V d (degCV L) (degJV L)).loc cc0_scratch1)) :
    ((degSI : Memref sig .scVector .vmem S10240 .i32).view.loc (V d (degCV L) (degJV L)) ↦{fullShare} f : sProp 𝕄) = (V d (degCV L) (degJV L)).loc cc0_scratch1 ↦{fullShare} f := rfl
/-- The histogram scratch as the indexed store holds it: through its whole-rectangle view. -/
theorem pts_degSH_whole (f : Buf (Elt F) ((V d (degCV L) (degJV L)).loc cc0_scratch0)) :
    (((degSH : Memref sig .scVector .vmem S10240 .f32).access (.whole S10240)).loc (V d (degCV L) (degJV L)) ↦[((degSH : Memref sig .scVector .vmem S10240 .f32).access (.whole S10240)).set]{fullShare} f : sProp 𝕄)
      = (V d (degCV L) (degJV L)).loc cc0_scratch0 ↦{fullShare} f := by
  rw [show ((degSH : Memref sig .scVector .vmem S10240 .f32).access (.whole S10240)).set = Finset.univ from Memref.set_access_whole (cc0_scratch0 : Ref sig .scVector)]

/-! ## The vector subcore's own semaphores and buffers -/

abbrev degCell0 : GSem nD τ sig := (V d (degCV L) (degJV L), .dma cc0_scoped0.sem)
abbrev degCell1 : GSem nD τ sig := (V d (degCV L) (degJV L), .dma cc0_scoped1.sem)
abbrev degCell2 : GSem nD τ sig := (V d (degCV L) (degJV L), .dma cc0_scoped2.sem)

theorem degOwnSems0_V :
    (ownSems0 (V d (degCV L) (degJV L)) : sProp 𝕄)
      = iprop(semVal (degCell0 d L) 0 ∗ semVal (degCell1 d L) 0 ∗ semVal (degCell2 d L) 0
          ∗ bigSep ((((ownCells (V d (degCV L) (degJV L))).erase (degCell0 d L)).erase (degCell1 d L)).erase (degCell2 d L))
              fun g => semVal g 0) := by
  unfold SparseCore.Cfg.ownSems0
  rw [SparseCore.bigSep_erase' ((mem_ownCells (g := degCell0 d L)).mpr ⟨rfl, by
      show (SemLoc.dma cc0_scoped0.sem : SemLoc sig).isScoped .scVector = true; decide⟩),
    SparseCore.bigSep_erase' (Finset.mem_erase.mpr ⟨by simp [degCell0, degCell1]; decide, (mem_ownCells (g := degCell1 d L)).mpr ⟨rfl, by
      show (SemLoc.dma cc0_scoped1.sem : SemLoc sig).isScoped .scVector = true; decide⟩⟩),
    SparseCore.bigSep_erase' (Finset.mem_erase.mpr ⟨by simp [degCell1, degCell2]; decide, Finset.mem_erase.mpr ⟨by simp [degCell0, degCell2]; decide,
      (mem_ownCells (g := degCell2 d L)).mpr ⟨rfl, by show (SemLoc.dma cc0_scoped2.sem : SemLoc sig).isScoped .scVector = true; decide⟩⟩⟩)]

/-- The two scratch buffers are among the subcore's own: they are them, at some contents, and the rest. -/
theorem degOwnBufs_V :
    (ownBufs (V d (degCV L) (degJV L)) : sProp 𝕄)
      = iprop((∃ f, (V d (degCV L) (degJV L)).loc cc0_scratch0 ↦{fullShare} f) ∗ (∃ f, (V d (degCV L) (degJV L)).loc cc0_scratch1 ↦{fullShare} f)
          ∗ bigSep (((ownRefs (τ := τ) (.scVector (degCV L) (degJV L))).erase ((Proc.scVector (degCV L) (degJV L)).devRef cc0_scratch0)).erase
              ((Proc.scVector (degCV L) (degJV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (degCV L) (degJV L))
    (b := (Proc.scVector (degCV L) (degJV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (degCV L) (degJV L)) (b := (Proc.scVector (degCV L) (degJV L)).devRef cc0_scratch1) rfl⟩)]

end Tile

/-! ## What the copies and the loads read, what the indexed stores leave -/

section Values
variable [FloatOps F]

/-- Row `w` of the destination list, read through the task's own slice of it: word `j` of the slice is entry
    `(16 c + s, j)` of the list. -/
theorem degARowK_read (a : IVec S32x10240 32) (L : grid0.Coords) :
    (degARowK L).view.read (Elt F) a = dvRow a (degW L) := by
  funext j
  refine ((View.read_apply _ _).trans (cast_eq _ _)).trans ?_
  have e : (degARowK L).view.emb j = ix2 (degW L) (j 0) := by
    show (degRowK L).emb (Shape.reshapeEquiv _ j) = _
    rw [Shape.reshapeEquiv_cons_one]
    funext ax; apply Fin.ext
    rw [Rect.emb_apply]
    match ax with
    | 0 =>
      show (k0_off1 L) 0 + 1 * 0 = 16 * (L 0).val + (L 1).val
      rw [k0_off1_eq]; simp
    | 1 =>
      show (k0_off1 L) 1 + 1 * (j 0).val = (j 0).val
      rw [k0_off1_eq]; simp
  rw [e]; rfl

/-- Sixteen words loaded from word `16 n` of the fetched row are its chunk `n`. -/
theorem degChunk_read (dv : IVec S10240 32) (off : Fin 1 → Nat) (inb : ∀ a, off a + S16.size a ≤ S10240.size a) (n : Nat)
    (ho : off = ![16 * n]) :
    (degSI : Memref sig .scVector .vmem S10240 .i32).view.readAt (Elt F) (Rect.unit (s := S10240) off S16.size inb).toLoadRect dv = chunkA dv n := by
  subst ho
  funext x
  have hx : 16 * n + (x 0).val < 10240 := by
    have h0 := inb 0
    have h1 : (x 0).val < 16 := (x 0).isLt
    simp at h0; omega
  rw [View.readAt_apply]
  show dv _ = _
  unfold chunkA
  rw [dif_pos hx]
  congr 1
  funext ax; apply Fin.ext
  match ax with
  | 0 =>
    show 16 * n + 1 * (x 0).val = 16 * n + (x 0).val
    omega

/-- Under the precondition every chunk of every row passes the range check. -/
theorem degChk1 {a : IVec S32x10240 32} (hpre : DegPre a) (w : Fin 32) (n : Nat) : k0_chk1 (chunkA (dvRow a w) n) := by
  intro ax x
  obtain rfl : ax = 0 := Subsingleton.elim _ _
  show ((chunkA (dvRow a w) n) x).toNat < 10240
  unfold chunkA
  split
  · exact hpre _
  · simp
theorem degChk2 {a : IVec S32x10240 32} (hpre : DegPre a) (w : Fin 32) (n : Nat) : k0_chk2 (chunkA (dvRow a w) n) := degChk1 hpre w n
theorem degChk3 {a : IVec S32x10240 32} (hpre : DegPre a) (w : Fin 32) (n : Nat) : k0_chk3 (chunkA (dvRow a w) n) := degChk1 hpre w n
theorem degChk4 {a : IVec S32x10240 32} (hpre : DegPre a) (w : Fin 32) (n : Nat) : k0_chk4 (chunkA (dvRow a w) n) := degChk1 hpre w n

/-- One indexed store-with-add through the histogram scratch's whole-rectangle view leaves `scatA` of what it held. -/
theorem degStore_eq (f : Vec F S10240 .f32) (v : IVec S16 32) (h : ∀ a x, ((![v] : Fin 1 → IVec S16 32) a x).toNat < S10240.size a) :
    ((degSH : Memref sig .scVector .vmem S10240 .f32).access (.whole S10240)).write (Elt F) f
        (storeIdx (((degSH : Memref sig .scVector .vmem S10240 .f32).access (.whole S10240)).read (Elt F) f) ![v] (k0_pay1 (F := F)) (fun _ => 1#1) true h) Finset.univ
      = scatA f v (k0_pay1 (F := F)) := by
  refine (Memref.write_access_whole_univ (Elt F) (cc0_scratch0 : Ref sig .scVector) _ _).trans ?_
  have hr : ((degSH : Memref sig .scVector .vmem S10240 .f32).access (.whole S10240)).read (Elt F) f = f :=
    Memref.read_access_whole (Elt F) (cc0_scratch0 : Ref sig .scVector) f
  rw [hr]
  unfold scatA
  exact (dif_pos (show k0_chk1 v from h)).symm

theorem degTrips : k0_t1_loop.trips = 160 := by decide

/-- The result's row as the task slices it: word `j` of the slice is entry `(16 c + s, j)` of the result. -/
theorem degORowK_emb (L : grid0.Coords) (j : S10240.Idx) : (degORowK L).view.emb j = ix2 (degW L) (j 0) := by
  show (degRowK L).emb (Shape.reshapeEquiv _ j) = _
  rw [Shape.reshapeEquiv_cons_one]
  funext ax; apply Fin.ext
  rw [Rect.emb_apply]
  match ax with
  | 0 =>
    show (k0_off1 L) 0 + 1 * 0 = 16 * (L 0).val + (L 1).val
    rw [k0_off1_eq]; simp
  | 1 =>
    show (k0_off1 L) 1 + 1 * (j 0).val = (j 0).val
    rw [k0_off1_eq]; simp

/-- The histogram copied out whole through the task's slice of the result leaves, on the task's row, the
    result array's value there. -/
theorem degOut_row (a : IVec S32x10240 32) (z : Vec F S10240 .f32) (L : grid0.Coords) (fo : Vec F S32x10240 .f32) :
    ∀ i ∈ (degORowK L).view.set,
      (degORowK L).view.writes (Elt F) fo [⟨Rect.whole S10240, degAcc (dvRow a (degW L)) z 640⟩] i = degOut a z i := by
  intro i hi
  obtain ⟨j, -, rfl⟩ := Finset.mem_map.mp hi
  have h1 := View.read_writes_cons_emb (degORowK L).view (Val := Elt F) fo (Rect.whole S10240) (degAcc (dvRow a (degW L)) z 640) [] j
  rw [Rect.emb_whole_apply] at h1
  have h2 := ((View.read_apply _ _).trans (cast_eq _ _)).symm.trans h1
  refine h2.trans ?_
  rw [degORowK_emb]
  exact congrArg (degAcc (dvRow a (degW L)) z 640) (eq_ix1 j)

/-- The copy out, read on the task's row of the result as the launch holds it. -/
theorem degOut_lands (a : IVec S32x10240 32) (z : Vec F S10240 .f32) (d : Dev nD) (L : grid0.Coords) (fo : Buf (Elt F) (degOLoc d)) :
    ((degORowK L).view.loc (V d (degCV L) (degJV L)) ↦[(degORowK L).view.set]{fullShare}
        (degORowK L).view.writes (Elt F) fo [⟨Rect.whole S10240, degAcc (dvRow a (degW L)) z 640⟩] : sProp 𝕄)
      ⊢ degOLoc d ↦[degRowSet (degW L)]{fullShare} degOut a z :=
  Entails.of_eq ((pointsTo_congr (degOut_row a z L fo)).trans (pts_degORowK (F := F) d L _))

end Values

/-! ## The task -/

section Body
variable [FloatOps F]

/-- What it hands back: the same shares, row `w` of the result at the histogram of row `w`'s 640 chunks. -/
abbrev degTd (a : IVec S32x10240 32) (z : Vec F S10240 .f32) (qa qz : PosShare TreeShare) (d : Dev nD) (w : Fin 32) : sProp 𝕄 :=
  iprop((degALoc d ↦[degRowSet w]{qa} a) ∗ (degZLoc d ↦{qz} z) ∗ (degOLoc d ↦[degRowSet w]{fullShare} degOut a z))

/-- The loop's invariant: before trip `t` the index scratch holds row `w` of the destination list and the histogram
    scratch the fold over the row's first `4 t` chunks. -/
def degInv (a : IVec S32x10240 32) (z : Vec F S10240 .f32) (d : Dev nD) (L : grid0.Coords) (t : Nat) (_ : Unit) : sProp 𝕄 :=
  iprop(((degSI : Memref sig .scVector .vmem S10240 .i32).view.loc (V d (degCV L) (degJV L)) ↦{fullShare} dvRow a (degW L))
    ∗ ((degSH : Memref sig .scVector .vmem S10240 .f32).view.loc (V d (degCV L) (degJV L)) ↦{fullShare} degAcc (dvRow a (degW L)) z (4 * t)))

/-- The index row's copy lands row `w` of the destination list in the index scratch. -/
theorem degFetchI (d : Dev nD) (L : grid0.Coords) (a : IVec S32x10240 32) (fi : Buf (Elt F) ((V d (degCV L) (degJV L)).loc cc0_scratch1)) :
    ((degSI : Memref sig .scVector .vmem S10240 .i32).view.loc (V d (degCV L) (degJV L)) ↦{fullShare}
        View.write (Elt F) (degSI : Memref sig .scVector .vmem S10240 .i32).view fi ((degARowK L).view.read (Elt F) a) Finset.univ : sProp 𝕄)
      = ((degSI : Memref sig .scVector .vmem S10240 .i32).view.loc (V d (degCV L) (degJV L)) ↦{fullShare} dvRow a (degW L)) := by
  rw [show View.write (Elt F) (degSI : Memref sig .scVector .vmem S10240 .i32).view fi ((degARowK L).view.read (Elt F) a) Finset.univ = dvRow a (degW L) from
    (View.write_whole_univ _ _ _).trans (degARowK_read a L)]
/-- The zero array's copy lands it in the histogram scratch: the fold over no chunk. -/
theorem degFetchZ (d : Dev nD) (L : grid0.Coords) (a : IVec S32x10240 32) (z : Vec F S10240 .f32) (fh : Buf (Elt F) ((V d (degCV L) (degJV L)).loc cc0_scratch0)) :
    ((degSH : Memref sig .scVector .vmem S10240 .f32).view.loc (V d (degCV L) (degJV L)) ↦{fullShare}
        View.write (Elt F) (degSH : Memref sig .scVector .vmem S10240 .f32).view fh ((degZV : Memref sig .scVector .hbm S10240 .f32).view.read (Elt F) z) Finset.univ : sProp 𝕄)
      = ((degSH : Memref sig .scVector .vmem S10240 .f32).view.loc (V d (degCV L) (degJV L)) ↦{fullShare} degAcc (dvRow a (degW L)) z (4 * 0)) := by
  rw [show View.write (Elt F) (degSH : Memref sig .scVector .vmem S10240 .f32).view fh ((degZV : Memref sig .scVector .hbm S10240 .f32).view.read (Elt F) z) Finset.univ
      = degAcc (dvRow a (degW L)) z (4 * 0) from View.write_whole_univ _ _ _]

/-- One indexed store-with-add of chunk `n` takes the fold over `n` chunks to the fold over `n + 1`. -/
theorem degStep (d : Dev nD) (L : grid0.Coords) (dv : IVec S10240 32) (z : Vec F S10240 .f32) (n : Nat) (v : IVec S16 32) (hv : v = chunkA dv n)
    (h : ∀ a x, ((![v] : Fin 1 → IVec S16 32) a x).toNat < S10240.size a) :
    (((degSH : Memref sig .scVector .vmem S10240 .f32).access (.whole S10240)).loc (V d (degCV L) (degJV L)) ↦[((degSH : Memref sig .scVector .vmem S10240 .f32).access (.whole S10240)).set]{fullShare}
        ((degSH : Memref sig .scVector .vmem S10240 .f32).access (.whole S10240)).write (Elt F) (degAcc dv z n)
          (storeIdx (((degSH : Memref sig .scVector .vmem S10240 .f32).access (.whole S10240)).read (Elt F) (degAcc dv z n)) ![v] (k0_pay1 (F := F)) (fun _ => 1#1) true h) Finset.univ : sProp 𝕄)
      = ((degSH : Memref sig .scVector .vmem S10240 .f32).view.loc (V d (degCV L) (degJV L)) ↦{fullShare} degAcc dv z (n + 1)) := by
  rw [degStore_eq, pts_degSH_whole]
  subst hv
  rfl

theorem deg_trip (a : IVec S32x10240 32) (z : Vec F S10240 .f32) (d : Dev nD) (L : grid0.Coords) (hpre : DegPre a) (k : Fin k0_t1_loop.trips) (u : Unit) :
    degInv a z d L k.val u ⊢ wp frame (wpE (defs₀ (F := F)) 𝒱₀ (V d (degCV L) (degJV L)) none) Set.univ
      (k0_t1_body L degAV (Memref.isWhole_whole _) degZV (Memref.isWhole_whole _) degOV (Memref.isWhole_whole _)
        degSH (Memref.isWhole_whole _) degSI (Memref.isWhole_whole _) cc0_scoped0 cc0_scoped1 cc0_scoped2 k u)
      (degInv a z d L (k.val + 1)) := by
  have hv0 := degChunk_read (F := F) (dvRow a (degW L)) (k0_off2 k) (k0_off2_inb k) (4 * k.val) ((k0_off2_eq k).trans (congrArg (fun n => ![n]) (by omega)))
  have hv1 := degChunk_read (F := F) (dvRow a (degW L)) (k0_off3 k) (k0_off3_inb k) (4 * k.val + 1) ((k0_off3_eq k).trans (congrArg (fun n => ![n]) (by omega)))
  have hv2 := degChunk_read (F := F) (dvRow a (degW L)) (k0_off4 k) (k0_off4_inb k) (4 * k.val + 2) ((k0_off4_eq k).trans (congrArg (fun n => ![n]) (by omega)))
  have hv3 := degChunk_read (F := F) (dvRow a (degW L)) (k0_off5 k) (k0_off5_inb k) (4 * k.val + 3) ((k0_off5_eq k).trans (congrArg (fun n => ![n]) (by omega)))
  have hc0 : k0_chk1 _ := hv0 ▸ degChk1 hpre (degW L) (4 * k.val)
  have hc1 : k0_chk2 _ := hv1 ▸ degChk2 hpre (degW L) (4 * k.val + 1)
  have hc2 : k0_chk3 _ := hv2 ▸ degChk3 hpre (degW L) (4 * k.val + 2)
  have hc3 : k0_chk4 _ := hv3 ▸ degChk4 hpre (degW L) (4 * k.val + 3)
  unfold degInv k0_t1_body
  simp only [Prog.lift, Prog.bind_op, Prog.bind_ret, Prog.pure_eq_ret]
  iintro ⟨Hi, Hh⟩
  -- chunk 4 * k.val
  iapply (wp_load 𝒱₀ (V d (degCV L) (degJV L)) none Set.univ (m := (degSI : Memref sig .scVector .vmem S10240 .i32)) (S := Finset.univ) (Finset.subset_univ _)) $$ Hi; iintro Hi
  rw [wp_assume_of _ _ _ _ hc0]
  ihave Hh' := (Entails.of_eq ((pts_degSH (F := F) d L _).trans (pts_degSH_whole (F := F) d L _).symm)) $$ Hh
  iapply (SparseCore.wp_vectorStoreIdx 𝒱₀ (V d (degCV L) (degJV L)) none Set.univ (base := (degSH : Memref sig .scVector .vmem S10240 .f32))) $$ Hh'; iintro Hh
  ihave Hh := (Entails.of_eq (degStep (F := F) d L (dvRow a (degW L)) z (4 * k.val) _ hv0 _)) $$ Hh
  -- chunk 4 * k.val + 1
  iapply (wp_load 𝒱₀ (V d (degCV L) (degJV L)) none Set.univ (m := (degSI : Memref sig .scVector .vmem S10240 .i32)) (S := Finset.univ) (Finset.subset_univ _)) $$ Hi; iintro Hi
  rw [wp_assume_of _ _ _ _ hc1]
  ihave Hh' := (Entails.of_eq ((pts_degSH (F := F) d L _).trans (pts_degSH_whole (F := F) d L _).symm)) $$ Hh
  iapply (SparseCore.wp_vectorStoreIdx 𝒱₀ (V d (degCV L) (degJV L)) none Set.univ (base := (degSH : Memref sig .scVector .vmem S10240 .f32))) $$ Hh'; iintro Hh
  ihave Hh := (Entails.of_eq (degStep (F := F) d L (dvRow a (degW L)) z (4 * k.val + 1) _ hv1 _)) $$ Hh
  -- chunk 4 * k.val + 2
  iapply (wp_load 𝒱₀ (V d (degCV L) (degJV L)) none Set.univ (m := (degSI : Memref sig .scVector .vmem S10240 .i32)) (S := Finset.univ) (Finset.subset_univ _)) $$ Hi; iintro Hi
  rw [wp_assume_of _ _ _ _ hc2]
  ihave Hh' := (Entails.of_eq ((pts_degSH (F := F) d L _).trans (pts_degSH_whole (F := F) d L _).symm)) $$ Hh
  iapply (SparseCore.wp_vectorStoreIdx 𝒱₀ (V d (degCV L) (degJV L)) none Set.univ (base := (degSH : Memref sig .scVector .vmem S10240 .f32))) $$ Hh'; iintro Hh
  ihave Hh := (Entails.of_eq (degStep (F := F) d L (dvRow a (degW L)) z (4 * k.val + 2) _ hv2 _)) $$ Hh
  -- chunk 4 * k.val + 3
  iapply (wp_load 𝒱₀ (V d (degCV L) (degJV L)) none Set.univ (m := (degSI : Memref sig .scVector .vmem S10240 .i32)) (S := Finset.univ) (Finset.subset_univ _)) $$ Hi; iintro Hi
  rw [wp_assume_of _ _ _ _ hc3]
  ihave Hh' := (Entails.of_eq ((pts_degSH (F := F) d L _).trans (pts_degSH_whole (F := F) d L _).symm)) $$ Hh
  iapply (SparseCore.wp_vectorStoreIdx 𝒱₀ (V d (degCV L) (degJV L)) none Set.univ (base := (degSH : Memref sig .scVector .vmem S10240 .f32))) $$ Hh'; iintro Hh
  ihave Hh := (Entails.of_eq (degStep (F := F) d L (dvRow a (degW L)) z (4 * k.val + 3) _ hv3 _)) $$ Hh
  rw [wp_ret]; imodintro
  rw [show 4 * (k.val + 1) = 4 * k.val + 3 + 1 from by omega]
  isplitl [Hi]
  · iexact Hi
  · iexact Hh

theorem deg_tile_body (a : IVec S32x10240 32) (z : Vec F S10240 .f32) (qa qz : PosShare TreeShare) (d : Dev nD) (L : grid0.Coords)
    (hF : (K (F := F)).Facts) (hpre : DegPre a) (O : CellTallies nD τ sig (HIx 3)) (W : Waits sig (HIx 3)) (hO : ∀ g, O g none = 0) :
    iprop(levAts (K (F := F)).L (K (F := F)).lev ∗ emp ∗ degGo a z qa qz d (degW L)
        ∗ scopedBufs (V d (degCV L) (degJV L)) ∗ scopedSems0 (V d (degCV L) (degJV L)) ∗ owes (V d (degCV L) (degJV L)) O W)
      ⊢ wp frame (wpE (defs₀ (F := F)) 𝒱₀ (V d (degCV L) (degJV L)) none) Set.univ
          (cc0_deg_kernel L degAV (Memref.isWhole_whole _) degZV (Memref.isWhole_whole _) degOV (Memref.isWhole_whole _)
            degSH (Memref.isWhole_whole _) degSI (Memref.isWhole_whole _) cc0_scoped0 cc0_scoped1 cc0_scoped2)
          fun _ => iprop(degTd a z qa qz d (degW L)
            ∗ scopedBufs (V d (degCV L) (degJV L)) ∗ scopedSems0 (V d (degCV L) (degJV L))
            ∗ ∃ W', ⌜∀ p ∈ W', p ∈ W ∨ p.2 = none⌝ ∗ owes (V d (degCV L) (degJV L)) O W') := by
  simp only [cc0_deg_kernel_eq_skeleton]; unfold cc0_deg_kernel_skel
  rw [(K (F := F)).scopedBufs_V hF d (degCV L) (degJV L), SparseCore.Cfg.scopedSems0_V (Val := Elt F) d (degCV L) (degJV L), degOwnSems0_V, degOwnBufs_V]
  iintro ⟨#Hlv, -, ⟨Ha, Hz, %fo, Ho⟩, ⟨⟨%fh, Hh⟩, ⟨%fi, Hi⟩, Hbufs⟩, ⟨Hsem0, Hsem1, Hsem2, Hsems⟩, HO⟩
  ihave Hmw := ((K (F := F)).mayWaits_none (thr := V d (degCV L) (degJV L)) hO) $$ Hlv
  ihave Ha' := (Entails.of_eq (pts_degARowK (F := F) d L qa _).symm) $$ Ha
  ihave Hz' := (Entails.of_eq (pts_degZ (F := F) d L qz _).symm) $$ Hz
  ihave Ho' := (Entails.of_eq (pts_degORowK (F := F) d L _).symm) $$ Ho
  ihave Hh' := (Entails.of_eq (pts_degSH (F := F) d L _).symm) $$ Hh
  ihave Hi' := (Entails.of_eq (pts_degSI (F := F) d L _).symm) $$ Hi
  sl_exec
  sl_for (degInv a z d L) $$ [Hi' Hh']
  case region =>
    intro k u
    exact deg_trip a z d L hpre k u
  · unfold degInv
    isplitl [Hi']
    · iapply (Entails.of_eq (degFetchI (F := F) d L a fi)); iexact Hi'
    · iapply (Entails.of_eq (degFetchZ (F := F) d L a z fh)); iexact Hh'
  iintro %_ HI
  unfold degInv
  rw [show Scf.trips k0_t1_loop.lb k0_t1_loop.ub k0_t1_loop.st = 160 from degTrips]
  icases HI with ⟨Hi, Hh⟩
  sl_exec
  sl_step
  isplitl [Ha' Hz' Ho']
  · isplitl [Ha']
    · iapply (Entails.of_eq (pts_degARowK (F := F) d L qa _)); iexact Ha'
    isplitl [Hz']
    · iexact Hz'
    · iapply (degOut_lands (F := F) a z d L fo); iexact Ho'
  isplitl [Hi Hh Hbufs]
  · isplitl [Hh]; · iexists _; iexact Hh
    isplitl [Hi]; · iexists _; iexact Hi
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (default : HIx 3)) (insert (SemLoc.dma cc0_scoped1.sem, (default : HIx 3)) (insert (SemLoc.dma cc0_scoped0.sem, (default : HIx 3)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Body

end Cert.Kernel.Hand

end
-- ==== Proof.K.EdgeDefs.lean ====
/-
  Names shared by the modules about the edge kernel's body on one vector subcore: the tile's place, its row of the
  result, the arrays' locations, and the staged chunk of an edge list.
-/
import proofs.«219763_g10557029614292_week1_w2_488_21_alg».proof.Proof.K.Base
import proofs.«219763_g10557029614292_week1_w2_488_21_alg».proof.Proof.K.Vals

noncomputable section

namespace Cert.Kernel.Hand

open Cert.Kernel Cert.Kernel.Gen
open Idealize.ShloMosaic Idealize.ShloMosaic.ValueIdx
open Idealize.ShloMosaic.SparseCore (S V T)

namespace cc2_edge

/-- The elements of the result the tile at L writes: row (L 1, L 0). -/
def edgeRow (L : grid2.Coords) : Finset S16x2x1x40064.Idx := Finset.univ.filter fun j => (j 0).val = (L 1).val ∧ (j 1).val = (L 0).val

abbrev cV (L : grid2.Coords) : Fin τ.nSC := (L 0).castLE hcore2
abbrev jV (L : grid2.Coords) : Fin τ.nSub := (L 1).castLE hsub2

/-- The tile's row of the result, as the body slices it. -/
abbrev oRowK (L : grid2.Coords) : Memref sig .scVector .hbm S40064 .f32 :=
  ((Memref.whole main_v24_scv : Memref sig .scVector .hbm S16x2x1x40064 .f32).slice (Rect.unit (s := S16x2x1x40064) (k2_off14 L) S1x1x1x40064.size (k2_off14_inb L)) (fun _ => rfl)).squeeze S40064 squeezes_S1x1x1x40064_S40064

abbrev gLoc (d : Dev nD) : Loc nD τ sig := (SparseCore.T d).loc main_v23
abbrev sLoc (d : Dev nD) : Loc nD τ sig := (SparseCore.T d).loc main_v6
abbrev dLoc (d : Dev nD) : Loc nD τ sig := (SparseCore.T d).loc main_v9
abbrev zLoc (d : Dev nD) : Loc nD τ sig := (SparseCore.T d).loc main_v13
abbrev oLoc (d : Dev nD) : Loc nD τ sig := (SparseCore.T d).loc main_v24

/-- The 8192 words of chunk C of half eh of a padded edge list (zero past its end: never read there). -/
def chunkBuf (a : IVec S2x1x163840 32) (eh : Fin 2) (C : Nat) : IVec S8192 32 :=
  fun x => if h : 8192 * C + (x 0).val < 163840 then a (ix3 eh 0 ⟨8192 * C + (x 0).val, h⟩) else 0#32

theorem chunkBuf_le {a : IVec S2x1x163840 32} (ha : EdgePre a) (eh : Fin 2) (C : Nat) (j : S8192.Idx) : (chunkBuf a eh C j).toNat ≤ 10000 := by
  unfold chunkBuf
  split
  · exact ha _
  · simp

end cc2_edge

end Cert.Kernel.Hand

end
-- ==== Proof.K.EdgeAux.lean ====
/-
  What the edge kernel's copies read and write on one vector subcore, and the subcore's own semaphores and scratch.

  A copy of chunk C of half eh of a padded edge list reads the 8192 words chunkBuf of it; sixteen consecutive words of
  that staged chunk, from word 16 m, are the list's sixteen-word chunk 512 C + m. The copy of the tile's row of the
  packed feature table reads tabRow. The tile at grid point L writes row (L 1, L 0) of the result: the elements
  edgeRow L, and a whole write through the tile's slice leaves word n of what was written at element (L 1, L 0, 0, n).
  The tile's seven DMA semaphores and six scratch arrays are among the subcore's own, each beside the rest.
-/
import proofs.«219763_g10557029614292_week1_w2_488_21_alg».proof.Proof.K.EdgeDefs

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc2_edge

variable {F : FTy → Type}

local notation "𝕄" => MT nD τ sig (HIx 3) (Elt F) ℕ UU ℕ

variable [FloatOps F]

local notation "gW" => (Memref.whole Cert.Kernel.main_v23_scv : Memref Cert.Kernel.sig Kind.scVector Space.hbm Cert.Kernel.S16x1x40064 EltTy.f32)
local notation "sW" => (Memref.whole Cert.Kernel.main_v6_scv : Memref Cert.Kernel.sig Kind.scVector Space.hbm Cert.Kernel.S2x1x163840 EltTy.i32)
local notation "dW" => (Memref.whole Cert.Kernel.main_v9_scv : Memref Cert.Kernel.sig Kind.scVector Space.hbm Cert.Kernel.S2x1x163840 EltTy.i32)

section Aux
variable (d : Dev nD) (L : grid2.Coords)
local notation "thr" => (V d (cV L) (jV L))

/-- One word of a three-axis array read through a row cut from it and squeezed to one axis: the word at the row's
    offsets, the one free coordinate added on the last axis. -/
theorem reshape3_one {n : Nat} (j : (⟨1, ![n]⟩ : Shape).Idx) (h : (⟨1, ![n]⟩ : Shape).numel = (⟨3, ![1, 1, n]⟩ : Shape).numel) :
    Shape.reshapeEquiv h j = ix3 (0 : Fin 1) (0 : Fin 1) (⟨(j 0).val, (j 0).isLt⟩ : Fin n) :=
  Shape.reshapeEquiv_eq_of_rowMajor h (by
    rw [Shape.rowMajor_val_three, Shape.rowMajor_val_one]
    show ((0 : ℕ) * 1 + 0) * n + (j 0).val = (j 0).val
    omega)
/-- The same through a row cut from a four-axis array. -/
theorem reshape4_one {n : Nat} (j : (⟨1, ![n]⟩ : Shape).Idx) (h : (⟨1, ![n]⟩ : Shape).numel = (⟨4, ![1, 1, 1, n]⟩ : Shape).numel) :
    Shape.reshapeEquiv h j = ix4 (0 : Fin 1) (0 : Fin 1) (0 : Fin 1) (⟨(j 0).val, (j 0).isLt⟩ : Fin n) :=
  Shape.reshapeEquiv_eq_of_rowMajor h (by
    rw [Shape.rowMajor_val_four, Shape.rowMajor_val_one]
    show (((0 : ℕ) * 1 + 0) * 1 + 0) * n + (j 0).val = (j 0).val
    omega)

/-- What a copy of chunk C of half eh of the source list reads. -/
theorem read_chunk_v6 (a : IVec S2x1x163840 32) (off : Fin 3 → Nat) (inb : ∀ i, off i + S1x1x8192.size i ≤ S2x1x163840.size i)
    (eh : Fin 2) (C : Nat) (hoff : off = ![eh.val, 0, 8192 * C]) :
    (((sW).slice (Rect.unit (s := S2x1x163840) off S1x1x8192.size inb) (fun _ => rfl)).squeeze S8192 squeezes_S1x1x8192_S8192).view.read (Elt F) a
      = chunkBuf a eh C := by
  subst hoff
  funext j
  refine ((View.read_apply _ _).trans (cast_eq _ _)).trans ?_
  have hx : 8192 * C + (j 0).val < 163840 := by
    have h2 := inb 2
    have hj : (j 0).val < 8192 := (j 0).isLt
    simp at h2
    omega
  unfold chunkBuf
  rw [dif_pos hx]
  refine congrArg a ?_
  show (Rect.unit (s := S2x1x163840) ![eh.val, 0, 8192 * C] S1x1x8192.size inb).emb (Shape.reshapeEquiv _ j) = _
  rw [reshape3_one]
  funext ax; apply Fin.ext
  match ax with
  | 0 => show eh.val + 1 * 0 = eh.val; omega
  | 1 => show 0 + 1 * 0 = 0; rfl
  | 2 => show 8192 * C + 1 * (j 0).val = 8192 * C + (j 0).val; omega

/-- What a copy of chunk C of half eh of the destination list reads. -/
theorem read_chunk_v9 (a : IVec S2x1x163840 32) (off : Fin 3 → Nat) (inb : ∀ i, off i + S1x1x8192.size i ≤ S2x1x163840.size i)
    (eh : Fin 2) (C : Nat) (hoff : off = ![eh.val, 0, 8192 * C]) :
    (((dW).slice (Rect.unit (s := S2x1x163840) off S1x1x8192.size inb) (fun _ => rfl)).squeeze S8192 squeezes_S1x1x8192_S8192).view.read (Elt F) a
      = chunkBuf a eh C := by
  subst hoff
  funext j
  refine ((View.read_apply _ _).trans (cast_eq _ _)).trans ?_
  have hx : 8192 * C + (j 0).val < 163840 := by
    have h2 := inb 2
    have hj : (j 0).val < 8192 := (j 0).isLt
    simp at h2
    omega
  unfold chunkBuf
  rw [dif_pos hx]
  refine congrArg a ?_
  show (Rect.unit (s := S2x1x163840) ![eh.val, 0, 8192 * C] S1x1x8192.size inb).emb (Shape.reshapeEquiv _ j) = _
  rw [reshape3_one]
  funext ax; apply Fin.ext
  match ax with
  | 0 => show eh.val + 1 * 0 = eh.val; omega
  | 1 => show 0 + 1 * 0 = 0; rfl
  | 2 => show 8192 * C + 1 * (j 0).val = 8192 * C + (j 0).val; omega

/-- What the copy of the tile's table row reads. -/
theorem read_tab_row (g : Vec F S16x1x40064 .f32) (off : Fin 3 → Nat) (inb : ∀ i, off i + S1x1x40064.size i ≤ S16x1x40064.size i)
    (cg : Fin 16) (hoff : off = ![cg.val, 0, 0]) :
    (((gW).slice (Rect.unit (s := S16x1x40064) off S1x1x40064.size inb) (fun _ => rfl)).squeeze S40064 squeezes_S1x1x40064_S40064).view.read (Elt F) g
      = tabRow g cg := by
  subst hoff
  funext j
  refine ((View.read_apply _ _).trans (cast_eq _ _)).trans ?_
  unfold tabRow
  refine congrArg g ?_
  show (Rect.unit (s := S16x1x40064) ![cg.val, 0, 0] S1x1x40064.size inb).emb (Shape.reshapeEquiv _ j) = _
  rw [reshape3_one]
  funext ax; apply Fin.ext
  match ax with
  | 0 => show cg.val + 1 * 0 = cg.val; omega
  | 1 => show 0 + 1 * 0 = 0; rfl
  | 2 => show 0 + 1 * (j 0).val = (j 0).val; omega

omit [FloatOps F] in
/-- Where word j of the tile's row of the result lies in the result. -/
theorem oRowK_emb (j : S40064.Idx) :
    (oRowK L).view.emb j = ix4 ⟨(L 1).val, (L 1).isLt⟩ ⟨(L 0).val, (L 0).isLt⟩ (0 : Fin 1) (j 0) := by
  show (Rect.unit (s := S16x2x1x40064) (k2_off14 L) S1x1x1x40064.size (k2_off14_inb L)).emb (Shape.reshapeEquiv _ j) = _
  rw [reshape4_one]
  funext ax; apply Fin.ext
  match ax with
  | 0 => show (k2_off14 L) 0 + 1 * 0 = (L 1).val; rw [k2_off14_eq]; simp
  | 1 => show (k2_off14 L) 1 + 1 * 0 = (L 0).val; rw [k2_off14_eq]; simp
  | 2 => show (k2_off14 L) 2 + 1 * 0 = 0; rw [k2_off14_eq]; simp
  | 3 => show (k2_off14 L) 3 + 1 * (j 0).val = (j 0).val; rw [k2_off14_eq]; simp

omit [FloatOps F] in
/-- The tile's row of the result, as a set of elements: the entries of feature group L 1 and edge half L 0. -/
theorem oRowK_set : (oRowK L).view.set = edgeRow L := by
  ext i
  unfold edgeRow
  rw [Finset.mem_filter]
  constructor
  · intro hi
    obtain ⟨j, -, rfl⟩ := Finset.mem_map.mp hi
    rw [oRowK_emb]
    exact ⟨Finset.mem_univ _, rfl, rfl⟩
  · rintro ⟨-, h0, h1⟩
    refine Finset.mem_map.mpr ⟨ix1 (i 3), Finset.mem_univ _, ?_⟩
    rw [oRowK_emb]
    funext ax; apply Fin.ext
    match ax with
    | 0 => exact h0.symm
    | 1 => exact h1.symm
    | 2 =>
      have h2 : (i 2).val < 1 := (i 2).isLt
      show (0 : ℕ) = (i 2).val
      omega
    | 3 => rfl

/-- A whole write through the tile's row of the result leaves, at element i of the row, word i 3 of what is written. -/
theorem oRowK_write (o : Vec F S16x2x1x40064 .f32) (w : Vec F S40064 .f32) (i : S16x2x1x40064.Idx) (hi : i ∈ edgeRow L) :
    (oRowK L).view.write (Elt F) o w Finset.univ i = w (ix1 (i 3)) := by
  have hi' : i ∈ (oRowK L).view.set := by rw [oRowK_set]; exact hi
  obtain ⟨j, -, rfl⟩ := Finset.mem_map.mp hi'
  refine ((View.write_emb_of_mem _ _ (Finset.mem_univ j)).trans (cast_eq _ _)).trans ?_
  refine congrArg w ?_
  rw [oRowK_emb]
  exact eq_ix1 j

omit [FloatOps F] in
/-- Sixteen consecutive words of a staged chunk are a sixteen-word chunk of the list. -/
theorem chunk_idx (a : IVec S2x1x163840 32) (eh : Fin 2) (C : Nat) (off : Fin 1 → Nat) (inb : ∀ i, off i + S16.size i ≤ S8192.size i)
    (m : Nat) (hoff : off = ![16 * m]) :
    (fun x : S16.Idx => chunkBuf a eh C ((Rect.unit (s := S8192) off S16.size inb).toLoadRect.idx x)) = edgeChunk a eh (512 * C + m) := by
  subst hoff
  funext x
  have hy : ((Rect.unit (s := S8192) ![16 * m] S16.size inb).toLoadRect.idx x 0).val = 16 * m + (x 0).val := by
    show 16 * m + 1 * (x 0).val = _
    omega
  unfold chunkBuf edgeChunk
  by_cases h : 16 * (512 * C + m) + (x 0).val < 163840
  · rw [dif_pos h, dif_pos (by rw [hy]; omega)]
    refine congrArg a ?_
    funext ax
    match ax with
    | 0 => rfl
    | 1 => rfl
    | 2 => exact Fin.ext (by
        show 8192 * C + ((Rect.unit (s := S8192) ![16 * m] S16.size inb).toLoadRect.idx x 0).val = 16 * (512 * C + m) + (x 0).val
        rw [hy]; omega)
  · rw [dif_neg h, dif_neg (by rw [hy]; omega)]

omit [FloatOps F] in
/-- A cell of the tile named by another semaphore stays when that one is taken out. -/
theorem mem_erase_cell {s : Finset (GSem nD τ sig)} {t : Thread nD τ} {a b : SemLoc sig} (hne : a ≠ b) (h : (t, a) ∈ s) :
    (t, a) ∈ s.erase (t, b) :=
  Finset.mem_erase.mpr ⟨fun e => hne (Prod.mk.inj e).2, h⟩

omit [FloatOps F] in
/-- A scoped DMA semaphore of a vector subcore is one of its own cells. -/
theorem mem_ownCells_dma (x : DmaSem sig) (hx : (SemLoc.dma x : SemLoc sig).isScoped .scVector = true) :
    ((thr, SemLoc.dma x) : GSem nD τ sig) ∈ ownCells thr :=
  (mem_ownCells (g := ((thr, SemLoc.dma x) : GSem nD τ sig))).mpr ⟨rfl, hx⟩

omit [FloatOps F] in
/-- The tile's seven semaphores among its own, each at zero, and the rest. -/
theorem ownSems0_V :
    ∃ R : sProp 𝕄, (ownSems0 thr : sProp 𝕄)
      = iprop(semVal (thr, SemLoc.dma cc2_scratch6.sem) 0 ∗ semVal (thr, SemLoc.dma cc2_scratch7.sem) 0 ∗ semVal (thr, SemLoc.dma cc2_scratch8.sem) 0
          ∗ semVal (thr, SemLoc.dma cc2_scratch9.sem) 0 ∗ semVal (thr, SemLoc.dma cc2_scoped0.sem) 0 ∗ semVal (thr, SemLoc.dma cc2_scoped1.sem) 0
          ∗ semVal (thr, SemLoc.dma cc2_scoped2.sem) 0 ∗ R) := by
  have m6 := mem_ownCells_dma d L cc2_scratch6.sem (by decide)
  have m7 := mem_ownCells_dma d L cc2_scratch7.sem (by decide)
  have m8 := mem_ownCells_dma d L cc2_scratch8.sem (by decide)
  have m9 := mem_ownCells_dma d L cc2_scratch9.sem (by decide)
  have n0 := mem_ownCells_dma d L cc2_scoped0.sem (by decide)
  have n1 := mem_ownCells_dma d L cc2_scoped1.sem (by decide)
  have n2 := mem_ownCells_dma d L cc2_scoped2.sem (by decide)
  refine ⟨bigSep ((((((((ownCells thr).erase (thr, SemLoc.dma cc2_scratch6.sem)).erase (thr, SemLoc.dma cc2_scratch7.sem)).erase (thr, SemLoc.dma cc2_scratch8.sem)).erase (thr, SemLoc.dma cc2_scratch9.sem)).erase (thr, SemLoc.dma cc2_scoped0.sem)).erase (thr, SemLoc.dma cc2_scoped1.sem)).erase (thr, SemLoc.dma cc2_scoped2.sem))
      fun g => semVal g 0, ?_⟩
  unfold SparseCore.Cfg.ownSems0
  rw [SparseCore.bigSep_erase' m6,
    SparseCore.bigSep_erase' (mem_erase_cell (by decide) m7),
    SparseCore.bigSep_erase' (mem_erase_cell (by decide) (mem_erase_cell (by decide) m8)),
    SparseCore.bigSep_erase' (mem_erase_cell (by decide) (mem_erase_cell (by decide) (mem_erase_cell (by decide) m9))),
    SparseCore.bigSep_erase' (mem_erase_cell (by decide) (mem_erase_cell (by decide) (mem_erase_cell (by decide) (mem_erase_cell (by decide) n0)))),
    SparseCore.bigSep_erase' (mem_erase_cell (by decide) (mem_erase_cell (by decide) (mem_erase_cell (by decide) (mem_erase_cell (by decide) (mem_erase_cell (by decide) n1))))),
    SparseCore.bigSep_erase' (mem_erase_cell (by decide) (mem_erase_cell (by decide) (mem_erase_cell (by decide) (mem_erase_cell (by decide) (mem_erase_cell (by decide) (mem_erase_cell (by decide) n2))))))]

omit [FloatOps F] in
/-- A scratch array of the tile other than one taken out stays among its own buffers. -/
theorem mem_erase_ref {s : Finset (DevRef τ sig)} {a b : Ref sig .scVector} (hne : a ≠ b)
    (h : (Proc.scVector (cV L) (jV L)).devRef a ∈ s) :
    (Proc.scVector (cV L) (jV L)).devRef a ∈ s.erase ((Proc.scVector (cV L) (jV L)).devRef b) :=
  Finset.mem_erase.mpr ⟨fun e => hne (Proc.devRef_injective _ e), h⟩

omit [FloatOps F] in
/-- The tile's six scratch arrays among its own buffers, each at some contents, and the rest. -/
theorem ownBufs_V :
    ∃ R : sProp 𝕄, (ownBufs thr : sProp 𝕄)
      = iprop((∃ f, (thr).loc cc2_scratch0 ↦{fullShare} f) ∗ (∃ f, (thr).loc cc2_scratch1 ↦{fullShare} f) ∗ (∃ f, (thr).loc cc2_scratch2 ↦{fullShare} f)
          ∗ (∃ f, (thr).loc cc2_scratch3 ↦{fullShare} f) ∗ (∃ f, (thr).loc cc2_scratch4 ↦{fullShare} f) ∗ (∃ f, (thr).loc cc2_scratch5 ↦{fullShare} f)
          ∗ R) := by
  have r0 := SparseCore.Cfg.mem_ownRefs_of_owner (τ := τ) (sig := sig) (p := Proc.scVector (cV L) (jV L)) (b := (Proc.scVector (cV L) (jV L)).devRef cc2_scratch0) rfl
  have r1 := SparseCore.Cfg.mem_ownRefs_of_owner (τ := τ) (sig := sig) (p := Proc.scVector (cV L) (jV L)) (b := (Proc.scVector (cV L) (jV L)).devRef cc2_scratch1) rfl
  have r2 := SparseCore.Cfg.mem_ownRefs_of_owner (τ := τ) (sig := sig) (p := Proc.scVector (cV L) (jV L)) (b := (Proc.scVector (cV L) (jV L)).devRef cc2_scratch2) rfl
  have r3 := SparseCore.Cfg.mem_ownRefs_of_owner (τ := τ) (sig := sig) (p := Proc.scVector (cV L) (jV L)) (b := (Proc.scVector (cV L) (jV L)).devRef cc2_scratch3) rfl
  have r4 := SparseCore.Cfg.mem_ownRefs_of_owner (τ := τ) (sig := sig) (p := Proc.scVector (cV L) (jV L)) (b := (Proc.scVector (cV L) (jV L)).devRef cc2_scratch4) rfl
  have r5 := SparseCore.Cfg.mem_ownRefs_of_owner (τ := τ) (sig := sig) (p := Proc.scVector (cV L) (jV L)) (b := (Proc.scVector (cV L) (jV L)).devRef cc2_scratch5) rfl
  refine ⟨bigSep (((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5))
      fun b => iprop(∃ f, ((d, b) : Loc nD τ sig) ↦{fullShare} f), ?_⟩
  unfold SparseCore.Cfg.ownBufs
  refine (SparseCore.bigSep_erase' r0).trans ?_
  rw [SparseCore.bigSep_erase' (mem_erase_ref L (by decide) r1),
    SparseCore.bigSep_erase' (mem_erase_ref L (by decide) (mem_erase_ref L (by decide) r2)),
    SparseCore.bigSep_erase' (mem_erase_ref L (by decide) (mem_erase_ref L (by decide) (mem_erase_ref L (by decide) r3))),
    SparseCore.bigSep_erase' (mem_erase_ref L (by decide) (mem_erase_ref L (by decide) (mem_erase_ref L (by decide) (mem_erase_ref L (by decide) r4)))),
    SparseCore.bigSep_erase' (mem_erase_ref L (by decide) (mem_erase_ref L (by decide) (mem_erase_ref L (by decide) (mem_erase_ref L (by decide) (mem_erase_ref L (by decide) r5)))))]

end Aux

end cc2_edge

end Cert.Kernel.Hand

end
-- ==== Proof.K.EdgeSteps.lean ====
/-
  The edge kernel's fold, step by step: the pure bookkeeping between the fold over all 40960 steps and the groups of
  steps the tile's loops take.

  One step p = 4 n + k gathers the table at chunk n of the sources moved to feature row k and adds the gathered lanes
  into the accumulator at chunk n of the destinations moved to the same row. Four steps make one chunk, four chunks
  (sixteen steps) one trip of the inner loop. The table is never written, so the sixteen gathers of a trip may all
  come before its sixteen adds, which is the order the tile takes them in. Every index vector the tile forms is a
  chunk moved to a row; on lists whose words are at most 10000 its lanes are below 40064, so each gather and each
  add is the indexed load and the indexed store-with-add themselves.
-/
import proofs.«219763_g10557029614292_week1_w2_488_21_alg».proof.Proof.K.Vals
import proofs.«219763_g10557029614292_week1_w2_488_21_alg».proof.Proof.K.EdgeDefs
import Idealize.ShloMosaic.Lib.WholeRead

noncomputable section

namespace Cert.Kernel.Hand

open Cert.Kernel Cert.Kernel.Gen
open Idealize.ShloMosaic Idealize.ShloMosaic.ValueIdx

namespace cc2_edge

variable {F : FTy → Type} [FloatOps F]

/-! ## Steps, chunks, trips -/

section Fold

variable (tab : Vec F S40064 .f32) (s t : IVec S2x1x163840 32) (eh : Fin 2)

/-- One step: chunk n at feature row k. -/
def stepB (acc : Vec F S40064 .f32) (n k : ℕ) : Vec F S40064 .f32 :=
  scatB acc (addK (edgeChunk t eh n) k) (gathB tab (addK (edgeChunk s eh n) k))

/-- The four steps of chunk n, rows 0 to 3 in order. -/
def chunkB (acc : Vec F S40064 .f32) (n : ℕ) : Vec F S40064 .f32 :=
  stepB tab s t eh (stepB tab s t eh (stepB tab s t eh (stepB tab s t eh acc n 0) n 1) n 2) n 3

/-- The sixteen steps of chunks m … m + 3. -/
def tripB (acc : Vec F S40064 .f32) (m : ℕ) : Vec F S40064 .f32 :=
  chunkB tab s t eh (chunkB tab s t eh (chunkB tab s t eh (chunkB tab s t eh acc m) (m + 1)) (m + 2)) (m + 3)

variable (z : Vec F S40064 .f32)

theorem edgeAcc_zero : edgeAcc tab s t eh z 0 = z := rfl

/-- The fold's next step. -/
theorem edgeAcc_succ (p : ℕ) :
    edgeAcc tab s t eh z (p + 1) = stepB tab s t eh (edgeAcc tab s t eh z p) (p / 4) (p % 4) := rfl

theorem edgeAcc_add4 (p : ℕ) :
    edgeAcc tab s t eh z (p + 4)
      = stepB tab s t eh (stepB tab s t eh (stepB tab s t eh (stepB tab s t eh (edgeAcc tab s t eh z p) (p / 4) (p % 4))
          ((p + 1) / 4) ((p + 1) % 4)) ((p + 2) / 4) ((p + 2) % 4)) ((p + 3) / 4) ((p + 3) % 4) := rfl

/-- The four steps of one chunk. -/
theorem edgeAcc_chunk (n : ℕ) : edgeAcc tab s t eh z (4 * n + 4) = chunkB tab s t eh (edgeAcc tab s t eh z (4 * n)) n := by
  rw [edgeAcc_add4]
  have h0 : 4 * n / 4 = n := by omega
  have h0' : 4 * n % 4 = 0 := by omega
  have h1 : (4 * n + 1) / 4 = n := by omega
  have h1' : (4 * n + 1) % 4 = 1 := by omega
  have h2 : (4 * n + 2) / 4 = n := by omega
  have h2' : (4 * n + 2) % 4 = 2 := by omega
  have h3 : (4 * n + 3) / 4 = n := by omega
  have h3' : (4 * n + 3) % 4 = 3 := by omega
  rw [h0, h0', h1, h1', h2, h2', h3, h3']
  rfl

/-- The same with every gather and add written out. -/
theorem edgeAcc_step4 (n : ℕ) :
    edgeAcc tab s t eh z (4 * n + 4)
      = scatB (scatB (scatB (scatB (edgeAcc tab s t eh z (4 * n))
            (addK (edgeChunk t eh n) 0) (gathB tab (addK (edgeChunk s eh n) 0)))
            (addK (edgeChunk t eh n) 1) (gathB tab (addK (edgeChunk s eh n) 1)))
            (addK (edgeChunk t eh n) 2) (gathB tab (addK (edgeChunk s eh n) 2)))
            (addK (edgeChunk t eh n) 3) (gathB tab (addK (edgeChunk s eh n) 3)) :=
  edgeAcc_chunk tab s t eh z n

/-- The sixteen steps of one trip: chunks m … m + 3. -/
theorem edgeAcc_trip (m : ℕ) : edgeAcc tab s t eh z (4 * m + 16) = tripB tab s t eh (edgeAcc tab s t eh z (4 * m)) m := by
  unfold tripB
  rw [show 4 * m + 16 = 4 * (m + 3) + 4 by ring, edgeAcc_chunk, show 4 * (m + 3) = 4 * (m + 2) + 4 by ring, edgeAcc_chunk,
    show 4 * (m + 2) = 4 * (m + 1) + 4 by ring, edgeAcc_chunk, show 4 * (m + 1) = 4 * m + 4 by ring, edgeAcc_chunk]

/-- Trip i of staging buffer c: chunks 512 c + 4 i … 512 c + 4 i + 3. -/
theorem edgeAcc_trip_at (c i : ℕ) :
    edgeAcc tab s t eh z (4 * (512 * c + 4 * i) + 16)
      = tripB tab s t eh (edgeAcc tab s t eh z (4 * (512 * c + 4 * i))) (512 * c + 4 * i) :=
  edgeAcc_trip tab s t eh z (512 * c + 4 * i)

/-- After trip i of buffer c the fold stands at the start of trip i + 1. -/
theorem trip_next (c i : ℕ) : 4 * (512 * c + 4 * i) + 16 = 4 * (512 * c + 4 * (i + 1)) := by ring

/-- After the 128 trips of buffer c the fold stands at the start of buffer c + 1. -/
theorem buffer_next (c : ℕ) : 4 * (512 * c + 4 * 128) = 4 * (512 * (c + 1) + 4 * 0) := by ring

/-- The twenty buffers are the whole fold. -/
theorem buffers_all : 4 * (512 * 20 + 4 * 0) = 40960 := by norm_num

end Fold

/-! ## The printed index vectors are chunks moved to a row -/

theorem k2_pay1_eq (v : IVec S16 32) : k2_pay1 (F := F) v = addK v 1 := rfl
theorem k2_pay2_eq (v : IVec S16 32) : k2_pay2 (F := F) v = addK v 1 := rfl
theorem k2_pay3_eq (v : IVec S16 32) : k2_pay3 (F := F) v = addK v 2 := rfl
theorem k2_pay4_eq (v : IVec S16 32) : k2_pay4 (F := F) v = addK v 2 := rfl
theorem k2_pay5_eq (v : IVec S16 32) : k2_pay5 (F := F) v = addK v 3 := rfl
theorem k2_pay6_eq (v : IVec S16 32) : k2_pay6 (F := F) v = addK v 3 := rfl
theorem k2_pay7_eq (v : IVec S16 32) : k2_pay7 (F := F) v = addK v 1 := rfl
theorem k2_pay8_eq : k2_pay8 = (broadcast S16 10016#32 : IVec S16 32) := rfl
theorem addi_k2_pay8 (v : IVec S16 32) : addi v k2_pay8 = addK v 1 := rfl
theorem k2_pay9_eq (v : IVec S16 32) : k2_pay9 (F := F) v = addK v 2 := rfl
theorem k2_pay10_eq (v : IVec S16 32) : k2_pay10 (F := F) v = addK v 2 := rfl
theorem k2_pay11_eq (v : IVec S16 32) : k2_pay11 (F := F) v = addK v 3 := rfl
theorem k2_pay12_eq (v : IVec S16 32) : k2_pay12 (F := F) v = addK v 3 := rfl
theorem k2_pay13_eq (v : IVec S16 32) : k2_pay13 (F := F) v = addK v 1 := rfl
theorem k2_pay14_eq (v : IVec S16 32) : k2_pay14 (F := F) v = addK v 1 := rfl
theorem k2_pay15_eq (v : IVec S16 32) : k2_pay15 (F := F) v = addK v 2 := rfl
theorem k2_pay16_eq (v : IVec S16 32) : k2_pay16 (F := F) v = addK v 2 := rfl
theorem k2_pay17_eq (v : IVec S16 32) : k2_pay17 (F := F) v = addK v 3 := rfl
theorem k2_pay18_eq (v : IVec S16 32) : k2_pay18 (F := F) v = addK v 3 := rfl
theorem k2_pay19_eq (v : IVec S16 32) : k2_pay19 (F := F) v = addK v 1 := rfl
theorem k2_pay20_eq (v : IVec S16 32) : k2_pay20 (F := F) v = addK v 1 := rfl
theorem k2_pay21_eq (v : IVec S16 32) : k2_pay21 (F := F) v = addK v 2 := rfl
theorem k2_pay22_eq (v : IVec S16 32) : k2_pay22 (F := F) v = addK v 2 := rfl
theorem k2_pay23_eq (v : IVec S16 32) : k2_pay23 (F := F) v = addK v 3 := rfl
theorem k2_pay24_eq (v : IVec S16 32) : k2_pay24 (F := F) v = addK v 3 := rfl
theorem k2_pay25_eq (v : IVec S16 32) : k2_pay25 (F := F) v = addK v 1 := rfl
theorem k2_pay26_eq : k2_pay26 = (broadcast S16 10016#32 : IVec S16 32) := rfl
theorem addi_k2_pay26 (v : IVec S16 32) : addi v k2_pay26 = addK v 1 := rfl
theorem k2_pay27_eq (v : IVec S16 32) : k2_pay27 (F := F) v = addK v 2 := rfl
theorem k2_pay28_eq (v : IVec S16 32) : k2_pay28 (F := F) v = addK v 2 := rfl
theorem k2_pay29_eq (v : IVec S16 32) : k2_pay29 (F := F) v = addK v 3 := rfl
theorem k2_pay30_eq (v : IVec S16 32) : k2_pay30 (F := F) v = addK v 3 := rfl
theorem k2_pay31_eq (v : IVec S16 32) : k2_pay31 (F := F) v = addK v 1 := rfl
theorem k2_pay32_eq (v : IVec S16 32) : k2_pay32 (F := F) v = addK v 1 := rfl
theorem k2_pay33_eq (v : IVec S16 32) : k2_pay33 (F := F) v = addK v 2 := rfl
theorem k2_pay34_eq (v : IVec S16 32) : k2_pay34 (F := F) v = addK v 2 := rfl
theorem k2_pay35_eq (v : IVec S16 32) : k2_pay35 (F := F) v = addK v 3 := rfl
theorem k2_pay36_eq (v : IVec S16 32) : k2_pay36 (F := F) v = addK v 3 := rfl
theorem k2_pay37_eq (v : IVec S16 32) : k2_pay37 (F := F) v = addK v 1 := rfl
theorem k2_pay38_eq (v : IVec S16 32) : k2_pay38 (F := F) v = addK v 1 := rfl
theorem k2_pay39_eq (v : IVec S16 32) : k2_pay39 (F := F) v = addK v 2 := rfl
theorem k2_pay40_eq (v : IVec S16 32) : k2_pay40 (F := F) v = addK v 2 := rfl
theorem k2_pay41_eq (v : IVec S16 32) : k2_pay41 (F := F) v = addK v 3 := rfl
theorem k2_pay42_eq (v : IVec S16 32) : k2_pay42 (F := F) v = addK v 3 := rfl
theorem k2_pay43_eq (v : IVec S16 32) : k2_pay43 (F := F) v = addK v 1 := rfl
theorem k2_pay44_eq (v : IVec S16 32) : k2_pay44 (F := F) v = addK v 1 := rfl
theorem k2_pay45_eq (v : IVec S16 32) : k2_pay45 (F := F) v = addK v 2 := rfl
theorem k2_pay46_eq (v : IVec S16 32) : k2_pay46 (F := F) v = addK v 2 := rfl
theorem k2_pay47_eq (v : IVec S16 32) : k2_pay47 (F := F) v = addK v 3 := rfl
theorem k2_pay48_eq (v : IVec S16 32) : k2_pay48 (F := F) v = addK v 3 := rfl

theorem addK_zero (v : IVec S16 32) : addK v 0 = v := rfl

/-! ## The range checks -/

/-- A chunk of a list whose words are at most 10000 has lanes at most 10000 (the lanes past the list's end are 0). -/
theorem edgeChunk_le (a : IVec S2x1x163840 32) (ha : EdgePre a) (eh : Fin 2) (n : ℕ) (x : S16.Idx) :
    (edgeChunk a eh n x).toNat ≤ 10000 := by
  unfold edgeChunk
  split_ifs with h
  · exact ha _
  · show (0#32 : BitVec 32).toNat ≤ 10000
    decide

/-- Moving a lane of at most 10000 to row r adds r · 10016: the 32-bit sum does not wrap. -/
theorem addK_val (v : IVec S16 32) (r : ℕ) (hr : r < 4) (x : S16.Idx) (hv : (v x).toNat ≤ 10000) :
    (addK v r x).toNat = (v x).toNat + r * 10016 := by
  have hlt : (v x).toNat + 3 * 10016 < 2 ^ 32 := by omega
  interval_cases r
  · show (v x).toNat = _
    omega
  · show (v x + 10016#32).toNat = _
    rw [BitVec.toNat_add, BitVec.toNat_ofNat]; omega
  · show (v x + 20032#32).toNat = _
    rw [BitVec.toNat_add, BitVec.toNat_ofNat]; omega
  · show (v x + 30048#32).toNat = _
    rw [BitVec.toNat_add, BitVec.toNat_ofNat]; omega

/-- Every lane of a chunk moved to a row is below 40064: the side condition of every indexed load and store of the
    edge kernel, in the form each of its printed checks unfolds to. -/
theorem addK_chunk_inb (a : IVec S2x1x163840 32) (ha : EdgePre a) (eh : Fin 2) (n r : ℕ) (hr : r < 4) :
    ∀ (b : Fin 1) (x : S16.Idx), ((![addK (edgeChunk a eh n) r] : Fin 1 → IVec S16 32) b x).toNat < S40064.size b := by
  intro b x
  obtain rfl : b = 0 := Subsingleton.elim _ _
  show (addK (edgeChunk a eh n) r x).toNat < 40064
  rw [addK_val _ r hr x (edgeChunk_le a ha eh n x)]
  have := edgeChunk_le a ha eh n x
  omega

theorem addK_chunk_chk (a : IVec S2x1x163840 32) (ha : EdgePre a) (eh : Fin 2) (n r : ℕ) (hr : r < 4) :
    k2_chk1 (addK (edgeChunk a eh n) r) := addK_chunk_inb a ha eh n r hr

/-- Under its side condition a gather is the indexed load, whatever evidence the load carries. -/
theorem gathB_eq (tab : Vec F S40064 .f32) (idx : IVec S16 32)
    (h : ∀ (b : Fin 1) (x : S16.Idx), ((![idx] : Fin 1 → IVec S16 32) b x).toNat < S40064.size b) :
    gathB tab idx = loadIdx (e := .f32) tab ![idx] h := by
  unfold gathB
  exact dif_pos h

/-- Under its side condition an add is the indexed store-with-add, whatever evidence the store carries. -/
theorem scatB_eq (acc : Vec F S40064 .f32) (idx : IVec S16 32) (v : Vec F S16 .f32)
    (h : ∀ (b : Fin 1) (x : S16.Idx), ((![idx] : Fin 1 → IVec S16 32) b x).toNat < S40064.size b) :
    scatB acc idx v = storeIdx (e := .f32) acc ![idx] v (fun _ => 1#1) true h := by
  unfold scatB
  exact dif_pos h

/-! ## A chunk's lanes -/

/-- Lane x of chunk n (n below 10240) is word 16 n + x of the half list. -/
theorem edgeChunk_apply (a : IVec S2x1x163840 32) (eh : Fin 2) (n : ℕ) (hn : n < 10240) (x : S16.Idx) :
    edgeChunk a eh n x = a (ix3 eh 0 ⟨16 * n + (x 0).val, by have h16 : (x 0).val < 16 := (x 0).isLt; omega⟩) := by
  unfold edgeChunk
  exact dif_pos _

/-! ## One step as the indexed load and store, and a staged chunk's lanes -/

/-- One step of the fold written with the indexed load and the indexed store-with-add themselves: from the
    accumulator after 4 n + k steps, the add at chunk n of the destinations moved to row k of the lanes gathered at
    chunk n of the sources moved to row k is the accumulator after one step more. -/
theorem edgeAcc_step (tab : Vec F S40064 .f32) (s t : IVec S2x1x163840 32) (eh : Fin 2) (z : Vec F S40064 .f32) (n k : ℕ)
    (hk : k < 4) (sv dv : IVec S16 32) (hsv : sv = addK (edgeChunk s eh n) k) (hdv : dv = addK (edgeChunk t eh n) k)
    (h1 : ∀ (b : Fin 1) (x : S16.Idx), ((![sv] : Fin 1 → IVec S16 32) b x).toNat < S40064.size b)
    (h2 : ∀ (b : Fin 1) (x : S16.Idx), ((![dv] : Fin 1 → IVec S16 32) b x).toNat < S40064.size b) :
    storeIdx (e := .f32) (edgeAcc tab s t eh z (4 * n + k)) ![dv] (loadIdx (e := .f32) tab ![sv] h1) (fun _ => 1#1) true h2
      = edgeAcc tab s t eh z (4 * n + k + 1) := by
  subst hsv hdv
  rw [edgeAcc_succ, show (4 * n + k) / 4 = n by omega, show (4 * n + k) % 4 = k by omega]
  unfold stepB
  rw [scatB_eq _ _ _ h2, gathB_eq _ _ h1]

/-- The sixteen words of a staged 8192-word piece read from word 64 i + 16 u are chunk 512 C + 4 i + u of the half
    list: piece C starts at word 8192 C, which is chunk 512 C. -/
theorem chunkBuf_lanes (a : IVec S2x1x163840 32) (eh : Fin 2) (C i u : ℕ)
    (inb : ∀ b, (![64 * i + 16 * u] : Fin 1 → ℕ) b + S16.size b ≤ S8192.size b) :
    (fun x => chunkBuf a eh C ((Rect.unit (s := S8192) ![64 * i + 16 * u] S16.size inb).toLoadRect.idx x))
      = edgeChunk a eh (512 * C + 4 * i + u) := by
  funext x
  have h16 : (x 0).val < 16 := (x 0).isLt
  show (if h : 8192 * C + (64 * i + 16 * u + 1 * (x 0).val) < 163840 then a (ix3 eh 0 ⟨8192 * C + (64 * i + 16 * u + 1 * (x 0).val), h⟩) else 0#32)
    = (if h : 16 * (512 * C + 4 * i + u) + (x 0).val < 163840 then a (ix3 eh 0 ⟨16 * (512 * C + 4 * i + u) + (x 0).val, h⟩) else 0#32)
  have he : 8192 * C + (64 * i + 16 * u + 1 * (x 0).val) = 16 * (512 * C + 4 * i + u) + (x 0).val := by omega
  simp only [he]

/-- The same as the value a load through a whole 8192-word scratch array holding the piece reads. -/
theorem chunk_read (a : IVec S2x1x163840 32) (eh : Fin 2) (C i u : ℕ)
    (inb : ∀ c, (![64 * i + 16 * u] : Fin 1 → ℕ) c + S16.size c ≤ S8192.size c)
    (m : Memref sig .scVector .vmem S8192 .i32) (hm : m.IsWhole) :
    View.readAt (Elt F) m.view (Rect.unit (s := S8192) ![64 * i + 16 * u] S16.size inb).toLoadRect (hm.unread (chunkBuf a eh C))
      = edgeChunk a eh (512 * C + 4 * i + u) := by
  rw [← chunkBuf_lanes a eh C i u inb]
  funext x
  exact hm.readAt_unread (Val := Elt F) (chunkBuf a eh C) _ x

end cc2_edge

end Cert.Kernel.Hand

end
-- ==== Proof.K.EdgeCompute.lean ====
/-
  One trip of each of the edge kernel's two inner loops on one vector subcore, with its value.

  A trip takes four sixteen-word chunks of the staged piece of the source list and of the destination list. For
  each chunk n and each feature row k it gathers the table at the sources moved to row k, sixteen gathers in all;
  then, in the same order, it adds each gathered vector into the accumulator at the destinations moved to row k.
  The table is not written, so the accumulator after the trip is the fold edgeAcc sixteen steps further on: before
  trip i of piece C it stands at step 4 (512 C + 4 i), after it at step 4 (512 C + 4 (i + 1)). Every index the trip
  forms is a list word of at most 10000 moved by at most 3 · 10016, hence below 40064: each of its range checks holds.
-/
import proofs.«219763_g10557029614292_week1_w2_488_21_alg».proof.Proof.K.Base
import proofs.«219763_g10557029614292_week1_w2_488_21_alg».proof.Proof.K.Vals
import proofs.«219763_g10557029614292_week1_w2_488_21_alg».proof.Proof.K.EdgeDefs
import proofs.«219763_g10557029614292_week1_w2_488_21_alg».proof.Proof.K.EdgeSteps

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc2_edge

variable {F : FTy → Type}

local notation "𝕄" => MT nD τ sig (HIx 3) (Elt F) ℕ UU ℕ

local notation "gW" => (Memref.whole Cert.Kernel.main_v23_scv : Memref Cert.Kernel.sig Kind.scVector Space.hbm Cert.Kernel.S16x1x40064 EltTy.f32)
local notation "sW" => (Memref.whole Cert.Kernel.main_v6_scv : Memref Cert.Kernel.sig Kind.scVector Space.hbm Cert.Kernel.S2x1x163840 EltTy.i32)
local notation "dW" => (Memref.whole Cert.Kernel.main_v9_scv : Memref Cert.Kernel.sig Kind.scVector Space.hbm Cert.Kernel.S2x1x163840 EltTy.i32)
local notation "zW" => (Memref.whole Cert.Kernel.main_v13_scv : Memref Cert.Kernel.sig Kind.scVector Space.hbm Cert.Kernel.S40064 EltTy.f32)
local notation "oW" => (Memref.whole Cert.Kernel.main_v24_scv : Memref Cert.Kernel.sig Kind.scVector Space.hbm Cert.Kernel.S16x2x1x40064 EltTy.f32)
local notation "tabM" => (Memref.whole Cert.Kernel.cc2_scratch0 : Memref Cert.Kernel.sig Kind.scVector Space.vmem Cert.Kernel.S40064 EltTy.f32)
local notation "accM" => (Memref.whole Cert.Kernel.cc2_scratch1 : Memref Cert.Kernel.sig Kind.scVector Space.vmem Cert.Kernel.S40064 EltTy.f32)
local notation "sb0M" => (Memref.whole Cert.Kernel.cc2_scratch2 : Memref Cert.Kernel.sig Kind.scVector Space.vmem Cert.Kernel.S8192 EltTy.i32)
local notation "db0M" => (Memref.whole Cert.Kernel.cc2_scratch3 : Memref Cert.Kernel.sig Kind.scVector Space.vmem Cert.Kernel.S8192 EltTy.i32)
local notation "sb1M" => (Memref.whole Cert.Kernel.cc2_scratch4 : Memref Cert.Kernel.sig Kind.scVector Space.vmem Cert.Kernel.S8192 EltTy.i32)
local notation "db1M" => (Memref.whole Cert.Kernel.cc2_scratch5 : Memref Cert.Kernel.sig Kind.scVector Space.vmem Cert.Kernel.S8192 EltTy.i32)

variable [FloatOps F]

/-! ## The range checks on what the trip reads off a staged piece -/

/-- An index vector all of whose lanes are below 40064 passes every check of the body (they all say this). -/
theorem chk_of_lt (v : IVec S16 32) (h : ∀ x, (v x).toNat < 40064) : k2_chk1 v := by
  intro a x
  obtain rfl : a = 0 := Subsingleton.elim _ _
  exact h x

theorem chk_small (v : IVec S16 32) (h : ∀ x, (v x).toNat ≤ 10000) : k2_chk1 v :=
  chk_of_lt v fun x => lt_of_le_of_lt (h x) (by decide)

/-- A node number moved to one of the four feature rows stays below 40064: no wrap, no overrun. -/
theorem chk_addi (v : IVec S16 32) (c : BitVec 32) (h : ∀ x, (v x).toNat ≤ 10000) (hc : c.toNat ≤ 30048) :
    k2_chk1 (addi v (broadcast S16 c)) := by
  refine chk_of_lt _ fun x => ?_
  show (v x + c).toNat < 40064
  rw [BitVec.toNat_add]
  have := h x
  omega

section Checks
variable {a : IVec S2x1x163840 32} (ha : EdgePre a) (eh : Fin 2) (C : Nat) (off : Fin 1 → Nat) (inb : ∀ i, off i + S16.size i ≤ S8192.size i)
include ha

theorem chk_rd2 : k2_chk1 ((sb0M).view.readAt (Elt F) (Rect.unit (s := S8192) off S16.size inb).toLoadRect (chunkBuf a eh C)) := chk_small _ fun _ => chunkBuf_le ha eh C _
theorem chk_rd3 : k2_chk1 ((db0M).view.readAt (Elt F) (Rect.unit (s := S8192) off S16.size inb).toLoadRect (chunkBuf a eh C)) := chk_small _ fun _ => chunkBuf_le ha eh C _
theorem chk_rd4 : k2_chk1 ((sb1M).view.readAt (Elt F) (Rect.unit (s := S8192) off S16.size inb).toLoadRect (chunkBuf a eh C)) := chk_small _ fun _ => chunkBuf_le ha eh C _
theorem chk_rd5 : k2_chk1 ((db1M).view.readAt (Elt F) (Rect.unit (s := S8192) off S16.size inb).toLoadRect (chunkBuf a eh C)) := chk_small _ fun _ => chunkBuf_le ha eh C _
theorem chk_rd2a (c : BitVec 32) (hc : c.toNat ≤ 30048) : k2_chk1 (addi ((sb0M).view.readAt (Elt F) (Rect.unit (s := S8192) off S16.size inb).toLoadRect (chunkBuf a eh C)) (broadcast S16 c)) :=
  chk_addi _ _ (fun _ => chunkBuf_le ha eh C _) hc
theorem chk_rd3a (c : BitVec 32) (hc : c.toNat ≤ 30048) : k2_chk1 (addi ((db0M).view.readAt (Elt F) (Rect.unit (s := S8192) off S16.size inb).toLoadRect (chunkBuf a eh C)) (broadcast S16 c)) :=
  chk_addi _ _ (fun _ => chunkBuf_le ha eh C _) hc
theorem chk_rd4a (c : BitVec 32) (hc : c.toNat ≤ 30048) : k2_chk1 (addi ((sb1M).view.readAt (Elt F) (Rect.unit (s := S8192) off S16.size inb).toLoadRect (chunkBuf a eh C)) (broadcast S16 c)) :=
  chk_addi _ _ (fun _ => chunkBuf_le ha eh C _) hc
theorem chk_rd5a (c : BitVec 32) (hc : c.toNat ≤ 30048) : k2_chk1 (addi ((db1M).view.readAt (Elt F) (Rect.unit (s := S8192) off S16.size inb).toLoadRect (chunkBuf a eh C)) (broadcast S16 c)) :=
  chk_addi _ _ (fun _ => chunkBuf_le ha eh C _) hc

end Checks

/-! ## What the trip's loads read: chunks of the half lists -/

section Reads
variable (a : IVec S2x1x163840 32) (eh : Fin 2) (C : Nat) (off : Fin 1 → Nat) (inb : ∀ i, off i + S16.size i ≤ S8192.size i) (i u : Nat)
  (ho : off = ![64 * i + 16 * u])
include ho

theorem rd_sb0 : (sb0M).view.readAt (Elt F) (Rect.unit (s := S8192) off S16.size inb).toLoadRect (chunkBuf a eh C) = edgeChunk a eh (512 * C + 4 * i + u) := by
  subst ho; exact chunkBuf_lanes a eh C i u inb
theorem rd_db0 : (db0M).view.readAt (Elt F) (Rect.unit (s := S8192) off S16.size inb).toLoadRect (chunkBuf a eh C) = edgeChunk a eh (512 * C + 4 * i + u) := by
  subst ho; exact chunkBuf_lanes a eh C i u inb
theorem rd_sb1 : (sb1M).view.readAt (Elt F) (Rect.unit (s := S8192) off S16.size inb).toLoadRect (chunkBuf a eh C) = edgeChunk a eh (512 * C + 4 * i + u) := by
  subst ho; exact chunkBuf_lanes a eh C i u inb
theorem rd_db1 : (db1M).view.readAt (Elt F) (Rect.unit (s := S8192) off S16.size inb).toLoadRect (chunkBuf a eh C) = edgeChunk a eh (512 * C + 4 * i + u) := by
  subst ho; exact chunkBuf_lanes a eh C i u inb

end Reads

section Tile
variable (d : Dev nD) (L : grid2.Coords)

local notation "thr" => (V d (cV L) (jV L))

/-! ## The gather and the add, on the scratch arrays held whole -/

/-- The gather off the table scratch, held whole at any share. -/
theorem wp_gather_tab {α : Type} {Q : α → sProp 𝕄} {idxs : Fin S40064.rank → IVec S16 32} {h : ∀ a x, (idxs a x).toNat < S40064.size a}
    {hl : (tabM).view.Loads} {k : Vec F S16 .f32 → Prog (TpuEff nD τ sig (Elt F) Λ₀ (thr).2) α} {q : PosShare TreeShare} (tb : Vec F S40064 .f32) :
    ((tabM).view.loc thr ↦{q} tb : sProp 𝕄)
      ⊢ iprop((((tabM).view.loc thr ↦{q} tb) -∗ wp frame (wpE (defs₀ (F := F)) 𝒱₀ thr none) Set.univ (k (loadIdx tb idxs h)) Q)
        -∗ wp frame (wpE (defs₀ (F := F)) 𝒱₀ thr none) Set.univ (SparseCore.vectorLoadIdx tabM idxs h hl >>= k) Q) := by
  have e := SparseCore.wp_vectorLoadIdx (defs := defs₀ (F := F)) (Q := Q) 𝒱₀ thr none Set.univ (base := tabM) (idxs := idxs) (h := h) (hl := hl) (k := k)
    (S := Finset.univ) (q := q) (f := tb) (Finset.subset_univ _)
  rw [Memref.read_access_whole] at e
  exact e

/-- The indexed store-with-add into the accumulator scratch, held whole. -/
theorem wp_scatter_acc {α : Type} {Q : α → sProp 𝕄} {idxs : Fin S40064.rank → IVec S16 32} {v : Vec F S16 .f32}
    {h : ∀ a x, (idxs a x).toNat < S40064.size a} {hs : ((accM).access (.whole S40064)).Stores Finset.univ}
    {k : PUnit → Prog (TpuEff nD τ sig (Elt F) Λ₀ (thr).2) α} (f : Vec F S40064 .f32) :
    ((accM).view.loc thr ↦{fullShare} f : sProp 𝕄)
      ⊢ iprop((((accM).view.loc thr ↦{fullShare} storeIdx f idxs v (fun _ => 1#1) true h) -∗ wp frame (wpE (defs₀ (F := F)) 𝒱₀ thr none) Set.univ (k ⟨⟩) Q)
        -∗ wp frame (wpE (defs₀ (F := F)) 𝒱₀ thr none) Set.univ (SparseCore.vectorStoreIdx accM idxs v (fun _ => 1#1) true h hs >>= k) Q) := by
  have e := SparseCore.wp_vectorStoreIdx (defs := defs₀ (F := F)) (Q := Q) 𝒱₀ thr none Set.univ (base := accM) (idxs := idxs) (v := v)
    (mask := fun _ => 1#1) (add := true) (h := h) (hs := hs) (k := k) (f := f)
  rw [Memref.read_access_whole, Memref.write_access_whole_univ, Memref.set_access_whole] at e
  exact e

/-- One add of the trip, with its value: from the fold after p = 4 n + r steps, adding at chunk n of the destinations
    moved to row r what was gathered at chunk n of the sources moved to row r leaves the fold after p + 1 steps. -/
theorem wp_scatter_step {α : Type} {Q : α → sProp 𝕄} (tb : Vec F S40064 .f32) (s t : IVec S2x1x163840 32) (z : Vec F S40064 .f32) (eh : Fin 2)
    (p m n r : Nat) (hp : p = 4 * n + r) (hm : m = p + 1) (hr : r < 4) (sv dv : IVec S16 32)
    (hsv : sv = addK (edgeChunk s eh n) r) (hdv : dv = addK (edgeChunk t eh n) r)
    {h1 : ∀ a x, ((![sv] : Fin 1 → IVec S16 32) a x).toNat < S40064.size a} {h2 : ∀ a x, ((![dv] : Fin 1 → IVec S16 32) a x).toNat < S40064.size a}
    {hst : ((accM).access (.whole S40064)).Stores Finset.univ} {kk : PUnit → Prog (TpuEff nD τ sig (Elt F) Λ₀ (thr).2) α} :
    ((accM).view.loc thr ↦{fullShare} edgeAcc tb s t eh z p : sProp 𝕄)
      ⊢ iprop((((accM).view.loc thr ↦{fullShare} edgeAcc tb s t eh z m) -∗ wp frame (wpE (defs₀ (F := F)) 𝒱₀ thr none) Set.univ (kk ⟨⟩) Q)
        -∗ wp frame (wpE (defs₀ (F := F)) 𝒱₀ thr none) Set.univ
            (SparseCore.vectorStoreIdx accM ![dv] (loadIdx tb ![sv] h1) (fun _ => 1#1) true h2 hst >>= kk) Q) := by
  subst hp hm
  have e := wp_scatter_acc (F := F) d L (Q := Q) (idxs := ![dv]) (v := loadIdx tb ![sv] h1) (h := h2) (hs := hst) (k := kk) (edgeAcc tb s t eh z (4 * n + r))
  rw [edgeAcc_step tb s t eh z n r hr sv dv hsv hdv h1 h2] at e
  exact e

/-- The invariant of the loop over the staged pieces in sb0M and db0M: before trip `i` of piece `C` the table scratch
    holds the tile's table, the two staging buffers piece `C` of the half lists, the accumulator the fold after
    `4 (512 C + 4 i)` steps. -/
def innerInv0 (tb : Vec F S40064 .f32) (s t : IVec S2x1x163840 32) (z : Vec F S40064 .f32) (eh : Fin 2) (C : Nat) (i : Nat) (_ : Unit) : sProp 𝕄 :=
  iprop(((tabM).view.loc thr ↦{fullShare} tb)
    ∗ ((accM).view.loc thr ↦{fullShare} edgeAcc tb s t eh z (4 * (512 * C + 4 * i)))
    ∗ ((sb0M).view.loc thr ↦{fullShare} chunkBuf s eh C)
    ∗ ((db0M).view.loc thr ↦{fullShare} chunkBuf t eh C))

set_option maxHeartbeats 4000000 in
/-- One trip: sixteen gathers off the table, then the sixteen adds in the fold's order. -/
theorem inner0_region (tb : Vec F S40064 .f32) (s t : IVec S2x1x163840 32) (z : Vec F S40064 .f32) (hs : EdgePre s) (ht : EdgePre t) (eh : Fin 2) (C : Nat)
    (c0 c1 : BitVec 32) (t1 : Fin k2_t1_loop.trips) (k : Fin k2_t2_loop.trips) (a : Unit) :
    innerInv0 d L tb s t z eh C k.val a
      ⊢ wp frame (wpE (defs₀ (F := F)) 𝒱₀ thr none) Set.univ
          (k2_t2_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2 c0 c1 t1 k a)
          (innerInv0 d L tb s t z eh C (k.val + 1)) := by
  unfold innerInv0 k2_t2_body
  iintro ⟨Htab, Hacc, Hsb, Hdb⟩
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  iapply (wp_scatter_step (F := F) d L tb s t z eh (4 * (512 * C + 4 * k.val)) (4 * (512 * C + 4 * k.val) + 1) (512 * C + 4 * k.val + 0) 0 (by omega) (by omega) (by omega) _ _
      (congrArg (fun v => addK v 0) (rd_sb0 (F := F) s eh C (k2_off5 k) (k2_off5_inb k) k.val 0 ((k2_off5_eq k).trans (congrArg (fun n => (![n] : Fin 1 → Nat)) (by omega)))))
      (congrArg (fun v => addK v 0) (rd_db0 (F := F) t eh C (k2_off5 k) (k2_off5_inb k) k.val 0 ((k2_off5_eq k).trans (congrArg (fun n => (![n] : Fin 1 → Nat)) (by omega)))))) $$ Hacc; iintro Hacc
  iapply (wp_scatter_step (F := F) d L tb s t z eh (4 * (512 * C + 4 * k.val) + 1) (4 * (512 * C + 4 * k.val) + 2) (512 * C + 4 * k.val + 0) 1 (by omega) (by omega) (by omega) _ _
      (congrArg (fun v => addK v 1) (rd_sb0 (F := F) s eh C (k2_off5 k) (k2_off5_inb k) k.val 0 ((k2_off5_eq k).trans (congrArg (fun n => (![n] : Fin 1 → Nat)) (by omega)))))
      (congrArg (fun v => addK v 1) (rd_db0 (F := F) t eh C (k2_off5 k) (k2_off5_inb k) k.val 0 ((k2_off5_eq k).trans (congrArg (fun n => (![n] : Fin 1 → Nat)) (by omega)))))) $$ Hacc; iintro Hacc
  iapply (wp_scatter_step (F := F) d L tb s t z eh (4 * (512 * C + 4 * k.val) + 2) (4 * (512 * C + 4 * k.val) + 3) (512 * C + 4 * k.val + 0) 2 (by omega) (by omega) (by omega) _ _
      (congrArg (fun v => addK v 2) (rd_sb0 (F := F) s eh C (k2_off5 k) (k2_off5_inb k) k.val 0 ((k2_off5_eq k).trans (congrArg (fun n => (![n] : Fin 1 → Nat)) (by omega)))))
      (congrArg (fun v => addK v 2) (rd_db0 (F := F) t eh C (k2_off5 k) (k2_off5_inb k) k.val 0 ((k2_off5_eq k).trans (congrArg (fun n => (![n] : Fin 1 → Nat)) (by omega)))))) $$ Hacc; iintro Hacc
  iapply (wp_scatter_step (F := F) d L tb s t z eh (4 * (512 * C + 4 * k.val) + 3) (4 * (512 * C + 4 * k.val) + 4) (512 * C + 4 * k.val + 0) 3 (by omega) (by omega) (by omega) _ _
      (congrArg (fun v => addK v 3) (rd_sb0 (F := F) s eh C (k2_off5 k) (k2_off5_inb k) k.val 0 ((k2_off5_eq k).trans (congrArg (fun n => (![n] : Fin 1 → Nat)) (by omega)))))
      (congrArg (fun v => addK v 3) (rd_db0 (F := F) t eh C (k2_off5 k) (k2_off5_inb k) k.val 0 ((k2_off5_eq k).trans (congrArg (fun n => (![n] : Fin 1 → Nat)) (by omega)))))) $$ Hacc; iintro Hacc
  iapply (wp_scatter_step (F := F) d L tb s t z eh (4 * (512 * C + 4 * k.val) + 4) (4 * (512 * C + 4 * k.val) + 5) (512 * C + 4 * k.val + 1) 0 (by omega) (by omega) (by omega) _ _
      (congrArg (fun v => addK v 0) (rd_sb0 (F := F) s eh C (k2_off6 k) (k2_off6_inb k) k.val 1 ((k2_off6_eq k).trans (congrArg (fun n => (![n] : Fin 1 → Nat)) (by omega)))))
      (congrArg (fun v => addK v 0) (rd_db0 (F := F) t eh C (k2_off6 k) (k2_off6_inb k) k.val 1 ((k2_off6_eq k).trans (congrArg (fun n => (![n] : Fin 1 → Nat)) (by omega)))))) $$ Hacc; iintro Hacc
  iapply (wp_scatter_step (F := F) d L tb s t z eh (4 * (512 * C + 4 * k.val) + 5) (4 * (512 * C + 4 * k.val) + 6) (512 * C + 4 * k.val + 1) 1 (by omega) (by omega) (by omega) _ _
      (congrArg (fun v => addK v 1) (rd_sb0 (F := F) s eh C (k2_off6 k) (k2_off6_inb k) k.val 1 ((k2_off6_eq k).trans (congrArg (fun n => (![n] : Fin 1 → Nat)) (by omega)))))
      (congrArg (fun v => addK v 1) (rd_db0 (F := F) t eh C (k2_off6 k) (k2_off6_inb k) k.val 1 ((k2_off6_eq k).trans (congrArg (fun n => (![n] : Fin 1 → Nat)) (by omega)))))) $$ Hacc; iintro Hacc
  iapply (wp_scatter_step (F := F) d L tb s t z eh (4 * (512 * C + 4 * k.val) + 6) (4 * (512 * C + 4 * k.val) + 7) (512 * C + 4 * k.val + 1) 2 (by omega) (by omega) (by omega) _ _
      (congrArg (fun v => addK v 2) (rd_sb0 (F := F) s eh C (k2_off6 k) (k2_off6_inb k) k.val 1 ((k2_off6_eq k).trans (congrArg (fun n => (![n] : Fin 1 → Nat)) (by omega)))))
      (congrArg (fun v => addK v 2) (rd_db0 (F := F) t eh C (k2_off6 k) (k2_off6_inb k) k.val 1 ((k2_off6_eq k).trans (congrArg (fun n => (![n] : Fin 1 → Nat)) (by omega)))))) $$ Hacc; iintro Hacc
  iapply (wp_scatter_step (F := F) d L tb s t z eh (4 * (512 * C + 4 * k.val) + 7) (4 * (512 * C + 4 * k.val) + 8) (512 * C + 4 * k.val + 1) 3 (by omega) (by omega) (by omega) _ _
      (congrArg (fun v => addK v 3) (rd_sb0 (F := F) s eh C (k2_off6 k) (k2_off6_inb k) k.val 1 ((k2_off6_eq k).trans (congrArg (fun n => (![n] : Fin 1 → Nat)) (by omega)))))
      (congrArg (fun v => addK v 3) (rd_db0 (F := F) t eh C (k2_off6 k) (k2_off6_inb k) k.val 1 ((k2_off6_eq k).trans (congrArg (fun n => (![n] : Fin 1 → Nat)) (by omega)))))) $$ Hacc; iintro Hacc
  iapply (wp_scatter_step (F := F) d L tb s t z eh (4 * (512 * C + 4 * k.val) + 8) (4 * (512 * C + 4 * k.val) + 9) (512 * C + 4 * k.val + 2) 0 (by omega) (by omega) (by omega) _ _
      (congrArg (fun v => addK v 0) (rd_sb0 (F := F) s eh C (k2_off7 k) (k2_off7_inb k) k.val 2 ((k2_off7_eq k).trans (congrArg (fun n => (![n] : Fin 1 → Nat)) (by omega)))))
      (congrArg (fun v => addK v 0) (rd_db0 (F := F) t eh C (k2_off7 k) (k2_off7_inb k) k.val 2 ((k2_off7_eq k).trans (congrArg (fun n => (![n] : Fin 1 → Nat)) (by omega)))))) $$ Hacc; iintro Hacc
  iapply (wp_scatter_step (F := F) d L tb s t z eh (4 * (512 * C + 4 * k.val) + 9) (4 * (512 * C + 4 * k.val) + 10) (512 * C + 4 * k.val + 2) 1 (by omega) (by omega) (by omega) _ _
      (congrArg (fun v => addK v 1) (rd_sb0 (F := F) s eh C (k2_off7 k) (k2_off7_inb k) k.val 2 ((k2_off7_eq k).trans (congrArg (fun n => (![n] : Fin 1 → Nat)) (by omega)))))
      (congrArg (fun v => addK v 1) (rd_db0 (F := F) t eh C (k2_off7 k) (k2_off7_inb k) k.val 2 ((k2_off7_eq k).trans (congrArg (fun n => (![n] : Fin 1 → Nat)) (by omega)))))) $$ Hacc; iintro Hacc
  iapply (wp_scatter_step (F := F) d L tb s t z eh (4 * (512 * C + 4 * k.val) + 10) (4 * (512 * C + 4 * k.val) + 11) (512 * C + 4 * k.val + 2) 2 (by omega) (by omega) (by omega) _ _
      (congrArg (fun v => addK v 2) (rd_sb0 (F := F) s eh C (k2_off7 k) (k2_off7_inb k) k.val 2 ((k2_off7_eq k).trans (congrArg (fun n => (![n] : Fin 1 → Nat)) (by omega)))))
      (congrArg (fun v => addK v 2) (rd_db0 (F := F) t eh C (k2_off7 k) (k2_off7_inb k) k.val 2 ((k2_off7_eq k).trans (congrArg (fun n => (![n] : Fin 1 → Nat)) (by omega)))))) $$ Hacc; iintro Hacc
  iapply (wp_scatter_step (F := F) d L tb s t z eh (4 * (512 * C + 4 * k.val) + 11) (4 * (512 * C + 4 * k.val) + 12) (512 * C + 4 * k.val + 2) 3 (by omega) (by omega) (by omega) _ _
      (congrArg (fun v => addK v 3) (rd_sb0 (F := F) s eh C (k2_off7 k) (k2_off7_inb k) k.val 2 ((k2_off7_eq k).trans (congrArg (fun n => (![n] : Fin 1 → Nat)) (by omega)))))
      (congrArg (fun v => addK v 3) (rd_db0 (F := F) t eh C (k2_off7 k) (k2_off7_inb k) k.val 2 ((k2_off7_eq k).trans (congrArg (fun n => (![n] : Fin 1 → Nat)) (by omega)))))) $$ Hacc; iintro Hacc
  iapply (wp_scatter_step (F := F) d L tb s t z eh (4 * (512 * C + 4 * k.val) + 12) (4 * (512 * C + 4 * k.val) + 13) (512 * C + 4 * k.val + 3) 0 (by omega) (by omega) (by omega) _ _
      (congrArg (fun v => addK v 0) (rd_sb0 (F := F) s eh C (k2_off8 k) (k2_off8_inb k) k.val 3 ((k2_off8_eq k).trans (congrArg (fun n => (![n] : Fin 1 → Nat)) (by omega)))))
      (congrArg (fun v => addK v 0) (rd_db0 (F := F) t eh C (k2_off8 k) (k2_off8_inb k) k.val 3 ((k2_off8_eq k).trans (congrArg (fun n => (![n] : Fin 1 → Nat)) (by omega)))))) $$ Hacc; iintro Hacc
  iapply (wp_scatter_step (F := F) d L tb s t z eh (4 * (512 * C + 4 * k.val) + 13) (4 * (512 * C + 4 * k.val) + 14) (512 * C + 4 * k.val + 3) 1 (by omega) (by omega) (by omega) _ _
      (congrArg (fun v => addK v 1) (rd_sb0 (F := F) s eh C (k2_off8 k) (k2_off8_inb k) k.val 3 ((k2_off8_eq k).trans (congrArg (fun n => (![n] : Fin 1 → Nat)) (by omega)))))
      (congrArg (fun v => addK v 1) (rd_db0 (F := F) t eh C (k2_off8 k) (k2_off8_inb k) k.val 3 ((k2_off8_eq k).trans (congrArg (fun n => (![n] : Fin 1 → Nat)) (by omega)))))) $$ Hacc; iintro Hacc
  iapply (wp_scatter_step (F := F) d L tb s t z eh (4 * (512 * C + 4 * k.val) + 14) (4 * (512 * C + 4 * k.val) + 15) (512 * C + 4 * k.val + 3) 2 (by omega) (by omega) (by omega) _ _
      (congrArg (fun v => addK v 2) (rd_sb0 (F := F) s eh C (k2_off8 k) (k2_off8_inb k) k.val 3 ((k2_off8_eq k).trans (congrArg (fun n => (![n] : Fin 1 → Nat)) (by omega)))))
      (congrArg (fun v => addK v 2) (rd_db0 (F := F) t eh C (k2_off8 k) (k2_off8_inb k) k.val 3 ((k2_off8_eq k).trans (congrArg (fun n => (![n] : Fin 1 → Nat)) (by omega)))))) $$ Hacc; iintro Hacc
  iapply (wp_scatter_step (F := F) d L tb s t z eh (4 * (512 * C + 4 * k.val) + 15) (4 * (512 * C + 4 * k.val) + 16) (512 * C + 4 * k.val + 3) 3 (by omega) (by omega) (by omega) _ _
      (congrArg (fun v => addK v 3) (rd_sb0 (F := F) s eh C (k2_off8 k) (k2_off8_inb k) k.val 3 ((k2_off8_eq k).trans (congrArg (fun n => (![n] : Fin 1 → Nat)) (by omega)))))
      (congrArg (fun v => addK v 3) (rd_db0 (F := F) t eh C (k2_off8 k) (k2_off8_inb k) k.val 3 ((k2_off8_eq k).trans (congrArg (fun n => (![n] : Fin 1 → Nat)) (by omega)))))) $$ Hacc; iintro Hacc
  sl_step
  rw [show 4 * (512 * C + 4 * (k.val + 1)) = 4 * (512 * C + 4 * k.val) + 16 from by omega]
  isplitl [Htab]; · iexact Htab
  isplitl [Hacc]; · iexact Hacc
  isplitl [Hsb]; · iexact Hsb
  iexact Hdb

/-- The invariant of the loop over the staged pieces in sb1M and db1M: before trip `i` of piece `C` the table scratch
    holds the tile's table, the two staging buffers piece `C` of the half lists, the accumulator the fold after
    `4 (512 C + 4 i)` steps. -/
def innerInv1 (tb : Vec F S40064 .f32) (s t : IVec S2x1x163840 32) (z : Vec F S40064 .f32) (eh : Fin 2) (C : Nat) (i : Nat) (_ : Unit) : sProp 𝕄 :=
  iprop(((tabM).view.loc thr ↦{fullShare} tb)
    ∗ ((accM).view.loc thr ↦{fullShare} edgeAcc tb s t eh z (4 * (512 * C + 4 * i)))
    ∗ ((sb1M).view.loc thr ↦{fullShare} chunkBuf s eh C)
    ∗ ((db1M).view.loc thr ↦{fullShare} chunkBuf t eh C))

set_option maxHeartbeats 4000000 in
/-- One trip: sixteen gathers off the table, then the sixteen adds in the fold's order. -/
theorem inner1_region (tb : Vec F S40064 .f32) (s t : IVec S2x1x163840 32) (z : Vec F S40064 .f32) (hs : EdgePre s) (ht : EdgePre t) (eh : Fin 2) (C : Nat)
    (k : Fin k2_t3_loop.trips) (a : Unit) :
    innerInv1 d L tb s t z eh C k.val a
      ⊢ wp frame (wpE (defs₀ (F := F)) 𝒱₀ thr none) Set.univ
          (k2_t3_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2 k a)
          (innerInv1 d L tb s t z eh C (k.val + 1)) := by
  unfold innerInv1 k2_t3_body
  iintro ⟨Htab, Hacc, Hsb, Hdb⟩
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  iapply (wp_scatter_step (F := F) d L tb s t z eh (4 * (512 * C + 4 * k.val)) (4 * (512 * C + 4 * k.val) + 1) (512 * C + 4 * k.val + 0) 0 (by omega) (by omega) (by omega) _ _
      (congrArg (fun v => addK v 0) (rd_sb1 (F := F) s eh C (k2_off9 k) (k2_off9_inb k) k.val 0 ((k2_off9_eq k).trans (congrArg (fun n => (![n] : Fin 1 → Nat)) (by omega)))))
      (congrArg (fun v => addK v 0) (rd_db1 (F := F) t eh C (k2_off9 k) (k2_off9_inb k) k.val 0 ((k2_off9_eq k).trans (congrArg (fun n => (![n] : Fin 1 → Nat)) (by omega)))))) $$ Hacc; iintro Hacc
  iapply (wp_scatter_step (F := F) d L tb s t z eh (4 * (512 * C + 4 * k.val) + 1) (4 * (512 * C + 4 * k.val) + 2) (512 * C + 4 * k.val + 0) 1 (by omega) (by omega) (by omega) _ _
      (congrArg (fun v => addK v 1) (rd_sb1 (F := F) s eh C (k2_off9 k) (k2_off9_inb k) k.val 0 ((k2_off9_eq k).trans (congrArg (fun n => (![n] : Fin 1 → Nat)) (by omega)))))
      (congrArg (fun v => addK v 1) (rd_db1 (F := F) t eh C (k2_off9 k) (k2_off9_inb k) k.val 0 ((k2_off9_eq k).trans (congrArg (fun n => (![n] : Fin 1 → Nat)) (by omega)))))) $$ Hacc; iintro Hacc
  iapply (wp_scatter_step (F := F) d L tb s t z eh (4 * (512 * C + 4 * k.val) + 2) (4 * (512 * C + 4 * k.val) + 3) (512 * C + 4 * k.val + 0) 2 (by omega) (by omega) (by omega) _ _
      (congrArg (fun v => addK v 2) (rd_sb1 (F := F) s eh C (k2_off9 k) (k2_off9_inb k) k.val 0 ((k2_off9_eq k).trans (congrArg (fun n => (![n] : Fin 1 → Nat)) (by omega)))))
      (congrArg (fun v => addK v 2) (rd_db1 (F := F) t eh C (k2_off9 k) (k2_off9_inb k) k.val 0 ((k2_off9_eq k).trans (congrArg (fun n => (![n] : Fin 1 → Nat)) (by omega)))))) $$ Hacc; iintro Hacc
  iapply (wp_scatter_step (F := F) d L tb s t z eh (4 * (512 * C + 4 * k.val) + 3) (4 * (512 * C + 4 * k.val) + 4) (512 * C + 4 * k.val + 0) 3 (by omega) (by omega) (by omega) _ _
      (congrArg (fun v => addK v 3) (rd_sb1 (F := F) s eh C (k2_off9 k) (k2_off9_inb k) k.val 0 ((k2_off9_eq k).trans (congrArg (fun n => (![n] : Fin 1 → Nat)) (by omega)))))
      (congrArg (fun v => addK v 3) (rd_db1 (F := F) t eh C (k2_off9 k) (k2_off9_inb k) k.val 0 ((k2_off9_eq k).trans (congrArg (fun n => (![n] : Fin 1 → Nat)) (by omega)))))) $$ Hacc; iintro Hacc
  iapply (wp_scatter_step (F := F) d L tb s t z eh (4 * (512 * C + 4 * k.val) + 4) (4 * (512 * C + 4 * k.val) + 5) (512 * C + 4 * k.val + 1) 0 (by omega) (by omega) (by omega) _ _
      (congrArg (fun v => addK v 0) (rd_sb1 (F := F) s eh C (k2_off10 k) (k2_off10_inb k) k.val 1 ((k2_off10_eq k).trans (congrArg (fun n => (![n] : Fin 1 → Nat)) (by omega)))))
      (congrArg (fun v => addK v 0) (rd_db1 (F := F) t eh C (k2_off10 k) (k2_off10_inb k) k.val 1 ((k2_off10_eq k).trans (congrArg (fun n => (![n] : Fin 1 → Nat)) (by omega)))))) $$ Hacc; iintro Hacc
  iapply (wp_scatter_step (F := F) d L tb s t z eh (4 * (512 * C + 4 * k.val) + 5) (4 * (512 * C + 4 * k.val) + 6) (512 * C + 4 * k.val + 1) 1 (by omega) (by omega) (by omega) _ _
      (congrArg (fun v => addK v 1) (rd_sb1 (F := F) s eh C (k2_off10 k) (k2_off10_inb k) k.val 1 ((k2_off10_eq k).trans (congrArg (fun n => (![n] : Fin 1 → Nat)) (by omega)))))
      (congrArg (fun v => addK v 1) (rd_db1 (F := F) t eh C (k2_off10 k) (k2_off10_inb k) k.val 1 ((k2_off10_eq k).trans (congrArg (fun n => (![n] : Fin 1 → Nat)) (by omega)))))) $$ Hacc; iintro Hacc
  iapply (wp_scatter_step (F := F) d L tb s t z eh (4 * (512 * C + 4 * k.val) + 6) (4 * (512 * C + 4 * k.val) + 7) (512 * C + 4 * k.val + 1) 2 (by omega) (by omega) (by omega) _ _
      (congrArg (fun v => addK v 2) (rd_sb1 (F := F) s eh C (k2_off10 k) (k2_off10_inb k) k.val 1 ((k2_off10_eq k).trans (congrArg (fun n => (![n] : Fin 1 → Nat)) (by omega)))))
      (congrArg (fun v => addK v 2) (rd_db1 (F := F) t eh C (k2_off10 k) (k2_off10_inb k) k.val 1 ((k2_off10_eq k).trans (congrArg (fun n => (![n] : Fin 1 → Nat)) (by omega)))))) $$ Hacc; iintro Hacc
  iapply (wp_scatter_step (F := F) d L tb s t z eh (4 * (512 * C + 4 * k.val) + 7) (4 * (512 * C + 4 * k.val) + 8) (512 * C + 4 * k.val + 1) 3 (by omega) (by omega) (by omega) _ _
      (congrArg (fun v => addK v 3) (rd_sb1 (F := F) s eh C (k2_off10 k) (k2_off10_inb k) k.val 1 ((k2_off10_eq k).trans (congrArg (fun n => (![n] : Fin 1 → Nat)) (by omega)))))
      (congrArg (fun v => addK v 3) (rd_db1 (F := F) t eh C (k2_off10 k) (k2_off10_inb k) k.val 1 ((k2_off10_eq k).trans (congrArg (fun n => (![n] : Fin 1 → Nat)) (by omega)))))) $$ Hacc; iintro Hacc
  iapply (wp_scatter_step (F := F) d L tb s t z eh (4 * (512 * C + 4 * k.val) + 8) (4 * (512 * C + 4 * k.val) + 9) (512 * C + 4 * k.val + 2) 0 (by omega) (by omega) (by omega) _ _
      (congrArg (fun v => addK v 0) (rd_sb1 (F := F) s eh C (k2_off11 k) (k2_off11_inb k) k.val 2 ((k2_off11_eq k).trans (congrArg (fun n => (![n] : Fin 1 → Nat)) (by omega)))))
      (congrArg (fun v => addK v 0) (rd_db1 (F := F) t eh C (k2_off11 k) (k2_off11_inb k) k.val 2 ((k2_off11_eq k).trans (congrArg (fun n => (![n] : Fin 1 → Nat)) (by omega)))))) $$ Hacc; iintro Hacc
  iapply (wp_scatter_step (F := F) d L tb s t z eh (4 * (512 * C + 4 * k.val) + 9) (4 * (512 * C + 4 * k.val) + 10) (512 * C + 4 * k.val + 2) 1 (by omega) (by omega) (by omega) _ _
      (congrArg (fun v => addK v 1) (rd_sb1 (F := F) s eh C (k2_off11 k) (k2_off11_inb k) k.val 2 ((k2_off11_eq k).trans (congrArg (fun n => (![n] : Fin 1 → Nat)) (by omega)))))
      (congrArg (fun v => addK v 1) (rd_db1 (F := F) t eh C (k2_off11 k) (k2_off11_inb k) k.val 2 ((k2_off11_eq k).trans (congrArg (fun n => (![n] : Fin 1 → Nat)) (by omega)))))) $$ Hacc; iintro Hacc
  iapply (wp_scatter_step (F := F) d L tb s t z eh (4 * (512 * C + 4 * k.val) + 10) (4 * (512 * C + 4 * k.val) + 11) (512 * C + 4 * k.val + 2) 2 (by omega) (by omega) (by omega) _ _
      (congrArg (fun v => addK v 2) (rd_sb1 (F := F) s eh C (k2_off11 k) (k2_off11_inb k) k.val 2 ((k2_off11_eq k).trans (congrArg (fun n => (![n] : Fin 1 → Nat)) (by omega)))))
      (congrArg (fun v => addK v 2) (rd_db1 (F := F) t eh C (k2_off11 k) (k2_off11_inb k) k.val 2 ((k2_off11_eq k).trans (congrArg (fun n => (![n] : Fin 1 → Nat)) (by omega)))))) $$ Hacc; iintro Hacc
  iapply (wp_scatter_step (F := F) d L tb s t z eh (4 * (512 * C + 4 * k.val) + 11) (4 * (512 * C + 4 * k.val) + 12) (512 * C + 4 * k.val + 2) 3 (by omega) (by omega) (by omega) _ _
      (congrArg (fun v => addK v 3) (rd_sb1 (F := F) s eh C (k2_off11 k) (k2_off11_inb k) k.val 2 ((k2_off11_eq k).trans (congrArg (fun n => (![n] : Fin 1 → Nat)) (by omega)))))
      (congrArg (fun v => addK v 3) (rd_db1 (F := F) t eh C (k2_off11 k) (k2_off11_inb k) k.val 2 ((k2_off11_eq k).trans (congrArg (fun n => (![n] : Fin 1 → Nat)) (by omega)))))) $$ Hacc; iintro Hacc
  iapply (wp_scatter_step (F := F) d L tb s t z eh (4 * (512 * C + 4 * k.val) + 12) (4 * (512 * C + 4 * k.val) + 13) (512 * C + 4 * k.val + 3) 0 (by omega) (by omega) (by omega) _ _
      (congrArg (fun v => addK v 0) (rd_sb1 (F := F) s eh C (k2_off12 k) (k2_off12_inb k) k.val 3 ((k2_off12_eq k).trans (congrArg (fun n => (![n] : Fin 1 → Nat)) (by omega)))))
      (congrArg (fun v => addK v 0) (rd_db1 (F := F) t eh C (k2_off12 k) (k2_off12_inb k) k.val 3 ((k2_off12_eq k).trans (congrArg (fun n => (![n] : Fin 1 → Nat)) (by omega)))))) $$ Hacc; iintro Hacc
  iapply (wp_scatter_step (F := F) d L tb s t z eh (4 * (512 * C + 4 * k.val) + 13) (4 * (512 * C + 4 * k.val) + 14) (512 * C + 4 * k.val + 3) 1 (by omega) (by omega) (by omega) _ _
      (congrArg (fun v => addK v 1) (rd_sb1 (F := F) s eh C (k2_off12 k) (k2_off12_inb k) k.val 3 ((k2_off12_eq k).trans (congrArg (fun n => (![n] : Fin 1 → Nat)) (by omega)))))
      (congrArg (fun v => addK v 1) (rd_db1 (F := F) t eh C (k2_off12 k) (k2_off12_inb k) k.val 3 ((k2_off12_eq k).trans (congrArg (fun n => (![n] : Fin 1 → Nat)) (by omega)))))) $$ Hacc; iintro Hacc
  iapply (wp_scatter_step (F := F) d L tb s t z eh (4 * (512 * C + 4 * k.val) + 14) (4 * (512 * C + 4 * k.val) + 15) (512 * C + 4 * k.val + 3) 2 (by omega) (by omega) (by omega) _ _
      (congrArg (fun v => addK v 2) (rd_sb1 (F := F) s eh C (k2_off12 k) (k2_off12_inb k) k.val 3 ((k2_off12_eq k).trans (congrArg (fun n => (![n] : Fin 1 → Nat)) (by omega)))))
      (congrArg (fun v => addK v 2) (rd_db1 (F := F) t eh C (k2_off12 k) (k2_off12_inb k) k.val 3 ((k2_off12_eq k).trans (congrArg (fun n => (![n] : Fin 1 → Nat)) (by omega)))))) $$ Hacc; iintro Hacc
  iapply (wp_scatter_step (F := F) d L tb s t z eh (4 * (512 * C + 4 * k.val) + 15) (4 * (512 * C + 4 * k.val) + 16) (512 * C + 4 * k.val + 3) 3 (by omega) (by omega) (by omega) _ _
      (congrArg (fun v => addK v 3) (rd_sb1 (F := F) s eh C (k2_off12 k) (k2_off12_inb k) k.val 3 ((k2_off12_eq k).trans (congrArg (fun n => (![n] : Fin 1 → Nat)) (by omega)))))
      (congrArg (fun v => addK v 3) (rd_db1 (F := F) t eh C (k2_off12 k) (k2_off12_inb k) k.val 3 ((k2_off12_eq k).trans (congrArg (fun n => (![n] : Fin 1 → Nat)) (by omega)))))) $$ Hacc; iintro Hacc
  sl_step
  rw [show 4 * (512 * C + 4 * (k.val + 1)) = 4 * (512 * C + 4 * k.val) + 16 from by omega]
  isplitl [Htab]; · iexact Htab
  isplitl [Hacc]; · iexact Hacc
  isplitl [Hsb]; · iexact Hsb
  iexact Hdb

theorem inner0_trips : k2_t2_loop.trips = 128 := by decide
theorem inner1_trips : k2_t3_loop.trips = 128 := by decide

end Tile

end cc2_edge

end Cert.Kernel.Hand

end
-- ==== Proof.K.EdgeLoops.lean ====
/-
  The edge kernel's two inner loops, whole, and the value of its copy-out.

  Each inner loop takes 128 trips over one staged 8192-word piece of the two half lists; a trip moves the fold
  edgeAcc sixteen steps on, so the loop over piece C takes it from step 4 · 512 C to step 4 · 512 (C + 1), the staged
  piece and the table unchanged. The statements are in continuation form: what follows the loop runs from the fold at
  the start of the next piece. After the twentieth piece the fold has taken all 4 · 512 · 20 = 40960 steps, and what the
  copy-out writes through the tile's row of the result is the kernel's value on that row.
-/
import proofs.«219763_g10557029614292_week1_w2_488_21_alg».proof.Proof.K.Base
import proofs.«219763_g10557029614292_week1_w2_488_21_alg».proof.Proof.K.Vals
import proofs.«219763_g10557029614292_week1_w2_488_21_alg».proof.Proof.K.EdgeDefs
import proofs.«219763_g10557029614292_week1_w2_488_21_alg».proof.Proof.K.EdgeSteps
import proofs.«219763_g10557029614292_week1_w2_488_21_alg».proof.Proof.K.EdgeCompute
import proofs.«219763_g10557029614292_week1_w2_488_21_alg».proof.Proof.K.EdgeAux
import Idealize.ShloMosaic.Lib.Scf

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc2_edge

variable {F : FTy → Type}

local notation "𝕄" => MT nD τ sig (HIx 3) (Elt F) ℕ UU ℕ

local notation "gW" => (Memref.whole Cert.Kernel.main_v23_scv : Memref Cert.Kernel.sig Kind.scVector Space.hbm Cert.Kernel.S16x1x40064 EltTy.f32)
local notation "sW" => (Memref.whole Cert.Kernel.main_v6_scv : Memref Cert.Kernel.sig Kind.scVector Space.hbm Cert.Kernel.S2x1x163840 EltTy.i32)
local notation "dW" => (Memref.whole Cert.Kernel.main_v9_scv : Memref Cert.Kernel.sig Kind.scVector Space.hbm Cert.Kernel.S2x1x163840 EltTy.i32)
local notation "zW" => (Memref.whole Cert.Kernel.main_v13_scv : Memref Cert.Kernel.sig Kind.scVector Space.hbm Cert.Kernel.S40064 EltTy.f32)
local notation "oW" => (Memref.whole Cert.Kernel.main_v24_scv : Memref Cert.Kernel.sig Kind.scVector Space.hbm Cert.Kernel.S16x2x1x40064 EltTy.f32)
local notation "tabM" => (Memref.whole Cert.Kernel.cc2_scratch0 : Memref Cert.Kernel.sig Kind.scVector Space.vmem Cert.Kernel.S40064 EltTy.f32)
local notation "accM" => (Memref.whole Cert.Kernel.cc2_scratch1 : Memref Cert.Kernel.sig Kind.scVector Space.vmem Cert.Kernel.S40064 EltTy.f32)
local notation "sb0M" => (Memref.whole Cert.Kernel.cc2_scratch2 : Memref Cert.Kernel.sig Kind.scVector Space.vmem Cert.Kernel.S8192 EltTy.i32)
local notation "db0M" => (Memref.whole Cert.Kernel.cc2_scratch3 : Memref Cert.Kernel.sig Kind.scVector Space.vmem Cert.Kernel.S8192 EltTy.i32)
local notation "sb1M" => (Memref.whole Cert.Kernel.cc2_scratch4 : Memref Cert.Kernel.sig Kind.scVector Space.vmem Cert.Kernel.S8192 EltTy.i32)
local notation "db1M" => (Memref.whole Cert.Kernel.cc2_scratch5 : Memref Cert.Kernel.sig Kind.scVector Space.vmem Cert.Kernel.S8192 EltTy.i32)

variable [FloatOps F]
section Tile
variable (d : Dev nD) (L : grid2.Coords)

local notation "thr" => (V d (cV L) (jV L))

omit [FloatOps F] in
/-- Each inner loop takes 128 trips. -/
theorem k2_t2_trips : k2_t2_loop.trips = 128 := by decide +kernel
omit [FloatOps F] in
theorem k2_t3_trips : k2_t3_loop.trips = 128 := by decide +kernel

/-- The first inner loop, whole: from the fold at the start of piece C, held with the piece staged in the first
    pair of buffers, to the fold at the start of piece C + 1. -/
theorem compute0 {α : Type} {Q : α → sProp 𝕄} (kk : Unit → Prog (TpuEff nD τ sig (Elt F) Λ₀ (thr).2) α)
    (tb : Vec F S40064 .f32) (s t : IVec S2x1x163840 32) (z : Vec F S40064 .f32) (hs : EdgePre s) (ht : EdgePre t) (eh : Fin 2) (C : Nat)
    (c0 c1 : BitVec 32) (t1 : Fin k2_t1_loop.trips) :
    iprop(((tabM).view.loc thr ↦{fullShare} tb) ∗ ((accM).view.loc thr ↦{fullShare} edgeAcc tb s t eh z (4 * (512 * C)))
        ∗ ((sb0M).view.loc thr ↦{fullShare} chunkBuf s eh C) ∗ ((db0M).view.loc thr ↦{fullShare} chunkBuf t eh C)
        ∗ ((((tabM).view.loc thr ↦{fullShare} tb) ∗ ((accM).view.loc thr ↦{fullShare} edgeAcc tb s t eh z (4 * (512 * (C + 1))))
            ∗ ((sb0M).view.loc thr ↦{fullShare} chunkBuf s eh C) ∗ ((db0M).view.loc thr ↦{fullShare} chunkBuf t eh C))
          -∗ wp frame (wpE (defs₀ (F := F)) 𝒱₀ thr none) Set.univ (kk ⟨⟩) Q))
      ⊢ wp frame (wpE (defs₀ (F := F)) 𝒱₀ thr none) Set.univ
          (Scf.Loop.for k2_t2_loop k2_t2_ok ⟨⟩ (k2_t2_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2 c0 c1 t1) >>= kk) Q := by
  have hloop := Scf.wp_for_bind frame (wpE (defs₀ (F := F)) 𝒱₀ thr none) Set.univ k2_t2_loop.lb k2_t2_loop.ub k2_t2_loop.st k2_t2_ok (⟨⟩ : Unit)
    (k2_t2_body L gW (Memref.isWhole_whole _) sW (Memref.isWhole_whole _) dW (Memref.isWhole_whole _) zW (Memref.isWhole_whole _)
      oW (Memref.isWhole_whole _) tabM (Memref.isWhole_whole _) accM (Memref.isWhole_whole _) sb0M (Memref.isWhole_whole _)
      db0M (Memref.isWhole_whole _) sb1M (Memref.isWhole_whole _) db1M (Memref.isWhole_whole _)
      cc2_scratch6 cc2_scratch7 cc2_scratch8 cc2_scratch9 cc2_scoped0 cc2_scoped1 cc2_scoped2 c0 c1 t1)
    (innerInv0 d L tb s t z eh C) (fun k a => inner0_region d L tb s t z hs ht eh C c0 c1 t1 k a) (kk := kk) (Q := Q)
  iintro ⟨Htab, Hacc, Hsb, Hdb, Hk⟩
  iapply hloop $$ [Htab Hacc Hsb Hdb] [Hk]
  · unfold innerInv0
    rw [show 4 * (512 * C + 4 * 0) = 4 * (512 * C) by ring]
    isplitl [Htab]; · iexact Htab
    isplitl [Hacc]; · iexact Hacc
    isplitl [Hsb]; · iexact Hsb
    iexact Hdb
  · iintro %a HI
    iapply Hk
    have hidx : 4 * (512 * C + 4 * Scf.trips k2_t2_loop.lb k2_t2_loop.ub k2_t2_loop.st) = 4 * (512 * (C + 1)) := by
      rw [show Scf.trips k2_t2_loop.lb k2_t2_loop.ub k2_t2_loop.st = 128 from k2_t2_trips]; ring
    unfold innerInv0
    rw [hidx]
    iexact HI

/-- The second inner loop, whole: the same over the second pair of buffers. -/
theorem compute1 {α : Type} {Q : α → sProp 𝕄} (kk : Unit → Prog (TpuEff nD τ sig (Elt F) Λ₀ (thr).2) α)
    (tb : Vec F S40064 .f32) (s t : IVec S2x1x163840 32) (z : Vec F S40064 .f32) (hs : EdgePre s) (ht : EdgePre t) (eh : Fin 2) (C : Nat) :
    iprop(((tabM).view.loc thr ↦{fullShare} tb) ∗ ((accM).view.loc thr ↦{fullShare} edgeAcc tb s t eh z (4 * (512 * C)))
        ∗ ((sb1M).view.loc thr ↦{fullShare} chunkBuf s eh C) ∗ ((db1M).view.loc thr ↦{fullShare} chunkBuf t eh C)
        ∗ ((((tabM).view.loc thr ↦{fullShare} tb) ∗ ((accM).view.loc thr ↦{fullShare} edgeAcc tb s t eh z (4 * (512 * (C + 1))))
            ∗ ((sb1M).view.loc thr ↦{fullShare} chunkBuf s eh C) ∗ ((db1M).view.loc thr ↦{fullShare} chunkBuf t eh C))
          -∗ wp frame (wpE (defs₀ (F := F)) 𝒱₀ thr none) Set.univ (kk ⟨⟩) Q))
      ⊢ wp frame (wpE (defs₀ (F := F)) 𝒱₀ thr none) Set.univ
          (Scf.Loop.for k2_t3_loop k2_t3_ok ⟨⟩ (k2_t3_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2) >>= kk) Q := by
  have hloop := Scf.wp_for_bind frame (wpE (defs₀ (F := F)) 𝒱₀ thr none) Set.univ k2_t3_loop.lb k2_t3_loop.ub k2_t3_loop.st k2_t3_ok (⟨⟩ : Unit)
    (k2_t3_body L gW (Memref.isWhole_whole _) sW (Memref.isWhole_whole _) dW (Memref.isWhole_whole _) zW (Memref.isWhole_whole _)
      oW (Memref.isWhole_whole _) tabM (Memref.isWhole_whole _) accM (Memref.isWhole_whole _) sb0M (Memref.isWhole_whole _)
      db0M (Memref.isWhole_whole _) sb1M (Memref.isWhole_whole _) db1M (Memref.isWhole_whole _)
      cc2_scratch6 cc2_scratch7 cc2_scratch8 cc2_scratch9 cc2_scoped0 cc2_scoped1 cc2_scoped2)
    (innerInv1 d L tb s t z eh C) (fun k a => inner1_region d L tb s t z hs ht eh C k a) (kk := kk) (Q := Q)
  iintro ⟨Htab, Hacc, Hsb, Hdb, Hk⟩
  iapply hloop $$ [Htab Hacc Hsb Hdb] [Hk]
  · unfold innerInv1
    rw [show 4 * (512 * C + 4 * 0) = 4 * (512 * C) by ring]
    isplitl [Htab]; · iexact Htab
    isplitl [Hacc]; · iexact Hacc
    isplitl [Hsb]; · iexact Hsb
    iexact Hdb
  · iintro %a HI
    iapply Hk
    have hidx : 4 * (512 * C + 4 * Scf.trips k2_t3_loop.lb k2_t3_loop.ub k2_t3_loop.st) = 4 * (512 * (C + 1)) := by
      rw [show Scf.trips k2_t3_loop.lb k2_t3_loop.ub k2_t3_loop.st = 128 from k2_t3_trips]; ring
    unfold innerInv1
    rw [hidx]
    iexact HI

end Tile

/-! ## What the copy-out leaves in the tile's row of the result -/

/-- The accumulator after all twenty pieces, written through the tile's row of the result, is the edge kernel's
    value there: the row's tile is (feature group L 1, edge half L 0), and 4 · 512 · 20 = 40960 steps are the whole fold. -/
theorem out_value (L : grid2.Coords) (g : Vec F S16x1x40064 .f32) (s t : IVec S2x1x163840 32) (z : Vec F S40064 .f32)
    (o : Vec F S16x2x1x40064 .f32) (i : S16x2x1x40064.Idx) (hi : i ∈ edgeRow L) :
    (oRowK L).view.write (Elt F) o (edgeAcc (tabRow g (L 1 : Fin 16)) s t (L 0 : Fin 2) z (4 * (512 * (2 * 10)))) Finset.univ i
      = edgeOut g s t z i := by
  rw [oRowK_write L o _ i hi]
  obtain ⟨-, h0, h1⟩ := Finset.mem_filter.mp hi
  have e0 : (i 0 : Fin 16) = (L 1 : Fin 16) := Fin.ext h0
  have e1 : (i 1 : Fin 2) = (L 0 : Fin 2) := Fin.ext h1
  show _ = edgeAcc (tabRow g (i 0)) s t (i 1) z 40960 (ix1 (i 3))
  rw [e0, e1]

end cc2_edge

end Cert.Kernel.Hand

end
-- ==== Proof.K.EdgeBody.lean ====
/-
  The body of the edge kernel on one vector subcore, with its value.

  The tile at (edge half eh, feature group cg) copies row cg of the packed table and the zero array into its two
  large scratch arrays, then walks the twenty 8192-word chunks of half eh of the source and destination lists through
  two pairs of staging buffers, one pair being filled while the other is read: for each sixteen-word chunk n of the
  lists and each feature row k it gathers the table at source + k · 10016 and adds the gathered lanes into the
  accumulator at destination + k · 10016. Sixteen such steps make one trip of the inner loop, 128 trips one staging
  buffer, two staging buffers one trip of the outer loop, ten trips the whole half list: 40960 steps in the order
  p = 4 n + k, which is the order of the fold `edgeAcc`. The accumulator is then copied to the tile's row of the result.

  Every word of the two lists is at most 10000, so every index the tile forms is below 40064.
-/
import proofs.«219763_g10557029614292_week1_w2_488_21_alg».proof.Proof.K.Base
import proofs.«219763_g10557029614292_week1_w2_488_21_alg».proof.Proof.K.Vals
import proofs.«219763_g10557029614292_week1_w2_488_21_alg».proof.Proof.K.EdgeDefs
import proofs.«219763_g10557029614292_week1_w2_488_21_alg».proof.Proof.K.EdgeAux
import proofs.«219763_g10557029614292_week1_w2_488_21_alg».proof.Proof.K.EdgeLoops

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc2_edge

variable {F : FTy → Type}

local notation "𝕄" => MT nD τ sig (HIx 3) (Elt F) ℕ UU ℕ

variable [FloatOps F]

local notation "gW" => (Memref.whole Cert.Kernel.main_v23_scv : Memref Cert.Kernel.sig Kind.scVector Space.hbm Cert.Kernel.S16x1x40064 EltTy.f32)
local notation "sW" => (Memref.whole Cert.Kernel.main_v6_scv : Memref Cert.Kernel.sig Kind.scVector Space.hbm Cert.Kernel.S2x1x163840 EltTy.i32)
local notation "dW" => (Memref.whole Cert.Kernel.main_v9_scv : Memref Cert.Kernel.sig Kind.scVector Space.hbm Cert.Kernel.S2x1x163840 EltTy.i32)
local notation "zW" => (Memref.whole Cert.Kernel.main_v13_scv : Memref Cert.Kernel.sig Kind.scVector Space.hbm Cert.Kernel.S40064 EltTy.f32)
local notation "oW" => (Memref.whole Cert.Kernel.main_v24_scv : Memref Cert.Kernel.sig Kind.scVector Space.hbm Cert.Kernel.S16x2x1x40064 EltTy.f32)
local notation "tabM" => (Memref.whole Cert.Kernel.cc2_scratch0 : Memref Cert.Kernel.sig Kind.scVector Space.vmem Cert.Kernel.S40064 EltTy.f32)
local notation "accM" => (Memref.whole Cert.Kernel.cc2_scratch1 : Memref Cert.Kernel.sig Kind.scVector Space.vmem Cert.Kernel.S40064 EltTy.f32)
local notation "sb0M" => (Memref.whole Cert.Kernel.cc2_scratch2 : Memref Cert.Kernel.sig Kind.scVector Space.vmem Cert.Kernel.S8192 EltTy.i32)
local notation "db0M" => (Memref.whole Cert.Kernel.cc2_scratch3 : Memref Cert.Kernel.sig Kind.scVector Space.vmem Cert.Kernel.S8192 EltTy.i32)
local notation "sb1M" => (Memref.whole Cert.Kernel.cc2_scratch4 : Memref Cert.Kernel.sig Kind.scVector Space.vmem Cert.Kernel.S8192 EltTy.i32)
local notation "db1M" => (Memref.whole Cert.Kernel.cc2_scratch5 : Memref Cert.Kernel.sig Kind.scVector Space.vmem Cert.Kernel.S8192 EltTy.i32)

/-- The counters' copy in the ghost state. -/
abbrev EC : UEmb Counters 𝕄 := countersEmb

omit [FloatOps F] in
/-- A transfer in flight delivers, beside what it delivers, anything kept aside for its landing. -/
theorem Flight_frame (c : Thread nD τ) {sm : SemLoc sig} {ι : HIx 3} {N : ℕ} {D P : sProp 𝕄} :
    iprop(Transfers.Flight (EC (F := F)) c sm ι N D ∗ P) ⊢ Transfers.Flight (EC (F := F)) c sm ι N iprop(D ∗ P) := by
  unfold Transfers.Flight
  iintro ⟨⟨⟨%R, HR, %hcap, %hpeek⟩, Hcred⟩, HP⟩
  isplitl [HR HP]
  · iexists iprop(R ∗ P)
    isplitl [HR HP]; · isplitl [HR] <;> iassumption
    isplit
    · ipureintro
      intro K
      iintro ⟨⟨HR, HP⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HP⟩, HK⟩
      iapply (hpeek K)
      isplitl [HR]; · iexact HR
      iintro HR
      iapply HK
      isplitl [HR] <;> iassumption
  · iexact Hcred

omit [FloatOps F] in
theorem pts_of_eq {ℓ : Loc nD τ sig} {S : Finset (Idx ℓ)} {q : PosShare TreeShare} {f g : Buf (Elt F) ℓ} (h : f = g) :
    (ℓ ↦[S]{q} f : sProp 𝕄) ⊢ ℓ ↦[S]{q} g := by rw [h]

section Tile
variable (d : Dev nD) (L : grid2.Coords)

local notation "thr" => (V d (cV L) (jV L))

/-- The start of a local copy out of an array held on any set of elements that includes the source's, into a buffer
    held on any set of elements that includes the destination's, on a semaphore at zero: the copy in flight delivers
    the buffer rewritten and the array as it was held. -/
theorem wp_issue {α : Type} {Q : α → sProp 𝕄} {sp sp' : Space} {s₀ : Shape} {e₀ : EltTy}
    {src : Memref sig (thr).2.kind sp s₀ e₀} {dst : Memref sig (thr).2.kind sp' s₀ e₀} {sem : DmaSem sig}
    {hsrc : src.view.WordExact} {hdst : dst.view.WordExact} {hsem : DmaTarget.Typed (nD := nD) sp (SemLoc.dma sem) (.here dst)}
    {k : PUnit → Prog (TpuEff nD τ sig (Elt F) Λ₀ (thr).2) α} {q : PosShare TreeShare}
    {S : Finset (Idx (src.view.loc thr))} {fs : Buf (Elt F) (src.view.loc thr)}
    {Sd : Finset (Idx (dst.view.loc thr))} {fd : Buf (Elt F) (dst.view.loc thr)}
    (N : ℕ) (hN : dst.view.amount (SemLoc.dma sem) = N) (hN0 : 0 < N) (hS : src.view.set ⊆ S) (hSd : dst.view.set ⊆ Sd) :
    iprop((src.view.loc thr ↦[S]{q} fs) ∗ (dst.view.loc thr ↦[Sd]{fullShare} fd) ∗ semVal (thr, SemLoc.dma sem) 0)
      ⊢ iprop((Transfers.Flight (EC (F := F)) thr (SemLoc.dma sem) none N
                iprop((dst.view.loc thr ↦[Sd]{fullShare} (dst.view.write (Elt F) fd (ReadAs.same.apply (src.view.read (Elt F) fs)) Finset.univ))
                      ∗ (src.view.loc thr ↦[S]{q} fs))
              -∗ wp frame (wpE (defs₀ (F := F)) 𝒱₀ thr none) Set.univ (k ⟨⟩) Q)
          -∗ wp frame (wpE (defs₀ (F := F)) 𝒱₀ thr none) Set.univ (.op (.enqueueDmaAs src (.here dst) .same (SemLoc.dma sem) hsrc hdst hsem) k) Q) := by
  iintro ⟨Hs, Hd, Hv⟩ Hk
  ihave Hs' := (pointsTo_split_subset hS).1 $$ Hs
  icases Hs' with ⟨Hs1, Hs2⟩
  iapply (Transfers.wp_dmaLocal (EC (F := F)) 𝒱₀ thr none (none : HIx 3) N hN hN0 hSd) $$ [Hs1 Hd Hv]
  · isplitl [Hs1]; · iexact Hs1
    isplitl [Hd] <;> iassumption
  iintro HF
  iapply Hk
  iapply (Transfers.Flight_mono (EC (F := F)) thr ?_)
  rotate_left
  · iapply (Flight_frame thr)
    isplitl [HF]; · iexact HF
    iexact Hs2
  · iintro ⟨⟨Hd, Hs1⟩, Hs2⟩
    isplitl [Hd]; · iexact Hd
    iapply (pointsTo_split_subset hS).2
    isplitl [Hs1] <;> iassumption

/-- The start of the copy of chunk C of half eh of a list into a staging buffer: in flight it delivers the buffer at
    that chunk and the list as it was held. -/
theorem wp_issue_s0 {α : Type} {Q : α → sProp 𝕄} {sem : DmaSem sig} {off : Fin 3 → Nat} {inb : ∀ i, off i + S1x1x8192.size i ≤ S2x1x163840.size i}
    {hsrc : (((sW).slice (Rect.unit (s := S2x1x163840) off S1x1x8192.size inb) (fun _ => rfl)).squeeze S8192 squeezes_S1x1x8192_S8192).view.WordExact}
    {hdst : (sb0M).view.WordExact}
    {hsem : DmaTarget.Typed (nD := nD) Space.hbm (SemLoc.dma sem) (DmaTarget.here (sb0M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((sLoc d ↦{q} a) ∗ ((sb0M).view.loc thr ↦{fullShare} fd) ∗ semVal (thr, SemLoc.dma sem) 0)
      ⊢ iprop((Transfers.Flight (EC (F := F)) thr (SemLoc.dma sem) none (sb0M).view.dmaCredit
                iprop(((sb0M).view.loc thr ↦{fullShare} chunkBuf a eh C) ∗ (sLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((sW).slice (Rect.unit (s := S2x1x163840) off S1x1x8192.size inb) (fun _ => rfl)).squeeze S8192 squeezes_S1x1x8192_S8192)
                (.here (sb0M)) .same (SemLoc.dma sem) hsrc hdst hsem) k) Q) := by
  iintro ⟨Hs, Hd, Hv⟩ Hk
  iapply (wp_issue d L (src := (((sW).slice (Rect.unit (s := S2x1x163840) off S1x1x8192.size inb) (fun _ => rfl)).squeeze S8192 squeezes_S1x1x8192_S8192)) (dst := sb0M) (S := Finset.univ) (Sd := Finset.univ) (fs := a) (fd := fd) (q := q)
    (sb0M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v6 a off inb eh C hoff))) $$ Hd
  · iexact Hs

/-- The start of the copy of chunk C of half eh of a list into a staging buffer: in flight it delivers the buffer at
    that chunk and the list as it was held. -/
theorem wp_issue_d0 {α : Type} {Q : α → sProp 𝕄} {sem : DmaSem sig} {off : Fin 3 → Nat} {inb : ∀ i, off i + S1x1x8192.size i ≤ S2x1x163840.size i}
    {hsrc : (((dW).slice (Rect.unit (s := S2x1x163840) off S1x1x8192.size inb) (fun _ => rfl)).squeeze S8192 squeezes_S1x1x8192_S8192).view.WordExact}
    {hdst : (db0M).view.WordExact}
    {hsem : DmaTarget.Typed (nD := nD) Space.hbm (SemLoc.dma sem) (DmaTarget.here (db0M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((dLoc d ↦{q} a) ∗ ((db0M).view.loc thr ↦{fullShare} fd) ∗ semVal (thr, SemLoc.dma sem) 0)
      ⊢ iprop((Transfers.Flight (EC (F := F)) thr (SemLoc.dma sem) none (db0M).view.dmaCredit
                iprop(((db0M).view.loc thr ↦{fullShare} chunkBuf a eh C) ∗ (dLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((dW).slice (Rect.unit (s := S2x1x163840) off S1x1x8192.size inb) (fun _ => rfl)).squeeze S8192 squeezes_S1x1x8192_S8192)
                (.here (db0M)) .same (SemLoc.dma sem) hsrc hdst hsem) k) Q) := by
  iintro ⟨Hs, Hd, Hv⟩ Hk
  iapply (wp_issue d L (src := (((dW).slice (Rect.unit (s := S2x1x163840) off S1x1x8192.size inb) (fun _ => rfl)).squeeze S8192 squeezes_S1x1x8192_S8192)) (dst := db0M) (S := Finset.univ) (Sd := Finset.univ) (fs := a) (fd := fd) (q := q)
    (db0M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v9 a off inb eh C hoff))) $$ Hd
  · iexact Hs

/-- The start of the copy of chunk C of half eh of a list into a staging buffer: in flight it delivers the buffer at
    that chunk and the list as it was held. -/
theorem wp_issue_s1 {α : Type} {Q : α → sProp 𝕄} {sem : DmaSem sig} {off : Fin 3 → Nat} {inb : ∀ i, off i + S1x1x8192.size i ≤ S2x1x163840.size i}
    {hsrc : (((sW).slice (Rect.unit (s := S2x1x163840) off S1x1x8192.size inb) (fun _ => rfl)).squeeze S8192 squeezes_S1x1x8192_S8192).view.WordExact}
    {hdst : (sb1M).view.WordExact}
    {hsem : DmaTarget.Typed (nD := nD) Space.hbm (SemLoc.dma sem) (DmaTarget.here (sb1M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((sLoc d ↦{q} a) ∗ ((sb1M).view.loc thr ↦{fullShare} fd) ∗ semVal (thr, SemLoc.dma sem) 0)
      ⊢ iprop((Transfers.Flight (EC (F := F)) thr (SemLoc.dma sem) none (sb1M).view.dmaCredit
                iprop(((sb1M).view.loc thr ↦{fullShare} chunkBuf a eh C) ∗ (sLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((sW).slice (Rect.unit (s := S2x1x163840) off S1x1x8192.size inb) (fun _ => rfl)).squeeze S8192 squeezes_S1x1x8192_S8192)
                (.here (sb1M)) .same (SemLoc.dma sem) hsrc hdst hsem) k) Q) := by
  iintro ⟨Hs, Hd, Hv⟩ Hk
  iapply (wp_issue d L (src := (((sW).slice (Rect.unit (s := S2x1x163840) off S1x1x8192.size inb) (fun _ => rfl)).squeeze S8192 squeezes_S1x1x8192_S8192)) (dst := sb1M) (S := Finset.univ) (Sd := Finset.univ) (fs := a) (fd := fd) (q := q)
    (sb1M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v6 a off inb eh C hoff))) $$ Hd
  · iexact Hs

/-- The start of the copy of chunk C of half eh of a list into a staging buffer: in flight it delivers the buffer at
    that chunk and the list as it was held. -/
theorem wp_issue_d1 {α : Type} {Q : α → sProp 𝕄} {sem : DmaSem sig} {off : Fin 3 → Nat} {inb : ∀ i, off i + S1x1x8192.size i ≤ S2x1x163840.size i}
    {hsrc : (((dW).slice (Rect.unit (s := S2x1x163840) off S1x1x8192.size inb) (fun _ => rfl)).squeeze S8192 squeezes_S1x1x8192_S8192).view.WordExact}
    {hdst : (db1M).view.WordExact}
    {hsem : DmaTarget.Typed (nD := nD) Space.hbm (SemLoc.dma sem) (DmaTarget.here (db1M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((dLoc d ↦{q} a) ∗ ((db1M).view.loc thr ↦{fullShare} fd) ∗ semVal (thr, SemLoc.dma sem) 0)
      ⊢ iprop((Transfers.Flight (EC (F := F)) thr (SemLoc.dma sem) none (db1M).view.dmaCredit
                iprop(((db1M).view.loc thr ↦{fullShare} chunkBuf a eh C) ∗ (dLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((dW).slice (Rect.unit (s := S2x1x163840) off S1x1x8192.size inb) (fun _ => rfl)).squeeze S8192 squeezes_S1x1x8192_S8192)
                (.here (db1M)) .same (SemLoc.dma sem) hsrc hdst hsem) k) Q) := by
  iintro ⟨Hs, Hd, Hv⟩ Hk
  iapply (wp_issue d L (src := (((dW).slice (Rect.unit (s := S2x1x163840) off S1x1x8192.size inb) (fun _ => rfl)).squeeze S8192 squeezes_S1x1x8192_S8192)) (dst := db1M) (S := Finset.univ) (Sd := Finset.univ) (fs := a) (fd := fd) (q := q)
    (db1M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v9 a off inb eh C hoff))) $$ Hd
  · iexact Hs

/-- The edge half of the tile, as an index of the lists. -/
abbrev ehL : Fin 2 := (L 0 : Fin 2)

/-- Before outer trip n: the table; the accumulator after the steps of chunks 0 … 2 n − 1; the copies of chunk
    min (2 n) 19 of both lists into staging buffers 0 in flight, each to hand back its buffer at that chunk and the
    list's share it was started from; staging buffers 1 at any contents, their semaphores at zero; the other share of
    both lists; what the tile owes. -/
def outerInv (q₀ q₁ : PosShare TreeShare) (tb : Vec F S40064 .f32) (s t : IVec S2x1x163840 32) (z : Vec F S40064 .f32)
    (O : CellTallies nD τ sig (HIx 3)) (W : Waits sig (HIx 3)) (n : Nat) (_ : Unit) : sProp 𝕄 :=
  iprop(Transfers.MayWaits thr (none : HIx 3) O
    ∗ ((tabM).view.loc thr ↦{fullShare} tb)
    ∗ ((accM).view.loc thr ↦{fullShare} edgeAcc tb s t (ehL L) z (4 * (512 * (2 * n))))
    ∗ Transfers.Flight (EC (F := F)) thr (SemLoc.dma cc2_scratch6.sem) none (sb0M).view.dmaCredit
        iprop(((sb0M).view.loc thr ↦{fullShare} chunkBuf s (ehL L) (min (2 * n) 19)) ∗ (sLoc d ↦{q₀} s))
    ∗ Transfers.Flight (EC (F := F)) thr (SemLoc.dma cc2_scratch7.sem) none (db0M).view.dmaCredit
        iprop(((db0M).view.loc thr ↦{fullShare} chunkBuf t (ehL L) (min (2 * n) 19)) ∗ (dLoc d ↦{q₀} t))
    ∗ (∃ f, (sb1M).view.loc thr ↦{fullShare} f) ∗ (∃ f, (db1M).view.loc thr ↦{fullShare} f)
    ∗ semVal (thr, SemLoc.dma cc2_scratch8.sem) 0 ∗ semVal (thr, SemLoc.dma cc2_scratch9.sem) 0
    ∗ (sLoc d ↦{q₁} s) ∗ (dLoc d ↦{q₁} t)
    ∗ ∃ W', ⌜∀ p ∈ W', p ∈ W ∨ p.2 = none⌝ ∗ owes thr O W')

omit [FloatOps F] in
theorem off4_1 (t1 : Fin k2_t1_loop.trips) (h : t1.val < 10) : k2_off4 L t1 1#32 = ![(ehL L).val, 0, 8192 * (2 * t1.val + 1)] := by
  refine (k2_off4_eq L t1 ⟨0, by decide⟩).trans ?_
  have e : min (2 * t1.val + (⟨0, by decide⟩ : Fin 2).val + 1) 19 = 2 * t1.val + 1 := by simp only []; omega
  rw [e]

omit [FloatOps F] in
theorem off4_2 (t1 : Fin k2_t1_loop.trips) : k2_off4 L t1 2#32 = ![(ehL L).val, 0, 8192 * (min (2 * (t1.val + 1)) 19)] := by
  refine (k2_off4_eq L t1 ⟨1, by decide⟩).trans ?_
  have e : min (2 * t1.val + (⟨1, by decide⟩ : Fin 2).val + 1) 19 = min (2 * (t1.val + 1)) 19 := by simp only []; omega
  rw [e]

set_option maxHeartbeats 4000000 in
theorem outer_region (q₀ q₁ : PosShare TreeShare) (tb : Vec F S40064 .f32) (s t : IVec S2x1x163840 32) (z : Vec F S40064 .f32)
    (hs : EdgePre s) (ht : EdgePre t) (O : CellTallies nD τ sig (HIx 3)) (W : Waits sig (HIx 3))
    (t1 : Fin k2_t1_loop.trips) (a : Unit) :
    outerInv d L q₀ q₁ tb s t z O W t1.val a
      ⊢ wp frame (wpE (defs₀ (F := F)) 𝒱₀ thr none) Set.univ
          (k2_t1_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc2_scratch6 cc2_scratch7 cc2_scratch8 cc2_scratch9 cc2_scoped0 cc2_scoped1 cc2_scoped2 t1 a)
          (outerInv d L q₀ q₁ tb s t z O W (t1.val + 1)) := by
  have ht10 : t1.val < 10 := lt_of_lt_of_le t1.isLt k2_t1_abs.2.1
  unfold outerInv k2_t1_body
  rw [k2_part5_eq_skeleton]; unfold k2_part5_skel
  simp only [Prog.bind_lift, Prog.bind_op, Prog.bind_ret, Prog.pure_eq_ret, Prog.bind_assoc]
  iintro ⟨#Hmw, Htab, Hacc, HF0, HF1, ⟨%f4, Hsb1⟩, ⟨%f5, Hdb1⟩, Hs2, Hs3, HsR, HdR, %W', %hW', HO⟩
  -- buffers 0 have landed: chunk 2 t of both lists
  iapply (Transfers.wp_waitLocalO (EC (F := F)) 𝒱₀ thr none (none : HIx 3) rfl) $$ [HF0 HO]
  · isplitl [HF0]; · iexact HF0
    isplitl [HO]; · iexact HO
    iapply (Transfers.MayWaits.elim (SemLoc.dma cc2_scratch6.sem)); iexact Hmw
  iintro ⟨⟨Hsb0, HsL⟩, Hs0, HO⟩
  iapply (Transfers.wp_waitLocalO (EC (F := F)) 𝒱₀ thr none (none : HIx 3) rfl) $$ [HF1 HO]
  · isplitl [HF1]; · iexact HF1
    isplitl [HO]; · iexact HO
    iapply (Transfers.MayWaits.elim (SemLoc.dma cc2_scratch7.sem)); iexact Hmw
  iintro ⟨⟨Hdb0, HdL⟩, Hs1, HO⟩
  -- chunk 2 t + 1 starts into buffers 1
  iapply (wp_issue_s1 d L s f4 (ehL L) (2 * t1.val + 1) (off4_1 L t1 ht10)) $$ [HsR Hsb1 Hs2]
  · isplitl [HsR]; · iexact HsR
    isplitl [Hsb1] <;> iassumption
  iintro HF2
  iapply (wp_issue_d1 d L t f5 (ehL L) (2 * t1.val + 1) (off4_1 L t1 ht10)) $$ [HdR Hdb1 Hs3]
  · isplitl [HdR]; · iexact HdR
    isplitl [Hdb1] <;> iassumption
  iintro HF3
  -- the steps of chunk 2 t off buffers 0
  have e0 : min (2 * t1.val) 19 = 2 * t1.val := by omega
  rw [e0]
  iapply (compute0 d L _ tb s t z hs ht (ehL L) (2 * t1.val) _ _ t1)
  isplitl [Htab]; · iexact Htab
  isplitl [Hacc]; · iexact Hacc
  isplitl [Hsb0]; · iexact Hsb0
  isplitl [Hdb0]; · iexact Hdb0
  iintro ⟨Htab, Hacc, Hsb0, Hdb0⟩
  -- buffers 1 have landed: chunk 2 t + 1
  iapply (Transfers.wp_waitLocalO (EC (F := F)) 𝒱₀ thr none (none : HIx 3) rfl) $$ [HF2 HO]
  · isplitl [HF2]; · iexact HF2
    isplitl [HO]; · iexact HO
    iapply (Transfers.MayWaits.elim (SemLoc.dma cc2_scratch8.sem)); iexact Hmw
  iintro ⟨⟨Hsb1, HsR⟩, Hs2, HO⟩
  iapply (Transfers.wp_waitLocalO (EC (F := F)) 𝒱₀ thr none (none : HIx 3) rfl) $$ [HF3 HO]
  · isplitl [HF3]; · iexact HF3
    isplitl [HO]; · iexact HO
    iapply (Transfers.MayWaits.elim (SemLoc.dma cc2_scratch9.sem)); iexact Hmw
  iintro ⟨⟨Hdb1, HdR⟩, Hs3, HO⟩
  -- chunk min (2 t + 2) 19 starts into buffers 0
  iapply (wp_issue_s0 d L s _ (ehL L) (min (2 * (t1.val + 1)) 19) (off4_2 L t1)) $$ [HsL Hsb0 Hs0]
  · isplitl [HsL]; · iexact HsL
    isplitl [Hsb0] <;> iassumption
  iintro HF0
  iapply (wp_issue_d0 d L t _ (ehL L) (min (2 * (t1.val + 1)) 19) (off4_2 L t1)) $$ [HdL Hdb0 Hs1]
  · isplitl [HdL]; · iexact HdL
    isplitl [Hdb0] <;> iassumption
  iintro HF1
  -- the steps of chunk 2 t + 1 off buffers 1
  iapply (compute1 d L _ tb s t z hs ht (ehL L) (2 * t1.val + 1))
  isplitl [Htab]; · iexact Htab
  isplitl [Hacc]; · iexact Hacc
  isplitl [Hsb1]; · iexact Hsb1
  isplitl [Hdb1]; · iexact Hdb1
  iintro ⟨Htab, Hacc, Hsb1, Hdb1⟩
  rw [wp_ret]; imodintro
  isplitr; · iexact Hmw
  isplitl [Htab]; · iexact Htab
  isplitl [Hacc]
  · iapply (pts_of_eq (congrArg (edgeAcc tb s t (ehL L) z) (show 4 * (512 * (2 * t1.val + 1 + 1)) = 4 * (512 * (2 * (t1.val + 1))) by omega))) $$ Hacc
  isplitl [HF0]; · iexact HF0
  isplitl [HF1]; · iexact HF1
  isplitl [Hsb1]; · iexists _; iexact Hsb1
  isplitl [Hdb1]; · iexists _; iexact Hdb1
  isplitl [Hs2]; · iexact Hs2
  isplitl [Hs3]; · iexact Hs3
  isplitl [HsR]; · iexact HsR
  isplitl [HdR]; · iexact HdR
  iexists (insert (SemLoc.dma cc2_scratch9.sem, (none : HIx 3)) (insert (SemLoc.dma cc2_scratch8.sem, (none : HIx 3))
    (insert (SemLoc.dma cc2_scratch7.sem, (none : HIx 3)) (insert (SemLoc.dma cc2_scratch6.sem, (none : HIx 3)) W')))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- The tile's feature group, as an index of the table. -/
abbrev cgL : Fin 16 := (L 1 : Fin 16)

/-- What the tile holds of the device's arrays: a read share of the table, of the two lists and of the zero array,
    each whole, and its own row of the result. -/
abbrev arrays (q : PosShare TreeShare) (g : Vec F S16x1x40064 .f32) (s t : IVec S2x1x163840 32) (z : Vec F S40064 .f32)
    (o : Vec F S16x2x1x40064 .f32) : sProp 𝕄 :=
  iprop((gLoc d ↦{q} g) ∗ (sLoc d ↦{q} s) ∗ (dLoc d ↦{q} t) ∗ (zLoc d ↦{q} z) ∗ (oLoc d ↦[edgeRow L]{fullShare} o))

omit [FloatOps F] in
theorem off2_0 : k2_off2 L = ![(ehL L).val, 0, 8192 * 0] := k2_off2_eq L

set_option maxHeartbeats 4000000 in
set_option maxRecDepth 8192 in
theorem edge_tile_body (hF : (K (F := F)).Facts) (q : PosShare TreeShare) (g : Vec F S16x1x40064 .f32) (s t : IVec S2x1x163840 32) (z : Vec F S40064 .f32)
    (o : Vec F S16x2x1x40064 .f32) (hs : EdgePre s) (ht : EdgePre t)
    (O : CellTallies nD τ sig (HIx 3)) (W : Waits sig (HIx 3)) (hO : ∀ g, O g none = 0) :
    iprop(levAts (K (F := F)).L (K (F := F)).lev ∗ arrays d L q g s t z o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_edge_kernel L (Memref.whole main_v23_scv) (Memref.isWhole_whole _) (Memref.whole main_v6_scv) (Memref.isWhole_whole _)
            (Memref.whole main_v9_scv) (Memref.isWhole_whole _) (Memref.whole main_v13_scv) (Memref.isWhole_whole _)
            (Memref.whole main_v24_scv) (Memref.isWhole_whole _) (Memref.whole cc2_scratch0) (Memref.isWhole_whole _)
            (Memref.whole cc2_scratch1) (Memref.isWhole_whole _) (Memref.whole cc2_scratch2) (Memref.isWhole_whole _)
            (Memref.whole cc2_scratch3) (Memref.isWhole_whole _) (Memref.whole cc2_scratch4) (Memref.isWhole_whole _)
            (Memref.whole cc2_scratch5) (Memref.isWhole_whole _) cc2_scratch6 cc2_scratch7 cc2_scratch8 cc2_scratch9 cc2_scoped0 cc2_scoped1 cc2_scoped2)
          fun _ => iprop(arrays d L q g s t z (edgeOut g s t z)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  simp only [cc2_edge_kernel_eq_skeleton]; unfold cc2_edge_kernel_skel
  rw [k2_part6_eq_skeleton]; unfold k2_part6_skel
  simp only [Prog.bind_lift, Prog.bind_op, Prog.bind_ret, Prog.pure_eq_ret, Prog.bind_assoc]
  rw [(K (F := F)).scopedBufs_V hF d (cV L) (jV L), SparseCore.Cfg.scopedSems0_V (Val := Elt F) d (cV L) (jV L), hRS, hRB]
  unfold arrays
  iintro ⟨#Hlv, ⟨Hg, Hs, Hd, Hz, Ho⟩, ⟨⟨%f0, Htab⟩, ⟨%f1, Hacc⟩, ⟨%f2, Hsb0⟩, ⟨%f3, Hdb0⟩, ⟨%f4, Hsb1⟩, ⟨%f5, Hdb1⟩, Hbufs⟩,
    ⟨Hs0, Hs1, Hs2, Hs3, Hc0, Hc1, Hc2, Hsems⟩, HO⟩
  ihave Hmw' := ((K (F := F)).mayWaits_none hO : (levAts (K (F := F)).L (K (F := F)).lev : sProp 𝕄) ⊢ Transfers.MayWaits thr (none : HIx 3) O) $$ Hlv
  icases Hmw' with #Hmw
  -- one share of each list per pair of staging buffers
  ihave Hs' := (pointsTo_share (PosShare.mem_left_op_right q)).1 $$ Hs
  icases Hs' with ⟨HsL, HsR⟩
  ihave Hd' := (pointsTo_share (PosShare.mem_left_op_right q)).1 $$ Hd
  icases Hd' with ⟨HdL, HdR⟩
  -- the tile's row of the table into its scratch
  iapply (wp_issue d L (src := (((gW).slice (Rect.unit (s := S16x1x40064) (k2_off1 L) S1x1x40064.size (k2_off1_inb L)) (fun _ => rfl)).squeeze S40064 squeezes_S1x1x40064_S40064)) (dst := tabM) (S := Finset.univ) (Sd := Finset.univ) (fs := g) (fd := f0) (q := q)
      (tabM).view.dmaCredit rfl (View.dmaCredit_pos _ (by decide)) (Finset.subset_univ _) (Finset.subset_univ _)) $$ [Hg Htab Hc0]
  · isplitl [Hg]; · iexact Hg
    isplitl [Htab] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc2_scoped0.sem)); iexact Hmw
  iintro ⟨⟨Htab, Hg⟩, Hc0, HO⟩
  ihave Htab := (pts_of_eq ((View.write_whole_univ _ _ _).trans (read_tab_row g _ _ (cgL L) (k2_off1_eq L)))) $$ Htab
  -- the zero array into the accumulator
  iapply (wp_issue d L (src := zW) (dst := accM) (S := Finset.univ) (Sd := Finset.univ) (fs := z) (fd := f1) (q := q)
      (accM).view.dmaCredit rfl (View.dmaCredit_pos _ (by decide)) (Finset.subset_univ _) (Finset.subset_univ _)) $$ [Hz Hacc Hc1]
  · isplitl [Hz]; · iexact Hz
    isplitl [Hacc] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc2_scoped1.sem)); iexact Hmw
  iintro ⟨⟨Hacc, Hz⟩, Hc1, HO⟩
  ihave Hacc := (pts_of_eq (View.write_whole_univ _ _ _)) $$ Hacc
  -- chunk 0 of both lists starts into buffers 0
  iapply (wp_issue_s0 d L s f2 (ehL L) 0 (off2_0 L)) $$ [HsL Hsb0 Hs0]
  · isplitl [HsL]; · iexact HsL
    isplitl [Hsb0] <;> iassumption
  iintro HF0
  iapply (wp_issue_d0 d L t f3 (ehL L) 0 (off2_0 L)) $$ [HdL Hdb0 Hs1]
  · isplitl [HdL]; · iexact HdL
    isplitl [Hdb0] <;> iassumption
  iintro HF1
  -- the ten trips
  sl_for (outerInv d L q.left q.right (tabRow g (cgL L)) s t z O W) $$ [Htab Hacc HF0 HF1 Hsb1 Hdb1 Hs2 Hs3 HsR HdR HO]
  case region => intro k a; exact outer_region d L q.left q.right (tabRow g (cgL L)) s t z hs ht O W k a
  · unfold outerInv
    isplitr; · iexact Hmw
    isplitl [Htab]; · iexact Htab
    isplitl [Hacc]; · iexact Hacc
    isplitl [HF0]; · iexact HF0
    isplitl [HF1]; · iexact HF1
    isplitl [Hsb1]; · iexists _; iexact Hsb1
    isplitl [Hdb1]; · iexists _; iexact Hdb1
    isplitl [Hs2]; · iexact Hs2
    isplitl [Hs3]; · iexact Hs3
    isplitl [HsR]; · iexact HsR
    isplitl [HdR]; · iexact HdR
    iexists (insert (SemLoc.dma cc2_scoped1.sem, (none : HIx 3)) (insert (SemLoc.dma cc2_scoped0.sem, (none : HIx 3)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold outerInv
  have htr : Scf.trips k2_t1_loop.lb k2_t1_loop.ub k2_t1_loop.st = 10 := by decide
  rw [htr]
  icases HI with ⟨-, Htab, Hacc, HF0, HF1, ⟨%f4', Hsb1⟩, ⟨%f5', Hdb1⟩, Hs2, Hs3, HsR, HdR, %W', %hW', HO⟩
  -- the last copies into buffers 0 land
  iapply (Transfers.wp_waitLocalO (EC (F := F)) 𝒱₀ thr none (none : HIx 3) rfl) $$ [HF0 HO]
  · isplitl [HF0]; · iexact HF0
    isplitl [HO]; · iexact HO
    iapply (Transfers.MayWaits.elim (SemLoc.dma cc2_scratch6.sem)); iexact Hmw
  iintro ⟨⟨Hsb0, HsL⟩, Hs0, HO⟩
  iapply (Transfers.wp_waitLocalO (EC (F := F)) 𝒱₀ thr none (none : HIx 3) rfl) $$ [HF1 HO]
  · isplitl [HF1]; · iexact HF1
    isplitl [HO]; · iexact HO
    iapply (Transfers.MayWaits.elim (SemLoc.dma cc2_scratch7.sem)); iexact Hmw
  iintro ⟨⟨Hdb0, HdL⟩, Hs1, HO⟩
  -- the accumulator out to the tile's row of the result
  ihave Ho := (Entails.of_eq (congrArg (fun S => (oLoc d ↦[S]{fullShare} o : sProp 𝕄)) (oRowK_set L).symm)) $$ Ho
  iapply (wp_issue d L (src := accM) (dst := oRowK L) (S := Finset.univ) (Sd := (oRowK L).view.set) (fd := o) (q := fullShare)
      (oRowK L).view.dmaCredit rfl (View.dmaCredit_pos _ (by decide)) (Finset.subset_univ _) (subset_refl _)) $$ [Hacc Ho Hc2]
  · isplitl [Hacc]; · iexact Hacc
    isplitl [Ho] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc2_scoped2.sem)); iexact Hmw
  iintro ⟨⟨Ho, Hacc⟩, Hc2, HO⟩
  have key : ((oRowK L).view.loc thr ↦[(oRowK L).view.set]{fullShare}
        (oRowK L).view.write (Elt F) o (ReadAs.same.apply ((accM).view.read (Elt F) (edgeAcc (tabRow g (cgL L)) s t (ehL L) z (4 * (512 * (2 * 10))))))
          Finset.univ : sProp 𝕄)
      ⊢ oLoc d ↦[edgeRow L]{fullShare} edgeOut g s t z := by
    have e1 : ReadAs.same.apply ((accM).view.read (Elt F) (edgeAcc (tabRow g (cgL L)) s t (ehL L) z (4 * (512 * (2 * 10)))))
        = edgeAcc (tabRow g (cgL L)) s t (ehL L) z (4 * (512 * (2 * 10))) :=
      (ReadAs.apply_same _).trans (View.read_whole _ _)
    rw [oRowK_set, e1]
    exact Entails.of_eq (pointsTo_congr fun i hi => out_value L g s t z o i hi)
  rw [wp_ret]; imodintro
  isplitl [Hg HsL HsR HdL HdR Hz Ho]
  · isplitl [Hg]; · iexact Hg
    isplitl [HsL HsR]
    · iapply (pointsTo_share (PosShare.mem_left_op_right q)).2
      isplitl [HsL] <;> iassumption
    isplitl [HdL HdR]
    · iapply (pointsTo_share (PosShare.mem_left_op_right q)).2
      isplitl [HdL] <;> iassumption
    isplitl [Hz]; · iexact Hz
    iapply key $$ Ho
  isplitl [Htab Hacc Hsb0 Hdb0 Hsb1 Hdb1 Hbufs]
  · isplitl [Htab]; · iexists _; iexact Htab
    isplitl [Hacc]; · iexists _; iexact Hacc
    isplitl [Hsb0]; · iexists _; iexact Hsb0
    isplitl [Hdb0]; · iexists _; iexact Hdb0
    isplitl [Hsb1]; · iexists _; iexact Hsb1
    isplitl [Hdb1]; · iexists _; iexact Hdb1
    iexact Hbufs
  isplitl [Hs0 Hs1 Hs2 Hs3 Hc0 Hc1 Hc2 Hsems]
  · isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    iexact Hsems
  iexists (insert (SemLoc.dma cc2_scoped2.sem, (none : HIx 3)) (insert (SemLoc.dma cc2_scratch7.sem, (none : HIx 3))
    (insert (SemLoc.dma cc2_scratch6.sem, (none : HIx 3)) W'))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

end Tile

end cc2_edge

end Cert.Kernel.Hand

end
-- ==== Proof.K.EdgeDefs4.lean ====
/-
  Names shared by the modules about the edge kernel's body on one vector subcore: the tile's place, its row of the
  result, the arrays' locations, and the staged chunk of an edge list.
-/
import proofs.«219763_g10557029614292_week1_w2_488_21_alg».proof.Proof.K.Base
import proofs.«219763_g10557029614292_week1_w2_488_21_alg».proof.Proof.K.Vals

noncomputable section

namespace Cert.Kernel.Hand

open Cert.Kernel Cert.Kernel.Gen
open Idealize.ShloMosaic Idealize.ShloMosaic.ValueIdx
open Idealize.ShloMosaic.SparseCore (S V T)

namespace cc4_edge

/-- The elements of the result the tile at L writes: row (L 1, L 0). -/
def edgeRow (L : grid4.Coords) : Finset S16x2x1x40064.Idx := Finset.univ.filter fun j => (j 0).val = (L 1).val ∧ (j 1).val = (L 0).val

abbrev cV (L : grid4.Coords) : Fin τ.nSC := (L 0).castLE hcore4
abbrev jV (L : grid4.Coords) : Fin τ.nSub := (L 1).castLE hsub4

/-- The tile's row of the result, as the body slices it. -/
abbrev oRowK (L : grid4.Coords) : Memref sig .scVector .hbm S40064 .f32 :=
  ((Memref.whole main_v38_scv : Memref sig .scVector .hbm S16x2x1x40064 .f32).slice (Rect.unit (s := S16x2x1x40064) (k4_off14 L) S1x1x1x40064.size (k4_off14_inb L)) (fun _ => rfl)).squeeze S40064 squeezes_S1x1x1x40064_S40064

abbrev gLoc (d : Dev nD) : Loc nD τ sig := (SparseCore.T d).loc main_v37
abbrev sLoc (d : Dev nD) : Loc nD τ sig := (SparseCore.T d).loc main_v6
abbrev dLoc (d : Dev nD) : Loc nD τ sig := (SparseCore.T d).loc main_v9
abbrev zLoc (d : Dev nD) : Loc nD τ sig := (SparseCore.T d).loc main_v13
abbrev oLoc (d : Dev nD) : Loc nD τ sig := (SparseCore.T d).loc main_v38

/-- The 8192 words of chunk C of half eh of a padded edge list (zero past its end: never read there). -/
def chunkBuf (a : IVec S2x1x163840 32) (eh : Fin 2) (C : Nat) : IVec S8192 32 :=
  fun x => if h : 8192 * C + (x 0).val < 163840 then a (ix3 eh 0 ⟨8192 * C + (x 0).val, h⟩) else 0#32

theorem chunkBuf_le {a : IVec S2x1x163840 32} (ha : EdgePre a) (eh : Fin 2) (C : Nat) (j : S8192.Idx) : (chunkBuf a eh C j).toNat ≤ 10000 := by
  unfold chunkBuf
  split
  · exact ha _
  · simp

end cc4_edge

end Cert.Kernel.Hand

end
-- ==== Proof.K.EdgeAux4.lean ====
/-
  What the edge kernel's copies read and write on one vector subcore, and the subcore's own semaphores and scratch.

  A copy of chunk C of half eh of a padded edge list reads the 8192 words chunkBuf of it; sixteen consecutive words of
  that staged chunk, from word 16 m, are the list's sixteen-word chunk 512 C + m. The copy of the tile's row of the
  packed feature table reads tabRow. The tile at grid point L writes row (L 1, L 0) of the result: the elements
  edgeRow L, and a whole write through the tile's slice leaves word n of what was written at element (L 1, L 0, 0, n).
  The tile's seven DMA semaphores and six scratch arrays are among the subcore's own, each beside the rest.
-/
import proofs.«219763_g10557029614292_week1_w2_488_21_alg».proof.Proof.K.EdgeDefs4

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc4_edge

variable {F : FTy → Type}

local notation "𝕄" => MT nD τ sig (HIx 3) (Elt F) ℕ UU ℕ

variable [FloatOps F]

local notation "gW" => (Memref.whole Cert.Kernel.main_v37_scv : Memref Cert.Kernel.sig Kind.scVector Space.hbm Cert.Kernel.S16x1x40064 EltTy.f32)
local notation "sW" => (Memref.whole Cert.Kernel.main_v6_scv : Memref Cert.Kernel.sig Kind.scVector Space.hbm Cert.Kernel.S2x1x163840 EltTy.i32)
local notation "dW" => (Memref.whole Cert.Kernel.main_v9_scv : Memref Cert.Kernel.sig Kind.scVector Space.hbm Cert.Kernel.S2x1x163840 EltTy.i32)

section Aux
variable (d : Dev nD) (L : grid4.Coords)
local notation "thr" => (V d (cV L) (jV L))

/-- One word of a three-axis array read through a row cut from it and squeezed to one axis: the word at the row's
    offsets, the one free coordinate added on the last axis. -/
theorem reshape3_one {n : Nat} (j : (⟨1, ![n]⟩ : Shape).Idx) (h : (⟨1, ![n]⟩ : Shape).numel = (⟨3, ![1, 1, n]⟩ : Shape).numel) :
    Shape.reshapeEquiv h j = ix3 (0 : Fin 1) (0 : Fin 1) (⟨(j 0).val, (j 0).isLt⟩ : Fin n) :=
  Shape.reshapeEquiv_eq_of_rowMajor h (by
    rw [Shape.rowMajor_val_three, Shape.rowMajor_val_one]
    show ((0 : ℕ) * 1 + 0) * n + (j 0).val = (j 0).val
    omega)
/-- The same through a row cut from a four-axis array. -/
theorem reshape4_one {n : Nat} (j : (⟨1, ![n]⟩ : Shape).Idx) (h : (⟨1, ![n]⟩ : Shape).numel = (⟨4, ![1, 1, 1, n]⟩ : Shape).numel) :
    Shape.reshapeEquiv h j = ix4 (0 : Fin 1) (0 : Fin 1) (0 : Fin 1) (⟨(j 0).val, (j 0).isLt⟩ : Fin n) :=
  Shape.reshapeEquiv_eq_of_rowMajor h (by
    rw [Shape.rowMajor_val_four, Shape.rowMajor_val_one]
    show (((0 : ℕ) * 1 + 0) * 1 + 0) * n + (j 0).val = (j 0).val
    omega)

/-- What a copy of chunk C of half eh of the source list reads. -/
theorem read_chunk_v6 (a : IVec S2x1x163840 32) (off : Fin 3 → Nat) (inb : ∀ i, off i + S1x1x8192.size i ≤ S2x1x163840.size i)
    (eh : Fin 2) (C : Nat) (hoff : off = ![eh.val, 0, 8192 * C]) :
    (((sW).slice (Rect.unit (s := S2x1x163840) off S1x1x8192.size inb) (fun _ => rfl)).squeeze S8192 squeezes_S1x1x8192_S8192).view.read (Elt F) a
      = chunkBuf a eh C := by
  subst hoff
  funext j
  refine ((View.read_apply _ _).trans (cast_eq _ _)).trans ?_
  have hx : 8192 * C + (j 0).val < 163840 := by
    have h2 := inb 2
    have hj : (j 0).val < 8192 := (j 0).isLt
    simp at h2
    omega
  unfold chunkBuf
  rw [dif_pos hx]
  refine congrArg a ?_
  show (Rect.unit (s := S2x1x163840) ![eh.val, 0, 8192 * C] S1x1x8192.size inb).emb (Shape.reshapeEquiv _ j) = _
  rw [reshape3_one]
  funext ax; apply Fin.ext
  match ax with
  | 0 => show eh.val + 1 * 0 = eh.val; omega
  | 1 => show 0 + 1 * 0 = 0; rfl
  | 2 => show 8192 * C + 1 * (j 0).val = 8192 * C + (j 0).val; omega

/-- What a copy of chunk C of half eh of the destination list reads. -/
theorem read_chunk_v9 (a : IVec S2x1x163840 32) (off : Fin 3 → Nat) (inb : ∀ i, off i + S1x1x8192.size i ≤ S2x1x163840.size i)
    (eh : Fin 2) (C : Nat) (hoff : off = ![eh.val, 0, 8192 * C]) :
    (((dW).slice (Rect.unit (s := S2x1x163840) off S1x1x8192.size inb) (fun _ => rfl)).squeeze S8192 squeezes_S1x1x8192_S8192).view.read (Elt F) a
      = chunkBuf a eh C := by
  subst hoff
  funext j
  refine ((View.read_apply _ _).trans (cast_eq _ _)).trans ?_
  have hx : 8192 * C + (j 0).val < 163840 := by
    have h2 := inb 2
    have hj : (j 0).val < 8192 := (j 0).isLt
    simp at h2
    omega
  unfold chunkBuf
  rw [dif_pos hx]
  refine congrArg a ?_
  show (Rect.unit (s := S2x1x163840) ![eh.val, 0, 8192 * C] S1x1x8192.size inb).emb (Shape.reshapeEquiv _ j) = _
  rw [reshape3_one]
  funext ax; apply Fin.ext
  match ax with
  | 0 => show eh.val + 1 * 0 = eh.val; omega
  | 1 => show 0 + 1 * 0 = 0; rfl
  | 2 => show 8192 * C + 1 * (j 0).val = 8192 * C + (j 0).val; omega

/-- What the copy of the tile's table row reads. -/
theorem read_tab_row (g : Vec F S16x1x40064 .f32) (off : Fin 3 → Nat) (inb : ∀ i, off i + S1x1x40064.size i ≤ S16x1x40064.size i)
    (cg : Fin 16) (hoff : off = ![cg.val, 0, 0]) :
    (((gW).slice (Rect.unit (s := S16x1x40064) off S1x1x40064.size inb) (fun _ => rfl)).squeeze S40064 squeezes_S1x1x40064_S40064).view.read (Elt F) g
      = tabRow g cg := by
  subst hoff
  funext j
  refine ((View.read_apply _ _).trans (cast_eq _ _)).trans ?_
  unfold tabRow
  refine congrArg g ?_
  show (Rect.unit (s := S16x1x40064) ![cg.val, 0, 0] S1x1x40064.size inb).emb (Shape.reshapeEquiv _ j) = _
  rw [reshape3_one]
  funext ax; apply Fin.ext
  match ax with
  | 0 => show cg.val + 1 * 0 = cg.val; omega
  | 1 => show 0 + 1 * 0 = 0; rfl
  | 2 => show 0 + 1 * (j 0).val = (j 0).val; omega

omit [FloatOps F] in
/-- Where word j of the tile's row of the result lies in the result. -/
theorem oRowK_emb (j : S40064.Idx) :
    (oRowK L).view.emb j = ix4 ⟨(L 1).val, (L 1).isLt⟩ ⟨(L 0).val, (L 0).isLt⟩ (0 : Fin 1) (j 0) := by
  show (Rect.unit (s := S16x2x1x40064) (k4_off14 L) S1x1x1x40064.size (k4_off14_inb L)).emb (Shape.reshapeEquiv _ j) = _
  rw [reshape4_one]
  funext ax; apply Fin.ext
  match ax with
  | 0 => show (k4_off14 L) 0 + 1 * 0 = (L 1).val; rw [k4_off14_eq]; simp
  | 1 => show (k4_off14 L) 1 + 1 * 0 = (L 0).val; rw [k4_off14_eq]; simp
  | 2 => show (k4_off14 L) 2 + 1 * 0 = 0; rw [k4_off14_eq]; simp
  | 3 => show (k4_off14 L) 3 + 1 * (j 0).val = (j 0).val; rw [k4_off14_eq]; simp

omit [FloatOps F] in
/-- The tile's row of the result, as a set of elements: the entries of feature group L 1 and edge half L 0. -/
theorem oRowK_set : (oRowK L).view.set = edgeRow L := by
  ext i
  unfold edgeRow
  rw [Finset.mem_filter]
  constructor
  · intro hi
    obtain ⟨j, -, rfl⟩ := Finset.mem_map.mp hi
    rw [oRowK_emb]
    exact ⟨Finset.mem_univ _, rfl, rfl⟩
  · rintro ⟨-, h0, h1⟩
    refine Finset.mem_map.mpr ⟨ix1 (i 3), Finset.mem_univ _, ?_⟩
    rw [oRowK_emb]
    funext ax; apply Fin.ext
    match ax with
    | 0 => exact h0.symm
    | 1 => exact h1.symm
    | 2 =>
      have h2 : (i 2).val < 1 := (i 2).isLt
      show (0 : ℕ) = (i 2).val
      omega
    | 3 => rfl

/-- A whole write through the tile's row of the result leaves, at element i of the row, word i 3 of what is written. -/
theorem oRowK_write (o : Vec F S16x2x1x40064 .f32) (w : Vec F S40064 .f32) (i : S16x2x1x40064.Idx) (hi : i ∈ edgeRow L) :
    (oRowK L).view.write (Elt F) o w Finset.univ i = w (ix1 (i 3)) := by
  have hi' : i ∈ (oRowK L).view.set := by rw [oRowK_set]; exact hi
  obtain ⟨j, -, rfl⟩ := Finset.mem_map.mp hi'
  refine ((View.write_emb_of_mem _ _ (Finset.mem_univ j)).trans (cast_eq _ _)).trans ?_
  refine congrArg w ?_
  rw [oRowK_emb]
  exact eq_ix1 j

omit [FloatOps F] in
/-- Sixteen consecutive words of a staged chunk are a sixteen-word chunk of the list. -/
theorem chunk_idx (a : IVec S2x1x163840 32) (eh : Fin 2) (C : Nat) (off : Fin 1 → Nat) (inb : ∀ i, off i + S16.size i ≤ S8192.size i)
    (m : Nat) (hoff : off = ![16 * m]) :
    (fun x : S16.Idx => chunkBuf a eh C ((Rect.unit (s := S8192) off S16.size inb).toLoadRect.idx x)) = edgeChunk a eh (512 * C + m) := by
  subst hoff
  funext x
  have hy : ((Rect.unit (s := S8192) ![16 * m] S16.size inb).toLoadRect.idx x 0).val = 16 * m + (x 0).val := by
    show 16 * m + 1 * (x 0).val = _
    omega
  unfold chunkBuf edgeChunk
  by_cases h : 16 * (512 * C + m) + (x 0).val < 163840
  · rw [dif_pos h, dif_pos (by rw [hy]; omega)]
    refine congrArg a ?_
    funext ax
    match ax with
    | 0 => rfl
    | 1 => rfl
    | 2 => exact Fin.ext (by
        show 8192 * C + ((Rect.unit (s := S8192) ![16 * m] S16.size inb).toLoadRect.idx x 0).val = 16 * (512 * C + m) + (x 0).val
        rw [hy]; omega)
  · rw [dif_neg h, dif_neg (by rw [hy]; omega)]

omit [FloatOps F] in
/-- A cell of the tile named by another semaphore stays when that one is taken out. -/
theorem mem_erase_cell {s : Finset (GSem nD τ sig)} {t : Thread nD τ} {a b : SemLoc sig} (hne : a ≠ b) (h : (t, a) ∈ s) :
    (t, a) ∈ s.erase (t, b) :=
  Finset.mem_erase.mpr ⟨fun e => hne (Prod.mk.inj e).2, h⟩

omit [FloatOps F] in
/-- A scoped DMA semaphore of a vector subcore is one of its own cells. -/
theorem mem_ownCells_dma (x : DmaSem sig) (hx : (SemLoc.dma x : SemLoc sig).isScoped .scVector = true) :
    ((thr, SemLoc.dma x) : GSem nD τ sig) ∈ ownCells thr :=
  (mem_ownCells (g := ((thr, SemLoc.dma x) : GSem nD τ sig))).mpr ⟨rfl, hx⟩

omit [FloatOps F] in
/-- The tile's seven semaphores among its own, each at zero, and the rest. -/
theorem ownSems0_V :
    ∃ R : sProp 𝕄, (ownSems0 thr : sProp 𝕄)
      = iprop(semVal (thr, SemLoc.dma cc4_scratch6.sem) 0 ∗ semVal (thr, SemLoc.dma cc4_scratch7.sem) 0 ∗ semVal (thr, SemLoc.dma cc4_scratch8.sem) 0
          ∗ semVal (thr, SemLoc.dma cc4_scratch9.sem) 0 ∗ semVal (thr, SemLoc.dma cc4_scoped0.sem) 0 ∗ semVal (thr, SemLoc.dma cc4_scoped1.sem) 0
          ∗ semVal (thr, SemLoc.dma cc4_scoped2.sem) 0 ∗ R) := by
  have m6 := mem_ownCells_dma d L cc4_scratch6.sem (by decide)
  have m7 := mem_ownCells_dma d L cc4_scratch7.sem (by decide)
  have m8 := mem_ownCells_dma d L cc4_scratch8.sem (by decide)
  have m9 := mem_ownCells_dma d L cc4_scratch9.sem (by decide)
  have n0 := mem_ownCells_dma d L cc4_scoped0.sem (by decide)
  have n1 := mem_ownCells_dma d L cc4_scoped1.sem (by decide)
  have n2 := mem_ownCells_dma d L cc4_scoped2.sem (by decide)
  refine ⟨bigSep ((((((((ownCells thr).erase (thr, SemLoc.dma cc4_scratch6.sem)).erase (thr, SemLoc.dma cc4_scratch7.sem)).erase (thr, SemLoc.dma cc4_scratch8.sem)).erase (thr, SemLoc.dma cc4_scratch9.sem)).erase (thr, SemLoc.dma cc4_scoped0.sem)).erase (thr, SemLoc.dma cc4_scoped1.sem)).erase (thr, SemLoc.dma cc4_scoped2.sem))
      fun g => semVal g 0, ?_⟩
  unfold SparseCore.Cfg.ownSems0
  rw [SparseCore.bigSep_erase' m6,
    SparseCore.bigSep_erase' (mem_erase_cell (by decide) m7),
    SparseCore.bigSep_erase' (mem_erase_cell (by decide) (mem_erase_cell (by decide) m8)),
    SparseCore.bigSep_erase' (mem_erase_cell (by decide) (mem_erase_cell (by decide) (mem_erase_cell (by decide) m9))),
    SparseCore.bigSep_erase' (mem_erase_cell (by decide) (mem_erase_cell (by decide) (mem_erase_cell (by decide) (mem_erase_cell (by decide) n0)))),
    SparseCore.bigSep_erase' (mem_erase_cell (by decide) (mem_erase_cell (by decide) (mem_erase_cell (by decide) (mem_erase_cell (by decide) (mem_erase_cell (by decide) n1))))),
    SparseCore.bigSep_erase' (mem_erase_cell (by decide) (mem_erase_cell (by decide) (mem_erase_cell (by decide) (mem_erase_cell (by decide) (mem_erase_cell (by decide) (mem_erase_cell (by decide) n2))))))]

omit [FloatOps F] in
/-- A scratch array of the tile other than one taken out stays among its own buffers. -/
theorem mem_erase_ref {s : Finset (DevRef τ sig)} {a b : Ref sig .scVector} (hne : a ≠ b)
    (h : (Proc.scVector (cV L) (jV L)).devRef a ∈ s) :
    (Proc.scVector (cV L) (jV L)).devRef a ∈ s.erase ((Proc.scVector (cV L) (jV L)).devRef b) :=
  Finset.mem_erase.mpr ⟨fun e => hne (Proc.devRef_injective _ e), h⟩

omit [FloatOps F] in
/-- The tile's six scratch arrays among its own buffers, each at some contents, and the rest. -/
theorem ownBufs_V :
    ∃ R : sProp 𝕄, (ownBufs thr : sProp 𝕄)
      = iprop((∃ f, (thr).loc cc4_scratch0 ↦{fullShare} f) ∗ (∃ f, (thr).loc cc4_scratch1 ↦{fullShare} f) ∗ (∃ f, (thr).loc cc4_scratch2 ↦{fullShare} f)
          ∗ (∃ f, (thr).loc cc4_scratch3 ↦{fullShare} f) ∗ (∃ f, (thr).loc cc4_scratch4 ↦{fullShare} f) ∗ (∃ f, (thr).loc cc4_scratch5 ↦{fullShare} f)
          ∗ R) := by
  have r0 := SparseCore.Cfg.mem_ownRefs_of_owner (τ := τ) (sig := sig) (p := Proc.scVector (cV L) (jV L)) (b := (Proc.scVector (cV L) (jV L)).devRef cc4_scratch0) rfl
  have r1 := SparseCore.Cfg.mem_ownRefs_of_owner (τ := τ) (sig := sig) (p := Proc.scVector (cV L) (jV L)) (b := (Proc.scVector (cV L) (jV L)).devRef cc4_scratch1) rfl
  have r2 := SparseCore.Cfg.mem_ownRefs_of_owner (τ := τ) (sig := sig) (p := Proc.scVector (cV L) (jV L)) (b := (Proc.scVector (cV L) (jV L)).devRef cc4_scratch2) rfl
  have r3 := SparseCore.Cfg.mem_ownRefs_of_owner (τ := τ) (sig := sig) (p := Proc.scVector (cV L) (jV L)) (b := (Proc.scVector (cV L) (jV L)).devRef cc4_scratch3) rfl
  have r4 := SparseCore.Cfg.mem_ownRefs_of_owner (τ := τ) (sig := sig) (p := Proc.scVector (cV L) (jV L)) (b := (Proc.scVector (cV L) (jV L)).devRef cc4_scratch4) rfl
  have r5 := SparseCore.Cfg.mem_ownRefs_of_owner (τ := τ) (sig := sig) (p := Proc.scVector (cV L) (jV L)) (b := (Proc.scVector (cV L) (jV L)).devRef cc4_scratch5) rfl
  refine ⟨bigSep (((((((ownRefs (τ := τ) (.scVector (cV L) (jV L))).erase ((Proc.scVector (cV L) (jV L)).devRef cc4_scratch0)).erase ((Proc.scVector (cV L) (jV L)).devRef cc4_scratch1)).erase ((Proc.scVector (cV L) (jV L)).devRef cc4_scratch2)).erase ((Proc.scVector (cV L) (jV L)).devRef cc4_scratch3)).erase ((Proc.scVector (cV L) (jV L)).devRef cc4_scratch4)).erase ((Proc.scVector (cV L) (jV L)).devRef cc4_scratch5))
      fun b => iprop(∃ f, ((d, b) : Loc nD τ sig) ↦{fullShare} f), ?_⟩
  unfold SparseCore.Cfg.ownBufs
  refine (SparseCore.bigSep_erase' r0).trans ?_
  rw [SparseCore.bigSep_erase' (mem_erase_ref L (by decide) r1),
    SparseCore.bigSep_erase' (mem_erase_ref L (by decide) (mem_erase_ref L (by decide) r2)),
    SparseCore.bigSep_erase' (mem_erase_ref L (by decide) (mem_erase_ref L (by decide) (mem_erase_ref L (by decide) r3))),
    SparseCore.bigSep_erase' (mem_erase_ref L (by decide) (mem_erase_ref L (by decide) (mem_erase_ref L (by decide) (mem_erase_ref L (by decide) r4)))),
    SparseCore.bigSep_erase' (mem_erase_ref L (by decide) (mem_erase_ref L (by decide) (mem_erase_ref L (by decide) (mem_erase_ref L (by decide) (mem_erase_ref L (by decide) r5)))))]

end Aux

end cc4_edge

end Cert.Kernel.Hand

end
-- ==== Proof.K.EdgeSteps4.lean ====
/-
  The edge kernel's fold, step by step: the pure bookkeeping between the fold over all 40960 steps and the groups of
  steps the tile's loops take.

  One step p = 4 n + k gathers the table at chunk n of the sources moved to feature row k and adds the gathered lanes
  into the accumulator at chunk n of the destinations moved to the same row. Four steps make one chunk, four chunks
  (sixteen steps) one trip of the inner loop. The table is never written, so the sixteen gathers of a trip may all
  come before its sixteen adds, which is the order the tile takes them in. Every index vector the tile forms is a
  chunk moved to a row; on lists whose words are at most 10000 its lanes are below 40064, so each gather and each
  add is the indexed load and the indexed store-with-add themselves.
-/
import proofs.«219763_g10557029614292_week1_w2_488_21_alg».proof.Proof.K.Vals
import proofs.«219763_g10557029614292_week1_w2_488_21_alg».proof.Proof.K.EdgeDefs4
import Idealize.ShloMosaic.Lib.WholeRead

noncomputable section

namespace Cert.Kernel.Hand

open Cert.Kernel Cert.Kernel.Gen
open Idealize.ShloMosaic Idealize.ShloMosaic.ValueIdx

namespace cc4_edge

variable {F : FTy → Type} [FloatOps F]

/-! ## Steps, chunks, trips -/

section Fold

variable (tab : Vec F S40064 .f32) (s t : IVec S2x1x163840 32) (eh : Fin 2)

/-- One step: chunk n at feature row k. -/
def stepB (acc : Vec F S40064 .f32) (n k : ℕ) : Vec F S40064 .f32 :=
  scatB acc (addK (edgeChunk t eh n) k) (gathB tab (addK (edgeChunk s eh n) k))

/-- The four steps of chunk n, rows 0 to 3 in order. -/
def chunkB (acc : Vec F S40064 .f32) (n : ℕ) : Vec F S40064 .f32 :=
  stepB tab s t eh (stepB tab s t eh (stepB tab s t eh (stepB tab s t eh acc n 0) n 1) n 2) n 3

/-- The sixteen steps of chunks m … m + 3. -/
def tripB (acc : Vec F S40064 .f32) (m : ℕ) : Vec F S40064 .f32 :=
  chunkB tab s t eh (chunkB tab s t eh (chunkB tab s t eh (chunkB tab s t eh acc m) (m + 1)) (m + 2)) (m + 3)

variable (z : Vec F S40064 .f32)

theorem edgeAcc_zero : edgeAcc tab s t eh z 0 = z := rfl

/-- The fold's next step. -/
theorem edgeAcc_succ (p : ℕ) :
    edgeAcc tab s t eh z (p + 1) = stepB tab s t eh (edgeAcc tab s t eh z p) (p / 4) (p % 4) := rfl

theorem edgeAcc_add4 (p : ℕ) :
    edgeAcc tab s t eh z (p + 4)
      = stepB tab s t eh (stepB tab s t eh (stepB tab s t eh (stepB tab s t eh (edgeAcc tab s t eh z p) (p / 4) (p % 4))
          ((p + 1) / 4) ((p + 1) % 4)) ((p + 2) / 4) ((p + 2) % 4)) ((p + 3) / 4) ((p + 3) % 4) := rfl

/-- The four steps of one chunk. -/
theorem edgeAcc_chunk (n : ℕ) : edgeAcc tab s t eh z (4 * n + 4) = chunkB tab s t eh (edgeAcc tab s t eh z (4 * n)) n := by
  rw [edgeAcc_add4]
  have h0 : 4 * n / 4 = n := by omega
  have h0' : 4 * n % 4 = 0 := by omega
  have h1 : (4 * n + 1) / 4 = n := by omega
  have h1' : (4 * n + 1) % 4 = 1 := by omega
  have h2 : (4 * n + 2) / 4 = n := by omega
  have h2' : (4 * n + 2) % 4 = 2 := by omega
  have h3 : (4 * n + 3) / 4 = n := by omega
  have h3' : (4 * n + 3) % 4 = 3 := by omega
  rw [h0, h0', h1, h1', h2, h2', h3, h3']
  rfl

/-- The same with every gather and add written out. -/
theorem edgeAcc_step4 (n : ℕ) :
    edgeAcc tab s t eh z (4 * n + 4)
      = scatB (scatB (scatB (scatB (edgeAcc tab s t eh z (4 * n))
            (addK (edgeChunk t eh n) 0) (gathB tab (addK (edgeChunk s eh n) 0)))
            (addK (edgeChunk t eh n) 1) (gathB tab (addK (edgeChunk s eh n) 1)))
            (addK (edgeChunk t eh n) 2) (gathB tab (addK (edgeChunk s eh n) 2)))
            (addK (edgeChunk t eh n) 3) (gathB tab (addK (edgeChunk s eh n) 3)) :=
  edgeAcc_chunk tab s t eh z n

/-- The sixteen steps of one trip: chunks m … m + 3. -/
theorem edgeAcc_trip (m : ℕ) : edgeAcc tab s t eh z (4 * m + 16) = tripB tab s t eh (edgeAcc tab s t eh z (4 * m)) m := by
  unfold tripB
  rw [show 4 * m + 16 = 4 * (m + 3) + 4 by ring, edgeAcc_chunk, show 4 * (m + 3) = 4 * (m + 2) + 4 by ring, edgeAcc_chunk,
    show 4 * (m + 2) = 4 * (m + 1) + 4 by ring, edgeAcc_chunk, show 4 * (m + 1) = 4 * m + 4 by ring, edgeAcc_chunk]

/-- Trip i of staging buffer c: chunks 512 c + 4 i … 512 c + 4 i + 3. -/
theorem edgeAcc_trip_at (c i : ℕ) :
    edgeAcc tab s t eh z (4 * (512 * c + 4 * i) + 16)
      = tripB tab s t eh (edgeAcc tab s t eh z (4 * (512 * c + 4 * i))) (512 * c + 4 * i) :=
  edgeAcc_trip tab s t eh z (512 * c + 4 * i)

/-- After trip i of buffer c the fold stands at the start of trip i + 1. -/
theorem trip_next (c i : ℕ) : 4 * (512 * c + 4 * i) + 16 = 4 * (512 * c + 4 * (i + 1)) := by ring

/-- After the 128 trips of buffer c the fold stands at the start of buffer c + 1. -/
theorem buffer_next (c : ℕ) : 4 * (512 * c + 4 * 128) = 4 * (512 * (c + 1) + 4 * 0) := by ring

/-- The twenty buffers are the whole fold. -/
theorem buffers_all : 4 * (512 * 20 + 4 * 0) = 40960 := by norm_num

end Fold

/-! ## The printed index vectors are chunks moved to a row -/

theorem k4_pay1_eq (v : IVec S16 32) : k4_pay1 (F := F) v = addK v 1 := rfl
theorem k4_pay2_eq (v : IVec S16 32) : k4_pay2 (F := F) v = addK v 1 := rfl
theorem k4_pay3_eq (v : IVec S16 32) : k4_pay3 (F := F) v = addK v 2 := rfl
theorem k4_pay4_eq (v : IVec S16 32) : k4_pay4 (F := F) v = addK v 2 := rfl
theorem k4_pay5_eq (v : IVec S16 32) : k4_pay5 (F := F) v = addK v 3 := rfl
theorem k4_pay6_eq (v : IVec S16 32) : k4_pay6 (F := F) v = addK v 3 := rfl
theorem k4_pay7_eq (v : IVec S16 32) : k4_pay7 (F := F) v = addK v 1 := rfl
theorem k4_pay8_eq : k4_pay8 = (broadcast S16 10016#32 : IVec S16 32) := rfl
theorem addi_k2_pay8 (v : IVec S16 32) : addi v k4_pay8 = addK v 1 := rfl
theorem k4_pay9_eq (v : IVec S16 32) : k4_pay9 (F := F) v = addK v 2 := rfl
theorem k4_pay10_eq (v : IVec S16 32) : k4_pay10 (F := F) v = addK v 2 := rfl
theorem k4_pay11_eq (v : IVec S16 32) : k4_pay11 (F := F) v = addK v 3 := rfl
theorem k4_pay12_eq (v : IVec S16 32) : k4_pay12 (F := F) v = addK v 3 := rfl
theorem k4_pay13_eq (v : IVec S16 32) : k4_pay13 (F := F) v = addK v 1 := rfl
theorem k4_pay14_eq (v : IVec S16 32) : k4_pay14 (F := F) v = addK v 1 := rfl
theorem k4_pay15_eq (v : IVec S16 32) : k4_pay15 (F := F) v = addK v 2 := rfl
theorem k4_pay16_eq (v : IVec S16 32) : k4_pay16 (F := F) v = addK v 2 := rfl
theorem k4_pay17_eq (v : IVec S16 32) : k4_pay17 (F := F) v = addK v 3 := rfl
theorem k4_pay18_eq (v : IVec S16 32) : k4_pay18 (F := F) v = addK v 3 := rfl
theorem k4_pay19_eq (v : IVec S16 32) : k4_pay19 (F := F) v = addK v 1 := rfl
theorem k4_pay20_eq (v : IVec S16 32) : k4_pay20 (F := F) v = addK v 1 := rfl
theorem k4_pay21_eq (v : IVec S16 32) : k4_pay21 (F := F) v = addK v 2 := rfl
theorem k4_pay22_eq (v : IVec S16 32) : k4_pay22 (F := F) v = addK v 2 := rfl
theorem k4_pay23_eq (v : IVec S16 32) : k4_pay23 (F := F) v = addK v 3 := rfl
theorem k4_pay24_eq (v : IVec S16 32) : k4_pay24 (F := F) v = addK v 3 := rfl
theorem k4_pay25_eq (v : IVec S16 32) : k4_pay25 (F := F) v = addK v 1 := rfl
theorem k4_pay26_eq : k4_pay26 = (broadcast S16 10016#32 : IVec S16 32) := rfl
theorem addi_k2_pay26 (v : IVec S16 32) : addi v k4_pay26 = addK v 1 := rfl
theorem k4_pay27_eq (v : IVec S16 32) : k4_pay27 (F := F) v = addK v 2 := rfl
theorem k4_pay28_eq (v : IVec S16 32) : k4_pay28 (F := F) v = addK v 2 := rfl
theorem k4_pay29_eq (v : IVec S16 32) : k4_pay29 (F := F) v = addK v 3 := rfl
theorem k4_pay30_eq (v : IVec S16 32) : k4_pay30 (F := F) v = addK v 3 := rfl
theorem k4_pay31_eq (v : IVec S16 32) : k4_pay31 (F := F) v = addK v 1 := rfl
theorem k4_pay32_eq (v : IVec S16 32) : k4_pay32 (F := F) v = addK v 1 := rfl
theorem k4_pay33_eq (v : IVec S16 32) : k4_pay33 (F := F) v = addK v 2 := rfl
theorem k4_pay34_eq (v : IVec S16 32) : k4_pay34 (F := F) v = addK v 2 := rfl
theorem k4_pay35_eq (v : IVec S16 32) : k4_pay35 (F := F) v = addK v 3 := rfl
theorem k4_pay36_eq (v : IVec S16 32) : k4_pay36 (F := F) v = addK v 3 := rfl
theorem k4_pay37_eq (v : IVec S16 32) : k4_pay37 (F := F) v = addK v 1 := rfl
theorem k4_pay38_eq (v : IVec S16 32) : k4_pay38 (F := F) v = addK v 1 := rfl
theorem k4_pay39_eq (v : IVec S16 32) : k4_pay39 (F := F) v = addK v 2 := rfl
theorem k4_pay40_eq (v : IVec S16 32) : k4_pay40 (F := F) v = addK v 2 := rfl
theorem k4_pay41_eq (v : IVec S16 32) : k4_pay41 (F := F) v = addK v 3 := rfl
theorem k4_pay42_eq (v : IVec S16 32) : k4_pay42 (F := F) v = addK v 3 := rfl
theorem k4_pay43_eq (v : IVec S16 32) : k4_pay43 (F := F) v = addK v 1 := rfl
theorem k4_pay44_eq (v : IVec S16 32) : k4_pay44 (F := F) v = addK v 1 := rfl
theorem k4_pay45_eq (v : IVec S16 32) : k4_pay45 (F := F) v = addK v 2 := rfl
theorem k4_pay46_eq (v : IVec S16 32) : k4_pay46 (F := F) v = addK v 2 := rfl
theorem k4_pay47_eq (v : IVec S16 32) : k4_pay47 (F := F) v = addK v 3 := rfl
theorem k4_pay48_eq (v : IVec S16 32) : k4_pay48 (F := F) v = addK v 3 := rfl

theorem addK_zero (v : IVec S16 32) : addK v 0 = v := rfl

/-! ## The range checks -/

/-- A chunk of a list whose words are at most 10000 has lanes at most 10000 (the lanes past the list's end are 0). -/
theorem edgeChunk_le (a : IVec S2x1x163840 32) (ha : EdgePre a) (eh : Fin 2) (n : ℕ) (x : S16.Idx) :
    (edgeChunk a eh n x).toNat ≤ 10000 := by
  unfold edgeChunk
  split_ifs with h
  · exact ha _
  · show (0#32 : BitVec 32).toNat ≤ 10000
    decide

/-- Moving a lane of at most 10000 to row r adds r · 10016: the 32-bit sum does not wrap. -/
theorem addK_val (v : IVec S16 32) (r : ℕ) (hr : r < 4) (x : S16.Idx) (hv : (v x).toNat ≤ 10000) :
    (addK v r x).toNat = (v x).toNat + r * 10016 := by
  have hlt : (v x).toNat + 3 * 10016 < 2 ^ 32 := by omega
  interval_cases r
  · show (v x).toNat = _
    omega
  · show (v x + 10016#32).toNat = _
    rw [BitVec.toNat_add, BitVec.toNat_ofNat]; omega
  · show (v x + 20032#32).toNat = _
    rw [BitVec.toNat_add, BitVec.toNat_ofNat]; omega
  · show (v x + 30048#32).toNat = _
    rw [BitVec.toNat_add, BitVec.toNat_ofNat]; omega

/-- Every lane of a chunk moved to a row is below 40064: the side condition of every indexed load and store of the
    edge kernel, in the form each of its printed checks unfolds to. -/
theorem addK_chunk_inb (a : IVec S2x1x163840 32) (ha : EdgePre a) (eh : Fin 2) (n r : ℕ) (hr : r < 4) :
    ∀ (b : Fin 1) (x : S16.Idx), ((![addK (edgeChunk a eh n) r] : Fin 1 → IVec S16 32) b x).toNat < S40064.size b := by
  intro b x
  obtain rfl : b = 0 := Subsingleton.elim _ _
  show (addK (edgeChunk a eh n) r x).toNat < 40064
  rw [addK_val _ r hr x (edgeChunk_le a ha eh n x)]
  have := edgeChunk_le a ha eh n x
  omega

theorem addK_chunk_chk (a : IVec S2x1x163840 32) (ha : EdgePre a) (eh : Fin 2) (n r : ℕ) (hr : r < 4) :
    k4_chk1 (addK (edgeChunk a eh n) r) := addK_chunk_inb a ha eh n r hr

/-- Under its side condition a gather is the indexed load, whatever evidence the load carries. -/
theorem gathB_eq (tab : Vec F S40064 .f32) (idx : IVec S16 32)
    (h : ∀ (b : Fin 1) (x : S16.Idx), ((![idx] : Fin 1 → IVec S16 32) b x).toNat < S40064.size b) :
    gathB tab idx = loadIdx (e := .f32) tab ![idx] h := by
  unfold gathB
  exact dif_pos h

/-- Under its side condition an add is the indexed store-with-add, whatever evidence the store carries. -/
theorem scatB_eq (acc : Vec F S40064 .f32) (idx : IVec S16 32) (v : Vec F S16 .f32)
    (h : ∀ (b : Fin 1) (x : S16.Idx), ((![idx] : Fin 1 → IVec S16 32) b x).toNat < S40064.size b) :
    scatB acc idx v = storeIdx (e := .f32) acc ![idx] v (fun _ => 1#1) true h := by
  unfold scatB
  exact dif_pos h

/-! ## A chunk's lanes -/

/-- Lane x of chunk n (n below 10240) is word 16 n + x of the half list. -/
theorem edgeChunk_apply (a : IVec S2x1x163840 32) (eh : Fin 2) (n : ℕ) (hn : n < 10240) (x : S16.Idx) :
    edgeChunk a eh n x = a (ix3 eh 0 ⟨16 * n + (x 0).val, by have h16 : (x 0).val < 16 := (x 0).isLt; omega⟩) := by
  unfold edgeChunk
  exact dif_pos _

/-! ## One step as the indexed load and store, and a staged chunk's lanes -/

/-- One step of the fold written with the indexed load and the indexed store-with-add themselves: from the
    accumulator after 4 n + k steps, the add at chunk n of the destinations moved to row k of the lanes gathered at
    chunk n of the sources moved to row k is the accumulator after one step more. -/
theorem edgeAcc_step (tab : Vec F S40064 .f32) (s t : IVec S2x1x163840 32) (eh : Fin 2) (z : Vec F S40064 .f32) (n k : ℕ)
    (hk : k < 4) (sv dv : IVec S16 32) (hsv : sv = addK (edgeChunk s eh n) k) (hdv : dv = addK (edgeChunk t eh n) k)
    (h1 : ∀ (b : Fin 1) (x : S16.Idx), ((![sv] : Fin 1 → IVec S16 32) b x).toNat < S40064.size b)
    (h2 : ∀ (b : Fin 1) (x : S16.Idx), ((![dv] : Fin 1 → IVec S16 32) b x).toNat < S40064.size b) :
    storeIdx (e := .f32) (edgeAcc tab s t eh z (4 * n + k)) ![dv] (loadIdx (e := .f32) tab ![sv] h1) (fun _ => 1#1) true h2
      = edgeAcc tab s t eh z (4 * n + k + 1) := by
  subst hsv hdv
  rw [edgeAcc_succ, show (4 * n + k) / 4 = n by omega, show (4 * n + k) % 4 = k by omega]
  unfold stepB
  rw [scatB_eq _ _ _ h2, gathB_eq _ _ h1]

/-- The sixteen words of a staged 8192-word piece read from word 64 i + 16 u are chunk 512 C + 4 i + u of the half
    list: piece C starts at word 8192 C, which is chunk 512 C. -/
theorem chunkBuf_lanes (a : IVec S2x1x163840 32) (eh : Fin 2) (C i u : ℕ)
    (inb : ∀ b, (![64 * i + 16 * u] : Fin 1 → ℕ) b + S16.size b ≤ S8192.size b) :
    (fun x => chunkBuf a eh C ((Rect.unit (s := S8192) ![64 * i + 16 * u] S16.size inb).toLoadRect.idx x))
      = edgeChunk a eh (512 * C + 4 * i + u) := by
  funext x
  have h16 : (x 0).val < 16 := (x 0).isLt
  show (if h : 8192 * C + (64 * i + 16 * u + 1 * (x 0).val) < 163840 then a (ix3 eh 0 ⟨8192 * C + (64 * i + 16 * u + 1 * (x 0).val), h⟩) else 0#32)
    = (if h : 16 * (512 * C + 4 * i + u) + (x 0).val < 163840 then a (ix3 eh 0 ⟨16 * (512 * C + 4 * i + u) + (x 0).val, h⟩) else 0#32)
  have he : 8192 * C + (64 * i + 16 * u + 1 * (x 0).val) = 16 * (512 * C + 4 * i + u) + (x 0).val := by omega
  simp only [he]

/-- The same as the value a load through a whole 8192-word scratch array holding the piece reads. -/
theorem chunk_read (a : IVec S2x1x163840 32) (eh : Fin 2) (C i u : ℕ)
    (inb : ∀ c, (![64 * i + 16 * u] : Fin 1 → ℕ) c + S16.size c ≤ S8192.size c)
    (m : Memref sig .scVector .vmem S8192 .i32) (hm : m.IsWhole) :
    View.readAt (Elt F) m.view (Rect.unit (s := S8192) ![64 * i + 16 * u] S16.size inb).toLoadRect (hm.unread (chunkBuf a eh C))
      = edgeChunk a eh (512 * C + 4 * i + u) := by
  rw [← chunkBuf_lanes a eh C i u inb]
  funext x
  exact hm.readAt_unread (Val := Elt F) (chunkBuf a eh C) _ x

end cc4_edge

end Cert.Kernel.Hand

end
-- ==== Proof.K.EdgeCompute4.lean ====
/-
  One trip of each of the edge kernel's two inner loops on one vector subcore, with its value.

  A trip takes four sixteen-word chunks of the staged piece of the source list and of the destination list. For
  each chunk n and each feature row k it gathers the table at the sources moved to row k, sixteen gathers in all;
  then, in the same order, it adds each gathered vector into the accumulator at the destinations moved to row k.
  The table is not written, so the accumulator after the trip is the fold edgeAcc sixteen steps further on: before
  trip i of piece C it stands at step 4 (512 C + 4 i), after it at step 4 (512 C + 4 (i + 1)). Every index the trip
  forms is a list word of at most 10000 moved by at most 3 · 10016, hence below 40064: each of its range checks holds.
-/
import proofs.«219763_g10557029614292_week1_w2_488_21_alg».proof.Proof.K.Base
import proofs.«219763_g10557029614292_week1_w2_488_21_alg».proof.Proof.K.Vals
import proofs.«219763_g10557029614292_week1_w2_488_21_alg».proof.Proof.K.EdgeDefs4
import proofs.«219763_g10557029614292_week1_w2_488_21_alg».proof.Proof.K.EdgeSteps4

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc4_edge

variable {F : FTy → Type}

local notation "𝕄" => MT nD τ sig (HIx 3) (Elt F) ℕ UU ℕ

local notation "gW" => (Memref.whole Cert.Kernel.main_v37_scv : Memref Cert.Kernel.sig Kind.scVector Space.hbm Cert.Kernel.S16x1x40064 EltTy.f32)
local notation "sW" => (Memref.whole Cert.Kernel.main_v6_scv : Memref Cert.Kernel.sig Kind.scVector Space.hbm Cert.Kernel.S2x1x163840 EltTy.i32)
local notation "dW" => (Memref.whole Cert.Kernel.main_v9_scv : Memref Cert.Kernel.sig Kind.scVector Space.hbm Cert.Kernel.S2x1x163840 EltTy.i32)
local notation "zW" => (Memref.whole Cert.Kernel.main_v13_scv : Memref Cert.Kernel.sig Kind.scVector Space.hbm Cert.Kernel.S40064 EltTy.f32)
local notation "oW" => (Memref.whole Cert.Kernel.main_v38_scv : Memref Cert.Kernel.sig Kind.scVector Space.hbm Cert.Kernel.S16x2x1x40064 EltTy.f32)
local notation "tabM" => (Memref.whole Cert.Kernel.cc4_scratch0 : Memref Cert.Kernel.sig Kind.scVector Space.vmem Cert.Kernel.S40064 EltTy.f32)
local notation "accM" => (Memref.whole Cert.Kernel.cc4_scratch1 : Memref Cert.Kernel.sig Kind.scVector Space.vmem Cert.Kernel.S40064 EltTy.f32)
local notation "sb0M" => (Memref.whole Cert.Kernel.cc4_scratch2 : Memref Cert.Kernel.sig Kind.scVector Space.vmem Cert.Kernel.S8192 EltTy.i32)
local notation "db0M" => (Memref.whole Cert.Kernel.cc4_scratch3 : Memref Cert.Kernel.sig Kind.scVector Space.vmem Cert.Kernel.S8192 EltTy.i32)
local notation "sb1M" => (Memref.whole Cert.Kernel.cc4_scratch4 : Memref Cert.Kernel.sig Kind.scVector Space.vmem Cert.Kernel.S8192 EltTy.i32)
local notation "db1M" => (Memref.whole Cert.Kernel.cc4_scratch5 : Memref Cert.Kernel.sig Kind.scVector Space.vmem Cert.Kernel.S8192 EltTy.i32)

variable [FloatOps F]

/-! ## The range checks on what the trip reads off a staged piece -/

/-- An index vector all of whose lanes are below 40064 passes every check of the body (they all say this). -/
theorem chk_of_lt (v : IVec S16 32) (h : ∀ x, (v x).toNat < 40064) : k4_chk1 v := by
  intro a x
  obtain rfl : a = 0 := Subsingleton.elim _ _
  exact h x

theorem chk_small (v : IVec S16 32) (h : ∀ x, (v x).toNat ≤ 10000) : k4_chk1 v :=
  chk_of_lt v fun x => lt_of_le_of_lt (h x) (by decide)

/-- A node number moved to one of the four feature rows stays below 40064: no wrap, no overrun. -/
theorem chk_addi (v : IVec S16 32) (c : BitVec 32) (h : ∀ x, (v x).toNat ≤ 10000) (hc : c.toNat ≤ 30048) :
    k4_chk1 (addi v (broadcast S16 c)) := by
  refine chk_of_lt _ fun x => ?_
  show (v x + c).toNat < 40064
  rw [BitVec.toNat_add]
  have := h x
  omega

section Checks
variable {a : IVec S2x1x163840 32} (ha : EdgePre a) (eh : Fin 2) (C : Nat) (off : Fin 1 → Nat) (inb : ∀ i, off i + S16.size i ≤ S8192.size i)
include ha

theorem chk_rd2 : k4_chk1 ((sb0M).view.readAt (Elt F) (Rect.unit (s := S8192) off S16.size inb).toLoadRect (chunkBuf a eh C)) := chk_small _ fun _ => chunkBuf_le ha eh C _
theorem chk_rd3 : k4_chk1 ((db0M).view.readAt (Elt F) (Rect.unit (s := S8192) off S16.size inb).toLoadRect (chunkBuf a eh C)) := chk_small _ fun _ => chunkBuf_le ha eh C _
theorem chk_rd4 : k4_chk1 ((sb1M).view.readAt (Elt F) (Rect.unit (s := S8192) off S16.size inb).toLoadRect (chunkBuf a eh C)) := chk_small _ fun _ => chunkBuf_le ha eh C _
theorem chk_rd5 : k4_chk1 ((db1M).view.readAt (Elt F) (Rect.unit (s := S8192) off S16.size inb).toLoadRect (chunkBuf a eh C)) := chk_small _ fun _ => chunkBuf_le ha eh C _
theorem chk_rd2a (c : BitVec 32) (hc : c.toNat ≤ 30048) : k4_chk1 (addi ((sb0M).view.readAt (Elt F) (Rect.unit (s := S8192) off S16.size inb).toLoadRect (chunkBuf a eh C)) (broadcast S16 c)) :=
  chk_addi _ _ (fun _ => chunkBuf_le ha eh C _) hc
theorem chk_rd3a (c : BitVec 32) (hc : c.toNat ≤ 30048) : k4_chk1 (addi ((db0M).view.readAt (Elt F) (Rect.unit (s := S8192) off S16.size inb).toLoadRect (chunkBuf a eh C)) (broadcast S16 c)) :=
  chk_addi _ _ (fun _ => chunkBuf_le ha eh C _) hc
theorem chk_rd4a (c : BitVec 32) (hc : c.toNat ≤ 30048) : k4_chk1 (addi ((sb1M).view.readAt (Elt F) (Rect.unit (s := S8192) off S16.size inb).toLoadRect (chunkBuf a eh C)) (broadcast S16 c)) :=
  chk_addi _ _ (fun _ => chunkBuf_le ha eh C _) hc
theorem chk_rd5a (c : BitVec 32) (hc : c.toNat ≤ 30048) : k4_chk1 (addi ((db1M).view.readAt (Elt F) (Rect.unit (s := S8192) off S16.size inb).toLoadRect (chunkBuf a eh C)) (broadcast S16 c)) :=
  chk_addi _ _ (fun _ => chunkBuf_le ha eh C _) hc

end Checks

/-! ## What the trip's loads read: chunks of the half lists -/

section Reads
variable (a : IVec S2x1x163840 32) (eh : Fin 2) (C : Nat) (off : Fin 1 → Nat) (inb : ∀ i, off i + S16.size i ≤ S8192.size i) (i u : Nat)
  (ho : off = ![64 * i + 16 * u])
include ho

theorem rd_sb0 : (sb0M).view.readAt (Elt F) (Rect.unit (s := S8192) off S16.size inb).toLoadRect (chunkBuf a eh C) = edgeChunk a eh (512 * C + 4 * i + u) := by
  subst ho; exact chunkBuf_lanes a eh C i u inb
theorem rd_db0 : (db0M).view.readAt (Elt F) (Rect.unit (s := S8192) off S16.size inb).toLoadRect (chunkBuf a eh C) = edgeChunk a eh (512 * C + 4 * i + u) := by
  subst ho; exact chunkBuf_lanes a eh C i u inb
theorem rd_sb1 : (sb1M).view.readAt (Elt F) (Rect.unit (s := S8192) off S16.size inb).toLoadRect (chunkBuf a eh C) = edgeChunk a eh (512 * C + 4 * i + u) := by
  subst ho; exact chunkBuf_lanes a eh C i u inb
theorem rd_db1 : (db1M).view.readAt (Elt F) (Rect.unit (s := S8192) off S16.size inb).toLoadRect (chunkBuf a eh C) = edgeChunk a eh (512 * C + 4 * i + u) := by
  subst ho; exact chunkBuf_lanes a eh C i u inb

end Reads

section Tile
variable (d : Dev nD) (L : grid4.Coords)

local notation "thr" => (V d (cV L) (jV L))

/-! ## The gather and the add, on the scratch arrays held whole -/

/-- The gather off the table scratch, held whole at any share. -/
theorem wp_gather_tab {α : Type} {Q : α → sProp 𝕄} {idxs : Fin S40064.rank → IVec S16 32} {h : ∀ a x, (idxs a x).toNat < S40064.size a}
    {hl : (tabM).view.Loads} {k : Vec F S16 .f32 → Prog (TpuEff nD τ sig (Elt F) Λ₀ (thr).2) α} {q : PosShare TreeShare} (tb : Vec F S40064 .f32) :
    ((tabM).view.loc thr ↦{q} tb : sProp 𝕄)
      ⊢ iprop((((tabM).view.loc thr ↦{q} tb) -∗ wp frame (wpE (defs₀ (F := F)) 𝒱₀ thr none) Set.univ (k (loadIdx tb idxs h)) Q)
        -∗ wp frame (wpE (defs₀ (F := F)) 𝒱₀ thr none) Set.univ (SparseCore.vectorLoadIdx tabM idxs h hl >>= k) Q) := by
  have e := SparseCore.wp_vectorLoadIdx (defs := defs₀ (F := F)) (Q := Q) 𝒱₀ thr none Set.univ (base := tabM) (idxs := idxs) (h := h) (hl := hl) (k := k)
    (S := Finset.univ) (q := q) (f := tb) (Finset.subset_univ _)
  rw [Memref.read_access_whole] at e
  exact e

/-- The indexed store-with-add into the accumulator scratch, held whole. -/
theorem wp_scatter_acc {α : Type} {Q : α → sProp 𝕄} {idxs : Fin S40064.rank → IVec S16 32} {v : Vec F S16 .f32}
    {h : ∀ a x, (idxs a x).toNat < S40064.size a} {hs : ((accM).access (.whole S40064)).Stores Finset.univ}
    {k : PUnit → Prog (TpuEff nD τ sig (Elt F) Λ₀ (thr).2) α} (f : Vec F S40064 .f32) :
    ((accM).view.loc thr ↦{fullShare} f : sProp 𝕄)
      ⊢ iprop((((accM).view.loc thr ↦{fullShare} storeIdx f idxs v (fun _ => 1#1) true h) -∗ wp frame (wpE (defs₀ (F := F)) 𝒱₀ thr none) Set.univ (k ⟨⟩) Q)
        -∗ wp frame (wpE (defs₀ (F := F)) 𝒱₀ thr none) Set.univ (SparseCore.vectorStoreIdx accM idxs v (fun _ => 1#1) true h hs >>= k) Q) := by
  have e := SparseCore.wp_vectorStoreIdx (defs := defs₀ (F := F)) (Q := Q) 𝒱₀ thr none Set.univ (base := accM) (idxs := idxs) (v := v)
    (mask := fun _ => 1#1) (add := true) (h := h) (hs := hs) (k := k) (f := f)
  rw [Memref.read_access_whole, Memref.write_access_whole_univ, Memref.set_access_whole] at e
  exact e

/-- One add of the trip, with its value: from the fold after p = 4 n + r steps, adding at chunk n of the destinations
    moved to row r what was gathered at chunk n of the sources moved to row r leaves the fold after p + 1 steps. -/
theorem wp_scatter_step {α : Type} {Q : α → sProp 𝕄} (tb : Vec F S40064 .f32) (s t : IVec S2x1x163840 32) (z : Vec F S40064 .f32) (eh : Fin 2)
    (p m n r : Nat) (hp : p = 4 * n + r) (hm : m = p + 1) (hr : r < 4) (sv dv : IVec S16 32)
    (hsv : sv = addK (edgeChunk s eh n) r) (hdv : dv = addK (edgeChunk t eh n) r)
    {h1 : ∀ a x, ((![sv] : Fin 1 → IVec S16 32) a x).toNat < S40064.size a} {h2 : ∀ a x, ((![dv] : Fin 1 → IVec S16 32) a x).toNat < S40064.size a}
    {hst : ((accM).access (.whole S40064)).Stores Finset.univ} {kk : PUnit → Prog (TpuEff nD τ sig (Elt F) Λ₀ (thr).2) α} :
    ((accM).view.loc thr ↦{fullShare} edgeAcc tb s t eh z p : sProp 𝕄)
      ⊢ iprop((((accM).view.loc thr ↦{fullShare} edgeAcc tb s t eh z m) -∗ wp frame (wpE (defs₀ (F := F)) 𝒱₀ thr none) Set.univ (kk ⟨⟩) Q)
        -∗ wp frame (wpE (defs₀ (F := F)) 𝒱₀ thr none) Set.univ
            (SparseCore.vectorStoreIdx accM ![dv] (loadIdx tb ![sv] h1) (fun _ => 1#1) true h2 hst >>= kk) Q) := by
  subst hp hm
  have e := wp_scatter_acc (F := F) d L (Q := Q) (idxs := ![dv]) (v := loadIdx tb ![sv] h1) (h := h2) (hs := hst) (k := kk) (edgeAcc tb s t eh z (4 * n + r))
  rw [edgeAcc_step tb s t eh z n r hr sv dv hsv hdv h1 h2] at e
  exact e

/-- The invariant of the loop over the staged pieces in sb0M and db0M: before trip `i` of piece `C` the table scratch
    holds the tile's table, the two staging buffers piece `C` of the half lists, the accumulator the fold after
    `4 (512 C + 4 i)` steps. -/
def innerInv0 (tb : Vec F S40064 .f32) (s t : IVec S2x1x163840 32) (z : Vec F S40064 .f32) (eh : Fin 2) (C : Nat) (i : Nat) (_ : Unit) : sProp 𝕄 :=
  iprop(((tabM).view.loc thr ↦{fullShare} tb)
    ∗ ((accM).view.loc thr ↦{fullShare} edgeAcc tb s t eh z (4 * (512 * C + 4 * i)))
    ∗ ((sb0M).view.loc thr ↦{fullShare} chunkBuf s eh C)
    ∗ ((db0M).view.loc thr ↦{fullShare} chunkBuf t eh C))

set_option maxHeartbeats 4000000 in
/-- One trip: sixteen gathers off the table, then the sixteen adds in the fold's order. -/
theorem inner0_region (tb : Vec F S40064 .f32) (s t : IVec S2x1x163840 32) (z : Vec F S40064 .f32) (hs : EdgePre s) (ht : EdgePre t) (eh : Fin 2) (C : Nat)
    (c0 c1 : BitVec 32) (t1 : Fin k4_t1_loop.trips) (k : Fin k4_t2_loop.trips) (a : Unit) :
    innerInv0 d L tb s t z eh C k.val a
      ⊢ wp frame (wpE (defs₀ (F := F)) 𝒱₀ thr none) Set.univ
          (k4_t2_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2 c0 c1 t1 k a)
          (innerInv0 d L tb s t z eh C (k.val + 1)) := by
  unfold innerInv0 k4_t2_body
  iintro ⟨Htab, Hacc, Hsb, Hdb⟩
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  sl_exec (disch := first
    | sl_exact (chk_rd2 (F := F) hs _ _ _ _)
    | sl_exact (chk_rd3 (F := F) ht _ _ _ _)
    | sl_exact (chk_rd2a (F := F) hs _ _ _ _ 10016#32 (by decide))
    | sl_exact (chk_rd3a (F := F) ht _ _ _ _ 10016#32 (by decide))
    | sl_exact (chk_rd2a (F := F) hs _ _ _ _ 20032#32 (by decide))
    | sl_exact (chk_rd3a (F := F) ht _ _ _ _ 20032#32 (by decide))
    | sl_exact (chk_rd2a (F := F) hs _ _ _ _ 30048#32 (by decide))
    | sl_exact (chk_rd3a (F := F) ht _ _ _ _ 30048#32 (by decide)))
  iapply (wp_gather_tab (F := F) d L tb) $$ Htab; iintro Htab
  iapply (wp_scatter_step (F := F) d L tb s t z eh (4 * (512 * C + 4 * k.val)) (4 * (512 * C + 4 * k.val) + 1) (512 * C + 4 * k.val + 0) 0 (by omega) (by omega) (by omega) _ _
      (congrArg (fun v => addK v 0) (rd_sb0 (F := F) s eh C (k4_off5 k) (k4_off5_inb k) k.val 0 ((k4_off5_eq k).trans (congrArg (fun n => (![n] : Fin 1 → Nat)) (by omega)))))
      (congrArg (fun v => addK v 0) (rd_db0 (F := F) t eh C (k4_off5 k) (k4_off5_inb k) k.val 0 ((k4_off5_eq k).trans (congrArg (fun n => (![n] : Fin 1 → Nat)) (by omega)))))) $$ Hacc; iintro Hacc
  iapply (wp_scatter_step (F := F) d L tb s t z eh (4 * (512 * C + 4 * k.val) + 1) (4 * (512 * C + 4 * k.val) + 2) (512 * C + 4 * k.val + 0) 1 (by omega) (by omega) (by omega) _ _
      (congrArg (fun v => addK v 1) (rd_sb0 (F := F) s eh C (k4_off5 k) (k4_off5_inb k) k.val 0 ((k4_off5_eq k).trans (congrArg (fun n => (![n] : Fin 1 → Nat)) (by omega)))))
      (congrArg (fun v => addK v 1) (rd_db0 (F := F) t eh C (k4_off5 k) (k4_off5_inb k) k.val 0 ((k4_off5_eq k).trans (congrArg (fun n => (![n] : Fin 1 → Nat)) (by omega)))))) $$ Hacc; iintro Hacc
  iapply (wp_scatter_step (F := F) d L tb s t z eh (4 * (512 * C + 4 * k.val) + 2) (4 * (512 * C + 4 * k.val) + 3) (512 * C + 4 * k.val + 0) 2 (by omega) (by omega) (by omega) _ _
      (congrArg (fun v => addK v 2) (rd_sb0 (F := F) s eh C (k4_off5 k) (k4_off5_inb k) k.val 0 ((k4_off5_eq k).trans (congrArg (fun n => (![n] : Fin 1 → Nat)) (by omega)))))
      (congrArg (fun v => addK v 2) (rd_db0 (F := F) t eh C (k4_off5 k) (k4_off5_inb k) k.val 0 ((k4_off5_eq k).trans (congrArg (fun n => (![n] : Fin 1 → Nat)) (by omega)))))) $$ Hacc; iintro Hacc
  iapply (wp_scatter_step (F := F) d L tb s t z eh (4 * (512 * C + 4 * k.val) + 3) (4 * (512 * C + 4 * k.val) + 4) (512 * C + 4 * k.val + 0) 3 (by omega) (by omega) (by omega) _ _
      (congrArg (fun v => addK v 3) (rd_sb0 (F := F) s eh C (k4_off5 k) (k4_off5_inb k) k.val 0 ((k4_off5_eq k).trans (congrArg (fun n => (![n] : Fin 1 → Nat)) (by omega)))))
      (congrArg (fun v => addK v 3) (rd_db0 (F := F) t eh C (k4_off5 k) (k4_off5_inb k) k.val 0 ((k4_off5_eq k).trans (congrArg (fun n => (![n] : Fin 1 → Nat)) (by omega)))))) $$ Hacc; iintro Hacc
  iapply (wp_scatter_step (F := F) d L tb s t z eh (4 * (512 * C + 4 * k.val) + 4) (4 * (512 * C + 4 * k.val) + 5) (512 * C + 4 * k.val + 1) 0 (by omega) (by omega) (by omega) _ _
      (congrArg (fun v => addK v 0) (rd_sb0 (F := F) s eh C (k4_off6 k) (k4_off6_inb k) k.val 1 ((k4_off6_eq k).trans (congrArg (fun n => (![n] : Fin 1 → Nat)) (by omega)))))
      (congrArg (fun v => addK v 0) (rd_db0 (F := F) t eh C (k4_off6 k) (k4_off6_inb k) k.val 1 ((k4_off6_eq k).trans (congrArg (fun n => (![n] : Fin 1 → Nat)) (by omega)))))) $$ Hacc; iintro Hacc
  iapply (wp_scatter_step (F := F) d L tb s t z eh (4 * (512 * C + 4 * k.val) + 5) (4 * (512 * C + 4 * k.val) + 6) (512 * C + 4 * k.val + 1) 1 (by omega) (by omega) (by omega) _ _
      (congrArg (fun v => addK v 1) (rd_sb0 (F := F) s eh C (k4_off6 k) (k4_off6_inb k) k.val 1 ((k4_off6_eq k).trans (congrArg (fun n => (![n] : Fin 1 → Nat)) (by omega)))))
      (congrArg (fun v => addK v 1) (rd_db0 (F := F) t eh C (k4_off6 k) (k4_off6_inb k) k.val 1 ((k4_off6_eq k).trans (congrArg (fun n => (![n] : Fin 1 → Nat)) (by omega)))))) $$ Hacc; iintro Hacc
  iapply (wp_scatter_step (F := F) d L tb s t z eh (4 * (512 * C + 4 * k.val) + 6) (4 * (512 * C + 4 * k.val) + 7) (512 * C + 4 * k.val + 1) 2 (by omega) (by omega) (by omega) _ _
      (congrArg (fun v => addK v 2) (rd_sb0 (F := F) s eh C (k4_off6 k) (k4_off6_inb k) k.val 1 ((k4_off6_eq k).trans (congrArg (fun n => (![n] : Fin 1 → Nat)) (by omega)))))
      (congrArg (fun v => addK v 2) (rd_db0 (F := F) t eh C (k4_off6 k) (k4_off6_inb k) k.val 1 ((k4_off6_eq k).trans (congrArg (fun n => (![n] : Fin 1 → Nat)) (by omega)))))) $$ Hacc; iintro Hacc
  iapply (wp_scatter_step (F := F) d L tb s t z eh (4 * (512 * C + 4 * k.val) + 7) (4 * (512 * C + 4 * k.val) + 8) (512 * C + 4 * k.val + 1) 3 (by omega) (by omega) (by omega) _ _
      (congrArg (fun v => addK v 3) (rd_sb0 (F := F) s eh C (k4_off6 k) (k4_off6_inb k) k.val 1 ((k4_off6_eq k).trans (congrArg (fun n => (![n] : Fin 1 → Nat)) (by omega)))))
      (congrArg (fun v => addK v 3) (rd_db0 (F := F) t eh C (k4_off6 k) (k4_off6_inb k) k.val 1 ((k4_off6_eq k).trans (congrArg (fun n => (![n] : Fin 1 → Nat)) (by omega)))))) $$ Hacc; iintro Hacc
  iapply (wp_scatter_step (F := F) d L tb s t z eh (4 * (512 * C + 4 * k.val) + 8) (4 * (512 * C + 4 * k.val) + 9) (512 * C + 4 * k.val + 2) 0 (by omega) (by omega) (by omega) _ _
      (congrArg (fun v => addK v 0) (rd_sb0 (F := F) s eh C (k4_off7 k) (k4_off7_inb k) k.val 2 ((k4_off7_eq k).trans (congrArg (fun n => (![n] : Fin 1 → Nat)) (by omega)))))
      (congrArg (fun v => addK v 0) (rd_db0 (F := F) t eh C (k4_off7 k) (k4_off7_inb k) k.val 2 ((k4_off7_eq k).trans (congrArg (fun n => (![n] : Fin 1 → Nat)) (by omega)))))) $$ Hacc; iintro Hacc
  iapply (wp_scatter_step (F := F) d L tb s t z eh (4 * (512 * C + 4 * k.val) + 9) (4 * (512 * C + 4 * k.val) + 10) (512 * C + 4 * k.val + 2) 1 (by omega) (by omega) (by omega) _ _
      (congrArg (fun v => addK v 1) (rd_sb0 (F := F) s eh C (k4_off7 k) (k4_off7_inb k) k.val 2 ((k4_off7_eq k).trans (congrArg (fun n => (![n] : Fin 1 → Nat)) (by omega)))))
      (congrArg (fun v => addK v 1) (rd_db0 (F := F) t eh C (k4_off7 k) (k4_off7_inb k) k.val 2 ((k4_off7_eq k).trans (congrArg (fun n => (![n] : Fin 1 → Nat)) (by omega)))))) $$ Hacc; iintro Hacc
  iapply (wp_scatter_step (F := F) d L tb s t z eh (4 * (512 * C + 4 * k.val) + 10) (4 * (512 * C + 4 * k.val) + 11) (512 * C + 4 * k.val + 2) 2 (by omega) (by omega) (by omega) _ _
      (congrArg (fun v => addK v 2) (rd_sb0 (F := F) s eh C (k4_off7 k) (k4_off7_inb k) k.val 2 ((k4_off7_eq k).trans (congrArg (fun n => (![n] : Fin 1 → Nat)) (by omega)))))
      (congrArg (fun v => addK v 2) (rd_db0 (F := F) t eh C (k4_off7 k) (k4_off7_inb k) k.val 2 ((k4_off7_eq k).trans (congrArg (fun n => (![n] : Fin 1 → Nat)) (by omega)))))) $$ Hacc; iintro Hacc
  iapply (wp_scatter_step (F := F) d L tb s t z eh (4 * (512 * C + 4 * k.val) + 11) (4 * (512 * C + 4 * k.val) + 12) (512 * C + 4 * k.val + 2) 3 (by omega) (by omega) (by omega) _ _
      (congrArg (fun v => addK v 3) (rd_sb0 (F := F) s eh C (k4_off7 k) (k4_off7_inb k) k.val 2 ((k4_off7_eq k).trans (congrArg (fun n => (![n] : Fin 1 → Nat)) (by omega)))))
      (congrArg (fun v => addK v 3) (rd_db0 (F := F) t eh C (k4_off7 k) (k4_off7_inb k) k.val 2 ((k4_off7_eq k).trans (congrArg (fun n => (![n] : Fin 1 → Nat)) (by omega)))))) $$ Hacc; iintro Hacc
  iapply (wp_scatter_step (F := F) d L tb s t z eh (4 * (512 * C + 4 * k.val) + 12) (4 * (512 * C + 4 * k.val) + 13) (512 * C + 4 * k.val + 3) 0 (by omega) (by omega) (by omega) _ _
      (congrArg (fun v => addK v 0) (rd_sb0 (F := F) s eh C (k4_off8 k) (k4_off8_inb k) k.val 3 ((k4_off8_eq k).trans (congrArg (fun n => (![n] : Fin 1 → Nat)) (by omega)))))
      (congrArg (fun v => addK v 0) (rd_db0 (F := F) t eh C (k4_off8 k) (k4_off8_inb k) k.val 3 ((k4_off8_eq k).trans (congrArg (fun n => (![n] : Fin 1 → Nat)) (by omega)))))) $$ Hacc; iintro Hacc
  iapply (wp_scatter_step (F := F) d L tb s t z eh (4 * (512 * C + 4 * k.val) + 13) (4 * (512 * C + 4 * k.val) + 14) (512 * C + 4 * k.val + 3) 1 (by omega) (by omega) (by omega) _ _
      (congrArg (fun v => addK v 1) (rd_sb0 (F := F) s eh C (k4_off8 k) (k4_off8_inb k) k.val 3 ((k4_off8_eq k).trans (congrArg (fun n => (![n] : Fin 1 → Nat)) (by omega)))))
      (congrArg (fun v => addK v 1) (rd_db0 (F := F) t eh C (k4_off8 k) (k4_off8_inb k) k.val 3 ((k4_off8_eq k).trans (congrArg (fun n => (![n] : Fin 1 → Nat)) (by omega)))))) $$ Hacc; iintro Hacc
  iapply (wp_scatter_step (F := F) d L tb s t z eh (4 * (512 * C + 4 * k.val) + 14) (4 * (512 * C + 4 * k.val) + 15) (512 * C + 4 * k.val + 3) 2 (by omega) (by omega) (by omega) _ _
      (congrArg (fun v => addK v 2) (rd_sb0 (F := F) s eh C (k4_off8 k) (k4_off8_inb k) k.val 3 ((k4_off8_eq k).trans (congrArg (fun n => (![n] : Fin 1 → Nat)) (by omega)))))
      (congrArg (fun v => addK v 2) (rd_db0 (F := F) t eh C (k4_off8 k) (k4_off8_inb k) k.val 3 ((k4_off8_eq k).trans (congrArg (fun n => (![n] : Fin 1 → Nat)) (by omega)))))) $$ Hacc; iintro Hacc
  iapply (wp_scatter_step (F := F) d L tb s t z eh (4 * (512 * C + 4 * k.val) + 15) (4 * (512 * C + 4 * k.val) + 16) (512 * C + 4 * k.val + 3) 3 (by omega) (by omega) (by omega) _ _
      (congrArg (fun v => addK v 3) (rd_sb0 (F := F) s eh C (k4_off8 k) (k4_off8_inb k) k.val 3 ((k4_off8_eq k).trans (congrArg (fun n => (![n] : Fin 1 → Nat)) (by omega)))))
      (congrArg (fun v => addK v 3) (rd_db0 (F := F) t eh C (k4_off8 k) (k4_off8_inb k) k.val 3 ((k4_off8_eq k).trans (congrArg (fun n => (![n] : Fin 1 → Nat)) (by omega)))))) $$ Hacc; iintro Hacc
  sl_step
  rw [show 4 * (512 * C + 4 * (k.val + 1)) = 4 * (512 * C + 4 * k.val) + 16 from by omega]
  isplitl [Htab]; · iexact Htab
  isplitl [Hacc]; · iexact Hacc
  isplitl [Hsb]; · iexact Hsb
  iexact Hdb

/-- The invariant of the loop over the staged pieces in sb1M and db1M: before trip `i` of piece `C` the table scratch
    holds the tile's table, the two staging buffers piece `C` of the half lists, the accumulator the fold after
    `4 (512 C + 4 i)` steps. -/
def innerInv1 (tb : Vec F S40064 .f32) (s t : IVec S2x1x163840 32) (z : Vec F S40064 .f32) (eh : Fin 2) (C : Nat) (i : Nat) (_ : Unit) : sProp 𝕄 :=
  iprop(((tabM).view.loc thr ↦{fullShare} tb)
    ∗ ((accM).view.loc thr ↦{fullShare} edgeAcc tb s t eh z (4 * (512 * C + 4 * i)))
    ∗ ((sb1M).view.loc thr ↦{fullShare} chunkBuf s eh C)
    ∗ ((db1M).view.loc thr ↦{fullShare} chunkBuf t eh C))

set_option maxHeartbeats 4000000 in
/-- One trip: sixteen gathers off the table, then the sixteen adds in the fold's order. -/
theorem inner1_region (tb : Vec F S40064 .f32) (s t : IVec S2x1x163840 32) (z : Vec F S40064 .f32) (hs : EdgePre s) (ht : EdgePre t) (eh : Fin 2) (C : Nat)
    (k : Fin k4_t3_loop.trips) (a : Unit) :
    innerInv1 d L tb s t z eh C k.val a
      ⊢ wp frame (wpE (defs₀ (F := F)) 𝒱₀ thr none) Set.univ
          (k4_t3_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2 k a)
          (innerInv1 d L tb s t z eh C (k.val + 1)) := by
  unfold innerInv1 k4_t3_body
  iintro ⟨Htab, Hacc, Hsb, Hdb⟩
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  sl_exec (disch := first
    | sl_exact (chk_rd4 (F := F) hs _ _ _ _)
    | sl_exact (chk_rd5 (F := F) ht _ _ _ _)
    | sl_exact (chk_rd4a (F := F) hs _ _ _ _ 10016#32 (by decide))
    | sl_exact (chk_rd5a (F := F) ht _ _ _ _ 10016#32 (by decide))
    | sl_exact (chk_rd4a (F := F) hs _ _ _ _ 20032#32 (by decide))
    | sl_exact (chk_rd5a (F := F) ht _ _ _ _ 20032#32 (by decide))
    | sl_exact (chk_rd4a (F := F) hs _ _ _ _ 30048#32 (by decide))
    | sl_exact (chk_rd5a (F := F) ht _ _ _ _ 30048#32 (by decide)))
  iapply (wp_gather_tab (F := F) d L tb) $$ Htab; iintro Htab
  iapply (wp_scatter_step (F := F) d L tb s t z eh (4 * (512 * C + 4 * k.val)) (4 * (512 * C + 4 * k.val) + 1) (512 * C + 4 * k.val + 0) 0 (by omega) (by omega) (by omega) _ _
      (congrArg (fun v => addK v 0) (rd_sb1 (F := F) s eh C (k4_off9 k) (k4_off9_inb k) k.val 0 ((k4_off9_eq k).trans (congrArg (fun n => (![n] : Fin 1 → Nat)) (by omega)))))
      (congrArg (fun v => addK v 0) (rd_db1 (F := F) t eh C (k4_off9 k) (k4_off9_inb k) k.val 0 ((k4_off9_eq k).trans (congrArg (fun n => (![n] : Fin 1 → Nat)) (by omega)))))) $$ Hacc; iintro Hacc
  iapply (wp_scatter_step (F := F) d L tb s t z eh (4 * (512 * C + 4 * k.val) + 1) (4 * (512 * C + 4 * k.val) + 2) (512 * C + 4 * k.val + 0) 1 (by omega) (by omega) (by omega) _ _
      (congrArg (fun v => addK v 1) (rd_sb1 (F := F) s eh C (k4_off9 k) (k4_off9_inb k) k.val 0 ((k4_off9_eq k).trans (congrArg (fun n => (![n] : Fin 1 → Nat)) (by omega)))))
      (congrArg (fun v => addK v 1) (rd_db1 (F := F) t eh C (k4_off9 k) (k4_off9_inb k) k.val 0 ((k4_off9_eq k).trans (congrArg (fun n => (![n] : Fin 1 → Nat)) (by omega)))))) $$ Hacc; iintro Hacc
  iapply (wp_scatter_step (F := F) d L tb s t z eh (4 * (512 * C + 4 * k.val) + 2) (4 * (512 * C + 4 * k.val) + 3) (512 * C + 4 * k.val + 0) 2 (by omega) (by omega) (by omega) _ _
      (congrArg (fun v => addK v 2) (rd_sb1 (F := F) s eh C (k4_off9 k) (k4_off9_inb k) k.val 0 ((k4_off9_eq k).trans (congrArg (fun n => (![n] : Fin 1 → Nat)) (by omega)))))
      (congrArg (fun v => addK v 2) (rd_db1 (F := F) t eh C (k4_off9 k) (k4_off9_inb k) k.val 0 ((k4_off9_eq k).trans (congrArg (fun n => (![n] : Fin 1 → Nat)) (by omega)))))) $$ Hacc; iintro Hacc
  iapply (wp_scatter_step (F := F) d L tb s t z eh (4 * (512 * C + 4 * k.val) + 3) (4 * (512 * C + 4 * k.val) + 4) (512 * C + 4 * k.val + 0) 3 (by omega) (by omega) (by omega) _ _
      (congrArg (fun v => addK v 3) (rd_sb1 (F := F) s eh C (k4_off9 k) (k4_off9_inb k) k.val 0 ((k4_off9_eq k).trans (congrArg (fun n => (![n] : Fin 1 → Nat)) (by omega)))))
      (congrArg (fun v => addK v 3) (rd_db1 (F := F) t eh C (k4_off9 k) (k4_off9_inb k) k.val 0 ((k4_off9_eq k).trans (congrArg (fun n => (![n] : Fin 1 → Nat)) (by omega)))))) $$ Hacc; iintro Hacc
  iapply (wp_scatter_step (F := F) d L tb s t z eh (4 * (512 * C + 4 * k.val) + 4) (4 * (512 * C + 4 * k.val) + 5) (512 * C + 4 * k.val + 1) 0 (by omega) (by omega) (by omega) _ _
      (congrArg (fun v => addK v 0) (rd_sb1 (F := F) s eh C (k4_off10 k) (k4_off10_inb k) k.val 1 ((k4_off10_eq k).trans (congrArg (fun n => (![n] : Fin 1 → Nat)) (by omega)))))
      (congrArg (fun v => addK v 0) (rd_db1 (F := F) t eh C (k4_off10 k) (k4_off10_inb k) k.val 1 ((k4_off10_eq k).trans (congrArg (fun n => (![n] : Fin 1 → Nat)) (by omega)))))) $$ Hacc; iintro Hacc
  iapply (wp_scatter_step (F := F) d L tb s t z eh (4 * (512 * C + 4 * k.val) + 5) (4 * (512 * C + 4 * k.val) + 6) (512 * C + 4 * k.val + 1) 1 (by omega) (by omega) (by omega) _ _
      (congrArg (fun v => addK v 1) (rd_sb1 (F := F) s eh C (k4_off10 k) (k4_off10_inb k) k.val 1 ((k4_off10_eq k).trans (congrArg (fun n => (![n] : Fin 1 → Nat)) (by omega)))))
      (congrArg (fun v => addK v 1) (rd_db1 (F := F) t eh C (k4_off10 k) (k4_off10_inb k) k.val 1 ((k4_off10_eq k).trans (congrArg (fun n => (![n] : Fin 1 → Nat)) (by omega)))))) $$ Hacc; iintro Hacc
  iapply (wp_scatter_step (F := F) d L tb s t z eh (4 * (512 * C + 4 * k.val) + 6) (4 * (512 * C + 4 * k.val) + 7) (512 * C + 4 * k.val + 1) 2 (by omega) (by omega) (by omega) _ _
      (congrArg (fun v => addK v 2) (rd_sb1 (F := F) s eh C (k4_off10 k) (k4_off10_inb k) k.val 1 ((k4_off10_eq k).trans (congrArg (fun n => (![n] : Fin 1 → Nat)) (by omega)))))
      (congrArg (fun v => addK v 2) (rd_db1 (F := F) t eh C (k4_off10 k) (k4_off10_inb k) k.val 1 ((k4_off10_eq k).trans (congrArg (fun n => (![n] : Fin 1 → Nat)) (by omega)))))) $$ Hacc; iintro Hacc
  iapply (wp_scatter_step (F := F) d L tb s t z eh (4 * (512 * C + 4 * k.val) + 7) (4 * (512 * C + 4 * k.val) + 8) (512 * C + 4 * k.val + 1) 3 (by omega) (by omega) (by omega) _ _
      (congrArg (fun v => addK v 3) (rd_sb1 (F := F) s eh C (k4_off10 k) (k4_off10_inb k) k.val 1 ((k4_off10_eq k).trans (congrArg (fun n => (![n] : Fin 1 → Nat)) (by omega)))))
      (congrArg (fun v => addK v 3) (rd_db1 (F := F) t eh C (k4_off10 k) (k4_off10_inb k) k.val 1 ((k4_off10_eq k).trans (congrArg (fun n => (![n] : Fin 1 → Nat)) (by omega)))))) $$ Hacc; iintro Hacc
  iapply (wp_scatter_step (F := F) d L tb s t z eh (4 * (512 * C + 4 * k.val) + 8) (4 * (512 * C + 4 * k.val) + 9) (512 * C + 4 * k.val + 2) 0 (by omega) (by omega) (by omega) _ _
      (congrArg (fun v => addK v 0) (rd_sb1 (F := F) s eh C (k4_off11 k) (k4_off11_inb k) k.val 2 ((k4_off11_eq k).trans (congrArg (fun n => (![n] : Fin 1 → Nat)) (by omega)))))
      (congrArg (fun v => addK v 0) (rd_db1 (F := F) t eh C (k4_off11 k) (k4_off11_inb k) k.val 2 ((k4_off11_eq k).trans (congrArg (fun n => (![n] : Fin 1 → Nat)) (by omega)))))) $$ Hacc; iintro Hacc
  iapply (wp_scatter_step (F := F) d L tb s t z eh (4 * (512 * C + 4 * k.val) + 9) (4 * (512 * C + 4 * k.val) + 10) (512 * C + 4 * k.val + 2) 1 (by omega) (by omega) (by omega) _ _
      (congrArg (fun v => addK v 1) (rd_sb1 (F := F) s eh C (k4_off11 k) (k4_off11_inb k) k.val 2 ((k4_off11_eq k).trans (congrArg (fun n => (![n] : Fin 1 → Nat)) (by omega)))))
      (congrArg (fun v => addK v 1) (rd_db1 (F := F) t eh C (k4_off11 k) (k4_off11_inb k) k.val 2 ((k4_off11_eq k).trans (congrArg (fun n => (![n] : Fin 1 → Nat)) (by omega)))))) $$ Hacc; iintro Hacc
  iapply (wp_scatter_step (F := F) d L tb s t z eh (4 * (512 * C + 4 * k.val) + 10) (4 * (512 * C + 4 * k.val) + 11) (512 * C + 4 * k.val + 2) 2 (by omega) (by omega) (by omega) _ _
      (congrArg (fun v => addK v 2) (rd_sb1 (F := F) s eh C (k4_off11 k) (k4_off11_inb k) k.val 2 ((k4_off11_eq k).trans (congrArg (fun n => (![n] : Fin 1 → Nat)) (by omega)))))
      (congrArg (fun v => addK v 2) (rd_db1 (F := F) t eh C (k4_off11 k) (k4_off11_inb k) k.val 2 ((k4_off11_eq k).trans (congrArg (fun n => (![n] : Fin 1 → Nat)) (by omega)))))) $$ Hacc; iintro Hacc
  iapply (wp_scatter_step (F := F) d L tb s t z eh (4 * (512 * C + 4 * k.val) + 11) (4 * (512 * C + 4 * k.val) + 12) (512 * C + 4 * k.val + 2) 3 (by omega) (by omega) (by omega) _ _
      (congrArg (fun v => addK v 3) (rd_sb1 (F := F) s eh C (k4_off11 k) (k4_off11_inb k) k.val 2 ((k4_off11_eq k).trans (congrArg (fun n => (![n] : Fin 1 → Nat)) (by omega)))))
      (congrArg (fun v => addK v 3) (rd_db1 (F := F) t eh C (k4_off11 k) (k4_off11_inb k) k.val 2 ((k4_off11_eq k).trans (congrArg (fun n => (![n] : Fin 1 → Nat)) (by omega)))))) $$ Hacc; iintro Hacc
  iapply (wp_scatter_step (F := F) d L tb s t z eh (4 * (512 * C + 4 * k.val) + 12) (4 * (512 * C + 4 * k.val) + 13) (512 * C + 4 * k.val + 3) 0 (by omega) (by omega) (by omega) _ _
      (congrArg (fun v => addK v 0) (rd_sb1 (F := F) s eh C (k4_off12 k) (k4_off12_inb k) k.val 3 ((k4_off12_eq k).trans (congrArg (fun n => (![n] : Fin 1 → Nat)) (by omega)))))
      (congrArg (fun v => addK v 0) (rd_db1 (F := F) t eh C (k4_off12 k) (k4_off12_inb k) k.val 3 ((k4_off12_eq k).trans (congrArg (fun n => (![n] : Fin 1 → Nat)) (by omega)))))) $$ Hacc; iintro Hacc
  iapply (wp_scatter_step (F := F) d L tb s t z eh (4 * (512 * C + 4 * k.val) + 13) (4 * (512 * C + 4 * k.val) + 14) (512 * C + 4 * k.val + 3) 1 (by omega) (by omega) (by omega) _ _
      (congrArg (fun v => addK v 1) (rd_sb1 (F := F) s eh C (k4_off12 k) (k4_off12_inb k) k.val 3 ((k4_off12_eq k).trans (congrArg (fun n => (![n] : Fin 1 → Nat)) (by omega)))))
      (congrArg (fun v => addK v 1) (rd_db1 (F := F) t eh C (k4_off12 k) (k4_off12_inb k) k.val 3 ((k4_off12_eq k).trans (congrArg (fun n => (![n] : Fin 1 → Nat)) (by omega)))))) $$ Hacc; iintro Hacc
  iapply (wp_scatter_step (F := F) d L tb s t z eh (4 * (512 * C + 4 * k.val) + 14) (4 * (512 * C + 4 * k.val) + 15) (512 * C + 4 * k.val + 3) 2 (by omega) (by omega) (by omega) _ _
      (congrArg (fun v => addK v 2) (rd_sb1 (F := F) s eh C (k4_off12 k) (k4_off12_inb k) k.val 3 ((k4_off12_eq k).trans (congrArg (fun n => (![n] : Fin 1 → Nat)) (by omega)))))
      (congrArg (fun v => addK v 2) (rd_db1 (F := F) t eh C (k4_off12 k) (k4_off12_inb k) k.val 3 ((k4_off12_eq k).trans (congrArg (fun n => (![n] : Fin 1 → Nat)) (by omega)))))) $$ Hacc; iintro Hacc
  iapply (wp_scatter_step (F := F) d L tb s t z eh (4 * (512 * C + 4 * k.val) + 15) (4 * (512 * C + 4 * k.val) + 16) (512 * C + 4 * k.val + 3) 3 (by omega) (by omega) (by omega) _ _
      (congrArg (fun v => addK v 3) (rd_sb1 (F := F) s eh C (k4_off12 k) (k4_off12_inb k) k.val 3 ((k4_off12_eq k).trans (congrArg (fun n => (![n] : Fin 1 → Nat)) (by omega)))))
      (congrArg (fun v => addK v 3) (rd_db1 (F := F) t eh C (k4_off12 k) (k4_off12_inb k) k.val 3 ((k4_off12_eq k).trans (congrArg (fun n => (![n] : Fin 1 → Nat)) (by omega)))))) $$ Hacc; iintro Hacc
  sl_step
  rw [show 4 * (512 * C + 4 * (k.val + 1)) = 4 * (512 * C + 4 * k.val) + 16 from by omega]
  isplitl [Htab]; · iexact Htab
  isplitl [Hacc]; · iexact Hacc
  isplitl [Hsb]; · iexact Hsb
  iexact Hdb

theorem inner0_trips : k4_t2_loop.trips = 128 := by decide
theorem inner1_trips : k4_t3_loop.trips = 128 := by decide

end Tile

end cc4_edge

end Cert.Kernel.Hand

end
-- ==== Proof.K.EdgeLoops4.lean ====
/-
  The edge kernel's two inner loops, whole, and the value of its copy-out.

  Each inner loop takes 128 trips over one staged 8192-word piece of the two half lists; a trip moves the fold
  edgeAcc sixteen steps on, so the loop over piece C takes it from step 4 · 512 C to step 4 · 512 (C + 1), the staged
  piece and the table unchanged. The statements are in continuation form: what follows the loop runs from the fold at
  the start of the next piece. After the twentieth piece the fold has taken all 4 · 512 · 20 = 40960 steps, and what the
  copy-out writes through the tile's row of the result is the kernel's value on that row.
-/
import proofs.«219763_g10557029614292_week1_w2_488_21_alg».proof.Proof.K.Base
import proofs.«219763_g10557029614292_week1_w2_488_21_alg».proof.Proof.K.Vals
import proofs.«219763_g10557029614292_week1_w2_488_21_alg».proof.Proof.K.EdgeDefs4
import proofs.«219763_g10557029614292_week1_w2_488_21_alg».proof.Proof.K.EdgeSteps4
import proofs.«219763_g10557029614292_week1_w2_488_21_alg».proof.Proof.K.EdgeCompute4
import proofs.«219763_g10557029614292_week1_w2_488_21_alg».proof.Proof.K.EdgeAux4
import Idealize.ShloMosaic.Lib.Scf

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc4_edge

variable {F : FTy → Type}

local notation "𝕄" => MT nD τ sig (HIx 3) (Elt F) ℕ UU ℕ

local notation "gW" => (Memref.whole Cert.Kernel.main_v37_scv : Memref Cert.Kernel.sig Kind.scVector Space.hbm Cert.Kernel.S16x1x40064 EltTy.f32)
local notation "sW" => (Memref.whole Cert.Kernel.main_v6_scv : Memref Cert.Kernel.sig Kind.scVector Space.hbm Cert.Kernel.S2x1x163840 EltTy.i32)
local notation "dW" => (Memref.whole Cert.Kernel.main_v9_scv : Memref Cert.Kernel.sig Kind.scVector Space.hbm Cert.Kernel.S2x1x163840 EltTy.i32)
local notation "zW" => (Memref.whole Cert.Kernel.main_v13_scv : Memref Cert.Kernel.sig Kind.scVector Space.hbm Cert.Kernel.S40064 EltTy.f32)
local notation "oW" => (Memref.whole Cert.Kernel.main_v38_scv : Memref Cert.Kernel.sig Kind.scVector Space.hbm Cert.Kernel.S16x2x1x40064 EltTy.f32)
local notation "tabM" => (Memref.whole Cert.Kernel.cc4_scratch0 : Memref Cert.Kernel.sig Kind.scVector Space.vmem Cert.Kernel.S40064 EltTy.f32)
local notation "accM" => (Memref.whole Cert.Kernel.cc4_scratch1 : Memref Cert.Kernel.sig Kind.scVector Space.vmem Cert.Kernel.S40064 EltTy.f32)
local notation "sb0M" => (Memref.whole Cert.Kernel.cc4_scratch2 : Memref Cert.Kernel.sig Kind.scVector Space.vmem Cert.Kernel.S8192 EltTy.i32)
local notation "db0M" => (Memref.whole Cert.Kernel.cc4_scratch3 : Memref Cert.Kernel.sig Kind.scVector Space.vmem Cert.Kernel.S8192 EltTy.i32)
local notation "sb1M" => (Memref.whole Cert.Kernel.cc4_scratch4 : Memref Cert.Kernel.sig Kind.scVector Space.vmem Cert.Kernel.S8192 EltTy.i32)
local notation "db1M" => (Memref.whole Cert.Kernel.cc4_scratch5 : Memref Cert.Kernel.sig Kind.scVector Space.vmem Cert.Kernel.S8192 EltTy.i32)

variable [FloatOps F]
section Tile
variable (d : Dev nD) (L : grid4.Coords)

local notation "thr" => (V d (cV L) (jV L))

omit [FloatOps F] in
/-- Each inner loop takes 128 trips. -/
theorem k4_t2_trips : k4_t2_loop.trips = 128 := by decide +kernel
omit [FloatOps F] in
theorem k4_t3_trips : k4_t3_loop.trips = 128 := by decide +kernel

/-- The first inner loop, whole: from the fold at the start of piece C, held with the piece staged in the first
    pair of buffers, to the fold at the start of piece C + 1. -/
theorem compute0 {α : Type} {Q : α → sProp 𝕄} (kk : Unit → Prog (TpuEff nD τ sig (Elt F) Λ₀ (thr).2) α)
    (tb : Vec F S40064 .f32) (s t : IVec S2x1x163840 32) (z : Vec F S40064 .f32) (hs : EdgePre s) (ht : EdgePre t) (eh : Fin 2) (C : Nat)
    (c0 c1 : BitVec 32) (t1 : Fin k4_t1_loop.trips) :
    iprop(((tabM).view.loc thr ↦{fullShare} tb) ∗ ((accM).view.loc thr ↦{fullShare} edgeAcc tb s t eh z (4 * (512 * C)))
        ∗ ((sb0M).view.loc thr ↦{fullShare} chunkBuf s eh C) ∗ ((db0M).view.loc thr ↦{fullShare} chunkBuf t eh C)
        ∗ ((((tabM).view.loc thr ↦{fullShare} tb) ∗ ((accM).view.loc thr ↦{fullShare} edgeAcc tb s t eh z (4 * (512 * (C + 1))))
            ∗ ((sb0M).view.loc thr ↦{fullShare} chunkBuf s eh C) ∗ ((db0M).view.loc thr ↦{fullShare} chunkBuf t eh C))
          -∗ wp frame (wpE (defs₀ (F := F)) 𝒱₀ thr none) Set.univ (kk ⟨⟩) Q))
      ⊢ wp frame (wpE (defs₀ (F := F)) 𝒱₀ thr none) Set.univ
          (Scf.Loop.for k4_t2_loop k4_t2_ok ⟨⟩ (k4_t2_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2 c0 c1 t1) >>= kk) Q := by
  have hloop := Scf.wp_for_bind frame (wpE (defs₀ (F := F)) 𝒱₀ thr none) Set.univ k4_t2_loop.lb k4_t2_loop.ub k4_t2_loop.st k4_t2_ok (⟨⟩ : Unit)
    (k4_t2_body L gW (Memref.isWhole_whole _) sW (Memref.isWhole_whole _) dW (Memref.isWhole_whole _) zW (Memref.isWhole_whole _)
      oW (Memref.isWhole_whole _) tabM (Memref.isWhole_whole _) accM (Memref.isWhole_whole _) sb0M (Memref.isWhole_whole _)
      db0M (Memref.isWhole_whole _) sb1M (Memref.isWhole_whole _) db1M (Memref.isWhole_whole _)
      cc4_scratch6 cc4_scratch7 cc4_scratch8 cc4_scratch9 cc4_scoped0 cc4_scoped1 cc4_scoped2 c0 c1 t1)
    (innerInv0 d L tb s t z eh C) (fun k a => inner0_region d L tb s t z hs ht eh C c0 c1 t1 k a) (kk := kk) (Q := Q)
  iintro ⟨Htab, Hacc, Hsb, Hdb, Hk⟩
  iapply hloop $$ [Htab Hacc Hsb Hdb] [Hk]
  · unfold innerInv0
    rw [show 4 * (512 * C + 4 * 0) = 4 * (512 * C) by ring]
    isplitl [Htab]; · iexact Htab
    isplitl [Hacc]; · iexact Hacc
    isplitl [Hsb]; · iexact Hsb
    iexact Hdb
  · iintro %a HI
    iapply Hk
    have hidx : 4 * (512 * C + 4 * Scf.trips k4_t2_loop.lb k4_t2_loop.ub k4_t2_loop.st) = 4 * (512 * (C + 1)) := by
      rw [show Scf.trips k4_t2_loop.lb k4_t2_loop.ub k4_t2_loop.st = 128 from k4_t2_trips]; ring
    unfold innerInv0
    rw [hidx]
    iexact HI

/-- The second inner loop, whole: the same over the second pair of buffers. -/
theorem compute1 {α : Type} {Q : α → sProp 𝕄} (kk : Unit → Prog (TpuEff nD τ sig (Elt F) Λ₀ (thr).2) α)
    (tb : Vec F S40064 .f32) (s t : IVec S2x1x163840 32) (z : Vec F S40064 .f32) (hs : EdgePre s) (ht : EdgePre t) (eh : Fin 2) (C : Nat) :
    iprop(((tabM).view.loc thr ↦{fullShare} tb) ∗ ((accM).view.loc thr ↦{fullShare} edgeAcc tb s t eh z (4 * (512 * C)))
        ∗ ((sb1M).view.loc thr ↦{fullShare} chunkBuf s eh C) ∗ ((db1M).view.loc thr ↦{fullShare} chunkBuf t eh C)
        ∗ ((((tabM).view.loc thr ↦{fullShare} tb) ∗ ((accM).view.loc thr ↦{fullShare} edgeAcc tb s t eh z (4 * (512 * (C + 1))))
            ∗ ((sb1M).view.loc thr ↦{fullShare} chunkBuf s eh C) ∗ ((db1M).view.loc thr ↦{fullShare} chunkBuf t eh C))
          -∗ wp frame (wpE (defs₀ (F := F)) 𝒱₀ thr none) Set.univ (kk ⟨⟩) Q))
      ⊢ wp frame (wpE (defs₀ (F := F)) 𝒱₀ thr none) Set.univ
          (Scf.Loop.for k4_t3_loop k4_t3_ok ⟨⟩ (k4_t3_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2) >>= kk) Q := by
  have hloop := Scf.wp_for_bind frame (wpE (defs₀ (F := F)) 𝒱₀ thr none) Set.univ k4_t3_loop.lb k4_t3_loop.ub k4_t3_loop.st k4_t3_ok (⟨⟩ : Unit)
    (k4_t3_body L gW (Memref.isWhole_whole _) sW (Memref.isWhole_whole _) dW (Memref.isWhole_whole _) zW (Memref.isWhole_whole _)
      oW (Memref.isWhole_whole _) tabM (Memref.isWhole_whole _) accM (Memref.isWhole_whole _) sb0M (Memref.isWhole_whole _)
      db0M (Memref.isWhole_whole _) sb1M (Memref.isWhole_whole _) db1M (Memref.isWhole_whole _)
      cc4_scratch6 cc4_scratch7 cc4_scratch8 cc4_scratch9 cc4_scoped0 cc4_scoped1 cc4_scoped2)
    (innerInv1 d L tb s t z eh C) (fun k a => inner1_region d L tb s t z hs ht eh C k a) (kk := kk) (Q := Q)
  iintro ⟨Htab, Hacc, Hsb, Hdb, Hk⟩
  iapply hloop $$ [Htab Hacc Hsb Hdb] [Hk]
  · unfold innerInv1
    rw [show 4 * (512 * C + 4 * 0) = 4 * (512 * C) by ring]
    isplitl [Htab]; · iexact Htab
    isplitl [Hacc]; · iexact Hacc
    isplitl [Hsb]; · iexact Hsb
    iexact Hdb
  · iintro %a HI
    iapply Hk
    have hidx : 4 * (512 * C + 4 * Scf.trips k4_t3_loop.lb k4_t3_loop.ub k4_t3_loop.st) = 4 * (512 * (C + 1)) := by
      rw [show Scf.trips k4_t3_loop.lb k4_t3_loop.ub k4_t3_loop.st = 128 from k4_t3_trips]; ring
    unfold innerInv1
    rw [hidx]
    iexact HI

end Tile

/-! ## What the copy-out leaves in the tile's row of the result -/

/-- The accumulator after all twenty pieces, written through the tile's row of the result, is the edge kernel's
    value there: the row's tile is (feature group L 1, edge half L 0), and 4 · 512 · 20 = 40960 steps are the whole fold. -/
theorem out_value (L : grid4.Coords) (g : Vec F S16x1x40064 .f32) (s t : IVec S2x1x163840 32) (z : Vec F S40064 .f32)
    (o : Vec F S16x2x1x40064 .f32) (i : S16x2x1x40064.Idx) (hi : i ∈ edgeRow L) :
    (oRowK L).view.write (Elt F) o (edgeAcc (tabRow g (L 1 : Fin 16)) s t (L 0 : Fin 2) z (4 * (512 * (2 * 10)))) Finset.univ i
      = edgeOut g s t z i := by
  rw [oRowK_write L o _ i hi]
  obtain ⟨-, h0, h1⟩ := Finset.mem_filter.mp hi
  have e0 : (i 0 : Fin 16) = (L 1 : Fin 16) := Fin.ext h0
  have e1 : (i 1 : Fin 2) = (L 0 : Fin 2) := Fin.ext h1
  show _ = edgeAcc (tabRow g (i 0)) s t (i 1) z 40960 (ix1 (i 3))
  rw [e0, e1]

end cc4_edge

end Cert.Kernel.Hand

end
-- ==== Proof.K.EdgeBody4.lean ====
/-
  The body of the edge kernel on one vector subcore, with its value.

  The tile at (edge half eh, feature group cg) copies row cg of the packed table and the zero array into its two
  large scratch arrays, then walks the twenty 8192-word chunks of half eh of the source and destination lists through
  two pairs of staging buffers, one pair being filled while the other is read: for each sixteen-word chunk n of the
  lists and each feature row k it gathers the table at source + k · 10016 and adds the gathered lanes into the
  accumulator at destination + k · 10016. Sixteen such steps make one trip of the inner loop, 128 trips one staging
  buffer, two staging buffers one trip of the outer loop, ten trips the whole half list: 40960 steps in the order
  p = 4 n + k, which is the order of the fold `edgeAcc`. The accumulator is then copied to the tile's row of the result.

  Every word of the two lists is at most 10000, so every index the tile forms is below 40064.
-/
import proofs.«219763_g10557029614292_week1_w2_488_21_alg».proof.Proof.K.Base
import proofs.«219763_g10557029614292_week1_w2_488_21_alg».proof.Proof.K.Vals
import proofs.«219763_g10557029614292_week1_w2_488_21_alg».proof.Proof.K.EdgeDefs4
import proofs.«219763_g10557029614292_week1_w2_488_21_alg».proof.Proof.K.EdgeAux4
import proofs.«219763_g10557029614292_week1_w2_488_21_alg».proof.Proof.K.EdgeLoops4

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

namespace cc4_edge

variable {F : FTy → Type}

local notation "𝕄" => MT nD τ sig (HIx 3) (Elt F) ℕ UU ℕ

variable [FloatOps F]

local notation "gW" => (Memref.whole Cert.Kernel.main_v37_scv : Memref Cert.Kernel.sig Kind.scVector Space.hbm Cert.Kernel.S16x1x40064 EltTy.f32)
local notation "sW" => (Memref.whole Cert.Kernel.main_v6_scv : Memref Cert.Kernel.sig Kind.scVector Space.hbm Cert.Kernel.S2x1x163840 EltTy.i32)
local notation "dW" => (Memref.whole Cert.Kernel.main_v9_scv : Memref Cert.Kernel.sig Kind.scVector Space.hbm Cert.Kernel.S2x1x163840 EltTy.i32)
local notation "zW" => (Memref.whole Cert.Kernel.main_v13_scv : Memref Cert.Kernel.sig Kind.scVector Space.hbm Cert.Kernel.S40064 EltTy.f32)
local notation "oW" => (Memref.whole Cert.Kernel.main_v38_scv : Memref Cert.Kernel.sig Kind.scVector Space.hbm Cert.Kernel.S16x2x1x40064 EltTy.f32)
local notation "tabM" => (Memref.whole Cert.Kernel.cc4_scratch0 : Memref Cert.Kernel.sig Kind.scVector Space.vmem Cert.Kernel.S40064 EltTy.f32)
local notation "accM" => (Memref.whole Cert.Kernel.cc4_scratch1 : Memref Cert.Kernel.sig Kind.scVector Space.vmem Cert.Kernel.S40064 EltTy.f32)
local notation "sb0M" => (Memref.whole Cert.Kernel.cc4_scratch2 : Memref Cert.Kernel.sig Kind.scVector Space.vmem Cert.Kernel.S8192 EltTy.i32)
local notation "db0M" => (Memref.whole Cert.Kernel.cc4_scratch3 : Memref Cert.Kernel.sig Kind.scVector Space.vmem Cert.Kernel.S8192 EltTy.i32)
local notation "sb1M" => (Memref.whole Cert.Kernel.cc4_scratch4 : Memref Cert.Kernel.sig Kind.scVector Space.vmem Cert.Kernel.S8192 EltTy.i32)
local notation "db1M" => (Memref.whole Cert.Kernel.cc4_scratch5 : Memref Cert.Kernel.sig Kind.scVector Space.vmem Cert.Kernel.S8192 EltTy.i32)

/-- The counters' copy in the ghost state. -/
abbrev EC : UEmb Counters 𝕄 := countersEmb

omit [FloatOps F] in
/-- A transfer in flight delivers, beside what it delivers, anything kept aside for its landing. -/
theorem Flight_frame (c : Thread nD τ) {sm : SemLoc sig} {ι : HIx 3} {N : ℕ} {D P : sProp 𝕄} :
    iprop(Transfers.Flight (EC (F := F)) c sm ι N D ∗ P) ⊢ Transfers.Flight (EC (F := F)) c sm ι N iprop(D ∗ P) := by
  unfold Transfers.Flight
  iintro ⟨⟨⟨%R, HR, %hcap, %hpeek⟩, Hcred⟩, HP⟩
  isplitl [HR HP]
  · iexists iprop(R ∗ P)
    isplitl [HR HP]; · isplitl [HR] <;> iassumption
    isplit
    · ipureintro
      intro K
      iintro ⟨⟨HR, HP⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HP⟩, HK⟩
      iapply (hpeek K)
      isplitl [HR]; · iexact HR
      iintro HR
      iapply HK
      isplitl [HR] <;> iassumption
  · iexact Hcred

omit [FloatOps F] in
theorem pts_of_eq {ℓ : Loc nD τ sig} {S : Finset (Idx ℓ)} {q : PosShare TreeShare} {f g : Buf (Elt F) ℓ} (h : f = g) :
    (ℓ ↦[S]{q} f : sProp 𝕄) ⊢ ℓ ↦[S]{q} g := by rw [h]

section Tile
variable (d : Dev nD) (L : grid4.Coords)

local notation "thr" => (V d (cV L) (jV L))

/-- The start of a local copy out of an array held on any set of elements that includes the source's, into a buffer
    held on any set of elements that includes the destination's, on a semaphore at zero: the copy in flight delivers
    the buffer rewritten and the array as it was held. -/
theorem wp_issue {α : Type} {Q : α → sProp 𝕄} {sp sp' : Space} {s₀ : Shape} {e₀ : EltTy}
    {src : Memref sig (thr).2.kind sp s₀ e₀} {dst : Memref sig (thr).2.kind sp' s₀ e₀} {sem : DmaSem sig}
    {hsrc : src.view.WordExact} {hdst : dst.view.WordExact} {hsem : DmaTarget.Typed (nD := nD) sp (SemLoc.dma sem) (.here dst)}
    {k : PUnit → Prog (TpuEff nD τ sig (Elt F) Λ₀ (thr).2) α} {q : PosShare TreeShare}
    {S : Finset (Idx (src.view.loc thr))} {fs : Buf (Elt F) (src.view.loc thr)}
    {Sd : Finset (Idx (dst.view.loc thr))} {fd : Buf (Elt F) (dst.view.loc thr)}
    (N : ℕ) (hN : dst.view.amount (SemLoc.dma sem) = N) (hN0 : 0 < N) (hS : src.view.set ⊆ S) (hSd : dst.view.set ⊆ Sd) :
    iprop((src.view.loc thr ↦[S]{q} fs) ∗ (dst.view.loc thr ↦[Sd]{fullShare} fd) ∗ semVal (thr, SemLoc.dma sem) 0)
      ⊢ iprop((Transfers.Flight (EC (F := F)) thr (SemLoc.dma sem) none N
                iprop((dst.view.loc thr ↦[Sd]{fullShare} (dst.view.write (Elt F) fd (ReadAs.same.apply (src.view.read (Elt F) fs)) Finset.univ))
                      ∗ (src.view.loc thr ↦[S]{q} fs))
              -∗ wp frame (wpE (defs₀ (F := F)) 𝒱₀ thr none) Set.univ (k ⟨⟩) Q)
          -∗ wp frame (wpE (defs₀ (F := F)) 𝒱₀ thr none) Set.univ (.op (.enqueueDmaAs src (.here dst) .same (SemLoc.dma sem) hsrc hdst hsem) k) Q) := by
  iintro ⟨Hs, Hd, Hv⟩ Hk
  ihave Hs' := (pointsTo_split_subset hS).1 $$ Hs
  icases Hs' with ⟨Hs1, Hs2⟩
  iapply (Transfers.wp_dmaLocal (EC (F := F)) 𝒱₀ thr none (none : HIx 3) N hN hN0 hSd) $$ [Hs1 Hd Hv]
  · isplitl [Hs1]; · iexact Hs1
    isplitl [Hd] <;> iassumption
  iintro HF
  iapply Hk
  iapply (Transfers.Flight_mono (EC (F := F)) thr ?_)
  rotate_left
  · iapply (Flight_frame thr)
    isplitl [HF]; · iexact HF
    iexact Hs2
  · iintro ⟨⟨Hd, Hs1⟩, Hs2⟩
    isplitl [Hd]; · iexact Hd
    iapply (pointsTo_split_subset hS).2
    isplitl [Hs1] <;> iassumption

/-- The start of the copy of chunk C of half eh of a list into a staging buffer: in flight it delivers the buffer at
    that chunk and the list as it was held. -/
theorem wp_issue_s0 {α : Type} {Q : α → sProp 𝕄} {sem : DmaSem sig} {off : Fin 3 → Nat} {inb : ∀ i, off i + S1x1x8192.size i ≤ S2x1x163840.size i}
    {hsrc : (((sW).slice (Rect.unit (s := S2x1x163840) off S1x1x8192.size inb) (fun _ => rfl)).squeeze S8192 squeezes_S1x1x8192_S8192).view.WordExact}
    {hdst : (sb0M).view.WordExact}
    {hsem : DmaTarget.Typed (nD := nD) Space.hbm (SemLoc.dma sem) (DmaTarget.here (sb0M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((sLoc d ↦{q} a) ∗ ((sb0M).view.loc thr ↦{fullShare} fd) ∗ semVal (thr, SemLoc.dma sem) 0)
      ⊢ iprop((Transfers.Flight (EC (F := F)) thr (SemLoc.dma sem) none (sb0M).view.dmaCredit
                iprop(((sb0M).view.loc thr ↦{fullShare} chunkBuf a eh C) ∗ (sLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((sW).slice (Rect.unit (s := S2x1x163840) off S1x1x8192.size inb) (fun _ => rfl)).squeeze S8192 squeezes_S1x1x8192_S8192)
                (.here (sb0M)) .same (SemLoc.dma sem) hsrc hdst hsem) k) Q) := by
  iintro ⟨Hs, Hd, Hv⟩ Hk
  iapply (wp_issue d L (src := (((sW).slice (Rect.unit (s := S2x1x163840) off S1x1x8192.size inb) (fun _ => rfl)).squeeze S8192 squeezes_S1x1x8192_S8192)) (dst := sb0M) (S := Finset.univ) (Sd := Finset.univ) (fs := a) (fd := fd) (q := q)
    (sb0M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v6 a off inb eh C hoff))) $$ Hd
  · iexact Hs

/-- The start of the copy of chunk C of half eh of a list into a staging buffer: in flight it delivers the buffer at
    that chunk and the list as it was held. -/
theorem wp_issue_d0 {α : Type} {Q : α → sProp 𝕄} {sem : DmaSem sig} {off : Fin 3 → Nat} {inb : ∀ i, off i + S1x1x8192.size i ≤ S2x1x163840.size i}
    {hsrc : (((dW).slice (Rect.unit (s := S2x1x163840) off S1x1x8192.size inb) (fun _ => rfl)).squeeze S8192 squeezes_S1x1x8192_S8192).view.WordExact}
    {hdst : (db0M).view.WordExact}
    {hsem : DmaTarget.Typed (nD := nD) Space.hbm (SemLoc.dma sem) (DmaTarget.here (db0M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((dLoc d ↦{q} a) ∗ ((db0M).view.loc thr ↦{fullShare} fd) ∗ semVal (thr, SemLoc.dma sem) 0)
      ⊢ iprop((Transfers.Flight (EC (F := F)) thr (SemLoc.dma sem) none (db0M).view.dmaCredit
                iprop(((db0M).view.loc thr ↦{fullShare} chunkBuf a eh C) ∗ (dLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((dW).slice (Rect.unit (s := S2x1x163840) off S1x1x8192.size inb) (fun _ => rfl)).squeeze S8192 squeezes_S1x1x8192_S8192)
                (.here (db0M)) .same (SemLoc.dma sem) hsrc hdst hsem) k) Q) := by
  iintro ⟨Hs, Hd, Hv⟩ Hk
  iapply (wp_issue d L (src := (((dW).slice (Rect.unit (s := S2x1x163840) off S1x1x8192.size inb) (fun _ => rfl)).squeeze S8192 squeezes_S1x1x8192_S8192)) (dst := db0M) (S := Finset.univ) (Sd := Finset.univ) (fs := a) (fd := fd) (q := q)
    (db0M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v9 a off inb eh C hoff))) $$ Hd
  · iexact Hs

/-- The start of the copy of chunk C of half eh of a list into a staging buffer: in flight it delivers the buffer at
    that chunk and the list as it was held. -/
theorem wp_issue_s1 {α : Type} {Q : α → sProp 𝕄} {sem : DmaSem sig} {off : Fin 3 → Nat} {inb : ∀ i, off i + S1x1x8192.size i ≤ S2x1x163840.size i}
    {hsrc : (((sW).slice (Rect.unit (s := S2x1x163840) off S1x1x8192.size inb) (fun _ => rfl)).squeeze S8192 squeezes_S1x1x8192_S8192).view.WordExact}
    {hdst : (sb1M).view.WordExact}
    {hsem : DmaTarget.Typed (nD := nD) Space.hbm (SemLoc.dma sem) (DmaTarget.here (sb1M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((sLoc d ↦{q} a) ∗ ((sb1M).view.loc thr ↦{fullShare} fd) ∗ semVal (thr, SemLoc.dma sem) 0)
      ⊢ iprop((Transfers.Flight (EC (F := F)) thr (SemLoc.dma sem) none (sb1M).view.dmaCredit
                iprop(((sb1M).view.loc thr ↦{fullShare} chunkBuf a eh C) ∗ (sLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((sW).slice (Rect.unit (s := S2x1x163840) off S1x1x8192.size inb) (fun _ => rfl)).squeeze S8192 squeezes_S1x1x8192_S8192)
                (.here (sb1M)) .same (SemLoc.dma sem) hsrc hdst hsem) k) Q) := by
  iintro ⟨Hs, Hd, Hv⟩ Hk
  iapply (wp_issue d L (src := (((sW).slice (Rect.unit (s := S2x1x163840) off S1x1x8192.size inb) (fun _ => rfl)).squeeze S8192 squeezes_S1x1x8192_S8192)) (dst := sb1M) (S := Finset.univ) (Sd := Finset.univ) (fs := a) (fd := fd) (q := q)
    (sb1M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v6 a off inb eh C hoff))) $$ Hd
  · iexact Hs

/-- The start of the copy of chunk C of half eh of a list into a staging buffer: in flight it delivers the buffer at
    that chunk and the list as it was held. -/
theorem wp_issue_d1 {α : Type} {Q : α → sProp 𝕄} {sem : DmaSem sig} {off : Fin 3 → Nat} {inb : ∀ i, off i + S1x1x8192.size i ≤ S2x1x163840.size i}
    {hsrc : (((dW).slice (Rect.unit (s := S2x1x163840) off S1x1x8192.size inb) (fun _ => rfl)).squeeze S8192 squeezes_S1x1x8192_S8192).view.WordExact}
    {hdst : (db1M).view.WordExact}
    {hsem : DmaTarget.Typed (nD := nD) Space.hbm (SemLoc.dma sem) (DmaTarget.here (db1M) : DmaTarget nD τ sig (thr).2 Space.vmem S8192 EltTy.i32)}
    {k : PUnit → Prog (TpuEff nD τ sig (Elt F) Λ₀ (thr).2) α} {q : PosShare TreeShare}
    (a : IVec S2x1x163840 32) (fd : IVec S8192 32) (eh : Fin 2) (C : Nat) (hoff : off = ![eh.val, 0, 8192 * C]) :
    iprop((dLoc d ↦{q} a) ∗ ((db1M).view.loc thr ↦{fullShare} fd) ∗ semVal (thr, SemLoc.dma sem) 0)
      ⊢ iprop((Transfers.Flight (EC (F := F)) thr (SemLoc.dma sem) none (db1M).view.dmaCredit
                iprop(((db1M).view.loc thr ↦{fullShare} chunkBuf a eh C) ∗ (dLoc d ↦{q} a))
              -∗ wp frame (wpE (defs₀ (F := F)) 𝒱₀ thr none) Set.univ (k ⟨⟩) Q)
          -∗ wp frame (wpE (defs₀ (F := F)) 𝒱₀ thr none) Set.univ
              (.op (.enqueueDmaAs (((dW).slice (Rect.unit (s := S2x1x163840) off S1x1x8192.size inb) (fun _ => rfl)).squeeze S8192 squeezes_S1x1x8192_S8192)
                (.here (db1M)) .same (SemLoc.dma sem) hsrc hdst hsem) k) Q) := by
  iintro ⟨Hs, Hd, Hv⟩ Hk
  iapply (wp_issue d L (src := (((dW).slice (Rect.unit (s := S2x1x163840) off S1x1x8192.size inb) (fun _ => rfl)).squeeze S8192 squeezes_S1x1x8192_S8192)) (dst := db1M) (S := Finset.univ) (Sd := Finset.univ) (fs := a) (fd := fd) (q := q)
    (db1M).view.dmaCredit rfl (View.dmaCredit_pos _ (by decide)) (Finset.subset_univ _) (Finset.subset_univ _)) $$ [Hs Hd Hv]
  · isplitl [Hs]; · iexact Hs
    isplitl [Hd] <;> iassumption
  iintro HF
  iapply Hk
  iapply (Transfers.Flight_mono (EC (F := F)) thr ?_) $$ HF
  iintro ⟨Hd, Hs⟩
  isplitl [Hd]
  · iapply (pts_of_eq ((View.write_whole_univ _ _ _).trans (read_chunk_v9 a off inb eh C hoff))) $$ Hd
  · iexact Hs

/-- The edge half of the tile, as an index of the lists. -/
abbrev ehL : Fin 2 := (L 0 : Fin 2)

/-- Before outer trip n: the table; the accumulator after the steps of chunks 0 … 2 n − 1; the copies of chunk
    min (2 n) 19 of both lists into staging buffers 0 in flight, each to hand back its buffer at that chunk and the
    list's share it was started from; staging buffers 1 at any contents, their semaphores at zero; the other share of
    both lists; what the tile owes. -/
def outerInv (q₀ q₁ : PosShare TreeShare) (tb : Vec F S40064 .f32) (s t : IVec S2x1x163840 32) (z : Vec F S40064 .f32)
    (O : CellTallies nD τ sig (HIx 3)) (W : Waits sig (HIx 3)) (n : Nat) (_ : Unit) : sProp 𝕄 :=
  iprop(Transfers.MayWaits thr (none : HIx 3) O
    ∗ ((tabM).view.loc thr ↦{fullShare} tb)
    ∗ ((accM).view.loc thr ↦{fullShare} edgeAcc tb s t (ehL L) z (4 * (512 * (2 * n))))
    ∗ Transfers.Flight (EC (F := F)) thr (SemLoc.dma cc4_scratch6.sem) none (sb0M).view.dmaCredit
        iprop(((sb0M).view.loc thr ↦{fullShare} chunkBuf s (ehL L) (min (2 * n) 19)) ∗ (sLoc d ↦{q₀} s))
    ∗ Transfers.Flight (EC (F := F)) thr (SemLoc.dma cc4_scratch7.sem) none (db0M).view.dmaCredit
        iprop(((db0M).view.loc thr ↦{fullShare} chunkBuf t (ehL L) (min (2 * n) 19)) ∗ (dLoc d ↦{q₀} t))
    ∗ (∃ f, (sb1M).view.loc thr ↦{fullShare} f) ∗ (∃ f, (db1M).view.loc thr ↦{fullShare} f)
    ∗ semVal (thr, SemLoc.dma cc4_scratch8.sem) 0 ∗ semVal (thr, SemLoc.dma cc4_scratch9.sem) 0
    ∗ (sLoc d ↦{q₁} s) ∗ (dLoc d ↦{q₁} t)
    ∗ ∃ W', ⌜∀ p ∈ W', p ∈ W ∨ p.2 = none⌝ ∗ owes thr O W')

omit [FloatOps F] in
theorem off4_1 (t1 : Fin k4_t1_loop.trips) (h : t1.val < 10) : k4_off4 L t1 1#32 = ![(ehL L).val, 0, 8192 * (2 * t1.val + 1)] := by
  refine (k4_off4_eq L t1 ⟨0, by decide⟩).trans ?_
  have e : min (2 * t1.val + (⟨0, by decide⟩ : Fin 2).val + 1) 19 = 2 * t1.val + 1 := by simp only []; omega
  rw [e]

omit [FloatOps F] in
theorem off4_2 (t1 : Fin k4_t1_loop.trips) : k4_off4 L t1 2#32 = ![(ehL L).val, 0, 8192 * (min (2 * (t1.val + 1)) 19)] := by
  refine (k4_off4_eq L t1 ⟨1, by decide⟩).trans ?_
  have e : min (2 * t1.val + (⟨1, by decide⟩ : Fin 2).val + 1) 19 = min (2 * (t1.val + 1)) 19 := by simp only []; omega
  rw [e]

set_option maxHeartbeats 4000000 in
theorem outer_region (q₀ q₁ : PosShare TreeShare) (tb : Vec F S40064 .f32) (s t : IVec S2x1x163840 32) (z : Vec F S40064 .f32)
    (hs : EdgePre s) (ht : EdgePre t) (O : CellTallies nD τ sig (HIx 3)) (W : Waits sig (HIx 3))
    (t1 : Fin k4_t1_loop.trips) (a : Unit) :
    outerInv d L q₀ q₁ tb s t z O W t1.val a
      ⊢ wp frame (wpE (defs₀ (F := F)) 𝒱₀ thr none) Set.univ
          (k4_t1_body L gW (Memref.isWhole_whole _) sW (Memref.isWhole_whole _) dW (Memref.isWhole_whole _) zW (Memref.isWhole_whole _)
            oW (Memref.isWhole_whole _) tabM (Memref.isWhole_whole _) accM (Memref.isWhole_whole _) sb0M (Memref.isWhole_whole _)
            db0M (Memref.isWhole_whole _) sb1M (Memref.isWhole_whole _) db1M (Memref.isWhole_whole _)
            cc4_scratch6 cc4_scratch7 cc4_scratch8 cc4_scratch9 cc4_scoped0 cc4_scoped1 cc4_scoped2 t1 a)
          (outerInv d L q₀ q₁ tb s t z O W (t1.val + 1)) := by
  have ht10 : t1.val < 10 := lt_of_lt_of_le t1.isLt k4_t1_abs.2.1
  unfold outerInv k4_t1_body
  rw [k4_part5_eq_skeleton]; unfold k4_part5_skel
  simp only [Prog.bind_lift, Prog.bind_op, Prog.bind_ret, Prog.pure_eq_ret, Prog.bind_assoc]
  iintro ⟨#Hmw, Htab, Hacc, HF0, HF1, ⟨%f4, Hsb1⟩, ⟨%f5, Hdb1⟩, Hs2, Hs3, HsR, HdR, %W', %hW', HO⟩
  -- buffers 0 have landed: chunk 2 t of both lists
  iapply (Transfers.wp_waitLocalO (EC (F := F)) 𝒱₀ thr none (none : HIx 3) rfl) $$ [HF0 HO]
  · isplitl [HF0]; · iexact HF0
    isplitl [HO]; · iexact HO
    iapply (Transfers.MayWaits.elim (SemLoc.dma cc4_scratch6.sem)); iexact Hmw
  iintro ⟨⟨Hsb0, HsL⟩, Hs0, HO⟩
  iapply (Transfers.wp_waitLocalO (EC (F := F)) 𝒱₀ thr none (none : HIx 3) rfl) $$ [HF1 HO]
  · isplitl [HF1]; · iexact HF1
    isplitl [HO]; · iexact HO
    iapply (Transfers.MayWaits.elim (SemLoc.dma cc4_scratch7.sem)); iexact Hmw
  iintro ⟨⟨Hdb0, HdL⟩, Hs1, HO⟩
  -- chunk 2 t + 1 starts into buffers 1
  iapply (wp_issue_s1 d L s f4 (ehL L) (2 * t1.val + 1) (off4_1 L t1 ht10)) $$ [HsR Hsb1 Hs2]
  · isplitl [HsR]; · iexact HsR
    isplitl [Hsb1] <;> iassumption
  iintro HF2
  iapply (wp_issue_d1 d L t f5 (ehL L) (2 * t1.val + 1) (off4_1 L t1 ht10)) $$ [HdR Hdb1 Hs3]
  · isplitl [HdR]; · iexact HdR
    isplitl [Hdb1] <;> iassumption
  iintro HF3
  -- the steps of chunk 2 t off buffers 0
  have e0 : min (2 * t1.val) 19 = 2 * t1.val := by omega
  rw [e0]
  iapply (compute0 d L _ tb s t z hs ht (ehL L) (2 * t1.val) _ _ t1)
  isplitl [Htab]; · iexact Htab
  isplitl [Hacc]; · iexact Hacc
  isplitl [Hsb0]; · iexact Hsb0
  isplitl [Hdb0]; · iexact Hdb0
  iintro ⟨Htab, Hacc, Hsb0, Hdb0⟩
  -- buffers 1 have landed: chunk 2 t + 1
  iapply (Transfers.wp_waitLocalO (EC (F := F)) 𝒱₀ thr none (none : HIx 3) rfl) $$ [HF2 HO]
  · isplitl [HF2]; · iexact HF2
    isplitl [HO]; · iexact HO
    iapply (Transfers.MayWaits.elim (SemLoc.dma cc4_scratch8.sem)); iexact Hmw
  iintro ⟨⟨Hsb1, HsR⟩, Hs2, HO⟩
  iapply (Transfers.wp_waitLocalO (EC (F := F)) 𝒱₀ thr none (none : HIx 3) rfl) $$ [HF3 HO]
  · isplitl [HF3]; · iexact HF3
    isplitl [HO]; · iexact HO
    iapply (Transfers.MayWaits.elim (SemLoc.dma cc4_scratch9.sem)); iexact Hmw
  iintro ⟨⟨Hdb1, HdR⟩, Hs3, HO⟩
  -- chunk min (2 t + 2) 19 starts into buffers 0
  iapply (wp_issue_s0 d L s _ (ehL L) (min (2 * (t1.val + 1)) 19) (off4_2 L t1)) $$ [HsL Hsb0 Hs0]
  · isplitl [HsL]; · iexact HsL
    isplitl [Hsb0] <;> iassumption
  iintro HF0
  iapply (wp_issue_d0 d L t _ (ehL L) (min (2 * (t1.val + 1)) 19) (off4_2 L t1)) $$ [HdL Hdb0 Hs1]
  · isplitl [HdL]; · iexact HdL
    isplitl [Hdb0] <;> iassumption
  iintro HF1
  -- the steps of chunk 2 t + 1 off buffers 1
  iapply (compute1 d L _ tb s t z hs ht (ehL L) (2 * t1.val + 1))
  isplitl [Htab]; · iexact Htab
  isplitl [Hacc]; · iexact Hacc
  isplitl [Hsb1]; · iexact Hsb1
  isplitl [Hdb1]; · iexact Hdb1
  iintro ⟨Htab, Hacc, Hsb1, Hdb1⟩
  rw [wp_ret]; imodintro
  isplitr; · iexact Hmw
  isplitl [Htab]; · iexact Htab
  isplitl [Hacc]
  · iapply (pts_of_eq (congrArg (edgeAcc tb s t (ehL L) z) (show 4 * (512 * (2 * t1.val + 1 + 1)) = 4 * (512 * (2 * (t1.val + 1))) by omega))) $$ Hacc
  isplitl [HF0]; · iexact HF0
  isplitl [HF1]; · iexact HF1
  isplitl [Hsb1]; · iexists _; iexact Hsb1
  isplitl [Hdb1]; · iexists _; iexact Hdb1
  isplitl [Hs2]; · iexact Hs2
  isplitl [Hs3]; · iexact Hs3
  isplitl [HsR]; · iexact HsR
  isplitl [HdR]; · iexact HdR
  iexists (insert (SemLoc.dma cc4_scratch9.sem, (none : HIx 3)) (insert (SemLoc.dma cc4_scratch8.sem, (none : HIx 3))
    (insert (SemLoc.dma cc4_scratch7.sem, (none : HIx 3)) (insert (SemLoc.dma cc4_scratch6.sem, (none : HIx 3)) W')))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

/-- The tile's feature group, as an index of the table. -/
abbrev cgL : Fin 16 := (L 1 : Fin 16)

/-- What the tile holds of the device's arrays: a read share of the table, of the two lists and of the zero array,
    each whole, and its own row of the result. -/
abbrev arrays (q : PosShare TreeShare) (g : Vec F S16x1x40064 .f32) (s t : IVec S2x1x163840 32) (z : Vec F S40064 .f32)
    (o : Vec F S16x2x1x40064 .f32) : sProp 𝕄 :=
  iprop((gLoc d ↦{q} g) ∗ (sLoc d ↦{q} s) ∗ (dLoc d ↦{q} t) ∗ (zLoc d ↦{q} z) ∗ (oLoc d ↦[edgeRow L]{fullShare} o))

omit [FloatOps F] in
theorem off2_0 : k4_off2 L = ![(ehL L).val, 0, 8192 * 0] := k4_off2_eq L

set_option maxHeartbeats 4000000 in
set_option maxRecDepth 8192 in
theorem edge_tile_body (hF : (K (F := F)).Facts) (q : PosShare TreeShare) (g : Vec F S16x1x40064 .f32) (s t : IVec S2x1x163840 32) (z : Vec F S40064 .f32)
    (o : Vec F S16x2x1x40064 .f32) (hs : EdgePre s) (ht : EdgePre t)
    (O : CellTallies nD τ sig (HIx 3)) (W : Waits sig (HIx 3)) (hO : ∀ g, O g none = 0) :
    iprop(levAts (K (F := F)).L (K (F := F)).lev ∗ arrays d L q g s t z o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_edge_kernel L (Memref.whole main_v37_scv) (Memref.isWhole_whole _) (Memref.whole main_v6_scv) (Memref.isWhole_whole _)
            (Memref.whole main_v9_scv) (Memref.isWhole_whole _) (Memref.whole main_v13_scv) (Memref.isWhole_whole _)
            (Memref.whole main_v38_scv) (Memref.isWhole_whole _) (Memref.whole cc4_scratch0) (Memref.isWhole_whole _)
            (Memref.whole cc4_scratch1) (Memref.isWhole_whole _) (Memref.whole cc4_scratch2) (Memref.isWhole_whole _)
            (Memref.whole cc4_scratch3) (Memref.isWhole_whole _) (Memref.whole cc4_scratch4) (Memref.isWhole_whole _)
            (Memref.whole cc4_scratch5) (Memref.isWhole_whole _) cc4_scratch6 cc4_scratch7 cc4_scratch8 cc4_scratch9 cc4_scoped0 cc4_scoped1 cc4_scoped2)
          fun _ => iprop(arrays d L q g s t z (edgeOut g s t z)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  simp only [cc4_edge_kernel_eq_skeleton]; unfold cc4_edge_kernel_skel
  rw [k4_part6_eq_skeleton]; unfold k4_part6_skel
  simp only [Prog.bind_lift, Prog.bind_op, Prog.bind_ret, Prog.pure_eq_ret, Prog.bind_assoc]
  rw [(K (F := F)).scopedBufs_V hF d (cV L) (jV L), SparseCore.Cfg.scopedSems0_V (Val := Elt F) d (cV L) (jV L), hRS, hRB]
  unfold arrays
  iintro ⟨#Hlv, ⟨Hg, Hs, Hd, Hz, Ho⟩, ⟨⟨%f0, Htab⟩, ⟨%f1, Hacc⟩, ⟨%f2, Hsb0⟩, ⟨%f3, Hdb0⟩, ⟨%f4, Hsb1⟩, ⟨%f5, Hdb1⟩, Hbufs⟩,
    ⟨Hs0, Hs1, Hs2, Hs3, Hc0, Hc1, Hc2, Hsems⟩, HO⟩
  ihave Hmw' := ((K (F := F)).mayWaits_none hO : (levAts (K (F := F)).L (K (F := F)).lev : sProp 𝕄) ⊢ Transfers.MayWaits thr (none : HIx 3) O) $$ Hlv
  icases Hmw' with #Hmw
  -- one share of each list per pair of staging buffers
  ihave Hs' := (pointsTo_share (PosShare.mem_left_op_right q)).1 $$ Hs
  icases Hs' with ⟨HsL, HsR⟩
  ihave Hd' := (pointsTo_share (PosShare.mem_left_op_right q)).1 $$ Hd
  icases Hd' with ⟨HdL, HdR⟩
  -- the tile's row of the table into its scratch
  iapply (wp_issue d L (src := (((gW).slice (Rect.unit (s := S16x1x40064) (k4_off1 L) S1x1x40064.size (k4_off1_inb L)) (fun _ => rfl)).squeeze S40064 squeezes_S1x1x40064_S40064)) (dst := tabM) (S := Finset.univ) (Sd := Finset.univ) (fs := g) (fd := f0) (q := q)
      (tabM).view.dmaCredit rfl (View.dmaCredit_pos _ (by decide)) (Finset.subset_univ _) (Finset.subset_univ _)) $$ [Hg Htab Hc0]
  · isplitl [Hg]; · iexact Hg
    isplitl [Htab] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc4_scoped0.sem)); iexact Hmw
  iintro ⟨⟨Htab, Hg⟩, Hc0, HO⟩
  ihave Htab := (pts_of_eq ((View.write_whole_univ _ _ _).trans (read_tab_row g _ _ (cgL L) (k4_off1_eq L)))) $$ Htab
  -- the zero array into the accumulator
  iapply (wp_issue d L (src := zW) (dst := accM) (S := Finset.univ) (Sd := Finset.univ) (fs := z) (fd := f1) (q := q)
      (accM).view.dmaCredit rfl (View.dmaCredit_pos _ (by decide)) (Finset.subset_univ _) (Finset.subset_univ _)) $$ [Hz Hacc Hc1]
  · isplitl [Hz]; · iexact Hz
    isplitl [Hacc] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc4_scoped1.sem)); iexact Hmw
  iintro ⟨⟨Hacc, Hz⟩, Hc1, HO⟩
  ihave Hacc := (pts_of_eq (View.write_whole_univ _ _ _)) $$ Hacc
  -- chunk 0 of both lists starts into buffers 0
  iapply (wp_issue_s0 d L s f2 (ehL L) 0 (off2_0 L)) $$ [HsL Hsb0 Hs0]
  · isplitl [HsL]; · iexact HsL
    isplitl [Hsb0] <;> iassumption
  iintro HF0
  iapply (wp_issue_d0 d L t f3 (ehL L) 0 (off2_0 L)) $$ [HdL Hdb0 Hs1]
  · isplitl [HdL]; · iexact HdL
    isplitl [Hdb0] <;> iassumption
  iintro HF1
  -- the ten trips
  sl_for (outerInv d L q.left q.right (tabRow g (cgL L)) s t z O W) $$ [Htab Hacc HF0 HF1 Hsb1 Hdb1 Hs2 Hs3 HsR HdR HO]
  case region => intro k a; exact outer_region d L q.left q.right (tabRow g (cgL L)) s t z hs ht O W k a
  · unfold outerInv
    isplitr; · iexact Hmw
    isplitl [Htab]; · iexact Htab
    isplitl [Hacc]; · iexact Hacc
    isplitl [HF0]; · iexact HF0
    isplitl [HF1]; · iexact HF1
    isplitl [Hsb1]; · iexists _; iexact Hsb1
    isplitl [Hdb1]; · iexists _; iexact Hdb1
    isplitl [Hs2]; · iexact Hs2
    isplitl [Hs3]; · iexact Hs3
    isplitl [HsR]; · iexact HsR
    isplitl [HdR]; · iexact HdR
    iexists (insert (SemLoc.dma cc4_scoped1.sem, (none : HIx 3)) (insert (SemLoc.dma cc4_scoped0.sem, (none : HIx 3)) W)); isplitr
    · ipureintro; intro p hp
      rcases Finset.mem_insert.mp hp with rfl | hp
      · exact .inr rfl
      rcases Finset.mem_insert.mp hp with rfl | hp
      · exact .inr rfl
      · exact .inl hp
    · iexact HO
  iintro %_ HI
  unfold outerInv
  have htr : Scf.trips k4_t1_loop.lb k4_t1_loop.ub k4_t1_loop.st = 10 := by decide
  rw [htr]
  icases HI with ⟨-, Htab, Hacc, HF0, HF1, ⟨%f4', Hsb1⟩, ⟨%f5', Hdb1⟩, Hs2, Hs3, HsR, HdR, %W', %hW', HO⟩
  -- the last copies into buffers 0 land
  iapply (Transfers.wp_waitLocalO (EC (F := F)) 𝒱₀ thr none (none : HIx 3) rfl) $$ [HF0 HO]
  · isplitl [HF0]; · iexact HF0
    isplitl [HO]; · iexact HO
    iapply (Transfers.MayWaits.elim (SemLoc.dma cc4_scratch6.sem)); iexact Hmw
  iintro ⟨⟨Hsb0, HsL⟩, Hs0, HO⟩
  iapply (Transfers.wp_waitLocalO (EC (F := F)) 𝒱₀ thr none (none : HIx 3) rfl) $$ [HF1 HO]
  · isplitl [HF1]; · iexact HF1
    isplitl [HO]; · iexact HO
    iapply (Transfers.MayWaits.elim (SemLoc.dma cc4_scratch7.sem)); iexact Hmw
  iintro ⟨⟨Hdb0, HdL⟩, Hs1, HO⟩
  -- the accumulator out to the tile's row of the result
  ihave Ho := (Entails.of_eq (congrArg (fun S => (oLoc d ↦[S]{fullShare} o : sProp 𝕄)) (oRowK_set L).symm)) $$ Ho
  iapply (wp_issue d L (src := accM) (dst := oRowK L) (S := Finset.univ) (Sd := (oRowK L).view.set) (fd := o) (q := fullShare)
      (oRowK L).view.dmaCredit rfl (View.dmaCredit_pos _ (by decide)) (Finset.subset_univ _) (subset_refl _)) $$ [Hacc Ho Hc2]
  · isplitl [Hacc]; · iexact Hacc
    isplitl [Ho] <;> iassumption
  iintro HF
  iapply (Transfers.wp_waitLocalO (EC (F := F)) 𝒱₀ thr none (none : HIx 3) rfl) $$ [HF HO]
  · isplitl [HF]; · iexact HF
    isplitl [HO]; · iexact HO
    iapply (Transfers.MayWaits.elim (SemLoc.dma cc4_scoped2.sem)); iexact Hmw
  iintro ⟨⟨Ho, Hacc⟩, Hc2, HO⟩
  have key : ((oRowK L).view.loc thr ↦[(oRowK L).view.set]{fullShare}
        (oRowK L).view.write (Elt F) o (ReadAs.same.apply ((accM).view.read (Elt F) (edgeAcc (tabRow g (cgL L)) s t (ehL L) z (4 * (512 * (2 * 10))))))
          Finset.univ : sProp 𝕄)
      ⊢ oLoc d ↦[edgeRow L]{fullShare} edgeOut g s t z := by
    have e1 : ReadAs.same.apply ((accM).view.read (Elt F) (edgeAcc (tabRow g (cgL L)) s t (ehL L) z (4 * (512 * (2 * 10)))))
        = edgeAcc (tabRow g (cgL L)) s t (ehL L) z (4 * (512 * (2 * 10))) :=
      (ReadAs.apply_same _).trans (View.read_whole _ _)
    rw [oRowK_set, e1]
    exact Entails.of_eq (pointsTo_congr fun i hi => out_value L g s t z o i hi)
  rw [wp_ret]; imodintro
  isplitl [Hg HsL HsR HdL HdR Hz Ho]
  · isplitl [Hg]; · iexact Hg
    isplitl [HsL HsR]
    · iapply (pointsTo_share (PosShare.mem_left_op_right q)).2
      isplitl [HsL] <;> iassumption
    isplitl [HdL HdR]
    · iapply (pointsTo_share (PosShare.mem_left_op_right q)).2
      isplitl [HdL] <;> iassumption
    isplitl [Hz]; · iexact Hz
    iapply key $$ Ho
  isplitl [Htab Hacc Hsb0 Hdb0 Hsb1 Hdb1 Hbufs]
  · isplitl [Htab]; · iexists _; iexact Htab
    isplitl [Hacc]; · iexists _; iexact Hacc
    isplitl [Hsb0]; · iexists _; iexact Hsb0
    isplitl [Hdb0]; · iexists _; iexact Hdb0
    isplitl [Hsb1]; · iexists _; iexact Hsb1
    isplitl [Hdb1]; · iexists _; iexact Hdb1
    iexact Hbufs
  isplitl [Hs0 Hs1 Hs2 Hs3 Hc0 Hc1 Hc2 Hsems]
  · isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    iexact Hsems
  iexists (insert (SemLoc.dma cc4_scoped2.sem, (none : HIx 3)) (insert (SemLoc.dma cc4_scratch7.sem, (none : HIx 3))
    (insert (SemLoc.dma cc4_scratch6.sem, (none : HIx 3)) W'))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

end Tile

end cc4_edge

end Cert.Kernel.Hand

end
-- ==== Proof.K.LaunchPay.lean ====
/-
  What the three SparseCore calls hand their SparseCores and tiles, and each tile's obligation from its body's proof.

  Every call's read-only operands go to each of the thirty-two tiles as a read share of the whole array (the share of
  tile (c, i) is the i-th token of the c-th token of the full share; the remainders stay with the TensorCore), its
  result array as the tile's own row at the full share: the rows are pairwise disjoint and cover the array. A
  SparseCore's share of a call is the separating conjunction of its sixteen tiles' shares, so that the split of a
  SparseCore's operands among its tiles is the identity.
-/
import proofs.«219763_g10557029614292_week1_w2_488_21_alg».proof.Proof.K.Chain
import proofs.«219763_g10557029614292_week1_w2_488_21_alg».proof.Proof.K.PreDef
import proofs.«219763_g10557029614292_week1_w2_488_21_alg».proof.Proof.K.DegBody
import proofs.«219763_g10557029614292_week1_w2_488_21_alg».proof.Proof.K.EdgeBody
import proofs.«219763_g10557029614292_week1_w2_488_21_alg».proof.Proof.K.EdgeBody4

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq launchContents held_sub_split held_congr)
open Idealize.ShloMosaic.Transfers (shareTok shareDrop pointsTo_toks pointsTo_toks_split pointsTo_toks_join)
open Idealize.ShloMosaic.Tactic

variable {F : FTy → Type}

local notation "𝕄" => MT nD τ sig (HIx 3) (Elt F) ℕ UU ℕ

/-! ## The thirty-two tiles: workers, read shares, rows -/

/-- The worker at SparseCore c, vector subcore i. -/
def wOf (c : Fin 2) (i : Fin 16) : Fin 32 := ⟨16 * c.val + i.val, by omega⟩

/-- The thirty-two workers are the pairs (SparseCore, vector subcore). -/
def wEquiv : Fin 2 × Fin 16 ≃ Fin 32 where
  toFun x := wOf x.1 x.2
  invFun w := (⟨w.val / 16, by omega⟩, ⟨w.val % 16, by omega⟩)
  left_inv x := by
    rcases x with ⟨⟨c, hc⟩, ⟨i, hi⟩⟩
    refine Prod.ext (Fin.ext ?_) (Fin.ext ?_) <;> simp only [wOf] <;> omega
  right_inv w := by
    refine Fin.ext ?_
    simp only [wOf]; omega

theorem bigSep_fin32 {M : Type} [URA M] (Φ : Fin 32 → sProp M) :
    bigSep Finset.univ Φ = bigSep Finset.univ fun c : Fin 2 => bigSep Finset.univ fun i : Fin 16 => Φ (wOf c i) := by
  rw [← bigSep_univ_prod (fun x : Fin 2 × Fin 16 => Φ (wOf x.1 x.2)), ← Finset.map_univ_equiv wEquiv, bigSep_map]
  rfl

/-- The read share of tile (c, i): the i-th token of the c-th token of the whole. -/
abbrev σ (c : Fin 2) (i : Fin 16) : PosShare TreeShare := shareTok (shareTok fullShare 2 c) 16 i

section Shares

variable {ℓ : Loc nD τ sig} (f : Buf (Elt F) ℓ)

/-- What of a read-only array stays with the TensorCore while the thirty-two tiles read it. -/
def Rem : sProp 𝕄 :=
  iprop((ℓ ↦{shareDrop fullShare 2} f) ∗ bigSep Finset.univ fun c : Fin 2 => ℓ ↦{shareDrop (shareTok fullShare 2 c) 16} f)

theorem toks_all : (bigSep Finset.univ fun c : Fin 2 => (ℓ ↦{shareTok fullShare 2 c} f : sProp 𝕄))
    ⊣⊢ iprop((bigSep Finset.univ fun c : Fin 2 => ℓ ↦{shareDrop (shareTok fullShare 2 c) 16} f)
        ∗ bigSep Finset.univ fun c : Fin 2 => bigSep Finset.univ fun i : Fin 16 => ℓ ↦{σ c i} f) := by
  rw [← bigSep_sep']
  exact ⟨bigSep_mono fun c _ => pointsTo_toks_split _ 16, bigSep_mono fun c _ => pointsTo_toks_join _ 16⟩

/-- A whole array is the remainder and the thirty-two tiles' read shares. -/
theorem shares32 : (ℓ ↦{fullShare} f : sProp 𝕄) ⊣⊢ iprop(Rem f ∗ bigSep Finset.univ fun c : Fin 2 => bigSep Finset.univ fun i : Fin 16 => ℓ ↦{σ c i} f) := by
  unfold Rem
  constructor
  · refine BIBase.Entails.trans (pointsTo_toks_split fullShare 2) ?_
    iintro ⟨Hd, Ht⟩
    ihave Ht' := (toks_all f).1 $$ Ht
    icases Ht' with ⟨Hd', Ht'⟩
    isplitl [Hd Hd']
    · isplitl [Hd] <;> iassumption
    · iexact Ht'
  · refine BIBase.Entails.trans ?_ (pointsTo_toks_join fullShare 2)
    iintro ⟨⟨Hd, Hd'⟩, Ht⟩
    isplitl [Hd]; · iexact Hd
    iapply ((toks_all f).2)
    isplitl [Hd'] <;> iassumption

end Shares

/-! ## The result rows -/

theorem degRowSet_eq' (w : Fin 32) : degRowSet w = (degRow w).set := by
  show ((View.whole (main_v18_scv : Ref sig .scVector)).slice (degRow w)).set = _
  rw [View.set_slice]; exact Finset.map_refl
theorem degRows_disjoint : ∀ w ∈ (Finset.univ : Finset (Fin 32)), ∀ w' ∈ (Finset.univ : Finset (Fin 32)), w ≠ w' → Disjoint (degRowSet w) (degRowSet w') :=
  fun i _ j _ h => by rw [degRowSet_eq', degRowSet_eq']; exact Rect.part_disjoint degHdiv h
theorem degRows_cover : (Finset.univ : Finset (Fin 32)).biUnion degRowSet = Finset.univ :=
  (Finset.biUnion_congr rfl fun i _ => degRowSet_eq' i).trans (Rect.biUnion_part degHdiv)

/-- The 32 × 10240 list is its thirty-two rows, one per tile. -/
theorem degA_rows (d : Dev nD) (q : PosShare TreeShare) (f : Buf (Elt F) (degALoc d)) :
    (degALoc d ↦{q} f : sProp 𝕄) = bigSep Finset.univ fun c : Fin 2 => bigSep Finset.univ fun i : Fin 16 => degALoc d ↦[degRowSet (wOf c i)]{q} f := by
  rw [← bigSep_fin32 (fun w => (degALoc d ↦[degRowSet w]{q} f : sProp 𝕄)), ← pointsTo_biUnion Finset.univ (ℓ := degALoc d) degRowSet degRows_disjoint, degRows_cover]; try rfl
theorem degO_rows (d : Dev nD) (q : PosShare TreeShare) (f : Buf (Elt F) (degOLoc d)) :
    (degOLoc d ↦{q} f : sProp 𝕄) = bigSep Finset.univ fun c : Fin 2 => bigSep Finset.univ fun i : Fin 16 => degOLoc d ↦[degRowSet (wOf c i)]{q} f := by
  rw [← bigSep_fin32 (fun w => (degOLoc d ↦[degRowSet w]{q} f : sProp 𝕄)), ← pointsTo_biUnion Finset.univ (ℓ := degOLoc d) degRowSet degRows_disjoint, degRows_cover]; try rfl

/-- Row families of the 16 × 2 × 1 × 40064 result indexed by (edge half, feature group) are pairwise disjoint and cover it. -/
theorem rows_disjoint_of (R : Fin 2 → Fin 16 → Finset S16x2x1x40064.Idx) (hR : ∀ c i j, j ∈ R c i ↔ (j 0).val = i.val ∧ (j 1).val = c.val) :
    ∀ x ∈ (Finset.univ : Finset (Fin 2 × Fin 16)), ∀ x' ∈ (Finset.univ : Finset (Fin 2 × Fin 16)), x ≠ x' → Disjoint (R x.1 x.2) (R x'.1 x'.2) := by
  intro x _ x' _ hne
  rw [Finset.disjoint_left]
  intro j hj hj'
  obtain ⟨h0, h1⟩ := (hR _ _ j).1 hj
  obtain ⟨h0', h1'⟩ := (hR _ _ j).1 hj'
  exact hne (Prod.ext (Fin.ext (h1.symm.trans h1')) (Fin.ext (h0.symm.trans h0')))
theorem rows_cover_of (R : Fin 2 → Fin 16 → Finset S16x2x1x40064.Idx) (hR : ∀ c i j, j ∈ R c i ↔ (j 0).val = i.val ∧ (j 1).val = c.val) :
    (Finset.univ : Finset (Fin 2 × Fin 16)).biUnion (fun x => R x.1 x.2) = Finset.univ := by
  ext j
  simp only [Finset.mem_biUnion, Finset.mem_univ, true_and, iff_true]
  exact ⟨(⟨(j 1).val, (j 1).isLt⟩, ⟨(j 0).val, (j 0).isLt⟩), (hR _ _ j).2 ⟨rfl, rfl⟩⟩

/-- The grid point of tile (c, i) in each edge kernel's grid. -/
def L2 (c : Fin 2) (i : Fin 16) : grid2.Coords := fun | 0 => c | 1 => i | ⟨_ + 2, h⟩ => absurd h (Nat.not_lt.2 (Nat.le_add_left _ _))
def L4 (c : Fin 2) (i : Fin 16) : grid4.Coords := fun | 0 => c | 1 => i | ⟨_ + 2, h⟩ => absurd h (Nat.not_lt.2 (Nat.le_add_left _ _))
def L0 (c : Fin 2) (i : Fin 16) : grid0.Coords := fun | 0 => c | 1 => i | ⟨_ + 2, h⟩ => absurd h (Nat.not_lt.2 (Nat.le_add_left _ _))

theorem hR2 : ∀ c i j, j ∈ cc2_edge.edgeRow (L2 c i) ↔ (j 0).val = i.val ∧ (j 1).val = c.val := by
  intro c i j; unfold cc2_edge.edgeRow; simp only [Finset.mem_filter, Finset.mem_univ, true_and]; exact Iff.rfl
theorem hR4 : ∀ c i j, j ∈ cc4_edge.edgeRow (L4 c i) ↔ (j 0).val = i.val ∧ (j 1).val = c.val := by
  intro c i j; unfold cc4_edge.edgeRow; simp only [Finset.mem_filter, Finset.mem_univ, true_and]; exact Iff.rfl

theorem edge2_rows (d : Dev nD) (q : PosShare TreeShare) (f : Buf (Elt F) (cc2_edge.oLoc d)) :
    (cc2_edge.oLoc d ↦{q} f : sProp 𝕄) = bigSep Finset.univ fun c : Fin 2 => bigSep Finset.univ fun i : Fin 16 => cc2_edge.oLoc d ↦[cc2_edge.edgeRow (L2 c i)]{q} f := by
  rw [← bigSep_univ_prod (fun x : Fin 2 × Fin 16 => (cc2_edge.oLoc d ↦[cc2_edge.edgeRow (L2 x.1 x.2)]{q} f : sProp 𝕄)),
    ← pointsTo_biUnion Finset.univ (ℓ := cc2_edge.oLoc d) (fun x : Fin 2 × Fin 16 => cc2_edge.edgeRow (L2 x.1 x.2)) (rows_disjoint_of _ hR2), rows_cover_of _ hR2]; try rfl
theorem edge4_rows (d : Dev nD) (q : PosShare TreeShare) (f : Buf (Elt F) (cc4_edge.oLoc d)) :
    (cc4_edge.oLoc d ↦{q} f : sProp 𝕄) = bigSep Finset.univ fun c : Fin 2 => bigSep Finset.univ fun i : Fin 16 => cc4_edge.oLoc d ↦[cc4_edge.edgeRow (L4 c i)]{q} f := by
  rw [← bigSep_univ_prod (fun x : Fin 2 × Fin 16 => (cc4_edge.oLoc d ↦[cc4_edge.edgeRow (L4 x.1 x.2)]{q} f : sProp 𝕄)),
    ← pointsTo_biUnion Finset.univ (ℓ := cc4_edge.oLoc d) (fun x : Fin 2 × Fin 16 => cc4_edge.edgeRow (L4 x.1 x.2)) (rows_disjoint_of _ hR4), rows_cover_of _ hR4]; try rfl

/-! ## What the handshakes carry -/

variable (m : (ℓ : Loc nD τ sig) → Buf (Elt F) ℓ) (ρ : Dev nD → PrngReg)
variable [FloatOps F]

/-- What tile (c, i) is handed at call q: its read shares of the call's operands whole, at the chain's contents, and its
    own row of the result array. -/
def goQ : Fin 3 → Dev nD → Fin 2 → Fin 16 → sProp 𝕄
  | 0, d, c, i => iprop((degALoc d ↦[degRowSet (wOf c i)]{fullShare} V1 m d (rf main_v11)) ∗ (degZLoc d ↦{σ c i} V1 m d (rf main_v12))
      ∗ ∃ f, degOLoc d ↦[degRowSet (wOf c i)]{fullShare} f)
  | 1, d, c, i => cc2_edge.arrays d (L2 c i) (σ c i) (V5 m d (rf main_v23)) (V5 m d (rf main_v6)) (V5 m d (rf main_v9)) (V5 m d (rf main_v13)) (V5 m d (rf main_v24))
  | 2, d, c, i => cc4_edge.arrays d (L4 c i) (σ c i) (V9 m d (rf main_v37)) (V9 m d (rf main_v6)) (V9 m d (rf main_v9)) (V9 m d (rf main_v13)) (V9 m d (rf main_v38))

/-- What it hands back: the same, its row at the kernel's value. -/
def tdQ : Fin 3 → Dev nD → Fin 2 → Fin 16 → sProp 𝕄
  | 0, d, c, i => iprop((degALoc d ↦[degRowSet (wOf c i)]{fullShare} V1 m d (rf main_v11)) ∗ (degZLoc d ↦{σ c i} V1 m d (rf main_v12))
      ∗ (degOLoc d ↦[degRowSet (wOf c i)]{fullShare} degOut (V1 m d (rf main_v11)) (V1 m d (rf main_v12))))
  | 1, d, c, i => cc2_edge.arrays d (L2 c i) (σ c i) (V5 m d (rf main_v23)) (V5 m d (rf main_v6)) (V5 m d (rf main_v9)) (V5 m d (rf main_v13))
      (edgeOut (V5 m d (rf main_v23)) (V5 m d (rf main_v6)) (V5 m d (rf main_v9)) (V5 m d (rf main_v13)))
  | 2, d, c, i => cc4_edge.arrays d (L4 c i) (σ c i) (V9 m d (rf main_v37)) (V9 m d (rf main_v6)) (V9 m d (rf main_v9)) (V9 m d (rf main_v13))
      (edgeOut (V9 m d (rf main_v37)) (V9 m d (rf main_v6)) (V9 m d (rf main_v9)) (V9 m d (rf main_v13)))

/-- A SparseCore's share of a call: its sixteen tiles'. -/
def stQ (q : Fin 3) (d : Dev nD) (c : Fin 2) : sProp 𝕄 := bigSep Finset.univ fun i : Fin 16 => goQ m q d c i
def dnQ (q : Fin 3) (d : Dev nD) (c : Fin 2) : sProp 𝕄 := bigSep Finset.univ fun i : Fin 16 => tdQ m q d c i

instance goQ_storable (q : Fin 3) (d : Dev nD) (c : Fin 2) (i : Fin 16) : BI.Storable (upEmb : UEmb _ 𝕄) (goQ m q d c i) := by
  match q with
  | 0 => unfold goQ; infer_instance
  | 1 => unfold goQ; infer_instance
  | 2 => unfold goQ; infer_instance
instance tdQ_storable (q : Fin 3) (d : Dev nD) (c : Fin 2) (i : Fin 16) : BI.Storable (upEmb : UEmb _ 𝕄) (tdQ m q d c i) := by
  match q with
  | 0 => unfold tdQ; infer_instance
  | 1 => unfold tdQ; infer_instance
  | 2 => unfold tdQ; infer_instance

/-- The payloads of the three calls; no kernel's proof consumes anything of the launch's. -/
def P : (K (F := F)).Pay (nD := nD) (Val := Elt F) (Name := ℕ) (U := UU) where
  st q d c := stQ m q d (Fin.cast (nCore_eq q) c)
  dn q d c := dnQ m q d (Fin.cast (nCore_eq q) c)
  go q d c i := goQ m q d (Fin.cast (nCore_eq q) c) (Fin.cast (nSub_eq q) i)
  td q d c i := tdQ m q d (Fin.cast (nCore_eq q) c) (Fin.cast (nSub_eq q) i)
  x _ _ := iprop(emp)

instance P_storable : (P (F := F) m).IsStorable where
  st q d c := by unfold P stQ; infer_instance
  dn q d c := by unfold P dnQ; infer_instance
  go q d c i := by unfold P; infer_instance
  td q d c i := by unfold P; infer_instance

/-! ## The launch theorem's obligations -/

theorem defs₀_vector0 (c : Fin τ.nSC) (s : Fin τ.nSub) :
    defs₀ (F := F) (.scVector c s) 0 ()
      = SparseCore.onTile hcore0 hsub0 (fun c s => cc0_deg_kernel (L0 c s) degAV (Memref.isWhole_whole _) degZV (Memref.isWhole_whole _) degOV (Memref.isWhole_whole _)
          degSH (Memref.isWhole_whole _) degSI (Memref.isWhole_whole _) cc0_scoped0 cc0_scoped1 cc0_scoped2) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 2048 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (deg_tile_body (V1 m d (rf main_v11)) (V1 m d (rf main_v12)) fullShare (σ (Fin.cast (nCore_eq 0) c) (Fin.cast (nSub_eq 0) i)) d (L0 ⟨_, hc.1⟩ ⟨_, hc.2⟩) hF (hpre d).1 O W hO).trans
    (wp_mono frame _ _ fun _ => obl_post)

theorem defs₀_vector2 (c : Fin τ.nSC) (s : Fin τ.nSub) :
    defs₀ (F := F) (.scVector c s) 2 ()
      = SparseCore.onTile hcore2 hsub2 (fun c s => cc2_edge_kernel (L2 c s) (Memref.whole main_v23_scv) (Memref.isWhole_whole _) (Memref.whole main_v6_scv) (Memref.isWhole_whole _)
          (Memref.whole main_v9_scv) (Memref.isWhole_whole _) (Memref.whole main_v13_scv) (Memref.isWhole_whole _)
          (Memref.whole main_v24_scv) (Memref.isWhole_whole _) (Memref.whole cc2_scratch0) (Memref.isWhole_whole _)
          (Memref.whole cc2_scratch1) (Memref.isWhole_whole _) (Memref.whole cc2_scratch2) (Memref.isWhole_whole _)
          (Memref.whole cc2_scratch3) (Memref.isWhole_whole _) (Memref.whole cc2_scratch4) (Memref.isWhole_whole _)
          (Memref.whole cc2_scratch5) (Memref.isWhole_whole _) cc2_scratch6 cc2_scratch7 cc2_scratch8 cc2_scratch9 cc2_scoped0 cc2_scoped1 cc2_scoped2) ⟨⟩ c s := rfl

set_option maxRecDepth 2048 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  refine BIBase.Entails.trans ?_ ((cc2_edge.edge_tile_body d (L2 ⟨_, hc.1⟩ ⟨_, hc.2⟩) hF (σ (Fin.cast (nCore_eq 1) c) (Fin.cast (nSub_eq 1) i))
    (V5 m d (rf main_v23)) (V5 m d (rf main_v6)) (V5 m d (rf main_v9)) (V5 m d (rf main_v13)) (V5 m d (rf main_v24)) (hpre d).2.1 (hpre d).2.2.1 O W hO).trans
    (wp_mono frame _ _ fun _ => obl_post))
  iintro ⟨Hl, -, H⟩
  isplitl [Hl]; · iexact Hl
  iexact H

theorem defs₀_vector4 (c : Fin τ.nSC) (s : Fin τ.nSub) :
    defs₀ (F := F) (.scVector c s) 4 ()
      = SparseCore.onTile hcore4 hsub4 (fun c s => cc4_edge_kernel (L4 c s) (Memref.whole main_v37_scv) (Memref.isWhole_whole _) (Memref.whole main_v6_scv) (Memref.isWhole_whole _)
          (Memref.whole main_v9_scv) (Memref.isWhole_whole _) (Memref.whole main_v13_scv) (Memref.isWhole_whole _)
          (Memref.whole main_v38_scv) (Memref.isWhole_whole _) (Memref.whole cc4_scratch0) (Memref.isWhole_whole _)
          (Memref.whole cc4_scratch1) (Memref.isWhole_whole _) (Memref.whole cc4_scratch2) (Memref.isWhole_whole _)
          (Memref.whole cc4_scratch3) (Memref.isWhole_whole _) (Memref.whole cc4_scratch4) (Memref.isWhole_whole _)
          (Memref.whole cc4_scratch5) (Memref.isWhole_whole _) cc4_scratch6 cc4_scratch7 cc4_scratch8 cc4_scratch9 cc4_scoped0 cc4_scoped1 cc4_scoped2) ⟨⟩ c s := rfl

set_option maxRecDepth 2048 in
theorem tileObl2 (hF : (K (F := F)).Facts) (hpre : PreOK m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector4]; simp only [SparseCore.onTile, hc, and_self, ↓reduceDIte]
  refine BIBase.Entails.trans ?_ ((cc4_edge.edge_tile_body d (L4 ⟨_, hc.1⟩ ⟨_, hc.2⟩) hF (σ (Fin.cast (nCore_eq 2) c) (Fin.cast (nSub_eq 2) i))
    (V9 m d (rf main_v37)) (V9 m d (rf main_v6)) (V9 m d (rf main_v9)) (V9 m d (rf main_v13)) (V9 m d (rf main_v38)) (hpre d).2.2.2.1 (hpre d).2.2.2.2 O W hO).trans
    (wp_mono frame _ _ fun _ => obl_post))
  iintro ⟨Hl, -, H⟩
  isplitl [Hl]; · iexact Hl
  iexact H

omit [FloatOps F] in
theorem bigSep_tasks (q : Fin 3) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)

/-- A SparseCore's share of a call is its tiles' shares, and their results are its result. -/
theorem vecSplit (q : Fin 3) : (K (F := F)).VecSplit' (P m) q := by
  intro d c
  show stQ m q d (Fin.cast (nCore_eq q) c) ⊢ |={Set.univ}=> iprop(
      (bigSep Finset.univ fun i : Fin ((K (F := F)).nSub q) => goQ m q d (Fin.cast (nCore_eq q) c) (Fin.cast (nSub_eq q) i))
      ∗ ((bigSep Finset.univ fun i : Fin ((K (F := F)).nSub q) => tdQ m q d (Fin.cast (nCore_eq q) c) (Fin.cast (nSub_eq q) i))
          -∗ dnQ m q d (Fin.cast (nCore_eq q) c)))
  rw [bigSep_tasks (F := F) q (fun i => goQ m q d (Fin.cast (nCore_eq q) c) i), bigSep_tasks (F := F) q (fun i => tdQ m q d (Fin.cast (nCore_eq q) c) i)]
  unfold stQ dnQ
  iintro H; imodintro
  isplitl [H]; · iexact H
  iintro H; iexact H

omit [FloatOps F] in
theorem bigSep_cores (q : Fin 3) (Φ : Fin 2 → sProp 𝕄) :
    (bigSep Finset.univ fun c : Fin ((K (F := F)).nCore q) => Φ (Fin.cast (nCore_eq q) c)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)

/-! ## The calls' arrays among the TensorCore's -/

/-- The arrays each SparseCore call reads and writes. -/
abbrev T0 : Finset (DevRef τ sig) := {rf main_v11, rf main_v12, rf main_v18}
abbrev T1 : Finset (DevRef τ sig) := {rf main_v23, rf main_v6, rf main_v9, rf main_v13, rf main_v24}
abbrev T2 : Finset (DevRef τ sig) := {rf main_v37, rf main_v6, rf main_v9, rf main_v13, rf main_v38}

omit [FloatOps F] in
/-- Holding a set at a valuation rewritten at one buffer of a subset: the subset at the new valuation, the rest at the old. -/
theorem held_split_upd (c : Thread nD τ) {S Ts : Finset (DevRef τ sig)} (hT : Ts ⊆ S) {b : DevRef τ sig} (hb : b ∈ Ts) (W : Valuation τ sig (Elt F)) (x : b.ty.Contents (Elt F)) :
    (held c S (Function.update W b x) : sProp 𝕄) = iprop(held c Ts (Function.update W b x) ∗ held c (S \ Ts) W) := by
  rw [held_sub_split c hT]
  congr 1
  exact held_congr c fun b' hb' => Function.update_of_ne (fun (e : b' = b) => (Finset.mem_sdiff.mp hb').2 (by rw [e]; exact hb)) _ _

/-- What stays with the TensorCore during each call: its other arrays, and the remainders of the read-only operands. -/
def Fr0 (d : Dev nD) : sProp 𝕄 :=
  iprop(held (T d) (Sall \ T0) (V1 m d) ∗ Rem (ℓ := degZLoc d) (V1 m d (rf main_v12)))
def Fr1 (d : Dev nD) : sProp 𝕄 :=
  iprop(held (T d) (Sall \ T1) (V5 m d) ∗ Rem (ℓ := cc2_edge.gLoc d) (V5 m d (rf main_v23)) ∗ Rem (ℓ := cc2_edge.sLoc d) (V5 m d (rf main_v6))
    ∗ Rem (ℓ := cc2_edge.dLoc d) (V5 m d (rf main_v9)) ∗ Rem (ℓ := cc2_edge.zLoc d) (V5 m d (rf main_v13)))
def Fr2 (d : Dev nD) : sProp 𝕄 :=
  iprop(held (T d) (Sall \ T2) (V9 m d) ∗ Rem (ℓ := cc4_edge.gLoc d) (V9 m d (rf main_v37)) ∗ Rem (ℓ := cc4_edge.sLoc d) (V9 m d (rf main_v6))
    ∗ Rem (ℓ := cc4_edge.dLoc d) (V9 m d (rf main_v9)) ∗ Rem (ℓ := cc4_edge.zLoc d) (V9 m d (rf main_v13)))

end Cert.Kernel.Hand

end
-- ==== Proof.K.Glue.lean ====
/-
  The host operations of the program between its kernels, as pure functions of the arrays they read, at any float
  instance: each is the composition of slices, reshapes, pads, transposes and constants the program applies, in its
  order, and each comes with the lemma that reads it at an index given by coordinates.

  * The edge list (2 × 320000, row 0 the sources, row 1 the destinations): the degree kernel reads the destinations as
    32 rows of 10000 padded to 10240 with the word 10000; the edge kernel reads sources and destinations as 2 halves of
    160000 padded to 163840 with the word 10000.
  * The feature table handed to the edge kernel: the 64 × 10000 transposed features, each row padded to 10016 with the
    float of the integer 0, four consecutive rows to a group of 40064 words.
  * The edge kernel's result read back: group cg, half eh, word k · 10016 + n is feature row 4 cg + k at node n.
-/
import proofs.«219763_g10557029614292_week1_w2_488_21_alg».proof.Proof.K.Vals
import Idealize.ShloMosaic.Lib.Pipeline.Value
import Idealize.ShloMosaic.Lib.KernelVsHost

noncomputable section

namespace Cert.Kernel.Hand

open Cert.Kernel Cert.Kernel.Gen
open Idealize.ShloMosaic Idealize.ShloMosaic.ValueIdx

variable {F : FTy → Type} [FloatOps F]

/-! ## The edge list -/

/-- Row r of the edge list as one vector of 320000 words. -/
def gRow0 (ei : IVec S2x320000 32) : IVec S320000 32 :=
  shapeCast S320000 (extractStridedSlice S1x320000 ![0, 0] ei slices_S2x320000_S1x320000_0_0) shapeCasts_S1x320000_S320000
def gRow1 (ei : IVec S2x320000 32) : IVec S320000 32 :=
  shapeCast S320000 (extractStridedSlice S1x320000 ![1, 0] ei slices_S2x320000_S1x320000_1_0) shapeCasts_S1x320000_S320000

/-- The padding word of the edge lists. -/
def gPadW : IVec S_ 32 := constantI S_ 32 10000#32

/-- Two halves of 160000 words, each padded to 163840 with the word 10000, as a 2 × 1 × 163840 array. -/
def gHalves (r : IVec S320000 32) : IVec S2x1x163840 32 :=
  shapeCast S2x1x163840
    (pad S2x163840 ![0, 0] ![0, 3840] ![0, 0] (shapeCast S2x160000 r shapeCasts_S320000_S2x160000) (id gPadW)
      pads_S2x160000_S2x163840_000_038400 h_S_)
    shapeCasts_S2x163840_S2x1x163840

/-- The padded sources the edge kernel reads. -/
def gSrcp (ei : IVec S2x320000 32) : IVec S2x1x163840 32 := gHalves (gRow0 ei)
/-- The padded destinations the edge kernel reads. -/
def gDstp (ei : IVec S2x320000 32) : IVec S2x1x163840 32 := gHalves (gRow1 ei)

/-- The padded destinations the degree kernel reads: 32 rows of 10000, each padded to 10240 with the word 10000. -/
def gDst2 (ei : IVec S2x320000 32) : IVec S32x10240 32 :=
  pad S32x10240 ![0, 0] ![0, 240] ![0, 0] (shapeCast S32x10000 (gRow1 ei) shapeCasts_S320000_S32x10000) (id gPadW)
    pads_S32x10000_S32x10240_000_02400 h_S_

/-! ## The zero arrays and the reshaped small arguments -/

/-- The zero histogram the degree kernel starts from. -/
def gZn : Vec F S10240 .f32 := broadcastInDim S10240 ![] bcast_S_S10240 (constant S_ .f32 0x00000000#32)
/-- The zero accumulator the edge kernel starts from. -/
def gZer : Vec F S40064 .f32 := broadcastInDim S40064 ![] bcast_S_S40064 (constant S_ .f32 0x00000000#32)

/-- The graph assignment as one row. -/
def gBt2 (batch : IVec S10000 32) : IVec S1x10000 32 := shapeCast S1x10000 batch shapeCasts_S10000_S1x10000
/-- A 64-word bias as a column. -/
def gB1c (b : Vec F S64 .f32) : Vec F S64x1 .f32 := shapeCast S64x1 b shapeCasts_S64_S64x1
/-- The second bias as a column: the same reshape. -/
def gB2c (b : Vec F S64 .f32) : Vec F S64x1 .f32 := shapeCast S64x1 b shapeCasts_S64_S64x1
/-- The last bias as a 1 × 1 array. -/
def gB3r (b : Vec F S1 .f32) : Vec F S1x1 .f32 := shapeCast S1x1 b shapeCasts_S1_S1x1

/-! ## The degree kernel's result read back -/

/-- The 32 workers' histograms cut to the 10000 nodes and transposed: node by worker. -/
def gDegsT (v : Vec F S32x10240 .f32) : Vec F S10000x32 .f32 :=
  transpose S10000x32 [1, 0] (extractStridedSlice S32x10000 ![0, 0] v slices_S32x10240_S32x10000_0_0)
    transposes_S32x10000_S10000x32_1_0

/-! ## The edge kernel's table and its result read back -/

/-- The padding value of the feature table: the float of the integer 0. -/
def gPadF : Vec F S_ .f32 := sitofp .f32 (constantI S_ 32 0#32)

/-- The feature table the edge kernel reads: each of the 64 rows padded to 10016, four rows to a group. -/
def gPack (g : Vec F S64x10000 .f32) : Vec F S16x1x40064 .f32 :=
  shapeCast S16x1x40064 (pad S64x10016 ![0, 0] ![0, 16] ![0, 0] g (gPadF (F := F)) pads_S64x10000_S64x10016_000_0160 h_S_)
    shapeCasts_S64x10016_S16x1x40064

/-- The edge kernel's result as 16 groups × 2 halves × 4 rows × 10016. -/
def gRows (o : Vec F S16x2x1x40064 .f32) : Vec F S16x2x4x10016 .f32 :=
  shapeCast S16x2x4x10016 (shapeCast S16x2x40064 o shapeCasts_S16x2x1x40064_S16x2x40064) shapeCasts_S16x2x40064_S16x2x4x10016

/-- Half 0 of the edge kernel's result as 64 feature rows of 10000 nodes. -/
def gUnpack0 (o : Vec F S16x2x1x40064 .f32) : Vec F S64x10000 .f32 :=
  extractStridedSlice S64x10000 ![0, 0]
    (shapeCast S64x10016
      (shapeCast S16x4x10016
        (extractStridedSlice S16x1x4x10016 ![0, 0, 0, 0] (gRows o) slices_S16x2x4x10016_S16x1x4x10016_0_0_0_0)
        shapeCasts_S16x1x4x10016_S16x4x10016)
      shapeCasts_S16x4x10016_S64x10016)
    slices_S64x10016_S64x10000_0_0
/-- Half 1 of the edge kernel's result as 64 feature rows of 10000 nodes. -/
def gUnpack1 (o : Vec F S16x2x1x40064 .f32) : Vec F S64x10000 .f32 :=
  extractStridedSlice S64x10000 ![0, 0]
    (shapeCast S64x10016
      (shapeCast S16x4x10016
        (extractStridedSlice S16x1x4x10016 ![0, 1, 0, 0] (gRows o) slices_S16x2x4x10016_S16x1x4x10016_0_1_0_0)
        shapeCasts_S16x1x4x10016_S16x4x10016)
      shapeCasts_S16x4x10016_S64x10016)
    slices_S64x10016_S64x10000_0_0

/-! ## Read at an index -/

/-- Row 0 of the edge list at word p. -/
theorem gRow0_apply (ei : IVec S2x320000 32) (p : Fin 320000) : gRow0 ei (ix1 p) = ei (ix2 (0 : Fin 2) p) := by
  unfold gRow0
  refine (shapeCast_apply _ _ (ix1 p) (ix2 (0 : Fin 1) p) ?_).trans ?_
  · rw [Shape.rowMajor_val_two, Shape.rowMajor_val_one]
    show (0 : ℕ) * 320000 + p.val = p.val
    omega
  · refine extractStridedSlice_apply _ _ _ _ (ix2 (0 : Fin 2) p) fun a => ?_
    match a with
    | ⟨0, _⟩ => exact rfl
    | ⟨1, _⟩ => exact (Nat.zero_add _).symm
/-- Row 1 of the edge list at word p. -/
theorem gRow1_apply (ei : IVec S2x320000 32) (p : Fin 320000) : gRow1 ei (ix1 p) = ei (ix2 (1 : Fin 2) p) := by
  unfold gRow1
  refine (shapeCast_apply _ _ (ix1 p) (ix2 (0 : Fin 1) p) ?_).trans ?_
  · rw [Shape.rowMajor_val_two, Shape.rowMajor_val_one]
    show (0 : ℕ) * 320000 + p.val = p.val
    omega
  · refine extractStridedSlice_apply _ _ _ _ (ix2 (1 : Fin 2) p) fun a => ?_
    match a with
    | ⟨0, _⟩ => exact rfl
    | ⟨1, _⟩ => exact (Nat.zero_add _).symm

/-- Half h of a padded list at word p: word 160000 h + p of the list below 160000, the word 10000 from there on. -/
theorem gHalves_apply (r : IVec S320000 32) (h : Fin 2) (p : Fin 163840) :
    gHalves r (ix3 h (0 : Fin 1) p)
      = if hp : p.val < 160000 then r (ix1 ⟨160000 * h.val + p.val, by have := h.isLt; omega⟩) else 10000#32 := by
  unfold gHalves
  refine (shapeCast_apply _ _ (ix3 h (0 : Fin 1) p) (ix2 h p) ?_).trans ?_
  · rw [Shape.rowMajor_val_two, Shape.rowMajor_val_three]
    show h.val * 163840 + p.val = (h.val * 1 + 0) * 163840 + p.val
    omega
  · by_cases hp : p.val < 160000
    · rw [dif_pos hp]
      refine (pad_apply_of_inside _ _ _ _ _ _ _ (ix2 h p) (ix2 h ⟨p.val, hp⟩) fun a => ?_).trans ?_
      · match a with
        | ⟨0, _⟩ => show h.val = 0 + h.val * (0 + 1); omega
        | ⟨1, _⟩ => show p.val = 0 + p.val * (0 + 1); omega
      · refine shapeCast_apply _ _ (ix2 h ⟨p.val, hp⟩) (ix1 ⟨160000 * h.val + p.val, by have := h.isLt; omega⟩) ?_
        rw [Shape.rowMajor_val_one, Shape.rowMajor_val_two]
        show 160000 * h.val + p.val = h.val * 160000 + p.val
        omega
    · rw [dif_neg hp]
      refine (pad_apply_of_not_inside _ _ _ _ _ _ _ (ix2 h p) (1 : Fin 2) ?_).trans rfl
      show ¬(0 ≤ p.val ∧ (p.val - 0) % (0 + 1) = 0 ∧ (p.val - 0) / (0 + 1) < 160000)
      rintro ⟨_, _, h3⟩
      rw [Nat.sub_zero, Nat.zero_add, Nat.div_one] at h3
      exact hp h3

theorem gSrcp_apply (ei : IVec S2x320000 32) (h : Fin 2) (p : Fin 163840) :
    gSrcp ei (ix3 h (0 : Fin 1) p)
      = if hp : p.val < 160000 then ei (ix2 (0 : Fin 2) ⟨160000 * h.val + p.val, by have := h.isLt; omega⟩) else 10000#32 := by
  unfold gSrcp
  rw [gHalves_apply]
  by_cases hp : p.val < 160000
  · rw [dif_pos hp, dif_pos hp]; exact gRow0_apply ei _
  · rw [dif_neg hp, dif_neg hp]
theorem gDstp_apply (ei : IVec S2x320000 32) (h : Fin 2) (p : Fin 163840) :
    gDstp ei (ix3 h (0 : Fin 1) p)
      = if hp : p.val < 160000 then ei (ix2 (1 : Fin 2) ⟨160000 * h.val + p.val, by have := h.isLt; omega⟩) else 10000#32 := by
  unfold gDstp
  rw [gHalves_apply]
  by_cases hp : p.val < 160000
  · rw [dif_pos hp, dif_pos hp]; exact gRow1_apply ei _
  · rw [dif_neg hp, dif_neg hp]

/-- Worker w's padded destinations at word p: destination 10000 w + p below 10000, the word 10000 from there on. -/
theorem gDst2_apply (ei : IVec S2x320000 32) (w : Fin 32) (p : Fin 10240) :
    gDst2 ei (ix2 w p)
      = if hp : p.val < 10000 then ei (ix2 (1 : Fin 2) ⟨10000 * w.val + p.val, by have := w.isLt; omega⟩) else 10000#32 := by
  unfold gDst2
  by_cases hp : p.val < 10000
  · rw [dif_pos hp]
    refine (pad_apply_of_inside _ _ _ _ _ _ _ (ix2 w p) (ix2 w ⟨p.val, hp⟩) fun a => ?_).trans ?_
    · match a with
      | ⟨0, _⟩ => show w.val = 0 + w.val * (0 + 1); omega
      | ⟨1, _⟩ => show p.val = 0 + p.val * (0 + 1); omega
    · refine (shapeCast_apply _ _ (ix2 w ⟨p.val, hp⟩) (ix1 ⟨10000 * w.val + p.val, by have := w.isLt; omega⟩) ?_).trans
        (gRow1_apply ei _)
      rw [Shape.rowMajor_val_one, Shape.rowMajor_val_two]
      show 10000 * w.val + p.val = w.val * 10000 + p.val
      omega
  · rw [dif_neg hp]
    refine (pad_apply_of_not_inside _ _ _ _ _ _ _ (ix2 w p) (1 : Fin 2) ?_).trans rfl
    show ¬(0 ≤ p.val ∧ (p.val - 0) % (0 + 1) = 0 ∧ (p.val - 0) / (0 + 1) < 10000)
    rintro ⟨_, _, h3⟩
    rw [Nat.sub_zero, Nat.zero_add, Nat.div_one] at h3
    exact hp h3

theorem gZn_apply (j : S10240.Idx) : gZn (F := F) j = FloatOps.ofBits .f32 0x00000000#32 := rfl
theorem gZer_apply (j : S40064.Idx) : gZer (F := F) j = FloatOps.ofBits .f32 0x00000000#32 := rfl

theorem gBt2_apply (batch : IVec S10000 32) (n : Fin 10000) : gBt2 batch (ix2 (0 : Fin 1) n) = batch (ix1 n) := by
  unfold gBt2
  refine shapeCast_apply _ _ (ix2 (0 : Fin 1) n) (ix1 n) ?_
  rw [Shape.rowMajor_val_one, Shape.rowMajor_val_two]
  show n.val = 0 * 10000 + n.val
  omega
theorem gB1c_apply (b : Vec F S64 .f32) (f : Fin 64) : gB1c b (ix2 f (0 : Fin 1)) = b (ix1 f) := by
  unfold gB1c
  refine shapeCast_apply _ _ (ix2 f (0 : Fin 1)) (ix1 f) ?_
  rw [Shape.rowMajor_val_one, Shape.rowMajor_val_two]
  show f.val = f.val * 1 + 0
  omega
theorem gB2c_apply (b : Vec F S64 .f32) (f : Fin 64) : gB2c b (ix2 f (0 : Fin 1)) = b (ix1 f) := gB1c_apply b f
theorem gB3r_apply (b : Vec F S1 .f32) : gB3r b (ix2 (0 : Fin 1) (0 : Fin 1)) = b (ix1 (0 : Fin 1)) := by
  unfold gB3r
  refine shapeCast_apply _ _ (ix2 (0 : Fin 1) (0 : Fin 1)) (ix1 (0 : Fin 1)) ?_
  rw [Shape.rowMajor_val_one, Shape.rowMajor_val_two]
  show (0 : ℕ) = 0 * 1 + 0
  omega

/-- Node n, worker w of the transposed histograms is word n of worker w's histogram. -/
theorem gDegsT_apply (v : Vec F S32x10240 .f32) (n : Fin 10000) (w : Fin 32) :
    gDegsT v (ix2 n w) = v (ix2 w ⟨n.val, by have := n.isLt; omega⟩) := by
  unfold gDegsT
  refine (transpose_apply _ _ _ (ix2 n w) (ix2 w n) fun b => ?_).trans ?_
  · match b with
    | ⟨0, _⟩ => exact rfl
    | ⟨1, _⟩ => exact rfl
  · refine extractStridedSlice_apply _ _ _ (ix2 w n) (ix2 w ⟨n.val, by have := n.isLt; omega⟩) fun a => ?_
    match a with
    | ⟨0, _⟩ => exact (Nat.zero_add _).symm
    | ⟨1, _⟩ => exact (Nat.zero_add _).symm

/-- The padding value of the feature table is the float of the word 0. -/
theorem gPadF_apply (j : S_.Idx) : gPadF (F := F) j = FloatOps.sitofp .f32 (0#32 : BitVec 32) := rfl

/-- Group cg of the feature table at word k · 10016 + i (k below 4, i below 10016): feature row 4 cg + k at node i
    below 10000, the padding value from there on. -/
theorem gPack_apply (g : Vec F S64x10000 .f32) (cg : Fin 16) (k : Fin 4) (i : Fin 10016) :
    gPack g (ix3 cg (0 : Fin 1) ⟨k.val * 10016 + i.val, by have := k.isLt; have := i.isLt; omega⟩)
      = if hi : i.val < 10000 then g (ix2 ⟨4 * cg.val + k.val, by have := cg.isLt; have := k.isLt; omega⟩ ⟨i.val, hi⟩)
        else FloatOps.sitofp .f32 (0#32 : BitVec 32) := by
  have hr : 4 * cg.val + k.val < 64 := by have := cg.isLt; have := k.isLt; omega
  unfold gPack
  refine (shapeCast_apply _ _ (ix3 cg (0 : Fin 1) ⟨k.val * 10016 + i.val, by have := k.isLt; have := i.isLt; omega⟩)
    (ix2 ⟨4 * cg.val + k.val, hr⟩ i) ?_).trans ?_
  · rw [Shape.rowMajor_val_two, Shape.rowMajor_val_three]
    show (4 * cg.val + k.val) * 10016 + i.val = (cg.val * 1 + 0) * 40064 + (k.val * 10016 + i.val)
    omega
  · by_cases hi : i.val < 10000
    · rw [dif_pos hi]
      refine pad_apply_of_inside _ _ _ _ _ _ _ (ix2 ⟨4 * cg.val + k.val, hr⟩ i) (ix2 ⟨4 * cg.val + k.val, hr⟩ ⟨i.val, hi⟩) fun a => ?_
      match a with
      | ⟨0, _⟩ => show 4 * cg.val + k.val = 0 + (4 * cg.val + k.val) * (0 + 1); omega
      | ⟨1, _⟩ => show i.val = 0 + i.val * (0 + 1); omega
    · rw [dif_neg hi]
      refine (pad_apply_of_not_inside _ _ _ _ _ _ _ (ix2 ⟨4 * cg.val + k.val, hr⟩ i) (1 : Fin 2) ?_).trans rfl
      show ¬(0 ≤ i.val ∧ (i.val - 0) % (0 + 1) = 0 ∧ (i.val - 0) / (0 + 1) < 10000)
      rintro ⟨_, _, h3⟩
      rw [Nat.sub_zero, Nat.zero_add, Nat.div_one] at h3
      exact hi h3

/-- The edge kernel's result by rows: group a, half b, row c, node d is word c · 10016 + d of that tile's accumulator. -/
theorem gRows_apply (o : Vec F S16x2x1x40064 .f32) (a : Fin 16) (b : Fin 2) (c : Fin 4) (d : Fin 10016) :
    gRows o (ix4 a b c d)
      = o (ix4 a b (0 : Fin 1) ⟨c.val * 10016 + d.val, by have := c.isLt; have := d.isLt; omega⟩) := by
  have he : c.val * 10016 + d.val < 40064 := by have := c.isLt; have := d.isLt; omega
  unfold gRows
  refine (shapeCast_apply _ _ (ix4 a b c d) (ix3 a b ⟨c.val * 10016 + d.val, he⟩) ?_).trans ?_
  · rw [Shape.rowMajor_val_three, Shape.rowMajor_val_four]
    show (a.val * 2 + b.val) * 40064 + (c.val * 10016 + d.val) = ((a.val * 2 + b.val) * 4 + c.val) * 10016 + d.val
    omega
  · refine shapeCast_apply _ _ (ix3 a b ⟨c.val * 10016 + d.val, he⟩) (ix4 a b (0 : Fin 1) ⟨c.val * 10016 + d.val, he⟩) ?_
    rw [Shape.rowMajor_val_four, Shape.rowMajor_val_three]
    show ((a.val * 2 + b.val) * 1 + 0) * 40064 + (c.val * 10016 + d.val) = (a.val * 2 + b.val) * 40064 + (c.val * 10016 + d.val)
    omega

/-- Feature row f at node n of half 0 of the edge kernel's result: group f / 4, word (f % 4) · 10016 + n. -/
theorem gUnpack0_apply (o : Vec F S16x2x1x40064 .f32) (f : Fin 64) (n : Fin 10000) :
    gUnpack0 o (ix2 f n)
      = o (ix4 ⟨f.val / 4, by have := f.isLt; omega⟩ (0 : Fin 2) (0 : Fin 1)
            ⟨(f.val % 4) * 10016 + n.val, by have := n.isLt; omega⟩) := by
  have hq : f.val / 4 < 16 := by have := f.isLt; omega
  have hm : f.val % 4 < 4 := by omega
  have hn : n.val < 10016 := by have := n.isLt; omega
  unfold gUnpack0
  refine (extractStridedSlice_apply _ _ _ (ix2 f n) (ix2 f ⟨n.val, hn⟩) fun a => ?_).trans ?_
  · match a with
    | ⟨0, _⟩ => exact (Nat.zero_add _).symm
    | ⟨1, _⟩ => exact (Nat.zero_add _).symm
  refine (shapeCast_apply _ _ (ix2 f ⟨n.val, hn⟩) (ix3 ⟨f.val / 4, hq⟩ ⟨f.val % 4, hm⟩ ⟨n.val, hn⟩) ?_).trans ?_
  · rw [Shape.rowMajor_val_three, Shape.rowMajor_val_two]
    show (f.val / 4 * 4 + f.val % 4) * 10016 + n.val = f.val * 10016 + n.val
    omega
  refine (shapeCast_apply _ _ (ix3 ⟨f.val / 4, hq⟩ ⟨f.val % 4, hm⟩ ⟨n.val, hn⟩)
    (ix4 ⟨f.val / 4, hq⟩ (0 : Fin 1) ⟨f.val % 4, hm⟩ ⟨n.val, hn⟩) ?_).trans ?_
  · rw [Shape.rowMajor_val_four, Shape.rowMajor_val_three]
    show ((f.val / 4 * 1 + 0) * 4 + f.val % 4) * 10016 + n.val = (f.val / 4 * 4 + f.val % 4) * 10016 + n.val
    omega
  refine (extractStridedSlice_apply _ _ _ (ix4 ⟨f.val / 4, hq⟩ (0 : Fin 1) ⟨f.val % 4, hm⟩ ⟨n.val, hn⟩)
    (ix4 ⟨f.val / 4, hq⟩ (0 : Fin 2) ⟨f.val % 4, hm⟩ ⟨n.val, hn⟩) fun a => ?_).trans ?_
  · match a with
    | ⟨0, _⟩ => exact (Nat.zero_add _).symm
    | ⟨1, _⟩ => exact rfl
    | ⟨2, _⟩ => exact (Nat.zero_add _).symm
    | ⟨3, _⟩ => exact (Nat.zero_add _).symm
  exact gRows_apply o _ _ _ _
/-- The same of half 1. -/
theorem gUnpack1_apply (o : Vec F S16x2x1x40064 .f32) (f : Fin 64) (n : Fin 10000) :
    gUnpack1 o (ix2 f n)
      = o (ix4 ⟨f.val / 4, by have := f.isLt; omega⟩ (1 : Fin 2) (0 : Fin 1)
            ⟨(f.val % 4) * 10016 + n.val, by have := n.isLt; omega⟩) := by
  have hq : f.val / 4 < 16 := by have := f.isLt; omega
  have hm : f.val % 4 < 4 := by omega
  have hn : n.val < 10016 := by have := n.isLt; omega
  unfold gUnpack1
  refine (extractStridedSlice_apply _ _ _ (ix2 f n) (ix2 f ⟨n.val, hn⟩) fun a => ?_).trans ?_
  · match a with
    | ⟨0, _⟩ => exact (Nat.zero_add _).symm
    | ⟨1, _⟩ => exact (Nat.zero_add _).symm
  refine (shapeCast_apply _ _ (ix2 f ⟨n.val, hn⟩) (ix3 ⟨f.val / 4, hq⟩ ⟨f.val % 4, hm⟩ ⟨n.val, hn⟩) ?_).trans ?_
  · rw [Shape.rowMajor_val_three, Shape.rowMajor_val_two]
    show (f.val / 4 * 4 + f.val % 4) * 10016 + n.val = f.val * 10016 + n.val
    omega
  refine (shapeCast_apply _ _ (ix3 ⟨f.val / 4, hq⟩ ⟨f.val % 4, hm⟩ ⟨n.val, hn⟩)
    (ix4 ⟨f.val / 4, hq⟩ (0 : Fin 1) ⟨f.val % 4, hm⟩ ⟨n.val, hn⟩) ?_).trans ?_
  · rw [Shape.rowMajor_val_four, Shape.rowMajor_val_three]
    show ((f.val / 4 * 1 + 0) * 4 + f.val % 4) * 10016 + n.val = (f.val / 4 * 4 + f.val % 4) * 10016 + n.val
    omega
  refine (extractStridedSlice_apply _ _ _ (ix4 ⟨f.val / 4, hq⟩ (0 : Fin 1) ⟨f.val % 4, hm⟩ ⟨n.val, hn⟩)
    (ix4 ⟨f.val / 4, hq⟩ (1 : Fin 2) ⟨f.val % 4, hm⟩ ⟨n.val, hn⟩) fun a => ?_).trans ?_
  · match a with
    | ⟨0, _⟩ => exact (Nat.zero_add _).symm
    | ⟨1, _⟩ => exact rfl
    | ⟨2, _⟩ => exact (Nat.zero_add _).symm
    | ⟨3, _⟩ => exact (Nat.zero_add _).symm
  exact gRows_apply o _ _ _ _

end Cert.Kernel.Hand

end
-- ==== Proof.K.ChainValue.lean ====
/-
  The chain of buffer contents read off: every buffer the kernels and the regions read holds, at the stage where it is
  read, a pure function of the program's nine arguments at launch: the host's straight lines are evaluated operation by
  operation, a buffer no operation of a line writes keeps its contents, and a call's result array holds the call's value.
  The program's result is then one closed term of the arguments, the composition of the host's glue functions, the three
  SparseCore kernels' values and the three TensorCore bodies' stored values.
-/
import proofs.«219763_g10557029614292_week1_w2_488_21_alg».proof.Proof.K.Chain
import proofs.«219763_g10557029614292_week1_w2_488_21_alg».proof.Proof.K.Glue

noncomputable section

namespace Cert.Kernel.Hand

open Cert.Kernel Cert.Kernel.Gen
open Idealize.ShloMosaic Idealize.ShloMosaic.StableHlo Idealize.SL.Sem

variable {F : FTy → Type} [FloatOps F]

/-! ## The buffers each straight line writes -/

/-- A result buffer that is in a list of references is in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references line 0 writes, in its order. -/
abbrev W0 : List (Ref sig .tc) := [main_v0, main_v1, main_v2, main_v3, main_v4, main_c, main_call0_v0, main_v5, main_v6, main_v7, main_c_0, main_call1_v0, main_v8, main_v9, main_v10, main_c_1, main_call2_v0, main_v11, main_cst, main_v12, main_cst_2, main_v13, main_v14, main_v15, main_v16, main_v17]
theorem ops0_writes : (ops0 (F := F)).Forall fun op => op.writes ⊆ (W0.map (Proc.devRef (τ := τ) .tc)).toFinset :=
  ⟨single_sub_of_mem (y := main_v0) (by decide),
   single_sub_of_mem (y := main_v1) (by decide),
   single_sub_of_mem (y := main_v2) (by decide),
   single_sub_of_mem (y := main_v3) (by decide),
   single_sub_of_mem (y := main_v4) (by decide),
   single_sub_of_mem (y := main_c) (by decide),
   single_sub_of_mem (y := main_call0_v0) (by decide),
   single_sub_of_mem (y := main_v5) (by decide),
   single_sub_of_mem (y := main_v6) (by decide),
   single_sub_of_mem (y := main_v7) (by decide),
   single_sub_of_mem (y := main_c_0) (by decide),
   single_sub_of_mem (y := main_call1_v0) (by decide),
   single_sub_of_mem (y := main_v8) (by decide),
   single_sub_of_mem (y := main_v9) (by decide),
   single_sub_of_mem (y := main_v10) (by decide),
   single_sub_of_mem (y := main_c_1) (by decide),
   single_sub_of_mem (y := main_call2_v0) (by decide),
   single_sub_of_mem (y := main_v11) (by decide),
   single_sub_of_mem (y := main_cst) (by decide),
   single_sub_of_mem (y := main_v12) (by decide),
   single_sub_of_mem (y := main_cst_2) (by decide),
   single_sub_of_mem (y := main_v13) (by decide),
   single_sub_of_mem (y := main_v14) (by decide),
   single_sub_of_mem (y := main_v15) (by decide),
   single_sub_of_mem (y := main_v16) (by decide),
   single_sub_of_mem (y := main_v17) (by decide)⟩

/-- The references line 1 writes, in its order. -/
abbrev W1 : List (Ref sig .tc) := [main_v19, main_v20]
theorem ops1_writes : (ops1 (F := F)).Forall fun op => op.writes ⊆ (W1.map (Proc.devRef (τ := τ) .tc)).toFinset :=
  ⟨single_sub_of_mem (y := main_v19) (by decide),
   single_sub_of_mem (y := main_v20) (by decide)⟩

/-- The references line 2 writes, in its order. -/
abbrev W2 : List (Ref sig .tc) := [main_c_3, main_call3_v0, main_v22, main_v23]
theorem ops2_writes : (ops2 (F := F)).Forall fun op => op.writes ⊆ (W2.map (Proc.devRef (τ := τ) .tc)).toFinset :=
  ⟨single_sub_of_mem (y := main_c_3) (by decide),
   single_sub_of_mem (y := main_call3_v0) (by decide),
   single_sub_of_mem (y := main_v22) (by decide),
   single_sub_of_mem (y := main_v23) (by decide)⟩

/-- The references line 3 writes, in its order. -/
abbrev W3 : List (Ref sig .tc) := [main_v25, main_v26, main_v27, main_v28, main_v29, main_v30, main_v31, main_v32, main_v33, main_v34]
theorem ops3_writes : (ops3 (F := F)).Forall fun op => op.writes ⊆ (W3.map (Proc.devRef (τ := τ) .tc)).toFinset :=
  ⟨single_sub_of_mem (y := main_v25) (by decide),
   single_sub_of_mem (y := main_v26) (by decide),
   single_sub_of_mem (y := main_v27) (by decide),
   single_sub_of_mem (y := main_v28) (by decide),
   single_sub_of_mem (y := main_v29) (by decide),
   single_sub_of_mem (y := main_v30) (by decide),
   single_sub_of_mem (y := main_v31) (by decide),
   single_sub_of_mem (y := main_v32) (by decide),
   single_sub_of_mem (y := main_v33) (by decide),
   single_sub_of_mem (y := main_v34) (by decide)⟩

/-- The references line 4 writes, in its order. -/
abbrev W4 : List (Ref sig .tc) := [main_c_4, main_call4_v0, main_v36, main_v37]
theorem ops4_writes : (ops4 (F := F)).Forall fun op => op.writes ⊆ (W4.map (Proc.devRef (τ := τ) .tc)).toFinset :=
  ⟨single_sub_of_mem (y := main_c_4) (by decide),
   single_sub_of_mem (y := main_call4_v0) (by decide),
   single_sub_of_mem (y := main_v36) (by decide),
   single_sub_of_mem (y := main_v37) (by decide)⟩

/-- The references line 5 writes, in its order. -/
abbrev W5 : List (Ref sig .tc) := [main_v39, main_v40, main_v41, main_v42, main_v43, main_v44, main_v45, main_v46, main_v47, main_v48]
theorem ops5_writes : (ops5 (F := F)).Forall fun op => op.writes ⊆ (W5.map (Proc.devRef (τ := τ) .tc)).toFinset :=
  ⟨single_sub_of_mem (y := main_v39) (by decide),
   single_sub_of_mem (y := main_v40) (by decide),
   single_sub_of_mem (y := main_v41) (by decide),
   single_sub_of_mem (y := main_v42) (by decide),
   single_sub_of_mem (y := main_v43) (by decide),
   single_sub_of_mem (y := main_v44) (by decide),
   single_sub_of_mem (y := main_v45) (by decide),
   single_sub_of_mem (y := main_v46) (by decide),
   single_sub_of_mem (y := main_v47) (by decide),
   single_sub_of_mem (y := main_v48) (by decide)⟩

variable (m : (ℓ : Loc nD τ sig) → Buf (Elt F) ℓ) (d : Dev nD)

/-! ## The arguments at launch -/

/-- The node features. -/
abbrev aX : Vec F S10000x128 .f32 := V0 m d (rf main_arg0)
/-- The edge list. -/
abbrev aEi : IVec S2x320000 32 := V0 m d (rf main_arg1)
/-- The node-to-graph assignment. -/
abbrev aBatch : IVec S10000 32 := V0 m d (rf main_arg2)
/-- The first layer's weights and bias, the second layer's, the read-out's. -/
abbrev aW1 : Vec F S128x64 .f32 := V0 m d (rf main_arg3)
abbrev aB1 : Vec F S64 .f32 := V0 m d (rf main_arg4)
abbrev aW2 : Vec F S64x64 .f32 := V0 m d (rf main_arg5)
abbrev aB2 : Vec F S64 .f32 := V0 m d (rf main_arg6)
abbrev aW3 : Vec F S64x1 .f32 := V0 m d (rf main_arg7)
abbrev aB3 : Vec F S1 .f32 := V0 m d (rf main_arg8)

/-! ## What each stage keeps -/

/-- Line 0 leaves every buffer it does not write as it was. -/
theorem V1_keep (r : Ref sig .tc) (hr : r ∉ W0) : V1 m d (rf r) = V0 m d (rf r) :=
  after_of_writes_sub ops0 (V0 m d) ops0_writes hr
/-- The call that writes `main_v18` leaves every other buffer as it was, and puts its value there. -/
theorem V2_ne (r : Ref sig .tc) (hr : r ≠ main_v18) : V2 m d (rf r) = V1 m d (rf r) :=
  Function.update_of_ne (devRef_ne_of_ne hr) _ _
/-- Line 1 leaves every buffer it does not write as it was. -/
theorem V3_keep (r : Ref sig .tc) (hr : r ∉ W1) : V3 m d (rf r) = V2 m d (rf r) :=
  after_of_writes_sub ops1 (V2 m d) ops1_writes hr
/-- The call that writes `main_v21` leaves every other buffer as it was, and puts its value there. -/
theorem V4_ne (r : Ref sig .tc) (hr : r ≠ main_v21) : V4 m d (rf r) = V3 m d (rf r) :=
  Function.update_of_ne (devRef_ne_of_ne hr) _ _
/-- Line 2 leaves every buffer it does not write as it was. -/
theorem V5_keep (r : Ref sig .tc) (hr : r ∉ W2) : V5 m d (rf r) = V4 m d (rf r) :=
  after_of_writes_sub ops2 (V4 m d) ops2_writes hr
/-- The call that writes `main_v24` leaves every other buffer as it was, and puts its value there. -/
theorem V6_ne (r : Ref sig .tc) (hr : r ≠ main_v24) : V6 m d (rf r) = V5 m d (rf r) :=
  Function.update_of_ne (devRef_ne_of_ne hr) _ _
/-- Line 3 leaves every buffer it does not write as it was. -/
theorem V7_keep (r : Ref sig .tc) (hr : r ∉ W3) : V7 m d (rf r) = V6 m d (rf r) :=
  after_of_writes_sub ops3 (V6 m d) ops3_writes hr
/-- The call that writes `main_v35` leaves every other buffer as it was, and puts its value there. -/
theorem V8_ne (r : Ref sig .tc) (hr : r ≠ main_v35) : V8 m d (rf r) = V7 m d (rf r) :=
  Function.update_of_ne (devRef_ne_of_ne hr) _ _
/-- Line 4 leaves every buffer it does not write as it was. -/
theorem V9_keep (r : Ref sig .tc) (hr : r ∉ W4) : V9 m d (rf r) = V8 m d (rf r) :=
  after_of_writes_sub ops4 (V8 m d) ops4_writes hr
/-- The call that writes `main_v38` leaves every other buffer as it was, and puts its value there. -/
theorem V10_ne (r : Ref sig .tc) (hr : r ≠ main_v38) : V10 m d (rf r) = V9 m d (rf r) :=
  Function.update_of_ne (devRef_ne_of_ne hr) _ _
/-- Line 5 leaves every buffer it does not write as it was. -/
theorem V11_keep (r : Ref sig .tc) (hr : r ∉ W5) : V11 m d (rf r) = V10 m d (rf r) :=
  after_of_writes_sub ops5 (V10 m d) ops5_writes hr
/-- The call that writes `main_v49` leaves every other buffer as it was, and puts its value there. -/
theorem V12_ne (r : Ref sig .tc) (hr : r ≠ main_v49) : V12 m d (rf r) = V11 m d (rf r) :=
  Function.update_of_ne (devRef_ne_of_ne hr) _ _

/-! ## The first line: the edge list laid out, the zero arrays, the reshaped parameters -/

theorem V1_v11 : V1 m d (rf main_v11) = gDst2 (aEi m d) := by
  unfold V1
  after_results
  rfl
theorem V1_v12 : V1 m d (rf main_v12) = gZn (F := F) := by
  unfold V1
  after_results
  rfl
theorem V1_v6 : V1 m d (rf main_v6) = gSrcp (aEi m d) := by
  unfold V1
  after_results
  rfl
theorem V1_v9 : V1 m d (rf main_v9) = gDstp (aEi m d) := by
  unfold V1
  after_results
  rfl
theorem V1_v13 : V1 m d (rf main_v13) = gZer (F := F) := by
  unfold V1
  after_results
  rfl
theorem V1_v14 : V1 m d (rf main_v14) = gBt2 (aBatch m d) := by
  unfold V1
  after_results
  rfl
theorem V1_v15 : V1 m d (rf main_v15) = gB1c (aB1 m d) := by
  unfold V1
  after_results
  rfl
theorem V1_v16 : V1 m d (rf main_v16) = gB2c (aB2 m d) := by
  unfold V1
  after_results
  rfl
theorem V1_v17 : V1 m d (rf main_v17) = gB3r (aB3 m d) := by
  unfold V1
  after_results
  rfl

/-! ## The arguments are never written -/

theorem V3_arg0 : V3 m d (rf main_arg0) = aX m d :=
  (V3_keep m d main_arg0 (by decide)).trans ((V2_ne m d main_arg0 (by decide)).trans ((V1_keep m d main_arg0 (by decide))))
theorem V3_arg3 : V3 m d (rf main_arg3) = aW1 m d :=
  (V3_keep m d main_arg3 (by decide)).trans ((V2_ne m d main_arg3 (by decide)).trans ((V1_keep m d main_arg3 (by decide))))
theorem V7_arg5 : V7 m d (rf main_arg5) = aW2 m d :=
  (V7_keep m d main_arg5 (by decide)).trans ((V6_ne m d main_arg5 (by decide)).trans ((V5_keep m d main_arg5 (by decide)).trans ((V4_ne m d main_arg5 (by decide)).trans ((V3_keep m d main_arg5 (by decide)).trans ((V2_ne m d main_arg5 (by decide)).trans ((V1_keep m d main_arg5 (by decide))))))))
theorem V11_arg7 : V11 m d (rf main_arg7) = aW3 m d :=
  (V11_keep m d main_arg7 (by decide)).trans ((V10_ne m d main_arg7 (by decide)).trans ((V9_keep m d main_arg7 (by decide)).trans ((V8_ne m d main_arg7 (by decide)).trans ((V7_keep m d main_arg7 (by decide)).trans ((V6_ne m d main_arg7 (by decide)).trans ((V5_keep m d main_arg7 (by decide)).trans ((V4_ne m d main_arg7 (by decide)).trans ((V3_keep m d main_arg7 (by decide)).trans ((V2_ne m d main_arg7 (by decide)).trans ((V1_keep m d main_arg7 (by decide))))))))))))

/-! ## The degree kernel's result and its transpose -/

/-- The inverse-root-degree input of the three regions: the 32 histograms cut to the nodes and transposed. -/
def degsG (ei : IVec S2x320000 32) : Vec F S10000x32 .f32 := gDegsT (degOut (gDst2 ei) (gZn (F := F)))

theorem V2_v18 : V2 m d (rf main_v18) = degOut (gDst2 (aEi m d)) (gZn (F := F)) := by
  unfold V2 scDeg
  rw [Function.update_self, V1_v11, V1_v12]

theorem V3_v20' : V3 m d (rf main_v20) = gDegsT (V2 m d (rf main_v18)) := by
  unfold V3
  generalize V2 m d = W
  after_results
  rfl

theorem V3_v20 : V3 m d (rf main_v20) = degsG (F := F) (aEi m d) := by
  rw [V3_v20', V2_v18]; rfl

/-! ## The first layer -/

/-- The first region's value. -/
def g1G (x : Vec F S10000x128 .f32) (ei : IVec S2x320000 32) (W1 : Vec F S128x64 .f32) : Vec F S64x10000 .f32 :=
  k1_pay1 (degsG (F := F) ei) W1 x

theorem V4_v21 : V4 m d (rf main_v21) = g1G (aX m d) (aEi m d) (aW1 m d) := by
  unfold V4 tc0
  rw [Function.update_self, V3_v20, V3_arg3, V3_arg0]; rfl

theorem V5_v23' : V5 m d (rf main_v23) = gPack (V4 m d (rf main_v21)) := by
  unfold V5
  generalize V4 m d = W
  after_results
  (try simp only [TRef.ofBuf, TRef.toBuf, cast_eq])
  rfl

theorem V5_v23 : V5 m d (rf main_v23) = gPack (g1G (aX m d) (aEi m d) (aW1 m d)) := by
  rw [V5_v23', V4_v21]

theorem V5_v6 : V5 m d (rf main_v6) = gSrcp (aEi m d) :=
  (V5_keep m d main_v6 (by decide)).trans ((V4_ne m d main_v6 (by decide)).trans ((V3_keep m d main_v6 (by decide)).trans ((V2_ne m d main_v6 (by decide)).trans ((V1_v6 m d)))))
theorem V5_v9 : V5 m d (rf main_v9) = gDstp (aEi m d) :=
  (V5_keep m d main_v9 (by decide)).trans ((V4_ne m d main_v9 (by decide)).trans ((V3_keep m d main_v9 (by decide)).trans ((V2_ne m d main_v9 (by decide)).trans ((V1_v9 m d)))))
theorem V5_v13 : V5 m d (rf main_v13) = gZer (F := F) :=
  (V5_keep m d main_v13 (by decide)).trans ((V4_ne m d main_v13 (by decide)).trans ((V3_keep m d main_v13 (by decide)).trans ((V2_ne m d main_v13 (by decide)).trans ((V1_v13 m d)))))

/-- The first edge kernel's value. -/
def e1G (x : Vec F S10000x128 .f32) (ei : IVec S2x320000 32) (W1 : Vec F S128x64 .f32) : Vec F S16x2x1x40064 .f32 :=
  edgeOut (gPack (g1G x ei W1)) (gSrcp ei) (gDstp ei) (gZer (F := F))

theorem V6_v24 : V6 m d (rf main_v24) = e1G (aX m d) (aEi m d) (aW1 m d) := by
  unfold V6 scEdge1
  rw [Function.update_self, V5_v23, V5_v6, V5_v9, V5_v13]; rfl

theorem V7_v30' : V7 m d (rf main_v30) = gUnpack0 (V6 m d (rf main_v24)) := by
  unfold V7
  generalize V6 m d = W
  after_results
  rfl
theorem V7_v34' : V7 m d (rf main_v34) = gUnpack1 (V6 m d (rf main_v24)) := by
  unfold V7
  generalize V6 m d = W
  after_results
  rfl

/-! ## The second layer -/

theorem V7_v20 : V7 m d (rf main_v20) = degsG (F := F) (aEi m d) :=
  (V7_keep m d main_v20 (by decide)).trans ((V6_ne m d main_v20 (by decide)).trans ((V5_keep m d main_v20 (by decide)).trans ((V4_ne m d main_v20 (by decide)).trans ((V3_v20 m d)))))
theorem V7_v21 : V7 m d (rf main_v21) = g1G (aX m d) (aEi m d) (aW1 m d) :=
  (V7_keep m d main_v21 (by decide)).trans ((V6_ne m d main_v21 (by decide)).trans ((V5_keep m d main_v21 (by decide)).trans ((V4_v21 m d))))
theorem V7_v15 : V7 m d (rf main_v15) = gB1c (aB1 m d) :=
  (V7_keep m d main_v15 (by decide)).trans ((V6_ne m d main_v15 (by decide)).trans ((V5_keep m d main_v15 (by decide)).trans ((V4_ne m d main_v15 (by decide)).trans ((V3_keep m d main_v15 (by decide)).trans ((V2_ne m d main_v15 (by decide)).trans ((V1_v15 m d)))))))

/-- The second region's value. -/
def g2G (x : Vec F S10000x128 .f32) (ei : IVec S2x320000 32) (W1 : Vec F S128x64 .f32) (b1 : Vec F S64 .f32)
    (W2 : Vec F S64x64 .f32) : Vec F S64x10000 .f32 :=
  k3_pay1 (degsG (F := F) ei) (gUnpack0 (e1G x ei W1)) (gUnpack1 (e1G x ei W1)) (g1G x ei W1) (gB1c b1) W2

theorem V8_v35 : V8 m d (rf main_v35) = g2G (aX m d) (aEi m d) (aW1 m d) (aB1 m d) (aW2 m d) := by
  unfold V8 tc1
  rw [Function.update_self, V7_v20, V7_v30', V7_v34', V6_v24, V7_v21, V7_v15, V7_arg5]; rfl

theorem V9_v37' : V9 m d (rf main_v37) = gPack (V8 m d (rf main_v35)) := by
  unfold V9
  generalize V8 m d = W
  after_results
  (try simp only [TRef.ofBuf, TRef.toBuf, cast_eq])
  rfl

theorem V9_v6 : V9 m d (rf main_v6) = gSrcp (aEi m d) :=
  (V9_keep m d main_v6 (by decide)).trans ((V8_ne m d main_v6 (by decide)).trans ((V7_keep m d main_v6 (by decide)).trans ((V6_ne m d main_v6 (by decide)).trans ((V5_v6 m d)))))
theorem V9_v9 : V9 m d (rf main_v9) = gDstp (aEi m d) :=
  (V9_keep m d main_v9 (by decide)).trans ((V8_ne m d main_v9 (by decide)).trans ((V7_keep m d main_v9 (by decide)).trans ((V6_ne m d main_v9 (by decide)).trans ((V5_v9 m d)))))
theorem V9_v13 : V9 m d (rf main_v13) = gZer (F := F) :=
  (V9_keep m d main_v13 (by decide)).trans ((V8_ne m d main_v13 (by decide)).trans ((V7_keep m d main_v13 (by decide)).trans ((V6_ne m d main_v13 (by decide)).trans ((V5_v13 m d)))))

/-- The second edge kernel's value. -/
def e2G (x : Vec F S10000x128 .f32) (ei : IVec S2x320000 32) (W1 : Vec F S128x64 .f32) (b1 : Vec F S64 .f32)
    (W2 : Vec F S64x64 .f32) : Vec F S16x2x1x40064 .f32 :=
  edgeOut (gPack (g2G x ei W1 b1 W2)) (gSrcp ei) (gDstp ei) (gZer (F := F))

theorem V10_v38 : V10 m d (rf main_v38) = e2G (aX m d) (aEi m d) (aW1 m d) (aB1 m d) (aW2 m d) := by
  unfold V10 scEdge2
  rw [Function.update_self, V9_v37', V8_v35, V9_v6, V9_v9, V9_v13]; rfl

theorem V11_v44' : V11 m d (rf main_v44) = gUnpack0 (V10 m d (rf main_v38)) := by
  unfold V11
  generalize V10 m d = W
  after_results
  rfl
theorem V11_v48' : V11 m d (rf main_v48) = gUnpack1 (V10 m d (rf main_v38)) := by
  unfold V11
  generalize V10 m d = W
  after_results
  rfl

/-! ## The read-out -/

theorem V11_v20 : V11 m d (rf main_v20) = degsG (F := F) (aEi m d) :=
  (V11_keep m d main_v20 (by decide)).trans ((V10_ne m d main_v20 (by decide)).trans ((V9_keep m d main_v20 (by decide)).trans ((V8_ne m d main_v20 (by decide)).trans ((V7_v20 m d)))))
theorem V11_v35 : V11 m d (rf main_v35) = g2G (aX m d) (aEi m d) (aW1 m d) (aB1 m d) (aW2 m d) :=
  (V11_keep m d main_v35 (by decide)).trans ((V10_ne m d main_v35 (by decide)).trans ((V9_keep m d main_v35 (by decide)).trans ((V8_v35 m d))))
theorem V11_v16 : V11 m d (rf main_v16) = gB2c (aB2 m d) :=
  (V11_keep m d main_v16 (by decide)).trans ((V10_ne m d main_v16 (by decide)).trans ((V9_keep m d main_v16 (by decide)).trans ((V8_ne m d main_v16 (by decide)).trans ((V7_keep m d main_v16 (by decide)).trans ((V6_ne m d main_v16 (by decide)).trans ((V5_keep m d main_v16 (by decide)).trans ((V4_ne m d main_v16 (by decide)).trans ((V3_keep m d main_v16 (by decide)).trans ((V2_ne m d main_v16 (by decide)).trans ((V1_v16 m d)))))))))))
theorem V11_v14 : V11 m d (rf main_v14) = gBt2 (aBatch m d) :=
  (V11_keep m d main_v14 (by decide)).trans ((V10_ne m d main_v14 (by decide)).trans ((V9_keep m d main_v14 (by decide)).trans ((V8_ne m d main_v14 (by decide)).trans ((V7_keep m d main_v14 (by decide)).trans ((V6_ne m d main_v14 (by decide)).trans ((V5_keep m d main_v14 (by decide)).trans ((V4_ne m d main_v14 (by decide)).trans ((V3_keep m d main_v14 (by decide)).trans ((V2_ne m d main_v14 (by decide)).trans ((V1_v14 m d)))))))))))
theorem V11_v17 : V11 m d (rf main_v17) = gB3r (aB3 m d) :=
  (V11_keep m d main_v17 (by decide)).trans ((V10_ne m d main_v17 (by decide)).trans ((V9_keep m d main_v17 (by decide)).trans ((V8_ne m d main_v17 (by decide)).trans ((V7_keep m d main_v17 (by decide)).trans ((V6_ne m d main_v17 (by decide)).trans ((V5_keep m d main_v17 (by decide)).trans ((V4_ne m d main_v17 (by decide)).trans ((V3_keep m d main_v17 (by decide)).trans ((V2_ne m d main_v17 (by decide)).trans ((V1_v17 m d)))))))))))

/-- The program's result as one term of its nine arguments: the degree histograms transposed, the first region, the
    first edge kernel over its packed table, the second region over the unpacked halves, the second edge kernel, the
    read-out region. -/
def kOutG (x : Vec F S10000x128 .f32) (ei : IVec S2x320000 32) (batch : IVec S10000 32) (W1 : Vec F S128x64 .f32)
    (b1 : Vec F S64 .f32) (W2 : Vec F S64x64 .f32) (b2 : Vec F S64 .f32) (W3 : Vec F S64x1 .f32) (b3 : Vec F S1 .f32) :
    Vec F S64x1 .f32 :=
  let degs : Vec F S10000x32 .f32 := gDegsT (degOut (gDst2 ei) (gZn (F := F)))
  let g1 : Vec F S64x10000 .f32 := k1_pay1 degs W1 x
  let e1 : Vec F S16x2x1x40064 .f32 := edgeOut (gPack g1) (gSrcp ei) (gDstp ei) (gZer (F := F))
  let g2 : Vec F S64x10000 .f32 := k3_pay1 degs (gUnpack0 e1) (gUnpack1 e1) g1 (gB1c b1) W2
  let e2 : Vec F S16x2x1x40064 .f32 := edgeOut (gPack g2) (gSrcp ei) (gDstp ei) (gZer (F := F))
  k5_pay1 (k5_pay2 degs (gUnpack0 e2) (gUnpack1 e2) g2 (gB2c b2) (gBt2 batch) W3) (gB3r b3)

/-- The program's result is that term of the arguments at launch. -/
theorem kOut_eq : kOut m d
    = kOutG (aX m d) (aEi m d) (aBatch m d) (aW1 m d) (aB1 m d) (aW2 m d) (aB2 m d) (aW3 m d) (aB3 m d) := by
  unfold kOut V12 tc2
  rw [Function.update_self, V11_v20, V11_v44', V11_v48', V10_v38, V11_v35, V11_v16, V11_v14, V11_arg7, V11_v17]; rfl

end Cert.Kernel.Hand

end
-- ==== Proof.K.ChainFacts.lean ====
/-
  Side facts of the host side of the program, for running its six straight lines inside the launch.

  * Every host operation touches only buffers of the TensorCore that outlive a region, and none of them leaves a
    buffer at contents of the machine's choosing: the two side conditions of running a straight line while all those
    buffers are held.
  * What the launch deals the TensorCore of its arrays is all of them held at the launch contents.
  * No operation and no call writes one of the program's nine arguments: at the end of the chain each still holds its
    launch contents. The two padded edge lists and the zero accumulator, made before the degree kernel, are not written
    again: the two edge kernels read them as the first line left them.
-/
import proofs.«219763_g10557029614292_week1_w2_488_21_alg».proof.Proof.K.Base
import proofs.«219763_g10557029614292_week1_w2_488_21_alg».proof.Proof.K.Chain
import proofs.«219763_g10557029614292_week1_w2_488_21_alg».proof.Proof.K.ChainValue
import Idealize.ShloMosaic.Lib.SparseCore.Launch

noncomputable section

namespace Cert.Kernel.Hand

open Cert.Kernel Cert.Kernel.Gen
open Idealize.ShloMosaic Idealize.ShloMosaic.StableHlo Idealize.SL.Sem
open Idealize.ShloMosaic.SparseCore.Cfg (HIx)
open Idealize.SL Idealize.SL.BI
open scoped Idealize.SL.BI

variable {F : FTy → Type} [FloatOps F]

local notation "𝕄" => MT nD τ sig (HIx 3) (Elt F) ℕ UU ℕ

/-! ## The straight lines' side conditions -/

/-- An operation on TensorCore references only touches only the unscoped ones: it names no scoped buffer. -/
theorem sub_Sall (op : HloOp τ sig (Elt F)) (h : op.bufs ⊆ tcRefs τ sig) : op.bufs ⊆ Sall := fun b hb => by
  obtain ⟨r, _, rfl⟩ := Finset.mem_map.mp (h hb)
  exact mem_Sall (op.no_scoped _ hb)

/-- Every operation of line 0 (before the degree kernel) touches TensorCore references only. -/
theorem ops0_tc : (ops0 : List (HloOp τ sig (Elt F))).Forall fun op => op.bufs ⊆ tcRefs τ sig :=
  ⟨unary_bufs_sub ..,
   reshape_bufs_sub ..,
   unary_bufs_sub ..,
   reshape_bufs_sub ..,
   reshape_bufs_sub ..,
   nullary_bufs_sub ..,
   unary_bufs_sub ..,
   binary_bufs_sub ..,
   reshape_bufs_sub ..,
   reshape_bufs_sub ..,
   nullary_bufs_sub ..,
   unary_bufs_sub ..,
   binary_bufs_sub ..,
   reshape_bufs_sub ..,
   reshape_bufs_sub ..,
   nullary_bufs_sub ..,
   unary_bufs_sub ..,
   binary_bufs_sub ..,
   nullary_bufs_sub ..,
   unary_bufs_sub ..,
   nullary_bufs_sub ..,
   unary_bufs_sub ..,
   reshape_bufs_sub ..,
   reshape_bufs_sub ..,
   reshape_bufs_sub ..,
   reshape_bufs_sub ..⟩
/-- Every operation of line 0 touches unscoped buffers of the TensorCore only. -/
theorem ops0_sub : ∀ op ∈ (ops0 : List (HloOp τ sig (Elt F))), op.bufs ⊆ Sall :=
  fun op hop => sub_Sall op (List.forall_iff_forall_mem.mp ops0_tc op hop)
/-- No operation of line 0 leaves a buffer it writes at contents of the machine's choosing. -/
theorem ops0_freshF : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem ops0_fresh : ∀ op ∈ (ops0 : List (HloOp τ sig (Elt F))), op.fresh = ∅ :=
  fun op hop => List.forall_iff_forall_mem.mp ops0_freshF op hop

/-- Every operation of line 1 (after the degree kernel) touches TensorCore references only. -/
theorem ops1_tc : (ops1 : List (HloOp τ sig (Elt F))).Forall fun op => op.bufs ⊆ tcRefs τ sig :=
  ⟨unary_bufs_sub ..,
   unary_bufs_sub ..⟩
/-- Every operation of line 1 touches unscoped buffers of the TensorCore only. -/
theorem ops1_sub : ∀ op ∈ (ops1 : List (HloOp τ sig (Elt F))), op.bufs ⊆ Sall :=
  fun op hop => sub_Sall op (List.forall_iff_forall_mem.mp ops1_tc op hop)
/-- No operation of line 1 leaves a buffer it writes at contents of the machine's choosing. -/
theorem ops1_freshF : (ops1 : List (HloOp τ sig (Elt F))).Forall fun op => op.fresh = ∅ :=
  ⟨rfl, rfl⟩
theorem ops1_fresh : ∀ op ∈ (ops1 : List (HloOp τ sig (Elt F))), op.fresh = ∅ :=
  fun op hop => List.forall_iff_forall_mem.mp ops1_freshF op hop

/-- Every operation of line 2 (before the first edge kernel) touches TensorCore references only. -/
theorem ops2_tc : (ops2 : List (HloOp τ sig (Elt F))).Forall fun op => op.bufs ⊆ tcRefs τ sig :=
  ⟨nullary_bufs_sub ..,
   unary_bufs_sub ..,
   binary_bufs_sub ..,
   reshape_bufs_sub ..⟩
/-- Every operation of line 2 touches unscoped buffers of the TensorCore only. -/
theorem ops2_sub : ∀ op ∈ (ops2 : List (HloOp τ sig (Elt F))), op.bufs ⊆ Sall :=
  fun op hop => sub_Sall op (List.forall_iff_forall_mem.mp ops2_tc op hop)
/-- No operation of line 2 leaves a buffer it writes at contents of the machine's choosing. -/
theorem ops2_freshF : (ops2 : List (HloOp τ sig (Elt F))).Forall fun op => op.fresh = ∅ :=
  ⟨rfl, rfl, rfl, rfl⟩
theorem ops2_fresh : ∀ op ∈ (ops2 : List (HloOp τ sig (Elt F))), op.fresh = ∅ :=
  fun op hop => List.forall_iff_forall_mem.mp ops2_freshF op hop

/-- Every operation of line 3 (after the first edge kernel) touches TensorCore references only. -/
theorem ops3_tc : (ops3 : List (HloOp τ sig (Elt F))).Forall fun op => op.bufs ⊆ tcRefs τ sig :=
  ⟨reshape_bufs_sub ..,
   reshape_bufs_sub ..,
   unary_bufs_sub ..,
   reshape_bufs_sub ..,
   reshape_bufs_sub ..,
   unary_bufs_sub ..,
   unary_bufs_sub ..,
   reshape_bufs_sub ..,
   reshape_bufs_sub ..,
   unary_bufs_sub ..⟩
/-- Every operation of line 3 touches unscoped buffers of the TensorCore only. -/
theorem ops3_sub : ∀ op ∈ (ops3 : List (HloOp τ sig (Elt F))), op.bufs ⊆ Sall :=
  fun op hop => sub_Sall op (List.forall_iff_forall_mem.mp ops3_tc op hop)
/-- No operation of line 3 leaves a buffer it writes at contents of the machine's choosing. -/
theorem ops3_freshF : (ops3 : List (HloOp τ sig (Elt F))).Forall fun op => op.fresh = ∅ :=
  ⟨rfl, rfl, rfl, rfl, rfl, rfl, rfl, rfl, rfl, rfl⟩
theorem ops3_fresh : ∀ op ∈ (ops3 : List (HloOp τ sig (Elt F))), op.fresh = ∅ :=
  fun op hop => List.forall_iff_forall_mem.mp ops3_freshF op hop

/-- Every operation of line 4 (before the second edge kernel) touches TensorCore references only. -/
theorem ops4_tc : (ops4 : List (HloOp τ sig (Elt F))).Forall fun op => op.bufs ⊆ tcRefs τ sig :=
  ⟨nullary_bufs_sub ..,
   unary_bufs_sub ..,
   binary_bufs_sub ..,
   reshape_bufs_sub ..⟩
/-- Every operation of line 4 touches unscoped buffers of the TensorCore only. -/
theorem ops4_sub : ∀ op ∈ (ops4 : List (HloOp τ sig (Elt F))), op.bufs ⊆ Sall :=
  fun op hop => sub_Sall op (List.forall_iff_forall_mem.mp ops4_tc op hop)
/-- No operation of line 4 leaves a buffer it writes at contents of the machine's choosing. -/
theorem ops4_freshF : (ops4 : List (HloOp τ sig (Elt F))).Forall fun op => op.fresh = ∅ :=
  ⟨rfl, rfl, rfl, rfl⟩
theorem ops4_fresh : ∀ op ∈ (ops4 : List (HloOp τ sig (Elt F))), op.fresh = ∅ :=
  fun op hop => List.forall_iff_forall_mem.mp ops4_freshF op hop

/-- Every operation of line 5 (after the second edge kernel) touches TensorCore references only. -/
theorem ops5_tc : (ops5 : List (HloOp τ sig (Elt F))).Forall fun op => op.bufs ⊆ tcRefs τ sig :=
  ⟨reshape_bufs_sub ..,
   reshape_bufs_sub ..,
   unary_bufs_sub ..,
   reshape_bufs_sub ..,
   reshape_bufs_sub ..,
   unary_bufs_sub ..,
   unary_bufs_sub ..,
   reshape_bufs_sub ..,
   reshape_bufs_sub ..,
   unary_bufs_sub ..⟩
/-- Every operation of line 5 touches unscoped buffers of the TensorCore only. -/
theorem ops5_sub : ∀ op ∈ (ops5 : List (HloOp τ sig (Elt F))), op.bufs ⊆ Sall :=
  fun op hop => sub_Sall op (List.forall_iff_forall_mem.mp ops5_tc op hop)
/-- No operation of line 5 leaves a buffer it writes at contents of the machine's choosing. -/
theorem ops5_freshF : (ops5 : List (HloOp τ sig (Elt F))).Forall fun op => op.fresh = ∅ :=
  ⟨rfl, rfl, rfl, rfl, rfl, rfl, rfl, rfl, rfl, rfl⟩
theorem ops5_fresh : ∀ op ∈ (ops5 : List (HloOp τ sig (Elt F))), op.fresh = ∅ :=
  fun op hop => List.forall_iff_forall_mem.mp ops5_freshF op hop

/-! ## The launch's holdings -/

/-- What the launch deals the TensorCore of its arrays: every unscoped buffer whole, at the launch contents. -/
theorem unscoped_held (m : (ℓ : Loc nD τ sig) → Buf (Elt F) ℓ) (d : Dev nD) :
    (unscopedBufs d (fun b => m ((SparseCore.T d).loc b)) : sProp 𝕄) = held (SparseCore.T d) Sall (V0 m d) := by
  unfold unscopedBufs held Sall
  rw [bigSep_map]
  rfl

variable (m : (ℓ : Loc nD τ sig) → Buf (Elt F) ℓ) (d : Dev nD)

/-! ## The arguments are never written -/

theorem V12_arg0_keep : V12 m d (rf main_arg0) = m ((SparseCore.T d).loc main_arg0) :=
  (V12_ne m d main_arg0 (by decide)).trans ((V11_keep m d main_arg0 (by decide)).trans ((V10_ne m d main_arg0 (by decide)).trans ((V9_keep m d main_arg0 (by decide)).trans ((V8_ne m d main_arg0 (by decide)).trans ((V7_keep m d main_arg0 (by decide)).trans ((V6_ne m d main_arg0 (by decide)).trans ((V5_keep m d main_arg0 (by decide)).trans ((V4_ne m d main_arg0 (by decide)).trans ((V3_keep m d main_arg0 (by decide)).trans ((V2_ne m d main_arg0 (by decide)).trans ((V1_keep m d main_arg0 (by decide)))))))))))))
theorem V12_arg1_keep : V12 m d (rf main_arg1) = m ((SparseCore.T d).loc main_arg1) :=
  (V12_ne m d main_arg1 (by decide)).trans ((V11_keep m d main_arg1 (by decide)).trans ((V10_ne m d main_arg1 (by decide)).trans ((V9_keep m d main_arg1 (by decide)).trans ((V8_ne m d main_arg1 (by decide)).trans ((V7_keep m d main_arg1 (by decide)).trans ((V6_ne m d main_arg1 (by decide)).trans ((V5_keep m d main_arg1 (by decide)).trans ((V4_ne m d main_arg1 (by decide)).trans ((V3_keep m d main_arg1 (by decide)).trans ((V2_ne m d main_arg1 (by decide)).trans ((V1_keep m d main_arg1 (by decide)))))))))))))
theorem V12_arg2_keep : V12 m d (rf main_arg2) = m ((SparseCore.T d).loc main_arg2) :=
  (V12_ne m d main_arg2 (by decide)).trans ((V11_keep m d main_arg2 (by decide)).trans ((V10_ne m d main_arg2 (by decide)).trans ((V9_keep m d main_arg2 (by decide)).trans ((V8_ne m d main_arg2 (by decide)).trans ((V7_keep m d main_arg2 (by decide)).trans ((V6_ne m d main_arg2 (by decide)).trans ((V5_keep m d main_arg2 (by decide)).trans ((V4_ne m d main_arg2 (by decide)).trans ((V3_keep m d main_arg2 (by decide)).trans ((V2_ne m d main_arg2 (by decide)).trans ((V1_keep m d main_arg2 (by decide)))))))))))))
theorem V12_arg3_keep : V12 m d (rf main_arg3) = m ((SparseCore.T d).loc main_arg3) :=
  (V12_ne m d main_arg3 (by decide)).trans ((V11_keep m d main_arg3 (by decide)).trans ((V10_ne m d main_arg3 (by decide)).trans ((V9_keep m d main_arg3 (by decide)).trans ((V8_ne m d main_arg3 (by decide)).trans ((V7_keep m d main_arg3 (by decide)).trans ((V6_ne m d main_arg3 (by decide)).trans ((V5_keep m d main_arg3 (by decide)).trans ((V4_ne m d main_arg3 (by decide)).trans ((V3_keep m d main_arg3 (by decide)).trans ((V2_ne m d main_arg3 (by decide)).trans ((V1_keep m d main_arg3 (by decide)))))))))))))
theorem V12_arg4_keep : V12 m d (rf main_arg4) = m ((SparseCore.T d).loc main_arg4) :=
  (V12_ne m d main_arg4 (by decide)).trans ((V11_keep m d main_arg4 (by decide)).trans ((V10_ne m d main_arg4 (by decide)).trans ((V9_keep m d main_arg4 (by decide)).trans ((V8_ne m d main_arg4 (by decide)).trans ((V7_keep m d main_arg4 (by decide)).trans ((V6_ne m d main_arg4 (by decide)).trans ((V5_keep m d main_arg4 (by decide)).trans ((V4_ne m d main_arg4 (by decide)).trans ((V3_keep m d main_arg4 (by decide)).trans ((V2_ne m d main_arg4 (by decide)).trans ((V1_keep m d main_arg4 (by decide)))))))))))))
theorem V12_arg5_keep : V12 m d (rf main_arg5) = m ((SparseCore.T d).loc main_arg5) :=
  (V12_ne m d main_arg5 (by decide)).trans ((V11_keep m d main_arg5 (by decide)).trans ((V10_ne m d main_arg5 (by decide)).trans ((V9_keep m d main_arg5 (by decide)).trans ((V8_ne m d main_arg5 (by decide)).trans ((V7_keep m d main_arg5 (by decide)).trans ((V6_ne m d main_arg5 (by decide)).trans ((V5_keep m d main_arg5 (by decide)).trans ((V4_ne m d main_arg5 (by decide)).trans ((V3_keep m d main_arg5 (by decide)).trans ((V2_ne m d main_arg5 (by decide)).trans ((V1_keep m d main_arg5 (by decide)))))))))))))
theorem V12_arg6_keep : V12 m d (rf main_arg6) = m ((SparseCore.T d).loc main_arg6) :=
  (V12_ne m d main_arg6 (by decide)).trans ((V11_keep m d main_arg6 (by decide)).trans ((V10_ne m d main_arg6 (by decide)).trans ((V9_keep m d main_arg6 (by decide)).trans ((V8_ne m d main_arg6 (by decide)).trans ((V7_keep m d main_arg6 (by decide)).trans ((V6_ne m d main_arg6 (by decide)).trans ((V5_keep m d main_arg6 (by decide)).trans ((V4_ne m d main_arg6 (by decide)).trans ((V3_keep m d main_arg6 (by decide)).trans ((V2_ne m d main_arg6 (by decide)).trans ((V1_keep m d main_arg6 (by decide)))))))))))))
theorem V12_arg7_keep : V12 m d (rf main_arg7) = m ((SparseCore.T d).loc main_arg7) :=
  (V12_ne m d main_arg7 (by decide)).trans ((V11_keep m d main_arg7 (by decide)).trans ((V10_ne m d main_arg7 (by decide)).trans ((V9_keep m d main_arg7 (by decide)).trans ((V8_ne m d main_arg7 (by decide)).trans ((V7_keep m d main_arg7 (by decide)).trans ((V6_ne m d main_arg7 (by decide)).trans ((V5_keep m d main_arg7 (by decide)).trans ((V4_ne m d main_arg7 (by decide)).trans ((V3_keep m d main_arg7 (by decide)).trans ((V2_ne m d main_arg7 (by decide)).trans ((V1_keep m d main_arg7 (by decide)))))))))))))
theorem V12_arg8_keep : V12 m d (rf main_arg8) = m ((SparseCore.T d).loc main_arg8) :=
  (V12_ne m d main_arg8 (by decide)).trans ((V11_keep m d main_arg8 (by decide)).trans ((V10_ne m d main_arg8 (by decide)).trans ((V9_keep m d main_arg8 (by decide)).trans ((V8_ne m d main_arg8 (by decide)).trans ((V7_keep m d main_arg8 (by decide)).trans ((V6_ne m d main_arg8 (by decide)).trans ((V5_keep m d main_arg8 (by decide)).trans ((V4_ne m d main_arg8 (by decide)).trans ((V3_keep m d main_arg8 (by decide)).trans ((V2_ne m d main_arg8 (by decide)).trans ((V1_keep m d main_arg8 (by decide)))))))))))))

/-! ## The padded edge lists and the zero accumulator are written once -/

theorem V5_v6_keep : V5 m d (rf main_v6) = V1 m d (rf main_v6) :=
  (V5_keep m d main_v6 (by decide)).trans ((V4_ne m d main_v6 (by decide)).trans ((V3_keep m d main_v6 (by decide)).trans ((V2_ne m d main_v6 (by decide)))))
theorem V5_v9_keep : V5 m d (rf main_v9) = V1 m d (rf main_v9) :=
  (V5_keep m d main_v9 (by decide)).trans ((V4_ne m d main_v9 (by decide)).trans ((V3_keep m d main_v9 (by decide)).trans ((V2_ne m d main_v9 (by decide)))))
theorem V5_v13_keep : V5 m d (rf main_v13) = V1 m d (rf main_v13) :=
  (V5_keep m d main_v13 (by decide)).trans ((V4_ne m d main_v13 (by decide)).trans ((V3_keep m d main_v13 (by decide)).trans ((V2_ne m d main_v13 (by decide)))))
theorem V9_v6_keep : V9 m d (rf main_v6) = V1 m d (rf main_v6) :=
  (V9_keep m d main_v6 (by decide)).trans ((V8_ne m d main_v6 (by decide)).trans ((V7_keep m d main_v6 (by decide)).trans ((V6_ne m d main_v6 (by decide)).trans ((V5_keep m d main_v6 (by decide)).trans ((V4_ne m d main_v6 (by decide)).trans ((V3_keep m d main_v6 (by decide)).trans ((V2_ne m d main_v6 (by decide)))))))))
theorem V9_v9_keep : V9 m d (rf main_v9) = V1 m d (rf main_v9) :=
  (V9_keep m d main_v9 (by decide)).trans ((V8_ne m d main_v9 (by decide)).trans ((V7_keep m d main_v9 (by decide)).trans ((V6_ne m d main_v9 (by decide)).trans ((V5_keep m d main_v9 (by decide)).trans ((V4_ne m d main_v9 (by decide)).trans ((V3_keep m d main_v9 (by decide)).trans ((V2_ne m d main_v9 (by decide)))))))))
theorem V9_v13_keep : V9 m d (rf main_v13) = V1 m d (rf main_v13) :=
  (V9_keep m d main_v13 (by decide)).trans ((V8_ne m d main_v13 (by decide)).trans ((V7_keep m d main_v13 (by decide)).trans ((V6_ne m d main_v13 (by decide)).trans ((V5_keep m d main_v13 (by decide)).trans ((V4_ne m d main_v13 (by decide)).trans ((V3_keep m d main_v13 (by decide)).trans ((V2_ne m d main_v13 (by decide)))))))))

end Cert.Kernel.Hand

end
-- ==== Proof.K.HeldAgree.lean ====
/-
  Buffers held whole against the state interpretation: the physical contents of every held buffer are the held contents.
-/
import proofs.«219763_g10557029614292_week1_w2_488_21_alg».proof.Proof.K.Base

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 3) (Elt F) ℕ UU ℕ

/-- A set of a thread's device's buffers held whole at a valuation, together with the state interpretation of a
    physical state, pins each of those buffers' physical contents to the valuation's. -/
theorem held_agree_all (c : Thread nD τ) (S : Finset (DevRef τ sig)) (V : Valuation τ sig (Elt F)) (s' : Phys nD τ sig (Elt F)) :
    iprop((held c S V : sProp 𝕄) ∗ SI s') ⊢ (⌜∀ b ∈ S, s'.mem.mem (c.1, b) = V b⌝ : sProp 𝕄) := by
  unfold held
  iintro ⟨H, HSI⟩
  ihave %h := (SI_pointsTo_bufs_agree (qs := fun _ => fullShare) S) $$ [HSI H]
  · isplitl [HSI]; · iexact HSI
    iexact H
  ipureintro
  exact h

end Cert.Kernel.Hand

end
-- ==== Proof.K.TcRegion.lean ====
/-
  The three TensorCore kernels that run between the SparseCore kernels, each as a rule for the TensorCore's proof
  of the host program: from the region boundary, the host program's arrays held whole at a valuation, what the
  TensorCore owes the SparseCores, and the rounds of the kernel's staging cells, the call runs to the same
  holdings with the valuation updated at the call's result array by the kernel body's value of its operands.

  Each call has one grid point; every operand is one window whose block is the whole array, staged through one
  buffer. The body loads every staged operand whole, loads the staged result, and stores the result whole once.
-/
import proofs.«219763_g10557029614292_week1_w2_488_21_alg».proof.Proof.K.Base
import proofs.«219763_g10557029614292_week1_w2_488_21_alg».proof.Proof.K.Chain
import Idealize.ShloMosaic.Lib.Pipeline.FrameBody
import Idealize.ShloMosaic.Lib.Pipeline.Value
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## What is common to the three calls -/

/-- No call prefetches a table. -/
abbrev adm : (p : Fin 3) → (pcfgs (F := F) p).Adm := fun p => (cfgs p).toPCfg_adm

/-- A valuation read at the TensorCore's references. -/
abbrev atTc (W : Valuation τ sig (Elt F)) (c : Dev nD) : (b : Ref sig .tc) → Buf (Elt F) ((c : Thread nD τ).loc b) := fun b => W b

/-- The pairs a TensorCore may have recorded before SparseCore call n. -/
abbrev recB (c : Dev nD) (n : ℕ) : Set (SemLoc sig × HIx 3) := {pr | (K (F := F)).lev (T c, pr.1) pr.2 ≤ 8 * n}

/-- What the TensorCore owes before SparseCore call n, and the bound on its recorded pairs. -/
abbrev owesTc (c : Dev nD) (n : ℕ) : sProp 𝕄 :=
  iprop(∃ Wt, ⌜(K (F := F)).WBelow (T c) Wt (8 * n)⌝ ∗ owes (T c) ((K (F := F)).Otc c n) Wt)

/-- The rounds of call p's staging cells, as the launch deals them. -/
abbrev RG (p : Fin 3) (c : Dev nD) : sProp 𝕄 :=
  iprop(Pipeline.cellsGhost (Pipeline.pin (pcfgs (F := F)) adm) EP p c ∗ Pipeline.toksInit (Pipeline.pin (pcfgs (F := F)) adm) EP p c)

/-- The element of the staging cells' rounds the launch funds. -/
abbrev uP : UP := initOf (Pipeline.cells (nD := nD) (τ := τ) cfgs cellOf_inj) (Pipeline.launchToks (nD := nD) (τ := τ) cfgs cellOf_inj)

/-- The launch's share: from the staging cells' rounds element, every TensorCore's rounds for the three calls. -/
theorem fund_RG : BI.own ((EP : Emb UP 𝕄) uP) ⊢ |={Set.univ}=> bigSep Finset.univ fun d : Dev nD => iprop(RG (F := F) 0 d ∗ RG (F := F) 1 d ∗ RG (F := F) 2 d) := by
  have h3 : ∀ Φ : Fin 3 → sProp 𝕄, bigSep Finset.univ Φ = iprop(Φ 0 ∗ Φ 1 ∗ Φ 2) := fun Φ =>
    bigSep_univ_eq_bigSepL [(0 : Fin 3), (1 : Fin 3), (2 : Fin 3)] (by decide) (by decide) Φ
  have hre : iprop((bigSep Finset.univ fun c : Dev nD => bigSep Finset.univ fun p : Fin 3 => Pipeline.cellsGhost (Ix := HIx 3) (Val := Elt F) (Name := ℕ) (U := UU) (Lvl := ℕ) cfgs EP p c)
        ∗ (bigSep Finset.univ fun c : Dev nD => bigSep Finset.univ fun p : Fin 3 => (Pipeline.toksInit (Ix := HIx 3) (Val := Elt F) (Name := ℕ) (U := UU) (Lvl := ℕ) cfgs EP p c : sProp 𝕄)))
      ⊢ bigSep Finset.univ fun d : Dev nD => iprop(RG (F := F) 0 d ∗ RG (F := F) 1 d ∗ RG (F := F) 2 d) := by
    have hd : ∀ (g t : Fin 3 → sProp 𝕄), iprop((g 0 ∗ g 1 ∗ g 2) ∗ t 0 ∗ t 1 ∗ t 2) ⊢ iprop((g 0 ∗ t 0) ∗ (g 1 ∗ t 1) ∗ g 2 ∗ t 2) := fun g t => by
      iintro ⟨⟨Hg0, Hg1, Hg2⟩, ⟨Ht0, Ht1, Ht2⟩⟩
      isplitl [Hg0 Ht0]; · isplitl [Hg0] <;> iassumption
      isplitl [Hg1 Ht1]; · isplitl [Hg1] <;> iassumption
      isplitl [Hg2] <;> iassumption
    rw [← bigSep_sep']
    refine bigSep_mono fun d _ => ?_
    rw [h3, h3]
    exact hd (fun p => Pipeline.cellsGhost (Ix := HIx 3) (Val := Elt F) (Name := ℕ) (U := UU) (Lvl := ℕ) cfgs EP p d)
      (fun p => Pipeline.toksInit (Ix := HIx 3) (Val := Elt F) (Name := ℕ) (U := UU) (Lvl := ℕ) cfgs EP p d)
  iintro Hu
  imod (Pipeline.fund_ghost (nD := nD) (τ := τ) (Val := Elt F) (Ix := HIx 3) (Name := ℕ) (U := UU) (Lvl := ℕ) cfgs EP cellOf_inj) $$ Hu with ⟨Hg, Ht⟩
  imodintro
  iapply hre
  isplitl [Hg] <;> iassumption

/-- Proof data that say nothing: what a call's rule puts at the other two calls' indices. -/
def datNone (cfg : Cfg sig Λ₀) (c : Dev nD) : Dat τ (Elt F) (HIx 3) ℕ UU ℕ cfg c where
  A _ := Classical.arbitrary _
  after _ _ := Classical.arbitrary _
  Φ _ := BI.emp
  q _ := fullShare
  owed _ := 0

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The TensorCore's unscoped buffers at a valuation are the program's arrays held at it. -/
theorem unscopedBufs_Sall (c : Dev nD) (W : Valuation τ sig (Elt F)) :
    (unscopedBufs (Ix := HIx 3) (Name := ℕ) (U := UU) (Lvl := ℕ) c (atTc W c) : sProp 𝕄) = StableHlo.held (c.tc : Thread nD τ) Sall W := by
  unfold unscopedBufs StableHlo.held
  rw [bigSep_map]
  rfl

/-- The bound on the recorded pairs comes back from the region: its own waits are at the kernels' index. -/
theorem owesTc_of_owesAt (c : Dev nD) (n : ℕ) {cfg : Cfg sig Λ₀} (dat : Dat τ (Elt F) (HIx 3) ℕ UU ℕ cfg c)
    (t : Fin (cfg.N + 1)) (ho : dat.owed t = (K (F := F)).Otc c n) (hr : dat.recorded t = recB (F := F) c n) :
    dat.owesAt none t ⊢ owesTc (F := F) c n := by
  unfold Pipeline.Dat.owesAt Pipeline.owesWithin
  rw [ho]
  iintro ⟨%Wt, %hW, HO⟩
  iexists Wt
  isplitr
  · ipureintro
    intro pr hpr
    rcases hW hpr with h | ⟨w, s, h⟩
    · rw [hr] at h; exact h
    · rw [h]; exact Nat.zero_le _
  iexact HO

theorem owesAt_of_owesTc (c : Dev nD) (n : ℕ) {cfg : Cfg sig Λ₀} (dat : Dat τ (Elt F) (HIx 3) ℕ UU ℕ cfg c)
    (t : Fin (cfg.N + 1)) (ho : dat.owed t = (K (F := F)).Otc c n) (hr : dat.recorded t = recB (F := F) c n) :
    owesTc (F := F) c n ⊢ dat.owesAt none t := by
  unfold Pipeline.Dat.owesAt Pipeline.owesWithin
  rw [ho]
  iintro ⟨%Wt, %hW, HO⟩
  iexists Wt
  isplitr
  · ipureintro
    intro pr hpr
    refine Or.inl ?_
    rw [hr]; exact hW pr hpr
  iexact HO

/-! ## custom_call 1 -/

section Call1

variable (W : Valuation τ sig (Elt F))

/-- Window w's block at the point, read off its array at the entry valuation. -/
def iblk1 (c : Dev nD) (w : Fin cfg1.W) (t : Fin cfg1.N) : ((cfg1.win w).xblock (cfg1.grid.coords t)).Idx → Elt F (cfg1.win w).elt :=
  ((cfg1.win w).blk t).view.read (Elt F) (atTc W c (Pipeline.arrRef spec1 w))

theorem before1_0_of {c : Dev nD} (dat : Dat τ (Elt F) (HIx 3) ℕ UU ℕ cfg1 c) (hA : dat.A 0 = atTc W c (Pipeline.arrRef spec1 0))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 3) ℕ UU ℕ cfg1 c) (hA : dat.A 1 = atTc W c (Pipeline.arrRef spec1 1))
    (hafter : ∀ t, dat.after 1 t = iblk1 W c 1 t) (t : Fin cfg1.N) (d) : dat.before 1 t d = iblk1 W c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 3) ℕ UU ℕ cfg1 c) (hA : dat.A 2 = atTc W c (Pipeline.arrRef spec1 2))
    (hafter : ∀ t, dat.after 2 t = iblk1 W c 2 t) (t : Fin cfg1.N) (d) : dat.before 2 t d = iblk1 W c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x128 := Rect.unit (s := S10000x128) ![0, 0] S10000x128.size inb_S10000x128_S10000x128_0_0
abbrev r1_1 : Rect S128x64 := Rect.unit (s := S128x64) ![0, 0] S128x64.size inb_S128x64_S128x64_0_0
abbrev r1_2 : Rect S10000x32 := Rect.unit (s := S10000x32) ![0, 0] S10000x32.size inb_S10000x32_S10000x32_0_0
abbrev r1_3 : Rect S64x10000 := Rect.unit (s := S64x10000) ![0, 0] S64x10000.size inb_S64x10000_S64x10000_0_0

/-- The result window's buffer after the body: its one store's payload of the three loads. -/
def out1 (x0 : Vec F S10000x128 .f32) (x1 : Vec F S128x64 .f32) (x2 : Vec F S10000x32 .f32) : Vec F S64x10000 .f32 :=
  View.canon [⟨r1_3, k1_pay1 (View.ld x2 r1_2) (View.ld x1 r1_1) (View.ld x0 r1_0)⟩]

theorem cover1 (p0 : Vec F S64x10000 .f32) (y : S64x10000.Idx) :
    ∃ pc ∈ ([⟨r1_3, p0⟩] : List (View.Piece (Elt F) S64x10000 .f32)), y ∈ pc.1.set :=
  ⟨_, List.mem_singleton_self _, View.mem_set_unit_zero (by funext a; fin_cases a <;> rfl) inb_S64x10000_S64x10000_0_0 y⟩

theorem out1_eq (x0 : Vec F S10000x128 .f32) (x1 : Vec F S128x64 .f32) (x2 : Vec F S10000x32 .f32) :
    out1 x0 x1 x2 = k1_pay1 x2 x1 x0 := by
  have h2 : ∀ a : Fin 2, (![0, 0] : Fin 2 → ℕ) a = 0 := fun a => by fin_cases a <;> rfl
  unfold out1
  rw [View.canon_unit_zero (funext h2), View.ld_unit_zero (funext h2), View.ld_unit_zero (funext h2), View.ld_unit_zero (funext h2)]

set_option maxHeartbeats 1000000 in
/-- The body on whole staging memrefs: the operands' as they were, the result's at the payload of the operands'. -/
theorem sound_kernel1 (c : Dev nD) (E : Set ℕ) (arg0 : Memref sig .tc .vmem S10000x128 .f32) (harg0 : arg0.IsWhole) (arg1 : Memref sig .tc .vmem S128x64 .f32) (harg1 : arg1.IsWhole)
    (arg2 : Memref sig .tc .vmem S10000x32 .f32) (harg2 : arg2.IsWhole) (arg3 : Memref sig .tc .vmem S64x10000 .f32) (harg3 : arg3.IsWhole)
    (x0 : Vec F S10000x128 .f32) (x1 : Vec F S128x64 .f32) (x2 : Vec F S10000x32 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1 x0 x1 x2)) -∗ Kk ⟨⟩))
      ⊢ wp frame (wpE (defs₀ (F := F)) Variants.none c none) E (cc1_body arg0 harg0 arg1 harg1 arg2 harg2 arg3 harg3) Kk := by
  simp only [cc1_body_eq_skeleton]; unfold cc1_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of call 1 on core c at the entry valuation W, the core owing O with its recorded pairs within B. -/
def dat1 (O : CellTallies nD τ sig (HIx 3)) (B : Set (SemLoc sig × HIx 3)) (c : Dev nD) : Dat τ (Elt F) (HIx 3) ℕ UU ℕ cfg1 c where
  A w := atTc W c (Pipeline.arrRef spec1 w)
  after w t := match w with
    | ⟨0, _⟩ => iblk1 W c 0 t
    | ⟨1, _⟩ => iblk1 W c 1 t
    | ⟨2, _⟩ => iblk1 W c 2 t
    | ⟨3, _⟩ => out1 (iblk1 W c 0 t) (iblk1 W c 1 t) (iblk1 W c 2 t)
  Φ _ := Pipeline.scopedRest spec1 c
  q _ := fullShare
  owed _ := O
  recorded _ := B

variable (O : CellTallies nD τ sig (HIx 3)) (B : Set (SemLoc sig × HIx 3))

theorem A_eq1 (c : Dev nD) (w : Fin cfg1.W) : (dat1 W O B c).A w = atTc W c (Pipeline.arrRef spec1 w) := by
  dsimp only [dat1]
theorem after1_0 (c : Dev nD) (t : Fin cfg1.N) : (dat1 W O B c).after 0 t = iblk1 W c 0 t := by dsimp only [dat1]
theorem after1_1 (c : Dev nD) (t : Fin cfg1.N) : (dat1 W O B c).after 1 t = iblk1 W c 1 t := by dsimp only [dat1]
theorem after1_2 (c : Dev nD) (t : Fin cfg1.N) : (dat1 W O B c).after 2 t = iblk1 W c 2 t := by dsimp only [dat1]
theorem after1_3 (c : Dev nD) (t : Fin cfg1.N) :
    (dat1 W O B c).after 3 t = out1 (iblk1 W c 0 t) (iblk1 W c 1 t) (iblk1 W c 2 t) := by dsimp only [dat1]
theorem before1_0 (c : Dev nD) (t : Fin cfg1.N) (d) : (dat1 W O B c).before 0 t d = iblk1 W c 0 t :=
  before1_0_of W (dat1 W O B c) (A_eq1 W O B c 0) (after1_0 W O B c) t d
theorem before1_1 (c : Dev nD) (t : Fin cfg1.N) (d) : (dat1 W O B c).before 1 t d = iblk1 W c 1 t :=
  before1_1_of W (dat1 W O B c) (A_eq1 W O B c 1) (after1_1 W O B c) t d
theorem before1_2 (c : Dev nD) (t : Fin cfg1.N) (d) : (dat1 W O B c).before 2 t d = iblk1 W c 2 t :=
  before1_2_of W (dat1 W O B c) (A_eq1 W O B c 2) (after1_2 W O B c) t d

/-- What the body is called with at the point, the windows one by one, -/
def bodyPre1 (c : Dev nD) (t : Fin cfg1.N) : sProp 𝕄 :=
  iprop((dat1 W O B c).Φ t.castSucc ∗ (dat1 W O B c).owesAt none t.castSucc
    ∗ (∃ d, owns (c : Thread nD τ) (st1_0 t) fullShare ((dat1 W O B c).before 0 t d))
    ∗ (∃ d, owns (c : Thread nD τ) (st1_1 t) fullShare ((dat1 W O B c).before 1 t d))
    ∗ (∃ d, owns (c : Thread nD τ) (st1_2 t) fullShare ((dat1 W O B c).before 2 t d))
    ∗ (∃ d, owns (c : Thread nD τ) (st1_3 t) fullShare ((dat1 W O B c).before 3 t d)))

/-- and what it returns. -/
def bodyPost1 (c : Dev nD) (t : Fin cfg1.N) : sProp 𝕄 :=
  iprop((dat1 W O B c).Φ t.succ ∗ (dat1 W O B c).owesAt none t.succ
    ∗ owns (c : Thread nD τ) (st1_0 t) fullShare ((dat1 W O B c).after 0 t)
    ∗ owns (c : Thread nD τ) (st1_1 t) fullShare ((dat1 W O B c).after 1 t)
    ∗ owns (c : Thread nD τ) (st1_2 t) fullShare ((dat1 W O B c).after 2 t)
    ∗ owns (c : Thread nD τ) (st1_3 t) fullShare ((dat1 W O B c).after 3 t))

theorem sound_body1 (c : Dev nD) (t : Fin cfg1.N) :
    bodyPre1 W O B c t ⊢ wp frame (wpE (defs₀ (F := F)) Variants.none c none) Set.univ (bodyAt1 t) (fun _ => bodyPost1 W O B c t) := by
  unfold bodyPre1 bodyPost1 bodyAt1
  simp only [before1_0, before1_1, before1_2]
  rw [show (dat1 W O B c).Φ t.succ = (dat1 W O B c).Φ t.castSucc from rfl,
    show (dat1 W O B c).owesAt none t.succ = (dat1 W O B c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 W c 0 t) (iblk1 W c 1 t) (iblk1 W c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 1, at its one point. -/
theorem body_obligation1 (c : Dev nD) : BodyObligation (dat1 (F := F) W O B c) (defs₀ (F := F)) Variants.none none Set.univ := fun t => by
  rw [bigSep_W1, bigSep_W1]
  exact sound_body1 W O B c t

/-! ### The result array after the call -/

theorem emb1_0 (t : Fin cfg1.N) (y : ((cfg1.win 0).xblock (cfg1.grid.coords t)).Idx) : ((cfg1.win 0).blk t).view.emb y = y := by
  funext a; exact Fin.ext ((cfg1.win 0).rect_emb_val_of_index_zero t a rfl y)
theorem emb1_1 (t : Fin cfg1.N) (y : ((cfg1.win 1).xblock (cfg1.grid.coords t)).Idx) : ((cfg1.win 1).blk t).view.emb y = y := by
  funext a; exact Fin.ext ((cfg1.win 1).rect_emb_val_of_index_zero t a rfl y)
theorem emb1_2 (t : Fin cfg1.N) (y : ((cfg1.win 2).xblock (cfg1.grid.coords t)).Idx) : ((cfg1.win 2).blk t).view.emb y = y := by
  funext a; exact Fin.ext ((cfg1.win 2).rect_emb_val_of_index_zero t a rfl y)
theorem emb1_3 (t : Fin cfg1.N) (y : ((cfg1.win 3).xblock (cfg1.grid.coords t)).Idx) : ((cfg1.win 3).blk t).view.emb y = y := by
  funext a; exact Fin.ext ((cfg1.win 3).rect_emb_val_of_index_zero t a rfl y)

/-- An operand's block is its whole array. -/
theorem iblk1_0 (c : Dev nD) (t : Fin cfg1.N) : iblk1 W c 0 t = (W main_arg0 : Vec F S10000x128 .f32) := by
  funext y; unfold iblk1; rw [View.read_apply, emb1_0]; rfl
theorem iblk1_1 (c : Dev nD) (t : Fin cfg1.N) : iblk1 W c 1 t = (W main_arg3 : Vec F S128x64 .f32) := by
  funext y; unfold iblk1; rw [View.read_apply, emb1_1]; rfl
theorem iblk1_2 (c : Dev nD) (t : Fin cfg1.N) : iblk1 W c 2 t = (W main_v20 : Vec F S10000x32 .f32) := by
  funext y; unfold iblk1; rw [View.read_apply, emb1_2]; rfl

/-- The value the call leaves in its result array. -/
def tcv1 : Vec F S64x10000 .f32 := k1_pay1 (W main_v20) (W main_arg3) (W main_arg0)

/-- The result array after the write-back: the payload. -/
theorem arrAt1_3 (c : Dev nD) : (dat1 W O B c).arrAt 3 cfg1.N = tcv1 W := by
  have hN : cfg1.N = t1_0.val + 1 := N_1
  rw [hN, Dat.arrAt_succ, if_pos (flush1_3 t1_0)]
  funext i
  have h := View.write_emb_of_mem (Val := Elt F) (v := ((cfg1.win 3).blk t1_0).view) ((dat1 W O B c).arrAt 3 t1_0.val) ((dat1 W O B c).flushed 3 t1_0) (Finset.mem_univ i)
  rw [emb1_3] at h
  refine h.trans ?_
  show (dat1 W O B c).after 3 t1_0 i = _
  rw [after1_3, out1_eq, iblk1_0, iblk1_1, iblk1_2]
  rfl

/-- An operand's array is as it was. -/
theorem arrAt1_in (c : Dev nD) (w : Fin cfg1.W) (hw : (cfg1.win w).isOut = false) :
    (dat1 W O B c).arrAt w cfg1.N = atTc W c (Pipeline.arrRef spec1 w) :=
  ((dat1 W O B c).arrAt_in w hw _).trans (A_eq1 W O B c w)

/-! ### The region -/

/-- The proof data family of call 1's rule, entered before SparseCore call n. -/
def fam1 (n : ℕ) : (p : Fin 3) → (c : Dev nD) → Dat τ (Elt F) (HIx 3) ℕ UU ℕ (Pipeline.pin (pcfgs (F := F)) adm p) c
  | ⟨0, _⟩ => fun c => dat1 W ((K (F := F)).Otc c n) (recB (F := F) c n) c
  | ⟨1, _⟩ => fun c => datNone cfg3 c
  | ⟨2, _⟩ => fun c => datNone cfg5 c

/-- The valuation after call 1. -/
def upd1 : Valuation τ sig (Elt F) := Function.update W (rf main_v21) (tc0 W)

theorem upd1_arr (c : Dev nD) (n : ℕ) : ∀ w : Fin cfg1.W,
    (fam1 W n 0 c).arrAt w cfg1.N = atTc (upd1 W) c (Pipeline.arrRef spec1 w)
  | ⟨0, _⟩ => (arrAt1_in W _ _ c 0 rfl).trans
      (Function.update_of_ne (StableHlo.devRef_ne_of_ne (by decide : main_arg0 ≠ main_v21)) _ _).symm
  | ⟨1, _⟩ => (arrAt1_in W _ _ c 1 rfl).trans
      (Function.update_of_ne (StableHlo.devRef_ne_of_ne (by decide : main_arg3 ≠ main_v21)) _ _).symm
  | ⟨2, _⟩ => (arrAt1_in W _ _ c 2 rfl).trans
      (Function.update_of_ne (StableHlo.devRef_ne_of_ne (by decide : main_v20 ≠ main_v21)) _ _).symm
  | ⟨3, _⟩ => (arrAt1_3 W _ _ c).trans (by
      show tcv1 W = Function.update W (rf main_v21) (tc0 W) (rf main_v21)
      rw [Function.update_self]; rfl)

theorem upd1_rest (c : Dev nD) : ∀ b, b ∉ Finset.univ.image (Pipeline.arrRef spec1) → atTc (upd1 W) c b = atTc W c b :=
  fun b hb => Function.update_of_ne (fun e => hb (Finset.mem_image.mpr ⟨3, Finset.mem_univ _, (Proc.devRef_injective _ e).symm⟩)) _ _

set_option backward.isDefEq.respectTransparency.types false in
/-- Call 1 as a region of the host program, entered before SparseCore call n from the arrays at W. -/
def reg1 (n : ℕ) : Pipeline.RegionSeg (pcfgs (F := F)) adm (fam1 W n) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 W _ _ c).loose
  hwaits c := Pipeline.cellsWaits_intro _ _ _ 0 c fun w s t => (K (F := F)).mayWait_none _ (Otc_none c n)
  pre c := iprop(StableHlo.held (c.tc : Thread nD τ) Sall W ∗ owesTc c n)
  post c := iprop(StableHlo.held (c.tc : Thread nD τ) Sall (upd1 W) ∗ owesTc c n)
  X c := BI.emp
  Y c := BI.emp
  Z c := Pipeline.unscopedRest (Ix := HIx 3) (Name := ℕ) (U := UU) (Lvl := ℕ) spec1 c (atTc W c)
  hentry c := by
    rw [Pipeline.ownSems0_none]
    have hsplit := Pipeline.arrays_of_unscopedBufs (p := 0) (pcfgs (F := F)) adm (fam1 W n) launch1.win launch1.arr_whole c
      ((fam1 W n 0 c).share_full fun _ => rfl) (atTc W c) fun _ => rfl
    rw [unscopedBufs_Sall] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owesTc c n (fam1 W n 0 c) 0 rfl rfl); iexact HO
    isplitr; · iempintro
    iexact Hrest
  hin c := by
    rw [show (fam1 W n 0 c).Φ 0 = Pipeline.scopedRest spec1 c from rfl]
    iintro ⟨-, -, Hr⟩
    iexact Hr
  hout c := by
    rw [Pipeline.ownSems0_none, show (fam1 W n 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 3) (Name := ℕ) (U := UU) (Lvl := ℕ)
      launch1.win launch1.arr_whole c (fam1 W n) ((fam1 W n 0 c).share_full fun _ => rfl)
      (atTc W c) (atTc (upd1 W) c) ((fam1 W n 0 c).arrAt · cfg1.N) (upd1_arr W c n) (upd1_rest W c)
    rw [unscopedBufs_Sall] at hjoin
    iintro ⟨Ha, HO, -, Hrest⟩
    imodintro
    isplitl [Ha Hrest]
    · iapply hjoin; isplitl [Ha] <;> iassumption
    iapply (owesTc_of_owesAt c n (fam1 W n 0 c) (Fin.last _) rfl rfl); iexact HO

theorem reg1_pre (n : ℕ) (c : Dev nD) : (reg1 W n).pre c = iprop(StableHlo.held (c.tc : Thread nD τ) Sall W ∗ owesTc c n) := rfl
theorem reg1_post (n : ℕ) (c : Dev nD) : (reg1 W n).post c = iprop(StableHlo.held (c.tc : Thread nD τ) Sall (upd1 W) ∗ owesTc c n) := rfl

/-! ### The rule -/

set_option backward.isDefEq.respectTransparency.types false in
/-- Call 1 in the TensorCore's proof of the host program, before SparseCore call n: from the handshake state, the
    region boundary, the program's arrays at V and the rounds of the call's staging cells, to the same with the
    result array at the body's value of the operands. -/
theorem region_0 {P : (K (F := F)).Pay (nD := nD) (Val := Elt F) (Name := ℕ) (U := UU)} (κ : GSem nD τ sig → ℕ) (d : Dev nD) (n : ℕ)
    (V : Valuation τ sig (Elt F)) {α : Type} (k : PUnit → Prog (TpuEff nD τ sig (Elt F) (SparseCore.Sig (ΛP (F := F)) 3) .tc) α) (Φ : α → sProp 𝕄) :
    iprop((K (F := F)).ctx EH P κ ∗ (K (F := F)).tcSt EH d n ∗ boundary (T d) ∗ StableHlo.held (T d) Sall V ∗ RG (F := F) 0 d
        ∗ (iprop((K (F := F)).tcSt EH d n ∗ boundary (T d) ∗ StableHlo.held (T d) Sall (Function.update V (rf main_v21) (tc0 V))) -∗
            wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 0)) ()) >>= k) Φ := by
  rw [wp_bind]
  unfold SparseCore.Cfg.tcSt
  iintro ⟨#Hctx, ⟨HO, Hst⟩, Hbd, Hh, ⟨Hg, Ht⟩, Hk⟩
  ihave Hlev := (SparseCore.Cfg.ctx_levAts κ) $$ Hctx
  iapply ((K (F := F)).wp_liftProg (D (F := F)) 𝒱 (T d) Set.univ none (.op (.customCall (Pipeline.entry 0) ()) fun x => .ret x) _)
  iapply (Pipeline.RegionSeg.wp (pcfgs (F := F)) adm (fam1 V n) none cellOf_inj EP defs₀ 𝒱₀ (K (F := F)).L (K (F := F)).lev (reg1 V n) d none
      (fun u hu => by cases hu) (fun x => .ret x) _)
  rw [reg1_pre, reg1_post]
  isplitl [Hk Hst]
  · iintro ⟨Hbd, ⟨Hh, HO⟩⟩
    rw [wp_ret]; imodintro
    iapply Hk
    isplitl [HO Hst]
    · isplitl [HO]; · iexact HO
      iexact Hst
    isplitl [Hbd]; · iexact Hbd
    iexact Hh
  isplitl [Hbd]; · iexact Hbd
  isplitl [Hh HO]
  · isplitl [Hh]; · iexact Hh
    iexact HO
  isplitr; · iexact Hlev
  isplitl [Hg]; · iexact Hg
  iexact Ht

end Call1

/-! ## custom_call 3 -/

section Call3

variable (W : Valuation τ sig (Elt F))

/-- Window w's block at the point, read off its array at the entry valuation. -/
def iblk3 (c : Dev nD) (w : Fin cfg3.W) (t : Fin cfg3.N) : ((cfg3.win w).xblock (cfg3.grid.coords t)).Idx → Elt F (cfg3.win w).elt :=
  ((cfg3.win w).blk t).view.read (Elt F) (atTc W c (Pipeline.arrRef spec3 w))

theorem before3_0_of {c : Dev nD} (dat : Dat τ (Elt F) (HIx 3) ℕ UU ℕ cfg3 c) (hA : dat.A 0 = atTc W c (Pipeline.arrRef spec3 0))
    (hafter : ∀ t, dat.after 0 t = iblk3 W c 0 t) (t : Fin cfg3.N) (d) : dat.before 0 t d = iblk3 W c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 3) ℕ UU ℕ cfg3 c) (hA : dat.A 1 = atTc W c (Pipeline.arrRef spec3 1))
    (hafter : ∀ t, dat.after 1 t = iblk3 W c 1 t) (t : Fin cfg3.N) (d) : dat.before 1 t d = iblk3 W c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 3) ℕ UU ℕ cfg3 c) (hA : dat.A 2 = atTc W c (Pipeline.arrRef spec3 2))
    (hafter : ∀ t, dat.after 2 t = iblk3 W c 2 t) (t : Fin cfg3.N) (d) : dat.before 2 t d = iblk3 W c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) (HIx 3) ℕ UU ℕ cfg3 c) (hA : dat.A 3 = atTc W c (Pipeline.arrRef spec3 3))
    (hafter : ∀ t, dat.after 3 t = iblk3 W c 3 t) (t : Fin cfg3.N) (d) : dat.before 3 t d = iblk3 W c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) (HIx 3) ℕ UU ℕ cfg3 c) (hA : dat.A 4 = atTc W c (Pipeline.arrRef spec3 4))
    (hafter : ∀ t, dat.after 4 t = iblk3 W c 4 t) (t : Fin cfg3.N) (d) : dat.before 4 t d = iblk3 W c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) (HIx 3) ℕ UU ℕ cfg3 c) (hA : dat.A 5 = atTc W c (Pipeline.arrRef spec3 5))
    (hafter : ∀ t, dat.after 5 t = iblk3 W c 5 t) (t : Fin cfg3.N) (d) : dat.before 5 t d = iblk3 W c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S64x10000 := Rect.unit (s := S64x10000) ![0, 0] S64x10000.size inb_S64x10000_S64x10000_0_0
abbrev r3_1 : Rect S64x10000 := Rect.unit (s := S64x10000) ![0, 0] S64x10000.size inb_S64x10000_S64x10000_0_0
abbrev r3_2 : Rect S64x10000 := Rect.unit (s := S64x10000) ![0, 0] S64x10000.size inb_S64x10000_S64x10000_0_0
abbrev r3_3 : Rect S10000x32 := Rect.unit (s := S10000x32) ![0, 0] S10000x32.size inb_S10000x32_S10000x32_0_0
abbrev r3_4 : Rect S64x1 := Rect.unit (s := S64x1) ![0, 0] S64x1.size inb_S64x1_S64x1_0_0
abbrev r3_5 : Rect S64x64 := Rect.unit (s := S64x64) ![0, 0] S64x64.size inb_S64x64_S64x64_0_0
abbrev r3_6 : Rect S64x10000 := Rect.unit (s := S64x10000) ![0, 0] S64x10000.size inb_S64x10000_S64x10000_0_0

/-- The result window's buffer after the body: its one store's payload of the loads. -/
def out3 (x0 : Vec F S64x10000 .f32) (x1 : Vec F S64x10000 .f32) (x2 : Vec F S64x10000 .f32) (x3 : Vec F S10000x32 .f32) (x4 : Vec F S64x1 .f32) (x5 : Vec F S64x64 .f32) : Vec F S64x10000 .f32 :=
  View.canon [⟨r3_6, k3_pay1 (View.ld x3 r3_3) (View.ld x0 r3_0) (View.ld x1 r3_1) (View.ld x2 r3_2) (View.ld x4 r3_4) (View.ld x5 r3_5)⟩]

theorem cover3 (p0 : Vec F S64x10000 .f32) (y : S64x10000.Idx) :
    ∃ pc ∈ ([⟨r3_6, p0⟩] : List (View.Piece (Elt F) S64x10000 .f32)), y ∈ pc.1.set :=
  ⟨_, List.mem_singleton_self _, View.mem_set_unit_zero (by funext a; fin_cases a <;> rfl) inb_S64x10000_S64x10000_0_0 y⟩

theorem out3_eq (x0 : Vec F S64x10000 .f32) (x1 : Vec F S64x10000 .f32) (x2 : Vec F S64x10000 .f32) (x3 : Vec F S10000x32 .f32) (x4 : Vec F S64x1 .f32) (x5 : Vec F S64x64 .f32) :
    out3 x0 x1 x2 x3 x4 x5 = k3_pay1 x3 x0 x1 x2 x4 x5 := by
  have h2 : ∀ a : Fin 2, (![0, 0] : Fin 2 → ℕ) a = 0 := fun a => by fin_cases a <;> rfl
  unfold out3
  rw [View.canon_unit_zero (funext h2), View.ld_unit_zero (funext h2), View.ld_unit_zero (funext h2), View.ld_unit_zero (funext h2), View.ld_unit_zero (funext h2), View.ld_unit_zero (funext h2), View.ld_unit_zero (funext h2)]

set_option maxHeartbeats 4000000 in
/-- The body on whole staging memrefs: the operands' as they were, the result's at the payload of the operands'. -/
theorem sound_kernel3 (c : Dev nD) (E : Set ℕ) (arg0 : Memref sig .tc .vmem S64x10000 .f32) (harg0 : arg0.IsWhole) (arg1 : Memref sig .tc .vmem S64x10000 .f32) (harg1 : arg1.IsWhole) (arg2 : Memref sig .tc .vmem S64x10000 .f32) (harg2 : arg2.IsWhole) (arg3 : Memref sig .tc .vmem S10000x32 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x10000 .f32) (harg6 : arg6.IsWhole)
    (x0 : Vec F S64x10000 .f32) (x1 : Vec F S64x10000 .f32) (x2 : Vec F S64x10000 .f32) (x3 : Vec F S10000x32 .f32) (x4 : Vec F S64x1 .f32) (x5 : Vec F S64x64 .f32) (Kk : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3 x0 x1 x2 x3 x4 x5)) -∗ Kk ⟨⟩))
      ⊢ wp frame (wpE (defs₀ (F := F)) Variants.none c none) E (cc3_body arg0 harg0 arg1 harg1 arg2 harg2 arg3 harg3 arg4 harg4 arg5 harg5 arg6 harg6) Kk := by
  simp only [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of call 3 on core c at the entry valuation W, the core owing O with its recorded pairs within B. -/
def dat3 (O : CellTallies nD τ sig (HIx 3)) (B : Set (SemLoc sig × HIx 3)) (c : Dev nD) : Dat τ (Elt F) (HIx 3) ℕ UU ℕ cfg3 c where
  A w := atTc W c (Pipeline.arrRef spec3 w)
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => iblk3 W c 4 t
    | ⟨5, _⟩ => iblk3 W c 5 t
    | ⟨6, _⟩ => out3 (iblk3 W c 0 t) (iblk3 W c 1 t) (iblk3 W c 2 t) (iblk3 W c 3 t) (iblk3 W c 4 t) (iblk3 W c 5 t)
  Φ _ := Pipeline.scopedRest spec3 c
  q _ := fullShare
  owed _ := O
  recorded _ := B

variable (O : CellTallies nD τ sig (HIx 3)) (B : Set (SemLoc sig × HIx 3))

theorem A_eq3 (c : Dev nD) (w : Fin cfg3.W) : (dat3 W O B c).A w = atTc W c (Pipeline.arrRef spec3 w) := by
  dsimp only [dat3]
theorem after3_0 (c : Dev nD) (t : Fin cfg3.N) : (dat3 W O B c).after 0 t = iblk3 W c 0 t := by dsimp only [dat3]
theorem after3_1 (c : Dev nD) (t : Fin cfg3.N) : (dat3 W O B c).after 1 t = iblk3 W c 1 t := by dsimp only [dat3]
theorem after3_2 (c : Dev nD) (t : Fin cfg3.N) : (dat3 W O B c).after 2 t = iblk3 W c 2 t := by dsimp only [dat3]
theorem after3_3 (c : Dev nD) (t : Fin cfg3.N) : (dat3 W O B c).after 3 t = iblk3 W c 3 t := by dsimp only [dat3]
theorem after3_4 (c : Dev nD) (t : Fin cfg3.N) : (dat3 W O B c).after 4 t = iblk3 W c 4 t := by dsimp only [dat3]
theorem after3_5 (c : Dev nD) (t : Fin cfg3.N) : (dat3 W O B c).after 5 t = iblk3 W c 5 t := by dsimp only [dat3]
theorem after3_6 (c : Dev nD) (t : Fin cfg3.N) :
    (dat3 W O B c).after 6 t = out3 (iblk3 W c 0 t) (iblk3 W c 1 t) (iblk3 W c 2 t) (iblk3 W c 3 t) (iblk3 W c 4 t) (iblk3 W c 5 t) := by dsimp only [dat3]
theorem before3_0 (c : Dev nD) (t : Fin cfg3.N) (d) : (dat3 W O B c).before 0 t d = iblk3 W c 0 t :=
  before3_0_of W (dat3 W O B c) (A_eq3 W O B c 0) (after3_0 W O B c) t d
theorem before3_1 (c : Dev nD) (t : Fin cfg3.N) (d) : (dat3 W O B c).before 1 t d = iblk3 W c 1 t :=
  before3_1_of W (dat3 W O B c) (A_eq3 W O B c 1) (after3_1 W O B c) t d
theorem before3_2 (c : Dev nD) (t : Fin cfg3.N) (d) : (dat3 W O B c).before 2 t d = iblk3 W c 2 t :=
  before3_2_of W (dat3 W O B c) (A_eq3 W O B c 2) (after3_2 W O B c) t d
theorem before3_3 (c : Dev nD) (t : Fin cfg3.N) (d) : (dat3 W O B c).before 3 t d = iblk3 W c 3 t :=
  before3_3_of W (dat3 W O B c) (A_eq3 W O B c 3) (after3_3 W O B c) t d
theorem before3_4 (c : Dev nD) (t : Fin cfg3.N) (d) : (dat3 W O B c).before 4 t d = iblk3 W c 4 t :=
  before3_4_of W (dat3 W O B c) (A_eq3 W O B c 4) (after3_4 W O B c) t d
theorem before3_5 (c : Dev nD) (t : Fin cfg3.N) (d) : (dat3 W O B c).before 5 t d = iblk3 W c 5 t :=
  before3_5_of W (dat3 W O B c) (A_eq3 W O B c 5) (after3_5 W O B c) t d

/-- What the body is called with at the point, the windows one by one, -/
def bodyPre3 (c : Dev nD) (t : Fin cfg3.N) : sProp 𝕄 :=
  iprop((dat3 W O B c).Φ t.castSucc ∗ (dat3 W O B c).owesAt none t.castSucc
    ∗ (∃ d, owns (c : Thread nD τ) (st3_0 t) fullShare ((dat3 W O B c).before 0 t d))
    ∗ (∃ d, owns (c : Thread nD τ) (st3_1 t) fullShare ((dat3 W O B c).before 1 t d))
    ∗ (∃ d, owns (c : Thread nD τ) (st3_2 t) fullShare ((dat3 W O B c).before 2 t d))
    ∗ (∃ d, owns (c : Thread nD τ) (st3_3 t) fullShare ((dat3 W O B c).before 3 t d))
    ∗ (∃ d, owns (c : Thread nD τ) (st3_4 t) fullShare ((dat3 W O B c).before 4 t d))
    ∗ (∃ d, owns (c : Thread nD τ) (st3_5 t) fullShare ((dat3 W O B c).before 5 t d))
    ∗ (∃ d, owns (c : Thread nD τ) (st3_6 t) fullShare ((dat3 W O B c).before 6 t d)))

/-- and what it returns. -/
def bodyPost3 (c : Dev nD) (t : Fin cfg3.N) : sProp 𝕄 :=
  iprop((dat3 W O B c).Φ t.succ ∗ (dat3 W O B c).owesAt none t.succ
    ∗ owns (c : Thread nD τ) (st3_0 t) fullShare ((dat3 W O B c).after 0 t)
    ∗ owns (c : Thread nD τ) (st3_1 t) fullShare ((dat3 W O B c).after 1 t)
    ∗ owns (c : Thread nD τ) (st3_2 t) fullShare ((dat3 W O B c).after 2 t)
    ∗ owns (c : Thread nD τ) (st3_3 t) fullShare ((dat3 W O B c).after 3 t)
    ∗ owns (c : Thread nD τ) (st3_4 t) fullShare ((dat3 W O B c).after 4 t)
    ∗ owns (c : Thread nD τ) (st3_5 t) fullShare ((dat3 W O B c).after 5 t)
    ∗ owns (c : Thread nD τ) (st3_6 t) fullShare ((dat3 W O B c).after 6 t))

theorem sound_body3 (c : Dev nD) (t : Fin cfg3.N) :
    bodyPre3 W O B c t ⊢ wp frame (wpE (defs₀ (F := F)) Variants.none c none) Set.univ (bodyAt3 t) (fun _ => bodyPost3 W O B c t) := by
  unfold bodyPre3 bodyPost3 bodyAt3
  simp only [before3_0, before3_1, before3_2, before3_3, before3_4, before3_5]
  rw [show (dat3 W O B c).Φ t.succ = (dat3 W O B c).Φ t.castSucc from rfl,
    show (dat3 W O B c).owesAt none t.succ = (dat3 W O B c).owesAt none t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ (iblk3 W c 0 t) (iblk3 W c 1 t) (iblk3 W c 2 t) (iblk3 W c 3 t) (iblk3 W c 4 t) (iblk3 W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of call 3, at its one point. -/
theorem body_obligation3 (c : Dev nD) : BodyObligation (dat3 (F := F) W O B c) (defs₀ (F := F)) Variants.none none Set.univ := fun t => by
  rw [bigSep_W3, bigSep_W3]
  exact sound_body3 W O B c t

/-! ### The result array after the call -/

theorem emb3_0 (t : Fin cfg3.N) (y : ((cfg3.win 0).xblock (cfg3.grid.coords t)).Idx) : ((cfg3.win 0).blk t).view.emb y = y := by
  funext a; exact Fin.ext ((cfg3.win 0).rect_emb_val_of_index_zero t a rfl y)
theorem emb3_1 (t : Fin cfg3.N) (y : ((cfg3.win 1).xblock (cfg3.grid.coords t)).Idx) : ((cfg3.win 1).blk t).view.emb y = y := by
  funext a; exact Fin.ext ((cfg3.win 1).rect_emb_val_of_index_zero t a rfl y)
theorem emb3_2 (t : Fin cfg3.N) (y : ((cfg3.win 2).xblock (cfg3.grid.coords t)).Idx) : ((cfg3.win 2).blk t).view.emb y = y := by
  funext a; exact Fin.ext ((cfg3.win 2).rect_emb_val_of_index_zero t a rfl y)
theorem emb3_3 (t : Fin cfg3.N) (y : ((cfg3.win 3).xblock (cfg3.grid.coords t)).Idx) : ((cfg3.win 3).blk t).view.emb y = y := by
  funext a; exact Fin.ext ((cfg3.win 3).rect_emb_val_of_index_zero t a rfl y)
theorem emb3_4 (t : Fin cfg3.N) (y : ((cfg3.win 4).xblock (cfg3.grid.coords t)).Idx) : ((cfg3.win 4).blk t).view.emb y = y := by
  funext a; exact Fin.ext ((cfg3.win 4).rect_emb_val_of_index_zero t a rfl y)
theorem emb3_5 (t : Fin cfg3.N) (y : ((cfg3.win 5).xblock (cfg3.grid.coords t)).Idx) : ((cfg3.win 5).blk t).view.emb y = y := by
  funext a; exact Fin.ext ((cfg3.win 5).rect_emb_val_of_index_zero t a rfl y)
theorem emb3_6 (t : Fin cfg3.N) (y : ((cfg3.win 6).xblock (cfg3.grid.coords t)).Idx) : ((cfg3.win 6).blk t).view.emb y = y := by
  funext a; exact Fin.ext ((cfg3.win 6).rect_emb_val_of_index_zero t a rfl y)

/-- An operand's block is its whole array. -/
theorem iblk3_0 (c : Dev nD) (t : Fin cfg3.N) : iblk3 W c 0 t = (W (rf main_v30) : Vec F S64x10000 .f32) := by
  funext y; unfold iblk3; rw [View.read_apply, emb3_0]; rfl
theorem iblk3_1 (c : Dev nD) (t : Fin cfg3.N) : iblk3 W c 1 t = (W (rf main_v34) : Vec F S64x10000 .f32) := by
  funext y; unfold iblk3; rw [View.read_apply, emb3_1]; rfl
theorem iblk3_2 (c : Dev nD) (t : Fin cfg3.N) : iblk3 W c 2 t = (W (rf main_v21) : Vec F S64x10000 .f32) := by
  funext y; unfold iblk3; rw [View.read_apply, emb3_2]; rfl
theorem iblk3_3 (c : Dev nD) (t : Fin cfg3.N) : iblk3 W c 3 t = (W (rf main_v20) : Vec F S10000x32 .f32) := by
  funext y; unfold iblk3; rw [View.read_apply, emb3_3]; rfl
theorem iblk3_4 (c : Dev nD) (t : Fin cfg3.N) : iblk3 W c 4 t = (W (rf main_v15) : Vec F S64x1 .f32) := by
  funext y; unfold iblk3; rw [View.read_apply, emb3_4]; rfl
theorem iblk3_5 (c : Dev nD) (t : Fin cfg3.N) : iblk3 W c 5 t = (W (rf main_arg5) : Vec F S64x64 .f32) := by
  funext y; unfold iblk3; rw [View.read_apply, emb3_5]; rfl

/-- The result array after the write-back: the payload. -/
theorem arrAt3_6 (c : Dev nD) : (dat3 W O B c).arrAt 6 cfg3.N = tc1 W := by
  have hN : cfg3.N = t3_0.val + 1 := N_3
  rw [hN, Dat.arrAt_succ, if_pos (flush3_6 t3_0)]
  funext i
  have h := View.write_emb_of_mem (Val := Elt F) (v := ((cfg3.win 6).blk t3_0).view) ((dat3 W O B c).arrAt 6 t3_0.val) ((dat3 W O B c).flushed 6 t3_0) (Finset.mem_univ i)
  rw [emb3_6] at h
  refine h.trans ?_
  show (dat3 W O B c).after 6 t3_0 i = _
  rw [after3_6, out3_eq, iblk3_0, iblk3_1, iblk3_2, iblk3_3, iblk3_4, iblk3_5]
  rfl

/-- An operand's array is as it was. -/
theorem arrAt3_in (c : Dev nD) (w : Fin cfg3.W) (hw : (cfg3.win w).isOut = false) :
    (dat3 W O B c).arrAt w cfg3.N = atTc W c (Pipeline.arrRef spec3 w) :=
  ((dat3 W O B c).arrAt_in w hw _).trans (A_eq3 W O B c w)

/-! ### The region -/

/-- The proof data family of call 3's rule, entered before SparseCore call n. -/
def fam3 (n : ℕ) : (p : Fin 3) → (c : Dev nD) → Dat τ (Elt F) (HIx 3) ℕ UU ℕ (Pipeline.pin (pcfgs (F := F)) adm p) c
  | ⟨0, _⟩ => fun c => datNone cfg1 c
  | ⟨1, _⟩ => fun c => dat3 W ((K (F := F)).Otc c n) (recB (F := F) c n) c
  | ⟨2, _⟩ => fun c => datNone cfg5 c

/-- The valuation after call 3. -/
def upd3 : Valuation τ sig (Elt F) := Function.update W (rf main_v35) (tc1 W)

theorem upd3_arr (c : Dev nD) (n : ℕ) : ∀ w : Fin cfg3.W,
    (fam3 W n 1 c).arrAt w cfg3.N = atTc (upd3 W) c (Pipeline.arrRef spec3 w)
  | ⟨0, _⟩ => (arrAt3_in W _ _ c 0 rfl).trans
      (Function.update_of_ne (StableHlo.devRef_ne_of_ne (by decide : main_v30 ≠ main_v35)) _ _).symm
  | ⟨1, _⟩ => (arrAt3_in W _ _ c 1 rfl).trans
      (Function.update_of_ne (StableHlo.devRef_ne_of_ne (by decide : main_v34 ≠ main_v35)) _ _).symm
  | ⟨2, _⟩ => (arrAt3_in W _ _ c 2 rfl).trans
      (Function.update_of_ne (StableHlo.devRef_ne_of_ne (by decide : main_v21 ≠ main_v35)) _ _).symm
  | ⟨3, _⟩ => (arrAt3_in W _ _ c 3 rfl).trans
      (Function.update_of_ne (StableHlo.devRef_ne_of_ne (by decide : main_v20 ≠ main_v35)) _ _).symm
  | ⟨4, _⟩ => (arrAt3_in W _ _ c 4 rfl).trans
      (Function.update_of_ne (StableHlo.devRef_ne_of_ne (by decide : main_v15 ≠ main_v35)) _ _).symm
  | ⟨5, _⟩ => (arrAt3_in W _ _ c 5 rfl).trans
      (Function.update_of_ne (StableHlo.devRef_ne_of_ne (by decide : main_arg5 ≠ main_v35)) _ _).symm
  | ⟨6, _⟩ => (arrAt3_6 W _ _ c).trans (by
      show tc1 W = Function.update W (rf main_v35) (tc1 W) (rf main_v35)
      rw [Function.update_self])

theorem upd3_rest (c : Dev nD) : ∀ b, b ∉ Finset.univ.image (Pipeline.arrRef spec3) → atTc (upd3 W) c b = atTc W c b :=
  fun b hb => Function.update_of_ne (fun e => hb (Finset.mem_image.mpr ⟨6, Finset.mem_univ _, (Proc.devRef_injective _ e).symm⟩)) _ _

set_option backward.isDefEq.respectTransparency.types false in
/-- Call 3 as a region of the host program, entered before SparseCore call n from the arrays at W. -/
def reg3 (n : ℕ) : Pipeline.RegionSeg (pcfgs (F := F)) adm (fam3 W n) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 W _ _ c).loose
  hwaits c := Pipeline.cellsWaits_intro _ _ _ 1 c fun w s t => (K (F := F)).mayWait_none _ (Otc_none c n)
  pre c := iprop(StableHlo.held (c.tc : Thread nD τ) Sall W ∗ owesTc c n)
  post c := iprop(StableHlo.held (c.tc : Thread nD τ) Sall (upd3 W) ∗ owesTc c n)
  X c := BI.emp
  Y c := BI.emp
  Z c := Pipeline.unscopedRest (Ix := HIx 3) (Name := ℕ) (U := UU) (Lvl := ℕ) spec3 c (atTc W c)
  hentry c := by
    rw [Pipeline.ownSems0_none]
    have hsplit := Pipeline.arrays_of_unscopedBufs (p := 1) (pcfgs (F := F)) adm (fam3 W n) launch3.win launch3.arr_whole c
      ((fam3 W n 1 c).share_full fun _ => rfl) (atTc W c) fun _ => rfl
    rw [unscopedBufs_Sall] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owesTc c n (fam3 W n 1 c) 0 rfl rfl); iexact HO
    isplitr; · iempintro
    iexact Hrest
  hin c := by
    rw [show (fam3 W n 1 c).Φ 0 = Pipeline.scopedRest spec3 c from rfl]
    iintro ⟨-, -, Hr⟩
    iexact Hr
  hout c := by
    rw [Pipeline.ownSems0_none, show (fam3 W n 1 c).Φ (Fin.last _) = Pipeline.scopedRest spec3 c from rfl]
    iintro Hr
    isplitr; · iempintro
    isplitr; · iempintro
    iexact Hr
  hexit c := by
    have hjoin := Pipeline.unscopedBufs_of_arrays (p := 1) (pcfgs (F := F)) adm (Ix := HIx 3) (Name := ℕ) (U := UU) (Lvl := ℕ)
      launch3.win launch3.arr_whole c (fam3 W n) ((fam3 W n 1 c).share_full fun _ => rfl)
      (atTc W c) (atTc (upd3 W) c) ((fam3 W n 1 c).arrAt · cfg3.N) (upd3_arr W c n) (upd3_rest W c)
    rw [unscopedBufs_Sall] at hjoin
    iintro ⟨Ha, HO, -, Hrest⟩
    imodintro
    isplitl [Ha Hrest]
    · iapply hjoin; isplitl [Ha] <;> iassumption
    iapply (owesTc_of_owesAt c n (fam3 W n 1 c) (Fin.last _) rfl rfl); iexact HO

theorem reg3_pre (n : ℕ) (c : Dev nD) : (reg3 W n).pre c = iprop(StableHlo.held (c.tc : Thread nD τ) Sall W ∗ owesTc c n) := rfl
theorem reg3_post (n : ℕ) (c : Dev nD) : (reg3 W n).post c = iprop(StableHlo.held (c.tc : Thread nD τ) Sall (upd3 W) ∗ owesTc c n) := rfl

/-! ### The rule -/

set_option backward.isDefEq.respectTransparency.types false in
/-- Call 3 in the TensorCore's proof of the host program, before SparseCore call n: from the handshake state, the
    region boundary, the program's arrays at V and the rounds of the call's staging cells, to the same with the
    result array at the body's value of the operands. -/
theorem region_1 {P : (K (F := F)).Pay (nD := nD) (Val := Elt F) (Name := ℕ) (U := UU)} (κ : GSem nD τ sig → ℕ) (d : Dev nD) (n : ℕ)
    (V : Valuation τ sig (Elt F)) {α : Type} (k : PUnit → Prog (TpuEff nD τ sig (Elt F) (SparseCore.Sig (ΛP (F := F)) 3) .tc) α) (Φ : α → sProp 𝕄) :
    iprop((K (F := F)).ctx EH P κ ∗ (K (F := F)).tcSt EH d n ∗ boundary (T d) ∗ StableHlo.held (T d) Sall V ∗ RG (F := F) 1 d
        ∗ (iprop((K (F := F)).tcSt EH d n ∗ boundary (T d) ∗ StableHlo.held (T d) Sall (Function.update V (rf main_v35) (tc1 V))) -∗
            wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 1)) ()) >>= k) Φ := by
  rw [wp_bind]
  unfold SparseCore.Cfg.tcSt
  iintro ⟨#Hctx, ⟨HO, Hst⟩, Hbd, Hh, ⟨Hg, Ht⟩, Hk⟩
  ihave Hlev := (SparseCore.Cfg.ctx_levAts κ) $$ Hctx
  iapply ((K (F := F)).wp_liftProg (D (F := F)) 𝒱 (T d) Set.univ none (.op (.customCall (Pipeline.entry 1) ()) fun x => .ret x) _)
  iapply (Pipeline.RegionSeg.wp (pcfgs (F := F)) adm (fam3 V n) none cellOf_inj EP defs₀ 𝒱₀ (K (F := F)).L (K (F := F)).lev (reg3 V n) d none
      (fun u hu => by cases hu) (fun x => .ret x) _)
  rw [reg3_pre, reg3_post]
  isplitl [Hk Hst]
  · iintro ⟨Hbd, ⟨Hh, HO⟩⟩
    rw [wp_ret]; imodintro
    iapply Hk
    isplitl [HO Hst]
    · isplitl [HO]; · iexact HO
      iexact Hst
    isplitl [Hbd]; · iexact Hbd
    iexact Hh
  isplitl [Hbd]; · iexact Hbd
  isplitl [Hh HO]
  · isplitl [Hh]; · iexact Hh
    iexact HO
  isplitr; · iexact Hlev
  isplitl [Hg]; · iexact Hg
  iexact Ht

end Call3

/-! ## custom_call 5 -/

section Call5

variable (W : Valuation τ sig (Elt F))

/-- Window w's block at the point, read off its array at the entry valuation. -/
def iblk5 (c : Dev nD) (w : Fin cfg5.W) (t : Fin cfg5.N) : ((cfg5.win w).xblock (cfg5.grid.coords t)).Idx → Elt F (cfg5.win w).elt :=
  ((cfg5.win w).blk t).view.read (Elt F) (atTc W c (Pipeline.arrRef spec5 w))

theorem before5_0_of {c : Dev nD} (dat : Dat τ (Elt F) (HIx 3) ℕ UU ℕ cfg5 c) (hA : dat.A 0 = atTc W c (Pipeline.arrRef spec5 0))
    (hafter : ∀ t, dat.after 0 t = iblk5 W c 0 t) (t : Fin cfg5.N) (d) : dat.before 0 t d = iblk5 W c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) (HIx 3) ℕ UU ℕ cfg5 c) (hA : dat.A 1 = atTc W c (Pipeline.arrRef spec5 1))
    (hafter : ∀ t, dat.after 1 t = iblk5 W c 1 t) (t : Fin cfg5.N) (d) : dat.before 1 t d = iblk5 W c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) (HIx 3) ℕ UU ℕ cfg5 c) (hA : dat.A 2 = atTc W c (Pipeline.arrRef spec5 2))
    (hafter : ∀ t, dat.after 2 t = iblk5 W c 2 t) (t : Fin cfg5.N) (d) : dat.before 2 t d = iblk5 W c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) (HIx 3) ℕ UU ℕ cfg5 c) (hA : dat.A 3 = atTc W c (Pipeline.arrRef spec5 3))
    (hafter : ∀ t, dat.after 3 t = iblk5 W c 3 t) (t : Fin cfg5.N) (d) : dat.before 3 t d = iblk5 W c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) (HIx 3) ℕ UU ℕ cfg5 c) (hA : dat.A 4 = atTc W c (Pipeline.arrRef spec5 4))
    (hafter : ∀ t, dat.after 4 t = iblk5 W c 4 t) (t : Fin cfg5.N) (d) : dat.before 4 t d = iblk5 W c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) (HIx 3) ℕ UU ℕ cfg5 c) (hA : dat.A 5 = atTc W c (Pipeline.arrRef spec5 5))
    (hafter : ∀ t, dat.after 5 t = iblk5 W c 5 t) (t : Fin cfg5.N) (d) : dat.before 5 t d = iblk5 W c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) (HIx 3) ℕ UU ℕ cfg5 c) (hA : dat.A 6 = atTc W c (Pipeline.arrRef spec5 6))
    (hafter : ∀ t, dat.after 6 t = iblk5 W c 6 t) (t : Fin cfg5.N) (d) : dat.before 6 t d = iblk5 W c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) (HIx 3) ℕ UU ℕ cfg5 c) (hA : dat.A 7 = atTc W c (Pipeline.arrRef spec5 7))
    (hafter : ∀ t, dat.after 7 t = iblk5 W c 7 t) (t : Fin cfg5.N) (d) : dat.before 7 t d = iblk5 W c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S64x10000 := Rect.unit (s := S64x10000) ![0, 0] S64x10000.size inb_S64x10000_S64x10000_0_0
abbrev r5_1 : Rect S64x10000 := Rect.unit (s := S64x10000) ![0, 0] S64x10000.size inb_S64x10000_S64x10000_0_0
abbrev r5_2 : Rect S64x10000 := Rect.unit (s := S64x10000) ![0, 0] S64x10000.size inb_S64x10000_S64x10000_0_0
abbrev r5_3 : Rect S10000x32 := Rect.unit (s := S10000x32) ![0, 0] S10000x32.size inb_S10000x32_S10000x32_0_0
abbrev r5_4 : Rect S64x1 := Rect.unit (s := S64x1) ![0, 0] S64x1.size inb_S64x1_S64x1_0_0
abbrev r5_5 : Rect S1x10000 := Rect.unit (s := S1x10000) ![0, 0] S1x10000.size inb_S1x10000_S1x10000_0_0
abbrev r5_6 : Rect S64x1 := Rect.unit (s := S64x1) ![0, 0] S64x1.size inb_S64x1_S64x1_0_0
abbrev r5_7 : Rect S1x1 := Rect.unit (s := S1x1) ![0, 0] S1x1.size inb_S1x1_S1x1_0_0
abbrev r5_8 : Rect S64x1 := Rect.unit (s := S64x1) ![0, 0] S64x1.size inb_S64x1_S64x1_0_0

/-- The result window's buffer after the body: its one store's payload of the loads. -/
def out5 (x0 : Vec F S64x10000 .f32) (x1 : Vec F S64x10000 .f32) (x2 : Vec F S64x10000 .f32) (x3 : Vec F S10000x32 .f32) (x4 : Vec F S64x1 .f32) (x5 : Vec F S1x10000 .i32) (x6 : Vec F S64x1 .f32) (x7 : Vec F S1x1 .f32) : Vec F S64x1 .f32 :=
  View.canon [⟨r5_8, k5_pay1 (k5_pay2 (View.ld x3 r5_3) (View.ld x0 r5_0) (View.ld x1 r5_1) (View.ld x2 r5_2) (View.ld x4 r5_4) (View.ld x5 r5_5) (View.ld x6 r5_6)) (View.ld x7 r5_7)⟩]

theorem cover5 (p0 : Vec F S64x1 .f32) (y : S64x1.Idx) :
    ∃ pc ∈ ([⟨r5_8, p0⟩] : List (View.Piece (Elt F) S64x1 .f32)), y ∈ pc.1.set :=
  ⟨_, List.mem_singleton_self _, View.mem_set_unit_zero (by funext a; fin_cases a <;> rfl) inb_S64x1_S64x1_0_0 y⟩

theorem out5_eq (x0 : Vec F S64x10000 .f32) (x1 : Vec F S64x10000 .f32) (x2 : Vec F S64x10000 .f32) (x3 : Vec F S10000x32 .f32) (x4 : Vec F S64x1 .f32) (x5 : Vec F S1x10000 .i32) (x6 : Vec F S64x1 .f32) (x7 : Vec F S1x1 .f32) :
    out5 x0 x1 x2 x3 x4 x5 x6 x7 = k5_pay1 (k5_pay2 x3 x0 x1 x2 x4 x5 x6) x7 := by
  have h2 : ∀ a : Fin 2, (![0, 0] : Fin 2 → ℕ) a = 0 := fun a => by fin_cases a <;> rfl
  unfold out5
  rw [View.canon_unit_zero (funext h2), View.ld_unit_zero (funext h2), View.ld_unit_zero (funext h2), View.ld_unit_zero (funext h2), View.ld_unit_zero (funext h2), View.ld_unit_zero (funext h2), View.ld_unit_zero (funext h2), View.ld_unit_zero (funext h2), View.ld_unit_zero (funext h2)]

set_option maxHeartbeats 4000000 in
/-- The body on whole staging memrefs: the operands' as they were, the result's at the payload of the operands'. -/
theorem sound_kernel5 (c : Dev nD) (E : Set ℕ) (arg0 : Memref sig .tc .vmem S64x10000 .f32) (harg0 : arg0.IsWhole) (arg1 : Memref sig .tc .vmem S64x10000 .f32) (harg1 : arg1.IsWhole) (arg2 : Memref sig .tc .vmem S64x10000 .f32) (harg2 : arg2.IsWhole) (arg3 : Memref sig .tc .vmem S10000x32 .f32) (harg3 : arg3.IsWhole) (arg4 : Memref sig .tc .vmem S64x1 .f32) (harg4 : arg4.IsWhole) (arg5 : Memref sig .tc .vmem S1x10000 .i32) (harg5 : arg5.IsWhole) (arg6 : Memref sig .tc .vmem S64x1 .f32) (harg6 : arg6.IsWhole) (arg7 : Memref sig .tc .vmem S1x1 .f32) (harg7 : arg7.IsWhole) (arg8 : Memref sig .tc .vmem S64x1 .f32) (harg8 : arg8.IsWhole)
    (x0 : Vec F S64x10000 .f32) (x1 : Vec F S64x10000 .f32) (x2 : Vec F S64x10000 .f32) (x3 : Vec F S10000x32 .f32) (x4 : Vec F S64x1 .f32) (x5 : Vec F S1x10000 .i32) (x6 : Vec F S64x1 .f32) (x7 : Vec F S1x1 .f32) (Kk : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out5 x0 x1 x2 x3 x4 x5 x6 x7)) -∗ Kk ⟨⟩))
      ⊢ wp frame (wpE (defs₀ (F := F)) Variants.none c none) E (cc5_body arg0 harg0 arg1 harg1 arg2 harg2 arg3 harg3 arg4 harg4 arg5 harg5 arg6 harg6 arg7 harg7 arg8 harg8) Kk := by
  simp only [cc5_body_eq_skeleton]; unfold cc5_body_skel; simp only [k5_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover5 _)

/-- The proof data of call 5 on core c at the entry valuation W, the core owing O with its recorded pairs within B. -/
def dat5 (O : CellTallies nD τ sig (HIx 3)) (B : Set (SemLoc sig × HIx 3)) (c : Dev nD) : Dat τ (Elt F) (HIx 3) ℕ UU ℕ cfg5 c where
  A w := atTc W c (Pipeline.arrRef spec5 w)
  after w t := match w with
    | ⟨0, _⟩ => iblk5 W c 0 t
    | ⟨1, _⟩ => iblk5 W c 1 t
    | ⟨2, _⟩ => iblk5 W c 2 t
    | ⟨3, _⟩ => iblk5 W c 3 t
    | ⟨4, _⟩ => iblk5 W c 4 t
    | ⟨5, _⟩ => iblk5 W c 5 t
    | ⟨6, _⟩ => iblk5 W c 6 t
    | ⟨7, _⟩ => iblk5 W c 7 t
    | ⟨8, _⟩ => out5 (iblk5 W c 0 t) (iblk5 W c 1 t) (iblk5 W c 2 t) (iblk5 W c 3 t) (iblk5 W c 4 t) (iblk5 W c 5 t) (iblk5 W c 6 t) (iblk5 W c 7 t)
  Φ _ := Pipeline.scopedRest spec5 c
  q _ := fullShare
  owed _ := O
  recorded _ := B

variable (O : CellTallies nD τ sig (HIx 3)) (B : Set (SemLoc sig × HIx 3))

theorem A_eq5 (c : Dev nD) (w : Fin cfg5.W) : (dat5 W O B c).A w = atTc W c (Pipeline.arrRef spec5 w) := by
  dsimp only [dat5]
theorem after5_0 (c : Dev nD) (t : Fin cfg5.N) : (dat5 W O B c).after 0 t = iblk5 W c 0 t := by dsimp only [dat5]
theorem after5_1 (c : Dev nD) (t : Fin cfg5.N) : (dat5 W O B c).after 1 t = iblk5 W c 1 t := by dsimp only [dat5]
theorem after5_2 (c : Dev nD) (t : Fin cfg5.N) : (dat5 W O B c).after 2 t = iblk5 W c 2 t := by dsimp only [dat5]
theorem after5_3 (c : Dev nD) (t : Fin cfg5.N) : (dat5 W O B c).after 3 t = iblk5 W c 3 t := by dsimp only [dat5]
theorem after5_4 (c : Dev nD) (t : Fin cfg5.N) : (dat5 W O B c).after 4 t = iblk5 W c 4 t := by dsimp only [dat5]
theorem after5_5 (c : Dev nD) (t : Fin cfg5.N) : (dat5 W O B c).after 5 t = iblk5 W c 5 t := by dsimp only [dat5]
theorem after5_6 (c : Dev nD) (t : Fin cfg5.N) : (dat5 W O B c).after 6 t = iblk5 W c 6 t := by dsimp only [dat5]
theorem after5_7 (c : Dev nD) (t : Fin cfg5.N) : (dat5 W O B c).after 7 t = iblk5 W c 7 t := by dsimp only [dat5]
theorem after5_8 (c : Dev nD) (t : Fin cfg5.N) :
    (dat5 W O B c).after 8 t = out5 (iblk5 W c 0 t) (iblk5 W c 1 t) (iblk5 W c 2 t) (iblk5 W c 3 t) (iblk5 W c 4 t) (iblk5 W c 5 t) (iblk5 W c 6 t) (iblk5 W c 7 t) := by dsimp only [dat5]
theorem before5_0 (c : Dev nD) (t : Fin cfg5.N) (d) : (dat5 W O B c).before 0 t d = iblk5 W c 0 t :=
  before5_0_of W (dat5 W O B c) (A_eq5 W O B c 0) (after5_0 W O B c) t d
theorem before5_1 (c : Dev nD) (t : Fin cfg5.N) (d) : (dat5 W O B c).before 1 t d = iblk5 W c 1 t :=
  before5_1_of W (dat5 W O B c) (A_eq5 W O B c 1) (after5_1 W O B c) t d
theorem before5_2 (c : Dev nD) (t : Fin cfg5.N) (d) : (dat5 W O B c).before 2 t d = iblk5 W c 2 t :=
  before5_2_of W (dat5 W O B c) (A_eq5 W O B c 2) (after5_2 W O B c) t d
theorem before5_3 (c : Dev nD) (t : Fin cfg5.N) (d) : (dat5 W O B c).before 3 t d = iblk5 W c 3 t :=
  before5_3_of W (dat5 W O B c) (A_eq5 W O B c 3) (after5_3 W O B c) t d
theorem before5_4 (c : Dev nD) (t : Fin cfg5.N) (d) : (dat5 W O B c).before 4 t d = iblk5 W c 4 t :=
  before5_4_of W (dat5 W O B c) (A_eq5 W O B c 4) (after5_4 W O B c) t d
theorem before5_5 (c : Dev nD) (t : Fin cfg5.N) (d) : (dat5 W O B c).before 5 t d = iblk5 W c 5 t :=
  before5_5_of W (dat5 W O B c) (A_eq5 W O B c 5) (after5_5 W O B c) t d
theorem before5_6 (c : Dev nD) (t : Fin cfg5.N) (d) : (dat5 W O B c).before 6 t d = iblk5 W c 6 t :=
  before5_6_of W (dat5 W O B c) (A_eq5 W O B c 6) (after5_6 W O B c) t d
theorem before5_7 (c : Dev nD) (t : Fin cfg5.N) (d) : (dat5 W O B c).before 7 t d = iblk5 W c 7 t :=
  before5_7_of W (dat5 W O B c) (A_eq5 W O B c 7) (after5_7 W O B c) t d

/-- What the body is called with at the point, the windows one by one, -/
def bodyPre5 (c : Dev nD) (t : Fin cfg5.N) : sProp 𝕄 :=
  iprop((dat5 W O B c).Φ t.castSucc ∗ (dat5 W O B c).owesAt none t.castSucc
    ∗ (∃ d, owns (c : Thread nD τ) (st5_0 t) fullShare ((dat5 W O B c).before 0 t d))
    ∗ (∃ d, owns (c : Thread nD τ) (st5_1 t) fullShare ((dat5 W O B c).before 1 t d))
    ∗ (∃ d, owns (c : Thread nD τ) (st5_2 t) fullShare ((dat5 W O B c).before 2 t d))
    ∗ (∃ d, owns (c : Thread nD τ) (st5_3 t) fullShare ((dat5 W O B c).before 3 t d))
    ∗ (∃ d, owns (c : Thread nD τ) (st5_4 t) fullShare ((dat5 W O B c).before 4 t d))
    ∗ (∃ d, owns (c : Thread nD τ) (st5_5 t) fullShare ((dat5 W O B c).before 5 t d))
    ∗ (∃ d, owns (c : Thread nD τ) (st5_6 t) fullShare ((dat5 W O B c).before 6 t d))
    ∗ (∃ d, owns (c : Thread nD τ) (st5_7 t) fullShare ((dat5 W O B c).before 7 t d))
    ∗ (∃ d, owns (c : Thread nD τ) (st5_8 t) fullShare ((dat5 W O B c).before 8 t d)))

/-- and what it returns. -/
def bodyPost5 (c : Dev nD) (t : Fin cfg5.N) : sProp 𝕄 :=
  iprop((dat5 W O B c).Φ t.succ ∗ (dat5 W O B c).owesAt none t.succ
    ∗ owns (c : Thread nD τ) (st5_0 t) fullShare ((dat5 W O B c).after 0 t)
    ∗ owns (c : Thread nD τ) (st5_1 t) fullShare ((dat5 W O B c).after 1 t)
    ∗ owns (c : Thread nD τ) (st5_2 t) fullShare ((dat5 W O B c).after 2 t)
    ∗ owns (c : Thread nD τ) (st5_3 t) fullShare ((dat5 W O B c).after 3 t)
    ∗ owns (c : Thread nD τ) (st5_4 t) fullShare ((dat5 W O B c).after 4 t)
    ∗ owns (c : Thread nD τ) (st5_5 t) fullShare ((dat5 W O B c).after 5 t)
    ∗ owns (c : Thread nD τ) (st5_6 t) fullShare ((dat5 W O B c).after 6 t)
    ∗ owns (c : Thread nD τ) (st5_7 t) fullShare ((dat5 W O B c).after 7 t)
    ∗ owns (c : Thread nD τ) (st5_8 t) fullShare ((dat5 W O B c).after 8 t))

theorem sound_body5 (c : Dev nD) (t : Fin cfg5.N) :
    bodyPre5 W O B c t ⊢ wp frame (wpE (defs₀ (F := F)) Variants.none c none) Set.univ (bodyAt5 t) (fun _ => bodyPost5 W O B c t) := by
  unfold bodyPre5 bodyPost5 bodyAt5
  simp only [before5_0, before5_1, before5_2, before5_3, before5_4, before5_5, before5_6, before5_7]
  rw [show (dat5 W O B c).Φ t.succ = (dat5 W O B c).Φ t.castSucc from rfl,
    show (dat5 W O B c).owesAt none t.succ = (dat5 W O B c).owesAt none t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ (iblk5 W c 0 t) (iblk5 W c 1 t) (iblk5 W c 2 t) (iblk5 W c 3 t) (iblk5 W c 4 t) (iblk5 W c 5 t) (iblk5 W c 6 t) (iblk5 W c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of call 5, at its one point. -/
theorem body_obligation5 (c : Dev nD) : BodyObligation (dat5 (F := F) W O B c) (defs₀ (F := F)) Variants.none none Set.univ := fun t => by
  rw [bigSep_W5, bigSep_W5]
  exact sound_body5 W O B c t

/-! ### The result array after the call -/

theorem emb5_0 (t : Fin cfg5.N) (y : ((cfg5.win 0).xblock (cfg5.grid.coords t)).Idx) : ((cfg5.win 0).blk t).view.emb y = y := by
  funext a; exact Fin.ext ((cfg5.win 0).rect_emb_val_of_index_zero t a rfl y)
theorem emb5_1 (t : Fin cfg5.N) (y : ((cfg5.win 1).xblock (cfg5.grid.coords t)).Idx) : ((cfg5.win 1).blk t).view.emb y = y := by
  funext a; exact Fin.ext ((cfg5.win 1).rect_emb_val_of_index_zero t a rfl y)
theorem emb5_2 (t : Fin cfg5.N) (y : ((cfg5.win 2).xblock (cfg5.grid.coords t)).Idx) : ((cfg5.win 2).blk t).view.emb y = y := by
  funext a; exact Fin.ext ((cfg5.win 2).rect_emb_val_of_index_zero t a rfl y)
theorem emb5_3 (t : Fin cfg5.N) (y : ((cfg5.win 3).xblock (cfg5.grid.coords t)).Idx) : ((cfg5.win 3).blk t).view.emb y = y := by
  funext a; exact Fin.ext ((cfg5.win 3).rect_emb_val_of_index_zero t a rfl y)
theorem emb5_4 (t : Fin cfg5.N) (y : ((cfg5.win 4).xblock (cfg5.grid.coords t)).Idx) : ((cfg5.win 4).blk t).view.emb y = y := by
  funext a; exact Fin.ext ((cfg5.win 4).rect_emb_val_of_index_zero t a rfl y)
theorem emb5_5 (t : Fin cfg5.N) (y : ((cfg5.win 5).xblock (cfg5.grid.coords t)).Idx) : ((cfg5.win 5).blk t).view.emb y = y := by
  funext a; exact Fin.ext ((cfg5.win 5).rect_emb_val_of_index_zero t a rfl y)
theorem emb5_6 (t : Fin cfg5.N) (y : ((cfg5.win 6).xblock (cfg5.grid.coords t)).Idx) : ((cfg5.win 6).blk t).view.emb y = y := by
  funext a; exact Fin.ext ((cfg5.win 6).rect_emb_val_of_index_zero t a rfl y)
theorem emb5_7 (t : Fin cfg5.N) (y : ((cfg5.win 7).xblock (cfg5.grid.coords t)).Idx) : ((cfg5.win 7).blk t).view.emb y = y := by
  funext a; exact Fin.ext ((cfg5.win 7).rect_emb_val_of_index_zero t a rfl y)
theorem emb5_8 (t : Fin cfg5.N) (y : ((cfg5.win 8).xblock (cfg5.grid.coords t)).Idx) : ((cfg5.win 8).blk t).view.emb y = y := by
  funext a; exact Fin.ext ((cfg5.win 8).rect_emb_val_of_index_zero t a rfl y)

/-- An operand's block is its whole array. -/
theorem iblk5_0 (c : Dev nD) (t : Fin cfg5.N) : iblk5 W c 0 t = (W (rf main_v44) : Vec F S64x10000 .f32) := by
  funext y; unfold iblk5; rw [View.read_apply, emb5_0]; rfl
theorem iblk5_1 (c : Dev nD) (t : Fin cfg5.N) : iblk5 W c 1 t = (W (rf main_v48) : Vec F S64x10000 .f32) := by
  funext y; unfold iblk5; rw [View.read_apply, emb5_1]; rfl
theorem iblk5_2 (c : Dev nD) (t : Fin cfg5.N) : iblk5 W c 2 t = (W (rf main_v35) : Vec F S64x10000 .f32) := by
  funext y; unfold iblk5; rw [View.read_apply, emb5_2]; rfl
theorem iblk5_3 (c : Dev nD) (t : Fin cfg5.N) : iblk5 W c 3 t = (W (rf main_v20) : Vec F S10000x32 .f32) := by
  funext y; unfold iblk5; rw [View.read_apply, emb5_3]; rfl
theorem iblk5_4 (c : Dev nD) (t : Fin cfg5.N) : iblk5 W c 4 t = (W (rf main_v16) : Vec F S64x1 .f32) := by
  funext y; unfold iblk5; rw [View.read_apply, emb5_4]; rfl
theorem iblk5_5 (c : Dev nD) (t : Fin cfg5.N) : iblk5 W c 5 t = (W (rf main_v14) : Vec F S1x10000 .i32) := by
  funext y; unfold iblk5; rw [View.read_apply, emb5_5]; rfl
theorem iblk5_6 (c : Dev nD) (t : Fin cfg5.N) : iblk5 W c 6 t = (W (rf main_arg7) : Vec F S64x1 .f32) := by
  funext y; unfold iblk5; rw [View.read_apply, emb5_6]; rfl
theorem iblk5_7 (c : Dev nD) (t : Fin cfg5.N) : iblk5 W c 7 t = (W (rf main_v17) : Vec F S1x1 .f32) := by
  funext y; unfold iblk5; rw [View.read_apply, emb5_7]; rfl

/-- The result array after the write-back: the payload. -/
theorem arrAt5_8 (c : Dev nD) : (dat5 W O B c).arrAt 8 cfg5.N = tc2 W := by
  have hN : cfg5.N = t5_0.val + 1 := N_5
  rw [hN, Dat.arrAt_succ, if_pos (flush5_8 t5_0)]
  funext i
  have h := View.write_emb_of_mem (Val := Elt F) (v := ((cfg5.win 8).blk t5_0).view) ((dat5 W O B c).arrAt 8 t5_0.val) ((dat5 W O B c).flushed 8 t5_0) (Finset.mem_univ i)
  rw [emb5_8] at h
  refine h.trans ?_
  show (dat5 W O B c).after 8 t5_0 i = _
  rw [after5_8, out5_eq, iblk5_0, iblk5_1, iblk5_2, iblk5_3, iblk5_4, iblk5_5, iblk5_6, iblk5_7]
  rfl

/-- An operand's array is as it was. -/
theorem arrAt5_in (c : Dev nD) (w : Fin cfg5.W) (hw : (cfg5.win w).isOut = false) :
    (dat5 W O B c).arrAt w cfg5.N = atTc W c (Pipeline.arrRef spec5 w) :=
  ((dat5 W O B c).arrAt_in w hw _).trans (A_eq5 W O B c w)

/-! ### The region -/

/-- The proof data family of call 5's rule, entered before SparseCore call n. -/
def fam5 (n : ℕ) : (p : Fin 3) → (c : Dev nD) → Dat τ (Elt F) (HIx 3) ℕ UU ℕ (Pipeline.pin (pcfgs (F := F)) adm p) c
  | ⟨0, _⟩ => fun c => datNone cfg1 c
  | ⟨1, _⟩ => fun c => datNone cfg3 c
  | ⟨2, _⟩ => fun c => dat5 W ((K (F := F)).Otc c n) (recB (F := F) c n) c

/-- The valuation after call 5. -/
def upd5 : Valuation τ sig (Elt F) := Function.update W (rf main_v49) (tc2 W)

set_option maxHeartbeats 4000000 in
theorem upd5_arr (c : Dev nD) (n : ℕ) : ∀ w : Fin cfg5.W,
    (fam5 W n 2 c).arrAt w cfg5.N = atTc (upd5 W) c (Pipeline.arrRef spec5 w)
  | ⟨0, _⟩ => (arrAt5_in W _ _ c 0 rfl).trans
      (Function.update_of_ne (StableHlo.devRef_ne_of_ne (by decide : main_v44 ≠ main_v49)) _ _).symm
  | ⟨1, _⟩ => (arrAt5_in W _ _ c 1 rfl).trans
      (Function.update_of_ne (StableHlo.devRef_ne_of_ne (by decide : main_v48 ≠ main_v49)) _ _).symm
  | ⟨2, _⟩ => (arrAt5_in W _ _ c 2 rfl).trans
      (Function.update_of_ne (StableHlo.devRef_ne_of_ne (by decide : main_v35 ≠ main_v49)) _ _).symm
  | ⟨3, _⟩ => (arrAt5_in W _ _ c 3 rfl).trans
      (Function.update_of_ne (StableHlo.devRef_ne_of_ne (by decide : main_v20 ≠ main_v49)) _ _).symm
  | ⟨4, _⟩ => (arrAt5_in W _ _ c 4 rfl).trans
      (Function.update_of_ne (StableHlo.devRef_ne_of_ne (by decide : main_v16 ≠ main_v49)) _ _).symm
  | ⟨5, _⟩ => (arrAt5_in W _ _ c 5 rfl).trans
      (Function.update_of_ne (StableHlo.devRef_ne_of_ne (by decide : main_v14 ≠ main_v49)) _ _).symm
  | ⟨6, _⟩ => (arrAt5_in W _ _ c 6 rfl).trans
      (Function.update_of_ne (StableHlo.devRef_ne_of_ne (by decide : main_arg7 ≠ main_v49)) _ _).symm
  | ⟨7, _⟩ => (arrAt5_in W _ _ c 7 rfl).trans
      (Function.update_of_ne (StableHlo.devRef_ne_of_ne (by decide : main_v17 ≠ main_v49)) _ _).symm
  | ⟨8, _⟩ => (arrAt5_8 W _ _ c).trans (by
      show tc2 W = Function.update W (rf main_v49) (tc2 W) (rf main_v49)
      rw [Function.update_self])

theorem upd5_rest (c : Dev nD) : ∀ b, b ∉ Finset.univ.image (Pipeline.arrRef spec5) → atTc (upd5 W) c b = atTc W c b :=
  fun b hb => Function.update_of_ne (fun e => hb (Finset.mem_image.mpr ⟨8, Finset.mem_univ _, (Proc.devRef_injective _ e).symm⟩)) _ _

set_option backward.isDefEq.respectTransparency.types false in
/-- Call 5 as a region of the host program, entered before SparseCore call n from the arrays at W. -/
def reg5 (n : ℕ) : Pipeline.RegionSeg (pcfgs (F := F)) adm (fam5 W n) none defs₀ 𝒱₀ (K (F := F)).L (K (F := F)).lev 2 where
  win := launch5.win.to₀
  block_pos := launch5.block_pos
  stage_whole := launch5.stage_whole
  K := PEmpty
  osem k := k.elim
  ho := Pipeline.OwnSemFacts.none _
  hbody c := (body_obligation5 W _ _ c).loose
  hwaits c := Pipeline.cellsWaits_intro _ _ _ 2 c fun w s t => (K (F := F)).mayWait_none _ (Otc_none c n)
  pre c := iprop(StableHlo.held (c.tc : Thread nD τ) Sall W ∗ owesTc c n)
  post c := iprop(StableHlo.held (c.tc : Thread nD τ) Sall (upd5 W) ∗ owesTc c n)
  X c := BI.emp
  Y c := BI.emp
  Z c := Pipeline.unscopedRest (Ix := HIx 3) (Name := ℕ) (U := UU) (Lvl := ℕ) spec5 c (atTc W c)
  hentry c := by
    rw [Pipeline.ownSems0_none]
    have hsplit := Pipeline.arrays_of_unscopedBufs (p := 2) (pcfgs (F := F)) adm (fam5 W n) launch5.win launch5.arr_whole c
      ((fam5 W n 2 c).share_full fun _ => rfl) (atTc W c) fun _ => rfl
    rw [unscopedBufs_Sall] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owesTc c n (fam5 W n 2 c) 0 rfl rfl); iexact HO
    isplitr; · iempintro
    iexact Hrest
  hin c := by
    rw [show (fam5 W n 2 c).Φ 0 = Pipeline.scopedRest spec5 c from rfl]
    iintro ⟨-, -, Hr⟩
    iexact Hr
  hout c := by
    rw [Pipeline.ownSems0_none, show (fam5 W n 2 c).Φ (Fin.last _) = Pipeline.scopedRest spec5 c from rfl]
    iintro Hr
    isplitr; · iempintro
    isplitr; · iempintro
    iexact Hr
  hexit c := by
    have hjoin := Pipeline.unscopedBufs_of_arrays (p := 2) (pcfgs (F := F)) adm (Ix := HIx 3) (Name := ℕ) (U := UU) (Lvl := ℕ)
      launch5.win launch5.arr_whole c (fam5 W n) ((fam5 W n 2 c).share_full fun _ => rfl)
      (atTc W c) (atTc (upd5 W) c) ((fam5 W n 2 c).arrAt · cfg5.N) (upd5_arr W c n) (upd5_rest W c)
    rw [unscopedBufs_Sall] at hjoin
    iintro ⟨Ha, HO, -, Hrest⟩
    imodintro
    isplitl [Ha Hrest]
    · iapply hjoin; isplitl [Ha] <;> iassumption
    iapply (owesTc_of_owesAt c n (fam5 W n 2 c) (Fin.last _) rfl rfl); iexact HO

theorem reg5_pre (n : ℕ) (c : Dev nD) : (reg5 W n).pre c = iprop(StableHlo.held (c.tc : Thread nD τ) Sall W ∗ owesTc c n) := rfl
theorem reg5_post (n : ℕ) (c : Dev nD) : (reg5 W n).post c = iprop(StableHlo.held (c.tc : Thread nD τ) Sall (upd5 W) ∗ owesTc c n) := rfl

/-! ### The rule -/

set_option backward.isDefEq.respectTransparency.types false in
/-- Call 5 in the TensorCore's proof of the host program, before SparseCore call n: from the handshake state, the
    region boundary, the program's arrays at V and the rounds of the call's staging cells, to the same with the
    result array at the body's value of the operands. -/
theorem region_2 {P : (K (F := F)).Pay (nD := nD) (Val := Elt F) (Name := ℕ) (U := UU)} (κ : GSem nD τ sig → ℕ) (d : Dev nD) (n : ℕ)
    (V : Valuation τ sig (Elt F)) {α : Type} (k : PUnit → Prog (TpuEff nD τ sig (Elt F) (SparseCore.Sig (ΛP (F := F)) 3) .tc) α) (Φ : α → sProp 𝕄) :
    iprop((K (F := F)).ctx EH P κ ∗ (K (F := F)).tcSt EH d n ∗ boundary (T d) ∗ StableHlo.held (T d) Sall V ∗ RG (F := F) 2 d
        ∗ (iprop((K (F := F)).tcSt EH d n ∗ boundary (T d) ∗ StableHlo.held (T d) Sall (Function.update V (rf main_v49) (tc2 V))) -∗
            wp frame (wpE ((K (F := F)).defs (D (F := F))) 𝒱 (T d) none) Set.univ (k ⟨⟩) Φ))
      ⊢ wp frame (wpE ((K (F := F)).defs (D (F := F))) 𝒱 (T d) none) Set.univ
          (Prog.lift (.customCall (SparseCore.inner (Pipeline.entry 2)) ()) >>= k) Φ := by
  rw [wp_bind]
  unfold SparseCore.Cfg.tcSt
  iintro ⟨#Hctx, ⟨HO, Hst⟩, Hbd, Hh, ⟨Hg, Ht⟩, Hk⟩
  ihave Hlev := (SparseCore.Cfg.ctx_levAts κ) $$ Hctx
  iapply ((K (F := F)).wp_liftProg (D (F := F)) 𝒱 (T d) Set.univ none (.op (.customCall (Pipeline.entry 2) ()) fun x => .ret x) _)
  iapply (Pipeline.RegionSeg.wp (pcfgs (F := F)) adm (fam5 V n) none cellOf_inj EP defs₀ 𝒱₀ (K (F := F)).L (K (F := F)).lev (reg5 V n) d none
      (fun u hu => by cases hu) (fun x => .ret x) _)
  rw [reg5_pre, reg5_post]
  isplitl [Hk Hst]
  · iintro ⟨Hbd, ⟨Hh, HO⟩⟩
    rw [wp_ret]; imodintro
    iapply Hk
    isplitl [HO Hst]
    · isplitl [HO]; · iexact HO
      iexact Hst
    isplitl [Hbd]; · iexact Hbd
    iexact Hh
  isplitl [Hbd]; · iexact Hbd
  isplitl [Hh HO]
  · isplitl [Hh]; · iexact Hh
    iexact HO
  isplitr; · iexact Hlev
  isplitl [Hg]; · iexact Hg
  iexact Ht

end Call5

end Cert.Kernel.Hand

end
-- ==== Proof.K.LaunchSplit.lean ====
/-
  The two edge calls' hand-over at the TensorCore: before a call the TensorCore's arrays, held whole, split into what
  the call's SparseCores are handed and what stays behind; after it, what they hand back and what stayed behind are
  the TensorCore's arrays again, the call's result array at the kernel's value.

  Each read-only operand goes out as the thirty-two tiles' read shares of the whole array, its remainder staying
  behind; the result array goes out as its thirty-two rows at the full share, which are pairwise disjoint and cover it.
-/
import proofs.«219763_g10557029614292_week1_w2_488_21_alg».proof.Proof.K.LaunchPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq launchContents held_sub_split held_congr)
open Idealize.ShloMosaic.Transfers (shareTok shareDrop pointsTo_toks pointsTo_toks_split pointsTo_toks_join)
open Idealize.ShloMosaic.Tactic

variable {F : FTy → Type}

local notation "𝕄" => MT nD τ sig (HIx 3) (Elt F) ℕ UU ℕ

variable (m : (ℓ : Loc nD τ sig) → Buf (Elt F) ℓ)
variable [FloatOps F]

/-! ## The first edge call -/

theorem hT1 : T1 ⊆ Sall := by
  intro b hb
  simp only [Finset.mem_insert, Finset.mem_singleton] at hb
  rcases hb with rfl | rfl | rfl | rfl | rfl <;> exact mem_Sall rfl

omit [FloatOps F] in
/-- The call's five arrays held whole are five whole points-to at the full share. -/
theorem held_T1 (d : Dev nD) (W : Valuation τ sig (Elt F)) :
    (held (T d) T1 W : sProp 𝕄)
      = iprop((cc2_edge.gLoc d ↦{fullShare} W (rf main_v23)) ∗ (cc2_edge.sLoc d ↦{fullShare} W (rf main_v6)) ∗ (cc2_edge.dLoc d ↦{fullShare} W (rf main_v9))
          ∗ (cc2_edge.zLoc d ↦{fullShare} W (rf main_v13)) ∗ (cc2_edge.oLoc d ↦{fullShare} W (rf main_v24))) := by
  unfold held
  rw [SparseCore.bigSep_insert' (by decide), SparseCore.bigSep_insert' (by decide), SparseCore.bigSep_insert' (by decide),
    SparseCore.bigSep_insert' (by decide), bigSep_singleton]

/-- The thirty-two tiles' shares of the call, array by array. -/
theorem go1_arrays (d : Dev nD) :
    (bigSep Finset.univ fun c : Fin 2 => bigSep Finset.univ fun i : Fin 16 => goQ m 1 d c i)
      = iprop((bigSep Finset.univ fun c : Fin 2 => bigSep Finset.univ fun i : Fin 16 => (cc2_edge.gLoc d ↦{σ c i} V5 m d (rf main_v23) : sProp 𝕄))
          ∗ (bigSep Finset.univ fun c : Fin 2 => bigSep Finset.univ fun i : Fin 16 => (cc2_edge.sLoc d ↦{σ c i} V5 m d (rf main_v6) : sProp 𝕄))
          ∗ (bigSep Finset.univ fun c : Fin 2 => bigSep Finset.univ fun i : Fin 16 => (cc2_edge.dLoc d ↦{σ c i} V5 m d (rf main_v9) : sProp 𝕄))
          ∗ (bigSep Finset.univ fun c : Fin 2 => bigSep Finset.univ fun i : Fin 16 => (cc2_edge.zLoc d ↦{σ c i} V5 m d (rf main_v13) : sProp 𝕄))
          ∗ (bigSep Finset.univ fun c : Fin 2 => bigSep Finset.univ fun i : Fin 16 => (cc2_edge.oLoc d ↦[cc2_edge.edgeRow (L2 c i)]{fullShare} V5 m d (rf main_v24) : sProp 𝕄))) := by
  simp only [goQ, cc2_edge.arrays, bigSep_sep']
theorem td1_arrays (d : Dev nD) :
    (bigSep Finset.univ fun c : Fin 2 => bigSep Finset.univ fun i : Fin 16 => tdQ m 1 d c i)
      = iprop((bigSep Finset.univ fun c : Fin 2 => bigSep Finset.univ fun i : Fin 16 => (cc2_edge.gLoc d ↦{σ c i} V5 m d (rf main_v23) : sProp 𝕄))
          ∗ (bigSep Finset.univ fun c : Fin 2 => bigSep Finset.univ fun i : Fin 16 => (cc2_edge.sLoc d ↦{σ c i} V5 m d (rf main_v6) : sProp 𝕄))
          ∗ (bigSep Finset.univ fun c : Fin 2 => bigSep Finset.univ fun i : Fin 16 => (cc2_edge.dLoc d ↦{σ c i} V5 m d (rf main_v9) : sProp 𝕄))
          ∗ (bigSep Finset.univ fun c : Fin 2 => bigSep Finset.univ fun i : Fin 16 => (cc2_edge.zLoc d ↦{σ c i} V5 m d (rf main_v13) : sProp 𝕄))
          ∗ (bigSep Finset.univ fun c : Fin 2 => bigSep Finset.univ fun i : Fin 16 => (cc2_edge.oLoc d ↦[cc2_edge.edgeRow (L2 c i)]{fullShare} scEdge1 (V5 m d) : sProp 𝕄))) := by
  simp only [tdQ, scEdge1, cc2_edge.arrays, bigSep_sep']

/-- Before the call the TensorCore's arrays split into the SparseCores' shares of the call and what stays behind. -/
theorem st1 (d : Dev nD) :
    (held (T d) Sall (V5 m d) : sProp 𝕄)
      ⊢ iprop((bigSep Finset.univ fun c : Fin ((K (F := F)).nCore 1) => (P m).st 1 d c) ∗ Fr1 m d) := by
  show _ ⊢ iprop((bigSep Finset.univ fun c : Fin ((K (F := F)).nCore 1) => stQ m 1 d (Fin.cast (nCore_eq 1) c)) ∗ Fr1 m d)
  rw [bigSep_cores (F := F) 1 (fun c => stQ m 1 d c), held_sub_split (T d) hT1, held_T1]
  unfold Fr1 stQ
  rw [go1_arrays, edge2_rows d fullShare]
  iintro ⟨⟨Hg, Hs, Ht, Hz, Ho⟩, Hrest⟩
  ihave Hg' := (shares32 (F := F) _).1 $$ Hg
  icases Hg' with ⟨Rg, Hg⟩
  ihave Hs' := (shares32 (F := F) _).1 $$ Hs
  icases Hs' with ⟨Rs, Hs⟩
  ihave Ht' := (shares32 (F := F) _).1 $$ Ht
  icases Ht' with ⟨Rt, Ht⟩
  ihave Hz' := (shares32 (F := F) _).1 $$ Hz
  icases Hz' with ⟨Rz, Hz⟩
  isplitl [Hg Hs Ht Hz Ho]
  · isplitl [Hg]; · iexact Hg
    isplitl [Hs]; · iexact Hs
    isplitl [Ht]; · iexact Ht
    isplitl [Hz]; · iexact Hz
    iexact Ho
  · isplitl [Hrest]; · iexact Hrest
    isplitl [Rg]; · iexact Rg
    isplitl [Rs]; · iexact Rs
    isplitl [Rt]; · iexact Rt
    iexact Rz

/-- After the call the shares handed back and what stayed behind are the TensorCore's arrays, the result array at the
    call's value. -/
theorem dn1 (d : Dev nD) :
    iprop((bigSep Finset.univ fun c : Fin ((K (F := F)).nCore 1) => (P m).dn 1 d c) ∗ Fr1 m d)
      ⊢ (held (T d) Sall (V6 m d) : sProp 𝕄) := by
  show iprop((bigSep Finset.univ fun c : Fin ((K (F := F)).nCore 1) => dnQ m 1 d (Fin.cast (nCore_eq 1) c)) ∗ Fr1 m d) ⊢ _
  rw [bigSep_cores (F := F) 1 (fun c => dnQ m 1 d c)]
  unfold V6
  rw [held_split_upd (T d) hT1 (b := rf main_v24) (by decide) (V5 m d) (scEdge1 (V5 m d)), held_T1,
    Function.update_of_ne (show rf main_v23 ≠ rf main_v24 by decide), Function.update_of_ne (show rf main_v6 ≠ rf main_v24 by decide),
    Function.update_of_ne (show rf main_v9 ≠ rf main_v24 by decide), Function.update_of_ne (show rf main_v13 ≠ rf main_v24 by decide),
    Function.update_self]
  unfold Fr1 dnQ
  rw [td1_arrays, edge2_rows d fullShare]
  iintro ⟨⟨Hg, Hs, Ht, Hz, Ho⟩, Hrest, Rg, Rs, Rt, Rz⟩
  isplitr [Hrest]
  · isplitl [Hg Rg]
    · iapply ((shares32 (F := F) _).2)
      isplitl [Rg]; · iexact Rg
      iexact Hg
    isplitl [Hs Rs]
    · iapply ((shares32 (F := F) _).2)
      isplitl [Rs]; · iexact Rs
      iexact Hs
    isplitl [Ht Rt]
    · iapply ((shares32 (F := F) _).2)
      isplitl [Rt]; · iexact Rt
      iexact Ht
    isplitl [Hz Rz]
    · iapply ((shares32 (F := F) _).2)
      isplitl [Rz]; · iexact Rz
      iexact Hz
    iexact Ho
  · iexact Hrest

/-! ## The second edge call -/

theorem hT2 : T2 ⊆ Sall := by
  intro b hb
  simp only [Finset.mem_insert, Finset.mem_singleton] at hb
  rcases hb with rfl | rfl | rfl | rfl | rfl <;> exact mem_Sall rfl

omit [FloatOps F] in
/-- The call's five arrays held whole are five whole points-to at the full share. -/
theorem held_T2 (d : Dev nD) (W : Valuation τ sig (Elt F)) :
    (held (T d) T2 W : sProp 𝕄)
      = iprop((cc4_edge.gLoc d ↦{fullShare} W (rf main_v37)) ∗ (cc4_edge.sLoc d ↦{fullShare} W (rf main_v6)) ∗ (cc4_edge.dLoc d ↦{fullShare} W (rf main_v9))
          ∗ (cc4_edge.zLoc d ↦{fullShare} W (rf main_v13)) ∗ (cc4_edge.oLoc d ↦{fullShare} W (rf main_v38))) := by
  unfold held
  rw [SparseCore.bigSep_insert' (by decide), SparseCore.bigSep_insert' (by decide), SparseCore.bigSep_insert' (by decide),
    SparseCore.bigSep_insert' (by decide), bigSep_singleton]

/-- The thirty-two tiles' shares of the call, array by array. -/
theorem go2_arrays (d : Dev nD) :
    (bigSep Finset.univ fun c : Fin 2 => bigSep Finset.univ fun i : Fin 16 => goQ m 2 d c i)
      = iprop((bigSep Finset.univ fun c : Fin 2 => bigSep Finset.univ fun i : Fin 16 => (cc4_edge.gLoc d ↦{σ c i} V9 m d (rf main_v37) : sProp 𝕄))
          ∗ (bigSep Finset.univ fun c : Fin 2 => bigSep Finset.univ fun i : Fin 16 => (cc4_edge.sLoc d ↦{σ c i} V9 m d (rf main_v6) : sProp 𝕄))
          ∗ (bigSep Finset.univ fun c : Fin 2 => bigSep Finset.univ fun i : Fin 16 => (cc4_edge.dLoc d ↦{σ c i} V9 m d (rf main_v9) : sProp 𝕄))
          ∗ (bigSep Finset.univ fun c : Fin 2 => bigSep Finset.univ fun i : Fin 16 => (cc4_edge.zLoc d ↦{σ c i} V9 m d (rf main_v13) : sProp 𝕄))
          ∗ (bigSep Finset.univ fun c : Fin 2 => bigSep Finset.univ fun i : Fin 16 => (cc4_edge.oLoc d ↦[cc4_edge.edgeRow (L4 c i)]{fullShare} V9 m d (rf main_v38) : sProp 𝕄))) := by
  simp only [goQ, cc4_edge.arrays, bigSep_sep']
theorem td2_arrays (d : Dev nD) :
    (bigSep Finset.univ fun c : Fin 2 => bigSep Finset.univ fun i : Fin 16 => tdQ m 2 d c i)
      = iprop((bigSep Finset.univ fun c : Fin 2 => bigSep Finset.univ fun i : Fin 16 => (cc4_edge.gLoc d ↦{σ c i} V9 m d (rf main_v37) : sProp 𝕄))
          ∗ (bigSep Finset.univ fun c : Fin 2 => bigSep Finset.univ fun i : Fin 16 => (cc4_edge.sLoc d ↦{σ c i} V9 m d (rf main_v6) : sProp 𝕄))
          ∗ (bigSep Finset.univ fun c : Fin 2 => bigSep Finset.univ fun i : Fin 16 => (cc4_edge.dLoc d ↦{σ c i} V9 m d (rf main_v9) : sProp 𝕄))
          ∗ (bigSep Finset.univ fun c : Fin 2 => bigSep Finset.univ fun i : Fin 16 => (cc4_edge.zLoc d ↦{σ c i} V9 m d (rf main_v13) : sProp 𝕄))
          ∗ (bigSep Finset.univ fun c : Fin 2 => bigSep Finset.univ fun i : Fin 16 => (cc4_edge.oLoc d ↦[cc4_edge.edgeRow (L4 c i)]{fullShare} scEdge2 (V9 m d) : sProp 𝕄))) := by
  simp only [tdQ, scEdge2, cc4_edge.arrays, bigSep_sep']

/-- Before the call the TensorCore's arrays split into the SparseCores' shares of the call and what stays behind. -/
theorem st2 (d : Dev nD) :
    (held (T d) Sall (V9 m d) : sProp 𝕄)
      ⊢ iprop((bigSep Finset.univ fun c : Fin ((K (F := F)).nCore 2) => (P m).st 2 d c) ∗ Fr2 m d) := by
  show _ ⊢ iprop((bigSep Finset.univ fun c : Fin ((K (F := F)).nCore 2) => stQ m 2 d (Fin.cast (nCore_eq 2) c)) ∗ Fr2 m d)
  rw [bigSep_cores (F := F) 2 (fun c => stQ m 2 d c), held_sub_split (T d) hT2, held_T2]
  unfold Fr2 stQ
  rw [go2_arrays, edge4_rows d fullShare]
  iintro ⟨⟨Hg, Hs, Ht, Hz, Ho⟩, Hrest⟩
  ihave Hg' := (shares32 (F := F) _).1 $$ Hg
  icases Hg' with ⟨Rg, Hg⟩
  ihave Hs' := (shares32 (F := F) _).1 $$ Hs
  icases Hs' with ⟨Rs, Hs⟩
  ihave Ht' := (shares32 (F := F) _).1 $$ Ht
  icases Ht' with ⟨Rt, Ht⟩
  ihave Hz' := (shares32 (F := F) _).1 $$ Hz
  icases Hz' with ⟨Rz, Hz⟩
  isplitl [Hg Hs Ht Hz Ho]
  · isplitl [Hg]; · iexact Hg
    isplitl [Hs]; · iexact Hs
    isplitl [Ht]; · iexact Ht
    isplitl [Hz]; · iexact Hz
    iexact Ho
  · isplitl [Hrest]; · iexact Hrest
    isplitl [Rg]; · iexact Rg
    isplitl [Rs]; · iexact Rs
    isplitl [Rt]; · iexact Rt
    iexact Rz

/-- After the call the shares handed back and what stayed behind are the TensorCore's arrays, the result array at the
    call's value. -/
theorem dn2 (d : Dev nD) :
    iprop((bigSep Finset.univ fun c : Fin ((K (F := F)).nCore 2) => (P m).dn 2 d c) ∗ Fr2 m d)
      ⊢ (held (T d) Sall (V10 m d) : sProp 𝕄) := by
  show iprop((bigSep Finset.univ fun c : Fin ((K (F := F)).nCore 2) => dnQ m 2 d (Fin.cast (nCore_eq 2) c)) ∗ Fr2 m d) ⊢ _
  rw [bigSep_cores (F := F) 2 (fun c => dnQ m 2 d c)]
  unfold V10
  rw [held_split_upd (T d) hT2 (b := rf main_v38) (by decide) (V9 m d) (scEdge2 (V9 m d)), held_T2,
    Function.update_of_ne (show rf main_v37 ≠ rf main_v38 by decide), Function.update_of_ne (show rf main_v6 ≠ rf main_v38 by decide),
    Function.update_of_ne (show rf main_v9 ≠ rf main_v38 by decide), Function.update_of_ne (show rf main_v13 ≠ rf main_v38 by decide),
    Function.update_self]
  unfold Fr2 dnQ
  rw [td2_arrays, edge4_rows d fullShare]
  iintro ⟨⟨Hg, Hs, Ht, Hz, Ho⟩, Hrest, Rg, Rs, Rt, Rz⟩
  isplitr [Hrest]
  · isplitl [Hg Rg]
    · iapply ((shares32 (F := F) _).2)
      isplitl [Rg]; · iexact Rg
      iexact Hg
    isplitl [Hs Rs]
    · iapply ((shares32 (F := F) _).2)
      isplitl [Rs]; · iexact Rs
      iexact Hs
    isplitl [Ht Rt]
    · iapply ((shares32 (F := F) _).2)
      isplitl [Rt]; · iexact Rt
      iexact Ht
    isplitl [Hz Rz]
    · iapply ((shares32 (F := F) _).2)
      isplitl [Rz]; · iexact Rz
      iexact Hz
    iexact Ho
  · iexact Hrest

end Cert.Kernel.Hand

end
-- ==== Proof.K.Launch.lean ====
/-
  The program's run: every weakly fair execution of the TensorCore's host program and the two SparseCores' sequencers
  and thirty-two tiles, from a memory with zero counters, terminates, faults nowhere, and ends with the result array
  at the last link of the chain of buffer contents and the nine arguments as launched.

  The launch element is the handshakes' rounds beside the rounds of the three TensorCore regions' staging cells; the
  kernels' own copies need no schedule. The TensorCore's proof walks the program's thirteen segments: a straight line
  of host operations takes the arrays held at one link of the chain to the next; a SparseCore call deals its operands
  to the tiles (read shares of the read-only arrays, the rows of the result) and gets them back with the result at the
  kernel's value; a region runs by its rule. The final memory agrees with every array held at the end.
-/
import proofs.«219763_g10557029614292_week1_w2_488_21_alg».proof.Proof.K.LaunchPay
import proofs.«219763_g10557029614292_week1_w2_488_21_alg».proof.Proof.K.ChainFacts
import proofs.«219763_g10557029614292_week1_w2_488_21_alg».proof.Proof.K.HeldAgree
import proofs.«219763_g10557029614292_week1_w2_488_21_alg».proof.Proof.K.TcRegion
import proofs.«219763_g10557029614292_week1_w2_488_21_alg».proof.Proof.K.LaunchSplit

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq after seq launchContents held_sub_split held_congr)
open Idealize.ShloMosaic.Transfers (shareTok shareDrop pointsTo_toks pointsTo_toks_split pointsTo_toks_join)
open Idealize.ShloMosaic.Tactic

variable {F : FTy → Type}

local notation "𝕄" => MT nD τ sig (HIx 3) (Elt F) ℕ UU ℕ

variable (m : (ℓ : Loc nD τ sig) → Buf (Elt F) ℓ) (ρ : Dev nD → PrngReg)
variable [FloatOps F]

/-! ## The launch element -/

/-- What the TensorCore's proof starts from beyond the launch's deal: the rounds of the three regions' staging cells. -/
abbrev G (d : Dev nD) : sProp 𝕄 := iprop(RG (F := F) 0 d ∗ RG (F := F) 1 d ∗ RG (F := F) 2 d)

/-- The handshakes' rounds, the regions' staging cells' rounds, no counter. -/
def u₀ : UU := (initOf (K (F := F)).hsCells (K (F := F)).hsToks, ((uP : UP), (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (P m).x q thr) := by
  unfold u₀
  iintro Hu
  ihave H := (ownU_pair _ _) $$ Hu
  icases H with ⟨HH, HR⟩
  ihave HR' := (own_pair_emb embR (uP : UP) (1 : Counters)) $$ HR
  icases HR' with ⟨HP, -⟩
  ihave HP' := (Entails.of_eq (show (BI.own ((((Emb.inl : Emb UP (UP × Counters)).trans embR) : Emb UP 𝕄) uP) : sProp 𝕄) = BI.own ((EP : Emb UP 𝕄) uP) from rfl)) $$ HP
  imod (fund_RG (F := F)) $$ HP' with HG
  imodintro
  isplitl [HH]; · iexact HH
  isplitl [HG]; · iexact HG
  unfold P; dsimp only
  rw [show (bigSep Finset.univ fun _ : Thread nD τ => bigSep Finset.univ fun _ : Fin 3 => (iprop(emp) : sProp 𝕄)) = iprop(emp) from by
    rw [bigSep_congr fun _ _ => bigSep_emp' _, bigSep_emp']]
  iempintro

/-! ## The degree call's arrays, out and back -/

omit [FloatOps F] in
theorem hT0 : (T0 : Finset (DevRef τ sig)) ⊆ Sall := by
  intro b hb
  simp only [Finset.mem_insert, Finset.mem_singleton] at hb
  rcases hb with rfl | rfl | rfl <;> exact mem_Sall rfl

omit [FloatOps F] in
theorem held_T0 (d : Dev nD) (W : Valuation τ sig (Elt F)) :
    (held (T d) T0 W : sProp 𝕄) = iprop((degALoc d ↦{fullShare} W (rf main_v11)) ∗ (degZLoc d ↦{fullShare} W (rf main_v12)) ∗ (degOLoc d ↦{fullShare} W (rf main_v18))) := by
  unfold held
  rw [SparseCore.bigSep_insert' (by decide), SparseCore.bigSep_insert' (by decide), bigSep_singleton]

omit [FloatOps F] in
theorem degO_rows_ex (d : Dev nD) (f : Buf (Elt F) (degOLoc d)) :
    (degOLoc d ↦{fullShare} f : sProp 𝕄) ⊢ bigSep Finset.univ fun c : Fin 2 => bigSep Finset.univ fun i : Fin 16 => iprop(∃ g, degOLoc d ↦[degRowSet (wOf c i)]{fullShare} g) := by
  rw [degO_rows]
  refine bigSep_mono fun c _ => bigSep_mono fun i _ => ?_
  show _ ⊢ iprop(∃ g, degOLoc d ↦[degRowSet (wOf c i)]{fullShare} g)
  iintro H; iexists _; iexact H

theorem st0 (d : Dev nD) :
    (held (T d) Sall (V1 m d) : sProp 𝕄) ⊢ iprop((bigSep Finset.univ fun c : Fin ((K (F := F)).nCore 0) => (P m).st 0 d c) ∗ Fr0 m d) := by
  show _ ⊢ iprop((bigSep Finset.univ fun c : Fin ((K (F := F)).nCore 0) => stQ m 0 d (Fin.cast (nCore_eq 0) c)) ∗ Fr0 m d)
  rw [bigSep_cores (F := F) 0 (fun c => stQ m 0 d c), held_sub_split (T d) hT0 (V1 m d), held_T0]
  unfold stQ Fr0
  simp only [goQ, bigSep_sep']
  iintro ⟨⟨Ha, Hz, Ho⟩, Hrest⟩
  ihave Hz' := ((shares32 (ℓ := degZLoc d) (V1 m d (rf main_v12))).1) $$ Hz
  icases Hz' with ⟨Hrem, Hzs⟩
  ihave Ha' := (Entails.of_eq (degA_rows d fullShare (V1 m d (rf main_v11)))) $$ Ha
  ihave Ho' := (degO_rows_ex d (V1 m d (rf main_v18))) $$ Ho
  isplitl [Ha' Hzs Ho']
  · isplitl [Ha']; · iexact Ha'
    isplitl [Hzs]; · iexact Hzs
    iexact Ho'
  · isplitl [Hrest]; · iexact Hrest
    iexact Hrem

theorem dn0 (d : Dev nD) :
    iprop((bigSep Finset.univ fun c : Fin ((K (F := F)).nCore 0) => (P m).dn 0 d c) ∗ Fr0 m d) ⊢ (held (T d) Sall (V2 m d) : sProp 𝕄) := by
  show iprop((bigSep Finset.univ fun c : Fin ((K (F := F)).nCore 0) => dnQ m 0 d (Fin.cast (nCore_eq 0) c)) ∗ Fr0 m d) ⊢ _
  rw [bigSep_cores (F := F) 0 (fun c => dnQ m 0 d c)]
  unfold V2
  rw [held_split_upd (T d) hT0 (show rf main_v18 ∈ (T0 : Finset (DevRef τ sig)) by decide), held_T0,
    Function.update_of_ne (show (rf main_v11 : DevRef τ sig) ≠ rf main_v18 by decide), Function.update_of_ne (show (rf main_v12 : DevRef τ sig) ≠ rf main_v18 by decide),
    Function.update_self]
  unfold dnQ Fr0 scDeg
  simp only [tdQ, bigSep_sep']
  iintro ⟨⟨Ha, Hzs, Ho⟩, Hrest, Hrem⟩
  isplitr [Hrest]
  · isplitl [Ha]; · iapply (Entails.of_eq (degA_rows d fullShare _).symm); iexact Ha
    isplitl [Hzs Hrem]
    · iapply ((shares32 (ℓ := degZLoc d) (V1 m d (rf main_v12))).2)
      isplitl [Hrem] <;> iassumption
    iapply (Entails.of_eq (degO_rows d fullShare _).symm); iexact Ho
  · iexact Hrest

theorem call0 (κ : GSem nD τ sig → ℕ) (d : Dev nD) {β : Type} (k : PUnit → Prog (TpuEff nD τ sig (Elt F) (SparseCore.Sig (ΛP (F := F)) 3) .tc) β) (Φ : β → sProp 𝕄) :
    iprop((K (F := F)).ctx EH (P m) κ ∗ (K (F := F)).tcSt EH d 0 ∗ held (T d) Sall (V1 m d)
        ∗ (iprop((K (F := F)).tcSt EH d 1 ∗ held (T d) Sall (V2 m d)) -∗
            wp frame (wpE ((K (F := F)).defs (D (F := F))) 𝒱 (T d) none) Set.univ (k ⟨⟩) Φ))
      ⊢ wp frame (wpE ((K (F := F)).defs (D (F := F))) 𝒱 (T d) none) Set.univ (sc.run d 0 >>= k) Φ := by
  rw [wp_bind]
  iintro ⟨#Hctx, Hst, Hheld, Hk⟩
  ihave H := (st0 m d) $$ Hheld
  icases H with ⟨Hs, Hfr⟩
  iapply ((K (F := F)).wp_run (D (F := F)) 𝒱 (EH := EH) (P := P m) κ d 0)
  isplitr; · iexact Hctx
  isplitl [Hst]; · iexact Hst
  isplitl [Hs]; · iexact Hs
  iintro ⟨Hst, Hdn⟩
  iapply Hk
  isplitl [Hst]; · iexact Hst
  iapply (dn0 m d)
  isplitl [Hdn]; · iexact Hdn
  iexact Hfr

theorem call1 (κ : GSem nD τ sig → ℕ) (d : Dev nD) {β : Type} (k : PUnit → Prog (TpuEff nD τ sig (Elt F) (SparseCore.Sig (ΛP (F := F)) 3) .tc) β) (Φ : β → sProp 𝕄) :
    iprop((K (F := F)).ctx EH (P m) κ ∗ (K (F := F)).tcSt EH d 1 ∗ held (T d) Sall (V5 m d)
        ∗ (iprop((K (F := F)).tcSt EH d 2 ∗ held (T d) Sall (V6 m d)) -∗
            wp frame (wpE ((K (F := F)).defs (D (F := F))) 𝒱 (T d) none) Set.univ (k ⟨⟩) Φ))
      ⊢ wp frame (wpE ((K (F := F)).defs (D (F := F))) 𝒱 (T d) none) Set.univ (sc.run d 1 >>= k) Φ := by
  rw [wp_bind]
  iintro ⟨#Hctx, Hst, Hheld, Hk⟩
  ihave H := (st1 m d) $$ Hheld
  icases H with ⟨Hs, Hfr⟩
  iapply ((K (F := F)).wp_run (D (F := F)) 𝒱 (EH := EH) (P := P m) κ d 1)
  isplitr; · iexact Hctx
  isplitl [Hst]; · iexact Hst
  isplitl [Hs]; · iexact Hs
  iintro ⟨Hst, Hdn⟩
  iapply Hk
  isplitl [Hst]; · iexact Hst
  iapply (dn1 m d)
  isplitl [Hdn]; · iexact Hdn
  iexact Hfr

theorem call2 (κ : GSem nD τ sig → ℕ) (d : Dev nD) {β : Type} (k : PUnit → Prog (TpuEff nD τ sig (Elt F) (SparseCore.Sig (ΛP (F := F)) 3) .tc) β) (Φ : β → sProp 𝕄) :
    iprop((K (F := F)).ctx EH (P m) κ ∗ (K (F := F)).tcSt EH d 2 ∗ held (T d) Sall (V9 m d)
        ∗ (iprop((K (F := F)).tcSt EH d 3 ∗ held (T d) Sall (V10 m d)) -∗
            wp frame (wpE ((K (F := F)).defs (D (F := F))) 𝒱 (T d) none) Set.univ (k ⟨⟩) Φ))
      ⊢ wp frame (wpE ((K (F := F)).defs (D (F := F))) 𝒱 (T d) none) Set.univ (sc.run d 2 >>= k) Φ := by
  rw [wp_bind]
  iintro ⟨#Hctx, Hst, Hheld, Hk⟩
  ihave H := (st2 m d) $$ Hheld
  icases H with ⟨Hs, Hfr⟩
  iapply ((K (F := F)).wp_run (D (F := F)) 𝒱 (EH := EH) (P := P m) κ d 2)
  isplitr; · iexact Hctx
  isplitl [Hst]; · iexact Hst
  isplitl [Hs]; · iexact Hs
  iintro ⟨Hst, Hdn⟩
  iapply Hk
  isplitl [Hst]; · iexact Hst
  iapply (dn2 m d)
  isplitl [Hdn]; · iexact Hdn
  iexact Hfr

/-! ## The host program on the TensorCore -/

/-- What the host program leaves the claim: every array of its values at the end of the chain. -/
abbrev FIN (d : Dev nD) : sProp 𝕄 := held (T d) Sall (V12 m d)

set_option maxHeartbeats 4000000 in
set_option backward.isDefEq.respectTransparency.types false in
/-- The host program on device d's TensorCore: each straight line from the arrays held at one link of the chain to the next,
    each SparseCore call from its operands dealt to the tiles to its result, each region by its rule. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m d) := by
  unfold SparseCore.Cfg.tcRes
  rw [unscoped_held, main_eq]
  iintro ⟨#Hctx, Hst, ⟨Hb, Hheld, -, -⟩, HG0, HG1, HG2⟩
  iapply (wp_seq 𝒱 none Set.univ d Sall _ ops0 ops0_sub ops0_fresh (V0 m d)) $$ [Hb Hheld]
  · isplitl [Hb]; · iexact Hb
    iexact Hheld
  iintro ⟨Hb, Hheld⟩
  iapply (call0 m κ d _ _)
  isplitr; · iexact Hctx
  isplitl [Hst]; · iexact Hst
  isplitl [Hheld]; · iexact Hheld
  iintro ⟨Hst, Hheld⟩
  iapply (wp_seq 𝒱 none Set.univ d Sall _ ops1 ops1_sub ops1_fresh (V2 m d)) $$ [Hb Hheld]
  · isplitl [Hb]; · iexact Hb
    iexact Hheld
  iintro ⟨Hb, Hheld⟩
  iapply (region_0 (P := P m) κ d 1 (V3 m d) _ _)
  isplitr; · iexact Hctx
  isplitl [Hst]; · iexact Hst
  isplitl [Hb]; · iexact Hb
  isplitl [Hheld]; · iexact Hheld
  isplitl [HG0]; · iexact HG0
  iintro ⟨Hst, Hb, Hheld⟩
  iapply (wp_seq 𝒱 none Set.univ d Sall _ ops2 ops2_sub ops2_fresh (V4 m d)) $$ [Hb Hheld]
  · isplitl [Hb]; · iexact Hb
    iexact Hheld
  iintro ⟨Hb, Hheld⟩
  iapply (call1 m κ d _ _)
  isplitr; · iexact Hctx
  isplitl [Hst]; · iexact Hst
  isplitl [Hheld]; · iexact Hheld
  iintro ⟨Hst, Hheld⟩
  iapply (wp_seq 𝒱 none Set.univ d Sall _ ops3 ops3_sub ops3_fresh (V6 m d)) $$ [Hb Hheld]
  · isplitl [Hb]; · iexact Hb
    iexact Hheld
  iintro ⟨Hb, Hheld⟩
  iapply (region_1 (P := P m) κ d 2 (V7 m d) _ _)
  isplitr; · iexact Hctx
  isplitl [Hst]; · iexact Hst
  isplitl [Hb]; · iexact Hb
  isplitl [Hheld]; · iexact Hheld
  isplitl [HG1]; · iexact HG1
  iintro ⟨Hst, Hb, Hheld⟩
  iapply (wp_seq 𝒱 none Set.univ d Sall _ ops4 ops4_sub ops4_fresh (V8 m d)) $$ [Hb Hheld]
  · isplitl [Hb]; · iexact Hb
    iexact Hheld
  iintro ⟨Hb, Hheld⟩
  iapply (call2 m κ d _ _)
  isplitr; · iexact Hctx
  isplitl [Hst]; · iexact Hst
  isplitl [Hheld]; · iexact Hheld
  iintro ⟨Hst, Hheld⟩
  iapply (wp_seq 𝒱 none Set.univ d Sall _ ops5 ops5_sub ops5_fresh (V10 m d)) $$ [Hb Hheld]
  · isplitl [Hb]; · iexact Hb
    iexact Hheld
  iintro ⟨Hb, Hheld⟩
  iapply (region_2 (P := P m) κ d 3 (V11 m d) _ _)
  isplitr; · iexact Hctx
  isplitl [Hst]; · iexact Hst
  isplitl [Hb]; · iexact Hb
  isplitl [Hheld]; · iexact Hheld
  isplitl [HG2]; · iexact HG2
  iintro ⟨Hst, Hb, Hheld⟩
  rw [wp_pure]; imodintro
  isplitl [Hst]; · iexact Hst
  iexact Hheld

/-! ## The final memory reads the chain's end -/

abbrev fq (d : Dev nD) (s' : Phys nD τ sig (Elt F)) : Prop := ∀ b ∈ (Sall : Finset (DevRef τ sig)), s'.mem.mem ((SparseCore.T d : Thread nD τ).1, b) = V12 m d b

theorem hfin (d : Dev nD) (s' : Phys nD τ sig (Elt F)) : iprop(FIN m d ∗ SI s') ⊢ (⌜fq m d s'⌝ : sProp 𝕄) :=
  held_agree_all (SparseCore.T d) Sall (V12 m d) s'

/-! ## The program's run -/

/-- The run's post: on every device the result array holds the chain's value and the nine arguments are as launched. -/
def QC : PUnit × MemSt nD τ sig (Elt F) → Prop := fun r => ∀ c : Dev nD,
  r.2.mem ((c.tc : Thread nD τ).loc main_v49) = kOut m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

theorem hQ (s' : Phys nD τ sig (Elt F)) (h : ∀ d, fq m d s') : QC m (⟨⟩, s'.mem) := fun c =>
  ⟨h c (rf main_v49) (mem_Sall rfl),
    (h c (rf main_arg0) (mem_Sall rfl)).trans (V12_arg0_keep m c), (h c (rf main_arg1) (mem_Sall rfl)).trans (V12_arg1_keep m c),
    (h c (rf main_arg2) (mem_Sall rfl)).trans (V12_arg2_keep m c), (h c (rf main_arg3) (mem_Sall rfl)).trans (V12_arg3_keep m c),
    (h c (rf main_arg4) (mem_Sall rfl)).trans (V12_arg4_keep m c), (h c (rf main_arg5) (mem_Sall rfl)).trans (V12_arg5_keep m c),
    (h c (rf main_arg6) (mem_Sall rfl)).trans (V12_arg6_keep m c), (h c (rf main_arg7) (mem_Sall rfl)).trans (V12_arg7_keep m c),
    (h c (rf main_arg8) (mem_Sall rfl)).trans (V12_arg8_keep m c)⟩

/-- Every weakly fair execution of the program's threads from a memory with zero counters terminates, faults nowhere,
    and ends with the result at the chain's value and the arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq | 2 => nomatch hq)
    (fun q _ => match q with | 0 => tileObl0 m facts hpre | 1 => tileObl1 m facts hpre | 2 => tileObl2 m facts hpre)
    (fun q _ => SparseCore.Cfg.VecSplit.of_plain (vecSplit m q))
    m ρ main (fun d => G (F := F) d) (FIN m) (u₀ (F := F)) (sep_elim_left.trans (hu₀ m)) (hmain m ρ) (fq m) (hfin m) (QC m) (hQ m)

end Cert.Kernel.Hand

end
-- ==== Proof.K.PreOK.lean ====
/-
  The certificate's precondition decoded, at any float instance: every edge endpoint is a node (below 10000), every
  graph number is below 64, every float input entry passes the test |v| < +inf; and what the kernels' index checks ask of
  the padded edge lists follows: every padded destination of the degree kernel is below 10240 and every padded endpoint
  of the edge kernel is at most 10000.
-/
import proofs.«219763_g10557029614292_week1_w2_488_21_alg».proof.Proof.K.Glue
import proofs.«219763_g10557029614292_week1_w2_488_21_alg».proof.Proof.Gen.Pre_input_domain
import Idealize.ShloMosaic.Lib.ReduceAll
import Idealize.ShloMosaic.Lib.StableHlo.Predicate

noncomputable section

namespace Cert.Kernel.Hand

open Cert.Kernel Cert.Kernel.Gen
open Idealize.ShloMosaic Idealize.ShloMosaic.ValueIdx

variable {F : FTy → Type} [FloatOps F]

/-- The test the precondition makes of one float entry: |v| < +inf, as the host computes it. -/
def FinAt (v : F .f32) : Prop :=
  FloatOps.cmpf .olt (FloatOps.hostAbsf v) (FloatOps.ofBits .f32 0x7F800000#32 : F .f32) = 1#1

/-- The precondition over the nine inputs: the printed predicate is all ones. -/
def PreHolds (x : Vec F S10000x128 .f32) (ei : IVec S2x320000 32) (batch : IVec S10000 32) (W1 : Vec F S128x64 .f32)
    (b1 : Vec F S64 .f32) (W2 : Vec F S64x64 .f32) (b2 : Vec F S64 .f32) (W3 : Vec F S64x1 .f32) (b3 : Vec F S1 .f32) : Prop :=
  Cert.Pre_input_domain.fn (F := F) x ei batch W1 b1 W2 b2 W3 b3 = fun _ => 1#1

/-- What the precondition says, entry by entry. -/
structure PreFacts (x : Vec F S10000x128 .f32) (ei : IVec S2x320000 32) (batch : IVec S10000 32) (W1 : Vec F S128x64 .f32)
    (b1 : Vec F S64 .f32) (W2 : Vec F S64x64 .f32) (b2 : Vec F S64 .f32) (W3 : Vec F S64x1 .f32) (b3 : Vec F S1 .f32) : Prop where
  x_fin : ∀ j, FinAt (x j)
  W1_fin : ∀ j, FinAt (W1 j)
  b1_fin : ∀ j, FinAt (b1 j)
  W2_fin : ∀ j, FinAt (W2 j)
  b2_fin : ∀ j, FinAt (b2 j)
  W3_fin : ∀ j, FinAt (W3 j)
  b3_fin : ∀ j, FinAt (b3 j)
  ei_lt : ∀ j, (ei j).toNat < 10000
  batch_lt : ∀ j, (batch j).toNat < 64

instance subsingleton_S_Idx : Subsingleton S_.Idx := ⟨fun a b => funext fun d => d.elim0⟩

/-- A word that is at least 0 and at most n as a signed word, n below 2³¹, has unsigned value at most n. -/
theorem toNat_le_of_signed_range (v : BitVec 32) (n : Nat) (hn : n < 2 ^ 31)
    (h : IntOp.andi (IntOp.cmpi .sge v 0#32) (IntOp.cmpi .sle v (BitVec.ofNat 32 n)) = 1#1) : v.toNat ≤ n := by
  obtain ⟨h0, h1⟩ := IntOp.andi_eq_one.1 h
  have h0' := IntOp.cmpi_sge.1 h0
  have h1' := IntOp.cmpi_sle.1 h1
  rw [StableHlo.Predicate.toInt_ofNat_small n hn] at h1'
  have hz : (0#32 : BitVec 32).toInt = 0 := by decide
  rw [hz] at h0'
  have hv := v.isLt
  by_cases hc : 2 * v.toNat < 2 ^ 32
  · rw [BitVec.toInt_eq_toNat_cond, if_pos hc] at h1'
    omega
  · rw [BitVec.toInt_eq_toNat_cond, if_neg hc] at h0'
    omega

theorem preFacts_of_pre {x : Vec F S10000x128 .f32} {ei : IVec S2x320000 32} {batch : IVec S10000 32} {W1 : Vec F S128x64 .f32}
    {b1 : Vec F S64 .f32} {W2 : Vec F S64x64 .f32} {b2 : Vec F S64 .f32} {W3 : Vec F S64x1 .f32} {b3 : Vec F S1 .f32}
    (h : PreHolds x ei batch W1 b1 W2 b2 W3 b3) : PreFacts x ei batch W1 b1 W2 b2 W3 b3 := by
  have e := congrFun h ValueIdx.ix0
  dsimp only [Cert.Pre_input_domain.fn, Cert.Pre_input_domain.fn_part1, Cert.Pre_input_domain.fn_part2, andi] at e
  obtain ⟨e, hbatch⟩ := IntOp.andi_eq_one.1 e
  obtain ⟨e, hei⟩ := IntOp.andi_eq_one.1 e
  obtain ⟨e, hb3⟩ := IntOp.andi_eq_one.1 e
  obtain ⟨e, hW3⟩ := IntOp.andi_eq_one.1 e
  obtain ⟨e, hb2⟩ := IntOp.andi_eq_one.1 e
  obtain ⟨e, hW2⟩ := IntOp.andi_eq_one.1 e
  obtain ⟨e, hb1⟩ := IntOp.andi_eq_one.1 e
  obtain ⟨hx, hW1⟩ := IntOp.andi_eq_one.1 e
  refine ⟨fun j => Host.reduce_andi_all _ _ _ _ _ hx j, fun j => Host.reduce_andi_all _ _ _ _ _ hW1 j,
    fun j => Host.reduce_andi_all _ _ _ _ _ hb1 j, fun j => Host.reduce_andi_all _ _ _ _ _ hW2 j,
    fun j => Host.reduce_andi_all _ _ _ _ _ hb2 j, fun j => Host.reduce_andi_all _ _ _ _ _ hW3 j,
    fun j => Host.reduce_andi_all _ _ _ _ _ hb3 j, fun j => ?_, fun j => ?_⟩
  · have := toNat_le_of_signed_range (ei j) 9999 (by norm_num) (Host.reduce_andi_all _ _ _ _ _ hei j)
    omega
  · have := toNat_le_of_signed_range (batch j) 63 (by norm_num) (Host.reduce_andi_all _ _ _ _ _ hbatch j)
    omega

/-- Endpoints below 10000 make the degree kernel's padded destinations pass its check. -/
theorem degPre_gDst2 {ei : IVec S2x320000 32} (h : ∀ j, (ei j).toNat < 10000) : DegPre (gDst2 ei) := by
  intro j
  obtain ⟨w, p, rfl⟩ : ∃ w p, j = ix2 w p := ⟨j 0, j 1, eq_ix2 j⟩
  rw [gDst2_apply]
  split
  · have := h (ix2 (1 : Fin 2) ⟨10000 * w.val + p.val, by have := w.isLt; omega⟩)
    omega
  · show (10000#32 : BitVec 32).toNat < 10240
    decide

/-- Endpoints below 10000 keep every word of a padded half at most 10000. -/
theorem edgePre_gHalves {r : IVec S320000 32} (h : ∀ j, (r j).toNat < 10000) : EdgePre (gHalves r) := by
  intro j
  obtain ⟨a, z, p, rfl⟩ : ∃ a z p, j = ix3 a z p := ⟨j 0, j 1, j 2, eq_ix3 j⟩
  obtain rfl : z = (0 : Fin 1) := Subsingleton.elim _ _
  rw [gHalves_apply]
  split
  · have := h (ix1 ⟨160000 * a.val + p.val, by have := a.isLt; omega⟩)
    omega
  · show (10000#32 : BitVec 32).toNat ≤ 10000
    decide

/-- … and the edge kernel's padded sources … -/
theorem edgePre_gSrcp {ei : IVec S2x320000 32} (h : ∀ j, (ei j).toNat < 10000) : EdgePre (gSrcp ei) :=
  edgePre_gHalves fun j => by
    obtain ⟨p, rfl⟩ : ∃ p, j = ix1 p := ⟨j 0, eq_ix1 j⟩
    rw [gRow0_apply]; exact h _
/-- … and destinations pass its checks. -/
theorem edgePre_gDstp {ei : IVec S2x320000 32} (h : ∀ j, (ei j).toNat < 10000) : EdgePre (gDstp ei) :=
  edgePre_gHalves fun j => by
    obtain ⟨p, rfl⟩ : ∃ p, j = ix1 p := ⟨j 0, eq_ix1 j⟩
    rw [gRow1_apply]; exact h _

end Cert.Kernel.Hand

end
-- ==== Proof.K.PreChain.lean ====
/-
  From the certificate's precondition to what the kernels' index checks need: under the precondition every edge
  endpoint is a node, so the padded destination list the degree kernel reads names histogram slots only and the padded
  edge lists both edge kernels read hold node numbers or the padding word 10000, at the values the program's host
  operations give those buffers from the edge list at launch.
-/
import proofs.«219763_g10557029614292_week1_w2_488_21_alg».proof.Proof.K.ChainValue
import proofs.«219763_g10557029614292_week1_w2_488_21_alg».proof.Proof.K.PreDef
import proofs.«219763_g10557029614292_week1_w2_488_21_alg».proof.Proof.K.PreOK

noncomputable section

namespace Cert.Kernel.Hand

open Cert.Kernel Cert.Kernel.Gen
open Idealize.ShloMosaic Idealize.ShloMosaic.StableHlo Idealize.SL.Sem

variable {F : FTy → Type} [FloatOps F]

/-- An argument's contents at launch are the launch memory at the TensorCore's location of its buffer. -/
theorem V0_arg (m : (ℓ : Loc nD τ sig) → Buf (Elt F) ℓ) (d : Dev nD) (r : Ref sig .tc) :
    V0 m d (rf r) = m ((d.tc : Thread nD τ).loc r) := rfl

/-- The precondition, stated of the launch memory on every device, gives what the three SparseCore calls' index
    checks need. -/
theorem preOK_of_pre (m : (ℓ : Loc nD τ sig) → Buf (Elt F) ℓ)
    (h : ∀ c : Dev nD,
      (Cert.Pre_input_domain.fn (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))) = (fun _ => 1#1)) : PreOK m := by
  intro d
  have hf := preFacts_of_pre (F := F) (h d)
  have hei : ∀ j, (aEi m d j).toNat < 10000 := hf.ei_lt
  refine ⟨?_, ?_, ?_, ?_, ?_⟩
  · rw [V1_v11]; exact degPre_gDst2 hei
  · rw [V5_v6]; exact edgePre_gSrcp hei
  · rw [V5_v9]; exact edgePre_gDstp hei
  · rw [V9_v6]; exact edgePre_gSrcp hei
  · rw [V9_v9]; exact edgePre_gDstp hei

end Cert.Kernel.Hand

end
-- ==== Proof.lean ====
/-
  The proof of the certificate's claim, assembled.

  The kernel program is a two-layer graph convolution with sum pooling whose sparse parts run on the SparseCores:
  a degree histogram and, per layer, a scatter-add of gathered feature rows over the edge list, each vector subcore
  folding its share of the edges into a local accumulator, with the dense parts (the feature products, the symmetric
  normalisation by the inverse square roots of the degrees, the bias, the rectifier, the pooling by a one-hot product
  and the read-out) in three TensorCore kernels between them. One run theorem, stated at any float instance, says
  that every weakly fair execution of the device's threads ends, faults nowhere, leaves the nine arguments unchanged
  and leaves the result buffer at a pure term of the arguments: the chain of the host operations' terms, the
  SparseCore calls' folds and the TensorCore bodies' payloads. Both kernel frames are that run with the value
  dropped. At the exact instance the term is the specification (histograms are counts, folds of the indexed
  store-with-add are sums over the edges arriving at a node, padding contributes nothing to kept columns, and the
  kernel's (sum over neighbours + own row) scaled twice by the inverse square root of the degree is the reference's
  sum of rows scaled by the product of the two inverse square roots: distributivity over a finite sum of reals,
  which is where the finiteness of the inputs is used), and the reference's run term is the specification too:
  the two programs end with equal results.
-/
import proofs.«219763_g10557029614292_week1_w2_488_21_alg».proof.Defs
import proofs.«219763_g10557029614292_week1_w2_488_21_alg».proof.Proof.Gen.Kernel
import proofs.«219763_g10557029614292_week1_w2_488_21_alg».proof.Proof.Gen.KernelIdeal
import proofs.«219763_g10557029614292_week1_w2_488_21_alg».proof.Proof.Gen.ReferenceIdeal
import proofs.«219763_g10557029614292_week1_w2_488_21_alg».proof.Proof.Gen.Pre_input_domain
import proofs.«219763_g10557029614292_week1_w2_488_21_alg».proof.Proof.RefFrame
import proofs.«219763_g10557029614292_week1_w2_488_21_alg».proof.Proof.RefValue
import proofs.«219763_g10557029614292_week1_w2_488_21_alg».proof.Proof.Join
import proofs.«219763_g10557029614292_week1_w2_488_21_alg».proof.Proof.KI.Launch
import proofs.«219763_g10557029614292_week1_w2_488_21_alg».proof.Proof.K.Launch
import proofs.«219763_g10557029614292_week1_w2_488_21_alg».proof.Proof.K.PreChain

noncomputable section

namespace Cert.Proof

open Idealize.ShloMosaic Idealize.SL.Sem

/-- The word-level kernel program runs to the end and keeps its arguments: the run with its value dropped. -/
theorem frame_k : Cert.frame_Kernel := fun m ρ hpre =>
  (θ_run Cert.Kernel.defs _ _).mono (fun _ h c => (h c).2)
    (Cert.Kernel.Hand.run_main (F := Bits) m ρ (Cert.Kernel.Hand.preOK_of_pre m hpre))

/-- The same of the idealized kernel program. -/
theorem frame_ki : Cert.frame_KernelIdeal := fun m ρ hpre =>
  (θ_run Cert.KernelIdeal.defs _ _).mono (fun _ h c => (h c).2)
    (Cert.KernelIdeal.Hand.run_main (F := Ideal) m ρ (Cert.KernelIdeal.Hand.preOK_of_pre m hpre))

/-- From memories agreeing on the arguments both idealized programs end with the specification of those arguments
    in their result buffers. -/
theorem algebraic : Cert.algebraic_KernelIdeal_ReferenceIdeal := by
  intro m ρ m' ρ' hpre hagree
  refine ⟨fun c => Cert.KernelIdeal.Hand.kOut (F := Ideal) m c,
    Cert.KernelIdeal.Hand.run_main (F := Ideal) m ρ (Cert.KernelIdeal.Hand.preOK_of_pre m hpre), ?_⟩
  refine (θ_run Cert.ReferenceIdeal.defs _ _).mono (fun _ h c => ⟨(h c).1.trans ?_, (h c).2⟩)
    (Cert.ReferenceIdeal.ValueP.run (F := Ideal) m' ρ')
  beta_reduce
  have hf := Cert.KernelIdeal.Hand.preFacts_of_pre (F := Ideal) (hpre c)
  obtain ⟨h0, h1, h2, h3, h4, h5, h6, h7, h8⟩ := hagree c
  rw [Cert.Proof.Join.kOut_is_spec m c hpre, ← h0, ← h1, ← h2, ← h3, ← h4, ← h5, ← h6, ← h7, ← h8]
  exact Cert.RefSpec.ref_is_spec m' c (by rw [h1]; exact hf.ei_lt) (by rw [h2]; exact hf.batch_lt)

theorem claim : Cert.Claim :=
  ⟨Cert.Kernel.Gen.facts, Cert.KernelIdeal.Gen.facts, Cert.ReferenceIdeal.Gen.facts, Cert.Pre_input_domain.Gen.facts,
    frame_k, frame_ki, Cert.Proof.RefFrame.frame_ri, trivial, algebraic⟩

end Cert.Proof

end
